-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S16x128 : Shape := ⟨2, ![16, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S16x128 : S_.BroadcastsInDim S16x128 (![] : Fin 0 → Fin S16x128.rank)
  reducesTo_S16x128_S_d0_1 : S16x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_v47 : IVec S_ 1) (main_v49 : IVec S2x800000 1) (main_c_19 : IVec S_ 1) : IVec S_ 1 :=
  let main_v50 : IVec S_ 1 := (fun x v => Host.reduce IntOp.andi x v reducesTo_S2x800000_S_d0_1 h_S_) main_v49 main_c_19
  let main_v51 : IVec S_ 1 := andi main_v47 main_v50
  main_v51

def fn_part2 {F : FTy → Type} [FloatOps F] (main_arg1 : IVec S2x800000 32) (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S2x800000 32 := broadcastInDim S2x800000 ![] bcast_S_S2x800000 main_c_16
  let main_v45 : IVec S2x800000 1 := cmpi .sge main_arg1 main_v44
  let main_c_17 : IVec S_ 1 := constantI S_ 1 1#1
  let main_v46 : IVec S_ 1 := (fun x v => Host.reduce IntOp.andi x v reducesTo_S2x800000_S_d0_1 h_S_) main_v45 main_c_17
  let main_v47 : IVec S_ 1 := andi main_v43 main_v46
  let main_c_18 : IVec S_ 32 := constantI S_ 32 50000#32
  let main_v48 : IVec S2x800000 32 := broadcastInDim S2x800000 ![] bcast_S_S2x800000 main_c_18
  let main_v49 : IVec S2x800000 1 := cmpi .slt main_arg1 main_v48
  let main_c_19 : IVec S_ 1 := constantI S_ 1 1#1
  fn_part3 (F := F) main_v47 main_v49 main_c_19

def fn_part1 {F : FTy → Type} [FloatOps F] (main_arg1 : IVec S2x800000 32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x800000 32) (main_arg2 : FVec F S800000x16 .f32) (main_arg3 : FVec F S16x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S16x128 : Shape := ⟨2, ![16, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S802816 : Shape := ⟨1, ![802816]⟩
abbrev S802816x16 : Shape := ⟨2, ![802816, 16]⟩
abbrev S51200x128 : Shape := ⟨2, ![51200, 128]⟩
abbrev S802816x128 : Shape := ⟨2, ![802816, 128]⟩
abbrev S4096x16 : Shape := ⟨2, ![4096, 16]⟩
abbrev S4096x128 : Shape := ⟨2, ![4096, 128]⟩
abbrev S2048x128 : Shape := ⟨2, ![2048, 128]⟩
abbrev S1x128 : Shape := ⟨2, ![1, 128]⟩
abbrev S4096 : Shape := ⟨1, ![4096]⟩
abbrev S1x2048 : Shape := ⟨2, ![1, 2048]⟩
abbrev S4096x1 : Shape := ⟨2, ![4096, 1]⟩
abbrev S4096x2048 : Shape := ⟨2, ![4096, 2048]⟩
abbrev S2048x1 : Shape := ⟨2, ![2048, 1]⟩
abbrev S1x4096 : Shape := ⟨2, ![1, 4096]⟩
abbrev S2048x4096 : Shape := ⟨2, ![2048, 4096]⟩

abbrev nBuf : Space → Nat
  | .hbm => 75
  | .vmem => 83
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S16x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S_, .i32⟩
  | .hbm, ⟨50, _⟩ => ⟨S_, .i32⟩
  | .hbm, ⟨51, _⟩ => ⟨S802816, .i32⟩
  | .hbm, ⟨52, _⟩ => ⟨S_, .i32⟩
  | .hbm, ⟨53, _⟩ => ⟨S_, .i32⟩
  | .hbm, ⟨54, _⟩ => ⟨S802816, .i32⟩
  | .hbm, ⟨55, _⟩ => ⟨S_, .i32⟩
  | .hbm, ⟨56, _⟩ => ⟨S_, .f32⟩
  | .hbm, ⟨57, _⟩ => ⟨S802816, .f32⟩
  | .hbm, ⟨58, _⟩ => ⟨S_, .i32⟩
  | .hbm, ⟨59, _⟩ => ⟨S_, .f32⟩
  | .hbm, ⟨60, _⟩ => ⟨S802816x16, .f32⟩
  | .hbm, ⟨61, _⟩ => ⟨S_, .i32⟩
  | .hbm, ⟨62, _⟩ => ⟨S_, .f32⟩
  | .hbm, ⟨63, _⟩ => ⟨S51200x128, .f32⟩
  | .hbm, ⟨64, _⟩ => ⟨S802816x128, .f32⟩
  | .hbm, ⟨65, _⟩ => ⟨S51200x128, .f32⟩
  | .hbm, ⟨66, _⟩ => ⟨S802816x128, .bf16⟩
  | .hbm, ⟨67, _⟩ => ⟨S51200x128, .f32⟩
  | .hbm, ⟨68, _⟩ => ⟨S51200x128, .f32⟩
  | .hbm, ⟨69, _⟩ => ⟨S802816x128, .bf16⟩
  | .hbm, ⟨70, _⟩ => ⟨S51200x128, .f32⟩
  | .hbm, ⟨71, _⟩ => ⟨S51200x128, .f32⟩
  | .hbm, ⟨72, _⟩ => ⟨S802816x128, .bf16⟩
  | .hbm, ⟨73, _⟩ => ⟨S51200x128, .f32⟩
  | .hbm, ⟨74, _⟩ => ⟨S50000x128, .f32⟩
  | .local _ .vmem, ⟨0, _⟩ => ⟨S4096x16, .f32⟩
  | .local _ .vmem, ⟨1, _⟩ => ⟨S4096x16, .f32⟩
  | .local _ .vmem, ⟨2, _⟩ => ⟨S16x128, .f32⟩
  | .local _ .vmem, ⟨3, _⟩ => ⟨S4096x128, .f32⟩
  | .local _ .vmem, ⟨4, _⟩ => ⟨S4096x128, .f32⟩
  | .local _ .vmem, ⟨5, _⟩ => ⟨S2048x128, .f32⟩
  | .local _ .vmem, ⟨6, _⟩ => ⟨S2048x128, .f32⟩
  | .local _ .vmem, ⟨7, _⟩ => ⟨S128x128, .f32⟩
  | .local _ .vmem, ⟨8, _⟩ => ⟨S128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S4096, .i32⟩
  | .local _ .vmem, ⟨14, _⟩ => ⟨S4096, .i32⟩
  | .local _ .vmem, ⟨15, _⟩ => ⟨S4096, .f32⟩
  | .local _ .vmem, ⟨16, _⟩ => ⟨S4096, .f32⟩
  | .local _ .vmem, ⟨17, _⟩ => ⟨S4096x128, .f32⟩
  | .local _ .vmem, ⟨18, _⟩ => ⟨S4096x128, .f32⟩
  | .local _ .vmem, ⟨19, _⟩ => ⟨S4096x128, .bf16⟩
  | .local _ .vmem, ⟨20, _⟩ => ⟨S4096x128, .bf16⟩
  | .local _ .vmem, ⟨21, _⟩ => ⟨S4096x128, .f32⟩
  | .local _ .vmem, ⟨22, _⟩ => ⟨S4096x128, .bf16⟩
  | .local _ .vmem, ⟨23, _⟩ => ⟨S4096x128, .bf16⟩
  | .local _ .vmem, ⟨24, _⟩ => ⟨S4096, .i32⟩
  | .local _ .vmem, ⟨25, _⟩ => ⟨S4096, .i32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S128x128, .f32⟩
  | .local _ .vmem, ⟨34, _⟩ => ⟨S128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S4096, .i32⟩
  | .local _ .vmem, ⟨40, _⟩ => ⟨S4096, .i32⟩
  | .local _ .vmem, ⟨41, _⟩ => ⟨S4096, .f32⟩
  | .local _ .vmem, ⟨42, _⟩ => ⟨S4096, .f32⟩
  | .local _ .vmem, ⟨43, _⟩ => ⟨S4096x128, .f32⟩
  | .local _ .vmem, ⟨44, _⟩ => ⟨S4096x128, .f32⟩
  | .local _ .vmem, ⟨45, _⟩ => ⟨S4096x128, .bf16⟩
  | .local _ .vmem, ⟨46, _⟩ => ⟨S4096x128, .bf16⟩
  | .local _ .vmem, ⟨47, _⟩ => ⟨S4096x128, .f32⟩
  | .local _ .vmem, ⟨48, _⟩ => ⟨S4096x128, .bf16⟩
  | .local _ .vmem, ⟨49, _⟩ => ⟨S4096x128, .bf16⟩
  | .local _ .vmem, ⟨50, _⟩ => ⟨S4096, .i32⟩
  | .local _ .vmem, ⟨51, _⟩ => ⟨S4096, .i32⟩
  | .local _ .vmem, ⟨52, _⟩ => ⟨S2048x128, .f32⟩
  | .local _ .vmem, ⟨53, _⟩ => ⟨S2048x128, .f32⟩
  | .local _ .vmem, ⟨54, _⟩ => ⟨S2048x128, .f32⟩
  | .local _ .vmem, ⟨55, _⟩ => ⟨S2048x128, .f32⟩
  | .local _ .vmem, ⟨56, _⟩ => ⟨S2048x128, .f32⟩
  | .local _ .vmem, ⟨57, _⟩ => ⟨S2048x128, .f32⟩
  | .local _ .vmem, ⟨58, _⟩ => ⟨S2048x128, .f32⟩
  | .local _ .vmem, ⟨59, _⟩ => ⟨S128x128, .f32⟩
  | .local _ .vmem, ⟨60, _⟩ => ⟨S128, .f32⟩
  | .local _ .vmem, ⟨61, _⟩ => ⟨S2048x128, .f32⟩
  | .local _ .vmem, ⟨62, _⟩ => ⟨S2048x128, .f32⟩
  | .local _ .vmem, ⟨63, _⟩ => ⟨S2048x128, .f32⟩
  | .local _ .vmem, ⟨64, _⟩ => ⟨S2048x128, .f32⟩
  | .local _ .vmem, ⟨65, _⟩ => ⟨S4096, .i32⟩
  | .local _ .vmem, ⟨66, _⟩ => ⟨S4096, .i32⟩
  | .local _ .vmem, ⟨67, _⟩ => ⟨S4096, .f32⟩
  | .local _ .vmem, ⟨68, _⟩ => ⟨S4096, .f32⟩
  | .local _ .vmem, ⟨69, _⟩ => ⟨S4096x128, .f32⟩
  | .local _ .vmem, ⟨70, _⟩ => ⟨S4096x128, .f32⟩
  | .local _ .vmem, ⟨71, _⟩ => ⟨S4096x128, .bf16⟩
  | .local _ .vmem, ⟨72, _⟩ => ⟨S4096x128, .bf16⟩
  | .local _ .vmem, ⟨73, _⟩ => ⟨S4096x128, .f32⟩
  | .local _ .vmem, ⟨74, _⟩ => ⟨S4096x128, .bf16⟩
  | .local _ .vmem, ⟨75, _⟩ => ⟨S4096x128, .bf16⟩
  | .local _ .vmem, ⟨76, _⟩ => ⟨S4096, .i32⟩
  | .local _ .vmem, ⟨77, _⟩ => ⟨S4096, .i32⟩
  | .local _ .vmem, ⟨78, _⟩ => ⟨S2048x128, .f32⟩
  | .local _ .vmem, ⟨79, _⟩ => ⟨S2048x128, .f32⟩
  | .local _ .vmem, ⟨80, _⟩ => ⟨S2048x128, .f32⟩
  | .local _ .vmem, ⟨81, _⟩ => ⟨S2048x128, .f32⟩
  | .local _ .vmem, ⟨82, _⟩ => ⟨S2048x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_call1_v0 : Ref sig .tc := ⟨.hbm, 50, rfl⟩
abbrev main_v28 : Ref sig .tc := ⟨.hbm, 51, rfl⟩
abbrev main_c_8 : Ref sig .tc := ⟨.hbm, 52, rfl⟩
abbrev main_call2_v0 : Ref sig .tc := ⟨.hbm, 53, rfl⟩
abbrev main_v29 : Ref sig .tc := ⟨.hbm, 54, rfl⟩
abbrev main_c_9 : Ref sig .tc := ⟨.hbm, 55, rfl⟩
abbrev main_call3_v0 : Ref sig .tc := ⟨.hbm, 56, rfl⟩
abbrev main_v30 : Ref sig .tc := ⟨.hbm, 57, rfl⟩
abbrev main_c_10 : Ref sig .tc := ⟨.hbm, 58, rfl⟩
abbrev main_call4_v0 : Ref sig .tc := ⟨.hbm, 59, rfl⟩
abbrev main_v31 : Ref sig .tc := ⟨.hbm, 60, rfl⟩
abbrev main_c_11 : Ref sig .tc := ⟨.hbm, 61, rfl⟩
abbrev main_call5_v0 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_scratch0 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc5_stg4_0 : Ref sig .tc := ⟨.vmem, 45, rfl⟩
abbrev cc5_stg4_1 : Ref sig .tc := ⟨.vmem, 46, rfl⟩
abbrev cc5_scratch0 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc6_stg3_0 : Ref sig .tc := ⟨.vmem, 54, rfl⟩
abbrev cc6_stg3_1 : Ref sig .tc := ⟨.vmem, 55, rfl⟩
abbrev cc6_scratch0 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg3_1 : Ref sig .tc := ⟨.vmem, 62, rfl⟩
abbrev cc8_stg0_0 : Ref sig .tc := ⟨.vmem, 63, rfl⟩
abbrev cc8_stg0_1 : Ref sig .tc := ⟨.vmem, 64, rfl⟩
abbrev cc8_stg1_0 : Ref sig .tc := ⟨.vmem, 65, rfl⟩
abbrev cc8_stg1_1 : Ref sig .tc := ⟨.vmem, 66, rfl⟩
abbrev cc8_stg2_0 : Ref sig .tc := ⟨.vmem, 67, rfl⟩
abbrev cc8_stg2_1 : Ref sig .tc := ⟨.vmem, 68, rfl⟩
abbrev cc8_stg3_0 : Ref sig .tc := ⟨.vmem, 69, rfl⟩
abbrev cc8_stg3_1 : Ref sig .tc := ⟨.vmem, 70, rfl⟩
abbrev cc8_stg4_0 : Ref sig .tc := ⟨.vmem, 71, rfl⟩
abbrev cc8_stg4_1 : Ref sig .tc := ⟨.vmem, 72, rfl⟩
abbrev cc8_scratch0 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg1_1 : Ref sig .tc := ⟨.vmem, 77, rfl⟩
abbrev cc9_stg2_0 : Ref sig .tc := ⟨.vmem, 78, rfl⟩
abbrev cc9_stg2_1 : Ref sig .tc := ⟨.vmem, 79, rfl⟩
abbrev cc9_stg3_0 : Ref sig .tc := ⟨.vmem, 80, rfl⟩
abbrev cc9_stg3_1 : Ref sig .tc := ⟨.vmem, 81, rfl⟩
abbrev cc9_scratch0 : Ref sig .tc := ⟨.vmem, 82, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem3_1 : DmaSem sig := 42
abbrev cc5_sem4_0 : DmaSem sig := 43
abbrev cc5_sem4_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem3_1 : DmaSem sig := 52
abbrev cc7_sem0_0 : DmaSem sig := 53
abbrev cc7_sem0_1 : DmaSem sig := 54
abbrev cc7_sem1_0 : DmaSem sig := 55
abbrev cc7_sem2_0 : DmaSem sig := 56
abbrev cc7_sem3_0 : DmaSem sig := 57
abbrev cc7_sem3_1 : DmaSem sig := 58
abbrev cc8_sem0_0 : DmaSem sig := 59
abbrev cc8_sem0_1 : DmaSem sig := 60
abbrev cc8_sem1_0 : DmaSem sig := 61
abbrev cc8_sem1_1 : DmaSem sig := 62
abbrev cc8_sem2_0 : DmaSem sig := 63
abbrev cc8_sem2_1 : DmaSem sig := 64
abbrev cc8_sem3_0 : DmaSem sig := 65
abbrev cc8_sem3_1 : DmaSem sig := 66
abbrev cc8_sem4_0 : DmaSem sig := 67
abbrev cc8_sem4_1 : DmaSem sig := 68
abbrev cc9_sem0_0 : DmaSem sig := 69
abbrev cc9_sem0_1 : DmaSem sig := 70
abbrev cc9_sem1_0 : DmaSem sig := 71
abbrev cc9_sem1_1 : DmaSem sig := 72
abbrev cc9_sem2_0 : DmaSem sig := 73
abbrev cc9_sem2_1 : DmaSem sig := 74
abbrev cc9_sem3_0 : DmaSem sig := 75
abbrev cc9_sem3_1 : DmaSem sig := 76

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![196, 25], ![false, false]⟩

def k2_cond2 (i : grid2.Coords) : BitVec 1 :=
  let arg1 : BitVec 32 := BitVec.ofNat 32 (i 1).val
  let c24_i32 : BitVec 32 := 24#32
  let v25 : BitVec 1 := Scalar.cmpi .eq arg1 c24_i32
  let v26 : BitVec 32 := Scalar.extui v25
  let c0_i32_7 : BitVec 32 := 0#32
  let v27 : BitVec 1 := Scalar.cmpi .ne v26 c0_i32_7
  v27

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S4096x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![25, 196], ![false, false]⟩

def k3_cond2 (i : grid3.Coords) : BitVec 1 :=
  let arg1 : BitVec 32 := BitVec.ofNat 32 (i 1).val
  let c195_i32 : BitVec 32 := 195#32
  let v24 : BitVec 1 := Scalar.cmpi .eq arg1 c195_i32
  let v25 : BitVec 32 := Scalar.extui v24
  let c0_i32_7 : BitVec 32 := 0#32
  let v26 : BitVec 1 := Scalar.cmpi .ne v25 c0_i32_7
  v26

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S4096x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4096 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![196, 25], ![false, false]⟩

def k5_cond2 (i : grid5.Coords) : BitVec 1 :=
  let arg1 : BitVec 32 := BitVec.ofNat 32 (i 1).val
  let c24_i32 : BitVec 32 := 24#32
  let v25 : BitVec 1 := Scalar.cmpi .eq arg1 c24_i32
  let v26 : BitVec 32 := Scalar.extui v25
  let c0_i32_7 : BitVec 32 := 0#32
  let v27 : BitVec 1 := Scalar.cmpi .ne v26 c0_i32_7
  v27

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 1 → Nat :=
  let arg0 : BitVec 32 := BitVec.ofNat 32 (i 0).val
  let arg1 : BitVec 32 := BitVec.ofNat 32 (i 1).val
  let c0_i32 : BitVec 32 := 0#32
  ![arg0.toNat]

def cc5_transform_2 (i : grid5.Coords) : Fin 1 → Nat :=
  let arg0 : BitVec 32 := BitVec.ofNat 32 (i 0).val
  let arg1 : BitVec 32 := BitVec.ofNat 32 (i 1).val
  let c0_i32 : BitVec 32 := 0#32
  ![arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4096 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S4096x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S4096x128 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev grid6 : Pipeline.Grid := ⟨2, ![25, 196], ![false, false]⟩

def k6_cond2 (i : grid6.Coords) : BitVec 1 :=
  let arg1 : BitVec 32 := BitVec.ofNat 32 (i 1).val
  let c195_i32 : BitVec 32 := 195#32
  let v24 : BitVec 1 := Scalar.cmpi .eq arg1 c195_i32
  let v25 : BitVec 32 := Scalar.extui v24
  let c0_i32_7 : BitVec 32 := 0#32
  let v26 : BitVec 1 := Scalar.cmpi .ne v25 c0_i32_7
  v26

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 1 → Nat :=
  let arg0 : BitVec 32 := BitVec.ofNat 32 (i 0).val
  let arg1 : BitVec 32 := BitVec.ofNat 32 (i 1).val
  let c0_i32 : BitVec 32 := 0#32
  ![arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S4096x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S4096 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2048x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S2048x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2048x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2048x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨2, ![196, 25], ![false, false]⟩

def k8_cond2 (i : grid8.Coords) : BitVec 1 :=
  let arg1 : BitVec 32 := BitVec.ofNat 32 (i 1).val
  let c24_i32 : BitVec 32 := 24#32
  let v25 : BitVec 1 := Scalar.cmpi .eq arg1 c24_i32
  let v26 : BitVec 32 := Scalar.extui v25
  let c0_i32_7 : BitVec 32 := 0#32
  let v27 : BitVec 1 := Scalar.cmpi .ne v26 c0_i32_7
  v27

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_1 (i : grid8.Coords) : Fin 1 → Nat :=
  let arg0 : BitVec 32 := BitVec.ofNat 32 (i 0).val
  let arg1 : BitVec 32 := BitVec.ofNat 32 (i 1).val
  let c0_i32 : BitVec 32 := 0#32
  ![arg0.toNat]

def cc8_transform_2 (i : grid8.Coords) : Fin 1 → Nat :=
  let arg0 : BitVec 32 := BitVec.ofNat 32 (i 0).val
  let arg1 : BitVec 32 := BitVec.ofNat 32 (i 1).val
  let c0_i32 : BitVec 32 := 0#32
  ![arg0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S2048x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S4096 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev stage8_2 : Fin 2 → Memref sig .tc .vmem S4096 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 2 → Memref sig .tc .vmem S4096x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev stage8_4 : Fin 2 → Memref sig .tc .vmem S4096x128 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, false]

abbrev grid9 : Pipeline.Grid := ⟨2, ![25, 196], ![false, false]⟩

def k9_cond2 (i : grid9.Coords) : BitVec 1 :=
  let arg1 : BitVec 32 := BitVec.ofNat 32 (i 1).val
  let c195_i32 : BitVec 32 := 195#32
  let v24 : BitVec 1 := Scalar.cmpi .eq arg1 c195_i32
  let v25 : BitVec 32 := Scalar.extui v24
  let c0_i32_7 : BitVec 32 := 0#32
  let v26 : BitVec 1 := Scalar.cmpi .ne v25 c0_i32_7
  v26

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 1 → Nat :=
  let arg0 : BitVec 32 := BitVec.ofNat 32 (i 0).val
  let arg1 : BitVec 32 := BitVec.ofNat 32 (i 1).val
  let c0_i32 : BitVec 32 := 0#32
  ![arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S4096x128 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 2 → Memref sig .tc .vmem S4096 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S2048x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 2 → Memref sig .tc .vmem S2048x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  pads_S800000_S802816_028160 : S800000.Pads (![0] : Fin 1 → Nat) ![2816] ![0] S802816
  h_S_ : 0 < S_.numel
  pads_S800000x16_S802816x16_028160_000 : S800000x16.Pads (![0, 0] : Fin 2 → Nat) ![2816, 0] ![0, 0] S802816x16
  pads_S50000x128_S51200x128_012000_000 : S50000x128.Pads (![0, 0] : Fin 2 → Nat) ![1200, 0] ![0, 0] S51200x128
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S4096x128_S4096x128_0_0 : ∀ a, (![0, 0] : Fin 2 → Nat) a + S4096x128.size a ≤ S4096x128.size a
  h_S4096x128 : 0 < S4096x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  shapeCasts_S4096x128_S4096x128 : S4096x128.ShapeCasts S4096x128
  iota_S1x2048_d1_w32 : S1x2048.Iotas .tc 32 [1]
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  broadcasts_S4096x1_S4096x2048 : S4096x1.Broadcasts S4096x2048
  broadcasts_S1x2048_S4096x2048 : S1x2048.Broadcasts S4096x2048
  natLt_1_32 : 1 < 32
  broadcasts_S4096x1_S4096x128 : S4096x1.Broadcasts S4096x128
  packedbf16_S4096x128_S4096x128_0_0 : (Rect.unit (s := S4096x128) ![0, 0] S4096x128.size inb_S4096x128_S4096x128_0_0).PackedRows (EltTy.packing .bf16)
  iota_S2048x1_d0_w32 : S2048x1.Iotas .tc 32 [0]
  shapeCasts_S4096_S1x4096 : S4096.ShapeCasts S1x4096
  broadcasts_S2048x1_S2048x4096 : S2048x1.Broadcasts S2048x4096
  broadcasts_S1x4096_S2048x4096 : S1x4096.Broadcasts S2048x4096
  slices_S51200x128_S50000x128_0_0 : S51200x128.Slices ![0, 0] S50000x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S4096x16_S16x128_S4096x128_1_0_0_1_n_n_wf : DotDims.WF S4096x16 S16x128 S4096x128 [1] [0] [0] [1] [] []
  dot_S2048x128_S128x128_S2048x128_1_0_0_1_n_n_wf : DotDims.WF S2048x128 S128x128 S2048x128 [1] [0] [0] [1] [] []
  dot_S4096x2048_S2048x128_S4096x128_1_0_0_1_n_n_wf : DotDims.WF S4096x2048 S2048x128 S4096x128 [1] [0] [0] [1] [] []
  dot_S2048x4096_S4096x128_S2048x128_1_0_0_1_n_n_wf : DotDims.WF S2048x4096 S4096x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S802816x16.size a
  hwx0_0 : ∀ i : grid0.Coords, EltTy.bits .f32 = 32 ∨ (Rect.block (s := S802816x16) S4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S802816x128.size a
  hwx0_2 : ∀ i : grid0.Coords, EltTy.bits .f32 = 32 ∨ (Rect.block (s := S802816x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S51200x128.size a
  hwx1_0 : ∀ i : grid1.Coords, EltTy.bits .f32 = 32 ∨ (Rect.block (s := S51200x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S51200x128.size a
  hwx1_3 : ∀ i : grid1.Coords, EltTy.bits .f32 = 32 ∨ (Rect.block (s := S51200x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S51200x128.size a
  hwx2_0 : ∀ i : grid2.Coords, EltTy.bits .f32 = 32 ∨ (Rect.block (s := S51200x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096.size a ≤ S802816.size a
  hwx2_1 : ∀ i : grid2.Coords, EltTy.bits .i32 = 32 ∨ (Rect.block (s := S802816) S4096.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096.size a ≤ S802816.size a
  hwx2_2 : ∀ i : grid2.Coords, EltTy.bits .f32 = 32 ∨ (Rect.block (s := S802816) S4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S802816x128.size a
  hwx2_3 : ∀ i : grid2.Coords, EltTy.bits .f32 = 32 ∨ (Rect.block (s := S802816x128) S4096x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x128.size a ≤ S802816x128.size a
  hwx2_4 : ∀ i : grid2.Coords, EltTy.bits .bf16 = 32 ∨ (Rect.block (s := S802816x128) S4096x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S802816x128.size a
  hwx3_0 : ∀ i : grid3.Coords, EltTy.bits .bf16 = 32 ∨ (Rect.block (s := S802816x128) S4096x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096.size a ≤ S802816.size a
  hwx3_1 : ∀ i : grid3.Coords, EltTy.bits .i32 = 32 ∨ (Rect.block (s := S802816) S4096.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S51200x128.size a
  hwx3_2 : ∀ i : grid3.Coords, EltTy.bits .f32 = 32 ∨ (Rect.block (s := S51200x128) S2048x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S51200x128.size a
  hwx3_3 : ∀ i : grid3.Coords, EltTy.bits .f32 = 32 ∨ (Rect.block (s := S51200x128) S2048x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S51200x128.size a
  hwx4_0 : ∀ i : grid4.Coords, EltTy.bits .f32 = 32 ∨ (Rect.block (s := S51200x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x128.size a ≤ S51200x128.size a
  hwx4_3 : ∀ i : grid4.Coords, EltTy.bits .f32 = 32 ∨ (Rect.block (s := S51200x128) S2048x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S51200x128.size a
  hwx5_0 : ∀ i : grid5.Coords, EltTy.bits .f32 = 32 ∨ (Rect.block (s := S51200x128) S2048x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096.size a ≤ S802816.size a
  hwx5_1 : ∀ i : grid5.Coords, EltTy.bits .i32 = 32 ∨ (Rect.block (s := S802816) S4096.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096.size a ≤ S802816.size a
  hwx5_2 : ∀ i : grid5.Coords, EltTy.bits .f32 = 32 ∨ (Rect.block (s := S802816) S4096.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x128.size a ≤ S802816x128.size a
  hwx5_3 : ∀ i : grid5.Coords, EltTy.bits .f32 = 32 ∨ (Rect.block (s := S802816x128) S4096x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4096x128.size a ≤ S802816x128.size a
  hwx5_4 : ∀ i : grid5.Coords, EltTy.bits .bf16 = 32 ∨ (Rect.block (s := S802816x128) S4096x128.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x128.size a ≤ S802816x128.size a
  hwx6_0 : ∀ i : grid6.Coords, EltTy.bits .bf16 = 32 ∨ (Rect.block (s := S802816x128) S4096x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096.size a ≤ S802816.size a
  hwx6_1 : ∀ i : grid6.Coords, EltTy.bits .i32 = 32 ∨ (Rect.block (s := S802816) S4096.size (cc6_transform_1 i) (hinb6_1 i)).WholeWords (EltTy.packing .i32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x128.size a ≤ S51200x128.size a
  hwx6_2 : ∀ i : grid6.Coords, EltTy.bits .f32 = 32 ∨ (Rect.block (s := S51200x128) S2048x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x128.size a ≤ S51200x128.size a
  hwx6_3 : ∀ i : grid6.Coords, EltTy.bits .f32 = 32 ∨ (Rect.block (s := S51200x128) S2048x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x128.size a ≤ S51200x128.size a
  hwx7_0 : ∀ i : grid7.Coords, EltTy.bits .f32 = 32 ∨ (Rect.block (s := S51200x128) S2048x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x128.size a ≤ S51200x128.size a
  hwx7_3 : ∀ i : grid7.Coords, EltTy.bits .f32 = 32 ∨ (Rect.block (s := S51200x128) S2048x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x128.size a ≤ S51200x128.size a
  hwx8_0 : ∀ i : grid8.Coords, EltTy.bits .f32 = 32 ∨ (Rect.block (s := S51200x128) S2048x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096.size a ≤ S802816.size a
  hwx8_1 : ∀ i : grid8.Coords, EltTy.bits .i32 = 32 ∨ (Rect.block (s := S802816) S4096.size (cc8_transform_1 i) (hinb8_1 i)).WholeWords (EltTy.packing .i32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4096.size a ≤ S802816.size a
  hwx8_2 : ∀ i : grid8.Coords, EltTy.bits .f32 = 32 ∨ (Rect.block (s := S802816) S4096.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4096x128.size a ≤ S802816x128.size a
  hwx8_3 : ∀ i : grid8.Coords, EltTy.bits .f32 = 32 ∨ (Rect.block (s := S802816x128) S4096x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S4096x128.size a ≤ S802816x128.size a
  hwx8_4 : ∀ i : grid8.Coords, EltTy.bits .bf16 = 32 ∨ (Rect.block (s := S802816x128) S4096x128.size (cc8_transform_4 i) (hinb8_4 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x128.size a ≤ S802816x128.size a
  hwx9_0 : ∀ i : grid9.Coords, EltTy.bits .bf16 = 32 ∨ (Rect.block (s := S802816x128) S4096x128.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4096.size a ≤ S802816.size a
  hwx9_1 : ∀ i : grid9.Coords, EltTy.bits .i32 = 32 ∨ (Rect.block (s := S802816) S4096.size (cc9_transform_1 i) (hinb9_1 i)).WholeWords (EltTy.packing .i32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2048x128.size a ≤ S51200x128.size a
  hwx9_2 : ∀ i : grid9.Coords, EltTy.bits .f32 = 32 ∨ (Rect.block (s := S51200x128) S2048x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2048x128.size a ≤ S51200x128.size a
  hwx9_3 : ∀ i : grid9.Coords, EltTy.bits .f32 = 32 ∨ (Rect.block (s := S51200x128) S2048x128.size (cc9_transform_3 i) (hinb9_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S4096x2048_S2048x128_S4096x128_1_0_0_1_n_n : DotDims S4096x2048 S2048x128 S4096x128 where
  lhsContracting := [1]
  rhsContracting := [0]
  lhsNonContracting := [0]
  rhsNonContracting := [1]
  lhsBatch := []
  rhsBatch := []
  wf := dot_S4096x2048_S2048x128_S4096x128_1_0_0_1_n_n_wf
def dot_S2048x4096_S4096x128_S2048x128_1_0_0_1_n_n : DotDims S2048x4096 S4096x128 S2048x128 where
  lhsContracting := [1]
  rhsContracting := [0]
  lhsNonContracting := [0]
  rhsNonContracting := [1]
  lhsBatch := []
  rhsBatch := []
  wf := dot_S2048x4096_S4096x128_S2048x128_1_0_0_1_n_n_wf

abbrev win0_0 : Pipeline.Window sig grid0 :=
  Pipeline.Window.ofSpec (Memref.whole main_v31) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S4096x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35) S4096x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v35) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v36) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v37) S2048x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v37) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v28) S4096.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v30) S4096.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v33) S4096x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v38) S4096x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

abbrev win6_0 : Pipeline.Window sig grid6 :=
  Pipeline.Window.ofSpec (Memref.whole main_v38) S4096x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v29) S4096.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v37) S2048x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v39) S2048x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v39) S2048x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg8) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg9) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v40) S2048x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v40) S2048x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v28) S4096.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v30) S4096.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v33) S4096x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v41) S4096x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev idle8 : Fin 5 → grid8.Coords → Bool := fun | 0 => fun _ => false | 1 => fun _ => false | 2 => fun _ => false | 3 => fun _ => false | 4 => fun i => !(k8_cond2 i == 1#1) | ⟨_ + 5, h⟩ => absurd h (Nat.not_lt.2 (Nat.le_add_left _ _))

abbrev win9_0 : Pipeline.Window sig grid9 :=
  Pipeline.Window.ofSpec (Memref.whole main_v41) S4096x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v29) S4096.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v40) S2048x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v42) S2048x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S16x128 : Shape := ⟨2, ![16, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S800000x128 : Shape := ⟨2, ![800000, 128]⟩
abbrev S1x128 : Shape := ⟨2, ![1, 128]⟩
abbrev S_ : Shape := ⟨0, ![]⟩
abbrev S50000 : Shape := ⟨1, ![50000]⟩
abbrev S800000x1 : Shape := ⟨2, ![800000, 1]⟩

abbrev nBuf : Space → Nat
  | .hbm => 192
  | .vmem => 0
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S16x128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x800000, .i32⟩
  | 11 => ⟨S800000, .i32⟩
  | 12 => ⟨S1x800000, .i32⟩
  | 13 => ⟨S800000, .i32⟩
  | 14 => ⟨S800000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S800000x1, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x128, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S800000, .f32⟩
  | 81 => ⟨S_, .f32⟩
  | 82 => ⟨S50000, .f32⟩
  | 83 => ⟨S800000x1, .i32⟩
  | 84 => ⟨S50000, .f32⟩
  | 85 => ⟨S_, .f32⟩
  | 86 => ⟨S50000, .f32⟩
  | 87 => ⟨S50000, .i1⟩
  | 88 => ⟨S_, .f32⟩
  | 89 => ⟨S50000, .f32⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000, .f32⟩
  | 113 => ⟨S800000, .f32⟩
  | 114 => ⟨S800000x1, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S800000x128, .f32⟩
  | 125 => ⟨S800000x128, .f32⟩
  | 126 => ⟨S800000x128, .f32⟩
  | 127 => ⟨S_, .f32⟩
  | _ => ⟨S50000x128, .f32⟩

abbrev hbmTy0_1 (i : Nat) : BufTy := match i % 128 with
  | 0 => ⟨S50000x128, .f32⟩
  | 1 => ⟨S800000x1, .i32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .i1⟩
  | 20 => ⟨S_, .f32⟩
  | 21 => ⟨S50000, .f32⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S800000x1, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x128, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_cst : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_v61 : Ref sig .tc := ⟨.hbm, 94, rfl⟩
abbrev main_c_15 : Ref sig .tc := ⟨.hbm, 95, rfl⟩
abbrev main_v62 : Ref sig .tc := ⟨.hbm, 96, rfl⟩
abbrev main_v63 : Ref sig .tc := ⟨.hbm, 97, rfl⟩
abbrev main_c_16 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_17 : Ref sig .tc := ⟨.hbm, 104, rfl⟩
abbrev main_v69 : Ref sig .tc := ⟨.hbm, 105, rfl⟩
abbrev main_v70 : Ref sig .tc := ⟨.hbm, 106, rfl⟩
abbrev main_c_18 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_19 : Ref sig .tc := ⟨.hbm, 115, rfl⟩
abbrev main_v78 : Ref sig .tc := ⟨.hbm, 116, rfl⟩
abbrev main_v79 : Ref sig .tc := ⟨.hbm, 117, rfl⟩
abbrev main_c_20 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_21 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_call3_cst : Ref sig .tc := ⟨.hbm, 132, rfl⟩
abbrev main_call3_v0 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_22 : Ref sig .tc := ⟨.hbm, 139, rfl⟩
abbrev main_v97 : Ref sig .tc := ⟨.hbm, 140, rfl⟩
abbrev main_cst_23 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_24 : Ref sig .tc := ⟨.hbm, 145, rfl⟩
abbrev main_v101 : Ref sig .tc := ⟨.hbm, 146, rfl⟩
abbrev main_v102 : Ref sig .tc := ⟨.hbm, 147, rfl⟩
abbrev main_cst_25 : Ref sig .tc := ⟨.hbm, 148, rfl⟩
abbrev main_v103 : Ref sig .tc := ⟨.hbm, 149, rfl⟩
abbrev main_v104 : Ref sig .tc := ⟨.hbm, 150, rfl⟩
abbrev main_cst_26 : Ref sig .tc := ⟨.hbm, 151, rfl⟩
abbrev main_call4_v0 : Ref sig .tc := ⟨.hbm, 152, rfl⟩
abbrev main_call4_v1 : Ref sig .tc := ⟨.hbm, 153, rfl⟩
abbrev main_v105 : Ref sig .tc := ⟨.hbm, 154, rfl⟩
abbrev main_c_27 : Ref sig .tc := ⟨.hbm, 155, rfl⟩
abbrev main_v106 : Ref sig .tc := ⟨.hbm, 156, rfl⟩
abbrev main_v107 : Ref sig .tc := ⟨.hbm, 157, rfl⟩
abbrev main_c_28 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_c_29 : Ref sig .tc := ⟨.hbm, 164, rfl⟩
abbrev main_v113 : Ref sig .tc := ⟨.hbm, 165, rfl⟩
abbrev main_v114 : Ref sig .tc := ⟨.hbm, 166, rfl⟩
abbrev main_c_30 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_c_31 : Ref sig .tc := ⟨.hbm, 175, rfl⟩
abbrev main_v122 : Ref sig .tc := ⟨.hbm, 176, rfl⟩
abbrev main_v123 : Ref sig .tc := ⟨.hbm, 177, rfl⟩
abbrev main_c_32 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_33 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S800000x16_S16x128_S800000x128_1_0_0_1_n_n_wf : DotDims.WF S800000x16 S16x128 S800000x128 [1] [0] [0] [1] [] []
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KB.Reg0.Data.lean ====
/-
  Region 0 of the kernel's program: the edge-feature projection, one grid point per tile of 4096 edges. At a
  point the body reads its tile of the padded edge attributes (4096 × 16) and the whole embedding table
  (16 × 128) and stores their matrix product over the whole output tile (4096 × 128). This module DEFINES, at
  any entry contents `V` and any float instance, what each window's staging buffer holds after the body and the
  pipeline's proof data over it.
-/
import proofs.«177903_j22574348108073_1_alg».proof.Proof.Gen.Kernel.Launch
import proofs.«177903_j22574348108073_1_alg».proof.Proof.Gen.Kernel.Skeleton
import proofs.«177903_j22574348108073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge-attribute tile is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The embedding table is in its staging buffer at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output tile after the body: the product of the two loaded blocks. -/
def out0_2 (x0 : Vec F S4096x16 .f32) (x1 : Vec F S16x128 .f32) : Vec F S4096x128 .f32 :=
  k0_pay1 x0 x1

/-- The proof data of pipeline 0 on core `c`: the arrays at the entry contents; after the body each input's
    buffer at its block and the output's at `out0_2` of the input blocks; the scoped buffers and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.Kernel.Hand

end
-- ==== Proof.KB.Reg1.Data.lean ====
/-
  Region 1 of the kernel's program: the linear projection of the node features, one grid point per tile of 2048
  nodes. At a point the body reads its tile of the padded node features (2048 × 128), the whole weight matrix
  (128 × 128) and the bias (128), and stores product + bias over the whole output tile (2048 × 128). This module
  DEFINES, at any entry contents `V` and any float instance, what each window's staging buffer holds after the
  body and the pipeline's proof data over it.
-/
import proofs.«177903_j22574348108073_1_alg».proof.Proof.Gen.Kernel.Launch
import proofs.«177903_j22574348108073_1_alg».proof.Proof.Gen.Kernel.Skeleton
import proofs.«177903_j22574348108073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The node-feature tile is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix is in its staging buffer at every point: fetched once, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias is in its staging buffer at every point: fetched once, its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output tile after the body: the product of the two loaded blocks plus the bias along the rows. -/
def out1_3 (x0 : Vec F S2048x128 .f32) (x1 : Vec F S128x128 .f32) (x2 : Vec F S128 .f32) : Vec F S2048x128 .f32 :=
  k1_pay1 x0 x1 x2

/-- The proof data of pipeline 1 on core `c`: the arrays at the entry contents; after the body each input's
    buffer at its block and the output's at `out1_3` of the input blocks; the scoped buffers and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.KB.Reg2.Data.lean ====
/-
  Region 2 of the kernel's program: the gather of node features along the edges' source nodes, written as a
  blocked one-hot product. The grid is 196 edge tiles (of 4096 edges) by 25 node tiles (of 2048 nodes), the node
  tile the fast axis. At point (i, j) the body adds, into a scratch accumulator of shape 4096 × 128, the product
  of the one-hot matrix [source of edge e = node 2048·j + n] with node tile j of the projected features; the
  accumulator is zeroed at j = 0, and at j = 24 the body stores normalisation × (accumulator + edge embedding)
  as the output tile. This module only DEFINES, at any entry contents `V` and any float instance, what the
  accumulator and the output tile hold after each point, the invariant carrying the accumulator between points,
  and the pipeline's proof data over them.
-/
import proofs.«177903_j22574348108073_1_alg».proof.Proof.Gen.Kernel.Launch
import proofs.«177903_j22574348108073_1_alg».proof.Proof.Gen.Kernel.Skeleton
import proofs.«177903_j22574348108073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The node tile of the projected features is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The edge tile's source nodes are in their staging buffer at every point (fetched when the edge tile changes). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The edge tile's normalisation factors are in their staging buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The edge tile's embeddings are in their staging buffer at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The scratch accumulator as a whole memref. -/
abbrev scM2 : Memref sig .tc .vmem S4096x128 .f32 := Memref.whole cc2_scratch0

/-- THE ACCUMULATOR after the body at position `n`: the one-hot product of this point's node tile added to what
    the point before left, or to zeros where a new edge tile begins (every 25th point). -/
def acc2 (c : Dev nD) : (n : ℕ) → n < cfg2.N → Vec F S4096x128 .f32
  | 0, hn => k2_pay2 (grid2.coords ⟨0, hn⟩) (iblk2 V c 1 ⟨0, hn⟩) (iblk2 V c 0 ⟨0, hn⟩) (k2_pay1 (F := F))
  | n + 1, hn => k2_pay2 (grid2.coords ⟨n + 1, hn⟩) (iblk2 V c 1 ⟨n + 1, hn⟩) (iblk2 V c 0 ⟨n + 1, hn⟩)
      (if (n + 1) % 25 = 0 then k2_pay1 (F := F) else acc2 c n (Nat.lt_of_succ_lt hn))

/-- The output tile the body stores at the last node tile of an edge tile: normalisation × (accumulator + embedding).
    (At the other points the window is idle and this value is never consulted.) -/
def msg2 (c : Dev nD) (t : Fin cfg2.N) : Vec F S4096x128 .bf16 :=
  k2_pay3 (iblk2 V c 2 t) (acc2 V c t.val t.isLt) (iblk2 V c 3 t)

/-- The region's invariant before position `n`: before the first point every scoped buffer at anything; afterwards
    the accumulator at what the point before left, the other scoped buffers at anything, the generator register
    at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => msg2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = msg2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

end Cert.Kernel.Hand

end
-- ==== Proof.KB.Reg3.Data.lean ====
/-
  Region 3 of the kernel's program: the scatter of the edge messages onto their target nodes plus the residual,
  written as a blocked one-hot product. The grid is 25 node tiles (of 2048 nodes) by 196 edge tiles (of 4096
  edges), the edge tile the fast axis. At point (n, e) the body adds, into a scratch accumulator of shape
  2048 × 128, the product of the one-hot matrix [node 2048·n + r = target of edge] with edge tile e of the
  messages; the accumulator is zeroed at e = 0, and at e = 195 the body stores accumulator + node tile of the
  projected features as the output tile — under the rectifier max(·, 0) in the layers that have one: the last
  store's payload, the skeleton's third, says which. This module only DEFINES, at any entry contents `V` and any float
  instance, what the accumulator and the output tile hold after each point, the invariant carrying the
  accumulator between points, and the pipeline's proof data over them.
-/
import proofs.«177903_j22574348108073_1_alg».proof.Proof.Gen.Kernel.Launch
import proofs.«177903_j22574348108073_1_alg».proof.Proof.Gen.Kernel.Skeleton
import proofs.«177903_j22574348108073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The edge tile of the messages is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The edge tile's target nodes are in their staging buffer at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The node tile of the projected features is in its staging buffer at every point (fetched when the node tile changes). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The scratch accumulator as a whole memref. -/
abbrev scM3 : Memref sig .tc .vmem S2048x128 .f32 := Memref.whole cc3_scratch0

/-- THE ACCUMULATOR after the body at position `n`: the one-hot product of this point's edge tile added to what
    the point before left, or to zeros where a new node tile begins (every 196th point). -/
def acc3 (c : Dev nD) : (n : ℕ) → n < cfg3.N → Vec F S2048x128 .f32
  | 0, hn => k3_pay2 (grid3.coords ⟨0, hn⟩) (iblk3 V c 1 ⟨0, hn⟩) (iblk3 V c 0 ⟨0, hn⟩) (k3_pay1 (F := F))
  | n + 1, hn => k3_pay2 (grid3.coords ⟨n + 1, hn⟩) (iblk3 V c 1 ⟨n + 1, hn⟩) (iblk3 V c 0 ⟨n + 1, hn⟩)
      (if (n + 1) % 196 = 0 then k3_pay1 (F := F) else acc3 c n (Nat.lt_of_succ_lt hn))

/-- The output tile the body stores at the last edge tile of a node tile: the last store's payload of the
    accumulator and the residual (their sum, under the rectifier where the layer has one).
    (At the other points the window is idle and this value is never consulted.) -/
def res3 (c : Dev nD) (t : Fin cfg3.N) : Vec F S2048x128 .f32 :=
  k3_pay3 (acc3 V c t.val t.isLt) (iblk3 V c 2 t)

/-- The region's invariant before position `n`: before the first point every scoped buffer at anything; afterwards
    the accumulator at what the point before left, the other scoped buffers at anything, the generator register
    at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => res3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = res3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiS3_castSucc (c : Dev nD) (t : Fin cfg3.N) :
    (dat3 V c).Φ t.castSucc = PhiS3 V c t.val (Nat.le_of_lt t.isLt) := by
  dsimp only [dat3]; simp only [Fin.coe_castSucc]

end Cert.Kernel.Hand

end
-- ==== Proof.KB.Reg4.Data.lean ====
/-
  Region 4 of the kernel's program: the linear projection of the node features, one grid point per tile of 2048
  nodes. At a point the body reads its tile of the padded node features (2048 × 128), the whole weight matrix
  (128 × 128) and the bias (128), and stores product + bias over the whole output tile (2048 × 128). This module
  DEFINES, at any entry contents `V` and any float instance, what each window's staging buffer holds after the
  body and the pipeline's proof data over it.
-/
import proofs.«177903_j22574348108073_1_alg».proof.Proof.Gen.Kernel.Launch
import proofs.«177903_j22574348108073_1_alg».proof.Proof.Gen.Kernel.Skeleton
import proofs.«177903_j22574348108073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The node-feature tile is in its staging buffer at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix is in its staging buffer at every point: fetched once, its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The bias is in its staging buffer at every point: fetched once, its block index never moves. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The output tile after the body: the product of the two loaded blocks plus the bias along the rows. -/
def out4_3 (x0 : Vec F S2048x128 .f32) (x1 : Vec F S128x128 .f32) (x2 : Vec F S128 .f32) : Vec F S2048x128 .f32 :=
  k4_pay1 x0 x1 x2

/-- The proof data of pipeline 4 on core `c`: the arrays at the entry contents; after the body each input's
    buffer at its block and the output's at `out4_3` of the input blocks; the scoped buffers and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

end Cert.Kernel.Hand

end
-- ==== Proof.KB.Reg5.Data.lean ====
/-
  Region 5 of the kernel's program: the gather of node features along the edges' source nodes, written as a
  blocked one-hot product. The grid is 196 edge tiles (of 4096 edges) by 25 node tiles (of 2048 nodes), the node
  tile the fast axis. At point (i, j) the body adds, into a scratch accumulator of shape 4096 × 128, the product
  of the one-hot matrix [source of edge e = node 2048·j + n] with node tile j of the projected features; the
  accumulator is zeroed at j = 0, and at j = 24 the body stores normalisation × (accumulator + edge embedding)
  as the output tile. This module only DEFINES, at any entry contents `V` and any float instance, what the
  accumulator and the output tile hold after each point, the invariant carrying the accumulator between points,
  and the pipeline's proof data over them.
-/
import proofs.«177903_j22574348108073_1_alg».proof.Proof.Gen.Kernel.Launch
import proofs.«177903_j22574348108073_1_alg».proof.Proof.Gen.Kernel.Skeleton
import proofs.«177903_j22574348108073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The node tile of the projected features is in its staging buffer at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The edge tile's source nodes are in their staging buffer at every point (fetched when the edge tile changes). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The edge tile's normalisation factors are in their staging buffer at every point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The edge tile's embeddings are in their staging buffer at every point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The scratch accumulator as a whole memref. -/
abbrev scM5 : Memref sig .tc .vmem S4096x128 .f32 := Memref.whole cc5_scratch0

/-- THE ACCUMULATOR after the body at position `n`: the one-hot product of this point's node tile added to what
    the point before left, or to zeros where a new edge tile begins (every 25th point). -/
def acc5 (c : Dev nD) : (n : ℕ) → n < cfg5.N → Vec F S4096x128 .f32
  | 0, hn => k5_pay2 (grid5.coords ⟨0, hn⟩) (iblk5 V c 1 ⟨0, hn⟩) (iblk5 V c 0 ⟨0, hn⟩) (k5_pay1 (F := F))
  | n + 1, hn => k5_pay2 (grid5.coords ⟨n + 1, hn⟩) (iblk5 V c 1 ⟨n + 1, hn⟩) (iblk5 V c 0 ⟨n + 1, hn⟩)
      (if (n + 1) % 25 = 0 then k5_pay1 (F := F) else acc5 c n (Nat.lt_of_succ_lt hn))

/-- The output tile the body stores at the last node tile of an edge tile: normalisation × (accumulator + embedding).
    (At the other points the window is idle and this value is never consulted.) -/
def msg5 (c : Dev nD) (t : Fin cfg5.N) : Vec F S4096x128 .bf16 :=
  k5_pay3 (iblk5 V c 2 t) (acc5 V c t.val t.isLt) (iblk5 V c 3 t)

/-- The region's invariant before position `n`: before the first point every scoped buffer at anything; afterwards
    the accumulator at what the point before left, the other scoped buffers at anything, the generator register
    at some state. -/
def PhiS5 (c : Dev nD) : (n : ℕ) → n ≤ cfg5.N → sProp 𝕄
  | 0, _ => Pipeline.ΦA spec5 c
  | n + 1, hn => iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r))

/-- The proof data of pipeline 5 on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => msg5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = msg5 V c t := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare (acc5 V c (n - 1) (by omega))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

theorem PhiS5_castSucc (c : Dev nD) (t : Fin cfg5.N) :
    (dat5 V c).Φ t.castSucc = PhiS5 V c t.val (Nat.le_of_lt t.isLt) := by
  dsimp only [dat5]; simp only [Fin.coe_castSucc]

end Cert.Kernel.Hand

end
-- ==== Proof.KB.Reg6.Data.lean ====
/-
  Region 6 of the kernel's program: the scatter of the edge messages onto their target nodes plus the residual,
  written as a blocked one-hot product. The grid is 25 node tiles (of 2048 nodes) by 196 edge tiles (of 4096
  edges), the edge tile the fast axis. At point (n, e) the body adds, into a scratch accumulator of shape
  2048 × 128, the product of the one-hot matrix [node 2048·n + r = target of edge] with edge tile e of the
  messages; the accumulator is zeroed at e = 0, and at e = 195 the body stores accumulator + node tile of the
  projected features as the output tile — under the rectifier max(·, 0) in the layers that have one: the last
  store's payload, the skeleton's third, says which. This module only DEFINES, at any entry contents `V` and any float
  instance, what the accumulator and the output tile hold after each point, the invariant carrying the
  accumulator between points, and the pipeline's proof data over them.
-/
import proofs.«177903_j22574348108073_1_alg».proof.Proof.Gen.Kernel.Launch
import proofs.«177903_j22574348108073_1_alg».proof.Proof.Gen.Kernel.Skeleton
import proofs.«177903_j22574348108073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The edge tile of the messages is in its staging buffer at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The edge tile's target nodes are in their staging buffer at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The node tile of the projected features is in its staging buffer at every point (fetched when the node tile changes). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The scratch accumulator as a whole memref. -/
abbrev scM6 : Memref sig .tc .vmem S2048x128 .f32 := Memref.whole cc6_scratch0

/-- THE ACCUMULATOR after the body at position `n`: the one-hot product of this point's edge tile added to what
    the point before left, or to zeros where a new node tile begins (every 196th point). -/
def acc6 (c : Dev nD) : (n : ℕ) → n < cfg6.N → Vec F S2048x128 .f32
  | 0, hn => k6_pay2 (grid6.coords ⟨0, hn⟩) (iblk6 V c 1 ⟨0, hn⟩) (iblk6 V c 0 ⟨0, hn⟩) (k6_pay1 (F := F))
  | n + 1, hn => k6_pay2 (grid6.coords ⟨n + 1, hn⟩) (iblk6 V c 1 ⟨n + 1, hn⟩) (iblk6 V c 0 ⟨n + 1, hn⟩)
      (if (n + 1) % 196 = 0 then k6_pay1 (F := F) else acc6 c n (Nat.lt_of_succ_lt hn))

/-- The output tile the body stores at the last edge tile of a node tile: the last store's payload of the
    accumulator and the residual (their sum, under the rectifier where the layer has one).
    (At the other points the window is idle and this value is never consulted.) -/
def res6 (c : Dev nD) (t : Fin cfg6.N) : Vec F S2048x128 .f32 :=
  k6_pay3 (acc6 V c t.val t.isLt) (iblk6 V c 2 t)

/-- The region's invariant before position `n`: before the first point every scoped buffer at anything; afterwards
    the accumulator at what the point before left, the other scoped buffers at anything, the generator register
    at some state. -/
def PhiS6 (c : Dev nD) : (n : ℕ) → n ≤ cfg6.N → sProp 𝕄
  | 0, _ => Pipeline.ΦA spec6 c
  | n + 1, hn => iprop(iprop(owns (c : Thread nD τ) scM6 fullShare (acc6 V c n hn)
      ∗ Pipeline.scopedRestBut (Ix := Unit) (Name := ℕ) (U := UR sig nD τ) (Lvl := ℕ) (Val := Elt F) spec6 c [cc6_scratch0]) ∗ (∃ r, prngReg c r))

/-- The proof data of pipeline 6 on core `c`. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => res6 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = res6 V c t := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare (acc6 V c n hn)
      ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6 fullShare (acc6 V c (n - 1) (by omega))
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

theorem PhiS6_castSucc (c : Dev nD) (t : Fin cfg6.N) :
    (dat6 V c).Φ t.castSucc = PhiS6 V c t.val (Nat.le_of_lt t.isLt) := by
  dsimp only [dat6]; simp only [Fin.coe_castSucc]

end Cert.Kernel.Hand

end
-- ==== Proof.KB.Reg7.Data.lean ====
/-
  Region 7 of the kernel's program: the linear projection of the node features, one grid point per tile of 2048
  nodes. At a point the body reads its tile of the padded node features (2048 × 128), the whole weight matrix
  (128 × 128) and the bias (128), and stores product + bias over the whole output tile (2048 × 128). This module
  DEFINES, at any entry contents `V` and any float instance, what each window's staging buffer holds after the
  body and the pipeline's proof data over it.
-/
import proofs.«177903_j22574348108073_1_alg».proof.Proof.Gen.Kernel.Launch
import proofs.«177903_j22574348108073_1_alg».proof.Proof.Gen.Kernel.Skeleton
import proofs.«177903_j22574348108073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The node-feature tile is in its staging buffer at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The weight matrix is in its staging buffer at every point: fetched once, its block index never moves. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The bias is in its staging buffer at every point: fetched once, its block index never moves. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The output tile after the body: the product of the two loaded blocks plus the bias along the rows. -/
def out7_3 (x0 : Vec F S2048x128 .f32) (x1 : Vec F S128x128 .f32) (x2 : Vec F S128 .f32) : Vec F S2048x128 .f32 :=
  k7_pay1 x0 x1 x2

/-- The proof data of pipeline 7 on core `c`: the arrays at the entry contents; after the body each input's
    buffer at its block and the output's at `out7_3` of the input blocks; the scoped buffers and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

end Cert.Kernel.Hand

end
-- ==== Proof.KB.Reg8.Data.lean ====
/-
  Region 8 of the kernel's program: the gather of node features along the edges' source nodes, written as a
  blocked one-hot product. The grid is 196 edge tiles (of 4096 edges) by 25 node tiles (of 2048 nodes), the node
  tile the fast axis. At point (i, j) the body adds, into a scratch accumulator of shape 4096 × 128, the product
  of the one-hot matrix [source of edge e = node 2048·j + n] with node tile j of the projected features; the
  accumulator is zeroed at j = 0, and at j = 24 the body stores normalisation × (accumulator + edge embedding)
  as the output tile. This module only DEFINES, at any entry contents `V` and any float instance, what the
  accumulator and the output tile hold after each point, the invariant carrying the accumulator between points,
  and the pipeline's proof data over them.
-/
import proofs.«177903_j22574348108073_1_alg».proof.Proof.Gen.Kernel.Launch
import proofs.«177903_j22574348108073_1_alg».proof.Proof.Gen.Kernel.Skeleton
import proofs.«177903_j22574348108073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The node tile of the projected features is in its staging buffer at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The edge tile's source nodes are in their staging buffer at every point (fetched when the edge tile changes). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The edge tile's normalisation factors are in their staging buffer at every point. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The edge tile's embeddings are in their staging buffer at every point. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The scratch accumulator as a whole memref. -/
abbrev scM8 : Memref sig .tc .vmem S4096x128 .f32 := Memref.whole cc8_scratch0

/-- THE ACCUMULATOR after the body at position `n`: the one-hot product of this point's node tile added to what
    the point before left, or to zeros where a new edge tile begins (every 25th point). -/
def acc8 (c : Dev nD) : (n : ℕ) → n < cfg8.N → Vec F S4096x128 .f32
  | 0, hn => k8_pay2 (grid8.coords ⟨0, hn⟩) (iblk8 V c 1 ⟨0, hn⟩) (iblk8 V c 0 ⟨0, hn⟩) (k8_pay1 (F := F))
  | n + 1, hn => k8_pay2 (grid8.coords ⟨n + 1, hn⟩) (iblk8 V c 1 ⟨n + 1, hn⟩) (iblk8 V c 0 ⟨n + 1, hn⟩)
      (if (n + 1) % 25 = 0 then k8_pay1 (F := F) else acc8 c n (Nat.lt_of_succ_lt hn))

/-- The output tile the body stores at the last node tile of an edge tile: normalisation × (accumulator + embedding).
    (At the other points the window is idle and this value is never consulted.) -/
def msg8 (c : Dev nD) (t : Fin cfg8.N) : Vec F S4096x128 .bf16 :=
  k8_pay3 (iblk8 V c 2 t) (acc8 V c t.val t.isLt) (iblk8 V c 3 t)

/-- The region's invariant before position `n`: before the first point every scoped buffer at anything; afterwards
    the accumulator at what the point before left, the other scoped buffers at anything, the generator register
    at some state. -/
def PhiS8 (c : Dev nD) : (n : ℕ) → n ≤ cfg8.N → sProp 𝕄
  | 0, _ => Pipeline.ΦA spec8 c
  | n + 1, hn => iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r))

/-- The proof data of pipeline 8 on core `c`. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => msg8 V c t
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = msg8 V c t := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(owns (c : Thread nD τ) scM8 fullShare (acc8 V c (n - 1) (by omega))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

theorem PhiS8_castSucc (c : Dev nD) (t : Fin cfg8.N) :
    (dat8 V c).Φ t.castSucc = PhiS8 V c t.val (Nat.le_of_lt t.isLt) := by
  dsimp only [dat8]; simp only [Fin.coe_castSucc]

end Cert.Kernel.Hand

end
-- ==== Proof.KB.Reg9.Data.lean ====
/-
  Region 9 of the kernel's program: the scatter of the edge messages onto their target nodes plus the residual,
  written as a blocked one-hot product. The grid is 25 node tiles (of 2048 nodes) by 196 edge tiles (of 4096
  edges), the edge tile the fast axis. At point (n, e) the body adds, into a scratch accumulator of shape
  2048 × 128, the product of the one-hot matrix [node 2048·n + r = target of edge] with edge tile e of the
  messages; the accumulator is zeroed at e = 0, and at e = 195 the body stores accumulator + node tile of the
  projected features as the output tile — under the rectifier max(·, 0) in the layers that have one: the last
  store's payload, the skeleton's third, says which. This module only DEFINES, at any entry contents `V` and any float
  instance, what the accumulator and the output tile hold after each point, the invariant carrying the
  accumulator between points, and the pipeline's proof data over them.
-/
import proofs.«177903_j22574348108073_1_alg».proof.Proof.Gen.Kernel.Launch
import proofs.«177903_j22574348108073_1_alg».proof.Proof.Gen.Kernel.Skeleton
import proofs.«177903_j22574348108073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The edge tile of the messages is in its staging buffer at every point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The edge tile's target nodes are in their staging buffer at every point. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The node tile of the projected features is in its staging buffer at every point (fetched when the node tile changes). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The scratch accumulator as a whole memref. -/
abbrev scM9 : Memref sig .tc .vmem S2048x128 .f32 := Memref.whole cc9_scratch0

/-- THE ACCUMULATOR after the body at position `n`: the one-hot product of this point's edge tile added to what
    the point before left, or to zeros where a new node tile begins (every 196th point). -/
def acc9 (c : Dev nD) : (n : ℕ) → n < cfg9.N → Vec F S2048x128 .f32
  | 0, hn => k9_pay2 (grid9.coords ⟨0, hn⟩) (iblk9 V c 1 ⟨0, hn⟩) (iblk9 V c 0 ⟨0, hn⟩) (k9_pay1 (F := F))
  | n + 1, hn => k9_pay2 (grid9.coords ⟨n + 1, hn⟩) (iblk9 V c 1 ⟨n + 1, hn⟩) (iblk9 V c 0 ⟨n + 1, hn⟩)
      (if (n + 1) % 196 = 0 then k9_pay1 (F := F) else acc9 c n (Nat.lt_of_succ_lt hn))

/-- The output tile the body stores at the last edge tile of a node tile: the last store's payload of the
    accumulator and the residual (their sum, under the rectifier where the layer has one).
    (At the other points the window is idle and this value is never consulted.) -/
def res9 (c : Dev nD) (t : Fin cfg9.N) : Vec F S2048x128 .f32 :=
  k9_pay3 (acc9 V c t.val t.isLt) (iblk9 V c 2 t)

/-- The region's invariant before position `n`: before the first point every scoped buffer at anything; afterwards
    the accumulator at what the point before left, the other scoped buffers at anything, the generator register
    at some state. -/
def PhiS9 (c : Dev nD) : (n : ℕ) → n ≤ cfg9.N → sProp 𝕄
  | 0, _ => Pipeline.ΦA spec9 c
  | n + 1, hn => iprop(iprop(owns (c : Thread nD τ) scM9 fullShare (acc9 V c n hn)
      ∗ Pipeline.scopedRestBut (Ix := Unit) (Name := ℕ) (U := UR sig nD τ) (Lvl := ℕ) (Val := Elt F) spec9 c [cc9_scratch0]) ∗ (∃ r, prngReg c r))

/-- The proof data of pipeline 9 on core `c`. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => res9 V c t
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = res9 V c t := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9 fullShare (acc9 V c n hn)
      ∗ Pipeline.scopedRestBut (Ix := Unit) (Name := ℕ) (U := UR sig nD τ) (Lvl := ℕ) (Val := Elt F) spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9 fullShare (acc9 V c (n - 1) (by omega))
      ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

theorem PhiS9_castSucc (c : Dev nD) (t : Fin cfg9.N) :
    (dat9 V c).Φ t.castSucc = PhiS9 V c t.val (Nat.le_of_lt t.isLt) := by
  dsimp only [dat9]; simp only [Fin.coe_castSucc]

end Cert.Kernel.Hand

end
-- ==== Proof.KB.Chain.lean ====
/-
  The contents of the TensorCore's unscoped buffers at every boundary of the kernel program's ten pallas_calls:
  at the first region's entry what the host prefix leaves; at each region's exit its arrays at what the pipeline's
  write-backs leave (the inputs as entered, the output's blocks folded), every other buffer as entered; after
  the last region the final slice. With them the family of the ten pipelines' proof data, each at its region's
  entry contents, and the fact that no region changes a buffer other than its own output array.
-/
import proofs.«177903_j22574348108073_1_alg».proof.Proof.Gen.Kernel.Regions
import proofs.«177903_j22574348108073_1_alg».proof.Proof.KB.Reg0.Data
import proofs.«177903_j22574348108073_1_alg».proof.Proof.KB.Reg1.Data
import proofs.«177903_j22574348108073_1_alg».proof.Proof.KB.Reg2.Data
import proofs.«177903_j22574348108073_1_alg».proof.Proof.KB.Reg3.Data
import proofs.«177903_j22574348108073_1_alg».proof.Proof.KB.Reg4.Data
import proofs.«177903_j22574348108073_1_alg».proof.Proof.KB.Reg5.Data
import proofs.«177903_j22574348108073_1_alg».proof.Proof.KB.Reg6.Data
import proofs.«177903_j22574348108073_1_alg».proof.Proof.KB.Reg7.Data
import proofs.«177903_j22574348108073_1_alg».proof.Proof.KB.Reg8.Data
import proofs.«177903_j22574348108073_1_alg».proof.Proof.KB.Reg9.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at region 0's entry: what the twelve host stretches before it leave. -/
abbrev B0 (c : Dev nD) : Valuation τ sig (Elt F) := V12 m c
/-- The same read at the TensorCore's references. -/
abbrev Bv0 : (c : Dev nD) → (b : Ref sig .tc) → Buf (Elt F) ((c : Thread nD τ).loc b) := fun c b => B0 m c b

/-- At region 0's exit: its arrays at what the pipeline leaves, every other buffer as entered. -/
def B1 (c : Dev nD) : Valuation τ sig (Elt F) :=
  Pipeline.withArrays spec0 c (B0 m c) fun w => (dat0 (Bv0 m) c).arrAt w cfg0.N
theorem B1_arr (c : Dev nD) (w : Fin cfg0.W) :
    B1 m c (Proc.devRef .tc (Pipeline.arrRef spec0 w)) = (dat0 (Bv0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
/-- The same read at the TensorCore's references. -/
abbrev Bv1 : (c : Dev nD) → (b : Ref sig .tc) → Buf (Elt F) ((c : Thread nD τ).loc b) := fun c b => B1 m c b
theorem hF0 (c : Dev nD) (w : Fin cfg0.W) : (dat0 (Bv0 m) c).arrAt w cfg0.N = Bv1 m c (Pipeline.arrRef spec0 w) :=
  (B1_arr m c w).symm
theorem hrest0 (c : Dev nD) : ∀ b, b ∉ Finset.univ.image (Pipeline.arrRef spec0) → Bv1 m c b = Bv0 m c b :=
  fun b hb => B1_of_ne m c b fun w e => hb (Finset.mem_image.mpr ⟨w, Finset.mem_univ _, e⟩)
/-- Region 0 changes no buffer but its output array `main_v33`: an input array ends as entered. -/
theorem B1_keep (c : Dev nD) (b : Ref sig .tc) (hb : b ≠ main_v33) : B1 m c (Proc.devRef .tc b) = B0 m c (Proc.devRef .tc b) := by
  by_cases h : ∃ w, Pipeline.arrRef spec0 w = b
  · obtain ⟨w, rfl⟩ := h
    rw [B1_arr]
    have hw : w ≠ 2 := fun e => hb (by subst e; rfl)
    exact ((dat0 (Bv0 m) c).arrAt_in w (by revert hw; revert w; decide) _).trans (A_eq0 (Bv0 m) c w)
  · exact B1_of_ne m c b fun w e => h ⟨w, e⟩

/-- At region 1's exit: its arrays at what the pipeline leaves, every other buffer as entered. -/
def B2 (c : Dev nD) : Valuation τ sig (Elt F) :=
  Pipeline.withArrays spec1 c (B1 m c) fun w => (dat1 (Bv1 m) c).arrAt w cfg1.N
theorem B2_arr (c : Dev nD) (w : Fin cfg1.W) :
    B2 m c (Proc.devRef .tc (Pipeline.arrRef spec1 w)) = (dat1 (Bv1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
/-- The same read at the TensorCore's references. -/
abbrev Bv2 : (c : Dev nD) → (b : Ref sig .tc) → Buf (Elt F) ((c : Thread nD τ).loc b) := fun c b => B2 m c b
theorem hF1 (c : Dev nD) (w : Fin cfg1.W) : (dat1 (Bv1 m) c).arrAt w cfg1.N = Bv2 m c (Pipeline.arrRef spec1 w) :=
  (B2_arr m c w).symm
theorem hrest1 (c : Dev nD) : ∀ b, b ∉ Finset.univ.image (Pipeline.arrRef spec1) → Bv2 m c b = Bv1 m c b :=
  fun b hb => B2_of_ne m c b fun w e => hb (Finset.mem_image.mpr ⟨w, Finset.mem_univ _, e⟩)
/-- Region 1 changes no buffer but its output array `main_v34`: an input array ends as entered. -/
theorem B2_keep (c : Dev nD) (b : Ref sig .tc) (hb : b ≠ main_v34) : B2 m c (Proc.devRef .tc b) = B1 m c (Proc.devRef .tc b) := by
  by_cases h : ∃ w, Pipeline.arrRef spec1 w = b
  · obtain ⟨w, rfl⟩ := h
    rw [B2_arr]
    have hw : w ≠ 3 := fun e => hb (by subst e; rfl)
    exact ((dat1 (Bv1 m) c).arrAt_in w (by revert hw; revert w; decide) _).trans (A_eq1 (Bv1 m) c w)
  · exact B2_of_ne m c b fun w e => h ⟨w, e⟩

/-- At region 2's exit: its arrays at what the pipeline leaves, every other buffer as entered. -/
def B3 (c : Dev nD) : Valuation τ sig (Elt F) :=
  Pipeline.withArrays spec2 c (B2 m c) fun w => (dat2 (Bv2 m) c).arrAt w cfg2.N
theorem B3_arr (c : Dev nD) (w : Fin cfg2.W) :
    B3 m c (Proc.devRef .tc (Pipeline.arrRef spec2 w)) = (dat2 (Bv2 m) c).arrAt w cfg2.N := by
  unfold B3; exact Pipeline.withArrays_arr spec2 launch2.win.arr_inj c _ _ w
theorem B3_of_ne (c : Dev nD) (b : Ref sig .tc) (hb : ∀ w, Pipeline.arrRef spec2 w ≠ b) :
    B3 m c (Proc.devRef .tc b) = B2 m c (Proc.devRef .tc b) := by
  unfold B3; exact Pipeline.withArrays_of_ne spec2 c _ _ b hb
/-- The same read at the TensorCore's references. -/
abbrev Bv3 : (c : Dev nD) → (b : Ref sig .tc) → Buf (Elt F) ((c : Thread nD τ).loc b) := fun c b => B3 m c b
theorem hF2 (c : Dev nD) (w : Fin cfg2.W) : (dat2 (Bv2 m) c).arrAt w cfg2.N = Bv3 m c (Pipeline.arrRef spec2 w) :=
  (B3_arr m c w).symm
theorem hrest2 (c : Dev nD) : ∀ b, b ∉ Finset.univ.image (Pipeline.arrRef spec2) → Bv3 m c b = Bv2 m c b :=
  fun b hb => B3_of_ne m c b fun w e => hb (Finset.mem_image.mpr ⟨w, Finset.mem_univ _, e⟩)
/-- Region 2 changes no buffer but its output array `main_v35`: an input array ends as entered. -/
theorem B3_keep (c : Dev nD) (b : Ref sig .tc) (hb : b ≠ main_v35) : B3 m c (Proc.devRef .tc b) = B2 m c (Proc.devRef .tc b) := by
  by_cases h : ∃ w, Pipeline.arrRef spec2 w = b
  · obtain ⟨w, rfl⟩ := h
    rw [B3_arr]
    have hw : w ≠ 4 := fun e => hb (by subst e; rfl)
    exact ((dat2 (Bv2 m) c).arrAt_in w (by revert hw; revert w; decide) _).trans (A_eq2 (Bv2 m) c w)
  · exact B3_of_ne m c b fun w e => h ⟨w, e⟩

/-- At region 3's exit: its arrays at what the pipeline leaves, every other buffer as entered. -/
def B4 (c : Dev nD) : Valuation τ sig (Elt F) :=
  Pipeline.withArrays spec3 c (B3 m c) fun w => (dat3 (Bv3 m) c).arrAt w cfg3.N
theorem B4_arr (c : Dev nD) (w : Fin cfg3.W) :
    B4 m c (Proc.devRef .tc (Pipeline.arrRef spec3 w)) = (dat3 (Bv3 m) c).arrAt w cfg3.N := by
  unfold B4; exact Pipeline.withArrays_arr spec3 launch3.win.arr_inj c _ _ w
theorem B4_of_ne (c : Dev nD) (b : Ref sig .tc) (hb : ∀ w, Pipeline.arrRef spec3 w ≠ b) :
    B4 m c (Proc.devRef .tc b) = B3 m c (Proc.devRef .tc b) := by
  unfold B4; exact Pipeline.withArrays_of_ne spec3 c _ _ b hb
/-- The same read at the TensorCore's references. -/
abbrev Bv4 : (c : Dev nD) → (b : Ref sig .tc) → Buf (Elt F) ((c : Thread nD τ).loc b) := fun c b => B4 m c b
theorem hF3 (c : Dev nD) (w : Fin cfg3.W) : (dat3 (Bv3 m) c).arrAt w cfg3.N = Bv4 m c (Pipeline.arrRef spec3 w) :=
  (B4_arr m c w).symm
theorem hrest3 (c : Dev nD) : ∀ b, b ∉ Finset.univ.image (Pipeline.arrRef spec3) → Bv4 m c b = Bv3 m c b :=
  fun b hb => B4_of_ne m c b fun w e => hb (Finset.mem_image.mpr ⟨w, Finset.mem_univ _, e⟩)
/-- Region 3 changes no buffer but its output array `main_v36`: an input array ends as entered. -/
theorem B4_keep (c : Dev nD) (b : Ref sig .tc) (hb : b ≠ main_v36) : B4 m c (Proc.devRef .tc b) = B3 m c (Proc.devRef .tc b) := by
  by_cases h : ∃ w, Pipeline.arrRef spec3 w = b
  · obtain ⟨w, rfl⟩ := h
    rw [B4_arr]
    have hw : w ≠ 3 := fun e => hb (by subst e; rfl)
    exact ((dat3 (Bv3 m) c).arrAt_in w (by revert hw; revert w; decide) _).trans (A_eq3 (Bv3 m) c w)
  · exact B4_of_ne m c b fun w e => h ⟨w, e⟩

/-- At region 4's exit: its arrays at what the pipeline leaves, every other buffer as entered. -/
def B5 (c : Dev nD) : Valuation τ sig (Elt F) :=
  Pipeline.withArrays spec4 c (B4 m c) fun w => (dat4 (Bv4 m) c).arrAt w cfg4.N
theorem B5_arr (c : Dev nD) (w : Fin cfg4.W) :
    B5 m c (Proc.devRef .tc (Pipeline.arrRef spec4 w)) = (dat4 (Bv4 m) c).arrAt w cfg4.N := by
  unfold B5; exact Pipeline.withArrays_arr spec4 launch4.win.arr_inj c _ _ w
theorem B5_of_ne (c : Dev nD) (b : Ref sig .tc) (hb : ∀ w, Pipeline.arrRef spec4 w ≠ b) :
    B5 m c (Proc.devRef .tc b) = B4 m c (Proc.devRef .tc b) := by
  unfold B5; exact Pipeline.withArrays_of_ne spec4 c _ _ b hb
/-- The same read at the TensorCore's references. -/
abbrev Bv5 : (c : Dev nD) → (b : Ref sig .tc) → Buf (Elt F) ((c : Thread nD τ).loc b) := fun c b => B5 m c b
theorem hF4 (c : Dev nD) (w : Fin cfg4.W) : (dat4 (Bv4 m) c).arrAt w cfg4.N = Bv5 m c (Pipeline.arrRef spec4 w) :=
  (B5_arr m c w).symm
theorem hrest4 (c : Dev nD) : ∀ b, b ∉ Finset.univ.image (Pipeline.arrRef spec4) → Bv5 m c b = Bv4 m c b :=
  fun b hb => B5_of_ne m c b fun w e => hb (Finset.mem_image.mpr ⟨w, Finset.mem_univ _, e⟩)
/-- Region 4 changes no buffer but its output array `main_v37`: an input array ends as entered. -/
theorem B5_keep (c : Dev nD) (b : Ref sig .tc) (hb : b ≠ main_v37) : B5 m c (Proc.devRef .tc b) = B4 m c (Proc.devRef .tc b) := by
  by_cases h : ∃ w, Pipeline.arrRef spec4 w = b
  · obtain ⟨w, rfl⟩ := h
    rw [B5_arr]
    have hw : w ≠ 3 := fun e => hb (by subst e; rfl)
    exact ((dat4 (Bv4 m) c).arrAt_in w (by revert hw; revert w; decide) _).trans (A_eq4 (Bv4 m) c w)
  · exact B5_of_ne m c b fun w e => h ⟨w, e⟩

/-- At region 5's exit: its arrays at what the pipeline leaves, every other buffer as entered. -/
def B6 (c : Dev nD) : Valuation τ sig (Elt F) :=
  Pipeline.withArrays spec5 c (B5 m c) fun w => (dat5 (Bv5 m) c).arrAt w cfg5.N
theorem B6_arr (c : Dev nD) (w : Fin cfg5.W) :
    B6 m c (Proc.devRef .tc (Pipeline.arrRef spec5 w)) = (dat5 (Bv5 m) c).arrAt w cfg5.N := by
  unfold B6; exact Pipeline.withArrays_arr spec5 launch5.win.arr_inj c _ _ w
theorem B6_of_ne (c : Dev nD) (b : Ref sig .tc) (hb : ∀ w, Pipeline.arrRef spec5 w ≠ b) :
    B6 m c (Proc.devRef .tc b) = B5 m c (Proc.devRef .tc b) := by
  unfold B6; exact Pipeline.withArrays_of_ne spec5 c _ _ b hb
/-- The same read at the TensorCore's references. -/
abbrev Bv6 : (c : Dev nD) → (b : Ref sig .tc) → Buf (Elt F) ((c : Thread nD τ).loc b) := fun c b => B6 m c b
theorem hF5 (c : Dev nD) (w : Fin cfg5.W) : (dat5 (Bv5 m) c).arrAt w cfg5.N = Bv6 m c (Pipeline.arrRef spec5 w) :=
  (B6_arr m c w).symm
theorem hrest5 (c : Dev nD) : ∀ b, b ∉ Finset.univ.image (Pipeline.arrRef spec5) → Bv6 m c b = Bv5 m c b :=
  fun b hb => B6_of_ne m c b fun w e => hb (Finset.mem_image.mpr ⟨w, Finset.mem_univ _, e⟩)
/-- Region 5 changes no buffer but its output array `main_v38`: an input array ends as entered. -/
theorem B6_keep (c : Dev nD) (b : Ref sig .tc) (hb : b ≠ main_v38) : B6 m c (Proc.devRef .tc b) = B5 m c (Proc.devRef .tc b) := by
  by_cases h : ∃ w, Pipeline.arrRef spec5 w = b
  · obtain ⟨w, rfl⟩ := h
    rw [B6_arr]
    have hw : w ≠ 4 := fun e => hb (by subst e; rfl)
    exact ((dat5 (Bv5 m) c).arrAt_in w (by revert hw; revert w; decide) _).trans (A_eq5 (Bv5 m) c w)
  · exact B6_of_ne m c b fun w e => h ⟨w, e⟩

/-- At region 6's exit: its arrays at what the pipeline leaves, every other buffer as entered. -/
def B7 (c : Dev nD) : Valuation τ sig (Elt F) :=
  Pipeline.withArrays spec6 c (B6 m c) fun w => (dat6 (Bv6 m) c).arrAt w cfg6.N
theorem B7_arr (c : Dev nD) (w : Fin cfg6.W) :
    B7 m c (Proc.devRef .tc (Pipeline.arrRef spec6 w)) = (dat6 (Bv6 m) c).arrAt w cfg6.N := by
  unfold B7; exact Pipeline.withArrays_arr spec6 launch6.win.arr_inj c _ _ w
theorem B7_of_ne (c : Dev nD) (b : Ref sig .tc) (hb : ∀ w, Pipeline.arrRef spec6 w ≠ b) :
    B7 m c (Proc.devRef .tc b) = B6 m c (Proc.devRef .tc b) := by
  unfold B7; exact Pipeline.withArrays_of_ne spec6 c _ _ b hb
/-- The same read at the TensorCore's references. -/
abbrev Bv7 : (c : Dev nD) → (b : Ref sig .tc) → Buf (Elt F) ((c : Thread nD τ).loc b) := fun c b => B7 m c b
theorem hF6 (c : Dev nD) (w : Fin cfg6.W) : (dat6 (Bv6 m) c).arrAt w cfg6.N = Bv7 m c (Pipeline.arrRef spec6 w) :=
  (B7_arr m c w).symm
theorem hrest6 (c : Dev nD) : ∀ b, b ∉ Finset.univ.image (Pipeline.arrRef spec6) → Bv7 m c b = Bv6 m c b :=
  fun b hb => B7_of_ne m c b fun w e => hb (Finset.mem_image.mpr ⟨w, Finset.mem_univ _, e⟩)
/-- Region 6 changes no buffer but its output array `main_v39`: an input array ends as entered. -/
theorem B7_keep (c : Dev nD) (b : Ref sig .tc) (hb : b ≠ main_v39) : B7 m c (Proc.devRef .tc b) = B6 m c (Proc.devRef .tc b) := by
  by_cases h : ∃ w, Pipeline.arrRef spec6 w = b
  · obtain ⟨w, rfl⟩ := h
    rw [B7_arr]
    have hw : w ≠ 3 := fun e => hb (by subst e; rfl)
    exact ((dat6 (Bv6 m) c).arrAt_in w (by revert hw; revert w; decide) _).trans (A_eq6 (Bv6 m) c w)
  · exact B7_of_ne m c b fun w e => h ⟨w, e⟩

/-- At region 7's exit: its arrays at what the pipeline leaves, every other buffer as entered. -/
def B8 (c : Dev nD) : Valuation τ sig (Elt F) :=
  Pipeline.withArrays spec7 c (B7 m c) fun w => (dat7 (Bv7 m) c).arrAt w cfg7.N
theorem B8_arr (c : Dev nD) (w : Fin cfg7.W) :
    B8 m c (Proc.devRef .tc (Pipeline.arrRef spec7 w)) = (dat7 (Bv7 m) c).arrAt w cfg7.N := by
  unfold B8; exact Pipeline.withArrays_arr spec7 launch7.win.arr_inj c _ _ w
theorem B8_of_ne (c : Dev nD) (b : Ref sig .tc) (hb : ∀ w, Pipeline.arrRef spec7 w ≠ b) :
    B8 m c (Proc.devRef .tc b) = B7 m c (Proc.devRef .tc b) := by
  unfold B8; exact Pipeline.withArrays_of_ne spec7 c _ _ b hb
/-- The same read at the TensorCore's references. -/
abbrev Bv8 : (c : Dev nD) → (b : Ref sig .tc) → Buf (Elt F) ((c : Thread nD τ).loc b) := fun c b => B8 m c b
theorem hF7 (c : Dev nD) (w : Fin cfg7.W) : (dat7 (Bv7 m) c).arrAt w cfg7.N = Bv8 m c (Pipeline.arrRef spec7 w) :=
  (B8_arr m c w).symm
theorem hrest7 (c : Dev nD) : ∀ b, b ∉ Finset.univ.image (Pipeline.arrRef spec7) → Bv8 m c b = Bv7 m c b :=
  fun b hb => B8_of_ne m c b fun w e => hb (Finset.mem_image.mpr ⟨w, Finset.mem_univ _, e⟩)
/-- Region 7 changes no buffer but its output array `main_v40`: an input array ends as entered. -/
theorem B8_keep (c : Dev nD) (b : Ref sig .tc) (hb : b ≠ main_v40) : B8 m c (Proc.devRef .tc b) = B7 m c (Proc.devRef .tc b) := by
  by_cases h : ∃ w, Pipeline.arrRef spec7 w = b
  · obtain ⟨w, rfl⟩ := h
    rw [B8_arr]
    have hw : w ≠ 3 := fun e => hb (by subst e; rfl)
    exact ((dat7 (Bv7 m) c).arrAt_in w (by revert hw; revert w; decide) _).trans (A_eq7 (Bv7 m) c w)
  · exact B8_of_ne m c b fun w e => h ⟨w, e⟩

/-- At region 8's exit: its arrays at what the pipeline leaves, every other buffer as entered. -/
def B9 (c : Dev nD) : Valuation τ sig (Elt F) :=
  Pipeline.withArrays spec8 c (B8 m c) fun w => (dat8 (Bv8 m) c).arrAt w cfg8.N
theorem B9_arr (c : Dev nD) (w : Fin cfg8.W) :
    B9 m c (Proc.devRef .tc (Pipeline.arrRef spec8 w)) = (dat8 (Bv8 m) c).arrAt w cfg8.N := by
  unfold B9; exact Pipeline.withArrays_arr spec8 launch8.win.arr_inj c _ _ w
theorem B9_of_ne (c : Dev nD) (b : Ref sig .tc) (hb : ∀ w, Pipeline.arrRef spec8 w ≠ b) :
    B9 m c (Proc.devRef .tc b) = B8 m c (Proc.devRef .tc b) := by
  unfold B9; exact Pipeline.withArrays_of_ne spec8 c _ _ b hb
/-- The same read at the TensorCore's references. -/
abbrev Bv9 : (c : Dev nD) → (b : Ref sig .tc) → Buf (Elt F) ((c : Thread nD τ).loc b) := fun c b => B9 m c b
theorem hF8 (c : Dev nD) (w : Fin cfg8.W) : (dat8 (Bv8 m) c).arrAt w cfg8.N = Bv9 m c (Pipeline.arrRef spec8 w) :=
  (B9_arr m c w).symm
theorem hrest8 (c : Dev nD) : ∀ b, b ∉ Finset.univ.image (Pipeline.arrRef spec8) → Bv9 m c b = Bv8 m c b :=
  fun b hb => B9_of_ne m c b fun w e => hb (Finset.mem_image.mpr ⟨w, Finset.mem_univ _, e⟩)
/-- Region 8 changes no buffer but its output array `main_v41`: an input array ends as entered. -/
theorem B9_keep (c : Dev nD) (b : Ref sig .tc) (hb : b ≠ main_v41) : B9 m c (Proc.devRef .tc b) = B8 m c (Proc.devRef .tc b) := by
  by_cases h : ∃ w, Pipeline.arrRef spec8 w = b
  · obtain ⟨w, rfl⟩ := h
    rw [B9_arr]
    have hw : w ≠ 4 := fun e => hb (by subst e; rfl)
    exact ((dat8 (Bv8 m) c).arrAt_in w (by revert hw; revert w; decide) _).trans (A_eq8 (Bv8 m) c w)
  · exact B9_of_ne m c b fun w e => h ⟨w, e⟩

/-- At region 9's exit: its arrays at what the pipeline leaves, every other buffer as entered. -/
def B10 (c : Dev nD) : Valuation τ sig (Elt F) :=
  Pipeline.withArrays spec9 c (B9 m c) fun w => (dat9 (Bv9 m) c).arrAt w cfg9.N
theorem B10_arr (c : Dev nD) (w : Fin cfg9.W) :
    B10 m c (Proc.devRef .tc (Pipeline.arrRef spec9 w)) = (dat9 (Bv9 m) c).arrAt w cfg9.N := by
  unfold B10; exact Pipeline.withArrays_arr spec9 launch9.win.arr_inj c _ _ w
theorem B10_of_ne (c : Dev nD) (b : Ref sig .tc) (hb : ∀ w, Pipeline.arrRef spec9 w ≠ b) :
    B10 m c (Proc.devRef .tc b) = B9 m c (Proc.devRef .tc b) := by
  unfold B10; exact Pipeline.withArrays_of_ne spec9 c _ _ b hb
/-- The same read at the TensorCore's references. -/
abbrev Bv10 : (c : Dev nD) → (b : Ref sig .tc) → Buf (Elt F) ((c : Thread nD τ).loc b) := fun c b => B10 m c b
theorem hF9 (c : Dev nD) (w : Fin cfg9.W) : (dat9 (Bv9 m) c).arrAt w cfg9.N = Bv10 m c (Pipeline.arrRef spec9 w) :=
  (B10_arr m c w).symm
theorem hrest9 (c : Dev nD) : ∀ b, b ∉ Finset.univ.image (Pipeline.arrRef spec9) → Bv10 m c b = Bv9 m c b :=
  fun b hb => B10_of_ne m c b fun w e => hb (Finset.mem_image.mpr ⟨w, Finset.mem_univ _, e⟩)
/-- Region 9 changes no buffer but its output array `main_v42`: an input array ends as entered. -/
theorem B10_keep (c : Dev nD) (b : Ref sig .tc) (hb : b ≠ main_v42) : B10 m c (Proc.devRef .tc b) = B9 m c (Proc.devRef .tc b) := by
  by_cases h : ∃ w, Pipeline.arrRef spec9 w = b
  · obtain ⟨w, rfl⟩ := h
    rw [B10_arr]
    have hw : w ≠ 3 := fun e => hb (by subst e; rfl)
    exact ((dat9 (Bv9 m) c).arrAt_in w (by revert hw; revert w; decide) _).trans (A_eq9 (Bv9 m) c w)
  · exact B10_of_ne m c b fun w e => h ⟨w, e⟩

/-- After the last host stretch (the slice of the padded result). -/
abbrev B11 (c : Dev nD) : Valuation τ sig (Elt F) := StableHlo.after hostOps10 (B10 m c)

/-- A buffer that is no region's output array and that no host stretch writes ends as launched. -/
theorem B11_launch (c : Dev nD) (b : Ref sig .tc)
    (hr : b ∉ ([main_v33, main_v34, main_v35, main_v36, main_v37, main_v38, main_v39, main_v40, main_v41, main_v42] : List (Ref sig .tc)))
    (h0 : b ∉ hostOps0_W) (h1 : b ∉ hostOps0_1_W) (h2 : b ∉ hostOps0_2_W) (h3 : b ∉ hostOps0_3_W) (h4 : b ∉ hostOps0_4_W) (h5 : b ∉ hostOps0_5_W)
    (h6 : b ∉ hostOps0_6_W) (h7 : b ∉ hostOps0_7_W) (h8 : b ∉ hostOps0_8_W) (h9 : b ∉ hostOps0_9_W) (h10 : b ∉ hostOps0_10_W) (h11 : b ∉ hostOps0_11_W)
    (h12 : b ∉ hostOps10_W) : B11 m c (Proc.devRef .tc b) = m ((c : Thread nD τ).loc b) := by
  simp only [List.mem_cons, List.mem_nil_iff, or_false, not_or] at hr
  obtain ⟨r0, r1, r2, r3, r4, r5, r6, r7, r8, r9⟩ := hr
  calc B11 m c (Proc.devRef .tc b)
    _ = B10 m c (Proc.devRef .tc b) := StableHlo.after_of_writes_sub hostOps10 _ hostOps10_writes h12
    _ = B9 m c (Proc.devRef .tc b) := B10_keep m c b r9
    _ = B8 m c (Proc.devRef .tc b) := B9_keep m c b r8
    _ = B7 m c (Proc.devRef .tc b) := B8_keep m c b r7
    _ = B6 m c (Proc.devRef .tc b) := B7_keep m c b r6
    _ = B5 m c (Proc.devRef .tc b) := B6_keep m c b r5
    _ = B4 m c (Proc.devRef .tc b) := B5_keep m c b r4
    _ = B3 m c (Proc.devRef .tc b) := B4_keep m c b r3
    _ = B2 m c (Proc.devRef .tc b) := B3_keep m c b r2
    _ = B1 m c (Proc.devRef .tc b) := B2_keep m c b r1
    _ = B0 m c (Proc.devRef .tc b) := B1_keep m c b r0
    _ = m ((c : Thread nD τ).loc b) :=
        (V12_of m c b h11).trans <| (V11_of m c b h10).trans <| (V10_of m c b h9).trans <| (V9_of m c b h8).trans <| (V8_of m c b h7).trans <|
        (V7_of m c b h6).trans <| (V6_of m c b h5).trans <| (V5_of m c b h4).trans <| (V4_of m c b h3).trans <| (V3_of m c b h2).trans <|
        (V2_of m c b h1).trans <| (V1_of m c b h0).trans rfl

/-- Every pipeline's proof data, each at its region's entry contents. -/
def pdats : (p : Fin 10) → (c : Dev nD) → Dat τ (Elt F) Unit ℕ (UR sig nD τ) ℕ (cfgs p) c
  | ⟨0, _⟩ => fun c => dat0 (Bv0 m) c
  | ⟨1, _⟩ => fun c => dat1 (Bv1 m) c
  | ⟨2, _⟩ => fun c => dat2 (Bv2 m) c
  | ⟨3, _⟩ => fun c => dat3 (Bv3 m) c
  | ⟨4, _⟩ => fun c => dat4 (Bv4 m) c
  | ⟨5, _⟩ => fun c => dat5 (Bv5 m) c
  | ⟨6, _⟩ => fun c => dat6 (Bv6 m) c
  | ⟨7, _⟩ => fun c => dat7 (Bv7 m) c
  | ⟨8, _⟩ => fun c => dat8 (Bv8 m) c
  | ⟨9, _⟩ => fun c => dat9 (Bv9 m) c

end Cert.Kernel.Hand

end
-- ==== Proof.KB.Reg0.Body.lean ====
/-
  Region 0 of the kernel's program (the edge-feature projection): the body's triple on whole staging memrefs —
  the two inputs are left as they were and the output tile ends holding the product of the two loaded blocks —
  and from it the pipeline's body obligation at every grid point, for the proof data of the region's data module.
-/
import proofs.«177903_j22574348108073_1_alg».proof.Proof.KB.Reg0.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hzz0 : (![0, 0] : Fin 2 → Nat) = fun _ => 0 := by funext a; fin_cases a <;> rfl

/-- The whole 4096 × 128 tile, the body's one store. -/
abbrev r0_o : Rect S4096x128 := Rect.unit (s := S4096x128) ![0, 0] S4096x128.size inb_S4096x128_S4096x128_0_0

/-- The one store covers the tile. -/
theorem cover0_2 (p0 : Vec F S4096x128 .f32) (y : S4096x128.Idx) :
    ∃ pc ∈ ([⟨r0_o, p0⟩] : List (View.Piece (Elt F) S4096x128 .f32)), y ∈ pc.1.set :=
  View.cover_of_tiled [⟨r0_o, p0⟩] S4096x128.size (by rfl) y

set_option maxHeartbeats 1000000 in
/-- The body on whole staging memrefs: the two inputs are left as they were, the output holds their product. -/
theorem sound_kernel0 (c : Dev nD) (E : Set ℕ) (i : grid0.Coords) (arg1 : Memref sig .tc .vmem S4096x16 .f32) (harg1 : arg1.IsWhole)
    (arg2 : Memref sig .tc .vmem S16x128 .f32) (harg2 : arg2.IsWhole) (arg3 : Memref sig .tc .vmem S4096x128 .f32) (harg3 : arg3.IsWhole)
    (x0 : Vec F S4096x16 .f32) (x1 : Vec F S16x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__ea_kernel i arg1 harg1 arg2 harg2 arg3 harg3) K := by
  simp only [cc0__ea_kernel_eq_skeleton]; unfold cc0__ea_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  refine (View.read_writes_eq_canon _ _ _ (cover0_2 _)).trans ?_
  rw [View.canon_unit_zero (S := S4096x128) hzz0]
  unfold out0_2
  simp only [View.readAt_eq_ld, View.ld_unit_zero (S := S4096x16) hzz0, View.ld_unit_zero (S := S16x128) hzz0]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.Body.lean ====
/-
  Region 1 of the kernel's program (the linear projection of the node features): the body's triple on whole
  staging memrefs — the three inputs are left as they were and the output tile ends holding product + bias —
  and from it the pipeline's body obligation at every grid point, for the proof data of the region's data module.
-/
import proofs.«177903_j22574348108073_1_alg».proof.Proof.KB.Reg1.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hzz1 : (![0, 0] : Fin 2 → Nat) = fun _ => 0 := by funext a; fin_cases a <;> rfl
theorem hzo1 : (![0] : Fin 1 → Nat) = fun _ => 0 := by funext a; fin_cases a; rfl

/-- The whole 2048 × 128 tile, the body's one store. -/
abbrev r1_o : Rect S2048x128 := Rect.unit (s := S2048x128) ![0, 0] S2048x128.size inb_S2048x128_S2048x128_0_0

/-- The one store covers the tile. -/
theorem cover1_3 (p0 : Vec F S2048x128 .f32) (y : S2048x128.Idx) :
    ∃ pc ∈ ([⟨r1_o, p0⟩] : List (View.Piece (Elt F) S2048x128 .f32)), y ∈ pc.1.set :=
  View.cover_of_tiled [⟨r1_o, p0⟩] S2048x128.size (by rfl) y

set_option maxHeartbeats 1000000 in
/-- The body on whole staging memrefs: the three inputs are left as they were, the output holds product + bias. -/
theorem sound_kernel1 (c : Dev nD) (E : Set ℕ) (i : grid1.Coords) (arg1 : Memref sig .tc .vmem S2048x128 .f32) (harg1 : arg1.IsWhole)
    (arg2 : Memref sig .tc .vmem S128x128 .f32) (harg2 : arg2.IsWhole) (arg3 : Memref sig .tc .vmem S128 .f32) (harg3 : arg3.IsWhole)
    (arg4 : Memref sig .tc .vmem S2048x128 .f32) (harg4 : arg4.IsWhole)
    (x0 : Vec F S2048x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (View.read_writes_eq_canon _ _ _ (cover1_3 _)).trans ?_
  rw [View.canon_unit_zero (S := S2048x128) hzz1]
  unfold out1_3
  simp only [View.readAt_eq_ld, View.ld_unit_zero (S := S2048x128) hzz1, View.ld_unit_zero (S := S128x128) hzz1, View.ld_unit_zero (S := S128) hzo1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.RunA.lean ====
/-
  Region 2, the gather: what the body's conditionals depend on, and the body's run at the first node tile of an
  edge tile.

  The body branches twice on the node-tile coordinate j (the fast grid axis): it zeroes the accumulator when
  j = 0 and stores the output tile when j = 24. In the linear order of the 196 × 25 grid these are the points
  ≡ 0 and ≡ 24 (mod 25). The output window is idle, and not written back, wherever j ≠ 24. This module states
  the two conditions in closed form, where the windows are idle, the staging memrefs the body is called with, and
  the region's entry invariant with the accumulator made explicit; then it runs the body in the case j = 0: the
  accumulator is stored twice (zeros, then the one-hot product added to the zeros read back), and it ends at
  the product payload applied to this point's source nodes, its node tile, and the zero payload.
-/
import proofs.«177903_j22574348108073_1_alg».proof.Proof.KB.Reg2.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions on the node-tile coordinate -/

/-- The first conditional's condition as the body computes it from the grid coordinates: "node tile = 0". -/
abbrev cond2_0 (i : grid2.Coords) : Prop :=
  (Scalar.cmpi .ne (Scalar.extui (Scalar.cmpi .eq (BitVec.ofNat 32 (i 1).val) 0#32)) 0#32) = 1#1
/-- It holds exactly at the first node tile of each edge tile: the points ≡ 0 (mod 25). -/
theorem hcond2_0 : ∀ t : Fin cfg2.N, cond2_0 (grid2.coords t) ↔ t.val % 25 = 0 :=
  (by decide +kernel : ∀ t : Fin grid2.N, cond2_0 (grid2.coords t) ↔ t.val % 25 = 0)

/-- The second conditional's condition: "node tile = 24". -/
abbrev cond2_1 (i : grid2.Coords) : Prop := k2_cond2 i = 1#1
/-- It holds exactly at the last node tile of each edge tile: the points ≡ 24 (mod 25). -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

/-- The four input windows are never idle. -/
theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
theorem liveAt2_3 (t : Fin cfg2.N) : cfg2.idle 3 (grid2.coords t) = false := rfl
/-- Away from the last node tile the output window is idle: nothing is stored into it, -/
theorem idleAt2_4 (t : Fin cfg2.N) (h : ¬cond2_1 (grid2.coords t)) : cfg2.idle 4 (grid2.coords t) = true := by
  show (!(k2_cond2 (grid2.coords t) == 1#1)) = true
  rw [Bool.not_eq_true', beq_eq_false_iff_ne]; exact h
/-- and its block is not written back. -/
theorem noFlush2_4 (t : Fin cfg2.N) (h : ¬cond2_1 (grid2.coords t)) : (cfg2.win 4).flush t = false := by
  cases hf : (cfg2.win 4).flush t with
  | false => rfl
  | true => exact absurd ((hcond2_1 t).mpr ((flush2_4 t).mp hf)) h
/-- At the last node tile it is live. -/
theorem liveAt2_4 (t : Fin cfg2.N) (h : cond2_1 (grid2.coords t)) : cfg2.idle 4 (grid2.coords t) = false := by
  show (!(k2_cond2 (grid2.coords t) == 1#1)) = false
  rw [show k2_cond2 (grid2.coords t) = 1#1 from h]; rfl

/-! ## The memrefs the body is called with -/

/-- Each window's current staging memref at point `t`, as the pipeline passes it, with its wholeness. -/
abbrev ms2_0 (t : Fin cfg2.N) : Memref sig .tc .vmem S2048x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x128 .bf16 := win2_4.stage (cfg2.slots t 4)
abbrev hs2_4 (t : Fin cfg2.N) : (ms2_4 t).IsWhole := hstage2_4 ((cfg2.slots t 4).cast nbuf2_4)

/-- The accumulator as a view: what it holds is stated through it. -/
abbrev VS2 : View sig .tc .vmem S4096x128 .f32 := (scM2 : Memref sig .tc .vmem S4096x128 .f32).view
/-- One staging buffer of the output window, through which the stored tile is stated. -/
abbrev VO2 : View sig .tc .vmem S4096x128 .bf16 := (Memref.whole cc2_stg4_0 : Memref sig .tc .vmem S4096x128 .bf16).view

/-- The zero offsets of the whole-buffer rectangles, spelt as a constant function. -/
theorem hzz2 : (![0, 0] : Fin 2 → Nat) = fun _ => 0 := by funext a; fin_cases a <;> rfl
theorem hzu2 : (![0] : Fin 1 → Nat) = fun _ => 0 := by funext a; fin_cases a; rfl

/-- The region's entry invariant with the accumulator split off the scoped rest: the accumulator whole at some
    contents, every other scoped buffer unopened, the generator register at some state. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body at the first node tile of an edge tile -/

set_option maxHeartbeats 1000000 in
/-- THE RUN, case "first node tile" (first conditional taken, second not). On whole memrefs — the four inputs at
    their contents, the output's buffer at contents handed back untouched, the accumulator at anything — the body
    runs to a continuation holding the inputs as they were, the output's buffer as it was, and the accumulator
    with the pieces its two stores wrote (last first): the witness the symbolic run finds. -/
noncomputable def kernelRun2_A (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond2_0 i) (hc1 : ¬cond2_1 i)
    (x0 : Vec F S2048x128 .f32) (x1 : Vec F S4096 .i32) (x2 : Vec F S4096 .f32) (x3 : Vec F S4096x128 .f32) :
    { LS0 : List (View.Piece (Elt F) S4096x128 .f32) //
      ∀ (xi4 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gather_kernel i arg2 harg2 arg3 harg3 arg4 harg4 arg5 harg5 arg6 harg6 arg7 harg7) K } := by
  refine ⟨?_, fun xi4 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The two pieces tile the accumulator, so they cover it. -/
theorem scover2_A (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond2_0 i) (hc1 : ¬cond2_1 i)
    (x0 : Vec F S2048x128 .f32) (x1 : Vec F S4096 .i32) (x2 : Vec F S4096 .f32) (x3 : Vec F S4096x128 .f32) (y : S4096x128.Idx) :
    ∃ pc ∈ (kernelRun2_A c i arg2 harg2 arg3 harg3 arg4 harg4 arg5 harg5 arg6 harg6 arg7 harg7 hc0 hc1 x0 x1 x2 x3).1, y ∈ pc.1.set :=
  View.cover_of_tiledL (kernelRun2_A c i arg2 harg2 arg3 harg3 arg4 harg4 arg5 harg5 arg6 harg6 arg7 harg7 hc0 hc1 x0 x1 x2 x3).1 S4096x128.size (by sl_kernel_rfl) y

/-- What the case leaves in the accumulator: its pieces read back. -/
def sout2_A (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond2_0 i) (hc1 : ¬cond2_1 i)
    (x0 : Vec F S2048x128 .f32) (x1 : Vec F S4096 .i32) (x2 : Vec F S4096 .f32) (x3 : Vec F S4096x128 .f32) : Vec F S4096x128 .f32 :=
  VS2.read (Elt F) (VS2.writes (Elt F) VS2.junk (kernelRun2_A c i arg2 harg2 arg3 harg3 arg4 harg4 arg5 harg5 arg6 harg6 arg7 harg7 hc0 hc1 x0 x1 x2 x3).1)

/-- IN CLOSED FORM: the one-hot product of this point's source nodes and node tile, added to zeros. -/
theorem sout2_A_eq (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond2_0 i) (hc1 : ¬cond2_1 i)
    (x0 : Vec F S2048x128 .f32) (x1 : Vec F S4096 .i32) (x2 : Vec F S4096 .f32) (x3 : Vec F S4096x128 .f32) :
    sout2_A c i arg2 harg2 arg3 harg3 arg4 harg4 arg5 harg5 arg6 harg6 arg7 harg7 hc0 hc1 x0 x1 x2 x3 = k2_pay2 i x1 x0 (k2_pay1 (F := F)) := by
  unfold sout2_A
  rw [View.read_writes_eq_canon _ _ _ (scover2_A c i arg2 harg2 arg3 harg3 arg4 harg4 arg5 harg5 arg6 harg6 arg7 harg7 hc0 hc1 x0 x1 x2 x3)]
  unfold kernelRun2_A
  dsimp only
  sl_unfold_words
  rw [View.canon_cons_unit_zero (S := S4096x128) hzz2]
  simp only [View.readAt_eq_ld, harg2.read_unread, harg3.read_unread, View.ld_unit_zero (S := S2048x128) hzz2, View.ld_unit_zero (S := S4096) hzu2, View.readCov_unit_zero (S := S4096x128) _ hzz2]

end Cert.Kernel.Hand

end
-- ==== Proof.KB.Reg2.RunB.lean ====
/-
  Region 2, the gather: the body's run at an inner node tile of an edge tile (neither the first nor the last).

  Neither conditional is taken: the body reads the accumulator the point before left, adds the one-hot product of
  this point's source nodes with its node tile, and stores the sum back; the output window is untouched.
-/
import proofs.«177903_j22574348108073_1_alg».proof.Proof.KB.Reg2.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RUN, case "inner node tile" (neither conditional taken). On whole memrefs — the four inputs at their
    contents, the output's buffer at contents handed back untouched, the accumulator at what the point before left
    (`xs`) — the body runs to a continuation holding the inputs and the output's buffer as they were and the
    accumulator with the piece its one store wrote. -/
noncomputable def kernelRun2_B (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : ¬cond2_1 i)
    (x0 : Vec F S2048x128 .f32) (x1 : Vec F S4096 .i32) (x2 : Vec F S4096 .f32) (x3 : Vec F S4096x128 .f32) (xs : Vec F S4096x128 .f32) :
    { LS0 : List (View.Piece (Elt F) S4096x128 .f32) //
      ∀ (xi4 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gather_kernel i arg2 harg2 arg3 harg3 arg4 harg4 arg5 harg5 arg6 harg6 arg7 harg7) K } := by
  refine ⟨?_, fun xi4 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The one piece tiles the accumulator, so it covers it. -/
theorem scover2_B (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : ¬cond2_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun2_B c i arg2 harg2 arg3 harg3 arg4 harg4 arg5 harg5 arg6 harg6 arg7 harg7 hc0 hc1 x0 x1 x2 x3 xs).1, y ∈ pc.1.set :=
  View.cover_of_tiledL (kernelRun2_B c i arg2 harg2 arg3 harg3 arg4 harg4 arg5 harg5 arg6 harg6 arg7 harg7 hc0 hc1 x0 x1 x2 x3 xs).1 S4096x128.size (by sl_kernel_rfl) y

/-- What the case leaves in the accumulator: its piece read back. -/
def sout2_B (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : ¬cond2_1 i)
    (x0 : Vec F S2048x128 .f32) (x1 : Vec F S4096 .i32) (x2 : Vec F S4096 .f32) (x3 : Vec F S4096x128 .f32) (xs : Vec F S4096x128 .f32) : Vec F S4096x128 .f32 :=
  VS2.read (Elt F) (VS2.writes (Elt F) VS2.junk (kernelRun2_B c i arg2 harg2 arg3 harg3 arg4 harg4 arg5 harg5 arg6 harg6 arg7 harg7 hc0 hc1 x0 x1 x2 x3 xs).1)

/-- IN CLOSED FORM: the one-hot product of this point's source nodes and node tile, added to the accumulator. -/
theorem sout2_B_eq (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : ¬cond2_1 i)
    (x0 : Vec F S2048x128 .f32) (x1 : Vec F S4096 .i32) (x2 : Vec F S4096 .f32) (x3 : Vec F S4096x128 .f32) (xs : Vec F S4096x128 .f32) :
    sout2_B c i arg2 harg2 arg3 harg3 arg4 harg4 arg5 harg5 arg6 harg6 arg7 harg7 hc0 hc1 x0 x1 x2 x3 xs = k2_pay2 i x1 x0 xs := by
  unfold sout2_B
  rw [View.read_writes_eq_canon _ _ _ (scover2_B c i arg2 harg2 arg3 harg3 arg4 harg4 arg5 harg5 arg6 harg6 arg7 harg7 hc0 hc1 x0 x1 x2 x3 xs)]
  unfold kernelRun2_B
  dsimp only
  sl_unfold_words
  rw [View.canon_unit_zero (S := S4096x128) hzz2]
  simp only [View.readAt_eq_ld, harg2.read_unread, harg3.read_unread, harg4.read_unread, harg5.read_unread, harg7.read_unread, View.ld_unit_zero (S := S2048x128) hzz2, View.ld_unit_zero (S := S4096x128) hzz2, View.ld_unit_zero (S := S4096) hzu2, View.readCov_unit_zero (S := S4096x128) _ hzz2]

end Cert.Kernel.Hand

end
-- ==== Proof.KB.Reg2.RunC.lean ====
/-
  Region 2, the gather: the body's run at the last node tile of an edge tile.

  The first conditional is not taken, the second is: the body adds this point's one-hot product into the
  accumulator as at an inner point, then reads the accumulator back, adds the edge embedding tile, scales each edge's row
  by its normalisation factor, rounds to bf16 and stores the result as the output tile.
-/
import proofs.«177903_j22574348108073_1_alg».proof.Proof.KB.Reg2.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RUN, case "last node tile" (second conditional taken). On whole memrefs — the four inputs at their
    contents, the output's buffer at anything, the accumulator at what the point before left (`xs`) — the body runs
    to a continuation holding the inputs as they were, and the output's buffer and the accumulator each with the
    piece its one store wrote. -/
noncomputable def kernelRun2_C (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) :
    Σ' (L4 : List (View.Piece (Elt F) S4096x128 .bf16)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__gather_kernel i arg2 harg2 arg3 harg3 arg4 harg4 arg5 harg5 arg6 harg6 arg7 harg7) K } := by
  refine ⟨?_, ?_, fun E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- The one piece stored into the output's buffer tiles it, so it covers it. -/
theorem cover2_C (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun2_C c i arg2 harg2 arg3 harg3 arg4 harg4 arg5 harg5 arg6 harg6 arg7 harg7 hc0 hc1 x0 x1 x2 x3 xs).1, y ∈ pc.1.set :=
  View.cover_of_tiledL (kernelRun2_C c i arg2 harg2 arg3 harg3 arg4 harg4 arg5 harg5 arg6 harg6 arg7 harg7 hc0 hc1 x0 x1 x2 x3 xs).1 S4096x128.size (by sl_kernel_rfl) y

/-- The one piece stored into the accumulator covers it. -/
theorem scover2_C (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun2_C c i arg2 harg2 arg3 harg3 arg4 harg4 arg5 harg5 arg6 harg6 arg7 harg7 hc0 hc1 x0 x1 x2 x3 xs).2.1, y ∈ pc.1.set :=
  View.cover_of_tiledL (kernelRun2_C c i arg2 harg2 arg3 harg3 arg4 harg4 arg5 harg5 arg6 harg6 arg7 harg7 hc0 hc1 x0 x1 x2 x3 xs).2.1 S4096x128.size (by sl_kernel_rfl) y

/-- What the case leaves in the accumulator: its piece read back. -/
def sout2_C (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) : Vec F S4096x128 .f32 :=
  VS2.read (Elt F) (VS2.writes (Elt F) VS2.junk (kernelRun2_C c i arg2 harg2 arg3 harg3 arg4 harg4 arg5 harg5 arg6 harg6 arg7 harg7 hc0 hc1 x0 x1 x2 x3 xs).2.1)

/-- What it leaves in the output's buffer: its piece read back. -/
def out2_C (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) : Vec F S4096x128 .bf16 :=
  VO2.read (Elt F) (VO2.writes (Elt F) VO2.junk (kernelRun2_C c i arg2 harg2 arg3 harg3 arg4 harg4 arg5 harg5 arg6 harg6 arg7 harg7 hc0 hc1 x0 x1 x2 x3 xs).1)

/-- IN CLOSED FORM, the accumulator: the one-hot product added to what the point before left. -/
theorem sout2_C_eq (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) :
    sout2_C c i arg2 harg2 arg3 harg3 arg4 harg4 arg5 harg5 arg6 harg6 arg7 harg7 hc0 hc1 x0 x1 x2 x3 xs = k2_pay2 i x1 x0 xs := by
  unfold sout2_C
  rw [View.read_writes_eq_canon _ _ _ (scover2_C c i arg2 harg2 arg3 harg3 arg4 harg4 arg5 harg5 arg6 harg6 arg7 harg7 hc0 hc1 x0 x1 x2 x3 xs)]
  unfold kernelRun2_C
  dsimp only
  sl_unfold_words
  rw [View.canon_unit_zero (S := S4096x128) hzz2]
  simp only [View.readAt_eq_ld, harg2.read_unread, harg3.read_unread, harg4.read_unread, harg5.read_unread, harg7.read_unread, View.ld_unit_zero (S := S2048x128) hzz2, View.ld_unit_zero (S := S4096x128) hzz2, View.ld_unit_zero (S := S4096) hzu2, View.readCov_unit_zero (S := S4096x128) _ hzz2]

/-- IN CLOSED FORM, the output tile: normalisation × (the new accumulator + the edge embedding), rounded. -/
theorem out2_C_eq (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) :
    out2_C c i arg2 harg2 arg3 harg3 arg4 harg4 arg5 harg5 arg6 harg6 arg7 harg7 hc0 hc1 x0 x1 x2 x3 xs = k2_pay3 x2 (k2_pay2 i x1 x0 xs) x3 := by
  unfold out2_C
  rw [View.read_writes_eq_canon _ _ _ (cover2_C c i arg2 harg2 arg3 harg3 arg4 harg4 arg5 harg5 arg6 harg6 arg7 harg7 hc0 hc1 x0 x1 x2 x3 xs)]
  unfold kernelRun2_C
  dsimp only
  sl_unfold_words
  rw [View.canon_unit_zero (S := S4096x128) hzz2]
  simp only [View.readAt_eq_ld, harg2.read_unread, harg3.read_unread, harg4.read_unread, harg5.read_unread, harg7.read_unread, View.ld_unit_zero (S := S2048x128) hzz2, View.ld_unit_zero (S := S4096x128) hzz2, View.ld_unit_zero (S := S4096) hzu2, View.readCov_unit_zero (S := S4096x128) _ hzz2]

end Cert.Kernel.Hand

end
-- ==== Proof.KB.Reg2.Body.lean ====
/-
  Region 2, the gather: the body obligation of its pipeline.

  At every grid point the inputs' staging buffers hold their blocks. The point's position in its edge tile's run of
  25 node tiles selects the case: at the first the accumulator (at anything, or at what the previous run left) is
  zeroed and receives the first one-hot product; at an inner point it receives the next product on top of what the
  point before left; at the last it receives the last product and the output tile is stored from it. In each case
  the run's found pieces read back as the closed forms of the proof data (`acc2`, `msg2`); the rest of the scoped
  buffers and the generator register pass through untouched, and the core owes nothing throughout.
-/
import proofs.«177903_j22574348108073_1_alg».proof.Proof.KB.Reg2.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's closed form, case by case -/

/-- At the first node tile of an edge tile the accumulator restarts from zeros. -/
theorem acc2_first (c : Dev nD) (t : Fin cfg2.N) (h0 : t.val % 25 = 0) :
    acc2 V c t.val t.isLt = k2_pay2 (grid2.coords t) (iblk2 V c 1 t) (iblk2 V c 0 t) (k2_pay1 (F := F)) := by
  obtain ⟨n, hn⟩ := t
  cases n with
  | zero => rfl
  | succ n =>
    have h0' : (n + 1) % 25 = 0 := h0
    exact congrArg (k2_pay2 (grid2.coords ⟨n + 1, hn⟩) (iblk2 V c 1 ⟨n + 1, hn⟩) (iblk2 V c 0 ⟨n + 1, hn⟩)) (if_pos h0')

/-- At any other node tile it continues from what the point before left. -/
theorem acc2_next (c : Dev nD) (t : Fin cfg2.N) (h0 : ¬t.val % 25 = 0) :
    acc2 V c t.val t.isLt = k2_pay2 (grid2.coords t) (iblk2 V c 1 t) (iblk2 V c 0 t)
      (acc2 V c (t.val - 1) (Nat.lt_of_le_of_lt (Nat.sub_le _ _) t.isLt)) := by
  obtain ⟨n, hn⟩ := t
  cases n with
  | zero => exact absurd (Nat.zero_mod 25) h0
  | succ n =>
    have h0' : ¬(n + 1) % 25 = 0 := h0
    exact congrArg (k2_pay2 (grid2.coords ⟨n + 1, hn⟩) (iblk2 V c 1 ⟨n + 1, hn⟩) (iblk2 V c 0 ⟨n + 1, hn⟩)) (if_neg h0')

/-! ## What the body leaves in the windows' buffers -/

/-- Each input's buffer is left at its block (the inputs are never idle). -/
theorem leaves2_0 (c : Dev nD) (t : Fin cfg2.N) :
    (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leaves2_1 (c : Dev nD) (t : Fin cfg2.N) :
    (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
theorem leaves2_2 (c : Dev nD) (t : Fin cfg2.N) :
    (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from by
    unfold Dat.leavesExact; rw [liveAt2_2 t], after2_2]
theorem leaves2_3 (c : Dev nD) (t : Fin cfg2.N) :
    (dat2 V c).leavesExact 3 t = owns (c : Thread nD τ) (ms2_3 t) fullShare (iblk2 V c 3 t) := by
  rw [show (dat2 V c).leavesExact 3 t = owns (c : Thread nD τ) (ms2_3 t) fullShare ((dat2 V c).after 3 t) from by
    unfold Dat.leavesExact; rw [liveAt2_3 t], after2_3]
/-- At the last node tile the output's buffer is left at the stored tile. -/
theorem leaves2_4 (c : Dev nD) (t : Fin cfg2.N) (hc1 : cond2_1 (grid2.coords t)) :
    (dat2 V c).leavesExact 4 t = owns (c : Thread nD τ) (ms2_4 t) fullShare (msg2 V c t) := by
  rw [show (dat2 V c).leavesExact 4 t = owns (c : Thread nD τ) (ms2_4 t) fullShare ((dat2 V c).after 4 t) from by
    unfold Dat.leavesExact; rw [liveAt2_4 t hc1], after2_4]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 4900 := lt_of_lt_of_eq t.isLt (show cfg2.N = 4900 from N_2)
  by_cases h0 : t.val % 25 = 0
  · -- the first node tile of an edge tile
    have h1 : ¬t.val % 25 = 24 := by omega
    have hc0 : cond2_0 (grid2.coords t) := (hcond2_0 t).mpr h0
    have hc1 : ¬cond2_1 (grid2.coords t) := fun h => h1 ((hcond2_1 t).mp h)
    rw [leaves2_0 V c t, leaves2_1 V c t, leaves2_2 V c t, leaves2_3 V c t]
    rw [Dat.leavesExact_idle (dat2 V c) 4 t (idleAt2_4 t hc1) (noFlush2_4 t hc1)]
    rw [acc2_first V c t h0]
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS2 VS2.junk _ (scover2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t))).trans
              (sout2_A_eq c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t))
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS2 VS2.junk _ (scover2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t))).trans
              (sout2_A_eq c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t))
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond2_0 (grid2.coords t) := fun h => h0 ((hcond2_0 t).mp h)
    by_cases h1 : t.val % 25 = 24
    · -- the last node tile of an edge tile
      have hc1 : cond2_1 (grid2.coords t) := (hcond2_1 t).mpr h1
      rw [leaves2_0 V c t, leaves2_1 V c t, leaves2_2 V c t, leaves2_3 V c t]
      rw [leaves2_4 V c t hc1]
      unfold msg2
      rw [acc2_next V c t h0]
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun2_C c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro
            exact (View.read_writes_of_cover _ _ VS2 VS2.junk _ (scover2_C c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)))).trans
              (sout2_C_eq c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ VO2 VO2.junk _ (cover2_C c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)))).trans
        (out2_C_eq c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)))
    · -- an inner node tile
      have hc1 : ¬cond2_1 (grid2.coords t) := fun h => h1 ((hcond2_1 t).mp h)
      rw [leaves2_0 V c t, leaves2_1 V c t, leaves2_2 V c t, leaves2_3 V c t]
      rw [Dat.leavesExact_idle (dat2 V c) 4 t (idleAt2_4 t hc1) (noFlush2_4 t hc1)]
      rw [acc2_next V c t h0]
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun2_B c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS2 VS2.junk _ (scover2_B c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)))).trans
              (sout2_B_eq c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the entry invariant back: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 4900 := N_2; omega)

end Cert.Kernel.Hand

end
-- ==== Proof.KB.Reg3.RunA.lean ====
/-
  Region 3 of the kernel's program (the scatter onto the target nodes plus the residual), first part: what the three cases of the
  body share, and the body's triple in the case that opens a node tile's run.

  The body tests the edge-tile coordinate twice. Where it is 0 the accumulator is first overwritten with zeros;
  where it is 195 the output tile is stored after the update. Over the 25 × 196 grid, edge tile the fast axis,
  these are the points ≡ 0 and ≡ 195 (mod 196). The output window is idle, and not written back, at every point
  that is not ≡ 195. In every case the update reads the edge tile's target nodes and messages and the accumulator,
  and stores the one-hot product added to what it read; a store of the whole tile made last decides what the
  tile holds, and a load of the whole tile after such a store reads what was stored.
-/
import proofs.«177903_j22574348108073_1_alg».proof.Proof.KB.Reg3.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Zero offsets of a rank-2 and of a rank-1 rectangle, as the printed stores and loads spell them. -/
theorem hz3_2 : (![0, 0] : Fin 2 → Nat) = fun _ => 0 := by funext a; fin_cases a <;> rfl
theorem hz3_1 : (![0] : Fin 1 → Nat) = fun _ => 0 := by funext a; fin_cases a; rfl

/-! ## The two tests on the edge-tile coordinate -/

/-- The first test: the edge-tile coordinate is 0 (a node tile's run begins). -/
abbrev cond3_0 (i : grid3.Coords) : Prop := (Scalar.cmpi .ne (Scalar.extui (Scalar.cmpi .eq (BitVec.ofNat 32 (i 1).val) 0#32)) 0#32) = 1#1
/-- It holds exactly at the points ≡ 0 (mod 196): decided over the 4900 points. -/
theorem hcond3_0 : ∀ t : Fin cfg3.N, cond3_0 (grid3.coords t) ↔ t.val % 196 = 0 :=
  (by decide +kernel : ∀ t : Fin grid3.N, cond3_0 (grid3.coords t) ↔ t.val % 196 = 0)

/-- The second test: the edge-tile coordinate is 195 (a node tile's run ends). -/
abbrev cond3_1 (i : grid3.Coords) : Prop := k3_cond2 i = 1#1
/-- It holds exactly at the points ≡ 195 (mod 196). -/
theorem hcond3_1 : ∀ t : Fin cfg3.N, cond3_1 (grid3.coords t) ↔ t.val % 196 = 195 :=
  (by decide +kernel : ∀ t : Fin grid3.N, cond3_1 (grid3.coords t) ↔ t.val % 196 = 195)

/-! ## Where the windows are idle -/

/-- The three input windows are never idle. -/
theorem liveAt3_0 (i : grid3.Coords) : cfg3.idle 0 i = false := rfl
theorem liveAt3_1 (i : grid3.Coords) : cfg3.idle 1 i = false := rfl
theorem liveAt3_2 (i : grid3.Coords) : cfg3.idle 2 i = false := rfl
/-- The output window is idle wherever the second test fails, -/
theorem idleAt3_3 (i : grid3.Coords) (h : ¬cond3_1 i) : cfg3.idle 3 i = true := by
  show (!(k3_cond2 i == 1#1)) = true
  simp only [Bool.not_eq_true', beq_eq_false_iff_ne, ne_eq]; exact h
/-- and live where it holds. -/
theorem liveAt3_3 (i : grid3.Coords) (h : cond3_1 i) : cfg3.idle 3 i = false := by
  show (!(k3_cond2 i == 1#1)) = false
  simp only [Bool.not_eq_false', beq_iff_eq]; exact h
/-- The output tile is not written back at a point that is not ≡ 195 (mod 196). -/
theorem noFlush3_3 (t : Fin cfg3.N) (h : ¬t.val % 196 = 195) : (cfg3.win 3).flush t = false :=
  Bool.eq_false_iff.mpr fun hf => h ((flush3_3 t).mp hf)

/-! ## The region's entry invariant, with the accumulator split off -/

/-- What the launch hands the region: the accumulator whole at some contents, every other scoped buffer
    unopened, the generator register at some state. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The whole-tile store -/
/-- The whole 2048 × 128 tile: the rectangle of every store into the accumulator and into the output tile. -/
abbrev rT3 : Rect S2048x128 := Rect.unit (s := S2048x128) ![0, 0] S2048x128.size inb_S2048x128_S2048x128_0_0

/-- A store of the whole tile, made last, covers the tile whatever was stored before. -/
theorem cover3 (p : Vec F S2048x128 .f32) (L : List (View.Piece (Elt F) S2048x128 .f32)) (y : S2048x128.Idx) :
    ∃ pc ∈ ((⟨rT3, p⟩ : View.Piece (Elt F) S2048x128 .f32) :: L), y ∈ pc.1.set :=
  ⟨_, List.mem_cons.mpr (Or.inl rfl), View.mem_set_unit_zero hz3_2 inb_S2048x128_S2048x128_0_0 y⟩

/-! ## The body where a node tile's run begins -/
set_option maxHeartbeats 1000000 in
/-- The body at the first edge tile of a node tile, on whole memrefs: the three inputs and the output tile are
    left as found, and the accumulator, found at anything, ends at the one-hot product of this edge tile added
    to zeros (it is zeroed, read back, and the sum stored over the zeros). -/
theorem sound_kernel3_A (c : Dev nD) (E : Set ℕ) (i : grid3.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : cond3_0 i) (hc1 : ¬cond3_1 i)
    (x0 : Vec F S4096x128 .bf16) (x1 : Vec F S4096 .i32) (x2 : Vec F S2048x128 .f32) (xi3 : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k3_pay2 i x1 x0 (k3_pay1 (F := F)))) -∗ K ⟨⟩))
      ⊢ wp frame (wpE (defs₀ (F := F)) Variants.none c none) E (cc3__scatter_kernel i arg2 harg2 arg3 harg3 arg4 harg4 arg5 harg5 arg6 harg6) K := by
  simp only [cc3__scatter_kernel_eq_skeleton]; unfold cc3__scatter_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (cover3 _ _)).trans ?_
  rw [View.canon_cons_unit_zero (S := S2048x128) hz3_2]
  simp only [View.readCov_unit_zero (S := S2048x128) _ hz3_2, View.readAt_eq_ld, View.ld_unit_zero (S := S4096) hz3_1, View.ld_unit_zero (S := S4096x128) hz3_2]

end Cert.Kernel.Hand

end
-- ==== Proof.KB.Reg3.RunB.lean ====
/-
  Region 3 of the kernel's program, second part: the body's triple at a point inside a node tile's run, where
  neither test on the edge-tile coordinate holds. Nothing is zeroed and nothing is stored into the output tile:
  the accumulator is read, the one-hot product of this edge tile is added, and the sum is stored back.
-/
import proofs.«177903_j22574348108073_1_alg».proof.Proof.KB.Reg3.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point inside a node tile's run (edge tile neither first nor last), on whole memrefs: the three
    inputs and the output tile are left as found, and the accumulator, found at `xs`, ends at the one-hot product
    of this edge tile added to `xs`. -/
theorem sound_kernel3_B (c : Dev nD) (E : Set ℕ) (i : grid3.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond3_0 i) (hc1 : ¬cond3_1 i)
    (x0 : Vec F S4096x128 .bf16) (x1 : Vec F S4096 .i32) (x2 : Vec F S2048x128 .f32) (xi3 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k3_pay2 i x1 x0 xs)) -∗ K ⟨⟩))
      ⊢ wp frame (wpE (defs₀ (F := F)) Variants.none c none) E (cc3__scatter_kernel i arg2 harg2 arg3 harg3 arg4 harg4 arg5 harg5 arg6 harg6) K := by
  simp only [cc3__scatter_kernel_eq_skeleton]; unfold cc3__scatter_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (cover3 _ _)).trans ?_
  rw [View.canon_cons_unit_zero (S := S2048x128) hz3_2]
  simp only [View.readAt_eq_ld, View.ld_unit_zero (S := S4096) hz3_1, View.ld_unit_zero (S := S4096x128) hz3_2, View.ld_unit_zero (S := S2048x128) hz3_2]

end Cert.Kernel.Hand

end
-- ==== Proof.KB.Reg3.RunC.lean ====
/-
  Region 3 of the kernel's program, third part: the body's triple where a node tile's run ends (edge-tile
  coordinate 195). After the update the accumulator is read back, the node tile of the projected features is
  added, and the sum, under the rectifier where the layer has one (the skeleton's third payload says which), is stored as the
  output tile.
-/
import proofs.«177903_j22574348108073_1_alg».proof.Proof.KB.Reg3.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the last edge tile of a node tile, on whole memrefs: the three inputs are left as found; the
    accumulator, found at `xs`, ends at the one-hot product of this edge tile added to `xs`; and the output
    tile ends at that sum + the node tile of the projected features, under the rectifier where the layer has one (the skeleton's third payload says which). -/
theorem sound_kernel3_C (c : Dev nD) (E : Set ℕ) (i : grid3.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond3_0 i) (hc1 : cond3_1 i)
    (x0 : Vec F S4096x128 .bf16) (x1 : Vec F S4096 .i32) (x2 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k3_pay3 (k3_pay2 i x1 x0 xs) x2) ∗ owns (c : Thread nD τ) arg6 fullShare (k3_pay2 i x1 x0 xs)) -∗ K ⟨⟩))
      ⊢ wp frame (wpE (defs₀ (F := F)) Variants.none c none) E (cc3__scatter_kernel i arg2 harg2 arg3 harg3 arg4 harg4 arg5 harg5 arg6 harg6) K := by
  simp only [cc3__scatter_kernel_eq_skeleton]; unfold cc3__scatter_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (View.read_writes_eq_canon _ _ _ (cover3 _ _)).trans ?_
    rw [View.canon_cons_unit_zero (S := S2048x128) hz3_2]
    simp only [View.readCov_unit_zero (S := S2048x128) _ hz3_2, View.readAt_eq_ld, View.ld_unit_zero (S := S4096) hz3_1, View.ld_unit_zero (S := S4096x128) hz3_2, View.ld_unit_zero (S := S2048x128) hz3_2]
  iexists _; isplitr
  swap; · iexact HS
  ipureintro
  sl_unfold_words
  refine (View.read_writes_eq_canon _ _ _ (cover3 _ _)).trans ?_
  rw [View.canon_cons_unit_zero (S := S2048x128) hz3_2]
  simp only [View.readAt_eq_ld, View.ld_unit_zero (S := S4096) hz3_1, View.ld_unit_zero (S := S4096x128) hz3_2, View.ld_unit_zero (S := S2048x128) hz3_2]

end Cert.Kernel.Hand

end
-- ==== Proof.KB.Reg3.Body.lean ====
/-
  Region 3 of the kernel's program, last part: the pipeline's body obligation at every grid point, and the
  invariant's two ends.

  A point of the grid is the first of a node tile's run (≡ 0 mod 196), the last (≡ 195), or neither. The closed
  form of the accumulator unfolds accordingly — over zeros at a run's first point, over what the point before left
  elsewhere — and in each case the body's triple of that case applies: the inputs' staging memrefs hold their
  blocks, the invariant lends the accumulator (at anything before the very first point, at the previous point's
  closed form afterwards) and takes it back at this point's closed form; the output tile is handed back untouched
  where the window is idle and holds accumulator + residual, under the rectifier where the layer has one (the skeleton's third payload says which), where a run ends. The other scoped buffers
  and the generator register pass through unopened.
-/
import proofs.«177903_j22574348108073_1_alg».proof.Proof.KB.Reg3.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's closed form, one step unfolded -/

/-- At the first point of a node tile's run the accumulator is this point's one-hot product added to zeros. -/
theorem acc3_first (c : Dev nD) (t : Fin cfg3.N) (h0 : t.val % 196 = 0) :
    acc3 V c t.val t.isLt = k3_pay2 (grid3.coords t) (iblk3 V c 1 t) (iblk3 V c 0 t) (k3_pay1 (F := F)) := by
  obtain ⟨n, hn⟩ := t
  cases n with
  | zero => rfl
  | succ n =>
    have h0' : (n + 1) % 196 = 0 := h0
    show acc3 V c (n + 1) hn = _
    rw [acc3, if_pos h0']

/-- At any other point it is this point's one-hot product added to what the point before left. -/
theorem acc3_next (c : Dev nD) (t : Fin cfg3.N) (h0 : ¬t.val % 196 = 0) :
    acc3 V c t.val t.isLt = k3_pay2 (grid3.coords t) (iblk3 V c 1 t) (iblk3 V c 0 t)
      (acc3 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 196 = 0 := h0
    show acc3 V c (n + 1) hn = _
    rw [acc3, if_neg h0']
    rfl

/-! ## What the windows' staging buffers are left at -/

/-- An input window's buffer is left at what the proof data names (the window is never idle). -/
theorem leaves3_0 (c : Dev nD) (t : Fin cfg3.N) :
    (dat3 V c).leavesExact 0 t = owns (c : Thread nD τ) (st3_0 t) fullShare ((dat3 V c).after 0 t) := by
  unfold Dat.leavesExact; rw [liveAt3_0 (grid3.coords t)]
theorem leaves3_1 (c : Dev nD) (t : Fin cfg3.N) :
    (dat3 V c).leavesExact 1 t = owns (c : Thread nD τ) (st3_1 t) fullShare ((dat3 V c).after 1 t) := by
  unfold Dat.leavesExact; rw [liveAt3_1 (grid3.coords t)]
theorem leaves3_2 (c : Dev nD) (t : Fin cfg3.N) :
    (dat3 V c).leavesExact 2 t = owns (c : Thread nD τ) (st3_2 t) fullShare ((dat3 V c).after 2 t) := by
  unfold Dat.leavesExact; rw [liveAt3_2 (grid3.coords t)]
/-- The output window's buffer, where a node tile's run ends, is left at the stored tile. -/
theorem leaves3_3 (c : Dev nD) (t : Fin cfg3.N) (h : cond3_1 (grid3.coords t)) :
    (dat3 V c).leavesExact 3 t = owns (c : Thread nD τ) (st3_3 t) fullShare ((dat3 V c).after 3 t) := by
  unfold Dat.leavesExact; rw [liveAt3_3 (grid3.coords t) h]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point, by the point's place in its node tile's run. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, after3_0, leaves3_1, after3_1, leaves3_2, after3_2]
  have hN : t.val < 4900 := lt_of_lt_of_eq t.isLt (show cfg3.N = 4900 from N_3)
  by_cases h0 : t.val % 196 = 0
  · -- a node tile's run begins
    have hc0 : cond3_0 (grid3.coords t) := (hcond3_0 t).mpr h0
    have h1 : ¬t.val % 196 = 195 := by omega
    have hc1 : ¬cond3_1 (grid3.coords t) := fun h => h1 ((hcond3_1 t).mp h)
    rw [Dat.leavesExact_idle (dat3 V c) 3 t (idleAt3_3 (grid3.coords t) hc1) (noFlush3_3 t h1)]
    rw [acc3_first V c t h0]
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩⟩
      iapply (sound_kernel3_A c Set.univ (grid3.coords t) _ _ _ _ _ _ _ _ _ _ hc0 hc1 (iblk3 V c 0 t) (iblk3 V c 1 t) (iblk3 V c 2 t) ((dat3 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_A c Set.univ (grid3.coords t) _ _ _ _ _ _ _ _ _ _ hc0 hc1 (iblk3 V c 0 t) (iblk3 V c 1 t) (iblk3 V c 2 t) ((dat3 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3
  · have hc0 : ¬cond3_0 (grid3.coords t) := fun h => h0 ((hcond3_0 t).mp h)
    have hz : t.val ≠ 0 := fun h => h0 (by rw [h])
    by_cases h1 : t.val % 196 = 195
    · -- a node tile's run ends
      have hc1 : cond3_1 (grid3.coords t) := (hcond3_1 t).mpr h1
      rw [leaves3_3 V c t hc1, after3_3]
      unfold res3
      rw [acc3_next V c t h0]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_C c Set.univ (grid3.coords t) _ _ _ _ _ _ _ _ _ _ hc0 hc1 (iblk3 V c 0 t) (iblk3 V c 1 t) (iblk3 V c 2 t)
        (acc3 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- inside a node tile's run
      have hc1 : ¬cond3_1 (grid3.coords t) := fun h => h1 ((hcond3_1 t).mp h)
      rw [Dat.leavesExact_idle (dat3 V c) 3 t (idleAt3_3 (grid3.coords t) hc1) (noFlush3_3 t h1)]
      rw [acc3_next V c t h0]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_B c Set.univ (grid3.coords t) _ _ _ _ _ _ _ _ _ _ hc0 hc1 (iblk3 V c 0 t) (iblk3 V c 1 t) (iblk3 V c 2 t) ((dat3 V c).before 3 t d3)
        (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the entry form back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 4900 := N_3; omega)

end Cert.Kernel.Hand

end
-- ==== Proof.KB.Reg4.Body.lean ====
/-
  Region 4 of the kernel's program (the linear projection of the node features): the body's triple on whole
  staging memrefs — the three inputs are left as they were and the output tile ends holding product + bias —
  and from it the pipeline's body obligation at every grid point, for the proof data of the region's data module.
-/
import proofs.«177903_j22574348108073_1_alg».proof.Proof.KB.Reg4.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hzz4 : (![0, 0] : Fin 2 → Nat) = fun _ => 0 := by funext a; fin_cases a <;> rfl
theorem hzo4 : (![0] : Fin 1 → Nat) = fun _ => 0 := by funext a; fin_cases a; rfl

/-- The whole 2048 × 128 tile, the body's one store. -/
abbrev r4_o : Rect S2048x128 := Rect.unit (s := S2048x128) ![0, 0] S2048x128.size inb_S2048x128_S2048x128_0_0

/-- The one store covers the tile. -/
theorem cover4_3 (p0 : Vec F S2048x128 .f32) (y : S2048x128.Idx) :
    ∃ pc ∈ ([⟨r4_o, p0⟩] : List (View.Piece (Elt F) S2048x128 .f32)), y ∈ pc.1.set :=
  View.cover_of_tiled [⟨r4_o, p0⟩] S2048x128.size (by rfl) y

set_option maxHeartbeats 1000000 in
/-- The body on whole staging memrefs: the three inputs are left as they were, the output holds product + bias. -/
theorem sound_kernel4 (c : Dev nD) (E : Set ℕ) (i : grid4.Coords) (arg1 : Memref sig .tc .vmem S2048x128 .f32) (harg1 : arg1.IsWhole)
    (arg2 : Memref sig .tc .vmem S128x128 .f32) (harg2 : arg2.IsWhole) (arg3 : Memref sig .tc .vmem S128 .f32) (harg3 : arg3.IsWhole)
    (arg4 : Memref sig .tc .vmem S2048x128 .f32) (harg4 : arg4.IsWhole)
    (x0 : Vec F S2048x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (View.read_writes_eq_canon _ _ _ (cover4_3 _)).trans ?_
  rw [View.canon_unit_zero (S := S2048x128) hzz4]
  unfold out4_3
  simp only [View.readAt_eq_ld, View.ld_unit_zero (S := S2048x128) hzz4, View.ld_unit_zero (S := S128x128) hzz4, View.ld_unit_zero (S := S128) hzo4]

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Reg5.RunA.lean ====
/-
  Region 5, the gather: what the body's conditionals depend on, and the body's run at the first node tile of an
  edge tile.

  The body branches twice on the node-tile coordinate j (the fast grid axis): it zeroes the accumulator when
  j = 0 and stores the output tile when j = 24. In the linear order of the 196 × 25 grid these are the points
  ≡ 0 and ≡ 24 (mod 25). The output window is idle, and not written back, wherever j ≠ 24. This module states
  the two conditions in closed form, where the windows are idle, the staging memrefs the body is called with, and
  the region's entry invariant with the accumulator made explicit; then it runs the body in the case j = 0: the
  accumulator is stored twice (zeros, then the one-hot product added to the zeros read back), and it ends at
  the product payload applied to this point's source nodes, its node tile, and the zero payload.
-/
import proofs.«177903_j22574348108073_1_alg».proof.Proof.KB.Reg5.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions on the node-tile coordinate -/

/-- The first conditional's condition as the body computes it from the grid coordinates: "node tile = 0". -/
abbrev cond5_0 (i : grid5.Coords) : Prop :=
  (Scalar.cmpi .ne (Scalar.extui (Scalar.cmpi .eq (BitVec.ofNat 32 (i 1).val) 0#32)) 0#32) = 1#1
/-- It holds exactly at the first node tile of each edge tile: the points ≡ 0 (mod 25). -/
theorem hcond5_0 : ∀ t : Fin cfg5.N, cond5_0 (grid5.coords t) ↔ t.val % 25 = 0 :=
  (by decide +kernel : ∀ t : Fin grid5.N, cond5_0 (grid5.coords t) ↔ t.val % 25 = 0)

/-- The second conditional's condition: "node tile = 24". -/
abbrev cond5_1 (i : grid5.Coords) : Prop := k5_cond2 i = 1#1
/-- It holds exactly at the last node tile of each edge tile: the points ≡ 24 (mod 25). -/
theorem hcond5_1 : ∀ t : Fin cfg5.N, cond5_1 (grid5.coords t) ↔ t.val % 25 = 24 :=
  (by decide +kernel : ∀ t : Fin grid5.N, cond5_1 (grid5.coords t) ↔ t.val % 25 = 24)

/-! ## Where the windows are idle -/

/-- The four input windows are never idle. -/
theorem liveAt5_0 (t : Fin cfg5.N) : cfg5.idle 0 (grid5.coords t) = false := rfl
theorem liveAt5_1 (t : Fin cfg5.N) : cfg5.idle 1 (grid5.coords t) = false := rfl
theorem liveAt5_2 (t : Fin cfg5.N) : cfg5.idle 2 (grid5.coords t) = false := rfl
theorem liveAt5_3 (t : Fin cfg5.N) : cfg5.idle 3 (grid5.coords t) = false := rfl
/-- Away from the last node tile the output window is idle: nothing is stored into it, -/
theorem idleAt5_4 (t : Fin cfg5.N) (h : ¬cond5_1 (grid5.coords t)) : cfg5.idle 4 (grid5.coords t) = true := by
  show (!(k5_cond2 (grid5.coords t) == 1#1)) = true
  rw [Bool.not_eq_true', beq_eq_false_iff_ne]; exact h
/-- and its block is not written back. -/
theorem noFlush5_4 (t : Fin cfg5.N) (h : ¬cond5_1 (grid5.coords t)) : (cfg5.win 4).flush t = false := by
  cases hf : (cfg5.win 4).flush t with
  | false => rfl
  | true => exact absurd ((hcond5_1 t).mpr ((flush5_4 t).mp hf)) h
/-- At the last node tile it is live. -/
theorem liveAt5_4 (t : Fin cfg5.N) (h : cond5_1 (grid5.coords t)) : cfg5.idle 4 (grid5.coords t) = false := by
  show (!(k5_cond2 (grid5.coords t) == 1#1)) = false
  rw [show k5_cond2 (grid5.coords t) = 1#1 from h]; rfl

/-! ## The memrefs the body is called with -/

/-- Each window's current staging memref at point `t`, as the pipeline passes it, with its wholeness. -/
abbrev ms5_0 (t : Fin cfg5.N) : Memref sig .tc .vmem S2048x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4096 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4096 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S4096x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S4096x128 .bf16 := win5_4.stage (cfg5.slots t 4)
abbrev hs5_4 (t : Fin cfg5.N) : (ms5_4 t).IsWhole := hstage5_4 ((cfg5.slots t 4).cast nbuf5_4)

/-- The accumulator as a view: what it holds is stated through it. -/
abbrev VS5 : View sig .tc .vmem S4096x128 .f32 := (scM5 : Memref sig .tc .vmem S4096x128 .f32).view
/-- One staging buffer of the output window, through which the stored tile is stated. -/
abbrev VO5 : View sig .tc .vmem S4096x128 .bf16 := (Memref.whole cc5_stg4_0 : Memref sig .tc .vmem S4096x128 .bf16).view

/-- The zero offsets of the whole-buffer rectangles, spelt as a constant function. -/
theorem hzz5 : (![0, 0] : Fin 2 → Nat) = fun _ => 0 := by funext a; fin_cases a <;> rfl
theorem hzu5 : (![0] : Fin 1 → Nat) = fun _ => 0 := by funext a; fin_cases a; rfl

/-- The region's entry invariant with the accumulator split off the scoped rest: the accumulator whole at some
    contents, every other scoped buffer unopened, the generator register at some state. -/
theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-! ## The body at the first node tile of an edge tile -/

set_option maxHeartbeats 1000000 in
/-- THE RUN, case "first node tile" (first conditional taken, second not). On whole memrefs — the four inputs at
    their contents, the output's buffer at contents handed back untouched, the accumulator at anything — the body
    runs to a continuation holding the inputs as they were, the output's buffer as it was, and the accumulator
    with the pieces its two stores wrote (last first): the witness the symbolic run finds. -/
noncomputable def kernelRun5_A (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond5_0 i) (hc1 : ¬cond5_1 i)
    (x0 : Vec F S2048x128 .f32) (x1 : Vec F S4096 .i32) (x2 : Vec F S4096 .f32) (x3 : Vec F S4096x128 .f32) :
    { LS0 : List (View.Piece (Elt F) S4096x128 .f32) //
      ∀ (xi4 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5__gather_kernel i arg2 harg2 arg3 harg3 arg4 harg4 arg5 harg5 arg6 harg6 arg7 harg7) K } := by
  refine ⟨?_, fun xi4 E K => ?run⟩
  case run =>
    simp only [cc5__gather_kernel_eq_skeleton]; unfold cc5__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The two pieces tile the accumulator, so they cover it. -/
theorem scover5_A (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond5_0 i) (hc1 : ¬cond5_1 i)
    (x0 : Vec F S2048x128 .f32) (x1 : Vec F S4096 .i32) (x2 : Vec F S4096 .f32) (x3 : Vec F S4096x128 .f32) (y : S4096x128.Idx) :
    ∃ pc ∈ (kernelRun5_A c i arg2 harg2 arg3 harg3 arg4 harg4 arg5 harg5 arg6 harg6 arg7 harg7 hc0 hc1 x0 x1 x2 x3).1, y ∈ pc.1.set :=
  View.cover_of_tiledL (kernelRun5_A c i arg2 harg2 arg3 harg3 arg4 harg4 arg5 harg5 arg6 harg6 arg7 harg7 hc0 hc1 x0 x1 x2 x3).1 S4096x128.size (by sl_kernel_rfl) y

/-- What the case leaves in the accumulator: its pieces read back. -/
def sout5_A (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond5_0 i) (hc1 : ¬cond5_1 i)
    (x0 : Vec F S2048x128 .f32) (x1 : Vec F S4096 .i32) (x2 : Vec F S4096 .f32) (x3 : Vec F S4096x128 .f32) : Vec F S4096x128 .f32 :=
  VS5.read (Elt F) (VS5.writes (Elt F) VS5.junk (kernelRun5_A c i arg2 harg2 arg3 harg3 arg4 harg4 arg5 harg5 arg6 harg6 arg7 harg7 hc0 hc1 x0 x1 x2 x3).1)

/-- IN CLOSED FORM: the one-hot product of this point's source nodes and node tile, added to zeros. -/
theorem sout5_A_eq (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond5_0 i) (hc1 : ¬cond5_1 i)
    (x0 : Vec F S2048x128 .f32) (x1 : Vec F S4096 .i32) (x2 : Vec F S4096 .f32) (x3 : Vec F S4096x128 .f32) :
    sout5_A c i arg2 harg2 arg3 harg3 arg4 harg4 arg5 harg5 arg6 harg6 arg7 harg7 hc0 hc1 x0 x1 x2 x3 = k5_pay2 i x1 x0 (k5_pay1 (F := F)) := by
  unfold sout5_A
  rw [View.read_writes_eq_canon _ _ _ (scover5_A c i arg2 harg2 arg3 harg3 arg4 harg4 arg5 harg5 arg6 harg6 arg7 harg7 hc0 hc1 x0 x1 x2 x3)]
  unfold kernelRun5_A
  dsimp only
  sl_unfold_words
  rw [View.canon_cons_unit_zero (S := S4096x128) hzz5]
  simp only [View.readAt_eq_ld, harg2.read_unread, harg3.read_unread, View.ld_unit_zero (S := S2048x128) hzz5, View.ld_unit_zero (S := S4096) hzu5, View.readCov_unit_zero (S := S4096x128) _ hzz5]

end Cert.Kernel.Hand

end
-- ==== Proof.KB.Reg5.RunB.lean ====
/-
  Region 5, the gather: the body's run at an inner node tile of an edge tile (neither the first nor the last).

  Neither conditional is taken: the body reads the accumulator the point before left, adds the one-hot product of
  this point's source nodes with its node tile, and stores the sum back; the output window is untouched.
-/
import proofs.«177903_j22574348108073_1_alg».proof.Proof.KB.Reg5.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RUN, case "inner node tile" (neither conditional taken). On whole memrefs — the four inputs at their
    contents, the output's buffer at contents handed back untouched, the accumulator at what the point before left
    (`xs`) — the body runs to a continuation holding the inputs and the output's buffer as they were and the
    accumulator with the piece its one store wrote. -/
noncomputable def kernelRun5_B (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : ¬cond5_1 i)
    (x0 : Vec F S2048x128 .f32) (x1 : Vec F S4096 .i32) (x2 : Vec F S4096 .f32) (x3 : Vec F S4096x128 .f32) (xs : Vec F S4096x128 .f32) :
    { LS0 : List (View.Piece (Elt F) S4096x128 .f32) //
      ∀ (xi4 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5__gather_kernel i arg2 harg2 arg3 harg3 arg4 harg4 arg5 harg5 arg6 harg6 arg7 harg7) K } := by
  refine ⟨?_, fun xi4 E K => ?run⟩
  case run =>
    simp only [cc5__gather_kernel_eq_skeleton]; unfold cc5__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The one piece tiles the accumulator, so it covers it. -/
theorem scover5_B (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : ¬cond5_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun5_B c i arg2 harg2 arg3 harg3 arg4 harg4 arg5 harg5 arg6 harg6 arg7 harg7 hc0 hc1 x0 x1 x2 x3 xs).1, y ∈ pc.1.set :=
  View.cover_of_tiledL (kernelRun5_B c i arg2 harg2 arg3 harg3 arg4 harg4 arg5 harg5 arg6 harg6 arg7 harg7 hc0 hc1 x0 x1 x2 x3 xs).1 S4096x128.size (by sl_kernel_rfl) y

/-- What the case leaves in the accumulator: its piece read back. -/
def sout5_B (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : ¬cond5_1 i)
    (x0 : Vec F S2048x128 .f32) (x1 : Vec F S4096 .i32) (x2 : Vec F S4096 .f32) (x3 : Vec F S4096x128 .f32) (xs : Vec F S4096x128 .f32) : Vec F S4096x128 .f32 :=
  VS5.read (Elt F) (VS5.writes (Elt F) VS5.junk (kernelRun5_B c i arg2 harg2 arg3 harg3 arg4 harg4 arg5 harg5 arg6 harg6 arg7 harg7 hc0 hc1 x0 x1 x2 x3 xs).1)

/-- IN CLOSED FORM: the one-hot product of this point's source nodes and node tile, added to the accumulator. -/
theorem sout5_B_eq (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : ¬cond5_1 i)
    (x0 : Vec F S2048x128 .f32) (x1 : Vec F S4096 .i32) (x2 : Vec F S4096 .f32) (x3 : Vec F S4096x128 .f32) (xs : Vec F S4096x128 .f32) :
    sout5_B c i arg2 harg2 arg3 harg3 arg4 harg4 arg5 harg5 arg6 harg6 arg7 harg7 hc0 hc1 x0 x1 x2 x3 xs = k5_pay2 i x1 x0 xs := by
  unfold sout5_B
  rw [View.read_writes_eq_canon _ _ _ (scover5_B c i arg2 harg2 arg3 harg3 arg4 harg4 arg5 harg5 arg6 harg6 arg7 harg7 hc0 hc1 x0 x1 x2 x3 xs)]
  unfold kernelRun5_B
  dsimp only
  sl_unfold_words
  rw [View.canon_unit_zero (S := S4096x128) hzz5]
  simp only [View.readAt_eq_ld, harg2.read_unread, harg3.read_unread, harg4.read_unread, harg5.read_unread, harg7.read_unread, View.ld_unit_zero (S := S2048x128) hzz5, View.ld_unit_zero (S := S4096x128) hzz5, View.ld_unit_zero (S := S4096) hzu5, View.readCov_unit_zero (S := S4096x128) _ hzz5]

end Cert.Kernel.Hand

end
-- ==== Proof.KB.Reg5.RunC.lean ====
/-
  Region 5, the gather: the body's run at the last node tile of an edge tile.

  The first conditional is not taken, the second is: the body adds this point's one-hot product into the
  accumulator as at an inner point, then reads the accumulator back, adds the edge embedding tile, scales each edge's row
  by its normalisation factor, rounds to bf16 and stores the result as the output tile.
-/
import proofs.«177903_j22574348108073_1_alg».proof.Proof.KB.Reg5.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RUN, case "last node tile" (second conditional taken). On whole memrefs — the four inputs at their
    contents, the output's buffer at anything, the accumulator at what the point before left (`xs`) — the body runs
    to a continuation holding the inputs as they were, and the output's buffer and the accumulator each with the
    piece its one store wrote. -/
noncomputable def kernelRun5_C (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) :
    Σ' (L4 : List (View.Piece (Elt F) S4096x128 .bf16)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc5__gather_kernel i arg2 harg2 arg3 harg3 arg4 harg4 arg5 harg5 arg6 harg6 arg7 harg7) K } := by
  refine ⟨?_, ?_, fun E K => ?run⟩
  case run =>
    simp only [cc5__gather_kernel_eq_skeleton]; unfold cc5__gather_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- The one piece stored into the output's buffer tiles it, so it covers it. -/
theorem cover5_C (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun5_C c i arg2 harg2 arg3 harg3 arg4 harg4 arg5 harg5 arg6 harg6 arg7 harg7 hc0 hc1 x0 x1 x2 x3 xs).1, y ∈ pc.1.set :=
  View.cover_of_tiledL (kernelRun5_C c i arg2 harg2 arg3 harg3 arg4 harg4 arg5 harg5 arg6 harg6 arg7 harg7 hc0 hc1 x0 x1 x2 x3 xs).1 S4096x128.size (by sl_kernel_rfl) y

/-- The one piece stored into the accumulator covers it. -/
theorem scover5_C (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun5_C c i arg2 harg2 arg3 harg3 arg4 harg4 arg5 harg5 arg6 harg6 arg7 harg7 hc0 hc1 x0 x1 x2 x3 xs).2.1, y ∈ pc.1.set :=
  View.cover_of_tiledL (kernelRun5_C c i arg2 harg2 arg3 harg3 arg4 harg4 arg5 harg5 arg6 harg6 arg7 harg7 hc0 hc1 x0 x1 x2 x3 xs).2.1 S4096x128.size (by sl_kernel_rfl) y

/-- What the case leaves in the accumulator: its piece read back. -/
def sout5_C (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) : Vec F S4096x128 .f32 :=
  VS5.read (Elt F) (VS5.writes (Elt F) VS5.junk (kernelRun5_C c i arg2 harg2 arg3 harg3 arg4 harg4 arg5 harg5 arg6 harg6 arg7 harg7 hc0 hc1 x0 x1 x2 x3 xs).2.1)

/-- What it leaves in the output's buffer: its piece read back. -/
def out5_C (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) : Vec F S4096x128 .bf16 :=
  VO5.read (Elt F) (VO5.writes (Elt F) VO5.junk (kernelRun5_C c i arg2 harg2 arg3 harg3 arg4 harg4 arg5 harg5 arg6 harg6 arg7 harg7 hc0 hc1 x0 x1 x2 x3 xs).1)

/-- IN CLOSED FORM, the accumulator: the one-hot product added to what the point before left. -/
theorem sout5_C_eq (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) :
    sout5_C c i arg2 harg2 arg3 harg3 arg4 harg4 arg5 harg5 arg6 harg6 arg7 harg7 hc0 hc1 x0 x1 x2 x3 xs = k5_pay2 i x1 x0 xs := by
  unfold sout5_C
  rw [View.read_writes_eq_canon _ _ _ (scover5_C c i arg2 harg2 arg3 harg3 arg4 harg4 arg5 harg5 arg6 harg6 arg7 harg7 hc0 hc1 x0 x1 x2 x3 xs)]
  unfold kernelRun5_C
  dsimp only
  sl_unfold_words
  rw [View.canon_unit_zero (S := S4096x128) hzz5]
  simp only [View.readAt_eq_ld, harg2.read_unread, harg3.read_unread, harg4.read_unread, harg5.read_unread, harg7.read_unread, View.ld_unit_zero (S := S2048x128) hzz5, View.ld_unit_zero (S := S4096x128) hzz5, View.ld_unit_zero (S := S4096) hzu5, View.readCov_unit_zero (S := S4096x128) _ hzz5]

/-- IN CLOSED FORM, the output tile: normalisation × (the new accumulator + the edge embedding), rounded. -/
theorem out5_C_eq (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) :
    out5_C c i arg2 harg2 arg3 harg3 arg4 harg4 arg5 harg5 arg6 harg6 arg7 harg7 hc0 hc1 x0 x1 x2 x3 xs = k5_pay3 x2 (k5_pay2 i x1 x0 xs) x3 := by
  unfold out5_C
  rw [View.read_writes_eq_canon _ _ _ (cover5_C c i arg2 harg2 arg3 harg3 arg4 harg4 arg5 harg5 arg6 harg6 arg7 harg7 hc0 hc1 x0 x1 x2 x3 xs)]
  unfold kernelRun5_C
  dsimp only
  sl_unfold_words
  rw [View.canon_unit_zero (S := S4096x128) hzz5]
  simp only [View.readAt_eq_ld, harg2.read_unread, harg3.read_unread, harg4.read_unread, harg5.read_unread, harg7.read_unread, View.ld_unit_zero (S := S2048x128) hzz5, View.ld_unit_zero (S := S4096x128) hzz5, View.ld_unit_zero (S := S4096) hzu5, View.readCov_unit_zero (S := S4096x128) _ hzz5]

end Cert.Kernel.Hand

end
-- ==== Proof.KB.Reg5.Body.lean ====
/-
  Region 5, the gather: the body obligation of its pipeline.

  At every grid point the inputs' staging buffers hold their blocks. The point's position in its edge tile's run of
  25 node tiles selects the case: at the first the accumulator (at anything, or at what the previous run left) is
  zeroed and receives the first one-hot product; at an inner point it receives the next product on top of what the
  point before left; at the last it receives the last product and the output tile is stored from it. In each case
  the run's found pieces read back as the closed forms of the proof data (`acc5`, `msg5`); the rest of the scoped
  buffers and the generator register pass through untouched, and the core owes nothing throughout.
-/
import proofs.«177903_j22574348108073_1_alg».proof.Proof.KB.Reg5.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's closed form, case by case -/

/-- At the first node tile of an edge tile the accumulator restarts from zeros. -/
theorem acc5_first (c : Dev nD) (t : Fin cfg5.N) (h0 : t.val % 25 = 0) :
    acc5 V c t.val t.isLt = k5_pay2 (grid5.coords t) (iblk5 V c 1 t) (iblk5 V c 0 t) (k5_pay1 (F := F)) := by
  obtain ⟨n, hn⟩ := t
  cases n with
  | zero => rfl
  | succ n =>
    have h0' : (n + 1) % 25 = 0 := h0
    exact congrArg (k5_pay2 (grid5.coords ⟨n + 1, hn⟩) (iblk5 V c 1 ⟨n + 1, hn⟩) (iblk5 V c 0 ⟨n + 1, hn⟩)) (if_pos h0')

/-- At any other node tile it continues from what the point before left. -/
theorem acc5_next (c : Dev nD) (t : Fin cfg5.N) (h0 : ¬t.val % 25 = 0) :
    acc5 V c t.val t.isLt = k5_pay2 (grid5.coords t) (iblk5 V c 1 t) (iblk5 V c 0 t)
      (acc5 V c (t.val - 1) (Nat.lt_of_le_of_lt (Nat.sub_le _ _) t.isLt)) := by
  obtain ⟨n, hn⟩ := t
  cases n with
  | zero => exact absurd (Nat.zero_mod 25) h0
  | succ n =>
    have h0' : ¬(n + 1) % 25 = 0 := h0
    exact congrArg (k5_pay2 (grid5.coords ⟨n + 1, hn⟩) (iblk5 V c 1 ⟨n + 1, hn⟩) (iblk5 V c 0 ⟨n + 1, hn⟩)) (if_neg h0')

/-! ## What the body leaves in the windows' buffers -/

/-- Each input's buffer is left at its block (the inputs are never idle). -/
theorem leaves5_0 (c : Dev nD) (t : Fin cfg5.N) :
    (dat5 V c).leavesExact 0 t = owns (c : Thread nD τ) (ms5_0 t) fullShare (iblk5 V c 0 t) := by
  rw [show (dat5 V c).leavesExact 0 t = owns (c : Thread nD τ) (ms5_0 t) fullShare ((dat5 V c).after 0 t) from by
    unfold Dat.leavesExact; rw [liveAt5_0 t], after5_0]
theorem leaves5_1 (c : Dev nD) (t : Fin cfg5.N) :
    (dat5 V c).leavesExact 1 t = owns (c : Thread nD τ) (ms5_1 t) fullShare (iblk5 V c 1 t) := by
  rw [show (dat5 V c).leavesExact 1 t = owns (c : Thread nD τ) (ms5_1 t) fullShare ((dat5 V c).after 1 t) from by
    unfold Dat.leavesExact; rw [liveAt5_1 t], after5_1]
theorem leaves5_2 (c : Dev nD) (t : Fin cfg5.N) :
    (dat5 V c).leavesExact 2 t = owns (c : Thread nD τ) (ms5_2 t) fullShare (iblk5 V c 2 t) := by
  rw [show (dat5 V c).leavesExact 2 t = owns (c : Thread nD τ) (ms5_2 t) fullShare ((dat5 V c).after 2 t) from by
    unfold Dat.leavesExact; rw [liveAt5_2 t], after5_2]
theorem leaves5_3 (c : Dev nD) (t : Fin cfg5.N) :
    (dat5 V c).leavesExact 3 t = owns (c : Thread nD τ) (ms5_3 t) fullShare (iblk5 V c 3 t) := by
  rw [show (dat5 V c).leavesExact 3 t = owns (c : Thread nD τ) (ms5_3 t) fullShare ((dat5 V c).after 3 t) from by
    unfold Dat.leavesExact; rw [liveAt5_3 t], after5_3]
/-- At the last node tile the output's buffer is left at the stored tile. -/
theorem leaves5_4 (c : Dev nD) (t : Fin cfg5.N) (hc1 : cond5_1 (grid5.coords t)) :
    (dat5 V c).leavesExact 4 t = owns (c : Thread nD τ) (ms5_4 t) fullShare (msg5 V c t) := by
  rw [show (dat5 V c).leavesExact 4 t = owns (c : Thread nD τ) (ms5_4 t) fullShare ((dat5 V c).after 4 t) from by
    unfold Dat.leavesExact; rw [liveAt5_4 t hc1], after5_4]

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  have hN : t.val < 4900 := lt_of_lt_of_eq t.isLt (show cfg5.N = 4900 from N_5)
  by_cases h0 : t.val % 25 = 0
  · -- the first node tile of an edge tile
    have h1 : ¬t.val % 25 = 24 := by omega
    have hc0 : cond5_0 (grid5.coords t) := (hcond5_0 t).mpr h0
    have hc1 : ¬cond5_1 (grid5.coords t) := fun h => h1 ((hcond5_1 t).mp h)
    rw [leaves5_0 V c t, leaves5_1 V c t, leaves5_2 V c t, leaves5_3 V c t]
    rw [Dat.leavesExact_idle (dat5 V c) 4 t (idleAt5_4 t hc1) (noFlush5_4 t hc1)]
    rw [acc5_first V c t h0]
    by_cases hz : t.val = 0
    · rw [PhiS5_castSucc V c t, PhiS5_zero V c _ _ hz, PhiA5_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun5_A c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS5 VS5.junk _ (scover5_A c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t))).trans
              (sout5_A_eq c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t))
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun5_A c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS5 VS5.junk _ (scover5_A c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t))).trans
              (sout5_A_eq c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t))
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond5_0 (grid5.coords t) := fun h => h0 ((hcond5_0 t).mp h)
    by_cases h1 : t.val % 25 = 24
    · -- the last node tile of an edge tile
      have hc1 : cond5_1 (grid5.coords t) := (hcond5_1 t).mpr h1
      rw [leaves5_0 V c t, leaves5_1 V c t, leaves5_2 V c t, leaves5_3 V c t]
      rw [leaves5_4 V c t hc1]
      unfold msg5
      rw [acc5_next V c t h0]
      rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun5_C c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro
            exact (View.read_writes_of_cover _ _ VS5 VS5.junk _ (scover5_C c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt)))).trans
              (sout5_C_eq c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ VO5 VO5.junk _ (cover5_C c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt)))).trans
        (out5_C_eq c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt)))
    · -- an inner node tile
      have hc1 : ¬cond5_1 (grid5.coords t) := fun h => h1 ((hcond5_1 t).mp h)
      rw [leaves5_0 V c t, leaves5_1 V c t, leaves5_2 V c t, leaves5_3 V c t]
      rw [Dat.leavesExact_idle (dat5 V c) 4 t (idleAt5_4 t hc1) (noFlush5_4 t hc1)]
      rw [acc5_next V c t h0]
      rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun5_B c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS5 VS5.junk _ (scover5_B c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt)))).trans
              (sout5_B_eq c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the entry invariant back: the accumulator's named contents
    are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]
    · iexists _; iexact HS0
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 4900 := N_5; omega)

end Cert.Kernel.Hand

end
-- ==== Proof.KB.Reg6.RunA.lean ====
/-
  Region 6 of the kernel's program (the scatter onto the target nodes plus the residual), first part: what the three cases of the
  body share, and the body's triple in the case that opens a node tile's run.

  The body tests the edge-tile coordinate twice. Where it is 0 the accumulator is first overwritten with zeros;
  where it is 195 the output tile is stored after the update. Over the 25 × 196 grid, edge tile the fast axis,
  these are the points ≡ 0 and ≡ 195 (mod 196). The output window is idle, and not written back, at every point
  that is not ≡ 195. In every case the update reads the edge tile's target nodes and messages and the accumulator,
  and stores the one-hot product added to what it read; a store of the whole tile made last decides what the
  tile holds, and a load of the whole tile after such a store reads what was stored.
-/
import proofs.«177903_j22574348108073_1_alg».proof.Proof.KB.Reg6.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Zero offsets of a rank-2 and of a rank-1 rectangle, as the printed stores and loads spell them. -/
theorem hz6_2 : (![0, 0] : Fin 2 → Nat) = fun _ => 0 := by funext a; fin_cases a <;> rfl
theorem hz6_1 : (![0] : Fin 1 → Nat) = fun _ => 0 := by funext a; fin_cases a; rfl

/-! ## The two tests on the edge-tile coordinate -/

/-- The first test: the edge-tile coordinate is 0 (a node tile's run begins). -/
abbrev cond6_0 (i : grid6.Coords) : Prop := (Scalar.cmpi .ne (Scalar.extui (Scalar.cmpi .eq (BitVec.ofNat 32 (i 1).val) 0#32)) 0#32) = 1#1
/-- It holds exactly at the points ≡ 0 (mod 196): decided over the 4900 points. -/
theorem hcond6_0 : ∀ t : Fin cfg6.N, cond6_0 (grid6.coords t) ↔ t.val % 196 = 0 :=
  (by decide +kernel : ∀ t : Fin grid6.N, cond6_0 (grid6.coords t) ↔ t.val % 196 = 0)

/-- The second test: the edge-tile coordinate is 195 (a node tile's run ends). -/
abbrev cond6_1 (i : grid6.Coords) : Prop := k6_cond2 i = 1#1
/-- It holds exactly at the points ≡ 195 (mod 196). -/
theorem hcond6_1 : ∀ t : Fin cfg6.N, cond6_1 (grid6.coords t) ↔ t.val % 196 = 195 :=
  (by decide +kernel : ∀ t : Fin grid6.N, cond6_1 (grid6.coords t) ↔ t.val % 196 = 195)

/-! ## Where the windows are idle -/

/-- The three input windows are never idle. -/
theorem liveAt6_0 (i : grid6.Coords) : cfg6.idle 0 i = false := rfl
theorem liveAt6_1 (i : grid6.Coords) : cfg6.idle 1 i = false := rfl
theorem liveAt6_2 (i : grid6.Coords) : cfg6.idle 2 i = false := rfl
/-- The output window is idle wherever the second test fails, -/
theorem idleAt6_3 (i : grid6.Coords) (h : ¬cond6_1 i) : cfg6.idle 3 i = true := by
  show (!(k6_cond2 i == 1#1)) = true
  simp only [Bool.not_eq_true', beq_eq_false_iff_ne, ne_eq]; exact h
/-- and live where it holds. -/
theorem liveAt6_3 (i : grid6.Coords) (h : cond6_1 i) : cfg6.idle 3 i = false := by
  show (!(k6_cond2 i == 1#1)) = false
  simp only [Bool.not_eq_false', beq_iff_eq]; exact h
/-- The output tile is not written back at a point that is not ≡ 195 (mod 196). -/
theorem noFlush6_3 (t : Fin cfg6.N) (h : ¬t.val % 196 = 195) : (cfg6.win 3).flush t = false :=
  Bool.eq_false_iff.mpr fun hf => h ((flush6_3 t).mp hf)

/-! ## The region's entry invariant, with the accumulator split off -/

/-- What the launch hands the region: the accumulator whole at some contents, every other scoped buffer
    unopened, the generator register at some state. -/
theorem PhiA6_eq (c : Dev nD) :
    (Pipeline.ΦA spec6 c : sProp 𝕄)
      = iprop(iprop((∃ d, owns (c : Thread nD τ) scM6 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

/-! ## The whole-tile store -/
/-- The whole 2048 × 128 tile: the rectangle of every store into the accumulator and into the output tile. -/
abbrev rT6 : Rect S2048x128 := Rect.unit (s := S2048x128) ![0, 0] S2048x128.size inb_S2048x128_S2048x128_0_0

/-- A store of the whole tile, made last, covers the tile whatever was stored before. -/
theorem cover6 (p : Vec F S2048x128 .f32) (L : List (View.Piece (Elt F) S2048x128 .f32)) (y : S2048x128.Idx) :
    ∃ pc ∈ ((⟨rT6, p⟩ : View.Piece (Elt F) S2048x128 .f32) :: L), y ∈ pc.1.set :=
  ⟨_, List.mem_cons.mpr (Or.inl rfl), View.mem_set_unit_zero hz6_2 inb_S2048x128_S2048x128_0_0 y⟩

/-! ## The body where a node tile's run begins -/
set_option maxHeartbeats 1000000 in
/-- The body at the first edge tile of a node tile, on whole memrefs: the three inputs and the output tile are
    left as found, and the accumulator, found at anything, ends at the one-hot product of this edge tile added
    to zeros (it is zeroed, read back, and the sum stored over the zeros). -/
theorem sound_kernel6_A (c : Dev nD) (E : Set ℕ) (i : grid6.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : cond6_0 i) (hc1 : ¬cond6_1 i)
    (x0 : Vec F S4096x128 .bf16) (x1 : Vec F S4096 .i32) (x2 : Vec F S2048x128 .f32) (xi3 : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k6_pay2 i x1 x0 (k6_pay1 (F := F)))) -∗ K ⟨⟩))
      ⊢ wp frame (wpE (defs₀ (F := F)) Variants.none c none) E (cc6__scatter_kernel i arg2 harg2 arg3 harg3 arg4 harg4 arg5 harg5 arg6 harg6) K := by
  simp only [cc6__scatter_kernel_eq_skeleton]; unfold cc6__scatter_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (cover6 _ _)).trans ?_
  rw [View.canon_cons_unit_zero (S := S2048x128) hz6_2]
  simp only [View.readCov_unit_zero (S := S2048x128) _ hz6_2, View.readAt_eq_ld, View.ld_unit_zero (S := S4096) hz6_1, View.ld_unit_zero (S := S4096x128) hz6_2]

end Cert.Kernel.Hand

end
-- ==== Proof.KB.Reg6.RunB.lean ====
/-
  Region 6 of the kernel's program, second part: the body's triple at a point inside a node tile's run, where
  neither test on the edge-tile coordinate holds. Nothing is zeroed and nothing is stored into the output tile:
  the accumulator is read, the one-hot product of this edge tile is added, and the sum is stored back.
-/
import proofs.«177903_j22574348108073_1_alg».proof.Proof.KB.Reg6.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point inside a node tile's run (edge tile neither first nor last), on whole memrefs: the three
    inputs and the output tile are left as found, and the accumulator, found at `xs`, ends at the one-hot product
    of this edge tile added to `xs`. -/
theorem sound_kernel6_B (c : Dev nD) (E : Set ℕ) (i : grid6.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond6_0 i) (hc1 : ¬cond6_1 i)
    (x0 : Vec F S4096x128 .bf16) (x1 : Vec F S4096 .i32) (x2 : Vec F S2048x128 .f32) (xi3 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k6_pay2 i x1 x0 xs)) -∗ K ⟨⟩))
      ⊢ wp frame (wpE (defs₀ (F := F)) Variants.none c none) E (cc6__scatter_kernel i arg2 harg2 arg3 harg3 arg4 harg4 arg5 harg5 arg6 harg6) K := by
  simp only [cc6__scatter_kernel_eq_skeleton]; unfold cc6__scatter_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (cover6 _ _)).trans ?_
  rw [View.canon_cons_unit_zero (S := S2048x128) hz6_2]
  simp only [View.readAt_eq_ld, View.ld_unit_zero (S := S4096) hz6_1, View.ld_unit_zero (S := S4096x128) hz6_2, View.ld_unit_zero (S := S2048x128) hz6_2]

end Cert.Kernel.Hand

end
-- ==== Proof.KB.Reg6.RunC.lean ====
/-
  Region 6 of the kernel's program, third part: the body's triple where a node tile's run ends (edge-tile
  coordinate 195). After the update the accumulator is read back, the node tile of the projected features is
  added, and the sum, under the rectifier where the layer has one (the skeleton's third payload says which), is stored as the
  output tile.
-/
import proofs.«177903_j22574348108073_1_alg».proof.Proof.KB.Reg6.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the last edge tile of a node tile, on whole memrefs: the three inputs are left as found; the
    accumulator, found at `xs`, ends at the one-hot product of this edge tile added to `xs`; and the output
    tile ends at that sum + the node tile of the projected features, under the rectifier where the layer has one (the skeleton's third payload says which). -/
theorem sound_kernel6_C (c : Dev nD) (E : Set ℕ) (i : grid6.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond6_0 i) (hc1 : cond6_1 i)
    (x0 : Vec F S4096x128 .bf16) (x1 : Vec F S4096 .i32) (x2 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k6_pay3 (k6_pay2 i x1 x0 xs) x2) ∗ owns (c : Thread nD τ) arg6 fullShare (k6_pay2 i x1 x0 xs)) -∗ K ⟨⟩))
      ⊢ wp frame (wpE (defs₀ (F := F)) Variants.none c none) E (cc6__scatter_kernel i arg2 harg2 arg3 harg3 arg4 harg4 arg5 harg5 arg6 harg6) K := by
  simp only [cc6__scatter_kernel_eq_skeleton]; unfold cc6__scatter_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (View.read_writes_eq_canon _ _ _ (cover6 _ _)).trans ?_
    rw [View.canon_cons_unit_zero (S := S2048x128) hz6_2]
    simp only [View.readCov_unit_zero (S := S2048x128) _ hz6_2, View.readAt_eq_ld, View.ld_unit_zero (S := S4096) hz6_1, View.ld_unit_zero (S := S4096x128) hz6_2, View.ld_unit_zero (S := S2048x128) hz6_2]
  iexists _; isplitr
  swap; · iexact HS
  ipureintro
  sl_unfold_words
  refine (View.read_writes_eq_canon _ _ _ (cover6 _ _)).trans ?_
  rw [View.canon_cons_unit_zero (S := S2048x128) hz6_2]
  simp only [View.readAt_eq_ld, View.ld_unit_zero (S := S4096) hz6_1, View.ld_unit_zero (S := S4096x128) hz6_2, View.ld_unit_zero (S := S2048x128) hz6_2]

end Cert.Kernel.Hand

end
-- ==== Proof.KB.Reg6.Body.lean ====
/-
  Region 6 of the kernel's program, last part: the pipeline's body obligation at every grid point, and the
  invariant's two ends.

  A point of the grid is the first of a node tile's run (≡ 0 mod 196), the last (≡ 195), or neither. The closed
  form of the accumulator unfolds accordingly — over zeros at a run's first point, over what the point before left
  elsewhere — and in each case the body's triple of that case applies: the inputs' staging memrefs hold their
  blocks, the invariant lends the accumulator (at anything before the very first point, at the previous point's
  closed form afterwards) and takes it back at this point's closed form; the output tile is handed back untouched
  where the window is idle and holds accumulator + residual, under the rectifier where the layer has one (the skeleton's third payload says which), where a run ends. The other scoped buffers
  and the generator register pass through unopened.
-/
import proofs.«177903_j22574348108073_1_alg».proof.Proof.KB.Reg6.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's closed form, one step unfolded -/

/-- At the first point of a node tile's run the accumulator is this point's one-hot product added to zeros. -/
theorem acc6_first (c : Dev nD) (t : Fin cfg6.N) (h0 : t.val % 196 = 0) :
    acc6 V c t.val t.isLt = k6_pay2 (grid6.coords t) (iblk6 V c 1 t) (iblk6 V c 0 t) (k6_pay1 (F := F)) := by
  obtain ⟨n, hn⟩ := t
  cases n with
  | zero => rfl
  | succ n =>
    have h0' : (n + 1) % 196 = 0 := h0
    show acc6 V c (n + 1) hn = _
    rw [acc6, if_pos h0']

/-- At any other point it is this point's one-hot product added to what the point before left. -/
theorem acc6_next (c : Dev nD) (t : Fin cfg6.N) (h0 : ¬t.val % 196 = 0) :
    acc6 V c t.val t.isLt = k6_pay2 (grid6.coords t) (iblk6 V c 1 t) (iblk6 V c 0 t)
      (acc6 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 196 = 0 := h0
    show acc6 V c (n + 1) hn = _
    rw [acc6, if_neg h0']
    rfl

/-! ## What the windows' staging buffers are left at -/

/-- An input window's buffer is left at what the proof data names (the window is never idle). -/
theorem leaves6_0 (c : Dev nD) (t : Fin cfg6.N) :
    (dat6 V c).leavesExact 0 t = owns (c : Thread nD τ) (st6_0 t) fullShare ((dat6 V c).after 0 t) := by
  unfold Dat.leavesExact; rw [liveAt6_0 (grid6.coords t)]
theorem leaves6_1 (c : Dev nD) (t : Fin cfg6.N) :
    (dat6 V c).leavesExact 1 t = owns (c : Thread nD τ) (st6_1 t) fullShare ((dat6 V c).after 1 t) := by
  unfold Dat.leavesExact; rw [liveAt6_1 (grid6.coords t)]
theorem leaves6_2 (c : Dev nD) (t : Fin cfg6.N) :
    (dat6 V c).leavesExact 2 t = owns (c : Thread nD τ) (st6_2 t) fullShare ((dat6 V c).after 2 t) := by
  unfold Dat.leavesExact; rw [liveAt6_2 (grid6.coords t)]
/-- The output window's buffer, where a node tile's run ends, is left at the stored tile. -/
theorem leaves6_3 (c : Dev nD) (t : Fin cfg6.N) (h : cond6_1 (grid6.coords t)) :
    (dat6 V c).leavesExact 3 t = owns (c : Thread nD τ) (st6_3 t) fullShare ((dat6 V c).after 3 t) := by
  unfold Dat.leavesExact; rw [liveAt6_3 (grid6.coords t) h]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point, by the point's place in its node tile's run. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [leaves6_0, after6_0, leaves6_1, after6_1, leaves6_2, after6_2]
  have hN : t.val < 4900 := lt_of_lt_of_eq t.isLt (show cfg6.N = 4900 from N_6)
  by_cases h0 : t.val % 196 = 0
  · -- a node tile's run begins
    have hc0 : cond6_0 (grid6.coords t) := (hcond6_0 t).mpr h0
    have h1 : ¬t.val % 196 = 195 := by omega
    have hc1 : ¬cond6_1 (grid6.coords t) := fun h => h1 ((hcond6_1 t).mp h)
    rw [Dat.leavesExact_idle (dat6 V c) 3 t (idleAt6_3 (grid6.coords t) hc1) (noFlush6_3 t h1)]
    rw [acc6_first V c t h0]
    by_cases hz : t.val = 0
    · rw [PhiS6_castSucc V c t, PhiS6_zero V c _ _ hz, PhiA6_eq]
      iintro ⟨⟨⟨HS, HR⟩, Hg⟩, Ho, ⟨%d0, H0⟩, ⟨%d1, H1⟩, ⟨%d2, H2⟩, ⟨%d3, H3⟩⟩
      iapply (sound_kernel6_A c Set.univ (grid6.coords t) _ _ _ _ _ _ _ _ _ _ hc0 hc1 (iblk6 V c 0 t) (iblk6 V c 1 t) (iblk6 V c 2 t) ((dat6 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3
    · rw [PhiS6_castSucc V c t, PhiS6_pos V c _ _ hz]
      iintro ⟨⟨⟨HS, HR⟩, Hg⟩, Ho, ⟨%d0, H0⟩, ⟨%d1, H1⟩, ⟨%d2, H2⟩, ⟨%d3, H3⟩⟩
      iapply (sound_kernel6_A c Set.univ (grid6.coords t) _ _ _ _ _ _ _ _ _ _ hc0 hc1 (iblk6 V c 0 t) (iblk6 V c 1 t) (iblk6 V c 2 t) ((dat6 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3
  · have hc0 : ¬cond6_0 (grid6.coords t) := fun h => h0 ((hcond6_0 t).mp h)
    have hz : t.val ≠ 0 := fun h => h0 (by rw [h])
    by_cases h1 : t.val % 196 = 195
    · -- a node tile's run ends
      have hc1 : cond6_1 (grid6.coords t) := (hcond6_1 t).mpr h1
      rw [leaves6_3 V c t hc1, after6_3]
      unfold res6
      rw [acc6_next V c t h0]
      rw [PhiS6_castSucc V c t, PhiS6_pos V c _ _ hz]
      iintro ⟨⟨⟨HS, HR⟩, Hg⟩, Ho, ⟨%d0, H0⟩, ⟨%d1, H1⟩, ⟨%d2, H2⟩, ⟨%d3, H3⟩⟩
      iapply (sound_kernel6_C c Set.univ (grid6.coords t) _ _ _ _ _ _ _ _ _ _ hc0 hc1 (iblk6 V c 0 t) (iblk6 V c 1 t) (iblk6 V c 2 t)
        (acc6 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- inside a node tile's run
      have hc1 : ¬cond6_1 (grid6.coords t) := fun h => h1 ((hcond6_1 t).mp h)
      rw [Dat.leavesExact_idle (dat6 V c) 3 t (idleAt6_3 (grid6.coords t) hc1) (noFlush6_3 t h1)]
      rw [acc6_next V c t h0]
      rw [PhiS6_castSucc V c t, PhiS6_pos V c _ _ hz]
      iintro ⟨⟨⟨HS, HR⟩, Hg⟩, Ho, ⟨%d0, H0⟩, ⟨%d1, H1⟩, ⟨%d2, H2⟩, ⟨%d3, H3⟩⟩
      iapply (sound_kernel6_B c Set.univ (grid6.coords t) _ _ _ _ _ _ _ _ _ _ hc0 hc1 (iblk6 V c 0 t) (iblk6 V c 1 t) (iblk6 V c 2 t) ((dat6 V c).before 3 t d3)
        (acc6 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant's two ends -/

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point the invariant gives the entry form back: the accumulator's named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS, HR⟩, Hg⟩
  isplitl [HS HR]
  · isplitl [HS]
    · iexists _; iexact HS
    iexact HR
  iexact Hg

/-- The same after the last point. -/
theorem hout6 (c : Dev nD) : (dat6 V c).Φ (Fin.last cfg6.N) ⊢ Pipeline.ΦA spec6 c :=
  Phi_out6 V c _ (by rw [Fin.val_last]; have : cfg6.N = 4900 := N_6; omega)

end Cert.Kernel.Hand

end
-- ==== Proof.KB.Reg7.Body.lean ====
/-
  Region 7 of the kernel's program (the linear projection of the node features): the body's triple on whole
  staging memrefs — the three inputs are left as they were and the output tile ends holding product + bias —
  and from it the pipeline's body obligation at every grid point, for the proof data of the region's data module.
-/
import proofs.«177903_j22574348108073_1_alg».proof.Proof.KB.Reg7.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hzz7 : (![0, 0] : Fin 2 → Nat) = fun _ => 0 := by funext a; fin_cases a <;> rfl
theorem hzo7 : (![0] : Fin 1 → Nat) = fun _ => 0 := by funext a; fin_cases a; rfl

/-- The whole 2048 × 128 tile, the body's one store. -/
abbrev r7_o : Rect S2048x128 := Rect.unit (s := S2048x128) ![0, 0] S2048x128.size inb_S2048x128_S2048x128_0_0

/-- The one store covers the tile. -/
theorem cover7_3 (p0 : Vec F S2048x128 .f32) (y : S2048x128.Idx) :
    ∃ pc ∈ ([⟨r7_o, p0⟩] : List (View.Piece (Elt F) S2048x128 .f32)), y ∈ pc.1.set :=
  View.cover_of_tiled [⟨r7_o, p0⟩] S2048x128.size (by rfl) y

set_option maxHeartbeats 1000000 in
/-- The body on whole staging memrefs: the three inputs are left as they were, the output holds product + bias. -/
theorem sound_kernel7 (c : Dev nD) (E : Set ℕ) (i : grid7.Coords) (arg1 : Memref sig .tc .vmem S2048x128 .f32) (harg1 : arg1.IsWhole)
    (arg2 : Memref sig .tc .vmem S128x128 .f32) (harg2 : arg2.IsWhole) (arg3 : Memref sig .tc .vmem S128 .f32) (harg3 : arg3.IsWhole)
    (arg4 : Memref sig .tc .vmem S2048x128 .f32) (harg4 : arg4.IsWhole)
    (x0 : Vec F S2048x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__linear_kernel i arg1 harg1 arg2 harg2 arg3 harg3 arg4 harg4) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (View.read_writes_eq_canon _ _ _ (cover7_3 _)).trans ?_
  rw [View.canon_unit_zero (S := S2048x128) hzz7]
  unfold out7_3
  simp only [View.readAt_eq_ld, View.ld_unit_zero (S := S2048x128) hzz7, View.ld_unit_zero (S := S128x128) hzz7, View.ld_unit_zero (S := S128) hzo7]

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Reg8.RunA.lean ====
/-
  Region 8, the gather: what the body's conditionals depend on, and the body's run at the first node tile of an
  edge tile.

  The body branches twice on the node-tile coordinate j (the fast grid axis): it zeroes the accumulator when
  j = 0 and stores the output tile when j = 24. In the linear order of the 196 × 25 grid these are the points
  ≡ 0 and ≡ 24 (mod 25). The output window is idle, and not written back, wherever j ≠ 24. This module states
  the two conditions in closed form, where the windows are idle, the staging memrefs the body is called with, and
  the region's entry invariant with the accumulator made explicit; then it runs the body in the case j = 0: the
  accumulator is stored twice (zeros, then the one-hot product added to the zeros read back), and it ends at
  the product payload applied to this point's source nodes, its node tile, and the zero payload.
-/
import proofs.«177903_j22574348108073_1_alg».proof.Proof.KB.Reg8.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions on the node-tile coordinate -/

/-- The first conditional's condition as the body computes it from the grid coordinates: "node tile = 0". -/
abbrev cond8_0 (i : grid8.Coords) : Prop :=
  (Scalar.cmpi .ne (Scalar.extui (Scalar.cmpi .eq (BitVec.ofNat 32 (i 1).val) 0#32)) 0#32) = 1#1
/-- It holds exactly at the first node tile of each edge tile: the points ≡ 0 (mod 25). -/
theorem hcond8_0 : ∀ t : Fin cfg8.N, cond8_0 (grid8.coords t) ↔ t.val % 25 = 0 :=
  (by decide +kernel : ∀ t : Fin grid8.N, cond8_0 (grid8.coords t) ↔ t.val % 25 = 0)

/-- The second conditional's condition: "node tile = 24". -/
abbrev cond8_1 (i : grid8.Coords) : Prop := k8_cond2 i = 1#1
/-- It holds exactly at the last node tile of each edge tile: the points ≡ 24 (mod 25). -/
theorem hcond8_1 : ∀ t : Fin cfg8.N, cond8_1 (grid8.coords t) ↔ t.val % 25 = 24 :=
  (by decide +kernel : ∀ t : Fin grid8.N, cond8_1 (grid8.coords t) ↔ t.val % 25 = 24)

/-! ## Where the windows are idle -/

/-- The four input windows are never idle. -/
theorem liveAt8_0 (t : Fin cfg8.N) : cfg8.idle 0 (grid8.coords t) = false := rfl
theorem liveAt8_1 (t : Fin cfg8.N) : cfg8.idle 1 (grid8.coords t) = false := rfl
theorem liveAt8_2 (t : Fin cfg8.N) : cfg8.idle 2 (grid8.coords t) = false := rfl
theorem liveAt8_3 (t : Fin cfg8.N) : cfg8.idle 3 (grid8.coords t) = false := rfl
/-- Away from the last node tile the output window is idle: nothing is stored into it, -/
theorem idleAt8_4 (t : Fin cfg8.N) (h : ¬cond8_1 (grid8.coords t)) : cfg8.idle 4 (grid8.coords t) = true := by
  show (!(k8_cond2 (grid8.coords t) == 1#1)) = true
  rw [Bool.not_eq_true', beq_eq_false_iff_ne]; exact h
/-- and its block is not written back. -/
theorem noFlush8_4 (t : Fin cfg8.N) (h : ¬cond8_1 (grid8.coords t)) : (cfg8.win 4).flush t = false := by
  cases hf : (cfg8.win 4).flush t with
  | false => rfl
  | true => exact absurd ((hcond8_1 t).mpr ((flush8_4 t).mp hf)) h
/-- At the last node tile it is live. -/
theorem liveAt8_4 (t : Fin cfg8.N) (h : cond8_1 (grid8.coords t)) : cfg8.idle 4 (grid8.coords t) = false := by
  show (!(k8_cond2 (grid8.coords t) == 1#1)) = false
  rw [show k8_cond2 (grid8.coords t) = 1#1 from h]; rfl

/-! ## The memrefs the body is called with -/

/-- Each window's current staging memref at point `t`, as the pipeline passes it, with its wholeness. -/
abbrev ms8_0 (t : Fin cfg8.N) : Memref sig .tc .vmem S2048x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S4096 .i32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S4096 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S4096x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S4096x128 .bf16 := win8_4.stage (cfg8.slots t 4)
abbrev hs8_4 (t : Fin cfg8.N) : (ms8_4 t).IsWhole := hstage8_4 ((cfg8.slots t 4).cast nbuf8_4)

/-- The accumulator as a view: what it holds is stated through it. -/
abbrev VS8 : View sig .tc .vmem S4096x128 .f32 := (scM8 : Memref sig .tc .vmem S4096x128 .f32).view
/-- One staging buffer of the output window, through which the stored tile is stated. -/
abbrev VO8 : View sig .tc .vmem S4096x128 .bf16 := (Memref.whole cc8_stg4_0 : Memref sig .tc .vmem S4096x128 .bf16).view

/-- The zero offsets of the whole-buffer rectangles, spelt as a constant function. -/
theorem hzz8 : (![0, 0] : Fin 2 → Nat) = fun _ => 0 := by funext a; fin_cases a <;> rfl
theorem hzu8 : (![0] : Fin 1 → Nat) = fun _ => 0 := by funext a; fin_cases a; rfl

/-- The region's entry invariant with the accumulator split off the scoped rest: the accumulator whole at some
    contents, every other scoped buffer unopened, the generator register at some state. -/
theorem PhiA8_eq (c : Dev nD) :
    (Pipeline.ΦA spec8 c : sProp 𝕄)
      = iprop(iprop((∃ d, owns (c : Thread nD τ) scM8 fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

/-! ## The body at the first node tile of an edge tile -/

set_option maxHeartbeats 1000000 in
/-- THE RUN, case "first node tile" (first conditional taken, second not). On whole memrefs — the four inputs at
    their contents, the output's buffer at contents handed back untouched, the accumulator at anything — the body
    runs to a continuation holding the inputs as they were, the output's buffer as it was, and the accumulator
    with the pieces its two stores wrote (last first): the witness the symbolic run finds. -/
noncomputable def kernelRun8_A (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond8_0 i) (hc1 : ¬cond8_1 i)
    (x0 : Vec F S2048x128 .f32) (x1 : Vec F S4096 .i32) (x2 : Vec F S4096 .f32) (x3 : Vec F S4096x128 .f32) :
    { LS0 : List (View.Piece (Elt F) S4096x128 .f32) //
      ∀ (xi4 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc8__gather_kernel i arg2 harg2 arg3 harg3 arg4 harg4 arg5 harg5 arg6 harg6 arg7 harg7) K } := by
  refine ⟨?_, fun xi4 E K => ?run⟩
  case run =>
    simp only [cc8__gather_kernel_eq_skeleton]; unfold cc8__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The two pieces tile the accumulator, so they cover it. -/
theorem scover8_A (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond8_0 i) (hc1 : ¬cond8_1 i)
    (x0 : Vec F S2048x128 .f32) (x1 : Vec F S4096 .i32) (x2 : Vec F S4096 .f32) (x3 : Vec F S4096x128 .f32) (y : S4096x128.Idx) :
    ∃ pc ∈ (kernelRun8_A c i arg2 harg2 arg3 harg3 arg4 harg4 arg5 harg5 arg6 harg6 arg7 harg7 hc0 hc1 x0 x1 x2 x3).1, y ∈ pc.1.set :=
  View.cover_of_tiledL (kernelRun8_A c i arg2 harg2 arg3 harg3 arg4 harg4 arg5 harg5 arg6 harg6 arg7 harg7 hc0 hc1 x0 x1 x2 x3).1 S4096x128.size (by sl_kernel_rfl) y

/-- What the case leaves in the accumulator: its pieces read back. -/
def sout8_A (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond8_0 i) (hc1 : ¬cond8_1 i)
    (x0 : Vec F S2048x128 .f32) (x1 : Vec F S4096 .i32) (x2 : Vec F S4096 .f32) (x3 : Vec F S4096x128 .f32) : Vec F S4096x128 .f32 :=
  VS8.read (Elt F) (VS8.writes (Elt F) VS8.junk (kernelRun8_A c i arg2 harg2 arg3 harg3 arg4 harg4 arg5 harg5 arg6 harg6 arg7 harg7 hc0 hc1 x0 x1 x2 x3).1)

/-- IN CLOSED FORM: the one-hot product of this point's source nodes and node tile, added to zeros. -/
theorem sout8_A_eq (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond8_0 i) (hc1 : ¬cond8_1 i)
    (x0 : Vec F S2048x128 .f32) (x1 : Vec F S4096 .i32) (x2 : Vec F S4096 .f32) (x3 : Vec F S4096x128 .f32) :
    sout8_A c i arg2 harg2 arg3 harg3 arg4 harg4 arg5 harg5 arg6 harg6 arg7 harg7 hc0 hc1 x0 x1 x2 x3 = k8_pay2 i x1 x0 (k8_pay1 (F := F)) := by
  unfold sout8_A
  rw [View.read_writes_eq_canon _ _ _ (scover8_A c i arg2 harg2 arg3 harg3 arg4 harg4 arg5 harg5 arg6 harg6 arg7 harg7 hc0 hc1 x0 x1 x2 x3)]
  unfold kernelRun8_A
  dsimp only
  sl_unfold_words
  rw [View.canon_cons_unit_zero (S := S4096x128) hzz8]
  simp only [View.readAt_eq_ld, harg2.read_unread, harg3.read_unread, View.ld_unit_zero (S := S2048x128) hzz8, View.ld_unit_zero (S := S4096) hzu8, View.readCov_unit_zero (S := S4096x128) _ hzz8]

end Cert.Kernel.Hand

end
-- ==== Proof.KB.Reg8.RunB.lean ====
/-
  Region 8, the gather: the body's run at an inner node tile of an edge tile (neither the first nor the last).

  Neither conditional is taken: the body reads the accumulator the point before left, adds the one-hot product of
  this point's source nodes with its node tile, and stores the sum back; the output window is untouched.
-/
import proofs.«177903_j22574348108073_1_alg».proof.Proof.KB.Reg8.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RUN, case "inner node tile" (neither conditional taken). On whole memrefs — the four inputs at their
    contents, the output's buffer at contents handed back untouched, the accumulator at what the point before left
    (`xs`) — the body runs to a continuation holding the inputs and the output's buffer as they were and the
    accumulator with the piece its one store wrote. -/
noncomputable def kernelRun8_B (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : ¬cond8_1 i)
    (x0 : Vec F S2048x128 .f32) (x1 : Vec F S4096 .i32) (x2 : Vec F S4096 .f32) (x3 : Vec F S4096x128 .f32) (xs : Vec F S4096x128 .f32) :
    { LS0 : List (View.Piece (Elt F) S4096x128 .f32) //
      ∀ (xi4 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc8__gather_kernel i arg2 harg2 arg3 harg3 arg4 harg4 arg5 harg5 arg6 harg6 arg7 harg7) K } := by
  refine ⟨?_, fun xi4 E K => ?run⟩
  case run =>
    simp only [cc8__gather_kernel_eq_skeleton]; unfold cc8__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The one piece tiles the accumulator, so it covers it. -/
theorem scover8_B (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : ¬cond8_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun8_B c i arg2 harg2 arg3 harg3 arg4 harg4 arg5 harg5 arg6 harg6 arg7 harg7 hc0 hc1 x0 x1 x2 x3 xs).1, y ∈ pc.1.set :=
  View.cover_of_tiledL (kernelRun8_B c i arg2 harg2 arg3 harg3 arg4 harg4 arg5 harg5 arg6 harg6 arg7 harg7 hc0 hc1 x0 x1 x2 x3 xs).1 S4096x128.size (by sl_kernel_rfl) y

/-- What the case leaves in the accumulator: its piece read back. -/
def sout8_B (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : ¬cond8_1 i)
    (x0 : Vec F S2048x128 .f32) (x1 : Vec F S4096 .i32) (x2 : Vec F S4096 .f32) (x3 : Vec F S4096x128 .f32) (xs : Vec F S4096x128 .f32) : Vec F S4096x128 .f32 :=
  VS8.read (Elt F) (VS8.writes (Elt F) VS8.junk (kernelRun8_B c i arg2 harg2 arg3 harg3 arg4 harg4 arg5 harg5 arg6 harg6 arg7 harg7 hc0 hc1 x0 x1 x2 x3 xs).1)

/-- IN CLOSED FORM: the one-hot product of this point's source nodes and node tile, added to the accumulator. -/
theorem sout8_B_eq (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : ¬cond8_1 i)
    (x0 : Vec F S2048x128 .f32) (x1 : Vec F S4096 .i32) (x2 : Vec F S4096 .f32) (x3 : Vec F S4096x128 .f32) (xs : Vec F S4096x128 .f32) :
    sout8_B c i arg2 harg2 arg3 harg3 arg4 harg4 arg5 harg5 arg6 harg6 arg7 harg7 hc0 hc1 x0 x1 x2 x3 xs = k8_pay2 i x1 x0 xs := by
  unfold sout8_B
  rw [View.read_writes_eq_canon _ _ _ (scover8_B c i arg2 harg2 arg3 harg3 arg4 harg4 arg5 harg5 arg6 harg6 arg7 harg7 hc0 hc1 x0 x1 x2 x3 xs)]
  unfold kernelRun8_B
  dsimp only
  sl_unfold_words
  rw [View.canon_unit_zero (S := S4096x128) hzz8]
  simp only [View.readAt_eq_ld, harg2.read_unread, harg3.read_unread, harg4.read_unread, harg5.read_unread, harg7.read_unread, View.ld_unit_zero (S := S2048x128) hzz8, View.ld_unit_zero (S := S4096x128) hzz8, View.ld_unit_zero (S := S4096) hzu8, View.readCov_unit_zero (S := S4096x128) _ hzz8]

end Cert.Kernel.Hand

end
-- ==== Proof.KB.Reg8.RunC.lean ====
/-
  Region 8, the gather: the body's run at the last node tile of an edge tile.

  The first conditional is not taken, the second is: the body adds this point's one-hot product into the
  accumulator as at an inner point, then reads the accumulator back, adds the edge embedding tile, scales each edge's row
  by its normalisation factor, rounds to bf16 and stores the result as the output tile.
-/
import proofs.«177903_j22574348108073_1_alg».proof.Proof.KB.Reg8.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RUN, case "last node tile" (second conditional taken). On whole memrefs — the four inputs at their
    contents, the output's buffer at anything, the accumulator at what the point before left (`xs`) — the body runs
    to a continuation holding the inputs as they were, and the output's buffer and the accumulator each with the
    piece its one store wrote. -/
noncomputable def kernelRun8_C (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) :
    Σ' (L4 : List (View.Piece (Elt F) S4096x128 .bf16)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc8__gather_kernel i arg2 harg2 arg3 harg3 arg4 harg4 arg5 harg5 arg6 harg6 arg7 harg7) K } := by
  refine ⟨?_, ?_, fun E K => ?run⟩
  case run =>
    simp only [cc8__gather_kernel_eq_skeleton]; unfold cc8__gather_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- The one piece stored into the output's buffer tiles it, so it covers it. -/
theorem cover8_C (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun8_C c i arg2 harg2 arg3 harg3 arg4 harg4 arg5 harg5 arg6 harg6 arg7 harg7 hc0 hc1 x0 x1 x2 x3 xs).1, y ∈ pc.1.set :=
  View.cover_of_tiledL (kernelRun8_C c i arg2 harg2 arg3 harg3 arg4 harg4 arg5 harg5 arg6 harg6 arg7 harg7 hc0 hc1 x0 x1 x2 x3 xs).1 S4096x128.size (by sl_kernel_rfl) y

/-- The one piece stored into the accumulator covers it. -/
theorem scover8_C (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun8_C c i arg2 harg2 arg3 harg3 arg4 harg4 arg5 harg5 arg6 harg6 arg7 harg7 hc0 hc1 x0 x1 x2 x3 xs).2.1, y ∈ pc.1.set :=
  View.cover_of_tiledL (kernelRun8_C c i arg2 harg2 arg3 harg3 arg4 harg4 arg5 harg5 arg6 harg6 arg7 harg7 hc0 hc1 x0 x1 x2 x3 xs).2.1 S4096x128.size (by sl_kernel_rfl) y

/-- What the case leaves in the accumulator: its piece read back. -/
def sout8_C (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) : Vec F S4096x128 .f32 :=
  VS8.read (Elt F) (VS8.writes (Elt F) VS8.junk (kernelRun8_C c i arg2 harg2 arg3 harg3 arg4 harg4 arg5 harg5 arg6 harg6 arg7 harg7 hc0 hc1 x0 x1 x2 x3 xs).2.1)

/-- What it leaves in the output's buffer: its piece read back. -/
def out8_C (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) : Vec F S4096x128 .bf16 :=
  VO8.read (Elt F) (VO8.writes (Elt F) VO8.junk (kernelRun8_C c i arg2 harg2 arg3 harg3 arg4 harg4 arg5 harg5 arg6 harg6 arg7 harg7 hc0 hc1 x0 x1 x2 x3 xs).1)

/-- IN CLOSED FORM, the accumulator: the one-hot product added to what the point before left. -/
theorem sout8_C_eq (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) :
    sout8_C c i arg2 harg2 arg3 harg3 arg4 harg4 arg5 harg5 arg6 harg6 arg7 harg7 hc0 hc1 x0 x1 x2 x3 xs = k8_pay2 i x1 x0 xs := by
  unfold sout8_C
  rw [View.read_writes_eq_canon _ _ _ (scover8_C c i arg2 harg2 arg3 harg3 arg4 harg4 arg5 harg5 arg6 harg6 arg7 harg7 hc0 hc1 x0 x1 x2 x3 xs)]
  unfold kernelRun8_C
  dsimp only
  sl_unfold_words
  rw [View.canon_unit_zero (S := S4096x128) hzz8]
  simp only [View.readAt_eq_ld, harg2.read_unread, harg3.read_unread, harg4.read_unread, harg5.read_unread, harg7.read_unread, View.ld_unit_zero (S := S2048x128) hzz8, View.ld_unit_zero (S := S4096x128) hzz8, View.ld_unit_zero (S := S4096) hzu8, View.readCov_unit_zero (S := S4096x128) _ hzz8]

/-- IN CLOSED FORM, the output tile: normalisation × (the new accumulator + the edge embedding), rounded. -/
theorem out8_C_eq (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) :
    out8_C c i arg2 harg2 arg3 harg3 arg4 harg4 arg5 harg5 arg6 harg6 arg7 harg7 hc0 hc1 x0 x1 x2 x3 xs = k8_pay3 x2 (k8_pay2 i x1 x0 xs) x3 := by
  unfold out8_C
  rw [View.read_writes_eq_canon _ _ _ (cover8_C c i arg2 harg2 arg3 harg3 arg4 harg4 arg5 harg5 arg6 harg6 arg7 harg7 hc0 hc1 x0 x1 x2 x3 xs)]
  unfold kernelRun8_C
  dsimp only
  sl_unfold_words
  rw [View.canon_unit_zero (S := S4096x128) hzz8]
  simp only [View.readAt_eq_ld, harg2.read_unread, harg3.read_unread, harg4.read_unread, harg5.read_unread, harg7.read_unread, View.ld_unit_zero (S := S2048x128) hzz8, View.ld_unit_zero (S := S4096x128) hzz8, View.ld_unit_zero (S := S4096) hzu8, View.readCov_unit_zero (S := S4096x128) _ hzz8]

end Cert.Kernel.Hand

end
-- ==== Proof.KB.Reg8.Body.lean ====
/-
  Region 8, the gather: the body obligation of its pipeline.

  At every grid point the inputs' staging buffers hold their blocks. The point's position in its edge tile's run of
  25 node tiles selects the case: at the first the accumulator (at anything, or at what the previous run left) is
  zeroed and receives the first one-hot product; at an inner point it receives the next product on top of what the
  point before left; at the last it receives the last product and the output tile is stored from it. In each case
  the run's found pieces read back as the closed forms of the proof data (`acc8`, `msg8`); the rest of the scoped
  buffers and the generator register pass through untouched, and the core owes nothing throughout.
-/
import proofs.«177903_j22574348108073_1_alg».proof.Proof.KB.Reg8.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's closed form, case by case -/

/-- At the first node tile of an edge tile the accumulator restarts from zeros. -/
theorem acc8_first (c : Dev nD) (t : Fin cfg8.N) (h0 : t.val % 25 = 0) :
    acc8 V c t.val t.isLt = k8_pay2 (grid8.coords t) (iblk8 V c 1 t) (iblk8 V c 0 t) (k8_pay1 (F := F)) := by
  obtain ⟨n, hn⟩ := t
  cases n with
  | zero => rfl
  | succ n =>
    have h0' : (n + 1) % 25 = 0 := h0
    exact congrArg (k8_pay2 (grid8.coords ⟨n + 1, hn⟩) (iblk8 V c 1 ⟨n + 1, hn⟩) (iblk8 V c 0 ⟨n + 1, hn⟩)) (if_pos h0')

/-- At any other node tile it continues from what the point before left. -/
theorem acc8_next (c : Dev nD) (t : Fin cfg8.N) (h0 : ¬t.val % 25 = 0) :
    acc8 V c t.val t.isLt = k8_pay2 (grid8.coords t) (iblk8 V c 1 t) (iblk8 V c 0 t)
      (acc8 V c (t.val - 1) (Nat.lt_of_le_of_lt (Nat.sub_le _ _) t.isLt)) := by
  obtain ⟨n, hn⟩ := t
  cases n with
  | zero => exact absurd (Nat.zero_mod 25) h0
  | succ n =>
    have h0' : ¬(n + 1) % 25 = 0 := h0
    exact congrArg (k8_pay2 (grid8.coords ⟨n + 1, hn⟩) (iblk8 V c 1 ⟨n + 1, hn⟩) (iblk8 V c 0 ⟨n + 1, hn⟩)) (if_neg h0')

/-! ## What the body leaves in the windows' buffers -/

/-- Each input's buffer is left at its block (the inputs are never idle). -/
theorem leaves8_0 (c : Dev nD) (t : Fin cfg8.N) :
    (dat8 V c).leavesExact 0 t = owns (c : Thread nD τ) (ms8_0 t) fullShare (iblk8 V c 0 t) := by
  rw [show (dat8 V c).leavesExact 0 t = owns (c : Thread nD τ) (ms8_0 t) fullShare ((dat8 V c).after 0 t) from by
    unfold Dat.leavesExact; rw [liveAt8_0 t], after8_0]
theorem leaves8_1 (c : Dev nD) (t : Fin cfg8.N) :
    (dat8 V c).leavesExact 1 t = owns (c : Thread nD τ) (ms8_1 t) fullShare (iblk8 V c 1 t) := by
  rw [show (dat8 V c).leavesExact 1 t = owns (c : Thread nD τ) (ms8_1 t) fullShare ((dat8 V c).after 1 t) from by
    unfold Dat.leavesExact; rw [liveAt8_1 t], after8_1]
theorem leaves8_2 (c : Dev nD) (t : Fin cfg8.N) :
    (dat8 V c).leavesExact 2 t = owns (c : Thread nD τ) (ms8_2 t) fullShare (iblk8 V c 2 t) := by
  rw [show (dat8 V c).leavesExact 2 t = owns (c : Thread nD τ) (ms8_2 t) fullShare ((dat8 V c).after 2 t) from by
    unfold Dat.leavesExact; rw [liveAt8_2 t], after8_2]
theorem leaves8_3 (c : Dev nD) (t : Fin cfg8.N) :
    (dat8 V c).leavesExact 3 t = owns (c : Thread nD τ) (ms8_3 t) fullShare (iblk8 V c 3 t) := by
  rw [show (dat8 V c).leavesExact 3 t = owns (c : Thread nD τ) (ms8_3 t) fullShare ((dat8 V c).after 3 t) from by
    unfold Dat.leavesExact; rw [liveAt8_3 t], after8_3]
/-- At the last node tile the output's buffer is left at the stored tile. -/
theorem leaves8_4 (c : Dev nD) (t : Fin cfg8.N) (hc1 : cond8_1 (grid8.coords t)) :
    (dat8 V c).leavesExact 4 t = owns (c : Thread nD τ) (ms8_4 t) fullShare (msg8 V c t) := by
  rw [show (dat8 V c).leavesExact 4 t = owns (c : Thread nD τ) (ms8_4 t) fullShare ((dat8 V c).after 4 t) from by
    unfold Dat.leavesExact; rw [liveAt8_4 t hc1], after8_4]

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t)

set_option maxHeartbeats 4800000 in
/-- The body at any point. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).owesAt () t.succ = (dat8 V c).owesAt () t.castSucc from rfl]
  rw [show (dat8 V c).Φ t.succ = PhiS8 V c (t.val + 1) t.isLt from rfl, PhiS8_succ]
  have hN : t.val < 4900 := lt_of_lt_of_eq t.isLt (show cfg8.N = 4900 from N_8)
  by_cases h0 : t.val % 25 = 0
  · -- the first node tile of an edge tile
    have h1 : ¬t.val % 25 = 24 := by omega
    have hc0 : cond8_0 (grid8.coords t) := (hcond8_0 t).mpr h0
    have hc1 : ¬cond8_1 (grid8.coords t) := fun h => h1 ((hcond8_1 t).mp h)
    rw [leaves8_0 V c t, leaves8_1 V c t, leaves8_2 V c t, leaves8_3 V c t]
    rw [Dat.leavesExact_idle (dat8 V c) 4 t (idleAt8_4 t hc1) (noFlush8_4 t hc1)]
    rw [acc8_first V c t h0]
    by_cases hz : t.val = 0
    · rw [PhiS8_castSucc V c t, PhiS8_zero V c _ _ hz, PhiA8_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun8_A c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS8 VS8.junk _ (scover8_A c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t))).trans
              (sout8_A_eq c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t))
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS8_castSucc V c t, PhiS8_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun8_A c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS8 VS8.junk _ (scover8_A c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t))).trans
              (sout8_A_eq c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t))
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond8_0 (grid8.coords t) := fun h => h0 ((hcond8_0 t).mp h)
    by_cases h1 : t.val % 25 = 24
    · -- the last node tile of an edge tile
      have hc1 : cond8_1 (grid8.coords t) := (hcond8_1 t).mpr h1
      rw [leaves8_0 V c t, leaves8_1 V c t, leaves8_2 V c t, leaves8_3 V c t]
      rw [leaves8_4 V c t hc1]
      unfold msg8
      rw [acc8_next V c t h0]
      rw [PhiS8_castSucc V c t, PhiS8_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun8_C c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro
            exact (View.read_writes_of_cover _ _ VS8 VS8.junk _ (scover8_C c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt)))).trans
              (sout8_C_eq c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ VO8 VO8.junk _ (cover8_C c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt)))).trans
        (out8_C_eq c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt)))
    · -- an inner node tile
      have hc1 : ¬cond8_1 (grid8.coords t) := fun h => h1 ((hcond8_1 t).mp h)
      rw [leaves8_0 V c t, leaves8_1 V c t, leaves8_2 V c t, leaves8_3 V c t]
      rw [Dat.leavesExact_idle (dat8 V c) 4 t (idleAt8_4 t hc1) (noFlush8_4 t hc1)]
      rw [acc8_next V c t h0]
      rw [PhiS8_castSucc V c t, PhiS8_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun8_B c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS8 VS8.junk _ (scover8_B c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt)))).trans
              (sout8_B_eq c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the entry invariant back: the accumulator's named contents
    are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS0, Hr⟩, Hg⟩
  isplitl [HS0 Hr]
  · isplitl [HS0]
    · iexists _; iexact HS0
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 4900 := N_8; omega)

end Cert.Kernel.Hand

end
-- ==== Proof.KB.Reg9.RunA.lean ====
/-
  Region 9 of the kernel's program (the scatter onto the target nodes plus the residual), first part: what the three cases of the
  body share, and the body's triple in the case that opens a node tile's run.

  The body tests the edge-tile coordinate twice. Where it is 0 the accumulator is first overwritten with zeros;
  where it is 195 the output tile is stored after the update. Over the 25 × 196 grid, edge tile the fast axis,
  these are the points ≡ 0 and ≡ 195 (mod 196). The output window is idle, and not written back, at every point
  that is not ≡ 195. In every case the update reads the edge tile's target nodes and messages and the accumulator,
  and stores the one-hot product added to what it read; a store of the whole tile made last decides what the
  tile holds, and a load of the whole tile after such a store reads what was stored.
-/
import proofs.«177903_j22574348108073_1_alg».proof.Proof.KB.Reg9.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Zero offsets of a rank-2 and of a rank-1 rectangle, as the printed stores and loads spell them. -/
theorem hz9_2 : (![0, 0] : Fin 2 → Nat) = fun _ => 0 := by funext a; fin_cases a <;> rfl
theorem hz9_1 : (![0] : Fin 1 → Nat) = fun _ => 0 := by funext a; fin_cases a; rfl

/-! ## The two tests on the edge-tile coordinate -/

/-- The first test: the edge-tile coordinate is 0 (a node tile's run begins). -/
abbrev cond9_0 (i : grid9.Coords) : Prop := (Scalar.cmpi .ne (Scalar.extui (Scalar.cmpi .eq (BitVec.ofNat 32 (i 1).val) 0#32)) 0#32) = 1#1
/-- It holds exactly at the points ≡ 0 (mod 196): decided over the 4900 points. -/
theorem hcond9_0 : ∀ t : Fin cfg9.N, cond9_0 (grid9.coords t) ↔ t.val % 196 = 0 :=
  (by decide +kernel : ∀ t : Fin grid9.N, cond9_0 (grid9.coords t) ↔ t.val % 196 = 0)

/-- The second test: the edge-tile coordinate is 195 (a node tile's run ends). -/
abbrev cond9_1 (i : grid9.Coords) : Prop := k9_cond2 i = 1#1
/-- It holds exactly at the points ≡ 195 (mod 196). -/
theorem hcond9_1 : ∀ t : Fin cfg9.N, cond9_1 (grid9.coords t) ↔ t.val % 196 = 195 :=
  (by decide +kernel : ∀ t : Fin grid9.N, cond9_1 (grid9.coords t) ↔ t.val % 196 = 195)

/-! ## Where the windows are idle -/

/-- The three input windows are never idle. -/
theorem liveAt9_0 (i : grid9.Coords) : cfg9.idle 0 i = false := rfl
theorem liveAt9_1 (i : grid9.Coords) : cfg9.idle 1 i = false := rfl
theorem liveAt9_2 (i : grid9.Coords) : cfg9.idle 2 i = false := rfl
/-- The output window is idle wherever the second test fails, -/
theorem idleAt9_3 (i : grid9.Coords) (h : ¬cond9_1 i) : cfg9.idle 3 i = true := by
  show (!(k9_cond2 i == 1#1)) = true
  simp only [Bool.not_eq_true', beq_eq_false_iff_ne, ne_eq]; exact h
/-- and live where it holds. -/
theorem liveAt9_3 (i : grid9.Coords) (h : cond9_1 i) : cfg9.idle 3 i = false := by
  show (!(k9_cond2 i == 1#1)) = false
  simp only [Bool.not_eq_false', beq_iff_eq]; exact h
/-- The output tile is not written back at a point that is not ≡ 195 (mod 196). -/
theorem noFlush9_3 (t : Fin cfg9.N) (h : ¬t.val % 196 = 195) : (cfg9.win 3).flush t = false :=
  Bool.eq_false_iff.mpr fun hf => h ((flush9_3 t).mp hf)

/-! ## The region's entry invariant, with the accumulator split off -/

/-- What the launch hands the region: the accumulator whole at some contents, every other scoped buffer
    unopened, the generator register at some state. -/
theorem PhiA9_eq (c : Dev nD) :
    (Pipeline.ΦA spec9 c : sProp 𝕄)
      = iprop(iprop((∃ d, owns (c : Thread nD τ) scM9 fullShare d)
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9, owns_whole]; try rfl

/-! ## The whole-tile store -/
/-- The whole 2048 × 128 tile: the rectangle of every store into the accumulator and into the output tile. -/
abbrev rT9 : Rect S2048x128 := Rect.unit (s := S2048x128) ![0, 0] S2048x128.size inb_S2048x128_S2048x128_0_0

/-- A store of the whole tile, made last, covers the tile whatever was stored before. -/
theorem cover9 (p : Vec F S2048x128 .f32) (L : List (View.Piece (Elt F) S2048x128 .f32)) (y : S2048x128.Idx) :
    ∃ pc ∈ ((⟨rT9, p⟩ : View.Piece (Elt F) S2048x128 .f32) :: L), y ∈ pc.1.set :=
  ⟨_, List.mem_cons.mpr (Or.inl rfl), View.mem_set_unit_zero hz9_2 inb_S2048x128_S2048x128_0_0 y⟩

/-! ## The body where a node tile's run begins -/
set_option maxHeartbeats 1000000 in
/-- The body at the first edge tile of a node tile, on whole memrefs: the three inputs and the output tile are
    left as found, and the accumulator, found at anything, ends at the one-hot product of this edge tile added
    to zeros (it is zeroed, read back, and the sum stored over the zeros). -/
theorem sound_kernel9_A (c : Dev nD) (E : Set ℕ) (i : grid9.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : cond9_0 i) (hc1 : ¬cond9_1 i)
    (x0 : Vec F S4096x128 .bf16) (x1 : Vec F S4096 .i32) (x2 : Vec F S2048x128 .f32) (xi3 : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k9_pay2 i x1 x0 (k9_pay1 (F := F)))) -∗ K ⟨⟩))
      ⊢ wp frame (wpE (defs₀ (F := F)) Variants.none c none) E (cc9__scatter_kernel i arg2 harg2 arg3 harg3 arg4 harg4 arg5 harg5 arg6 harg6) K := by
  simp only [cc9__scatter_kernel_eq_skeleton]; unfold cc9__scatter_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (cover9 _ _)).trans ?_
  rw [View.canon_cons_unit_zero (S := S2048x128) hz9_2]
  simp only [View.readCov_unit_zero (S := S2048x128) _ hz9_2, View.readAt_eq_ld, View.ld_unit_zero (S := S4096) hz9_1, View.ld_unit_zero (S := S4096x128) hz9_2]

end Cert.Kernel.Hand

end
-- ==== Proof.KB.Reg9.RunB.lean ====
/-
  Region 9 of the kernel's program, second part: the body's triple at a point inside a node tile's run, where
  neither test on the edge-tile coordinate holds. Nothing is zeroed and nothing is stored into the output tile:
  the accumulator is read, the one-hot product of this edge tile is added, and the sum is stored back.
-/
import proofs.«177903_j22574348108073_1_alg».proof.Proof.KB.Reg9.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point inside a node tile's run (edge tile neither first nor last), on whole memrefs: the three
    inputs and the output tile are left as found, and the accumulator, found at `xs`, ends at the one-hot product
    of this edge tile added to `xs`. -/
theorem sound_kernel9_B (c : Dev nD) (E : Set ℕ) (i : grid9.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond9_0 i) (hc1 : ¬cond9_1 i)
    (x0 : Vec F S4096x128 .bf16) (x1 : Vec F S4096 .i32) (x2 : Vec F S2048x128 .f32) (xi3 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k9_pay2 i x1 x0 xs)) -∗ K ⟨⟩))
      ⊢ wp frame (wpE (defs₀ (F := F)) Variants.none c none) E (cc9__scatter_kernel i arg2 harg2 arg3 harg3 arg4 harg4 arg5 harg5 arg6 harg6) K := by
  simp only [cc9__scatter_kernel_eq_skeleton]; unfold cc9__scatter_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (cover9 _ _)).trans ?_
  rw [View.canon_cons_unit_zero (S := S2048x128) hz9_2]
  simp only [View.readAt_eq_ld, View.ld_unit_zero (S := S4096) hz9_1, View.ld_unit_zero (S := S4096x128) hz9_2, View.ld_unit_zero (S := S2048x128) hz9_2]

end Cert.Kernel.Hand

end
-- ==== Proof.KB.Reg9.RunC.lean ====
/-
  Region 9 of the kernel's program, third part: the body's triple where a node tile's run ends (edge-tile
  coordinate 195). After the update the accumulator is read back, the node tile of the projected features is
  added, and the sum, under the rectifier where the layer has one (the skeleton's third payload says which), is stored as the
  output tile.
-/
import proofs.«177903_j22574348108073_1_alg».proof.Proof.KB.Reg9.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the last edge tile of a node tile, on whole memrefs: the three inputs are left as found; the
    accumulator, found at `xs`, ends at the one-hot product of this edge tile added to `xs`; and the output
    tile ends at that sum + the node tile of the projected features, under the rectifier where the layer has one (the skeleton's third payload says which). -/
theorem sound_kernel9_C (c : Dev nD) (E : Set ℕ) (i : grid9.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond9_0 i) (hc1 : cond9_1 i)
    (x0 : Vec F S4096x128 .bf16) (x1 : Vec F S4096 .i32) (x2 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k9_pay3 (k9_pay2 i x1 x0 xs) x2) ∗ owns (c : Thread nD τ) arg6 fullShare (k9_pay2 i x1 x0 xs)) -∗ K ⟨⟩))
      ⊢ wp frame (wpE (defs₀ (F := F)) Variants.none c none) E (cc9__scatter_kernel i arg2 harg2 arg3 harg3 arg4 harg4 arg5 harg5 arg6 harg6) K := by
  simp only [cc9__scatter_kernel_eq_skeleton]; unfold cc9__scatter_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (View.read_writes_eq_canon _ _ _ (cover9 _ _)).trans ?_
    rw [View.canon_cons_unit_zero (S := S2048x128) hz9_2]
    simp only [View.readCov_unit_zero (S := S2048x128) _ hz9_2, View.readAt_eq_ld, View.ld_unit_zero (S := S4096) hz9_1, View.ld_unit_zero (S := S4096x128) hz9_2, View.ld_unit_zero (S := S2048x128) hz9_2]
  iexists _; isplitr
  swap; · iexact HS
  ipureintro
  sl_unfold_words
  refine (View.read_writes_eq_canon _ _ _ (cover9 _ _)).trans ?_
  rw [View.canon_cons_unit_zero (S := S2048x128) hz9_2]
  simp only [View.readAt_eq_ld, View.ld_unit_zero (S := S4096) hz9_1, View.ld_unit_zero (S := S4096x128) hz9_2, View.ld_unit_zero (S := S2048x128) hz9_2]

end Cert.Kernel.Hand

end
-- ==== Proof.KB.Reg9.Body.lean ====
/-
  Region 9 of the kernel's program, last part: the pipeline's body obligation at every grid point, and the
  invariant's two ends.

  A point of the grid is the first of a node tile's run (≡ 0 mod 196), the last (≡ 195), or neither. The closed
  form of the accumulator unfolds accordingly — over zeros at a run's first point, over what the point before left
  elsewhere — and in each case the body's triple of that case applies: the inputs' staging memrefs hold their
  blocks, the invariant lends the accumulator (at anything before the very first point, at the previous point's
  closed form afterwards) and takes it back at this point's closed form; the output tile is handed back untouched
  where the window is idle and holds accumulator + residual, under the rectifier where the layer has one (the skeleton's third payload says which), where a run ends. The other scoped buffers
  and the generator register pass through unopened.
-/
import proofs.«177903_j22574348108073_1_alg».proof.Proof.KB.Reg9.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's closed form, one step unfolded -/

/-- At the first point of a node tile's run the accumulator is this point's one-hot product added to zeros. -/
theorem acc9_first (c : Dev nD) (t : Fin cfg9.N) (h0 : t.val % 196 = 0) :
    acc9 V c t.val t.isLt = k9_pay2 (grid9.coords t) (iblk9 V c 1 t) (iblk9 V c 0 t) (k9_pay1 (F := F)) := by
  obtain ⟨n, hn⟩ := t
  cases n with
  | zero => rfl
  | succ n =>
    have h0' : (n + 1) % 196 = 0 := h0
    show acc9 V c (n + 1) hn = _
    rw [acc9, if_pos h0']

/-- At any other point it is this point's one-hot product added to what the point before left. -/
theorem acc9_next (c : Dev nD) (t : Fin cfg9.N) (h0 : ¬t.val % 196 = 0) :
    acc9 V c t.val t.isLt = k9_pay2 (grid9.coords t) (iblk9 V c 1 t) (iblk9 V c 0 t)
      (acc9 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 196 = 0 := h0
    show acc9 V c (n + 1) hn = _
    rw [acc9, if_neg h0']
    rfl

/-! ## What the windows' staging buffers are left at -/

/-- An input window's buffer is left at what the proof data names (the window is never idle). -/
theorem leaves9_0 (c : Dev nD) (t : Fin cfg9.N) :
    (dat9 V c).leavesExact 0 t = owns (c : Thread nD τ) (st9_0 t) fullShare ((dat9 V c).after 0 t) := by
  unfold Dat.leavesExact; rw [liveAt9_0 (grid9.coords t)]
theorem leaves9_1 (c : Dev nD) (t : Fin cfg9.N) :
    (dat9 V c).leavesExact 1 t = owns (c : Thread nD τ) (st9_1 t) fullShare ((dat9 V c).after 1 t) := by
  unfold Dat.leavesExact; rw [liveAt9_1 (grid9.coords t)]
theorem leaves9_2 (c : Dev nD) (t : Fin cfg9.N) :
    (dat9 V c).leavesExact 2 t = owns (c : Thread nD τ) (st9_2 t) fullShare ((dat9 V c).after 2 t) := by
  unfold Dat.leavesExact; rw [liveAt9_2 (grid9.coords t)]
/-- The output window's buffer, where a node tile's run ends, is left at the stored tile. -/
theorem leaves9_3 (c : Dev nD) (t : Fin cfg9.N) (h : cond9_1 (grid9.coords t)) :
    (dat9 V c).leavesExact 3 t = owns (c : Thread nD τ) (st9_3 t) fullShare ((dat9 V c).after 3 t) := by
  unfold Dat.leavesExact; rw [liveAt9_3 (grid9.coords t) h]

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point, by the point's place in its node tile's run. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [leaves9_0, after9_0, leaves9_1, after9_1, leaves9_2, after9_2]
  have hN : t.val < 4900 := lt_of_lt_of_eq t.isLt (show cfg9.N = 4900 from N_9)
  by_cases h0 : t.val % 196 = 0
  · -- a node tile's run begins
    have hc0 : cond9_0 (grid9.coords t) := (hcond9_0 t).mpr h0
    have h1 : ¬t.val % 196 = 195 := by omega
    have hc1 : ¬cond9_1 (grid9.coords t) := fun h => h1 ((hcond9_1 t).mp h)
    rw [Dat.leavesExact_idle (dat9 V c) 3 t (idleAt9_3 (grid9.coords t) hc1) (noFlush9_3 t h1)]
    rw [acc9_first V c t h0]
    by_cases hz : t.val = 0
    · rw [PhiS9_castSucc V c t, PhiS9_zero V c _ _ hz, PhiA9_eq]
      iintro ⟨⟨⟨HS, HR⟩, Hg⟩, Ho, ⟨%d0, H0⟩, ⟨%d1, H1⟩, ⟨%d2, H2⟩, ⟨%d3, H3⟩⟩
      iapply (sound_kernel9_A c Set.univ (grid9.coords t) _ _ _ _ _ _ _ _ _ _ hc0 hc1 (iblk9 V c 0 t) (iblk9 V c 1 t) (iblk9 V c 2 t) ((dat9 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3
    · rw [PhiS9_castSucc V c t, PhiS9_pos V c _ _ hz]
      iintro ⟨⟨⟨HS, HR⟩, Hg⟩, Ho, ⟨%d0, H0⟩, ⟨%d1, H1⟩, ⟨%d2, H2⟩, ⟨%d3, H3⟩⟩
      iapply (sound_kernel9_A c Set.univ (grid9.coords t) _ _ _ _ _ _ _ _ _ _ hc0 hc1 (iblk9 V c 0 t) (iblk9 V c 1 t) (iblk9 V c 2 t) ((dat9 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3
  · have hc0 : ¬cond9_0 (grid9.coords t) := fun h => h0 ((hcond9_0 t).mp h)
    have hz : t.val ≠ 0 := fun h => h0 (by rw [h])
    by_cases h1 : t.val % 196 = 195
    · -- a node tile's run ends
      have hc1 : cond9_1 (grid9.coords t) := (hcond9_1 t).mpr h1
      rw [leaves9_3 V c t hc1, after9_3]
      unfold res9
      rw [acc9_next V c t h0]
      rw [PhiS9_castSucc V c t, PhiS9_pos V c _ _ hz]
      iintro ⟨⟨⟨HS, HR⟩, Hg⟩, Ho, ⟨%d0, H0⟩, ⟨%d1, H1⟩, ⟨%d2, H2⟩, ⟨%d3, H3⟩⟩
      iapply (sound_kernel9_C c Set.univ (grid9.coords t) _ _ _ _ _ _ _ _ _ _ hc0 hc1 (iblk9 V c 0 t) (iblk9 V c 1 t) (iblk9 V c 2 t)
        (acc9 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- inside a node tile's run
      have hc1 : ¬cond9_1 (grid9.coords t) := fun h => h1 ((hcond9_1 t).mp h)
      rw [Dat.leavesExact_idle (dat9 V c) 3 t (idleAt9_3 (grid9.coords t) hc1) (noFlush9_3 t h1)]
      rw [acc9_next V c t h0]
      rw [PhiS9_castSucc V c t, PhiS9_pos V c _ _ hz]
      iintro ⟨⟨⟨HS, HR⟩, Hg⟩, Ho, ⟨%d0, H0⟩, ⟨%d1, H1⟩, ⟨%d2, H2⟩, ⟨%d3, H3⟩⟩
      iapply (sound_kernel9_B c Set.univ (grid9.coords t) _ _ _ _ _ _ _ _ _ _ hc0 hc1 (iblk9 V c 0 t) (iblk9 V c 1 t) (iblk9 V c 2 t) ((dat9 V c).before 3 t d3)
        (acc9 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant's two ends -/

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After any point the invariant gives the entry form back: the accumulator's named contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨HS, HR⟩, Hg⟩
  isplitl [HS HR]
  · isplitl [HS]
    · iexists _; iexact HS
    iexact HR
  iexact Hg

/-- The same after the last point. -/
theorem hout9 (c : Dev nD) : (dat9 V c).Φ (Fin.last cfg9.N) ⊢ Pipeline.ΦA spec9 c :=
  Phi_out9 V c _ (by rw [Fin.val_last]; have : cfg9.N = 4900 := N_9; omega)

end Cert.Kernel.Hand

end
-- ==== Proof.KB.Segs.lean ====
/-
  The ten pallas_calls of the kernel program as segments of @main: each region entered from the thread state
  "every unscoped buffer at the boundary's contents, the generator register at some state, nothing owed" and
  left at the same over the next boundary's contents. A region's arrays are split out of the unscoped buffers
  at its entry and put back at its exit at what the pipeline's write-backs leave; the generator register goes
  into the region's invariant and comes back; no region has a semaphore of its own; nothing is owed throughout.
-/
import proofs.«177903_j22574348108073_1_alg».proof.Proof.KB.Chain
import proofs.«177903_j22574348108073_1_alg».proof.Proof.KB.Reg0.Body
import proofs.«177903_j22574348108073_1_alg».proof.Proof.KB.Reg1.Body
import proofs.«177903_j22574348108073_1_alg».proof.Proof.KB.Reg2.Body
import proofs.«177903_j22574348108073_1_alg».proof.Proof.KB.Reg3.Body
import proofs.«177903_j22574348108073_1_alg».proof.Proof.KB.Reg4.Body
import proofs.«177903_j22574348108073_1_alg».proof.Proof.KB.Reg5.Body
import proofs.«177903_j22574348108073_1_alg».proof.Proof.KB.Reg6.Body
import proofs.«177903_j22574348108073_1_alg».proof.Proof.KB.Reg7.Body
import proofs.«177903_j22574348108073_1_alg».proof.Proof.KB.Reg8.Body
import proofs.«177903_j22574348108073_1_alg».proof.Proof.KB.Reg9.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- The same at every boundary. -/
abbrev E : Fin 11 → Dev nD → sProp 𝕄 := fun _ c => R c

set_option backward.isDefEq.respectTransparency.types false in
/-- REGION 0 (the edge-feature projection): entered from every unscoped buffer at `B0`, left at `B1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bv0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (Bv0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Bv0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Bv0 m c) (Bv1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the first layer's linear projection): entered from every unscoped buffer at `B1`, left at `B2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bv1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec1 c (Bv1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Bv1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Bv1 m c) (Bv2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the first layer's gather): entered from every unscoped buffer at `B2`, left at `B3`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Bv2 m) c).loose
  hwaits := Pipeline.hwaits_of_owed_zero _ _ _ _ L lv 2 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec2 c (Bv2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Bv2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (Bv2 m) c
    unfold Pipeline.ΦA at h
    rw [show (pdats m 2 c).Φ 0 = (dat2 (Bv2 m) c).Φ 0 from rfl]
    iintro ⟨Hp, -, Hr⟩
    iapply h
    isplitl [Hr]; · iexact Hr
    iexact Hp
  hout c := by
    rw [Pipeline.ownSems0_none]
    have h := hout2 (Bv2 m) c
    unfold Pipeline.ΦA at h
    rw [show (pdats m 2 c).Φ (Fin.last _) = (dat2 (Bv2 m) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Bv2 m c) (Bv3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (the first layer's scatter): entered from every unscoped buffer at `B3`, left at `B4`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Bv3 m) c).loose
  hwaits := Pipeline.hwaits_of_owed_zero _ _ _ _ L lv 3 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec3 c (Bv3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Bv3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (Bv3 m) c
    unfold Pipeline.ΦA at h
    rw [show (pdats m 3 c).Φ 0 = (dat3 (Bv3 m) c).Φ 0 from rfl]
    iintro ⟨Hp, -, Hr⟩
    iapply h
    isplitl [Hr]; · iexact Hr
    iexact Hp
  hout c := by
    rw [Pipeline.ownSems0_none]
    have h := hout3 (Bv3 m) c
    unfold Pipeline.ΦA at h
    rw [show (pdats m 3 c).Φ (Fin.last _) = (dat3 (Bv3 m) c).Φ (Fin.last cfg3.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Bv3 m c) (Bv4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (the second layer's linear projection): entered from every unscoped buffer at `B4`, left at `B5`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Bv4 m) c).loose
  hwaits := Pipeline.hwaits_of_owed_zero _ _ _ _ L lv 4 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec4 c (Bv4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Bv4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Bv4 m c) (Bv5 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 (the second layer's gather): entered from every unscoped buffer at `B5`, left at `B6`. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Bv5 m) c).loose
  hwaits := Pipeline.hwaits_of_owed_zero _ _ _ _ L lv 5 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec5 c (Bv5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Bv5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin5 (Bv5 m) c
    unfold Pipeline.ΦA at h
    rw [show (pdats m 5 c).Φ 0 = (dat5 (Bv5 m) c).Φ 0 from rfl]
    iintro ⟨Hp, -, Hr⟩
    iapply h
    isplitl [Hr]; · iexact Hr
    iexact Hp
  hout c := by
    rw [Pipeline.ownSems0_none]
    have h := hout5 (Bv5 m) c
    unfold Pipeline.ΦA at h
    rw [show (pdats m 5 c).Φ (Fin.last _) = (dat5 (Bv5 m) c).Φ (Fin.last cfg5.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Bv5 m c) (Bv6 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 (the second layer's scatter): entered from every unscoped buffer at `B6`, left at `B7`. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Bv6 m) c).loose
  hwaits := Pipeline.hwaits_of_owed_zero _ _ _ _ L lv 6 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec6 c (Bv6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Bv6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin6 (Bv6 m) c
    unfold Pipeline.ΦA at h
    rw [show (pdats m 6 c).Φ 0 = (dat6 (Bv6 m) c).Φ 0 from rfl]
    iintro ⟨Hp, -, Hr⟩
    iapply h
    isplitl [Hr]; · iexact Hr
    iexact Hp
  hout c := by
    rw [Pipeline.ownSems0_none]
    have h := hout6 (Bv6 m) c
    unfold Pipeline.ΦA at h
    rw [show (pdats m 6 c).Φ (Fin.last _) = (dat6 (Bv6 m) c).Φ (Fin.last cfg6.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Bv6 m c) (Bv7 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 (the third layer's linear projection): entered from every unscoped buffer at `B7`, left at `B8`. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Bv7 m) c).loose
  hwaits := Pipeline.hwaits_of_owed_zero _ _ _ _ L lv 7 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec7 c (Bv7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Bv7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Bv7 m c) (Bv8 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 (the third layer's gather): entered from every unscoped buffer at `B8`, left at `B9`. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Bv8 m) c).loose
  hwaits := Pipeline.hwaits_of_owed_zero _ _ _ _ L lv 8 fun _ _ => rfl
  pre c := iprop(StableHlo.held (c : Thread nD τ) (Pipeline.ucRefs τ sig) (B8 m c) ∗ R c)
  post c := iprop(StableHlo.held (c : Thread nD τ) (Pipeline.ucRefs τ sig) (B9 m c) ∗ R c)
  X c := iprop(∃ r, prngReg c r)
  Y c := iprop(∃ r, prngReg c r)
  Z c := Pipeline.unscopedRest (Ix := Unit) (Name := ℕ) (U := UR sig nD τ) (Lvl := ℕ) spec8 c (Bv8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Bv8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin8 (Bv8 m) c
    unfold Pipeline.ΦA at h
    rw [show (pdats m 8 c).Φ 0 = (dat8 (Bv8 m) c).Φ 0 from rfl]
    iintro ⟨Hp, -, Hr⟩
    iapply h
    isplitl [Hr]; · iexact Hr
    iexact Hp
  hout c := by
    rw [Pipeline.ownSems0_none]
    have h := hout8 (Bv8 m) c
    unfold Pipeline.ΦA at h
    rw [show (pdats m 8 c).Φ (Fin.last _) = (dat8 (Bv8 m) c).Φ (Fin.last cfg8.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Bv8 m c) (Bv9 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 (the third layer's scatter): entered from every unscoped buffer at `B9`, left at `B10`. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Bv9 m) c).loose
  hwaits := Pipeline.hwaits_of_owed_zero _ _ _ _ L lv 9 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec9 c (Bv9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Bv9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin9 (Bv9 m) c
    unfold Pipeline.ΦA at h
    rw [show (pdats m 9 c).Φ 0 = (dat9 (Bv9 m) c).Φ 0 from rfl]
    iintro ⟨Hp, -, Hr⟩
    iapply h
    isplitl [Hr]; · iexact Hr
    iexact Hp
  hout c := by
    rw [Pipeline.ownSems0_none]
    have h := hout9 (Bv9 m) c
    unfold Pipeline.ΦA at h
    rw [show (pdats m 9 c).Φ (Fin.last _) = (dat9 (Bv9 m) c).Φ (Fin.last cfg9.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Bv9 m c) (Bv10 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Run.lean ====
/-
  The run of the kernel program: @main as its twenty-three segments (twelve host stretches, the ten pallas_calls,
  the final slice), launched from any memory with zero counters. Every weakly fair execution terminates, nothing
  faulting, and every final memory holds every unscoped buffer at the last boundary's contents: so each
  argument as launched, and the result at the slice of what the last region leaves.
-/
import proofs.«177903_j22574348108073_1_alg».proof.Proof.KB.Segs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last host stretch (the slice of the padded result) as a segment, from the last region's exit contents. -/
def segLast : HostSeg (Ix := Unit) (Name := ℕ) (U := UR sig nD τ) (Lvl := ℕ) (pcfgs (F := F)) defs₀ 𝒱₀ L lv :=
  HostSeg.ofOps _ _ _ _ _ (Pipeline.ucRefs τ sig) hostOps10
    (fun op h => Pipeline.sub_ucRefs op ((List.forall_iff_forall_mem.mp hostOps10_sub) op h))
    (fun op h => (List.forall_iff_forall_mem.mp hostOps10_fresh) op h) (B10 m) (E (F := F) 10)

/-- @main's items as segments, in order. -/
abbrev segsAll : List (Seg (pcfgs (F := F)) adm (pdats m) () defs₀ 𝒱₀ L lv) :=
  [.host (seg0 m 𝒱₀ L lv E), .host (seg1 m 𝒱₀ L lv E), .host (seg2 m 𝒱₀ L lv E), .host (seg3 m 𝒱₀ L lv E), .host (seg4 m 𝒱₀ L lv E),
   .host (seg5 m 𝒱₀ L lv E), .host (seg6 m 𝒱₀ L lv E), .host (seg7 m 𝒱₀ L lv E), .host (seg8 m 𝒱₀ L lv E), .host (seg9 m 𝒱₀ L lv E),
   .host (seg10 m 𝒱₀ L lv E), .host (seg11 m 𝒱₀ L lv E),
   .region (reg0 m), .region (reg1 m), .region (reg2 m), .region (reg3 m), .region (reg4 m), .region (reg5 m), .region (reg6 m),
   .region (reg7 m), .region (reg8 m), .region (reg9 m), .host (segLast m)]

/-- The last thread state without the dues: every unscoped buffer at the last boundary's contents, the generator
    register at some state. -/
abbrev Tlast (c : Dev nD) : sProp 𝕄 := iprop(StableHlo.held (c : Thread nD τ) (Pipeline.ucRefs τ sig) (B11 m c) ∗ ∃ r, prngReg c r)

/-- The last thread state regrouped: the generator register beside the buffers, the dues apart. -/
theorem last_step (c : Dev nD) :
    (iprop(StableHlo.held (c : Thread nD τ) (Pipeline.ucRefs τ sig) (B11 m c) ∗ R c) : sProp 𝕄)
      ⊢ iprop(Tlast m c ∗ ∃ W, owes (c : Thread nD τ) (0 : CellTallies nD τ sig Unit) W) := by
  iintro ⟨Hh, Hp, Ho⟩
  isplitl [Hh Hp]
  · isplitl [Hh]; · iexact Hh
    iexact Hp
  iexact Ho

set_option backward.isDefEq.respectTransparency.types false in
/-- THE RUN. From any memory with zero counters every weakly fair execution of @main on the TensorCores
    terminates, nothing faulting, and every final memory holds every unscoped buffer at `B11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B11 m c b) := by
  refine Pipeline.θ_run_regions_kit_dev (pcfgs (F := F)) adm (pdats m) () cellOf_inj emb₁ defs₀ 𝒱₀ L lv m ρ main
    (fun _ => segsAll m)
    (fun c Q => by
      rewrite [main_chain c, Seg.run_eq_chain,
        show (segsAll m).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          Prog.lift (.customCall (Pipeline.entry 0) ()), Prog.lift (.customCall (Pipeline.entry 1) ()),
          Prog.lift (.customCall (Pipeline.entry 2) ()), Prog.lift (.customCall (Pipeline.entry 3) ()),
          Prog.lift (.customCall (Pipeline.entry 4) ()), Prog.lift (.customCall (Pipeline.entry 5) ()),
          Prog.lift (.customCall (Pipeline.entry 6) ()), Prog.lift (.customCall (Pipeline.entry 7) ()),
          Prog.lift (.customCall (Pipeline.entry 8) ()), Prog.lift (.customCall (Pipeline.entry 9) ()),
          StableHlo.seq hostOps10 ] from rfl]
      exact .rfl)
    (fun c => by simp only [segsAll, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tlast m)
    (hch := fun c => ⟨.rfl, .rfl, .rfl, .rfl, .rfl, .rfl, .rfl, .rfl, .rfl, .rfl, .rfl, .rfl, .rfl, .rfl, .rfl, .rfl, .rfl, .rfl, .rfl, .rfl,
      .rfl, .rfl, .rfl, last_step m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m c b)
    (hfin := fun c s' => by
      iintro ⟨⟨Hh, -⟩, HSI⟩
      unfold StableHlo.held
      imodintro
      iapply (pointsTo_read_all (Pipeline.ucRefs τ sig) (fun b => (((c : Thread nD τ)).1, b)) (B11 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Argument 0 ends as launched: no host stretch writes it and no region's output array is it. -/
theorem B11_main_arg0 (c : Dev nD) : B11 m c (Proc.devRef .tc main_arg0) = m ((c : Thread nD τ).loc main_arg0) :=
  B11_launch m c main_arg0 (by decide) (by decide) (by decide) (by decide) (by decide) (by decide) (by decide) (by decide) (by decide) (by decide)
    (by decide) (by decide) (by decide) (by decide)
/-- Argument 1 ends as launched: no host stretch writes it and no region's output array is it. -/
theorem B11_main_arg1 (c : Dev nD) : B11 m c (Proc.devRef .tc main_arg1) = m ((c : Thread nD τ).loc main_arg1) :=
  B11_launch m c main_arg1 (by decide) (by decide) (by decide) (by decide) (by decide) (by decide) (by decide) (by decide) (by decide) (by decide)
    (by decide) (by decide) (by decide) (by decide)
/-- Argument 2 ends as launched: no host stretch writes it and no region's output array is it. -/
theorem B11_main_arg2 (c : Dev nD) : B11 m c (Proc.devRef .tc main_arg2) = m ((c : Thread nD τ).loc main_arg2) :=
  B11_launch m c main_arg2 (by decide) (by decide) (by decide) (by decide) (by decide) (by decide) (by decide) (by decide) (by decide) (by decide)
    (by decide) (by decide) (by decide) (by decide)
/-- Argument 3 ends as launched: no host stretch writes it and no region's output array is it. -/
theorem B11_main_arg3 (c : Dev nD) : B11 m c (Proc.devRef .tc main_arg3) = m ((c : Thread nD τ).loc main_arg3) :=
  B11_launch m c main_arg3 (by decide) (by decide) (by decide) (by decide) (by decide) (by decide) (by decide) (by decide) (by decide) (by decide)
    (by decide) (by decide) (by decide) (by decide)
/-- Argument 4 ends as launched: no host stretch writes it and no region's output array is it. -/
theorem B11_main_arg4 (c : Dev nD) : B11 m c (Proc.devRef .tc main_arg4) = m ((c : Thread nD τ).loc main_arg4) :=
  B11_launch m c main_arg4 (by decide) (by decide) (by decide) (by decide) (by decide) (by decide) (by decide) (by decide) (by decide) (by decide)
    (by decide) (by decide) (by decide) (by decide)
/-- Argument 5 ends as launched: no host stretch writes it and no region's output array is it. -/
theorem B11_main_arg5 (c : Dev nD) : B11 m c (Proc.devRef .tc main_arg5) = m ((c : Thread nD τ).loc main_arg5) :=
  B11_launch m c main_arg5 (by decide) (by decide) (by decide) (by decide) (by decide) (by decide) (by decide) (by decide) (by decide) (by decide)
    (by decide) (by decide) (by decide) (by decide)
/-- Argument 6 ends as launched: no host stretch writes it and no region's output array is it. -/
theorem B11_main_arg6 (c : Dev nD) : B11 m c (Proc.devRef .tc main_arg6) = m ((c : Thread nD τ).loc main_arg6) :=
  B11_launch m c main_arg6 (by decide) (by decide) (by decide) (by decide) (by decide) (by decide) (by decide) (by decide) (by decide) (by decide)
    (by decide) (by decide) (by decide) (by decide)
/-- Argument 7 ends as launched: no host stretch writes it and no region's output array is it. -/
theorem B11_main_arg7 (c : Dev nD) : B11 m c (Proc.devRef .tc main_arg7) = m ((c : Thread nD τ).loc main_arg7) :=
  B11_launch m c main_arg7 (by decide) (by decide) (by decide) (by decide) (by decide) (by decide) (by decide) (by decide) (by decide) (by decide)
    (by decide) (by decide) (by decide) (by decide)
/-- Argument 8 ends as launched: no host stretch writes it and no region's output array is it. -/
theorem B11_main_arg8 (c : Dev nD) : B11 m c (Proc.devRef .tc main_arg8) = m ((c : Thread nD τ).loc main_arg8) :=
  B11_launch m c main_arg8 (by decide) (by decide) (by decide) (by decide) (by decide) (by decide) (by decide) (by decide) (by decide) (by decide)
    (by decide) (by decide) (by decide) (by decide)
/-- Argument 9 ends as launched: no host stretch writes it and no region's output array is it. -/
theorem B11_main_arg9 (c : Dev nD) : B11 m c (Proc.devRef .tc main_arg9) = m ((c : Thread nD τ).loc main_arg9) :=
  B11_launch m c main_arg9 (by decide) (by decide) (by decide) (by decide) (by decide) (by decide) (by decide) (by decide) (by decide) (by decide)
    (by decide) (by decide) (by decide) (by decide)

/-- THE FRAME, at any float instance: every execution terminates and each argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (B11_main_arg0 m c), (h c _ (mem_uc main_arg1 (by decide))).trans (B11_main_arg1 m c),
     (h c _ (mem_uc main_arg2 (by decide))).trans (B11_main_arg2 m c), (h c _ (mem_uc main_arg3 (by decide))).trans (B11_main_arg3 m c),
     (h c _ (mem_uc main_arg4 (by decide))).trans (B11_main_arg4 m c), (h c _ (mem_uc main_arg5 (by decide))).trans (B11_main_arg5 m c),
     (h c _ (mem_uc main_arg6 (by decide))).trans (B11_main_arg6 m c), (h c _ (mem_uc main_arg7 (by decide))).trans (B11_main_arg7 m c),
     (h c _ (mem_uc main_arg8 (by decide))).trans (B11_main_arg8 m c), (h c _ (mem_uc main_arg9 (by decide))).trans (B11_main_arg9 m c)⟩)
    (run_all m ρ)

end Cert.Kernel.Hand

end
-- ==== Proof.KI.Reg0.Data.lean ====
/-
  Region 0 of the kernel's program: the edge-feature projection, one grid point per tile of 4096 edges. At a
  point the body reads its tile of the padded edge attributes (4096 × 16) and the whole embedding table
  (16 × 128) and stores their matrix product over the whole output tile (4096 × 128). This module DEFINES, at
  any entry contents `V` and any float instance, what each window's staging buffer holds after the body and the
  pipeline's proof data over it.
-/
import proofs.«177903_j22574348108073_1_alg».proof.Proof.Gen.KernelIdeal.Launch
import proofs.«177903_j22574348108073_1_alg».proof.Proof.Gen.KernelIdeal.Skeleton
import proofs.«177903_j22574348108073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge-attribute tile is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The embedding table is in its staging buffer at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output tile after the body: the product of the two loaded blocks. -/
def out0_2 (x0 : Vec F S4096x16 .f32) (x1 : Vec F S16x128 .f32) : Vec F S4096x128 .f32 :=
  k0_pay1 x0 x1

/-- The proof data of pipeline 0 on core `c`: the arrays at the entry contents; after the body each input's
    buffer at its block and the output's at `out0_2` of the input blocks; the scoped buffers and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.KernelIdeal.Hand

end
-- ==== Proof.KI.Reg1.Data.lean ====
/-
  Region 1 of the kernel's program: the linear projection of the node features, one grid point per tile of 2048
  nodes. At a point the body reads its tile of the padded node features (2048 × 128), the whole weight matrix
  (128 × 128) and the bias (128), and stores product + bias over the whole output tile (2048 × 128). This module
  DEFINES, at any entry contents `V` and any float instance, what each window's staging buffer holds after the
  body and the pipeline's proof data over it.
-/
import proofs.«177903_j22574348108073_1_alg».proof.Proof.Gen.KernelIdeal.Launch
import proofs.«177903_j22574348108073_1_alg».proof.Proof.Gen.KernelIdeal.Skeleton
import proofs.«177903_j22574348108073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The node-feature tile is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix is in its staging buffer at every point: fetched once, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias is in its staging buffer at every point: fetched once, its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output tile after the body: the product of the two loaded blocks plus the bias along the rows. -/
def out1_3 (x0 : Vec F S2048x128 .f32) (x1 : Vec F S128x128 .f32) (x2 : Vec F S128 .f32) : Vec F S2048x128 .f32 :=
  k1_pay1 x0 x1 x2

/-- The proof data of pipeline 1 on core `c`: the arrays at the entry contents; after the body each input's
    buffer at its block and the output's at `out1_3` of the input blocks; the scoped buffers and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KI.Reg2.Data.lean ====
/-
  Region 2 of the kernel's program: the gather of node features along the edges' source nodes, written as a
  blocked one-hot product. The grid is 196 edge tiles (of 4096 edges) by 25 node tiles (of 2048 nodes), the node
  tile the fast axis. At point (i, j) the body adds, into a scratch accumulator of shape 4096 × 128, the product
  of the one-hot matrix [source of edge e = node 2048·j + n] with node tile j of the projected features; the
  accumulator is zeroed at j = 0, and at j = 24 the body stores normalisation × (accumulator + edge embedding)
  as the output tile. This module only DEFINES, at any entry contents `V` and any float instance, what the
  accumulator and the output tile hold after each point, the invariant carrying the accumulator between points,
  and the pipeline's proof data over them.
-/
import proofs.«177903_j22574348108073_1_alg».proof.Proof.Gen.KernelIdeal.Launch
import proofs.«177903_j22574348108073_1_alg».proof.Proof.Gen.KernelIdeal.Skeleton
import proofs.«177903_j22574348108073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The node tile of the projected features is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The edge tile's source nodes are in their staging buffer at every point (fetched when the edge tile changes). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The edge tile's normalisation factors are in their staging buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The edge tile's embeddings are in their staging buffer at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The scratch accumulator as a whole memref. -/
abbrev scM2 : Memref sig .tc .vmem S4096x128 .f32 := Memref.whole cc2_scratch0

/-- THE ACCUMULATOR after the body at position `n`: the one-hot product of this point's node tile added to what
    the point before left, or to zeros where a new edge tile begins (every 25th point). -/
def acc2 (c : Dev nD) : (n : ℕ) → n < cfg2.N → Vec F S4096x128 .f32
  | 0, hn => k2_pay2 (grid2.coords ⟨0, hn⟩) (iblk2 V c 1 ⟨0, hn⟩) (iblk2 V c 0 ⟨0, hn⟩) (k2_pay1 (F := F))
  | n + 1, hn => k2_pay2 (grid2.coords ⟨n + 1, hn⟩) (iblk2 V c 1 ⟨n + 1, hn⟩) (iblk2 V c 0 ⟨n + 1, hn⟩)
      (if (n + 1) % 25 = 0 then k2_pay1 (F := F) else acc2 c n (Nat.lt_of_succ_lt hn))

/-- The output tile the body stores at the last node tile of an edge tile: normalisation × (accumulator + embedding).
    (At the other points the window is idle and this value is never consulted.) -/
def msg2 (c : Dev nD) (t : Fin cfg2.N) : Vec F S4096x128 .bf16 :=
  k2_pay3 (iblk2 V c 2 t) (acc2 V c t.val t.isLt) (iblk2 V c 3 t)

/-- The region's invariant before position `n`: before the first point every scoped buffer at anything; afterwards
    the accumulator at what the point before left, the other scoped buffers at anything, the generator register
    at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => msg2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = msg2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

end Cert.KernelIdeal.Hand

end
-- ==== Proof.KI.Reg3.Data.lean ====
/-
  Region 3 of the kernel's program: the scatter of the edge messages onto their target nodes plus the residual,
  written as a blocked one-hot product. The grid is 25 node tiles (of 2048 nodes) by 196 edge tiles (of 4096
  edges), the edge tile the fast axis. At point (n, e) the body adds, into a scratch accumulator of shape
  2048 × 128, the product of the one-hot matrix [node 2048·n + r = target of edge] with edge tile e of the
  messages; the accumulator is zeroed at e = 0, and at e = 195 the body stores accumulator + node tile of the
  projected features as the output tile — under the rectifier max(·, 0) in the layers that have one: the last
  store's payload, the skeleton's third, says which. This module only DEFINES, at any entry contents `V` and any float
  instance, what the accumulator and the output tile hold after each point, the invariant carrying the
  accumulator between points, and the pipeline's proof data over them.
-/
import proofs.«177903_j22574348108073_1_alg».proof.Proof.Gen.KernelIdeal.Launch
import proofs.«177903_j22574348108073_1_alg».proof.Proof.Gen.KernelIdeal.Skeleton
import proofs.«177903_j22574348108073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The edge tile of the messages is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The edge tile's target nodes are in their staging buffer at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The node tile of the projected features is in its staging buffer at every point (fetched when the node tile changes). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The scratch accumulator as a whole memref. -/
abbrev scM3 : Memref sig .tc .vmem S2048x128 .f32 := Memref.whole cc3_scratch0

/-- THE ACCUMULATOR after the body at position `n`: the one-hot product of this point's edge tile added to what
    the point before left, or to zeros where a new node tile begins (every 196th point). -/
def acc3 (c : Dev nD) : (n : ℕ) → n < cfg3.N → Vec F S2048x128 .f32
  | 0, hn => k3_pay2 (grid3.coords ⟨0, hn⟩) (iblk3 V c 1 ⟨0, hn⟩) (iblk3 V c 0 ⟨0, hn⟩) (k3_pay1 (F := F))
  | n + 1, hn => k3_pay2 (grid3.coords ⟨n + 1, hn⟩) (iblk3 V c 1 ⟨n + 1, hn⟩) (iblk3 V c 0 ⟨n + 1, hn⟩)
      (if (n + 1) % 196 = 0 then k3_pay1 (F := F) else acc3 c n (Nat.lt_of_succ_lt hn))

/-- The output tile the body stores at the last edge tile of a node tile: the last store's payload of the
    accumulator and the residual (their sum, under the rectifier where the layer has one).
    (At the other points the window is idle and this value is never consulted.) -/
def res3 (c : Dev nD) (t : Fin cfg3.N) : Vec F S2048x128 .f32 :=
  k3_pay3 (acc3 V c t.val t.isLt) (iblk3 V c 2 t)

/-- The region's invariant before position `n`: before the first point every scoped buffer at anything; afterwards
    the accumulator at what the point before left, the other scoped buffers at anything, the generator register
    at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => res3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = res3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiS3_castSucc (c : Dev nD) (t : Fin cfg3.N) :
    (dat3 V c).Φ t.castSucc = PhiS3 V c t.val (Nat.le_of_lt t.isLt) := by
  dsimp only [dat3]; simp only [Fin.coe_castSucc]

end Cert.KernelIdeal.Hand

end
-- ==== Proof.KI.Reg4.Data.lean ====
/-
  Region 4 of the kernel's program: the linear projection of the node features, one grid point per tile of 2048
  nodes. At a point the body reads its tile of the padded node features (2048 × 128), the whole weight matrix
  (128 × 128) and the bias (128), and stores product + bias over the whole output tile (2048 × 128). This module
  DEFINES, at any entry contents `V` and any float instance, what each window's staging buffer holds after the
  body and the pipeline's proof data over it.
-/
import proofs.«177903_j22574348108073_1_alg».proof.Proof.Gen.KernelIdeal.Launch
import proofs.«177903_j22574348108073_1_alg».proof.Proof.Gen.KernelIdeal.Skeleton
import proofs.«177903_j22574348108073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The node-feature tile is in its staging buffer at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix is in its staging buffer at every point: fetched once, its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The bias is in its staging buffer at every point: fetched once, its block index never moves. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The output tile after the body: the product of the two loaded blocks plus the bias along the rows. -/
def out4_3 (x0 : Vec F S2048x128 .f32) (x1 : Vec F S128x128 .f32) (x2 : Vec F S128 .f32) : Vec F S2048x128 .f32 :=
  k4_pay1 x0 x1 x2

/-- The proof data of pipeline 4 on core `c`: the arrays at the entry contents; after the body each input's
    buffer at its block and the output's at `out4_3` of the input blocks; the scoped buffers and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

end Cert.KernelIdeal.Hand

end
-- ==== Proof.KI.Reg5.Data.lean ====
/-
  Region 5 of the kernel's program: the gather of node features along the edges' source nodes, written as a
  blocked one-hot product. The grid is 196 edge tiles (of 4096 edges) by 25 node tiles (of 2048 nodes), the node
  tile the fast axis. At point (i, j) the body adds, into a scratch accumulator of shape 4096 × 128, the product
  of the one-hot matrix [source of edge e = node 2048·j + n] with node tile j of the projected features; the
  accumulator is zeroed at j = 0, and at j = 24 the body stores normalisation × (accumulator + edge embedding)
  as the output tile. This module only DEFINES, at any entry contents `V` and any float instance, what the
  accumulator and the output tile hold after each point, the invariant carrying the accumulator between points,
  and the pipeline's proof data over them.
-/
import proofs.«177903_j22574348108073_1_alg».proof.Proof.Gen.KernelIdeal.Launch
import proofs.«177903_j22574348108073_1_alg».proof.Proof.Gen.KernelIdeal.Skeleton
import proofs.«177903_j22574348108073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The node tile of the projected features is in its staging buffer at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The edge tile's source nodes are in their staging buffer at every point (fetched when the edge tile changes). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The edge tile's normalisation factors are in their staging buffer at every point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The edge tile's embeddings are in their staging buffer at every point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The scratch accumulator as a whole memref. -/
abbrev scM5 : Memref sig .tc .vmem S4096x128 .f32 := Memref.whole cc5_scratch0

/-- THE ACCUMULATOR after the body at position `n`: the one-hot product of this point's node tile added to what
    the point before left, or to zeros where a new edge tile begins (every 25th point). -/
def acc5 (c : Dev nD) : (n : ℕ) → n < cfg5.N → Vec F S4096x128 .f32
  | 0, hn => k5_pay2 (grid5.coords ⟨0, hn⟩) (iblk5 V c 1 ⟨0, hn⟩) (iblk5 V c 0 ⟨0, hn⟩) (k5_pay1 (F := F))
  | n + 1, hn => k5_pay2 (grid5.coords ⟨n + 1, hn⟩) (iblk5 V c 1 ⟨n + 1, hn⟩) (iblk5 V c 0 ⟨n + 1, hn⟩)
      (if (n + 1) % 25 = 0 then k5_pay1 (F := F) else acc5 c n (Nat.lt_of_succ_lt hn))

/-- The output tile the body stores at the last node tile of an edge tile: normalisation × (accumulator + embedding).
    (At the other points the window is idle and this value is never consulted.) -/
def msg5 (c : Dev nD) (t : Fin cfg5.N) : Vec F S4096x128 .bf16 :=
  k5_pay3 (iblk5 V c 2 t) (acc5 V c t.val t.isLt) (iblk5 V c 3 t)

/-- The region's invariant before position `n`: before the first point every scoped buffer at anything; afterwards
    the accumulator at what the point before left, the other scoped buffers at anything, the generator register
    at some state. -/
def PhiS5 (c : Dev nD) : (n : ℕ) → n ≤ cfg5.N → sProp 𝕄
  | 0, _ => Pipeline.ΦA spec5 c
  | n + 1, hn => iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r))

/-- The proof data of pipeline 5 on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => msg5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = msg5 V c t := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare (acc5 V c (n - 1) (by omega))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

theorem PhiS5_castSucc (c : Dev nD) (t : Fin cfg5.N) :
    (dat5 V c).Φ t.castSucc = PhiS5 V c t.val (Nat.le_of_lt t.isLt) := by
  dsimp only [dat5]; simp only [Fin.coe_castSucc]

end Cert.KernelIdeal.Hand

end
-- ==== Proof.KI.Reg6.Data.lean ====
/-
  Region 6 of the kernel's program: the scatter of the edge messages onto their target nodes plus the residual,
  written as a blocked one-hot product. The grid is 25 node tiles (of 2048 nodes) by 196 edge tiles (of 4096
  edges), the edge tile the fast axis. At point (n, e) the body adds, into a scratch accumulator of shape
  2048 × 128, the product of the one-hot matrix [node 2048·n + r = target of edge] with edge tile e of the
  messages; the accumulator is zeroed at e = 0, and at e = 195 the body stores accumulator + node tile of the
  projected features as the output tile — under the rectifier max(·, 0) in the layers that have one: the last
  store's payload, the skeleton's third, says which. This module only DEFINES, at any entry contents `V` and any float
  instance, what the accumulator and the output tile hold after each point, the invariant carrying the
  accumulator between points, and the pipeline's proof data over them.
-/
import proofs.«177903_j22574348108073_1_alg».proof.Proof.Gen.KernelIdeal.Launch
import proofs.«177903_j22574348108073_1_alg».proof.Proof.Gen.KernelIdeal.Skeleton
import proofs.«177903_j22574348108073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The edge tile of the messages is in its staging buffer at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The edge tile's target nodes are in their staging buffer at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The node tile of the projected features is in its staging buffer at every point (fetched when the node tile changes). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The scratch accumulator as a whole memref. -/
abbrev scM6 : Memref sig .tc .vmem S2048x128 .f32 := Memref.whole cc6_scratch0

/-- THE ACCUMULATOR after the body at position `n`: the one-hot product of this point's edge tile added to what
    the point before left, or to zeros where a new node tile begins (every 196th point). -/
def acc6 (c : Dev nD) : (n : ℕ) → n < cfg6.N → Vec F S2048x128 .f32
  | 0, hn => k6_pay2 (grid6.coords ⟨0, hn⟩) (iblk6 V c 1 ⟨0, hn⟩) (iblk6 V c 0 ⟨0, hn⟩) (k6_pay1 (F := F))
  | n + 1, hn => k6_pay2 (grid6.coords ⟨n + 1, hn⟩) (iblk6 V c 1 ⟨n + 1, hn⟩) (iblk6 V c 0 ⟨n + 1, hn⟩)
      (if (n + 1) % 196 = 0 then k6_pay1 (F := F) else acc6 c n (Nat.lt_of_succ_lt hn))

/-- The output tile the body stores at the last edge tile of a node tile: the last store's payload of the
    accumulator and the residual (their sum, under the rectifier where the layer has one).
    (At the other points the window is idle and this value is never consulted.) -/
def res6 (c : Dev nD) (t : Fin cfg6.N) : Vec F S2048x128 .f32 :=
  k6_pay3 (acc6 V c t.val t.isLt) (iblk6 V c 2 t)

/-- The region's invariant before position `n`: before the first point every scoped buffer at anything; afterwards
    the accumulator at what the point before left, the other scoped buffers at anything, the generator register
    at some state. -/
def PhiS6 (c : Dev nD) : (n : ℕ) → n ≤ cfg6.N → sProp 𝕄
  | 0, _ => Pipeline.ΦA spec6 c
  | n + 1, hn => iprop(iprop(owns (c : Thread nD τ) scM6 fullShare (acc6 V c n hn)
      ∗ Pipeline.scopedRestBut (Ix := Unit) (Name := ℕ) (U := UR sig nD τ) (Lvl := ℕ) (Val := Elt F) spec6 c [cc6_scratch0]) ∗ (∃ r, prngReg c r))

/-- The proof data of pipeline 6 on core `c`. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => res6 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = res6 V c t := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare (acc6 V c n hn)
      ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6 fullShare (acc6 V c (n - 1) (by omega))
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

theorem PhiS6_castSucc (c : Dev nD) (t : Fin cfg6.N) :
    (dat6 V c).Φ t.castSucc = PhiS6 V c t.val (Nat.le_of_lt t.isLt) := by
  dsimp only [dat6]; simp only [Fin.coe_castSucc]

end Cert.KernelIdeal.Hand

end
-- ==== Proof.KI.Reg7.Data.lean ====
/-
  Region 7 of the kernel's program: the linear projection of the node features, one grid point per tile of 2048
  nodes. At a point the body reads its tile of the padded node features (2048 × 128), the whole weight matrix
  (128 × 128) and the bias (128), and stores product + bias over the whole output tile (2048 × 128). This module
  DEFINES, at any entry contents `V` and any float instance, what each window's staging buffer holds after the
  body and the pipeline's proof data over it.
-/
import proofs.«177903_j22574348108073_1_alg».proof.Proof.Gen.KernelIdeal.Launch
import proofs.«177903_j22574348108073_1_alg».proof.Proof.Gen.KernelIdeal.Skeleton
import proofs.«177903_j22574348108073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The node-feature tile is in its staging buffer at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The weight matrix is in its staging buffer at every point: fetched once, its block index never moves. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The bias is in its staging buffer at every point: fetched once, its block index never moves. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The output tile after the body: the product of the two loaded blocks plus the bias along the rows. -/
def out7_3 (x0 : Vec F S2048x128 .f32) (x1 : Vec F S128x128 .f32) (x2 : Vec F S128 .f32) : Vec F S2048x128 .f32 :=
  k7_pay1 x0 x1 x2

/-- The proof data of pipeline 7 on core `c`: the arrays at the entry contents; after the body each input's
    buffer at its block and the output's at `out7_3` of the input blocks; the scoped buffers and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

end Cert.KernelIdeal.Hand

end
-- ==== Proof.KI.Reg8.Data.lean ====
/-
  Region 8 of the kernel's program: the gather of node features along the edges' source nodes, written as a
  blocked one-hot product. The grid is 196 edge tiles (of 4096 edges) by 25 node tiles (of 2048 nodes), the node
  tile the fast axis. At point (i, j) the body adds, into a scratch accumulator of shape 4096 × 128, the product
  of the one-hot matrix [source of edge e = node 2048·j + n] with node tile j of the projected features; the
  accumulator is zeroed at j = 0, and at j = 24 the body stores normalisation × (accumulator + edge embedding)
  as the output tile. This module only DEFINES, at any entry contents `V` and any float instance, what the
  accumulator and the output tile hold after each point, the invariant carrying the accumulator between points,
  and the pipeline's proof data over them.
-/
import proofs.«177903_j22574348108073_1_alg».proof.Proof.Gen.KernelIdeal.Launch
import proofs.«177903_j22574348108073_1_alg».proof.Proof.Gen.KernelIdeal.Skeleton
import proofs.«177903_j22574348108073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The node tile of the projected features is in its staging buffer at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The edge tile's source nodes are in their staging buffer at every point (fetched when the edge tile changes). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The edge tile's normalisation factors are in their staging buffer at every point. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The edge tile's embeddings are in their staging buffer at every point. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The scratch accumulator as a whole memref. -/
abbrev scM8 : Memref sig .tc .vmem S4096x128 .f32 := Memref.whole cc8_scratch0

/-- THE ACCUMULATOR after the body at position `n`: the one-hot product of this point's node tile added to what
    the point before left, or to zeros where a new edge tile begins (every 25th point). -/
def acc8 (c : Dev nD) : (n : ℕ) → n < cfg8.N → Vec F S4096x128 .f32
  | 0, hn => k8_pay2 (grid8.coords ⟨0, hn⟩) (iblk8 V c 1 ⟨0, hn⟩) (iblk8 V c 0 ⟨0, hn⟩) (k8_pay1 (F := F))
  | n + 1, hn => k8_pay2 (grid8.coords ⟨n + 1, hn⟩) (iblk8 V c 1 ⟨n + 1, hn⟩) (iblk8 V c 0 ⟨n + 1, hn⟩)
      (if (n + 1) % 25 = 0 then k8_pay1 (F := F) else acc8 c n (Nat.lt_of_succ_lt hn))

/-- The output tile the body stores at the last node tile of an edge tile: normalisation × (accumulator + embedding).
    (At the other points the window is idle and this value is never consulted.) -/
def msg8 (c : Dev nD) (t : Fin cfg8.N) : Vec F S4096x128 .bf16 :=
  k8_pay3 (iblk8 V c 2 t) (acc8 V c t.val t.isLt) (iblk8 V c 3 t)

/-- The region's invariant before position `n`: before the first point every scoped buffer at anything; afterwards
    the accumulator at what the point before left, the other scoped buffers at anything, the generator register
    at some state. -/
def PhiS8 (c : Dev nD) : (n : ℕ) → n ≤ cfg8.N → sProp 𝕄
  | 0, _ => Pipeline.ΦA spec8 c
  | n + 1, hn => iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r))

/-- The proof data of pipeline 8 on core `c`. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => msg8 V c t
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = msg8 V c t := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(owns (c : Thread nD τ) scM8 fullShare (acc8 V c (n - 1) (by omega))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

theorem PhiS8_castSucc (c : Dev nD) (t : Fin cfg8.N) :
    (dat8 V c).Φ t.castSucc = PhiS8 V c t.val (Nat.le_of_lt t.isLt) := by
  dsimp only [dat8]; simp only [Fin.coe_castSucc]

end Cert.KernelIdeal.Hand

end
-- ==== Proof.KI.Reg9.Data.lean ====
/-
  Region 9 of the kernel's program: the scatter of the edge messages onto their target nodes plus the residual,
  written as a blocked one-hot product. The grid is 25 node tiles (of 2048 nodes) by 196 edge tiles (of 4096
  edges), the edge tile the fast axis. At point (n, e) the body adds, into a scratch accumulator of shape
  2048 × 128, the product of the one-hot matrix [node 2048·n + r = target of edge] with edge tile e of the
  messages; the accumulator is zeroed at e = 0, and at e = 195 the body stores accumulator + node tile of the
  projected features as the output tile — under the rectifier max(·, 0) in the layers that have one: the last
  store's payload, the skeleton's third, says which. This module only DEFINES, at any entry contents `V` and any float
  instance, what the accumulator and the output tile hold after each point, the invariant carrying the
  accumulator between points, and the pipeline's proof data over them.
-/
import proofs.«177903_j22574348108073_1_alg».proof.Proof.Gen.KernelIdeal.Launch
import proofs.«177903_j22574348108073_1_alg».proof.Proof.Gen.KernelIdeal.Skeleton
import proofs.«177903_j22574348108073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The edge tile of the messages is in its staging buffer at every point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The edge tile's target nodes are in their staging buffer at every point. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The node tile of the projected features is in its staging buffer at every point (fetched when the node tile changes). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The scratch accumulator as a whole memref. -/
abbrev scM9 : Memref sig .tc .vmem S2048x128 .f32 := Memref.whole cc9_scratch0

/-- THE ACCUMULATOR after the body at position `n`: the one-hot product of this point's edge tile added to what
    the point before left, or to zeros where a new node tile begins (every 196th point). -/
def acc9 (c : Dev nD) : (n : ℕ) → n < cfg9.N → Vec F S2048x128 .f32
  | 0, hn => k9_pay2 (grid9.coords ⟨0, hn⟩) (iblk9 V c 1 ⟨0, hn⟩) (iblk9 V c 0 ⟨0, hn⟩) (k9_pay1 (F := F))
  | n + 1, hn => k9_pay2 (grid9.coords ⟨n + 1, hn⟩) (iblk9 V c 1 ⟨n + 1, hn⟩) (iblk9 V c 0 ⟨n + 1, hn⟩)
      (if (n + 1) % 196 = 0 then k9_pay1 (F := F) else acc9 c n (Nat.lt_of_succ_lt hn))

/-- The output tile the body stores at the last edge tile of a node tile: the last store's payload of the
    accumulator and the residual (their sum, under the rectifier where the layer has one).
    (At the other points the window is idle and this value is never consulted.) -/
def res9 (c : Dev nD) (t : Fin cfg9.N) : Vec F S2048x128 .f32 :=
  k9_pay3 (acc9 V c t.val t.isLt) (iblk9 V c 2 t)

/-- The region's invariant before position `n`: before the first point every scoped buffer at anything; afterwards
    the accumulator at what the point before left, the other scoped buffers at anything, the generator register
    at some state. -/
def PhiS9 (c : Dev nD) : (n : ℕ) → n ≤ cfg9.N → sProp 𝕄
  | 0, _ => Pipeline.ΦA spec9 c
  | n + 1, hn => iprop(iprop(owns (c : Thread nD τ) scM9 fullShare (acc9 V c n hn)
      ∗ Pipeline.scopedRestBut (Ix := Unit) (Name := ℕ) (U := UR sig nD τ) (Lvl := ℕ) (Val := Elt F) spec9 c [cc9_scratch0]) ∗ (∃ r, prngReg c r))

/-- The proof data of pipeline 9 on core `c`. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => res9 V c t
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = res9 V c t := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9 fullShare (acc9 V c n hn)
      ∗ Pipeline.scopedRestBut (Ix := Unit) (Name := ℕ) (U := UR sig nD τ) (Lvl := ℕ) (Val := Elt F) spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9 fullShare (acc9 V c (n - 1) (by omega))
      ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

theorem PhiS9_castSucc (c : Dev nD) (t : Fin cfg9.N) :
    (dat9 V c).Φ t.castSucc = PhiS9 V c t.val (Nat.le_of_lt t.isLt) := by
  dsimp only [dat9]; simp only [Fin.coe_castSucc]

end Cert.KernelIdeal.Hand

end
-- ==== Proof.KI.Chain.lean ====
/-
  The contents of the TensorCore's unscoped buffers at every boundary of the kernel program's ten pallas_calls:
  at the first region's entry what the host prefix leaves; at each region's exit its arrays at what the pipeline's
  write-backs leave (the inputs as entered, the output's blocks folded), every other buffer as entered; after
  the last region the final slice. With them the family of the ten pipelines' proof data, each at its region's
  entry contents, and the fact that no region changes a buffer other than its own output array.
-/
import proofs.«177903_j22574348108073_1_alg».proof.Proof.Gen.KernelIdeal.Regions
import proofs.«177903_j22574348108073_1_alg».proof.Proof.KI.Reg0.Data
import proofs.«177903_j22574348108073_1_alg».proof.Proof.KI.Reg1.Data
import proofs.«177903_j22574348108073_1_alg».proof.Proof.KI.Reg2.Data
import proofs.«177903_j22574348108073_1_alg».proof.Proof.KI.Reg3.Data
import proofs.«177903_j22574348108073_1_alg».proof.Proof.KI.Reg4.Data
import proofs.«177903_j22574348108073_1_alg».proof.Proof.KI.Reg5.Data
import proofs.«177903_j22574348108073_1_alg».proof.Proof.KI.Reg6.Data
import proofs.«177903_j22574348108073_1_alg».proof.Proof.KI.Reg7.Data
import proofs.«177903_j22574348108073_1_alg».proof.Proof.KI.Reg8.Data
import proofs.«177903_j22574348108073_1_alg».proof.Proof.KI.Reg9.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at region 0's entry: what the twelve host stretches before it leave. -/
abbrev B0 (c : Dev nD) : Valuation τ sig (Elt F) := V12 m c
/-- The same read at the TensorCore's references. -/
abbrev Bv0 : (c : Dev nD) → (b : Ref sig .tc) → Buf (Elt F) ((c : Thread nD τ).loc b) := fun c b => B0 m c b

/-- At region 0's exit: its arrays at what the pipeline leaves, every other buffer as entered. -/
def B1 (c : Dev nD) : Valuation τ sig (Elt F) :=
  Pipeline.withArrays spec0 c (B0 m c) fun w => (dat0 (Bv0 m) c).arrAt w cfg0.N
theorem B1_arr (c : Dev nD) (w : Fin cfg0.W) :
    B1 m c (Proc.devRef .tc (Pipeline.arrRef spec0 w)) = (dat0 (Bv0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
/-- The same read at the TensorCore's references. -/
abbrev Bv1 : (c : Dev nD) → (b : Ref sig .tc) → Buf (Elt F) ((c : Thread nD τ).loc b) := fun c b => B1 m c b
theorem hF0 (c : Dev nD) (w : Fin cfg0.W) : (dat0 (Bv0 m) c).arrAt w cfg0.N = Bv1 m c (Pipeline.arrRef spec0 w) :=
  (B1_arr m c w).symm
theorem hrest0 (c : Dev nD) : ∀ b, b ∉ Finset.univ.image (Pipeline.arrRef spec0) → Bv1 m c b = Bv0 m c b :=
  fun b hb => B1_of_ne m c b fun w e => hb (Finset.mem_image.mpr ⟨w, Finset.mem_univ _, e⟩)
/-- Region 0 changes no buffer but its output array `main_v33`: an input array ends as entered. -/
theorem B1_keep (c : Dev nD) (b : Ref sig .tc) (hb : b ≠ main_v33) : B1 m c (Proc.devRef .tc b) = B0 m c (Proc.devRef .tc b) := by
  by_cases h : ∃ w, Pipeline.arrRef spec0 w = b
  · obtain ⟨w, rfl⟩ := h
    rw [B1_arr]
    have hw : w ≠ 2 := fun e => hb (by subst e; rfl)
    exact ((dat0 (Bv0 m) c).arrAt_in w (by revert hw; revert w; decide) _).trans (A_eq0 (Bv0 m) c w)
  · exact B1_of_ne m c b fun w e => h ⟨w, e⟩

/-- At region 1's exit: its arrays at what the pipeline leaves, every other buffer as entered. -/
def B2 (c : Dev nD) : Valuation τ sig (Elt F) :=
  Pipeline.withArrays spec1 c (B1 m c) fun w => (dat1 (Bv1 m) c).arrAt w cfg1.N
theorem B2_arr (c : Dev nD) (w : Fin cfg1.W) :
    B2 m c (Proc.devRef .tc (Pipeline.arrRef spec1 w)) = (dat1 (Bv1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
/-- The same read at the TensorCore's references. -/
abbrev Bv2 : (c : Dev nD) → (b : Ref sig .tc) → Buf (Elt F) ((c : Thread nD τ).loc b) := fun c b => B2 m c b
theorem hF1 (c : Dev nD) (w : Fin cfg1.W) : (dat1 (Bv1 m) c).arrAt w cfg1.N = Bv2 m c (Pipeline.arrRef spec1 w) :=
  (B2_arr m c w).symm
theorem hrest1 (c : Dev nD) : ∀ b, b ∉ Finset.univ.image (Pipeline.arrRef spec1) → Bv2 m c b = Bv1 m c b :=
  fun b hb => B2_of_ne m c b fun w e => hb (Finset.mem_image.mpr ⟨w, Finset.mem_univ _, e⟩)
/-- Region 1 changes no buffer but its output array `main_v34`: an input array ends as entered. -/
theorem B2_keep (c : Dev nD) (b : Ref sig .tc) (hb : b ≠ main_v34) : B2 m c (Proc.devRef .tc b) = B1 m c (Proc.devRef .tc b) := by
  by_cases h : ∃ w, Pipeline.arrRef spec1 w = b
  · obtain ⟨w, rfl⟩ := h
    rw [B2_arr]
    have hw : w ≠ 3 := fun e => hb (by subst e; rfl)
    exact ((dat1 (Bv1 m) c).arrAt_in w (by revert hw; revert w; decide) _).trans (A_eq1 (Bv1 m) c w)
  · exact B2_of_ne m c b fun w e => h ⟨w, e⟩

/-- At region 2's exit: its arrays at what the pipeline leaves, every other buffer as entered. -/
def B3 (c : Dev nD) : Valuation τ sig (Elt F) :=
  Pipeline.withArrays spec2 c (B2 m c) fun w => (dat2 (Bv2 m) c).arrAt w cfg2.N
theorem B3_arr (c : Dev nD) (w : Fin cfg2.W) :
    B3 m c (Proc.devRef .tc (Pipeline.arrRef spec2 w)) = (dat2 (Bv2 m) c).arrAt w cfg2.N := by
  unfold B3; exact Pipeline.withArrays_arr spec2 launch2.win.arr_inj c _ _ w
theorem B3_of_ne (c : Dev nD) (b : Ref sig .tc) (hb : ∀ w, Pipeline.arrRef spec2 w ≠ b) :
    B3 m c (Proc.devRef .tc b) = B2 m c (Proc.devRef .tc b) := by
  unfold B3; exact Pipeline.withArrays_of_ne spec2 c _ _ b hb
/-- The same read at the TensorCore's references. -/
abbrev Bv3 : (c : Dev nD) → (b : Ref sig .tc) → Buf (Elt F) ((c : Thread nD τ).loc b) := fun c b => B3 m c b
theorem hF2 (c : Dev nD) (w : Fin cfg2.W) : (dat2 (Bv2 m) c).arrAt w cfg2.N = Bv3 m c (Pipeline.arrRef spec2 w) :=
  (B3_arr m c w).symm
theorem hrest2 (c : Dev nD) : ∀ b, b ∉ Finset.univ.image (Pipeline.arrRef spec2) → Bv3 m c b = Bv2 m c b :=
  fun b hb => B3_of_ne m c b fun w e => hb (Finset.mem_image.mpr ⟨w, Finset.mem_univ _, e⟩)
/-- Region 2 changes no buffer but its output array `main_v35`: an input array ends as entered. -/
theorem B3_keep (c : Dev nD) (b : Ref sig .tc) (hb : b ≠ main_v35) : B3 m c (Proc.devRef .tc b) = B2 m c (Proc.devRef .tc b) := by
  by_cases h : ∃ w, Pipeline.arrRef spec2 w = b
  · obtain ⟨w, rfl⟩ := h
    rw [B3_arr]
    have hw : w ≠ 4 := fun e => hb (by subst e; rfl)
    exact ((dat2 (Bv2 m) c).arrAt_in w (by revert hw; revert w; decide) _).trans (A_eq2 (Bv2 m) c w)
  · exact B3_of_ne m c b fun w e => h ⟨w, e⟩

/-- At region 3's exit: its arrays at what the pipeline leaves, every other buffer as entered. -/
def B4 (c : Dev nD) : Valuation τ sig (Elt F) :=
  Pipeline.withArrays spec3 c (B3 m c) fun w => (dat3 (Bv3 m) c).arrAt w cfg3.N
theorem B4_arr (c : Dev nD) (w : Fin cfg3.W) :
    B4 m c (Proc.devRef .tc (Pipeline.arrRef spec3 w)) = (dat3 (Bv3 m) c).arrAt w cfg3.N := by
  unfold B4; exact Pipeline.withArrays_arr spec3 launch3.win.arr_inj c _ _ w
theorem B4_of_ne (c : Dev nD) (b : Ref sig .tc) (hb : ∀ w, Pipeline.arrRef spec3 w ≠ b) :
    B4 m c (Proc.devRef .tc b) = B3 m c (Proc.devRef .tc b) := by
  unfold B4; exact Pipeline.withArrays_of_ne spec3 c _ _ b hb
/-- The same read at the TensorCore's references. -/
abbrev Bv4 : (c : Dev nD) → (b : Ref sig .tc) → Buf (Elt F) ((c : Thread nD τ).loc b) := fun c b => B4 m c b
theorem hF3 (c : Dev nD) (w : Fin cfg3.W) : (dat3 (Bv3 m) c).arrAt w cfg3.N = Bv4 m c (Pipeline.arrRef spec3 w) :=
  (B4_arr m c w).symm
theorem hrest3 (c : Dev nD) : ∀ b, b ∉ Finset.univ.image (Pipeline.arrRef spec3) → Bv4 m c b = Bv3 m c b :=
  fun b hb => B4_of_ne m c b fun w e => hb (Finset.mem_image.mpr ⟨w, Finset.mem_univ _, e⟩)
/-- Region 3 changes no buffer but its output array `main_v36`: an input array ends as entered. -/
theorem B4_keep (c : Dev nD) (b : Ref sig .tc) (hb : b ≠ main_v36) : B4 m c (Proc.devRef .tc b) = B3 m c (Proc.devRef .tc b) := by
  by_cases h : ∃ w, Pipeline.arrRef spec3 w = b
  · obtain ⟨w, rfl⟩ := h
    rw [B4_arr]
    have hw : w ≠ 3 := fun e => hb (by subst e; rfl)
    exact ((dat3 (Bv3 m) c).arrAt_in w (by revert hw; revert w; decide) _).trans (A_eq3 (Bv3 m) c w)
  · exact B4_of_ne m c b fun w e => h ⟨w, e⟩

/-- At region 4's exit: its arrays at what the pipeline leaves, every other buffer as entered. -/
def B5 (c : Dev nD) : Valuation τ sig (Elt F) :=
  Pipeline.withArrays spec4 c (B4 m c) fun w => (dat4 (Bv4 m) c).arrAt w cfg4.N
theorem B5_arr (c : Dev nD) (w : Fin cfg4.W) :
    B5 m c (Proc.devRef .tc (Pipeline.arrRef spec4 w)) = (dat4 (Bv4 m) c).arrAt w cfg4.N := by
  unfold B5; exact Pipeline.withArrays_arr spec4 launch4.win.arr_inj c _ _ w
theorem B5_of_ne (c : Dev nD) (b : Ref sig .tc) (hb : ∀ w, Pipeline.arrRef spec4 w ≠ b) :
    B5 m c (Proc.devRef .tc b) = B4 m c (Proc.devRef .tc b) := by
  unfold B5; exact Pipeline.withArrays_of_ne spec4 c _ _ b hb
/-- The same read at the TensorCore's references. -/
abbrev Bv5 : (c : Dev nD) → (b : Ref sig .tc) → Buf (Elt F) ((c : Thread nD τ).loc b) := fun c b => B5 m c b
theorem hF4 (c : Dev nD) (w : Fin cfg4.W) : (dat4 (Bv4 m) c).arrAt w cfg4.N = Bv5 m c (Pipeline.arrRef spec4 w) :=
  (B5_arr m c w).symm
theorem hrest4 (c : Dev nD) : ∀ b, b ∉ Finset.univ.image (Pipeline.arrRef spec4) → Bv5 m c b = Bv4 m c b :=
  fun b hb => B5_of_ne m c b fun w e => hb (Finset.mem_image.mpr ⟨w, Finset.mem_univ _, e⟩)
/-- Region 4 changes no buffer but its output array `main_v37`: an input array ends as entered. -/
theorem B5_keep (c : Dev nD) (b : Ref sig .tc) (hb : b ≠ main_v37) : B5 m c (Proc.devRef .tc b) = B4 m c (Proc.devRef .tc b) := by
  by_cases h : ∃ w, Pipeline.arrRef spec4 w = b
  · obtain ⟨w, rfl⟩ := h
    rw [B5_arr]
    have hw : w ≠ 3 := fun e => hb (by subst e; rfl)
    exact ((dat4 (Bv4 m) c).arrAt_in w (by revert hw; revert w; decide) _).trans (A_eq4 (Bv4 m) c w)
  · exact B5_of_ne m c b fun w e => h ⟨w, e⟩

/-- At region 5's exit: its arrays at what the pipeline leaves, every other buffer as entered. -/
def B6 (c : Dev nD) : Valuation τ sig (Elt F) :=
  Pipeline.withArrays spec5 c (B5 m c) fun w => (dat5 (Bv5 m) c).arrAt w cfg5.N
theorem B6_arr (c : Dev nD) (w : Fin cfg5.W) :
    B6 m c (Proc.devRef .tc (Pipeline.arrRef spec5 w)) = (dat5 (Bv5 m) c).arrAt w cfg5.N := by
  unfold B6; exact Pipeline.withArrays_arr spec5 launch5.win.arr_inj c _ _ w
theorem B6_of_ne (c : Dev nD) (b : Ref sig .tc) (hb : ∀ w, Pipeline.arrRef spec5 w ≠ b) :
    B6 m c (Proc.devRef .tc b) = B5 m c (Proc.devRef .tc b) := by
  unfold B6; exact Pipeline.withArrays_of_ne spec5 c _ _ b hb
/-- The same read at the TensorCore's references. -/
abbrev Bv6 : (c : Dev nD) → (b : Ref sig .tc) → Buf (Elt F) ((c : Thread nD τ).loc b) := fun c b => B6 m c b
theorem hF5 (c : Dev nD) (w : Fin cfg5.W) : (dat5 (Bv5 m) c).arrAt w cfg5.N = Bv6 m c (Pipeline.arrRef spec5 w) :=
  (B6_arr m c w).symm
theorem hrest5 (c : Dev nD) : ∀ b, b ∉ Finset.univ.image (Pipeline.arrRef spec5) → Bv6 m c b = Bv5 m c b :=
  fun b hb => B6_of_ne m c b fun w e => hb (Finset.mem_image.mpr ⟨w, Finset.mem_univ _, e⟩)
/-- Region 5 changes no buffer but its output array `main_v38`: an input array ends as entered. -/
theorem B6_keep (c : Dev nD) (b : Ref sig .tc) (hb : b ≠ main_v38) : B6 m c (Proc.devRef .tc b) = B5 m c (Proc.devRef .tc b) := by
  by_cases h : ∃ w, Pipeline.arrRef spec5 w = b
  · obtain ⟨w, rfl⟩ := h
    rw [B6_arr]
    have hw : w ≠ 4 := fun e => hb (by subst e; rfl)
    exact ((dat5 (Bv5 m) c).arrAt_in w (by revert hw; revert w; decide) _).trans (A_eq5 (Bv5 m) c w)
  · exact B6_of_ne m c b fun w e => h ⟨w, e⟩

/-- At region 6's exit: its arrays at what the pipeline leaves, every other buffer as entered. -/
def B7 (c : Dev nD) : Valuation τ sig (Elt F) :=
  Pipeline.withArrays spec6 c (B6 m c) fun w => (dat6 (Bv6 m) c).arrAt w cfg6.N
theorem B7_arr (c : Dev nD) (w : Fin cfg6.W) :
    B7 m c (Proc.devRef .tc (Pipeline.arrRef spec6 w)) = (dat6 (Bv6 m) c).arrAt w cfg6.N := by
  unfold B7; exact Pipeline.withArrays_arr spec6 launch6.win.arr_inj c _ _ w
theorem B7_of_ne (c : Dev nD) (b : Ref sig .tc) (hb : ∀ w, Pipeline.arrRef spec6 w ≠ b) :
    B7 m c (Proc.devRef .tc b) = B6 m c (Proc.devRef .tc b) := by
  unfold B7; exact Pipeline.withArrays_of_ne spec6 c _ _ b hb
/-- The same read at the TensorCore's references. -/
abbrev Bv7 : (c : Dev nD) → (b : Ref sig .tc) → Buf (Elt F) ((c : Thread nD τ).loc b) := fun c b => B7 m c b
theorem hF6 (c : Dev nD) (w : Fin cfg6.W) : (dat6 (Bv6 m) c).arrAt w cfg6.N = Bv7 m c (Pipeline.arrRef spec6 w) :=
  (B7_arr m c w).symm
theorem hrest6 (c : Dev nD) : ∀ b, b ∉ Finset.univ.image (Pipeline.arrRef spec6) → Bv7 m c b = Bv6 m c b :=
  fun b hb => B7_of_ne m c b fun w e => hb (Finset.mem_image.mpr ⟨w, Finset.mem_univ _, e⟩)
/-- Region 6 changes no buffer but its output array `main_v39`: an input array ends as entered. -/
theorem B7_keep (c : Dev nD) (b : Ref sig .tc) (hb : b ≠ main_v39) : B7 m c (Proc.devRef .tc b) = B6 m c (Proc.devRef .tc b) := by
  by_cases h : ∃ w, Pipeline.arrRef spec6 w = b
  · obtain ⟨w, rfl⟩ := h
    rw [B7_arr]
    have hw : w ≠ 3 := fun e => hb (by subst e; rfl)
    exact ((dat6 (Bv6 m) c).arrAt_in w (by revert hw; revert w; decide) _).trans (A_eq6 (Bv6 m) c w)
  · exact B7_of_ne m c b fun w e => h ⟨w, e⟩

/-- At region 7's exit: its arrays at what the pipeline leaves, every other buffer as entered. -/
def B8 (c : Dev nD) : Valuation τ sig (Elt F) :=
  Pipeline.withArrays spec7 c (B7 m c) fun w => (dat7 (Bv7 m) c).arrAt w cfg7.N
theorem B8_arr (c : Dev nD) (w : Fin cfg7.W) :
    B8 m c (Proc.devRef .tc (Pipeline.arrRef spec7 w)) = (dat7 (Bv7 m) c).arrAt w cfg7.N := by
  unfold B8; exact Pipeline.withArrays_arr spec7 launch7.win.arr_inj c _ _ w
theorem B8_of_ne (c : Dev nD) (b : Ref sig .tc) (hb : ∀ w, Pipeline.arrRef spec7 w ≠ b) :
    B8 m c (Proc.devRef .tc b) = B7 m c (Proc.devRef .tc b) := by
  unfold B8; exact Pipeline.withArrays_of_ne spec7 c _ _ b hb
/-- The same read at the TensorCore's references. -/
abbrev Bv8 : (c : Dev nD) → (b : Ref sig .tc) → Buf (Elt F) ((c : Thread nD τ).loc b) := fun c b => B8 m c b
theorem hF7 (c : Dev nD) (w : Fin cfg7.W) : (dat7 (Bv7 m) c).arrAt w cfg7.N = Bv8 m c (Pipeline.arrRef spec7 w) :=
  (B8_arr m c w).symm
theorem hrest7 (c : Dev nD) : ∀ b, b ∉ Finset.univ.image (Pipeline.arrRef spec7) → Bv8 m c b = Bv7 m c b :=
  fun b hb => B8_of_ne m c b fun w e => hb (Finset.mem_image.mpr ⟨w, Finset.mem_univ _, e⟩)
/-- Region 7 changes no buffer but its output array `main_v40`: an input array ends as entered. -/
theorem B8_keep (c : Dev nD) (b : Ref sig .tc) (hb : b ≠ main_v40) : B8 m c (Proc.devRef .tc b) = B7 m c (Proc.devRef .tc b) := by
  by_cases h : ∃ w, Pipeline.arrRef spec7 w = b
  · obtain ⟨w, rfl⟩ := h
    rw [B8_arr]
    have hw : w ≠ 3 := fun e => hb (by subst e; rfl)
    exact ((dat7 (Bv7 m) c).arrAt_in w (by revert hw; revert w; decide) _).trans (A_eq7 (Bv7 m) c w)
  · exact B8_of_ne m c b fun w e => h ⟨w, e⟩

/-- At region 8's exit: its arrays at what the pipeline leaves, every other buffer as entered. -/
def B9 (c : Dev nD) : Valuation τ sig (Elt F) :=
  Pipeline.withArrays spec8 c (B8 m c) fun w => (dat8 (Bv8 m) c).arrAt w cfg8.N
theorem B9_arr (c : Dev nD) (w : Fin cfg8.W) :
    B9 m c (Proc.devRef .tc (Pipeline.arrRef spec8 w)) = (dat8 (Bv8 m) c).arrAt w cfg8.N := by
  unfold B9; exact Pipeline.withArrays_arr spec8 launch8.win.arr_inj c _ _ w
theorem B9_of_ne (c : Dev nD) (b : Ref sig .tc) (hb : ∀ w, Pipeline.arrRef spec8 w ≠ b) :
    B9 m c (Proc.devRef .tc b) = B8 m c (Proc.devRef .tc b) := by
  unfold B9; exact Pipeline.withArrays_of_ne spec8 c _ _ b hb
/-- The same read at the TensorCore's references. -/
abbrev Bv9 : (c : Dev nD) → (b : Ref sig .tc) → Buf (Elt F) ((c : Thread nD τ).loc b) := fun c b => B9 m c b
theorem hF8 (c : Dev nD) (w : Fin cfg8.W) : (dat8 (Bv8 m) c).arrAt w cfg8.N = Bv9 m c (Pipeline.arrRef spec8 w) :=
  (B9_arr m c w).symm
theorem hrest8 (c : Dev nD) : ∀ b, b ∉ Finset.univ.image (Pipeline.arrRef spec8) → Bv9 m c b = Bv8 m c b :=
  fun b hb => B9_of_ne m c b fun w e => hb (Finset.mem_image.mpr ⟨w, Finset.mem_univ _, e⟩)
/-- Region 8 changes no buffer but its output array `main_v41`: an input array ends as entered. -/
theorem B9_keep (c : Dev nD) (b : Ref sig .tc) (hb : b ≠ main_v41) : B9 m c (Proc.devRef .tc b) = B8 m c (Proc.devRef .tc b) := by
  by_cases h : ∃ w, Pipeline.arrRef spec8 w = b
  · obtain ⟨w, rfl⟩ := h
    rw [B9_arr]
    have hw : w ≠ 4 := fun e => hb (by subst e; rfl)
    exact ((dat8 (Bv8 m) c).arrAt_in w (by revert hw; revert w; decide) _).trans (A_eq8 (Bv8 m) c w)
  · exact B9_of_ne m c b fun w e => h ⟨w, e⟩

/-- At region 9's exit: its arrays at what the pipeline leaves, every other buffer as entered. -/
def B10 (c : Dev nD) : Valuation τ sig (Elt F) :=
  Pipeline.withArrays spec9 c (B9 m c) fun w => (dat9 (Bv9 m) c).arrAt w cfg9.N
theorem B10_arr (c : Dev nD) (w : Fin cfg9.W) :
    B10 m c (Proc.devRef .tc (Pipeline.arrRef spec9 w)) = (dat9 (Bv9 m) c).arrAt w cfg9.N := by
  unfold B10; exact Pipeline.withArrays_arr spec9 launch9.win.arr_inj c _ _ w
theorem B10_of_ne (c : Dev nD) (b : Ref sig .tc) (hb : ∀ w, Pipeline.arrRef spec9 w ≠ b) :
    B10 m c (Proc.devRef .tc b) = B9 m c (Proc.devRef .tc b) := by
  unfold B10; exact Pipeline.withArrays_of_ne spec9 c _ _ b hb
/-- The same read at the TensorCore's references. -/
abbrev Bv10 : (c : Dev nD) → (b : Ref sig .tc) → Buf (Elt F) ((c : Thread nD τ).loc b) := fun c b => B10 m c b
theorem hF9 (c : Dev nD) (w : Fin cfg9.W) : (dat9 (Bv9 m) c).arrAt w cfg9.N = Bv10 m c (Pipeline.arrRef spec9 w) :=
  (B10_arr m c w).symm
theorem hrest9 (c : Dev nD) : ∀ b, b ∉ Finset.univ.image (Pipeline.arrRef spec9) → Bv10 m c b = Bv9 m c b :=
  fun b hb => B10_of_ne m c b fun w e => hb (Finset.mem_image.mpr ⟨w, Finset.mem_univ _, e⟩)
/-- Region 9 changes no buffer but its output array `main_v42`: an input array ends as entered. -/
theorem B10_keep (c : Dev nD) (b : Ref sig .tc) (hb : b ≠ main_v42) : B10 m c (Proc.devRef .tc b) = B9 m c (Proc.devRef .tc b) := by
  by_cases h : ∃ w, Pipeline.arrRef spec9 w = b
  · obtain ⟨w, rfl⟩ := h
    rw [B10_arr]
    have hw : w ≠ 3 := fun e => hb (by subst e; rfl)
    exact ((dat9 (Bv9 m) c).arrAt_in w (by revert hw; revert w; decide) _).trans (A_eq9 (Bv9 m) c w)
  · exact B10_of_ne m c b fun w e => h ⟨w, e⟩

/-- After the last host stretch (the slice of the padded result). -/
abbrev B11 (c : Dev nD) : Valuation τ sig (Elt F) := StableHlo.after hostOps10 (B10 m c)

/-- A buffer that is no region's output array and that no host stretch writes ends as launched. -/
theorem B11_launch (c : Dev nD) (b : Ref sig .tc)
    (hr : b ∉ ([main_v33, main_v34, main_v35, main_v36, main_v37, main_v38, main_v39, main_v40, main_v41, main_v42] : List (Ref sig .tc)))
    (h0 : b ∉ hostOps0_W) (h1 : b ∉ hostOps0_1_W) (h2 : b ∉ hostOps0_2_W) (h3 : b ∉ hostOps0_3_W) (h4 : b ∉ hostOps0_4_W) (h5 : b ∉ hostOps0_5_W)
    (h6 : b ∉ hostOps0_6_W) (h7 : b ∉ hostOps0_7_W) (h8 : b ∉ hostOps0_8_W) (h9 : b ∉ hostOps0_9_W) (h10 : b ∉ hostOps0_10_W) (h11 : b ∉ hostOps0_11_W)
    (h12 : b ∉ hostOps10_W) : B11 m c (Proc.devRef .tc b) = m ((c : Thread nD τ).loc b) := by
  simp only [List.mem_cons, List.mem_nil_iff, or_false, not_or] at hr
  obtain ⟨r0, r1, r2, r3, r4, r5, r6, r7, r8, r9⟩ := hr
  calc B11 m c (Proc.devRef .tc b)
    _ = B10 m c (Proc.devRef .tc b) := StableHlo.after_of_writes_sub hostOps10 _ hostOps10_writes h12
    _ = B9 m c (Proc.devRef .tc b) := B10_keep m c b r9
    _ = B8 m c (Proc.devRef .tc b) := B9_keep m c b r8
    _ = B7 m c (Proc.devRef .tc b) := B8_keep m c b r7
    _ = B6 m c (Proc.devRef .tc b) := B7_keep m c b r6
    _ = B5 m c (Proc.devRef .tc b) := B6_keep m c b r5
    _ = B4 m c (Proc.devRef .tc b) := B5_keep m c b r4
    _ = B3 m c (Proc.devRef .tc b) := B4_keep m c b r3
    _ = B2 m c (Proc.devRef .tc b) := B3_keep m c b r2
    _ = B1 m c (Proc.devRef .tc b) := B2_keep m c b r1
    _ = B0 m c (Proc.devRef .tc b) := B1_keep m c b r0
    _ = m ((c : Thread nD τ).loc b) :=
        (V12_of m c b h11).trans <| (V11_of m c b h10).trans <| (V10_of m c b h9).trans <| (V9_of m c b h8).trans <| (V8_of m c b h7).trans <|
        (V7_of m c b h6).trans <| (V6_of m c b h5).trans <| (V5_of m c b h4).trans <| (V4_of m c b h3).trans <| (V3_of m c b h2).trans <|
        (V2_of m c b h1).trans <| (V1_of m c b h0).trans rfl

/-- Every pipeline's proof data, each at its region's entry contents. -/
def pdats : (p : Fin 10) → (c : Dev nD) → Dat τ (Elt F) Unit ℕ (UR sig nD τ) ℕ (cfgs p) c
  | ⟨0, _⟩ => fun c => dat0 (Bv0 m) c
  | ⟨1, _⟩ => fun c => dat1 (Bv1 m) c
  | ⟨2, _⟩ => fun c => dat2 (Bv2 m) c
  | ⟨3, _⟩ => fun c => dat3 (Bv3 m) c
  | ⟨4, _⟩ => fun c => dat4 (Bv4 m) c
  | ⟨5, _⟩ => fun c => dat5 (Bv5 m) c
  | ⟨6, _⟩ => fun c => dat6 (Bv6 m) c
  | ⟨7, _⟩ => fun c => dat7 (Bv7 m) c
  | ⟨8, _⟩ => fun c => dat8 (Bv8 m) c
  | ⟨9, _⟩ => fun c => dat9 (Bv9 m) c

end Cert.KernelIdeal.Hand

end
-- ==== Proof.KI.Reg0.Body.lean ====
/-
  Region 0 of the kernel's program (the edge-feature projection): the body's triple on whole staging memrefs —
  the two inputs are left as they were and the output tile ends holding the product of the two loaded blocks —
  and from it the pipeline's body obligation at every grid point, for the proof data of the region's data module.
-/
import proofs.«177903_j22574348108073_1_alg».proof.Proof.KI.Reg0.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hzz0 : (![0, 0] : Fin 2 → Nat) = fun _ => 0 := by funext a; fin_cases a <;> rfl

/-- The whole 4096 × 128 tile, the body's one store. -/
abbrev r0_o : Rect S4096x128 := Rect.unit (s := S4096x128) ![0, 0] S4096x128.size inb_S4096x128_S4096x128_0_0

/-- The one store covers the tile. -/
theorem cover0_2 (p0 : Vec F S4096x128 .f32) (y : S4096x128.Idx) :
    ∃ pc ∈ ([⟨r0_o, p0⟩] : List (View.Piece (Elt F) S4096x128 .f32)), y ∈ pc.1.set :=
  View.cover_of_tiled [⟨r0_o, p0⟩] S4096x128.size (by rfl) y

set_option maxHeartbeats 1000000 in
/-- The body on whole staging memrefs: the two inputs are left as they were, the output holds their product. -/
theorem sound_kernel0 (c : Dev nD) (E : Set ℕ) (i : grid0.Coords) (arg1 : Memref sig .tc .vmem S4096x16 .f32) (harg1 : arg1.IsWhole)
    (arg2 : Memref sig .tc .vmem S16x128 .f32) (harg2 : arg2.IsWhole) (arg3 : Memref sig .tc .vmem S4096x128 .f32) (harg3 : arg3.IsWhole)
    (x0 : Vec F S4096x16 .f32) (x1 : Vec F S16x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__ea_kernel i arg1 harg1 arg2 harg2 arg3 harg3) K := by
  simp only [cc0__ea_kernel_eq_skeleton]; unfold cc0__ea_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  refine (View.read_writes_eq_canon _ _ _ (cover0_2 _)).trans ?_
  rw [View.canon_unit_zero (S := S4096x128) hzz0]
  unfold out0_2
  simp only [View.readAt_eq_ld, View.ld_unit_zero (S := S4096x16) hzz0, View.ld_unit_zero (S := S16x128) hzz0]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.Body.lean ====
/-
  Region 1 of the kernel's program (the linear projection of the node features): the body's triple on whole
  staging memrefs — the three inputs are left as they were and the output tile ends holding product + bias —
  and from it the pipeline's body obligation at every grid point, for the proof data of the region's data module.
-/
import proofs.«177903_j22574348108073_1_alg».proof.Proof.KI.Reg1.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hzz1 : (![0, 0] : Fin 2 → Nat) = fun _ => 0 := by funext a; fin_cases a <;> rfl
theorem hzo1 : (![0] : Fin 1 → Nat) = fun _ => 0 := by funext a; fin_cases a; rfl

/-- The whole 2048 × 128 tile, the body's one store. -/
abbrev r1_o : Rect S2048x128 := Rect.unit (s := S2048x128) ![0, 0] S2048x128.size inb_S2048x128_S2048x128_0_0

/-- The one store covers the tile. -/
theorem cover1_3 (p0 : Vec F S2048x128 .f32) (y : S2048x128.Idx) :
    ∃ pc ∈ ([⟨r1_o, p0⟩] : List (View.Piece (Elt F) S2048x128 .f32)), y ∈ pc.1.set :=
  View.cover_of_tiled [⟨r1_o, p0⟩] S2048x128.size (by rfl) y

set_option maxHeartbeats 1000000 in
/-- The body on whole staging memrefs: the three inputs are left as they were, the output holds product + bias. -/
theorem sound_kernel1 (c : Dev nD) (E : Set ℕ) (i : grid1.Coords) (arg1 : Memref sig .tc .vmem S2048x128 .f32) (harg1 : arg1.IsWhole)
    (arg2 : Memref sig .tc .vmem S128x128 .f32) (harg2 : arg2.IsWhole) (arg3 : Memref sig .tc .vmem S128 .f32) (harg3 : arg3.IsWhole)
    (arg4 : Memref sig .tc .vmem S2048x128 .f32) (harg4 : arg4.IsWhole)
    (x0 : Vec F S2048x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (View.read_writes_eq_canon _ _ _ (cover1_3 _)).trans ?_
  rw [View.canon_unit_zero (S := S2048x128) hzz1]
  unfold out1_3
  simp only [View.readAt_eq_ld, View.ld_unit_zero (S := S2048x128) hzz1, View.ld_unit_zero (S := S128x128) hzz1, View.ld_unit_zero (S := S128) hzo1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.RunA.lean ====
/-
  Region 2, the gather: what the body's conditionals depend on, and the body's run at the first node tile of an
  edge tile.

  The body branches twice on the node-tile coordinate j (the fast grid axis): it zeroes the accumulator when
  j = 0 and stores the output tile when j = 24. In the linear order of the 196 × 25 grid these are the points
  ≡ 0 and ≡ 24 (mod 25). The output window is idle, and not written back, wherever j ≠ 24. This module states
  the two conditions in closed form, where the windows are idle, the staging memrefs the body is called with, and
  the region's entry invariant with the accumulator made explicit; then it runs the body in the case j = 0: the
  accumulator is stored twice (zeros, then the one-hot product added to the zeros read back), and it ends at
  the product payload applied to this point's source nodes, its node tile, and the zero payload.
-/
import proofs.«177903_j22574348108073_1_alg».proof.Proof.KI.Reg2.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions on the node-tile coordinate -/

/-- The first conditional's condition as the body computes it from the grid coordinates: "node tile = 0". -/
abbrev cond2_0 (i : grid2.Coords) : Prop :=
  (Scalar.cmpi .ne (Scalar.extui (Scalar.cmpi .eq (BitVec.ofNat 32 (i 1).val) 0#32)) 0#32) = 1#1
/-- It holds exactly at the first node tile of each edge tile: the points ≡ 0 (mod 25). -/
theorem hcond2_0 : ∀ t : Fin cfg2.N, cond2_0 (grid2.coords t) ↔ t.val % 25 = 0 :=
  (by decide +kernel : ∀ t : Fin grid2.N, cond2_0 (grid2.coords t) ↔ t.val % 25 = 0)

/-- The second conditional's condition: "node tile = 24". -/
abbrev cond2_1 (i : grid2.Coords) : Prop := k2_cond2 i = 1#1
/-- It holds exactly at the last node tile of each edge tile: the points ≡ 24 (mod 25). -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

/-- The four input windows are never idle. -/
theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
theorem liveAt2_3 (t : Fin cfg2.N) : cfg2.idle 3 (grid2.coords t) = false := rfl
/-- Away from the last node tile the output window is idle: nothing is stored into it, -/
theorem idleAt2_4 (t : Fin cfg2.N) (h : ¬cond2_1 (grid2.coords t)) : cfg2.idle 4 (grid2.coords t) = true := by
  show (!(k2_cond2 (grid2.coords t) == 1#1)) = true
  rw [Bool.not_eq_true', beq_eq_false_iff_ne]; exact h
/-- and its block is not written back. -/
theorem noFlush2_4 (t : Fin cfg2.N) (h : ¬cond2_1 (grid2.coords t)) : (cfg2.win 4).flush t = false := by
  cases hf : (cfg2.win 4).flush t with
  | false => rfl
  | true => exact absurd ((hcond2_1 t).mpr ((flush2_4 t).mp hf)) h
/-- At the last node tile it is live. -/
theorem liveAt2_4 (t : Fin cfg2.N) (h : cond2_1 (grid2.coords t)) : cfg2.idle 4 (grid2.coords t) = false := by
  show (!(k2_cond2 (grid2.coords t) == 1#1)) = false
  rw [show k2_cond2 (grid2.coords t) = 1#1 from h]; rfl

/-! ## The memrefs the body is called with -/

/-- Each window's current staging memref at point `t`, as the pipeline passes it, with its wholeness. -/
abbrev ms2_0 (t : Fin cfg2.N) : Memref sig .tc .vmem S2048x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x128 .bf16 := win2_4.stage (cfg2.slots t 4)
abbrev hs2_4 (t : Fin cfg2.N) : (ms2_4 t).IsWhole := hstage2_4 ((cfg2.slots t 4).cast nbuf2_4)

/-- The accumulator as a view: what it holds is stated through it. -/
abbrev VS2 : View sig .tc .vmem S4096x128 .f32 := (scM2 : Memref sig .tc .vmem S4096x128 .f32).view
/-- One staging buffer of the output window, through which the stored tile is stated. -/
abbrev VO2 : View sig .tc .vmem S4096x128 .bf16 := (Memref.whole cc2_stg4_0 : Memref sig .tc .vmem S4096x128 .bf16).view

/-- The zero offsets of the whole-buffer rectangles, spelt as a constant function. -/
theorem hzz2 : (![0, 0] : Fin 2 → Nat) = fun _ => 0 := by funext a; fin_cases a <;> rfl
theorem hzu2 : (![0] : Fin 1 → Nat) = fun _ => 0 := by funext a; fin_cases a; rfl

/-- The region's entry invariant with the accumulator split off the scoped rest: the accumulator whole at some
    contents, every other scoped buffer unopened, the generator register at some state. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body at the first node tile of an edge tile -/

set_option maxHeartbeats 1000000 in
/-- THE RUN, case "first node tile" (first conditional taken, second not). On whole memrefs — the four inputs at
    their contents, the output's buffer at contents handed back untouched, the accumulator at anything — the body
    runs to a continuation holding the inputs as they were, the output's buffer as it was, and the accumulator
    with the pieces its two stores wrote (last first): the witness the symbolic run finds. -/
noncomputable def kernelRun2_A (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond2_0 i) (hc1 : ¬cond2_1 i)
    (x0 : Vec F S2048x128 .f32) (x1 : Vec F S4096 .i32) (x2 : Vec F S4096 .f32) (x3 : Vec F S4096x128 .f32) :
    { LS0 : List (View.Piece (Elt F) S4096x128 .f32) //
      ∀ (xi4 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gather_kernel i arg2 harg2 arg3 harg3 arg4 harg4 arg5 harg5 arg6 harg6 arg7 harg7) K } := by
  refine ⟨?_, fun xi4 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The two pieces tile the accumulator, so they cover it. -/
theorem scover2_A (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond2_0 i) (hc1 : ¬cond2_1 i)
    (x0 : Vec F S2048x128 .f32) (x1 : Vec F S4096 .i32) (x2 : Vec F S4096 .f32) (x3 : Vec F S4096x128 .f32) (y : S4096x128.Idx) :
    ∃ pc ∈ (kernelRun2_A c i arg2 harg2 arg3 harg3 arg4 harg4 arg5 harg5 arg6 harg6 arg7 harg7 hc0 hc1 x0 x1 x2 x3).1, y ∈ pc.1.set :=
  View.cover_of_tiledL (kernelRun2_A c i arg2 harg2 arg3 harg3 arg4 harg4 arg5 harg5 arg6 harg6 arg7 harg7 hc0 hc1 x0 x1 x2 x3).1 S4096x128.size (by sl_kernel_rfl) y

/-- What the case leaves in the accumulator: its pieces read back. -/
def sout2_A (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond2_0 i) (hc1 : ¬cond2_1 i)
    (x0 : Vec F S2048x128 .f32) (x1 : Vec F S4096 .i32) (x2 : Vec F S4096 .f32) (x3 : Vec F S4096x128 .f32) : Vec F S4096x128 .f32 :=
  VS2.read (Elt F) (VS2.writes (Elt F) VS2.junk (kernelRun2_A c i arg2 harg2 arg3 harg3 arg4 harg4 arg5 harg5 arg6 harg6 arg7 harg7 hc0 hc1 x0 x1 x2 x3).1)

/-- IN CLOSED FORM: the one-hot product of this point's source nodes and node tile, added to zeros. -/
theorem sout2_A_eq (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond2_0 i) (hc1 : ¬cond2_1 i)
    (x0 : Vec F S2048x128 .f32) (x1 : Vec F S4096 .i32) (x2 : Vec F S4096 .f32) (x3 : Vec F S4096x128 .f32) :
    sout2_A c i arg2 harg2 arg3 harg3 arg4 harg4 arg5 harg5 arg6 harg6 arg7 harg7 hc0 hc1 x0 x1 x2 x3 = k2_pay2 i x1 x0 (k2_pay1 (F := F)) := by
  unfold sout2_A
  rw [View.read_writes_eq_canon _ _ _ (scover2_A c i arg2 harg2 arg3 harg3 arg4 harg4 arg5 harg5 arg6 harg6 arg7 harg7 hc0 hc1 x0 x1 x2 x3)]
  unfold kernelRun2_A
  dsimp only
  sl_unfold_words
  rw [View.canon_cons_unit_zero (S := S4096x128) hzz2]
  simp only [View.readAt_eq_ld, harg2.read_unread, harg3.read_unread, View.ld_unit_zero (S := S2048x128) hzz2, View.ld_unit_zero (S := S4096) hzu2, View.readCov_unit_zero (S := S4096x128) _ hzz2]

end Cert.KernelIdeal.Hand

end
-- ==== Proof.KI.Reg2.RunB.lean ====
/-
  Region 2, the gather: the body's run at an inner node tile of an edge tile (neither the first nor the last).

  Neither conditional is taken: the body reads the accumulator the point before left, adds the one-hot product of
  this point's source nodes with its node tile, and stores the sum back; the output window is untouched.
-/
import proofs.«177903_j22574348108073_1_alg».proof.Proof.KI.Reg2.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RUN, case "inner node tile" (neither conditional taken). On whole memrefs — the four inputs at their
    contents, the output's buffer at contents handed back untouched, the accumulator at what the point before left
    (`xs`) — the body runs to a continuation holding the inputs and the output's buffer as they were and the
    accumulator with the piece its one store wrote. -/
noncomputable def kernelRun2_B (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : ¬cond2_1 i)
    (x0 : Vec F S2048x128 .f32) (x1 : Vec F S4096 .i32) (x2 : Vec F S4096 .f32) (x3 : Vec F S4096x128 .f32) (xs : Vec F S4096x128 .f32) :
    { LS0 : List (View.Piece (Elt F) S4096x128 .f32) //
      ∀ (xi4 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gather_kernel i arg2 harg2 arg3 harg3 arg4 harg4 arg5 harg5 arg6 harg6 arg7 harg7) K } := by
  refine ⟨?_, fun xi4 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The one piece tiles the accumulator, so it covers it. -/
theorem scover2_B (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : ¬cond2_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun2_B c i arg2 harg2 arg3 harg3 arg4 harg4 arg5 harg5 arg6 harg6 arg7 harg7 hc0 hc1 x0 x1 x2 x3 xs).1, y ∈ pc.1.set :=
  View.cover_of_tiledL (kernelRun2_B c i arg2 harg2 arg3 harg3 arg4 harg4 arg5 harg5 arg6 harg6 arg7 harg7 hc0 hc1 x0 x1 x2 x3 xs).1 S4096x128.size (by sl_kernel_rfl) y

/-- What the case leaves in the accumulator: its piece read back. -/
def sout2_B (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : ¬cond2_1 i)
    (x0 : Vec F S2048x128 .f32) (x1 : Vec F S4096 .i32) (x2 : Vec F S4096 .f32) (x3 : Vec F S4096x128 .f32) (xs : Vec F S4096x128 .f32) : Vec F S4096x128 .f32 :=
  VS2.read (Elt F) (VS2.writes (Elt F) VS2.junk (kernelRun2_B c i arg2 harg2 arg3 harg3 arg4 harg4 arg5 harg5 arg6 harg6 arg7 harg7 hc0 hc1 x0 x1 x2 x3 xs).1)

/-- IN CLOSED FORM: the one-hot product of this point's source nodes and node tile, added to the accumulator. -/
theorem sout2_B_eq (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : ¬cond2_1 i)
    (x0 : Vec F S2048x128 .f32) (x1 : Vec F S4096 .i32) (x2 : Vec F S4096 .f32) (x3 : Vec F S4096x128 .f32) (xs : Vec F S4096x128 .f32) :
    sout2_B c i arg2 harg2 arg3 harg3 arg4 harg4 arg5 harg5 arg6 harg6 arg7 harg7 hc0 hc1 x0 x1 x2 x3 xs = k2_pay2 i x1 x0 xs := by
  unfold sout2_B
  rw [View.read_writes_eq_canon _ _ _ (scover2_B c i arg2 harg2 arg3 harg3 arg4 harg4 arg5 harg5 arg6 harg6 arg7 harg7 hc0 hc1 x0 x1 x2 x3 xs)]
  unfold kernelRun2_B
  dsimp only
  sl_unfold_words
  rw [View.canon_unit_zero (S := S4096x128) hzz2]
  simp only [View.readAt_eq_ld, harg2.read_unread, harg3.read_unread, harg4.read_unread, harg5.read_unread, harg7.read_unread, View.ld_unit_zero (S := S2048x128) hzz2, View.ld_unit_zero (S := S4096x128) hzz2, View.ld_unit_zero (S := S4096) hzu2, View.readCov_unit_zero (S := S4096x128) _ hzz2]

end Cert.KernelIdeal.Hand

end
-- ==== Proof.KI.Reg2.RunC.lean ====
/-
  Region 2, the gather: the body's run at the last node tile of an edge tile.

  The first conditional is not taken, the second is: the body adds this point's one-hot product into the
  accumulator as at an inner point, then reads the accumulator back, adds the edge embedding tile, scales each edge's row
  by its normalisation factor, rounds to bf16 and stores the result as the output tile.
-/
import proofs.«177903_j22574348108073_1_alg».proof.Proof.KI.Reg2.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RUN, case "last node tile" (second conditional taken). On whole memrefs — the four inputs at their
    contents, the output's buffer at anything, the accumulator at what the point before left (`xs`) — the body runs
    to a continuation holding the inputs as they were, and the output's buffer and the accumulator each with the
    piece its one store wrote. -/
noncomputable def kernelRun2_C (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) :
    Σ' (L4 : List (View.Piece (Elt F) S4096x128 .bf16)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__gather_kernel i arg2 harg2 arg3 harg3 arg4 harg4 arg5 harg5 arg6 harg6 arg7 harg7) K } := by
  refine ⟨?_, ?_, fun E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- The one piece stored into the output's buffer tiles it, so it covers it. -/
theorem cover2_C (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun2_C c i arg2 harg2 arg3 harg3 arg4 harg4 arg5 harg5 arg6 harg6 arg7 harg7 hc0 hc1 x0 x1 x2 x3 xs).1, y ∈ pc.1.set :=
  View.cover_of_tiledL (kernelRun2_C c i arg2 harg2 arg3 harg3 arg4 harg4 arg5 harg5 arg6 harg6 arg7 harg7 hc0 hc1 x0 x1 x2 x3 xs).1 S4096x128.size (by sl_kernel_rfl) y

/-- The one piece stored into the accumulator covers it. -/
theorem scover2_C (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun2_C c i arg2 harg2 arg3 harg3 arg4 harg4 arg5 harg5 arg6 harg6 arg7 harg7 hc0 hc1 x0 x1 x2 x3 xs).2.1, y ∈ pc.1.set :=
  View.cover_of_tiledL (kernelRun2_C c i arg2 harg2 arg3 harg3 arg4 harg4 arg5 harg5 arg6 harg6 arg7 harg7 hc0 hc1 x0 x1 x2 x3 xs).2.1 S4096x128.size (by sl_kernel_rfl) y

/-- What the case leaves in the accumulator: its piece read back. -/
def sout2_C (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) : Vec F S4096x128 .f32 :=
  VS2.read (Elt F) (VS2.writes (Elt F) VS2.junk (kernelRun2_C c i arg2 harg2 arg3 harg3 arg4 harg4 arg5 harg5 arg6 harg6 arg7 harg7 hc0 hc1 x0 x1 x2 x3 xs).2.1)

/-- What it leaves in the output's buffer: its piece read back. -/
def out2_C (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) : Vec F S4096x128 .bf16 :=
  VO2.read (Elt F) (VO2.writes (Elt F) VO2.junk (kernelRun2_C c i arg2 harg2 arg3 harg3 arg4 harg4 arg5 harg5 arg6 harg6 arg7 harg7 hc0 hc1 x0 x1 x2 x3 xs).1)

/-- IN CLOSED FORM, the accumulator: the one-hot product added to what the point before left. -/
theorem sout2_C_eq (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) :
    sout2_C c i arg2 harg2 arg3 harg3 arg4 harg4 arg5 harg5 arg6 harg6 arg7 harg7 hc0 hc1 x0 x1 x2 x3 xs = k2_pay2 i x1 x0 xs := by
  unfold sout2_C
  rw [View.read_writes_eq_canon _ _ _ (scover2_C c i arg2 harg2 arg3 harg3 arg4 harg4 arg5 harg5 arg6 harg6 arg7 harg7 hc0 hc1 x0 x1 x2 x3 xs)]
  unfold kernelRun2_C
  dsimp only
  sl_unfold_words
  rw [View.canon_unit_zero (S := S4096x128) hzz2]
  simp only [View.readAt_eq_ld, harg2.read_unread, harg3.read_unread, harg4.read_unread, harg5.read_unread, harg7.read_unread, View.ld_unit_zero (S := S2048x128) hzz2, View.ld_unit_zero (S := S4096x128) hzz2, View.ld_unit_zero (S := S4096) hzu2, View.readCov_unit_zero (S := S4096x128) _ hzz2]

/-- IN CLOSED FORM, the output tile: normalisation × (the new accumulator + the edge embedding), rounded. -/
theorem out2_C_eq (c : Dev nD) (i : grid2.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond2_0 i) (hc1 : cond2_1 i)
    (x0 : Vec F S2048x128 .f32) (x1 : Vec F S4096 .i32) (x2 : Vec F S4096 .f32) (x3 : Vec F S4096x128 .f32) (xs : Vec F S4096x128 .f32) :
    out2_C c i arg2 harg2 arg3 harg3 arg4 harg4 arg5 harg5 arg6 harg6 arg7 harg7 hc0 hc1 x0 x1 x2 x3 xs = k2_pay3 x2 (k2_pay2 i x1 x0 xs) x3 := by
  unfold out2_C
  rw [View.read_writes_eq_canon _ _ _ (cover2_C c i arg2 harg2 arg3 harg3 arg4 harg4 arg5 harg5 arg6 harg6 arg7 harg7 hc0 hc1 x0 x1 x2 x3 xs)]
  unfold kernelRun2_C
  dsimp only
  sl_unfold_words
  rw [View.canon_unit_zero (S := S4096x128) hzz2]
  simp only [View.readAt_eq_ld, harg2.read_unread, harg3.read_unread, harg4.read_unread, harg5.read_unread, harg7.read_unread, View.ld_unit_zero (S := S2048x128) hzz2, View.ld_unit_zero (S := S4096x128) hzz2, View.ld_unit_zero (S := S4096) hzu2, View.readCov_unit_zero (S := S4096x128) _ hzz2]

end Cert.KernelIdeal.Hand

end
-- ==== Proof.KI.Reg2.Body.lean ====
/-
  Region 2, the gather: the body obligation of its pipeline.

  At every grid point the inputs' staging buffers hold their blocks. The point's position in its edge tile's run of
  25 node tiles selects the case: at the first the accumulator (at anything, or at what the previous run left) is
  zeroed and receives the first one-hot product; at an inner point it receives the next product on top of what the
  point before left; at the last it receives the last product and the output tile is stored from it. In each case
  the run's found pieces read back as the closed forms of the proof data (`acc2`, `msg2`); the rest of the scoped
  buffers and the generator register pass through untouched, and the core owes nothing throughout.
-/
import proofs.«177903_j22574348108073_1_alg».proof.Proof.KI.Reg2.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's closed form, case by case -/

/-- At the first node tile of an edge tile the accumulator restarts from zeros. -/
theorem acc2_first (c : Dev nD) (t : Fin cfg2.N) (h0 : t.val % 25 = 0) :
    acc2 V c t.val t.isLt = k2_pay2 (grid2.coords t) (iblk2 V c 1 t) (iblk2 V c 0 t) (k2_pay1 (F := F)) := by
  obtain ⟨n, hn⟩ := t
  cases n with
  | zero => rfl
  | succ n =>
    have h0' : (n + 1) % 25 = 0 := h0
    exact congrArg (k2_pay2 (grid2.coords ⟨n + 1, hn⟩) (iblk2 V c 1 ⟨n + 1, hn⟩) (iblk2 V c 0 ⟨n + 1, hn⟩)) (if_pos h0')

/-- At any other node tile it continues from what the point before left. -/
theorem acc2_next (c : Dev nD) (t : Fin cfg2.N) (h0 : ¬t.val % 25 = 0) :
    acc2 V c t.val t.isLt = k2_pay2 (grid2.coords t) (iblk2 V c 1 t) (iblk2 V c 0 t)
      (acc2 V c (t.val - 1) (Nat.lt_of_le_of_lt (Nat.sub_le _ _) t.isLt)) := by
  obtain ⟨n, hn⟩ := t
  cases n with
  | zero => exact absurd (Nat.zero_mod 25) h0
  | succ n =>
    have h0' : ¬(n + 1) % 25 = 0 := h0
    exact congrArg (k2_pay2 (grid2.coords ⟨n + 1, hn⟩) (iblk2 V c 1 ⟨n + 1, hn⟩) (iblk2 V c 0 ⟨n + 1, hn⟩)) (if_neg h0')

/-! ## What the body leaves in the windows' buffers -/

/-- Each input's buffer is left at its block (the inputs are never idle). -/
theorem leaves2_0 (c : Dev nD) (t : Fin cfg2.N) :
    (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leaves2_1 (c : Dev nD) (t : Fin cfg2.N) :
    (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
theorem leaves2_2 (c : Dev nD) (t : Fin cfg2.N) :
    (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from by
    unfold Dat.leavesExact; rw [liveAt2_2 t], after2_2]
theorem leaves2_3 (c : Dev nD) (t : Fin cfg2.N) :
    (dat2 V c).leavesExact 3 t = owns (c : Thread nD τ) (ms2_3 t) fullShare (iblk2 V c 3 t) := by
  rw [show (dat2 V c).leavesExact 3 t = owns (c : Thread nD τ) (ms2_3 t) fullShare ((dat2 V c).after 3 t) from by
    unfold Dat.leavesExact; rw [liveAt2_3 t], after2_3]
/-- At the last node tile the output's buffer is left at the stored tile. -/
theorem leaves2_4 (c : Dev nD) (t : Fin cfg2.N) (hc1 : cond2_1 (grid2.coords t)) :
    (dat2 V c).leavesExact 4 t = owns (c : Thread nD τ) (ms2_4 t) fullShare (msg2 V c t) := by
  rw [show (dat2 V c).leavesExact 4 t = owns (c : Thread nD τ) (ms2_4 t) fullShare ((dat2 V c).after 4 t) from by
    unfold Dat.leavesExact; rw [liveAt2_4 t hc1], after2_4]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 4900 := lt_of_lt_of_eq t.isLt (show cfg2.N = 4900 from N_2)
  by_cases h0 : t.val % 25 = 0
  · -- the first node tile of an edge tile
    have h1 : ¬t.val % 25 = 24 := by omega
    have hc0 : cond2_0 (grid2.coords t) := (hcond2_0 t).mpr h0
    have hc1 : ¬cond2_1 (grid2.coords t) := fun h => h1 ((hcond2_1 t).mp h)
    rw [leaves2_0 V c t, leaves2_1 V c t, leaves2_2 V c t, leaves2_3 V c t]
    rw [Dat.leavesExact_idle (dat2 V c) 4 t (idleAt2_4 t hc1) (noFlush2_4 t hc1)]
    rw [acc2_first V c t h0]
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS2 VS2.junk _ (scover2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t))).trans
              (sout2_A_eq c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t))
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS2 VS2.junk _ (scover2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t))).trans
              (sout2_A_eq c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t))
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond2_0 (grid2.coords t) := fun h => h0 ((hcond2_0 t).mp h)
    by_cases h1 : t.val % 25 = 24
    · -- the last node tile of an edge tile
      have hc1 : cond2_1 (grid2.coords t) := (hcond2_1 t).mpr h1
      rw [leaves2_0 V c t, leaves2_1 V c t, leaves2_2 V c t, leaves2_3 V c t]
      rw [leaves2_4 V c t hc1]
      unfold msg2
      rw [acc2_next V c t h0]
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun2_C c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro
            exact (View.read_writes_of_cover _ _ VS2 VS2.junk _ (scover2_C c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)))).trans
              (sout2_C_eq c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ VO2 VO2.junk _ (cover2_C c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)))).trans
        (out2_C_eq c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)))
    · -- an inner node tile
      have hc1 : ¬cond2_1 (grid2.coords t) := fun h => h1 ((hcond2_1 t).mp h)
      rw [leaves2_0 V c t, leaves2_1 V c t, leaves2_2 V c t, leaves2_3 V c t]
      rw [Dat.leavesExact_idle (dat2 V c) 4 t (idleAt2_4 t hc1) (noFlush2_4 t hc1)]
      rw [acc2_next V c t h0]
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun2_B c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS2 VS2.junk _ (scover2_B c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)))).trans
              (sout2_B_eq c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the entry invariant back: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 4900 := N_2; omega)

end Cert.KernelIdeal.Hand

end
-- ==== Proof.KI.Reg3.RunA.lean ====
/-
  Region 3 of the kernel's program (the scatter onto the target nodes plus the residual), first part: what the three cases of the
  body share, and the body's triple in the case that opens a node tile's run.

  The body tests the edge-tile coordinate twice. Where it is 0 the accumulator is first overwritten with zeros;
  where it is 195 the output tile is stored after the update. Over the 25 × 196 grid, edge tile the fast axis,
  these are the points ≡ 0 and ≡ 195 (mod 196). The output window is idle, and not written back, at every point
  that is not ≡ 195. In every case the update reads the edge tile's target nodes and messages and the accumulator,
  and stores the one-hot product added to what it read; a store of the whole tile made last decides what the
  tile holds, and a load of the whole tile after such a store reads what was stored.
-/
import proofs.«177903_j22574348108073_1_alg».proof.Proof.KI.Reg3.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Zero offsets of a rank-2 and of a rank-1 rectangle, as the printed stores and loads spell them. -/
theorem hz3_2 : (![0, 0] : Fin 2 → Nat) = fun _ => 0 := by funext a; fin_cases a <;> rfl
theorem hz3_1 : (![0] : Fin 1 → Nat) = fun _ => 0 := by funext a; fin_cases a; rfl

/-! ## The two tests on the edge-tile coordinate -/

/-- The first test: the edge-tile coordinate is 0 (a node tile's run begins). -/
abbrev cond3_0 (i : grid3.Coords) : Prop := (Scalar.cmpi .ne (Scalar.extui (Scalar.cmpi .eq (BitVec.ofNat 32 (i 1).val) 0#32)) 0#32) = 1#1
/-- It holds exactly at the points ≡ 0 (mod 196): decided over the 4900 points. -/
theorem hcond3_0 : ∀ t : Fin cfg3.N, cond3_0 (grid3.coords t) ↔ t.val % 196 = 0 :=
  (by decide +kernel : ∀ t : Fin grid3.N, cond3_0 (grid3.coords t) ↔ t.val % 196 = 0)

/-- The second test: the edge-tile coordinate is 195 (a node tile's run ends). -/
abbrev cond3_1 (i : grid3.Coords) : Prop := k3_cond2 i = 1#1
/-- It holds exactly at the points ≡ 195 (mod 196). -/
theorem hcond3_1 : ∀ t : Fin cfg3.N, cond3_1 (grid3.coords t) ↔ t.val % 196 = 195 :=
  (by decide +kernel : ∀ t : Fin grid3.N, cond3_1 (grid3.coords t) ↔ t.val % 196 = 195)

/-! ## Where the windows are idle -/

/-- The three input windows are never idle. -/
theorem liveAt3_0 (i : grid3.Coords) : cfg3.idle 0 i = false := rfl
theorem liveAt3_1 (i : grid3.Coords) : cfg3.idle 1 i = false := rfl
theorem liveAt3_2 (i : grid3.Coords) : cfg3.idle 2 i = false := rfl
/-- The output window is idle wherever the second test fails, -/
theorem idleAt3_3 (i : grid3.Coords) (h : ¬cond3_1 i) : cfg3.idle 3 i = true := by
  show (!(k3_cond2 i == 1#1)) = true
  simp only [Bool.not_eq_true', beq_eq_false_iff_ne, ne_eq]; exact h
/-- and live where it holds. -/
theorem liveAt3_3 (i : grid3.Coords) (h : cond3_1 i) : cfg3.idle 3 i = false := by
  show (!(k3_cond2 i == 1#1)) = false
  simp only [Bool.not_eq_false', beq_iff_eq]; exact h
/-- The output tile is not written back at a point that is not ≡ 195 (mod 196). -/
theorem noFlush3_3 (t : Fin cfg3.N) (h : ¬t.val % 196 = 195) : (cfg3.win 3).flush t = false :=
  Bool.eq_false_iff.mpr fun hf => h ((flush3_3 t).mp hf)

/-! ## The region's entry invariant, with the accumulator split off -/

/-- What the launch hands the region: the accumulator whole at some contents, every other scoped buffer
    unopened, the generator register at some state. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The whole-tile store -/
/-- The whole 2048 × 128 tile: the rectangle of every store into the accumulator and into the output tile. -/
abbrev rT3 : Rect S2048x128 := Rect.unit (s := S2048x128) ![0, 0] S2048x128.size inb_S2048x128_S2048x128_0_0

/-- A store of the whole tile, made last, covers the tile whatever was stored before. -/
theorem cover3 (p : Vec F S2048x128 .f32) (L : List (View.Piece (Elt F) S2048x128 .f32)) (y : S2048x128.Idx) :
    ∃ pc ∈ ((⟨rT3, p⟩ : View.Piece (Elt F) S2048x128 .f32) :: L), y ∈ pc.1.set :=
  ⟨_, List.mem_cons.mpr (Or.inl rfl), View.mem_set_unit_zero hz3_2 inb_S2048x128_S2048x128_0_0 y⟩

/-! ## The body where a node tile's run begins -/
set_option maxHeartbeats 1000000 in
/-- The body at the first edge tile of a node tile, on whole memrefs: the three inputs and the output tile are
    left as found, and the accumulator, found at anything, ends at the one-hot product of this edge tile added
    to zeros (it is zeroed, read back, and the sum stored over the zeros). -/
theorem sound_kernel3_A (c : Dev nD) (E : Set ℕ) (i : grid3.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : cond3_0 i) (hc1 : ¬cond3_1 i)
    (x0 : Vec F S4096x128 .bf16) (x1 : Vec F S4096 .i32) (x2 : Vec F S2048x128 .f32) (xi3 : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k3_pay2 i x1 x0 (k3_pay1 (F := F)))) -∗ K ⟨⟩))
      ⊢ wp frame (wpE (defs₀ (F := F)) Variants.none c none) E (cc3__scatter_kernel i arg2 harg2 arg3 harg3 arg4 harg4 arg5 harg5 arg6 harg6) K := by
  simp only [cc3__scatter_kernel_eq_skeleton]; unfold cc3__scatter_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (cover3 _ _)).trans ?_
  rw [View.canon_cons_unit_zero (S := S2048x128) hz3_2]
  simp only [View.readCov_unit_zero (S := S2048x128) _ hz3_2, View.readAt_eq_ld, View.ld_unit_zero (S := S4096) hz3_1, View.ld_unit_zero (S := S4096x128) hz3_2]

end Cert.KernelIdeal.Hand

end
-- ==== Proof.KI.Reg3.RunB.lean ====
/-
  Region 3 of the kernel's program, second part: the body's triple at a point inside a node tile's run, where
  neither test on the edge-tile coordinate holds. Nothing is zeroed and nothing is stored into the output tile:
  the accumulator is read, the one-hot product of this edge tile is added, and the sum is stored back.
-/
import proofs.«177903_j22574348108073_1_alg».proof.Proof.KI.Reg3.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point inside a node tile's run (edge tile neither first nor last), on whole memrefs: the three
    inputs and the output tile are left as found, and the accumulator, found at `xs`, ends at the one-hot product
    of this edge tile added to `xs`. -/
theorem sound_kernel3_B (c : Dev nD) (E : Set ℕ) (i : grid3.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond3_0 i) (hc1 : ¬cond3_1 i)
    (x0 : Vec F S4096x128 .bf16) (x1 : Vec F S4096 .i32) (x2 : Vec F S2048x128 .f32) (xi3 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k3_pay2 i x1 x0 xs)) -∗ K ⟨⟩))
      ⊢ wp frame (wpE (defs₀ (F := F)) Variants.none c none) E (cc3__scatter_kernel i arg2 harg2 arg3 harg3 arg4 harg4 arg5 harg5 arg6 harg6) K := by
  simp only [cc3__scatter_kernel_eq_skeleton]; unfold cc3__scatter_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (cover3 _ _)).trans ?_
  rw [View.canon_cons_unit_zero (S := S2048x128) hz3_2]
  simp only [View.readAt_eq_ld, View.ld_unit_zero (S := S4096) hz3_1, View.ld_unit_zero (S := S4096x128) hz3_2, View.ld_unit_zero (S := S2048x128) hz3_2]

end Cert.KernelIdeal.Hand

end
-- ==== Proof.KI.Reg3.RunC.lean ====
/-
  Region 3 of the kernel's program, third part: the body's triple where a node tile's run ends (edge-tile
  coordinate 195). After the update the accumulator is read back, the node tile of the projected features is
  added, and the sum, under the rectifier where the layer has one (the skeleton's third payload says which), is stored as the
  output tile.
-/
import proofs.«177903_j22574348108073_1_alg».proof.Proof.KI.Reg3.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the last edge tile of a node tile, on whole memrefs: the three inputs are left as found; the
    accumulator, found at `xs`, ends at the one-hot product of this edge tile added to `xs`; and the output
    tile ends at that sum + the node tile of the projected features, under the rectifier where the layer has one (the skeleton's third payload says which). -/
theorem sound_kernel3_C (c : Dev nD) (E : Set ℕ) (i : grid3.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond3_0 i) (hc1 : cond3_1 i)
    (x0 : Vec F S4096x128 .bf16) (x1 : Vec F S4096 .i32) (x2 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k3_pay3 (k3_pay2 i x1 x0 xs) x2) ∗ owns (c : Thread nD τ) arg6 fullShare (k3_pay2 i x1 x0 xs)) -∗ K ⟨⟩))
      ⊢ wp frame (wpE (defs₀ (F := F)) Variants.none c none) E (cc3__scatter_kernel i arg2 harg2 arg3 harg3 arg4 harg4 arg5 harg5 arg6 harg6) K := by
  simp only [cc3__scatter_kernel_eq_skeleton]; unfold cc3__scatter_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (View.read_writes_eq_canon _ _ _ (cover3 _ _)).trans ?_
    rw [View.canon_cons_unit_zero (S := S2048x128) hz3_2]
    simp only [View.readCov_unit_zero (S := S2048x128) _ hz3_2, View.readAt_eq_ld, View.ld_unit_zero (S := S4096) hz3_1, View.ld_unit_zero (S := S4096x128) hz3_2, View.ld_unit_zero (S := S2048x128) hz3_2]
  iexists _; isplitr
  swap; · iexact HS
  ipureintro
  sl_unfold_words
  refine (View.read_writes_eq_canon _ _ _ (cover3 _ _)).trans ?_
  rw [View.canon_cons_unit_zero (S := S2048x128) hz3_2]
  simp only [View.readAt_eq_ld, View.ld_unit_zero (S := S4096) hz3_1, View.ld_unit_zero (S := S4096x128) hz3_2, View.ld_unit_zero (S := S2048x128) hz3_2]

end Cert.KernelIdeal.Hand

end
-- ==== Proof.KI.Reg3.Body.lean ====
/-
  Region 3 of the kernel's program, last part: the pipeline's body obligation at every grid point, and the
  invariant's two ends.

  A point of the grid is the first of a node tile's run (≡ 0 mod 196), the last (≡ 195), or neither. The closed
  form of the accumulator unfolds accordingly — over zeros at a run's first point, over what the point before left
  elsewhere — and in each case the body's triple of that case applies: the inputs' staging memrefs hold their
  blocks, the invariant lends the accumulator (at anything before the very first point, at the previous point's
  closed form afterwards) and takes it back at this point's closed form; the output tile is handed back untouched
  where the window is idle and holds accumulator + residual, under the rectifier where the layer has one (the skeleton's third payload says which), where a run ends. The other scoped buffers
  and the generator register pass through unopened.
-/
import proofs.«177903_j22574348108073_1_alg».proof.Proof.KI.Reg3.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's closed form, one step unfolded -/

/-- At the first point of a node tile's run the accumulator is this point's one-hot product added to zeros. -/
theorem acc3_first (c : Dev nD) (t : Fin cfg3.N) (h0 : t.val % 196 = 0) :
    acc3 V c t.val t.isLt = k3_pay2 (grid3.coords t) (iblk3 V c 1 t) (iblk3 V c 0 t) (k3_pay1 (F := F)) := by
  obtain ⟨n, hn⟩ := t
  cases n with
  | zero => rfl
  | succ n =>
    have h0' : (n + 1) % 196 = 0 := h0
    show acc3 V c (n + 1) hn = _
    rw [acc3, if_pos h0']

/-- At any other point it is this point's one-hot product added to what the point before left. -/
theorem acc3_next (c : Dev nD) (t : Fin cfg3.N) (h0 : ¬t.val % 196 = 0) :
    acc3 V c t.val t.isLt = k3_pay2 (grid3.coords t) (iblk3 V c 1 t) (iblk3 V c 0 t)
      (acc3 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 196 = 0 := h0
    show acc3 V c (n + 1) hn = _
    rw [acc3, if_neg h0']
    rfl

/-! ## What the windows' staging buffers are left at -/

/-- An input window's buffer is left at what the proof data names (the window is never idle). -/
theorem leaves3_0 (c : Dev nD) (t : Fin cfg3.N) :
    (dat3 V c).leavesExact 0 t = owns (c : Thread nD τ) (st3_0 t) fullShare ((dat3 V c).after 0 t) := by
  unfold Dat.leavesExact; rw [liveAt3_0 (grid3.coords t)]
theorem leaves3_1 (c : Dev nD) (t : Fin cfg3.N) :
    (dat3 V c).leavesExact 1 t = owns (c : Thread nD τ) (st3_1 t) fullShare ((dat3 V c).after 1 t) := by
  unfold Dat.leavesExact; rw [liveAt3_1 (grid3.coords t)]
theorem leaves3_2 (c : Dev nD) (t : Fin cfg3.N) :
    (dat3 V c).leavesExact 2 t = owns (c : Thread nD τ) (st3_2 t) fullShare ((dat3 V c).after 2 t) := by
  unfold Dat.leavesExact; rw [liveAt3_2 (grid3.coords t)]
/-- The output window's buffer, where a node tile's run ends, is left at the stored tile. -/
theorem leaves3_3 (c : Dev nD) (t : Fin cfg3.N) (h : cond3_1 (grid3.coords t)) :
    (dat3 V c).leavesExact 3 t = owns (c : Thread nD τ) (st3_3 t) fullShare ((dat3 V c).after 3 t) := by
  unfold Dat.leavesExact; rw [liveAt3_3 (grid3.coords t) h]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point, by the point's place in its node tile's run. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, after3_0, leaves3_1, after3_1, leaves3_2, after3_2]
  have hN : t.val < 4900 := lt_of_lt_of_eq t.isLt (show cfg3.N = 4900 from N_3)
  by_cases h0 : t.val % 196 = 0
  · -- a node tile's run begins
    have hc0 : cond3_0 (grid3.coords t) := (hcond3_0 t).mpr h0
    have h1 : ¬t.val % 196 = 195 := by omega
    have hc1 : ¬cond3_1 (grid3.coords t) := fun h => h1 ((hcond3_1 t).mp h)
    rw [Dat.leavesExact_idle (dat3 V c) 3 t (idleAt3_3 (grid3.coords t) hc1) (noFlush3_3 t h1)]
    rw [acc3_first V c t h0]
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩⟩
      iapply (sound_kernel3_A c Set.univ (grid3.coords t) _ _ _ _ _ _ _ _ _ _ hc0 hc1 (iblk3 V c 0 t) (iblk3 V c 1 t) (iblk3 V c 2 t) ((dat3 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_A c Set.univ (grid3.coords t) _ _ _ _ _ _ _ _ _ _ hc0 hc1 (iblk3 V c 0 t) (iblk3 V c 1 t) (iblk3 V c 2 t) ((dat3 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3
  · have hc0 : ¬cond3_0 (grid3.coords t) := fun h => h0 ((hcond3_0 t).mp h)
    have hz : t.val ≠ 0 := fun h => h0 (by rw [h])
    by_cases h1 : t.val % 196 = 195
    · -- a node tile's run ends
      have hc1 : cond3_1 (grid3.coords t) := (hcond3_1 t).mpr h1
      rw [leaves3_3 V c t hc1, after3_3]
      unfold res3
      rw [acc3_next V c t h0]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_C c Set.univ (grid3.coords t) _ _ _ _ _ _ _ _ _ _ hc0 hc1 (iblk3 V c 0 t) (iblk3 V c 1 t) (iblk3 V c 2 t)
        (acc3 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- inside a node tile's run
      have hc1 : ¬cond3_1 (grid3.coords t) := fun h => h1 ((hcond3_1 t).mp h)
      rw [Dat.leavesExact_idle (dat3 V c) 3 t (idleAt3_3 (grid3.coords t) hc1) (noFlush3_3 t h1)]
      rw [acc3_next V c t h0]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_B c Set.univ (grid3.coords t) _ _ _ _ _ _ _ _ _ _ hc0 hc1 (iblk3 V c 0 t) (iblk3 V c 1 t) (iblk3 V c 2 t) ((dat3 V c).before 3 t d3)
        (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the entry form back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 4900 := N_3; omega)

end Cert.KernelIdeal.Hand

end
-- ==== Proof.KI.Reg4.Body.lean ====
/-
  Region 4 of the kernel's program (the linear projection of the node features): the body's triple on whole
  staging memrefs — the three inputs are left as they were and the output tile ends holding product + bias —
  and from it the pipeline's body obligation at every grid point, for the proof data of the region's data module.
-/
import proofs.«177903_j22574348108073_1_alg».proof.Proof.KI.Reg4.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hzz4 : (![0, 0] : Fin 2 → Nat) = fun _ => 0 := by funext a; fin_cases a <;> rfl
theorem hzo4 : (![0] : Fin 1 → Nat) = fun _ => 0 := by funext a; fin_cases a; rfl

/-- The whole 2048 × 128 tile, the body's one store. -/
abbrev r4_o : Rect S2048x128 := Rect.unit (s := S2048x128) ![0, 0] S2048x128.size inb_S2048x128_S2048x128_0_0

/-- The one store covers the tile. -/
theorem cover4_3 (p0 : Vec F S2048x128 .f32) (y : S2048x128.Idx) :
    ∃ pc ∈ ([⟨r4_o, p0⟩] : List (View.Piece (Elt F) S2048x128 .f32)), y ∈ pc.1.set :=
  View.cover_of_tiled [⟨r4_o, p0⟩] S2048x128.size (by rfl) y

set_option maxHeartbeats 1000000 in
/-- The body on whole staging memrefs: the three inputs are left as they were, the output holds product + bias. -/
theorem sound_kernel4 (c : Dev nD) (E : Set ℕ) (i : grid4.Coords) (arg1 : Memref sig .tc .vmem S2048x128 .f32) (harg1 : arg1.IsWhole)
    (arg2 : Memref sig .tc .vmem S128x128 .f32) (harg2 : arg2.IsWhole) (arg3 : Memref sig .tc .vmem S128 .f32) (harg3 : arg3.IsWhole)
    (arg4 : Memref sig .tc .vmem S2048x128 .f32) (harg4 : arg4.IsWhole)
    (x0 : Vec F S2048x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (View.read_writes_eq_canon _ _ _ (cover4_3 _)).trans ?_
  rw [View.canon_unit_zero (S := S2048x128) hzz4]
  unfold out4_3
  simp only [View.readAt_eq_ld, View.ld_unit_zero (S := S2048x128) hzz4, View.ld_unit_zero (S := S128x128) hzz4, View.ld_unit_zero (S := S128) hzo4]

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.RunA.lean ====
/-
  Region 5, the gather: what the body's conditionals depend on, and the body's run at the first node tile of an
  edge tile.

  The body branches twice on the node-tile coordinate j (the fast grid axis): it zeroes the accumulator when
  j = 0 and stores the output tile when j = 24. In the linear order of the 196 × 25 grid these are the points
  ≡ 0 and ≡ 24 (mod 25). The output window is idle, and not written back, wherever j ≠ 24. This module states
  the two conditions in closed form, where the windows are idle, the staging memrefs the body is called with, and
  the region's entry invariant with the accumulator made explicit; then it runs the body in the case j = 0: the
  accumulator is stored twice (zeros, then the one-hot product added to the zeros read back), and it ends at
  the product payload applied to this point's source nodes, its node tile, and the zero payload.
-/
import proofs.«177903_j22574348108073_1_alg».proof.Proof.KI.Reg5.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions on the node-tile coordinate -/

/-- The first conditional's condition as the body computes it from the grid coordinates: "node tile = 0". -/
abbrev cond5_0 (i : grid5.Coords) : Prop :=
  (Scalar.cmpi .ne (Scalar.extui (Scalar.cmpi .eq (BitVec.ofNat 32 (i 1).val) 0#32)) 0#32) = 1#1
/-- It holds exactly at the first node tile of each edge tile: the points ≡ 0 (mod 25). -/
theorem hcond5_0 : ∀ t : Fin cfg5.N, cond5_0 (grid5.coords t) ↔ t.val % 25 = 0 :=
  (by decide +kernel : ∀ t : Fin grid5.N, cond5_0 (grid5.coords t) ↔ t.val % 25 = 0)

/-- The second conditional's condition: "node tile = 24". -/
abbrev cond5_1 (i : grid5.Coords) : Prop := k5_cond2 i = 1#1
/-- It holds exactly at the last node tile of each edge tile: the points ≡ 24 (mod 25). -/
theorem hcond5_1 : ∀ t : Fin cfg5.N, cond5_1 (grid5.coords t) ↔ t.val % 25 = 24 :=
  (by decide +kernel : ∀ t : Fin grid5.N, cond5_1 (grid5.coords t) ↔ t.val % 25 = 24)

/-! ## Where the windows are idle -/

/-- The four input windows are never idle. -/
theorem liveAt5_0 (t : Fin cfg5.N) : cfg5.idle 0 (grid5.coords t) = false := rfl
theorem liveAt5_1 (t : Fin cfg5.N) : cfg5.idle 1 (grid5.coords t) = false := rfl
theorem liveAt5_2 (t : Fin cfg5.N) : cfg5.idle 2 (grid5.coords t) = false := rfl
theorem liveAt5_3 (t : Fin cfg5.N) : cfg5.idle 3 (grid5.coords t) = false := rfl
/-- Away from the last node tile the output window is idle: nothing is stored into it, -/
theorem idleAt5_4 (t : Fin cfg5.N) (h : ¬cond5_1 (grid5.coords t)) : cfg5.idle 4 (grid5.coords t) = true := by
  show (!(k5_cond2 (grid5.coords t) == 1#1)) = true
  rw [Bool.not_eq_true', beq_eq_false_iff_ne]; exact h
/-- and its block is not written back. -/
theorem noFlush5_4 (t : Fin cfg5.N) (h : ¬cond5_1 (grid5.coords t)) : (cfg5.win 4).flush t = false := by
  cases hf : (cfg5.win 4).flush t with
  | false => rfl
  | true => exact absurd ((hcond5_1 t).mpr ((flush5_4 t).mp hf)) h
/-- At the last node tile it is live. -/
theorem liveAt5_4 (t : Fin cfg5.N) (h : cond5_1 (grid5.coords t)) : cfg5.idle 4 (grid5.coords t) = false := by
  show (!(k5_cond2 (grid5.coords t) == 1#1)) = false
  rw [show k5_cond2 (grid5.coords t) = 1#1 from h]; rfl

/-! ## The memrefs the body is called with -/

/-- Each window's current staging memref at point `t`, as the pipeline passes it, with its wholeness. -/
abbrev ms5_0 (t : Fin cfg5.N) : Memref sig .tc .vmem S2048x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4096 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4096 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S4096x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S4096x128 .bf16 := win5_4.stage (cfg5.slots t 4)
abbrev hs5_4 (t : Fin cfg5.N) : (ms5_4 t).IsWhole := hstage5_4 ((cfg5.slots t 4).cast nbuf5_4)

/-- The accumulator as a view: what it holds is stated through it. -/
abbrev VS5 : View sig .tc .vmem S4096x128 .f32 := (scM5 : Memref sig .tc .vmem S4096x128 .f32).view
/-- One staging buffer of the output window, through which the stored tile is stated. -/
abbrev VO5 : View sig .tc .vmem S4096x128 .bf16 := (Memref.whole cc5_stg4_0 : Memref sig .tc .vmem S4096x128 .bf16).view

/-- The zero offsets of the whole-buffer rectangles, spelt as a constant function. -/
theorem hzz5 : (![0, 0] : Fin 2 → Nat) = fun _ => 0 := by funext a; fin_cases a <;> rfl
theorem hzu5 : (![0] : Fin 1 → Nat) = fun _ => 0 := by funext a; fin_cases a; rfl

/-- The region's entry invariant with the accumulator split off the scoped rest: the accumulator whole at some
    contents, every other scoped buffer unopened, the generator register at some state. -/
theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-! ## The body at the first node tile of an edge tile -/

set_option maxHeartbeats 1000000 in
/-- THE RUN, case "first node tile" (first conditional taken, second not). On whole memrefs — the four inputs at
    their contents, the output's buffer at contents handed back untouched, the accumulator at anything — the body
    runs to a continuation holding the inputs as they were, the output's buffer as it was, and the accumulator
    with the pieces its two stores wrote (last first): the witness the symbolic run finds. -/
noncomputable def kernelRun5_A (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond5_0 i) (hc1 : ¬cond5_1 i)
    (x0 : Vec F S2048x128 .f32) (x1 : Vec F S4096 .i32) (x2 : Vec F S4096 .f32) (x3 : Vec F S4096x128 .f32) :
    { LS0 : List (View.Piece (Elt F) S4096x128 .f32) //
      ∀ (xi4 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5__gather_kernel i arg2 harg2 arg3 harg3 arg4 harg4 arg5 harg5 arg6 harg6 arg7 harg7) K } := by
  refine ⟨?_, fun xi4 E K => ?run⟩
  case run =>
    simp only [cc5__gather_kernel_eq_skeleton]; unfold cc5__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The two pieces tile the accumulator, so they cover it. -/
theorem scover5_A (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond5_0 i) (hc1 : ¬cond5_1 i)
    (x0 : Vec F S2048x128 .f32) (x1 : Vec F S4096 .i32) (x2 : Vec F S4096 .f32) (x3 : Vec F S4096x128 .f32) (y : S4096x128.Idx) :
    ∃ pc ∈ (kernelRun5_A c i arg2 harg2 arg3 harg3 arg4 harg4 arg5 harg5 arg6 harg6 arg7 harg7 hc0 hc1 x0 x1 x2 x3).1, y ∈ pc.1.set :=
  View.cover_of_tiledL (kernelRun5_A c i arg2 harg2 arg3 harg3 arg4 harg4 arg5 harg5 arg6 harg6 arg7 harg7 hc0 hc1 x0 x1 x2 x3).1 S4096x128.size (by sl_kernel_rfl) y

/-- What the case leaves in the accumulator: its pieces read back. -/
def sout5_A (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond5_0 i) (hc1 : ¬cond5_1 i)
    (x0 : Vec F S2048x128 .f32) (x1 : Vec F S4096 .i32) (x2 : Vec F S4096 .f32) (x3 : Vec F S4096x128 .f32) : Vec F S4096x128 .f32 :=
  VS5.read (Elt F) (VS5.writes (Elt F) VS5.junk (kernelRun5_A c i arg2 harg2 arg3 harg3 arg4 harg4 arg5 harg5 arg6 harg6 arg7 harg7 hc0 hc1 x0 x1 x2 x3).1)

/-- IN CLOSED FORM: the one-hot product of this point's source nodes and node tile, added to zeros. -/
theorem sout5_A_eq (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond5_0 i) (hc1 : ¬cond5_1 i)
    (x0 : Vec F S2048x128 .f32) (x1 : Vec F S4096 .i32) (x2 : Vec F S4096 .f32) (x3 : Vec F S4096x128 .f32) :
    sout5_A c i arg2 harg2 arg3 harg3 arg4 harg4 arg5 harg5 arg6 harg6 arg7 harg7 hc0 hc1 x0 x1 x2 x3 = k5_pay2 i x1 x0 (k5_pay1 (F := F)) := by
  unfold sout5_A
  rw [View.read_writes_eq_canon _ _ _ (scover5_A c i arg2 harg2 arg3 harg3 arg4 harg4 arg5 harg5 arg6 harg6 arg7 harg7 hc0 hc1 x0 x1 x2 x3)]
  unfold kernelRun5_A
  dsimp only
  sl_unfold_words
  rw [View.canon_cons_unit_zero (S := S4096x128) hzz5]
  simp only [View.readAt_eq_ld, harg2.read_unread, harg3.read_unread, View.ld_unit_zero (S := S2048x128) hzz5, View.ld_unit_zero (S := S4096) hzu5, View.readCov_unit_zero (S := S4096x128) _ hzz5]

end Cert.KernelIdeal.Hand

end
-- ==== Proof.KI.Reg5.RunB.lean ====
/-
  Region 5, the gather: the body's run at an inner node tile of an edge tile (neither the first nor the last).

  Neither conditional is taken: the body reads the accumulator the point before left, adds the one-hot product of
  this point's source nodes with its node tile, and stores the sum back; the output window is untouched.
-/
import proofs.«177903_j22574348108073_1_alg».proof.Proof.KI.Reg5.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RUN, case "inner node tile" (neither conditional taken). On whole memrefs — the four inputs at their
    contents, the output's buffer at contents handed back untouched, the accumulator at what the point before left
    (`xs`) — the body runs to a continuation holding the inputs and the output's buffer as they were and the
    accumulator with the piece its one store wrote. -/
noncomputable def kernelRun5_B (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : ¬cond5_1 i)
    (x0 : Vec F S2048x128 .f32) (x1 : Vec F S4096 .i32) (x2 : Vec F S4096 .f32) (x3 : Vec F S4096x128 .f32) (xs : Vec F S4096x128 .f32) :
    { LS0 : List (View.Piece (Elt F) S4096x128 .f32) //
      ∀ (xi4 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5__gather_kernel i arg2 harg2 arg3 harg3 arg4 harg4 arg5 harg5 arg6 harg6 arg7 harg7) K } := by
  refine ⟨?_, fun xi4 E K => ?run⟩
  case run =>
    simp only [cc5__gather_kernel_eq_skeleton]; unfold cc5__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The one piece tiles the accumulator, so it covers it. -/
theorem scover5_B (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : ¬cond5_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun5_B c i arg2 harg2 arg3 harg3 arg4 harg4 arg5 harg5 arg6 harg6 arg7 harg7 hc0 hc1 x0 x1 x2 x3 xs).1, y ∈ pc.1.set :=
  View.cover_of_tiledL (kernelRun5_B c i arg2 harg2 arg3 harg3 arg4 harg4 arg5 harg5 arg6 harg6 arg7 harg7 hc0 hc1 x0 x1 x2 x3 xs).1 S4096x128.size (by sl_kernel_rfl) y

/-- What the case leaves in the accumulator: its piece read back. -/
def sout5_B (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : ¬cond5_1 i)
    (x0 : Vec F S2048x128 .f32) (x1 : Vec F S4096 .i32) (x2 : Vec F S4096 .f32) (x3 : Vec F S4096x128 .f32) (xs : Vec F S4096x128 .f32) : Vec F S4096x128 .f32 :=
  VS5.read (Elt F) (VS5.writes (Elt F) VS5.junk (kernelRun5_B c i arg2 harg2 arg3 harg3 arg4 harg4 arg5 harg5 arg6 harg6 arg7 harg7 hc0 hc1 x0 x1 x2 x3 xs).1)

/-- IN CLOSED FORM: the one-hot product of this point's source nodes and node tile, added to the accumulator. -/
theorem sout5_B_eq (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : ¬cond5_1 i)
    (x0 : Vec F S2048x128 .f32) (x1 : Vec F S4096 .i32) (x2 : Vec F S4096 .f32) (x3 : Vec F S4096x128 .f32) (xs : Vec F S4096x128 .f32) :
    sout5_B c i arg2 harg2 arg3 harg3 arg4 harg4 arg5 harg5 arg6 harg6 arg7 harg7 hc0 hc1 x0 x1 x2 x3 xs = k5_pay2 i x1 x0 xs := by
  unfold sout5_B
  rw [View.read_writes_eq_canon _ _ _ (scover5_B c i arg2 harg2 arg3 harg3 arg4 harg4 arg5 harg5 arg6 harg6 arg7 harg7 hc0 hc1 x0 x1 x2 x3 xs)]
  unfold kernelRun5_B
  dsimp only
  sl_unfold_words
  rw [View.canon_unit_zero (S := S4096x128) hzz5]
  simp only [View.readAt_eq_ld, harg2.read_unread, harg3.read_unread, harg4.read_unread, harg5.read_unread, harg7.read_unread, View.ld_unit_zero (S := S2048x128) hzz5, View.ld_unit_zero (S := S4096x128) hzz5, View.ld_unit_zero (S := S4096) hzu5, View.readCov_unit_zero (S := S4096x128) _ hzz5]

end Cert.KernelIdeal.Hand

end
-- ==== Proof.KI.Reg5.RunC.lean ====
/-
  Region 5, the gather: the body's run at the last node tile of an edge tile.

  The first conditional is not taken, the second is: the body adds this point's one-hot product into the
  accumulator as at an inner point, then reads the accumulator back, adds the edge embedding tile, scales each edge's row
  by its normalisation factor, rounds to bf16 and stores the result as the output tile.
-/
import proofs.«177903_j22574348108073_1_alg».proof.Proof.KI.Reg5.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RUN, case "last node tile" (second conditional taken). On whole memrefs — the four inputs at their
    contents, the output's buffer at anything, the accumulator at what the point before left (`xs`) — the body runs
    to a continuation holding the inputs as they were, and the output's buffer and the accumulator each with the
    piece its one store wrote. -/
noncomputable def kernelRun5_C (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) :
    Σ' (L4 : List (View.Piece (Elt F) S4096x128 .bf16)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc5__gather_kernel i arg2 harg2 arg3 harg3 arg4 harg4 arg5 harg5 arg6 harg6 arg7 harg7) K } := by
  refine ⟨?_, ?_, fun E K => ?run⟩
  case run =>
    simp only [cc5__gather_kernel_eq_skeleton]; unfold cc5__gather_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- The one piece stored into the output's buffer tiles it, so it covers it. -/
theorem cover5_C (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun5_C c i arg2 harg2 arg3 harg3 arg4 harg4 arg5 harg5 arg6 harg6 arg7 harg7 hc0 hc1 x0 x1 x2 x3 xs).1, y ∈ pc.1.set :=
  View.cover_of_tiledL (kernelRun5_C c i arg2 harg2 arg3 harg3 arg4 harg4 arg5 harg5 arg6 harg6 arg7 harg7 hc0 hc1 x0 x1 x2 x3 xs).1 S4096x128.size (by sl_kernel_rfl) y

/-- The one piece stored into the accumulator covers it. -/
theorem scover5_C (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun5_C c i arg2 harg2 arg3 harg3 arg4 harg4 arg5 harg5 arg6 harg6 arg7 harg7 hc0 hc1 x0 x1 x2 x3 xs).2.1, y ∈ pc.1.set :=
  View.cover_of_tiledL (kernelRun5_C c i arg2 harg2 arg3 harg3 arg4 harg4 arg5 harg5 arg6 harg6 arg7 harg7 hc0 hc1 x0 x1 x2 x3 xs).2.1 S4096x128.size (by sl_kernel_rfl) y

/-- What the case leaves in the accumulator: its piece read back. -/
def sout5_C (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) : Vec F S4096x128 .f32 :=
  VS5.read (Elt F) (VS5.writes (Elt F) VS5.junk (kernelRun5_C c i arg2 harg2 arg3 harg3 arg4 harg4 arg5 harg5 arg6 harg6 arg7 harg7 hc0 hc1 x0 x1 x2 x3 xs).2.1)

/-- What it leaves in the output's buffer: its piece read back. -/
def out5_C (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) : Vec F S4096x128 .bf16 :=
  VO5.read (Elt F) (VO5.writes (Elt F) VO5.junk (kernelRun5_C c i arg2 harg2 arg3 harg3 arg4 harg4 arg5 harg5 arg6 harg6 arg7 harg7 hc0 hc1 x0 x1 x2 x3 xs).1)

/-- IN CLOSED FORM, the accumulator: the one-hot product added to what the point before left. -/
theorem sout5_C_eq (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) :
    sout5_C c i arg2 harg2 arg3 harg3 arg4 harg4 arg5 harg5 arg6 harg6 arg7 harg7 hc0 hc1 x0 x1 x2 x3 xs = k5_pay2 i x1 x0 xs := by
  unfold sout5_C
  rw [View.read_writes_eq_canon _ _ _ (scover5_C c i arg2 harg2 arg3 harg3 arg4 harg4 arg5 harg5 arg6 harg6 arg7 harg7 hc0 hc1 x0 x1 x2 x3 xs)]
  unfold kernelRun5_C
  dsimp only
  sl_unfold_words
  rw [View.canon_unit_zero (S := S4096x128) hzz5]
  simp only [View.readAt_eq_ld, harg2.read_unread, harg3.read_unread, harg4.read_unread, harg5.read_unread, harg7.read_unread, View.ld_unit_zero (S := S2048x128) hzz5, View.ld_unit_zero (S := S4096x128) hzz5, View.ld_unit_zero (S := S4096) hzu5, View.readCov_unit_zero (S := S4096x128) _ hzz5]

/-- IN CLOSED FORM, the output tile: normalisation × (the new accumulator + the edge embedding), rounded. -/
theorem out5_C_eq (c : Dev nD) (i : grid5.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond5_0 i) (hc1 : cond5_1 i)
    (x0 : Vec F S2048x128 .f32) (x1 : Vec F S4096 .i32) (x2 : Vec F S4096 .f32) (x3 : Vec F S4096x128 .f32) (xs : Vec F S4096x128 .f32) :
    out5_C c i arg2 harg2 arg3 harg3 arg4 harg4 arg5 harg5 arg6 harg6 arg7 harg7 hc0 hc1 x0 x1 x2 x3 xs = k5_pay3 x2 (k5_pay2 i x1 x0 xs) x3 := by
  unfold out5_C
  rw [View.read_writes_eq_canon _ _ _ (cover5_C c i arg2 harg2 arg3 harg3 arg4 harg4 arg5 harg5 arg6 harg6 arg7 harg7 hc0 hc1 x0 x1 x2 x3 xs)]
  unfold kernelRun5_C
  dsimp only
  sl_unfold_words
  rw [View.canon_unit_zero (S := S4096x128) hzz5]
  simp only [View.readAt_eq_ld, harg2.read_unread, harg3.read_unread, harg4.read_unread, harg5.read_unread, harg7.read_unread, View.ld_unit_zero (S := S2048x128) hzz5, View.ld_unit_zero (S := S4096x128) hzz5, View.ld_unit_zero (S := S4096) hzu5, View.readCov_unit_zero (S := S4096x128) _ hzz5]

end Cert.KernelIdeal.Hand

end
-- ==== Proof.KI.Reg5.Body.lean ====
/-
  Region 5, the gather: the body obligation of its pipeline.

  At every grid point the inputs' staging buffers hold their blocks. The point's position in its edge tile's run of
  25 node tiles selects the case: at the first the accumulator (at anything, or at what the previous run left) is
  zeroed and receives the first one-hot product; at an inner point it receives the next product on top of what the
  point before left; at the last it receives the last product and the output tile is stored from it. In each case
  the run's found pieces read back as the closed forms of the proof data (`acc5`, `msg5`); the rest of the scoped
  buffers and the generator register pass through untouched, and the core owes nothing throughout.
-/
import proofs.«177903_j22574348108073_1_alg».proof.Proof.KI.Reg5.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's closed form, case by case -/

/-- At the first node tile of an edge tile the accumulator restarts from zeros. -/
theorem acc5_first (c : Dev nD) (t : Fin cfg5.N) (h0 : t.val % 25 = 0) :
    acc5 V c t.val t.isLt = k5_pay2 (grid5.coords t) (iblk5 V c 1 t) (iblk5 V c 0 t) (k5_pay1 (F := F)) := by
  obtain ⟨n, hn⟩ := t
  cases n with
  | zero => rfl
  | succ n =>
    have h0' : (n + 1) % 25 = 0 := h0
    exact congrArg (k5_pay2 (grid5.coords ⟨n + 1, hn⟩) (iblk5 V c 1 ⟨n + 1, hn⟩) (iblk5 V c 0 ⟨n + 1, hn⟩)) (if_pos h0')

/-- At any other node tile it continues from what the point before left. -/
theorem acc5_next (c : Dev nD) (t : Fin cfg5.N) (h0 : ¬t.val % 25 = 0) :
    acc5 V c t.val t.isLt = k5_pay2 (grid5.coords t) (iblk5 V c 1 t) (iblk5 V c 0 t)
      (acc5 V c (t.val - 1) (Nat.lt_of_le_of_lt (Nat.sub_le _ _) t.isLt)) := by
  obtain ⟨n, hn⟩ := t
  cases n with
  | zero => exact absurd (Nat.zero_mod 25) h0
  | succ n =>
    have h0' : ¬(n + 1) % 25 = 0 := h0
    exact congrArg (k5_pay2 (grid5.coords ⟨n + 1, hn⟩) (iblk5 V c 1 ⟨n + 1, hn⟩) (iblk5 V c 0 ⟨n + 1, hn⟩)) (if_neg h0')

/-! ## What the body leaves in the windows' buffers -/

/-- Each input's buffer is left at its block (the inputs are never idle). -/
theorem leaves5_0 (c : Dev nD) (t : Fin cfg5.N) :
    (dat5 V c).leavesExact 0 t = owns (c : Thread nD τ) (ms5_0 t) fullShare (iblk5 V c 0 t) := by
  rw [show (dat5 V c).leavesExact 0 t = owns (c : Thread nD τ) (ms5_0 t) fullShare ((dat5 V c).after 0 t) from by
    unfold Dat.leavesExact; rw [liveAt5_0 t], after5_0]
theorem leaves5_1 (c : Dev nD) (t : Fin cfg5.N) :
    (dat5 V c).leavesExact 1 t = owns (c : Thread nD τ) (ms5_1 t) fullShare (iblk5 V c 1 t) := by
  rw [show (dat5 V c).leavesExact 1 t = owns (c : Thread nD τ) (ms5_1 t) fullShare ((dat5 V c).after 1 t) from by
    unfold Dat.leavesExact; rw [liveAt5_1 t], after5_1]
theorem leaves5_2 (c : Dev nD) (t : Fin cfg5.N) :
    (dat5 V c).leavesExact 2 t = owns (c : Thread nD τ) (ms5_2 t) fullShare (iblk5 V c 2 t) := by
  rw [show (dat5 V c).leavesExact 2 t = owns (c : Thread nD τ) (ms5_2 t) fullShare ((dat5 V c).after 2 t) from by
    unfold Dat.leavesExact; rw [liveAt5_2 t], after5_2]
theorem leaves5_3 (c : Dev nD) (t : Fin cfg5.N) :
    (dat5 V c).leavesExact 3 t = owns (c : Thread nD τ) (ms5_3 t) fullShare (iblk5 V c 3 t) := by
  rw [show (dat5 V c).leavesExact 3 t = owns (c : Thread nD τ) (ms5_3 t) fullShare ((dat5 V c).after 3 t) from by
    unfold Dat.leavesExact; rw [liveAt5_3 t], after5_3]
/-- At the last node tile the output's buffer is left at the stored tile. -/
theorem leaves5_4 (c : Dev nD) (t : Fin cfg5.N) (hc1 : cond5_1 (grid5.coords t)) :
    (dat5 V c).leavesExact 4 t = owns (c : Thread nD τ) (ms5_4 t) fullShare (msg5 V c t) := by
  rw [show (dat5 V c).leavesExact 4 t = owns (c : Thread nD τ) (ms5_4 t) fullShare ((dat5 V c).after 4 t) from by
    unfold Dat.leavesExact; rw [liveAt5_4 t hc1], after5_4]

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  have hN : t.val < 4900 := lt_of_lt_of_eq t.isLt (show cfg5.N = 4900 from N_5)
  by_cases h0 : t.val % 25 = 0
  · -- the first node tile of an edge tile
    have h1 : ¬t.val % 25 = 24 := by omega
    have hc0 : cond5_0 (grid5.coords t) := (hcond5_0 t).mpr h0
    have hc1 : ¬cond5_1 (grid5.coords t) := fun h => h1 ((hcond5_1 t).mp h)
    rw [leaves5_0 V c t, leaves5_1 V c t, leaves5_2 V c t, leaves5_3 V c t]
    rw [Dat.leavesExact_idle (dat5 V c) 4 t (idleAt5_4 t hc1) (noFlush5_4 t hc1)]
    rw [acc5_first V c t h0]
    by_cases hz : t.val = 0
    · rw [PhiS5_castSucc V c t, PhiS5_zero V c _ _ hz, PhiA5_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun5_A c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS5 VS5.junk _ (scover5_A c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t))).trans
              (sout5_A_eq c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t))
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun5_A c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS5 VS5.junk _ (scover5_A c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t))).trans
              (sout5_A_eq c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t))
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond5_0 (grid5.coords t) := fun h => h0 ((hcond5_0 t).mp h)
    by_cases h1 : t.val % 25 = 24
    · -- the last node tile of an edge tile
      have hc1 : cond5_1 (grid5.coords t) := (hcond5_1 t).mpr h1
      rw [leaves5_0 V c t, leaves5_1 V c t, leaves5_2 V c t, leaves5_3 V c t]
      rw [leaves5_4 V c t hc1]
      unfold msg5
      rw [acc5_next V c t h0]
      rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun5_C c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro
            exact (View.read_writes_of_cover _ _ VS5 VS5.junk _ (scover5_C c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt)))).trans
              (sout5_C_eq c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ VO5 VO5.junk _ (cover5_C c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt)))).trans
        (out5_C_eq c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt)))
    · -- an inner node tile
      have hc1 : ¬cond5_1 (grid5.coords t) := fun h => h1 ((hcond5_1 t).mp h)
      rw [leaves5_0 V c t, leaves5_1 V c t, leaves5_2 V c t, leaves5_3 V c t]
      rw [Dat.leavesExact_idle (dat5 V c) 4 t (idleAt5_4 t hc1) (noFlush5_4 t hc1)]
      rw [acc5_next V c t h0]
      rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun5_B c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS5 VS5.junk _ (scover5_B c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt)))).trans
              (sout5_B_eq c (grid5.coords t) (ms5_0 t) (hs5_0 t) (ms5_1 t) (hs5_1 t) (ms5_2 t) (hs5_2 t) (ms5_3 t) (hs5_3 t) (ms5_4 t) (hs5_4 t) scM5 (Memref.isWhole_whole _) hc0 hc1 (iblk5 V c 0 t) (iblk5 V c 1 t) (iblk5 V c 2 t) (iblk5 V c 3 t) (acc5 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the entry invariant back: the accumulator's named contents
    are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]
    · iexists _; iexact HS0
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 4900 := N_5; omega)

end Cert.KernelIdeal.Hand

end
-- ==== Proof.KI.Reg6.RunA.lean ====
/-
  Region 6 of the kernel's program (the scatter onto the target nodes plus the residual), first part: what the three cases of the
  body share, and the body's triple in the case that opens a node tile's run.

  The body tests the edge-tile coordinate twice. Where it is 0 the accumulator is first overwritten with zeros;
  where it is 195 the output tile is stored after the update. Over the 25 × 196 grid, edge tile the fast axis,
  these are the points ≡ 0 and ≡ 195 (mod 196). The output window is idle, and not written back, at every point
  that is not ≡ 195. In every case the update reads the edge tile's target nodes and messages and the accumulator,
  and stores the one-hot product added to what it read; a store of the whole tile made last decides what the
  tile holds, and a load of the whole tile after such a store reads what was stored.
-/
import proofs.«177903_j22574348108073_1_alg».proof.Proof.KI.Reg6.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Zero offsets of a rank-2 and of a rank-1 rectangle, as the printed stores and loads spell them. -/
theorem hz6_2 : (![0, 0] : Fin 2 → Nat) = fun _ => 0 := by funext a; fin_cases a <;> rfl
theorem hz6_1 : (![0] : Fin 1 → Nat) = fun _ => 0 := by funext a; fin_cases a; rfl

/-! ## The two tests on the edge-tile coordinate -/

/-- The first test: the edge-tile coordinate is 0 (a node tile's run begins). -/
abbrev cond6_0 (i : grid6.Coords) : Prop := (Scalar.cmpi .ne (Scalar.extui (Scalar.cmpi .eq (BitVec.ofNat 32 (i 1).val) 0#32)) 0#32) = 1#1
/-- It holds exactly at the points ≡ 0 (mod 196): decided over the 4900 points. -/
theorem hcond6_0 : ∀ t : Fin cfg6.N, cond6_0 (grid6.coords t) ↔ t.val % 196 = 0 :=
  (by decide +kernel : ∀ t : Fin grid6.N, cond6_0 (grid6.coords t) ↔ t.val % 196 = 0)

/-- The second test: the edge-tile coordinate is 195 (a node tile's run ends). -/
abbrev cond6_1 (i : grid6.Coords) : Prop := k6_cond2 i = 1#1
/-- It holds exactly at the points ≡ 195 (mod 196). -/
theorem hcond6_1 : ∀ t : Fin cfg6.N, cond6_1 (grid6.coords t) ↔ t.val % 196 = 195 :=
  (by decide +kernel : ∀ t : Fin grid6.N, cond6_1 (grid6.coords t) ↔ t.val % 196 = 195)

/-! ## Where the windows are idle -/

/-- The three input windows are never idle. -/
theorem liveAt6_0 (i : grid6.Coords) : cfg6.idle 0 i = false := rfl
theorem liveAt6_1 (i : grid6.Coords) : cfg6.idle 1 i = false := rfl
theorem liveAt6_2 (i : grid6.Coords) : cfg6.idle 2 i = false := rfl
/-- The output window is idle wherever the second test fails, -/
theorem idleAt6_3 (i : grid6.Coords) (h : ¬cond6_1 i) : cfg6.idle 3 i = true := by
  show (!(k6_cond2 i == 1#1)) = true
  simp only [Bool.not_eq_true', beq_eq_false_iff_ne, ne_eq]; exact h
/-- and live where it holds. -/
theorem liveAt6_3 (i : grid6.Coords) (h : cond6_1 i) : cfg6.idle 3 i = false := by
  show (!(k6_cond2 i == 1#1)) = false
  simp only [Bool.not_eq_false', beq_iff_eq]; exact h
/-- The output tile is not written back at a point that is not ≡ 195 (mod 196). -/
theorem noFlush6_3 (t : Fin cfg6.N) (h : ¬t.val % 196 = 195) : (cfg6.win 3).flush t = false :=
  Bool.eq_false_iff.mpr fun hf => h ((flush6_3 t).mp hf)

/-! ## The region's entry invariant, with the accumulator split off -/

/-- What the launch hands the region: the accumulator whole at some contents, every other scoped buffer
    unopened, the generator register at some state. -/
theorem PhiA6_eq (c : Dev nD) :
    (Pipeline.ΦA spec6 c : sProp 𝕄)
      = iprop(iprop((∃ d, owns (c : Thread nD τ) scM6 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

/-! ## The whole-tile store -/
/-- The whole 2048 × 128 tile: the rectangle of every store into the accumulator and into the output tile. -/
abbrev rT6 : Rect S2048x128 := Rect.unit (s := S2048x128) ![0, 0] S2048x128.size inb_S2048x128_S2048x128_0_0

/-- A store of the whole tile, made last, covers the tile whatever was stored before. -/
theorem cover6 (p : Vec F S2048x128 .f32) (L : List (View.Piece (Elt F) S2048x128 .f32)) (y : S2048x128.Idx) :
    ∃ pc ∈ ((⟨rT6, p⟩ : View.Piece (Elt F) S2048x128 .f32) :: L), y ∈ pc.1.set :=
  ⟨_, List.mem_cons.mpr (Or.inl rfl), View.mem_set_unit_zero hz6_2 inb_S2048x128_S2048x128_0_0 y⟩

/-! ## The body where a node tile's run begins -/
set_option maxHeartbeats 1000000 in
/-- The body at the first edge tile of a node tile, on whole memrefs: the three inputs and the output tile are
    left as found, and the accumulator, found at anything, ends at the one-hot product of this edge tile added
    to zeros (it is zeroed, read back, and the sum stored over the zeros). -/
theorem sound_kernel6_A (c : Dev nD) (E : Set ℕ) (i : grid6.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : cond6_0 i) (hc1 : ¬cond6_1 i)
    (x0 : Vec F S4096x128 .bf16) (x1 : Vec F S4096 .i32) (x2 : Vec F S2048x128 .f32) (xi3 : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k6_pay2 i x1 x0 (k6_pay1 (F := F)))) -∗ K ⟨⟩))
      ⊢ wp frame (wpE (defs₀ (F := F)) Variants.none c none) E (cc6__scatter_kernel i arg2 harg2 arg3 harg3 arg4 harg4 arg5 harg5 arg6 harg6) K := by
  simp only [cc6__scatter_kernel_eq_skeleton]; unfold cc6__scatter_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (cover6 _ _)).trans ?_
  rw [View.canon_cons_unit_zero (S := S2048x128) hz6_2]
  simp only [View.readCov_unit_zero (S := S2048x128) _ hz6_2, View.readAt_eq_ld, View.ld_unit_zero (S := S4096) hz6_1, View.ld_unit_zero (S := S4096x128) hz6_2]

end Cert.KernelIdeal.Hand

end
-- ==== Proof.KI.Reg6.RunB.lean ====
/-
  Region 6 of the kernel's program, second part: the body's triple at a point inside a node tile's run, where
  neither test on the edge-tile coordinate holds. Nothing is zeroed and nothing is stored into the output tile:
  the accumulator is read, the one-hot product of this edge tile is added, and the sum is stored back.
-/
import proofs.«177903_j22574348108073_1_alg».proof.Proof.KI.Reg6.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point inside a node tile's run (edge tile neither first nor last), on whole memrefs: the three
    inputs and the output tile are left as found, and the accumulator, found at `xs`, ends at the one-hot product
    of this edge tile added to `xs`. -/
theorem sound_kernel6_B (c : Dev nD) (E : Set ℕ) (i : grid6.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond6_0 i) (hc1 : ¬cond6_1 i)
    (x0 : Vec F S4096x128 .bf16) (x1 : Vec F S4096 .i32) (x2 : Vec F S2048x128 .f32) (xi3 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k6_pay2 i x1 x0 xs)) -∗ K ⟨⟩))
      ⊢ wp frame (wpE (defs₀ (F := F)) Variants.none c none) E (cc6__scatter_kernel i arg2 harg2 arg3 harg3 arg4 harg4 arg5 harg5 arg6 harg6) K := by
  simp only [cc6__scatter_kernel_eq_skeleton]; unfold cc6__scatter_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (cover6 _ _)).trans ?_
  rw [View.canon_cons_unit_zero (S := S2048x128) hz6_2]
  simp only [View.readAt_eq_ld, View.ld_unit_zero (S := S4096) hz6_1, View.ld_unit_zero (S := S4096x128) hz6_2, View.ld_unit_zero (S := S2048x128) hz6_2]

end Cert.KernelIdeal.Hand

end
-- ==== Proof.KI.Reg6.RunC.lean ====
/-
  Region 6 of the kernel's program, third part: the body's triple where a node tile's run ends (edge-tile
  coordinate 195). After the update the accumulator is read back, the node tile of the projected features is
  added, and the sum, under the rectifier where the layer has one (the skeleton's third payload says which), is stored as the
  output tile.
-/
import proofs.«177903_j22574348108073_1_alg».proof.Proof.KI.Reg6.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the last edge tile of a node tile, on whole memrefs: the three inputs are left as found; the
    accumulator, found at `xs`, ends at the one-hot product of this edge tile added to `xs`; and the output
    tile ends at that sum + the node tile of the projected features, under the rectifier where the layer has one (the skeleton's third payload says which). -/
theorem sound_kernel6_C (c : Dev nD) (E : Set ℕ) (i : grid6.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond6_0 i) (hc1 : cond6_1 i)
    (x0 : Vec F S4096x128 .bf16) (x1 : Vec F S4096 .i32) (x2 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k6_pay3 (k6_pay2 i x1 x0 xs) x2) ∗ owns (c : Thread nD τ) arg6 fullShare (k6_pay2 i x1 x0 xs)) -∗ K ⟨⟩))
      ⊢ wp frame (wpE (defs₀ (F := F)) Variants.none c none) E (cc6__scatter_kernel i arg2 harg2 arg3 harg3 arg4 harg4 arg5 harg5 arg6 harg6) K := by
  simp only [cc6__scatter_kernel_eq_skeleton]; unfold cc6__scatter_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (View.read_writes_eq_canon _ _ _ (cover6 _ _)).trans ?_
    rw [View.canon_cons_unit_zero (S := S2048x128) hz6_2]
    simp only [View.readCov_unit_zero (S := S2048x128) _ hz6_2, View.readAt_eq_ld, View.ld_unit_zero (S := S4096) hz6_1, View.ld_unit_zero (S := S4096x128) hz6_2, View.ld_unit_zero (S := S2048x128) hz6_2]
  iexists _; isplitr
  swap; · iexact HS
  ipureintro
  sl_unfold_words
  refine (View.read_writes_eq_canon _ _ _ (cover6 _ _)).trans ?_
  rw [View.canon_cons_unit_zero (S := S2048x128) hz6_2]
  simp only [View.readAt_eq_ld, View.ld_unit_zero (S := S4096) hz6_1, View.ld_unit_zero (S := S4096x128) hz6_2, View.ld_unit_zero (S := S2048x128) hz6_2]

end Cert.KernelIdeal.Hand

end
-- ==== Proof.KI.Reg6.Body.lean ====
/-
  Region 6 of the kernel's program, last part: the pipeline's body obligation at every grid point, and the
  invariant's two ends.

  A point of the grid is the first of a node tile's run (≡ 0 mod 196), the last (≡ 195), or neither. The closed
  form of the accumulator unfolds accordingly — over zeros at a run's first point, over what the point before left
  elsewhere — and in each case the body's triple of that case applies: the inputs' staging memrefs hold their
  blocks, the invariant lends the accumulator (at anything before the very first point, at the previous point's
  closed form afterwards) and takes it back at this point's closed form; the output tile is handed back untouched
  where the window is idle and holds accumulator + residual, under the rectifier where the layer has one (the skeleton's third payload says which), where a run ends. The other scoped buffers
  and the generator register pass through unopened.
-/
import proofs.«177903_j22574348108073_1_alg».proof.Proof.KI.Reg6.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's closed form, one step unfolded -/

/-- At the first point of a node tile's run the accumulator is this point's one-hot product added to zeros. -/
theorem acc6_first (c : Dev nD) (t : Fin cfg6.N) (h0 : t.val % 196 = 0) :
    acc6 V c t.val t.isLt = k6_pay2 (grid6.coords t) (iblk6 V c 1 t) (iblk6 V c 0 t) (k6_pay1 (F := F)) := by
  obtain ⟨n, hn⟩ := t
  cases n with
  | zero => rfl
  | succ n =>
    have h0' : (n + 1) % 196 = 0 := h0
    show acc6 V c (n + 1) hn = _
    rw [acc6, if_pos h0']

/-- At any other point it is this point's one-hot product added to what the point before left. -/
theorem acc6_next (c : Dev nD) (t : Fin cfg6.N) (h0 : ¬t.val % 196 = 0) :
    acc6 V c t.val t.isLt = k6_pay2 (grid6.coords t) (iblk6 V c 1 t) (iblk6 V c 0 t)
      (acc6 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 196 = 0 := h0
    show acc6 V c (n + 1) hn = _
    rw [acc6, if_neg h0']
    rfl

/-! ## What the windows' staging buffers are left at -/

/-- An input window's buffer is left at what the proof data names (the window is never idle). -/
theorem leaves6_0 (c : Dev nD) (t : Fin cfg6.N) :
    (dat6 V c).leavesExact 0 t = owns (c : Thread nD τ) (st6_0 t) fullShare ((dat6 V c).after 0 t) := by
  unfold Dat.leavesExact; rw [liveAt6_0 (grid6.coords t)]
theorem leaves6_1 (c : Dev nD) (t : Fin cfg6.N) :
    (dat6 V c).leavesExact 1 t = owns (c : Thread nD τ) (st6_1 t) fullShare ((dat6 V c).after 1 t) := by
  unfold Dat.leavesExact; rw [liveAt6_1 (grid6.coords t)]
theorem leaves6_2 (c : Dev nD) (t : Fin cfg6.N) :
    (dat6 V c).leavesExact 2 t = owns (c : Thread nD τ) (st6_2 t) fullShare ((dat6 V c).after 2 t) := by
  unfold Dat.leavesExact; rw [liveAt6_2 (grid6.coords t)]
/-- The output window's buffer, where a node tile's run ends, is left at the stored tile. -/
theorem leaves6_3 (c : Dev nD) (t : Fin cfg6.N) (h : cond6_1 (grid6.coords t)) :
    (dat6 V c).leavesExact 3 t = owns (c : Thread nD τ) (st6_3 t) fullShare ((dat6 V c).after 3 t) := by
  unfold Dat.leavesExact; rw [liveAt6_3 (grid6.coords t) h]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point, by the point's place in its node tile's run. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [leaves6_0, after6_0, leaves6_1, after6_1, leaves6_2, after6_2]
  have hN : t.val < 4900 := lt_of_lt_of_eq t.isLt (show cfg6.N = 4900 from N_6)
  by_cases h0 : t.val % 196 = 0
  · -- a node tile's run begins
    have hc0 : cond6_0 (grid6.coords t) := (hcond6_0 t).mpr h0
    have h1 : ¬t.val % 196 = 195 := by omega
    have hc1 : ¬cond6_1 (grid6.coords t) := fun h => h1 ((hcond6_1 t).mp h)
    rw [Dat.leavesExact_idle (dat6 V c) 3 t (idleAt6_3 (grid6.coords t) hc1) (noFlush6_3 t h1)]
    rw [acc6_first V c t h0]
    by_cases hz : t.val = 0
    · rw [PhiS6_castSucc V c t, PhiS6_zero V c _ _ hz, PhiA6_eq]
      iintro ⟨⟨⟨HS, HR⟩, Hg⟩, Ho, ⟨%d0, H0⟩, ⟨%d1, H1⟩, ⟨%d2, H2⟩, ⟨%d3, H3⟩⟩
      iapply (sound_kernel6_A c Set.univ (grid6.coords t) _ _ _ _ _ _ _ _ _ _ hc0 hc1 (iblk6 V c 0 t) (iblk6 V c 1 t) (iblk6 V c 2 t) ((dat6 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3
    · rw [PhiS6_castSucc V c t, PhiS6_pos V c _ _ hz]
      iintro ⟨⟨⟨HS, HR⟩, Hg⟩, Ho, ⟨%d0, H0⟩, ⟨%d1, H1⟩, ⟨%d2, H2⟩, ⟨%d3, H3⟩⟩
      iapply (sound_kernel6_A c Set.univ (grid6.coords t) _ _ _ _ _ _ _ _ _ _ hc0 hc1 (iblk6 V c 0 t) (iblk6 V c 1 t) (iblk6 V c 2 t) ((dat6 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3
  · have hc0 : ¬cond6_0 (grid6.coords t) := fun h => h0 ((hcond6_0 t).mp h)
    have hz : t.val ≠ 0 := fun h => h0 (by rw [h])
    by_cases h1 : t.val % 196 = 195
    · -- a node tile's run ends
      have hc1 : cond6_1 (grid6.coords t) := (hcond6_1 t).mpr h1
      rw [leaves6_3 V c t hc1, after6_3]
      unfold res6
      rw [acc6_next V c t h0]
      rw [PhiS6_castSucc V c t, PhiS6_pos V c _ _ hz]
      iintro ⟨⟨⟨HS, HR⟩, Hg⟩, Ho, ⟨%d0, H0⟩, ⟨%d1, H1⟩, ⟨%d2, H2⟩, ⟨%d3, H3⟩⟩
      iapply (sound_kernel6_C c Set.univ (grid6.coords t) _ _ _ _ _ _ _ _ _ _ hc0 hc1 (iblk6 V c 0 t) (iblk6 V c 1 t) (iblk6 V c 2 t)
        (acc6 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- inside a node tile's run
      have hc1 : ¬cond6_1 (grid6.coords t) := fun h => h1 ((hcond6_1 t).mp h)
      rw [Dat.leavesExact_idle (dat6 V c) 3 t (idleAt6_3 (grid6.coords t) hc1) (noFlush6_3 t h1)]
      rw [acc6_next V c t h0]
      rw [PhiS6_castSucc V c t, PhiS6_pos V c _ _ hz]
      iintro ⟨⟨⟨HS, HR⟩, Hg⟩, Ho, ⟨%d0, H0⟩, ⟨%d1, H1⟩, ⟨%d2, H2⟩, ⟨%d3, H3⟩⟩
      iapply (sound_kernel6_B c Set.univ (grid6.coords t) _ _ _ _ _ _ _ _ _ _ hc0 hc1 (iblk6 V c 0 t) (iblk6 V c 1 t) (iblk6 V c 2 t) ((dat6 V c).before 3 t d3)
        (acc6 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant's two ends -/

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point the invariant gives the entry form back: the accumulator's named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS, HR⟩, Hg⟩
  isplitl [HS HR]
  · isplitl [HS]
    · iexists _; iexact HS
    iexact HR
  iexact Hg

/-- The same after the last point. -/
theorem hout6 (c : Dev nD) : (dat6 V c).Φ (Fin.last cfg6.N) ⊢ Pipeline.ΦA spec6 c :=
  Phi_out6 V c _ (by rw [Fin.val_last]; have : cfg6.N = 4900 := N_6; omega)

end Cert.KernelIdeal.Hand

end
-- ==== Proof.KI.Reg7.Body.lean ====
/-
  Region 7 of the kernel's program (the linear projection of the node features): the body's triple on whole
  staging memrefs — the three inputs are left as they were and the output tile ends holding product + bias —
  and from it the pipeline's body obligation at every grid point, for the proof data of the region's data module.
-/
import proofs.«177903_j22574348108073_1_alg».proof.Proof.KI.Reg7.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hzz7 : (![0, 0] : Fin 2 → Nat) = fun _ => 0 := by funext a; fin_cases a <;> rfl
theorem hzo7 : (![0] : Fin 1 → Nat) = fun _ => 0 := by funext a; fin_cases a; rfl

/-- The whole 2048 × 128 tile, the body's one store. -/
abbrev r7_o : Rect S2048x128 := Rect.unit (s := S2048x128) ![0, 0] S2048x128.size inb_S2048x128_S2048x128_0_0

/-- The one store covers the tile. -/
theorem cover7_3 (p0 : Vec F S2048x128 .f32) (y : S2048x128.Idx) :
    ∃ pc ∈ ([⟨r7_o, p0⟩] : List (View.Piece (Elt F) S2048x128 .f32)), y ∈ pc.1.set :=
  View.cover_of_tiled [⟨r7_o, p0⟩] S2048x128.size (by rfl) y

set_option maxHeartbeats 1000000 in
/-- The body on whole staging memrefs: the three inputs are left as they were, the output holds product + bias. -/
theorem sound_kernel7 (c : Dev nD) (E : Set ℕ) (i : grid7.Coords) (arg1 : Memref sig .tc .vmem S2048x128 .f32) (harg1 : arg1.IsWhole)
    (arg2 : Memref sig .tc .vmem S128x128 .f32) (harg2 : arg2.IsWhole) (arg3 : Memref sig .tc .vmem S128 .f32) (harg3 : arg3.IsWhole)
    (arg4 : Memref sig .tc .vmem S2048x128 .f32) (harg4 : arg4.IsWhole)
    (x0 : Vec F S2048x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__linear_kernel i arg1 harg1 arg2 harg2 arg3 harg3 arg4 harg4) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (View.read_writes_eq_canon _ _ _ (cover7_3 _)).trans ?_
  rw [View.canon_unit_zero (S := S2048x128) hzz7]
  unfold out7_3
  simp only [View.readAt_eq_ld, View.ld_unit_zero (S := S2048x128) hzz7, View.ld_unit_zero (S := S128x128) hzz7, View.ld_unit_zero (S := S128) hzo7]

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.RunA.lean ====
/-
  Region 8, the gather: what the body's conditionals depend on, and the body's run at the first node tile of an
  edge tile.

  The body branches twice on the node-tile coordinate j (the fast grid axis): it zeroes the accumulator when
  j = 0 and stores the output tile when j = 24. In the linear order of the 196 × 25 grid these are the points
  ≡ 0 and ≡ 24 (mod 25). The output window is idle, and not written back, wherever j ≠ 24. This module states
  the two conditions in closed form, where the windows are idle, the staging memrefs the body is called with, and
  the region's entry invariant with the accumulator made explicit; then it runs the body in the case j = 0: the
  accumulator is stored twice (zeros, then the one-hot product added to the zeros read back), and it ends at
  the product payload applied to this point's source nodes, its node tile, and the zero payload.
-/
import proofs.«177903_j22574348108073_1_alg».proof.Proof.KI.Reg8.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions on the node-tile coordinate -/

/-- The first conditional's condition as the body computes it from the grid coordinates: "node tile = 0". -/
abbrev cond8_0 (i : grid8.Coords) : Prop :=
  (Scalar.cmpi .ne (Scalar.extui (Scalar.cmpi .eq (BitVec.ofNat 32 (i 1).val) 0#32)) 0#32) = 1#1
/-- It holds exactly at the first node tile of each edge tile: the points ≡ 0 (mod 25). -/
theorem hcond8_0 : ∀ t : Fin cfg8.N, cond8_0 (grid8.coords t) ↔ t.val % 25 = 0 :=
  (by decide +kernel : ∀ t : Fin grid8.N, cond8_0 (grid8.coords t) ↔ t.val % 25 = 0)

/-- The second conditional's condition: "node tile = 24". -/
abbrev cond8_1 (i : grid8.Coords) : Prop := k8_cond2 i = 1#1
/-- It holds exactly at the last node tile of each edge tile: the points ≡ 24 (mod 25). -/
theorem hcond8_1 : ∀ t : Fin cfg8.N, cond8_1 (grid8.coords t) ↔ t.val % 25 = 24 :=
  (by decide +kernel : ∀ t : Fin grid8.N, cond8_1 (grid8.coords t) ↔ t.val % 25 = 24)

/-! ## Where the windows are idle -/

/-- The four input windows are never idle. -/
theorem liveAt8_0 (t : Fin cfg8.N) : cfg8.idle 0 (grid8.coords t) = false := rfl
theorem liveAt8_1 (t : Fin cfg8.N) : cfg8.idle 1 (grid8.coords t) = false := rfl
theorem liveAt8_2 (t : Fin cfg8.N) : cfg8.idle 2 (grid8.coords t) = false := rfl
theorem liveAt8_3 (t : Fin cfg8.N) : cfg8.idle 3 (grid8.coords t) = false := rfl
/-- Away from the last node tile the output window is idle: nothing is stored into it, -/
theorem idleAt8_4 (t : Fin cfg8.N) (h : ¬cond8_1 (grid8.coords t)) : cfg8.idle 4 (grid8.coords t) = true := by
  show (!(k8_cond2 (grid8.coords t) == 1#1)) = true
  rw [Bool.not_eq_true', beq_eq_false_iff_ne]; exact h
/-- and its block is not written back. -/
theorem noFlush8_4 (t : Fin cfg8.N) (h : ¬cond8_1 (grid8.coords t)) : (cfg8.win 4).flush t = false := by
  cases hf : (cfg8.win 4).flush t with
  | false => rfl
  | true => exact absurd ((hcond8_1 t).mpr ((flush8_4 t).mp hf)) h
/-- At the last node tile it is live. -/
theorem liveAt8_4 (t : Fin cfg8.N) (h : cond8_1 (grid8.coords t)) : cfg8.idle 4 (grid8.coords t) = false := by
  show (!(k8_cond2 (grid8.coords t) == 1#1)) = false
  rw [show k8_cond2 (grid8.coords t) = 1#1 from h]; rfl

/-! ## The memrefs the body is called with -/

/-- Each window's current staging memref at point `t`, as the pipeline passes it, with its wholeness. -/
abbrev ms8_0 (t : Fin cfg8.N) : Memref sig .tc .vmem S2048x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S4096 .i32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S4096 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S4096x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S4096x128 .bf16 := win8_4.stage (cfg8.slots t 4)
abbrev hs8_4 (t : Fin cfg8.N) : (ms8_4 t).IsWhole := hstage8_4 ((cfg8.slots t 4).cast nbuf8_4)

/-- The accumulator as a view: what it holds is stated through it. -/
abbrev VS8 : View sig .tc .vmem S4096x128 .f32 := (scM8 : Memref sig .tc .vmem S4096x128 .f32).view
/-- One staging buffer of the output window, through which the stored tile is stated. -/
abbrev VO8 : View sig .tc .vmem S4096x128 .bf16 := (Memref.whole cc8_stg4_0 : Memref sig .tc .vmem S4096x128 .bf16).view

/-- The zero offsets of the whole-buffer rectangles, spelt as a constant function. -/
theorem hzz8 : (![0, 0] : Fin 2 → Nat) = fun _ => 0 := by funext a; fin_cases a <;> rfl
theorem hzu8 : (![0] : Fin 1 → Nat) = fun _ => 0 := by funext a; fin_cases a; rfl

/-- The region's entry invariant with the accumulator split off the scoped rest: the accumulator whole at some
    contents, every other scoped buffer unopened, the generator register at some state. -/
theorem PhiA8_eq (c : Dev nD) :
    (Pipeline.ΦA spec8 c : sProp 𝕄)
      = iprop(iprop((∃ d, owns (c : Thread nD τ) scM8 fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

/-! ## The body at the first node tile of an edge tile -/

set_option maxHeartbeats 1000000 in
/-- THE RUN, case "first node tile" (first conditional taken, second not). On whole memrefs — the four inputs at
    their contents, the output's buffer at contents handed back untouched, the accumulator at anything — the body
    runs to a continuation holding the inputs as they were, the output's buffer as it was, and the accumulator
    with the pieces its two stores wrote (last first): the witness the symbolic run finds. -/
noncomputable def kernelRun8_A (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond8_0 i) (hc1 : ¬cond8_1 i)
    (x0 : Vec F S2048x128 .f32) (x1 : Vec F S4096 .i32) (x2 : Vec F S4096 .f32) (x3 : Vec F S4096x128 .f32) :
    { LS0 : List (View.Piece (Elt F) S4096x128 .f32) //
      ∀ (xi4 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc8__gather_kernel i arg2 harg2 arg3 harg3 arg4 harg4 arg5 harg5 arg6 harg6 arg7 harg7) K } := by
  refine ⟨?_, fun xi4 E K => ?run⟩
  case run =>
    simp only [cc8__gather_kernel_eq_skeleton]; unfold cc8__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The two pieces tile the accumulator, so they cover it. -/
theorem scover8_A (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond8_0 i) (hc1 : ¬cond8_1 i)
    (x0 : Vec F S2048x128 .f32) (x1 : Vec F S4096 .i32) (x2 : Vec F S4096 .f32) (x3 : Vec F S4096x128 .f32) (y : S4096x128.Idx) :
    ∃ pc ∈ (kernelRun8_A c i arg2 harg2 arg3 harg3 arg4 harg4 arg5 harg5 arg6 harg6 arg7 harg7 hc0 hc1 x0 x1 x2 x3).1, y ∈ pc.1.set :=
  View.cover_of_tiledL (kernelRun8_A c i arg2 harg2 arg3 harg3 arg4 harg4 arg5 harg5 arg6 harg6 arg7 harg7 hc0 hc1 x0 x1 x2 x3).1 S4096x128.size (by sl_kernel_rfl) y

/-- What the case leaves in the accumulator: its pieces read back. -/
def sout8_A (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond8_0 i) (hc1 : ¬cond8_1 i)
    (x0 : Vec F S2048x128 .f32) (x1 : Vec F S4096 .i32) (x2 : Vec F S4096 .f32) (x3 : Vec F S4096x128 .f32) : Vec F S4096x128 .f32 :=
  VS8.read (Elt F) (VS8.writes (Elt F) VS8.junk (kernelRun8_A c i arg2 harg2 arg3 harg3 arg4 harg4 arg5 harg5 arg6 harg6 arg7 harg7 hc0 hc1 x0 x1 x2 x3).1)

/-- IN CLOSED FORM: the one-hot product of this point's source nodes and node tile, added to zeros. -/
theorem sout8_A_eq (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : cond8_0 i) (hc1 : ¬cond8_1 i)
    (x0 : Vec F S2048x128 .f32) (x1 : Vec F S4096 .i32) (x2 : Vec F S4096 .f32) (x3 : Vec F S4096x128 .f32) :
    sout8_A c i arg2 harg2 arg3 harg3 arg4 harg4 arg5 harg5 arg6 harg6 arg7 harg7 hc0 hc1 x0 x1 x2 x3 = k8_pay2 i x1 x0 (k8_pay1 (F := F)) := by
  unfold sout8_A
  rw [View.read_writes_eq_canon _ _ _ (scover8_A c i arg2 harg2 arg3 harg3 arg4 harg4 arg5 harg5 arg6 harg6 arg7 harg7 hc0 hc1 x0 x1 x2 x3)]
  unfold kernelRun8_A
  dsimp only
  sl_unfold_words
  rw [View.canon_cons_unit_zero (S := S4096x128) hzz8]
  simp only [View.readAt_eq_ld, harg2.read_unread, harg3.read_unread, View.ld_unit_zero (S := S2048x128) hzz8, View.ld_unit_zero (S := S4096) hzu8, View.readCov_unit_zero (S := S4096x128) _ hzz8]

end Cert.KernelIdeal.Hand

end
-- ==== Proof.KI.Reg8.RunB.lean ====
/-
  Region 8, the gather: the body's run at an inner node tile of an edge tile (neither the first nor the last).

  Neither conditional is taken: the body reads the accumulator the point before left, adds the one-hot product of
  this point's source nodes with its node tile, and stores the sum back; the output window is untouched.
-/
import proofs.«177903_j22574348108073_1_alg».proof.Proof.KI.Reg8.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RUN, case "inner node tile" (neither conditional taken). On whole memrefs — the four inputs at their
    contents, the output's buffer at contents handed back untouched, the accumulator at what the point before left
    (`xs`) — the body runs to a continuation holding the inputs and the output's buffer as they were and the
    accumulator with the piece its one store wrote. -/
noncomputable def kernelRun8_B (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : ¬cond8_1 i)
    (x0 : Vec F S2048x128 .f32) (x1 : Vec F S4096 .i32) (x2 : Vec F S4096 .f32) (x3 : Vec F S4096x128 .f32) (xs : Vec F S4096x128 .f32) :
    { LS0 : List (View.Piece (Elt F) S4096x128 .f32) //
      ∀ (xi4 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc8__gather_kernel i arg2 harg2 arg3 harg3 arg4 harg4 arg5 harg5 arg6 harg6 arg7 harg7) K } := by
  refine ⟨?_, fun xi4 E K => ?run⟩
  case run =>
    simp only [cc8__gather_kernel_eq_skeleton]; unfold cc8__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The one piece tiles the accumulator, so it covers it. -/
theorem scover8_B (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : ¬cond8_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun8_B c i arg2 harg2 arg3 harg3 arg4 harg4 arg5 harg5 arg6 harg6 arg7 harg7 hc0 hc1 x0 x1 x2 x3 xs).1, y ∈ pc.1.set :=
  View.cover_of_tiledL (kernelRun8_B c i arg2 harg2 arg3 harg3 arg4 harg4 arg5 harg5 arg6 harg6 arg7 harg7 hc0 hc1 x0 x1 x2 x3 xs).1 S4096x128.size (by sl_kernel_rfl) y

/-- What the case leaves in the accumulator: its piece read back. -/
def sout8_B (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : ¬cond8_1 i)
    (x0 : Vec F S2048x128 .f32) (x1 : Vec F S4096 .i32) (x2 : Vec F S4096 .f32) (x3 : Vec F S4096x128 .f32) (xs : Vec F S4096x128 .f32) : Vec F S4096x128 .f32 :=
  VS8.read (Elt F) (VS8.writes (Elt F) VS8.junk (kernelRun8_B c i arg2 harg2 arg3 harg3 arg4 harg4 arg5 harg5 arg6 harg6 arg7 harg7 hc0 hc1 x0 x1 x2 x3 xs).1)

/-- IN CLOSED FORM: the one-hot product of this point's source nodes and node tile, added to the accumulator. -/
theorem sout8_B_eq (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : ¬cond8_1 i)
    (x0 : Vec F S2048x128 .f32) (x1 : Vec F S4096 .i32) (x2 : Vec F S4096 .f32) (x3 : Vec F S4096x128 .f32) (xs : Vec F S4096x128 .f32) :
    sout8_B c i arg2 harg2 arg3 harg3 arg4 harg4 arg5 harg5 arg6 harg6 arg7 harg7 hc0 hc1 x0 x1 x2 x3 xs = k8_pay2 i x1 x0 xs := by
  unfold sout8_B
  rw [View.read_writes_eq_canon _ _ _ (scover8_B c i arg2 harg2 arg3 harg3 arg4 harg4 arg5 harg5 arg6 harg6 arg7 harg7 hc0 hc1 x0 x1 x2 x3 xs)]
  unfold kernelRun8_B
  dsimp only
  sl_unfold_words
  rw [View.canon_unit_zero (S := S4096x128) hzz8]
  simp only [View.readAt_eq_ld, harg2.read_unread, harg3.read_unread, harg4.read_unread, harg5.read_unread, harg7.read_unread, View.ld_unit_zero (S := S2048x128) hzz8, View.ld_unit_zero (S := S4096x128) hzz8, View.ld_unit_zero (S := S4096) hzu8, View.readCov_unit_zero (S := S4096x128) _ hzz8]

end Cert.KernelIdeal.Hand

end
-- ==== Proof.KI.Reg8.RunC.lean ====
/-
  Region 8, the gather: the body's run at the last node tile of an edge tile.

  The first conditional is not taken, the second is: the body adds this point's one-hot product into the
  accumulator as at an inner point, then reads the accumulator back, adds the edge embedding tile, scales each edge's row
  by its normalisation factor, rounds to bf16 and stores the result as the output tile.
-/
import proofs.«177903_j22574348108073_1_alg».proof.Proof.KI.Reg8.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RUN, case "last node tile" (second conditional taken). On whole memrefs — the four inputs at their
    contents, the output's buffer at anything, the accumulator at what the point before left (`xs`) — the body runs
    to a continuation holding the inputs as they were, and the output's buffer and the accumulator each with the
    piece its one store wrote. -/
noncomputable def kernelRun8_C (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) :
    Σ' (L4 : List (View.Piece (Elt F) S4096x128 .bf16)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc8__gather_kernel i arg2 harg2 arg3 harg3 arg4 harg4 arg5 harg5 arg6 harg6 arg7 harg7) K } := by
  refine ⟨?_, ?_, fun E K => ?run⟩
  case run =>
    simp only [cc8__gather_kernel_eq_skeleton]; unfold cc8__gather_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- The one piece stored into the output's buffer tiles it, so it covers it. -/
theorem cover8_C (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun8_C c i arg2 harg2 arg3 harg3 arg4 harg4 arg5 harg5 arg6 harg6 arg7 harg7 hc0 hc1 x0 x1 x2 x3 xs).1, y ∈ pc.1.set :=
  View.cover_of_tiledL (kernelRun8_C c i arg2 harg2 arg3 harg3 arg4 harg4 arg5 harg5 arg6 harg6 arg7 harg7 hc0 hc1 x0 x1 x2 x3 xs).1 S4096x128.size (by sl_kernel_rfl) y

/-- The one piece stored into the accumulator covers it. -/
theorem scover8_C (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) (y : S4096x128.Idx) :
    ∃ pc ∈ (kernelRun8_C c i arg2 harg2 arg3 harg3 arg4 harg4 arg5 harg5 arg6 harg6 arg7 harg7 hc0 hc1 x0 x1 x2 x3 xs).2.1, y ∈ pc.1.set :=
  View.cover_of_tiledL (kernelRun8_C c i arg2 harg2 arg3 harg3 arg4 harg4 arg5 harg5 arg6 harg6 arg7 harg7 hc0 hc1 x0 x1 x2 x3 xs).2.1 S4096x128.size (by sl_kernel_rfl) y

/-- What the case leaves in the accumulator: its piece read back. -/
def sout8_C (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) : Vec F S4096x128 .f32 :=
  VS8.read (Elt F) (VS8.writes (Elt F) VS8.junk (kernelRun8_C c i arg2 harg2 arg3 harg3 arg4 harg4 arg5 harg5 arg6 harg6 arg7 harg7 hc0 hc1 x0 x1 x2 x3 xs).2.1)

/-- What it leaves in the output's buffer: its piece read back. -/
def out8_C (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) : Vec F S4096x128 .bf16 :=
  VO8.read (Elt F) (VO8.writes (Elt F) VO8.junk (kernelRun8_C c i arg2 harg2 arg3 harg3 arg4 harg4 arg5 harg5 arg6 harg6 arg7 harg7 hc0 hc1 x0 x1 x2 x3 xs).1)

/-- IN CLOSED FORM, the accumulator: the one-hot product added to what the point before left. -/
theorem sout8_C_eq (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) :
    sout8_C c i arg2 harg2 arg3 harg3 arg4 harg4 arg5 harg5 arg6 harg6 arg7 harg7 hc0 hc1 x0 x1 x2 x3 xs = k8_pay2 i x1 x0 xs := by
  unfold sout8_C
  rw [View.read_writes_eq_canon _ _ _ (scover8_C c i arg2 harg2 arg3 harg3 arg4 harg4 arg5 harg5 arg6 harg6 arg7 harg7 hc0 hc1 x0 x1 x2 x3 xs)]
  unfold kernelRun8_C
  dsimp only
  sl_unfold_words
  rw [View.canon_unit_zero (S := S4096x128) hzz8]
  simp only [View.readAt_eq_ld, harg2.read_unread, harg3.read_unread, harg4.read_unread, harg5.read_unread, harg7.read_unread, View.ld_unit_zero (S := S2048x128) hzz8, View.ld_unit_zero (S := S4096x128) hzz8, View.ld_unit_zero (S := S4096) hzu8, View.readCov_unit_zero (S := S4096x128) _ hzz8]

/-- IN CLOSED FORM, the output tile: normalisation × (the new accumulator + the edge embedding), rounded. -/
theorem out8_C_eq (c : Dev nD) (i : grid8.Coords) (arg2 : Memref sig .tc .vmem S2048x128 .f32) (harg2 : arg2.IsWhole) (arg3 : Memref sig .tc .vmem S4096 .i32) (harg3 : arg3.IsWhole) (arg4 : Memref sig .tc .vmem S4096 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (hc0 : ¬cond8_0 i) (hc1 : cond8_1 i)
    (x0 : Vec F S2048x128 .f32) (x1 : Vec F S4096 .i32) (x2 : Vec F S4096 .f32) (x3 : Vec F S4096x128 .f32) (xs : Vec F S4096x128 .f32) :
    out8_C c i arg2 harg2 arg3 harg3 arg4 harg4 arg5 harg5 arg6 harg6 arg7 harg7 hc0 hc1 x0 x1 x2 x3 xs = k8_pay3 x2 (k8_pay2 i x1 x0 xs) x3 := by
  unfold out8_C
  rw [View.read_writes_eq_canon _ _ _ (cover8_C c i arg2 harg2 arg3 harg3 arg4 harg4 arg5 harg5 arg6 harg6 arg7 harg7 hc0 hc1 x0 x1 x2 x3 xs)]
  unfold kernelRun8_C
  dsimp only
  sl_unfold_words
  rw [View.canon_unit_zero (S := S4096x128) hzz8]
  simp only [View.readAt_eq_ld, harg2.read_unread, harg3.read_unread, harg4.read_unread, harg5.read_unread, harg7.read_unread, View.ld_unit_zero (S := S2048x128) hzz8, View.ld_unit_zero (S := S4096x128) hzz8, View.ld_unit_zero (S := S4096) hzu8, View.readCov_unit_zero (S := S4096x128) _ hzz8]

end Cert.KernelIdeal.Hand

end
-- ==== Proof.KI.Reg8.Body.lean ====
/-
  Region 8, the gather: the body obligation of its pipeline.

  At every grid point the inputs' staging buffers hold their blocks. The point's position in its edge tile's run of
  25 node tiles selects the case: at the first the accumulator (at anything, or at what the previous run left) is
  zeroed and receives the first one-hot product; at an inner point it receives the next product on top of what the
  point before left; at the last it receives the last product and the output tile is stored from it. In each case
  the run's found pieces read back as the closed forms of the proof data (`acc8`, `msg8`); the rest of the scoped
  buffers and the generator register pass through untouched, and the core owes nothing throughout.
-/
import proofs.«177903_j22574348108073_1_alg».proof.Proof.KI.Reg8.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's closed form, case by case -/

/-- At the first node tile of an edge tile the accumulator restarts from zeros. -/
theorem acc8_first (c : Dev nD) (t : Fin cfg8.N) (h0 : t.val % 25 = 0) :
    acc8 V c t.val t.isLt = k8_pay2 (grid8.coords t) (iblk8 V c 1 t) (iblk8 V c 0 t) (k8_pay1 (F := F)) := by
  obtain ⟨n, hn⟩ := t
  cases n with
  | zero => rfl
  | succ n =>
    have h0' : (n + 1) % 25 = 0 := h0
    exact congrArg (k8_pay2 (grid8.coords ⟨n + 1, hn⟩) (iblk8 V c 1 ⟨n + 1, hn⟩) (iblk8 V c 0 ⟨n + 1, hn⟩)) (if_pos h0')

/-- At any other node tile it continues from what the point before left. -/
theorem acc8_next (c : Dev nD) (t : Fin cfg8.N) (h0 : ¬t.val % 25 = 0) :
    acc8 V c t.val t.isLt = k8_pay2 (grid8.coords t) (iblk8 V c 1 t) (iblk8 V c 0 t)
      (acc8 V c (t.val - 1) (Nat.lt_of_le_of_lt (Nat.sub_le _ _) t.isLt)) := by
  obtain ⟨n, hn⟩ := t
  cases n with
  | zero => exact absurd (Nat.zero_mod 25) h0
  | succ n =>
    have h0' : ¬(n + 1) % 25 = 0 := h0
    exact congrArg (k8_pay2 (grid8.coords ⟨n + 1, hn⟩) (iblk8 V c 1 ⟨n + 1, hn⟩) (iblk8 V c 0 ⟨n + 1, hn⟩)) (if_neg h0')

/-! ## What the body leaves in the windows' buffers -/

/-- Each input's buffer is left at its block (the inputs are never idle). -/
theorem leaves8_0 (c : Dev nD) (t : Fin cfg8.N) :
    (dat8 V c).leavesExact 0 t = owns (c : Thread nD τ) (ms8_0 t) fullShare (iblk8 V c 0 t) := by
  rw [show (dat8 V c).leavesExact 0 t = owns (c : Thread nD τ) (ms8_0 t) fullShare ((dat8 V c).after 0 t) from by
    unfold Dat.leavesExact; rw [liveAt8_0 t], after8_0]
theorem leaves8_1 (c : Dev nD) (t : Fin cfg8.N) :
    (dat8 V c).leavesExact 1 t = owns (c : Thread nD τ) (ms8_1 t) fullShare (iblk8 V c 1 t) := by
  rw [show (dat8 V c).leavesExact 1 t = owns (c : Thread nD τ) (ms8_1 t) fullShare ((dat8 V c).after 1 t) from by
    unfold Dat.leavesExact; rw [liveAt8_1 t], after8_1]
theorem leaves8_2 (c : Dev nD) (t : Fin cfg8.N) :
    (dat8 V c).leavesExact 2 t = owns (c : Thread nD τ) (ms8_2 t) fullShare (iblk8 V c 2 t) := by
  rw [show (dat8 V c).leavesExact 2 t = owns (c : Thread nD τ) (ms8_2 t) fullShare ((dat8 V c).after 2 t) from by
    unfold Dat.leavesExact; rw [liveAt8_2 t], after8_2]
theorem leaves8_3 (c : Dev nD) (t : Fin cfg8.N) :
    (dat8 V c).leavesExact 3 t = owns (c : Thread nD τ) (ms8_3 t) fullShare (iblk8 V c 3 t) := by
  rw [show (dat8 V c).leavesExact 3 t = owns (c : Thread nD τ) (ms8_3 t) fullShare ((dat8 V c).after 3 t) from by
    unfold Dat.leavesExact; rw [liveAt8_3 t], after8_3]
/-- At the last node tile the output's buffer is left at the stored tile. -/
theorem leaves8_4 (c : Dev nD) (t : Fin cfg8.N) (hc1 : cond8_1 (grid8.coords t)) :
    (dat8 V c).leavesExact 4 t = owns (c : Thread nD τ) (ms8_4 t) fullShare (msg8 V c t) := by
  rw [show (dat8 V c).leavesExact 4 t = owns (c : Thread nD τ) (ms8_4 t) fullShare ((dat8 V c).after 4 t) from by
    unfold Dat.leavesExact; rw [liveAt8_4 t hc1], after8_4]

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t)

set_option maxHeartbeats 4800000 in
/-- The body at any point. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).owesAt () t.succ = (dat8 V c).owesAt () t.castSucc from rfl]
  rw [show (dat8 V c).Φ t.succ = PhiS8 V c (t.val + 1) t.isLt from rfl, PhiS8_succ]
  have hN : t.val < 4900 := lt_of_lt_of_eq t.isLt (show cfg8.N = 4900 from N_8)
  by_cases h0 : t.val % 25 = 0
  · -- the first node tile of an edge tile
    have h1 : ¬t.val % 25 = 24 := by omega
    have hc0 : cond8_0 (grid8.coords t) := (hcond8_0 t).mpr h0
    have hc1 : ¬cond8_1 (grid8.coords t) := fun h => h1 ((hcond8_1 t).mp h)
    rw [leaves8_0 V c t, leaves8_1 V c t, leaves8_2 V c t, leaves8_3 V c t]
    rw [Dat.leavesExact_idle (dat8 V c) 4 t (idleAt8_4 t hc1) (noFlush8_4 t hc1)]
    rw [acc8_first V c t h0]
    by_cases hz : t.val = 0
    · rw [PhiS8_castSucc V c t, PhiS8_zero V c _ _ hz, PhiA8_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun8_A c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS8 VS8.junk _ (scover8_A c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t))).trans
              (sout8_A_eq c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t))
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS8_castSucc V c t, PhiS8_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun8_A c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS8 VS8.junk _ (scover8_A c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t))).trans
              (sout8_A_eq c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t))
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond8_0 (grid8.coords t) := fun h => h0 ((hcond8_0 t).mp h)
    by_cases h1 : t.val % 25 = 24
    · -- the last node tile of an edge tile
      have hc1 : cond8_1 (grid8.coords t) := (hcond8_1 t).mpr h1
      rw [leaves8_0 V c t, leaves8_1 V c t, leaves8_2 V c t, leaves8_3 V c t]
      rw [leaves8_4 V c t hc1]
      unfold msg8
      rw [acc8_next V c t h0]
      rw [PhiS8_castSucc V c t, PhiS8_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun8_C c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro
            exact (View.read_writes_of_cover _ _ VS8 VS8.junk _ (scover8_C c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt)))).trans
              (sout8_C_eq c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ VO8 VO8.junk _ (cover8_C c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt)))).trans
        (out8_C_eq c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt)))
    · -- an inner node tile
      have hc1 : ¬cond8_1 (grid8.coords t) := fun h => h1 ((hcond8_1 t).mp h)
      rw [leaves8_0 V c t, leaves8_1 V c t, leaves8_2 V c t, leaves8_3 V c t]
      rw [Dat.leavesExact_idle (dat8 V c) 4 t (idleAt8_4 t hc1) (noFlush8_4 t hc1)]
      rw [acc8_next V c t h0]
      rw [PhiS8_castSucc V c t, PhiS8_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun8_B c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_of_cover _ _ VS8 VS8.junk _ (scover8_B c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt)))).trans
              (sout8_B_eq c (grid8.coords t) (ms8_0 t) (hs8_0 t) (ms8_1 t) (hs8_1 t) (ms8_2 t) (hs8_2 t) (ms8_3 t) (hs8_3 t) (ms8_4 t) (hs8_4 t) scM8 (Memref.isWhole_whole _) hc0 hc1 (iblk8 V c 0 t) (iblk8 V c 1 t) (iblk8 V c 2 t) (iblk8 V c 3 t) (acc8 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the entry invariant back: the accumulator's named contents
    are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS0, Hr⟩, Hg⟩
  isplitl [HS0 Hr]
  · isplitl [HS0]
    · iexists _; iexact HS0
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 4900 := N_8; omega)

end Cert.KernelIdeal.Hand

end
-- ==== Proof.KI.Reg9.RunA.lean ====
/-
  Region 9 of the kernel's program (the scatter onto the target nodes plus the residual), first part: what the three cases of the
  body share, and the body's triple in the case that opens a node tile's run.

  The body tests the edge-tile coordinate twice. Where it is 0 the accumulator is first overwritten with zeros;
  where it is 195 the output tile is stored after the update. Over the 25 × 196 grid, edge tile the fast axis,
  these are the points ≡ 0 and ≡ 195 (mod 196). The output window is idle, and not written back, at every point
  that is not ≡ 195. In every case the update reads the edge tile's target nodes and messages and the accumulator,
  and stores the one-hot product added to what it read; a store of the whole tile made last decides what the
  tile holds, and a load of the whole tile after such a store reads what was stored.
-/
import proofs.«177903_j22574348108073_1_alg».proof.Proof.KI.Reg9.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Zero offsets of a rank-2 and of a rank-1 rectangle, as the printed stores and loads spell them. -/
theorem hz9_2 : (![0, 0] : Fin 2 → Nat) = fun _ => 0 := by funext a; fin_cases a <;> rfl
theorem hz9_1 : (![0] : Fin 1 → Nat) = fun _ => 0 := by funext a; fin_cases a; rfl

/-! ## The two tests on the edge-tile coordinate -/

/-- The first test: the edge-tile coordinate is 0 (a node tile's run begins). -/
abbrev cond9_0 (i : grid9.Coords) : Prop := (Scalar.cmpi .ne (Scalar.extui (Scalar.cmpi .eq (BitVec.ofNat 32 (i 1).val) 0#32)) 0#32) = 1#1
/-- It holds exactly at the points ≡ 0 (mod 196): decided over the 4900 points. -/
theorem hcond9_0 : ∀ t : Fin cfg9.N, cond9_0 (grid9.coords t) ↔ t.val % 196 = 0 :=
  (by decide +kernel : ∀ t : Fin grid9.N, cond9_0 (grid9.coords t) ↔ t.val % 196 = 0)

/-- The second test: the edge-tile coordinate is 195 (a node tile's run ends). -/
abbrev cond9_1 (i : grid9.Coords) : Prop := k9_cond2 i = 1#1
/-- It holds exactly at the points ≡ 195 (mod 196). -/
theorem hcond9_1 : ∀ t : Fin cfg9.N, cond9_1 (grid9.coords t) ↔ t.val % 196 = 195 :=
  (by decide +kernel : ∀ t : Fin grid9.N, cond9_1 (grid9.coords t) ↔ t.val % 196 = 195)

/-! ## Where the windows are idle -/

/-- The three input windows are never idle. -/
theorem liveAt9_0 (i : grid9.Coords) : cfg9.idle 0 i = false := rfl
theorem liveAt9_1 (i : grid9.Coords) : cfg9.idle 1 i = false := rfl
theorem liveAt9_2 (i : grid9.Coords) : cfg9.idle 2 i = false := rfl
/-- The output window is idle wherever the second test fails, -/
theorem idleAt9_3 (i : grid9.Coords) (h : ¬cond9_1 i) : cfg9.idle 3 i = true := by
  show (!(k9_cond2 i == 1#1)) = true
  simp only [Bool.not_eq_true', beq_eq_false_iff_ne, ne_eq]; exact h
/-- and live where it holds. -/
theorem liveAt9_3 (i : grid9.Coords) (h : cond9_1 i) : cfg9.idle 3 i = false := by
  show (!(k9_cond2 i == 1#1)) = false
  simp only [Bool.not_eq_false', beq_iff_eq]; exact h
/-- The output tile is not written back at a point that is not ≡ 195 (mod 196). -/
theorem noFlush9_3 (t : Fin cfg9.N) (h : ¬t.val % 196 = 195) : (cfg9.win 3).flush t = false :=
  Bool.eq_false_iff.mpr fun hf => h ((flush9_3 t).mp hf)

/-! ## The region's entry invariant, with the accumulator split off -/

/-- What the launch hands the region: the accumulator whole at some contents, every other scoped buffer
    unopened, the generator register at some state. -/
theorem PhiA9_eq (c : Dev nD) :
    (Pipeline.ΦA spec9 c : sProp 𝕄)
      = iprop(iprop((∃ d, owns (c : Thread nD τ) scM9 fullShare d)
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9, owns_whole]; try rfl

/-! ## The whole-tile store -/
/-- The whole 2048 × 128 tile: the rectangle of every store into the accumulator and into the output tile. -/
abbrev rT9 : Rect S2048x128 := Rect.unit (s := S2048x128) ![0, 0] S2048x128.size inb_S2048x128_S2048x128_0_0

/-- A store of the whole tile, made last, covers the tile whatever was stored before. -/
theorem cover9 (p : Vec F S2048x128 .f32) (L : List (View.Piece (Elt F) S2048x128 .f32)) (y : S2048x128.Idx) :
    ∃ pc ∈ ((⟨rT9, p⟩ : View.Piece (Elt F) S2048x128 .f32) :: L), y ∈ pc.1.set :=
  ⟨_, List.mem_cons.mpr (Or.inl rfl), View.mem_set_unit_zero hz9_2 inb_S2048x128_S2048x128_0_0 y⟩

/-! ## The body where a node tile's run begins -/
set_option maxHeartbeats 1000000 in
/-- The body at the first edge tile of a node tile, on whole memrefs: the three inputs and the output tile are
    left as found, and the accumulator, found at anything, ends at the one-hot product of this edge tile added
    to zeros (it is zeroed, read back, and the sum stored over the zeros). -/
theorem sound_kernel9_A (c : Dev nD) (E : Set ℕ) (i : grid9.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : cond9_0 i) (hc1 : ¬cond9_1 i)
    (x0 : Vec F S4096x128 .bf16) (x1 : Vec F S4096 .i32) (x2 : Vec F S2048x128 .f32) (xi3 : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k9_pay2 i x1 x0 (k9_pay1 (F := F)))) -∗ K ⟨⟩))
      ⊢ wp frame (wpE (defs₀ (F := F)) Variants.none c none) E (cc9__scatter_kernel i arg2 harg2 arg3 harg3 arg4 harg4 arg5 harg5 arg6 harg6) K := by
  simp only [cc9__scatter_kernel_eq_skeleton]; unfold cc9__scatter_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (cover9 _ _)).trans ?_
  rw [View.canon_cons_unit_zero (S := S2048x128) hz9_2]
  simp only [View.readCov_unit_zero (S := S2048x128) _ hz9_2, View.readAt_eq_ld, View.ld_unit_zero (S := S4096) hz9_1, View.ld_unit_zero (S := S4096x128) hz9_2]

end Cert.KernelIdeal.Hand

end
-- ==== Proof.KI.Reg9.RunB.lean ====
/-
  Region 9 of the kernel's program, second part: the body's triple at a point inside a node tile's run, where
  neither test on the edge-tile coordinate holds. Nothing is zeroed and nothing is stored into the output tile:
  the accumulator is read, the one-hot product of this edge tile is added, and the sum is stored back.
-/
import proofs.«177903_j22574348108073_1_alg».proof.Proof.KI.Reg9.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point inside a node tile's run (edge tile neither first nor last), on whole memrefs: the three
    inputs and the output tile are left as found, and the accumulator, found at `xs`, ends at the one-hot product
    of this edge tile added to `xs`. -/
theorem sound_kernel9_B (c : Dev nD) (E : Set ℕ) (i : grid9.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond9_0 i) (hc1 : ¬cond9_1 i)
    (x0 : Vec F S4096x128 .bf16) (x1 : Vec F S4096 .i32) (x2 : Vec F S2048x128 .f32) (xi3 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k9_pay2 i x1 x0 xs)) -∗ K ⟨⟩))
      ⊢ wp frame (wpE (defs₀ (F := F)) Variants.none c none) E (cc9__scatter_kernel i arg2 harg2 arg3 harg3 arg4 harg4 arg5 harg5 arg6 harg6) K := by
  simp only [cc9__scatter_kernel_eq_skeleton]; unfold cc9__scatter_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (cover9 _ _)).trans ?_
  rw [View.canon_cons_unit_zero (S := S2048x128) hz9_2]
  simp only [View.readAt_eq_ld, View.ld_unit_zero (S := S4096) hz9_1, View.ld_unit_zero (S := S4096x128) hz9_2, View.ld_unit_zero (S := S2048x128) hz9_2]

end Cert.KernelIdeal.Hand

end
-- ==== Proof.KI.Reg9.RunC.lean ====
/-
  Region 9 of the kernel's program, third part: the body's triple where a node tile's run ends (edge-tile
  coordinate 195). After the update the accumulator is read back, the node tile of the projected features is
  added, and the sum, under the rectifier where the layer has one (the skeleton's third payload says which), is stored as the
  output tile.
-/
import proofs.«177903_j22574348108073_1_alg».proof.Proof.KI.Reg9.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the last edge tile of a node tile, on whole memrefs: the three inputs are left as found; the
    accumulator, found at `xs`, ends at the one-hot product of this edge tile added to `xs`; and the output
    tile ends at that sum + the node tile of the projected features, under the rectifier where the layer has one (the skeleton's third payload says which). -/
theorem sound_kernel9_C (c : Dev nD) (E : Set ℕ) (i : grid9.Coords)
    (arg2 : Memref sig .tc .vmem S4096x128 .bf16) (harg2 : arg2.IsWhole)
    (arg3 : Memref sig .tc .vmem S4096 .i32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond9_0 i) (hc1 : cond9_1 i)
    (x0 : Vec F S4096x128 .bf16) (x1 : Vec F S4096 .i32) (x2 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k9_pay3 (k9_pay2 i x1 x0 xs) x2) ∗ owns (c : Thread nD τ) arg6 fullShare (k9_pay2 i x1 x0 xs)) -∗ K ⟨⟩))
      ⊢ wp frame (wpE (defs₀ (F := F)) Variants.none c none) E (cc9__scatter_kernel i arg2 harg2 arg3 harg3 arg4 harg4 arg5 harg5 arg6 harg6) K := by
  simp only [cc9__scatter_kernel_eq_skeleton]; unfold cc9__scatter_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (View.read_writes_eq_canon _ _ _ (cover9 _ _)).trans ?_
    rw [View.canon_cons_unit_zero (S := S2048x128) hz9_2]
    simp only [View.readCov_unit_zero (S := S2048x128) _ hz9_2, View.readAt_eq_ld, View.ld_unit_zero (S := S4096) hz9_1, View.ld_unit_zero (S := S4096x128) hz9_2, View.ld_unit_zero (S := S2048x128) hz9_2]
  iexists _; isplitr
  swap; · iexact HS
  ipureintro
  sl_unfold_words
  refine (View.read_writes_eq_canon _ _ _ (cover9 _ _)).trans ?_
  rw [View.canon_cons_unit_zero (S := S2048x128) hz9_2]
  simp only [View.readAt_eq_ld, View.ld_unit_zero (S := S4096) hz9_1, View.ld_unit_zero (S := S4096x128) hz9_2, View.ld_unit_zero (S := S2048x128) hz9_2]

end Cert.KernelIdeal.Hand

end
-- ==== Proof.KI.Reg9.Body.lean ====
/-
  Region 9 of the kernel's program, last part: the pipeline's body obligation at every grid point, and the
  invariant's two ends.

  A point of the grid is the first of a node tile's run (≡ 0 mod 196), the last (≡ 195), or neither. The closed
  form of the accumulator unfolds accordingly — over zeros at a run's first point, over what the point before left
  elsewhere — and in each case the body's triple of that case applies: the inputs' staging memrefs hold their
  blocks, the invariant lends the accumulator (at anything before the very first point, at the previous point's
  closed form afterwards) and takes it back at this point's closed form; the output tile is handed back untouched
  where the window is idle and holds accumulator + residual, under the rectifier where the layer has one (the skeleton's third payload says which), where a run ends. The other scoped buffers
  and the generator register pass through unopened.
-/
import proofs.«177903_j22574348108073_1_alg».proof.Proof.KI.Reg9.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's closed form, one step unfolded -/

/-- At the first point of a node tile's run the accumulator is this point's one-hot product added to zeros. -/
theorem acc9_first (c : Dev nD) (t : Fin cfg9.N) (h0 : t.val % 196 = 0) :
    acc9 V c t.val t.isLt = k9_pay2 (grid9.coords t) (iblk9 V c 1 t) (iblk9 V c 0 t) (k9_pay1 (F := F)) := by
  obtain ⟨n, hn⟩ := t
  cases n with
  | zero => rfl
  | succ n =>
    have h0' : (n + 1) % 196 = 0 := h0
    show acc9 V c (n + 1) hn = _
    rw [acc9, if_pos h0']

/-- At any other point it is this point's one-hot product added to what the point before left. -/
theorem acc9_next (c : Dev nD) (t : Fin cfg9.N) (h0 : ¬t.val % 196 = 0) :
    acc9 V c t.val t.isLt = k9_pay2 (grid9.coords t) (iblk9 V c 1 t) (iblk9 V c 0 t)
      (acc9 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 196 = 0 := h0
    show acc9 V c (n + 1) hn = _
    rw [acc9, if_neg h0']
    rfl

/-! ## What the windows' staging buffers are left at -/

/-- An input window's buffer is left at what the proof data names (the window is never idle). -/
theorem leaves9_0 (c : Dev nD) (t : Fin cfg9.N) :
    (dat9 V c).leavesExact 0 t = owns (c : Thread nD τ) (st9_0 t) fullShare ((dat9 V c).after 0 t) := by
  unfold Dat.leavesExact; rw [liveAt9_0 (grid9.coords t)]
theorem leaves9_1 (c : Dev nD) (t : Fin cfg9.N) :
    (dat9 V c).leavesExact 1 t = owns (c : Thread nD τ) (st9_1 t) fullShare ((dat9 V c).after 1 t) := by
  unfold Dat.leavesExact; rw [liveAt9_1 (grid9.coords t)]
theorem leaves9_2 (c : Dev nD) (t : Fin cfg9.N) :
    (dat9 V c).leavesExact 2 t = owns (c : Thread nD τ) (st9_2 t) fullShare ((dat9 V c).after 2 t) := by
  unfold Dat.leavesExact; rw [liveAt9_2 (grid9.coords t)]
/-- The output window's buffer, where a node tile's run ends, is left at the stored tile. -/
theorem leaves9_3 (c : Dev nD) (t : Fin cfg9.N) (h : cond9_1 (grid9.coords t)) :
    (dat9 V c).leavesExact 3 t = owns (c : Thread nD τ) (st9_3 t) fullShare ((dat9 V c).after 3 t) := by
  unfold Dat.leavesExact; rw [liveAt9_3 (grid9.coords t) h]

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point, by the point's place in its node tile's run. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [leaves9_0, after9_0, leaves9_1, after9_1, leaves9_2, after9_2]
  have hN : t.val < 4900 := lt_of_lt_of_eq t.isLt (show cfg9.N = 4900 from N_9)
  by_cases h0 : t.val % 196 = 0
  · -- a node tile's run begins
    have hc0 : cond9_0 (grid9.coords t) := (hcond9_0 t).mpr h0
    have h1 : ¬t.val % 196 = 195 := by omega
    have hc1 : ¬cond9_1 (grid9.coords t) := fun h => h1 ((hcond9_1 t).mp h)
    rw [Dat.leavesExact_idle (dat9 V c) 3 t (idleAt9_3 (grid9.coords t) hc1) (noFlush9_3 t h1)]
    rw [acc9_first V c t h0]
    by_cases hz : t.val = 0
    · rw [PhiS9_castSucc V c t, PhiS9_zero V c _ _ hz, PhiA9_eq]
      iintro ⟨⟨⟨HS, HR⟩, Hg⟩, Ho, ⟨%d0, H0⟩, ⟨%d1, H1⟩, ⟨%d2, H2⟩, ⟨%d3, H3⟩⟩
      iapply (sound_kernel9_A c Set.univ (grid9.coords t) _ _ _ _ _ _ _ _ _ _ hc0 hc1 (iblk9 V c 0 t) (iblk9 V c 1 t) (iblk9 V c 2 t) ((dat9 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3
    · rw [PhiS9_castSucc V c t, PhiS9_pos V c _ _ hz]
      iintro ⟨⟨⟨HS, HR⟩, Hg⟩, Ho, ⟨%d0, H0⟩, ⟨%d1, H1⟩, ⟨%d2, H2⟩, ⟨%d3, H3⟩⟩
      iapply (sound_kernel9_A c Set.univ (grid9.coords t) _ _ _ _ _ _ _ _ _ _ hc0 hc1 (iblk9 V c 0 t) (iblk9 V c 1 t) (iblk9 V c 2 t) ((dat9 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3
  · have hc0 : ¬cond9_0 (grid9.coords t) := fun h => h0 ((hcond9_0 t).mp h)
    have hz : t.val ≠ 0 := fun h => h0 (by rw [h])
    by_cases h1 : t.val % 196 = 195
    · -- a node tile's run ends
      have hc1 : cond9_1 (grid9.coords t) := (hcond9_1 t).mpr h1
      rw [leaves9_3 V c t hc1, after9_3]
      unfold res9
      rw [acc9_next V c t h0]
      rw [PhiS9_castSucc V c t, PhiS9_pos V c _ _ hz]
      iintro ⟨⟨⟨HS, HR⟩, Hg⟩, Ho, ⟨%d0, H0⟩, ⟨%d1, H1⟩, ⟨%d2, H2⟩, ⟨%d3, H3⟩⟩
      iapply (sound_kernel9_C c Set.univ (grid9.coords t) _ _ _ _ _ _ _ _ _ _ hc0 hc1 (iblk9 V c 0 t) (iblk9 V c 1 t) (iblk9 V c 2 t)
        (acc9 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- inside a node tile's run
      have hc1 : ¬cond9_1 (grid9.coords t) := fun h => h1 ((hcond9_1 t).mp h)
      rw [Dat.leavesExact_idle (dat9 V c) 3 t (idleAt9_3 (grid9.coords t) hc1) (noFlush9_3 t h1)]
      rw [acc9_next V c t h0]
      rw [PhiS9_castSucc V c t, PhiS9_pos V c _ _ hz]
      iintro ⟨⟨⟨HS, HR⟩, Hg⟩, Ho, ⟨%d0, H0⟩, ⟨%d1, H1⟩, ⟨%d2, H2⟩, ⟨%d3, H3⟩⟩
      iapply (sound_kernel9_B c Set.univ (grid9.coords t) _ _ _ _ _ _ _ _ _ _ hc0 hc1 (iblk9 V c 0 t) (iblk9 V c 1 t) (iblk9 V c 2 t) ((dat9 V c).before 3 t d3)
        (acc9 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant's two ends -/

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After any point the invariant gives the entry form back: the accumulator's named contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨HS, HR⟩, Hg⟩
  isplitl [HS HR]
  · isplitl [HS]
    · iexists _; iexact HS
    iexact HR
  iexact Hg

/-- The same after the last point. -/
theorem hout9 (c : Dev nD) : (dat9 V c).Φ (Fin.last cfg9.N) ⊢ Pipeline.ΦA spec9 c :=
  Phi_out9 V c _ (by rw [Fin.val_last]; have : cfg9.N = 4900 := N_9; omega)

end Cert.KernelIdeal.Hand

end
-- ==== Proof.KI.Segs.lean ====
/-
  The ten pallas_calls of the kernel program as segments of @main: each region entered from the thread state
  "every unscoped buffer at the boundary's contents, the generator register at some state, nothing owed" and
  left at the same over the next boundary's contents. A region's arrays are split out of the unscoped buffers
  at its entry and put back at its exit at what the pipeline's write-backs leave; the generator register goes
  into the region's invariant and comes back; no region has a semaphore of its own; nothing is owed throughout.
-/
import proofs.«177903_j22574348108073_1_alg».proof.Proof.KI.Chain
import proofs.«177903_j22574348108073_1_alg».proof.Proof.KI.Reg0.Body
import proofs.«177903_j22574348108073_1_alg».proof.Proof.KI.Reg1.Body
import proofs.«177903_j22574348108073_1_alg».proof.Proof.KI.Reg2.Body
import proofs.«177903_j22574348108073_1_alg».proof.Proof.KI.Reg3.Body
import proofs.«177903_j22574348108073_1_alg».proof.Proof.KI.Reg4.Body
import proofs.«177903_j22574348108073_1_alg».proof.Proof.KI.Reg5.Body
import proofs.«177903_j22574348108073_1_alg».proof.Proof.KI.Reg6.Body
import proofs.«177903_j22574348108073_1_alg».proof.Proof.KI.Reg7.Body
import proofs.«177903_j22574348108073_1_alg».proof.Proof.KI.Reg8.Body
import proofs.«177903_j22574348108073_1_alg».proof.Proof.KI.Reg9.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- The same at every boundary. -/
abbrev E : Fin 11 → Dev nD → sProp 𝕄 := fun _ c => R c

set_option backward.isDefEq.respectTransparency.types false in
/-- REGION 0 (the edge-feature projection): entered from every unscoped buffer at `B0`, left at `B1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bv0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (Bv0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Bv0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Bv0 m c) (Bv1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the first layer's linear projection): entered from every unscoped buffer at `B1`, left at `B2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bv1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec1 c (Bv1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Bv1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Bv1 m c) (Bv2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the first layer's gather): entered from every unscoped buffer at `B2`, left at `B3`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Bv2 m) c).loose
  hwaits := Pipeline.hwaits_of_owed_zero _ _ _ _ L lv 2 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec2 c (Bv2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Bv2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (Bv2 m) c
    unfold Pipeline.ΦA at h
    rw [show (pdats m 2 c).Φ 0 = (dat2 (Bv2 m) c).Φ 0 from rfl]
    iintro ⟨Hp, -, Hr⟩
    iapply h
    isplitl [Hr]; · iexact Hr
    iexact Hp
  hout c := by
    rw [Pipeline.ownSems0_none]
    have h := hout2 (Bv2 m) c
    unfold Pipeline.ΦA at h
    rw [show (pdats m 2 c).Φ (Fin.last _) = (dat2 (Bv2 m) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Bv2 m c) (Bv3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (the first layer's scatter): entered from every unscoped buffer at `B3`, left at `B4`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Bv3 m) c).loose
  hwaits := Pipeline.hwaits_of_owed_zero _ _ _ _ L lv 3 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec3 c (Bv3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Bv3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (Bv3 m) c
    unfold Pipeline.ΦA at h
    rw [show (pdats m 3 c).Φ 0 = (dat3 (Bv3 m) c).Φ 0 from rfl]
    iintro ⟨Hp, -, Hr⟩
    iapply h
    isplitl [Hr]; · iexact Hr
    iexact Hp
  hout c := by
    rw [Pipeline.ownSems0_none]
    have h := hout3 (Bv3 m) c
    unfold Pipeline.ΦA at h
    rw [show (pdats m 3 c).Φ (Fin.last _) = (dat3 (Bv3 m) c).Φ (Fin.last cfg3.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Bv3 m c) (Bv4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (the second layer's linear projection): entered from every unscoped buffer at `B4`, left at `B5`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Bv4 m) c).loose
  hwaits := Pipeline.hwaits_of_owed_zero _ _ _ _ L lv 4 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec4 c (Bv4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Bv4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Bv4 m c) (Bv5 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 (the second layer's gather): entered from every unscoped buffer at `B5`, left at `B6`. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Bv5 m) c).loose
  hwaits := Pipeline.hwaits_of_owed_zero _ _ _ _ L lv 5 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec5 c (Bv5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Bv5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin5 (Bv5 m) c
    unfold Pipeline.ΦA at h
    rw [show (pdats m 5 c).Φ 0 = (dat5 (Bv5 m) c).Φ 0 from rfl]
    iintro ⟨Hp, -, Hr⟩
    iapply h
    isplitl [Hr]; · iexact Hr
    iexact Hp
  hout c := by
    rw [Pipeline.ownSems0_none]
    have h := hout5 (Bv5 m) c
    unfold Pipeline.ΦA at h
    rw [show (pdats m 5 c).Φ (Fin.last _) = (dat5 (Bv5 m) c).Φ (Fin.last cfg5.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Bv5 m c) (Bv6 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 (the second layer's scatter): entered from every unscoped buffer at `B6`, left at `B7`. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Bv6 m) c).loose
  hwaits := Pipeline.hwaits_of_owed_zero _ _ _ _ L lv 6 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec6 c (Bv6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Bv6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin6 (Bv6 m) c
    unfold Pipeline.ΦA at h
    rw [show (pdats m 6 c).Φ 0 = (dat6 (Bv6 m) c).Φ 0 from rfl]
    iintro ⟨Hp, -, Hr⟩
    iapply h
    isplitl [Hr]; · iexact Hr
    iexact Hp
  hout c := by
    rw [Pipeline.ownSems0_none]
    have h := hout6 (Bv6 m) c
    unfold Pipeline.ΦA at h
    rw [show (pdats m 6 c).Φ (Fin.last _) = (dat6 (Bv6 m) c).Φ (Fin.last cfg6.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Bv6 m c) (Bv7 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 (the third layer's linear projection): entered from every unscoped buffer at `B7`, left at `B8`. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Bv7 m) c).loose
  hwaits := Pipeline.hwaits_of_owed_zero _ _ _ _ L lv 7 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec7 c (Bv7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Bv7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Bv7 m c) (Bv8 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 (the third layer's gather): entered from every unscoped buffer at `B8`, left at `B9`. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Bv8 m) c).loose
  hwaits := Pipeline.hwaits_of_owed_zero _ _ _ _ L lv 8 fun _ _ => rfl
  pre c := iprop(StableHlo.held (c : Thread nD τ) (Pipeline.ucRefs τ sig) (B8 m c) ∗ R c)
  post c := iprop(StableHlo.held (c : Thread nD τ) (Pipeline.ucRefs τ sig) (B9 m c) ∗ R c)
  X c := iprop(∃ r, prngReg c r)
  Y c := iprop(∃ r, prngReg c r)
  Z c := Pipeline.unscopedRest (Ix := Unit) (Name := ℕ) (U := UR sig nD τ) (Lvl := ℕ) spec8 c (Bv8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Bv8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin8 (Bv8 m) c
    unfold Pipeline.ΦA at h
    rw [show (pdats m 8 c).Φ 0 = (dat8 (Bv8 m) c).Φ 0 from rfl]
    iintro ⟨Hp, -, Hr⟩
    iapply h
    isplitl [Hr]; · iexact Hr
    iexact Hp
  hout c := by
    rw [Pipeline.ownSems0_none]
    have h := hout8 (Bv8 m) c
    unfold Pipeline.ΦA at h
    rw [show (pdats m 8 c).Φ (Fin.last _) = (dat8 (Bv8 m) c).Φ (Fin.last cfg8.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Bv8 m c) (Bv9 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 (the third layer's scatter): entered from every unscoped buffer at `B9`, left at `B10`. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Bv9 m) c).loose
  hwaits := Pipeline.hwaits_of_owed_zero _ _ _ _ L lv 9 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec9 c (Bv9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Bv9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin9 (Bv9 m) c
    unfold Pipeline.ΦA at h
    rw [show (pdats m 9 c).Φ 0 = (dat9 (Bv9 m) c).Φ 0 from rfl]
    iintro ⟨Hp, -, Hr⟩
    iapply h
    isplitl [Hr]; · iexact Hr
    iexact Hp
  hout c := by
    rw [Pipeline.ownSems0_none]
    have h := hout9 (Bv9 m) c
    unfold Pipeline.ΦA at h
    rw [show (pdats m 9 c).Φ (Fin.last _) = (dat9 (Bv9 m) c).Φ (Fin.last cfg9.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Bv9 m c) (Bv10 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The run of the kernel program: @main as its twenty-three segments (twelve host stretches, the ten pallas_calls,
  the final slice), launched from any memory with zero counters. Every weakly fair execution terminates, nothing
  faulting, and every final memory holds every unscoped buffer at the last boundary's contents: so each
  argument as launched, and the result at the slice of what the last region leaves.
-/
import proofs.«177903_j22574348108073_1_alg».proof.Proof.KI.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last host stretch (the slice of the padded result) as a segment, from the last region's exit contents. -/
def segLast : HostSeg (Ix := Unit) (Name := ℕ) (U := UR sig nD τ) (Lvl := ℕ) (pcfgs (F := F)) defs₀ 𝒱₀ L lv :=
  HostSeg.ofOps _ _ _ _ _ (Pipeline.ucRefs τ sig) hostOps10
    (fun op h => Pipeline.sub_ucRefs op ((List.forall_iff_forall_mem.mp hostOps10_sub) op h))
    (fun op h => (List.forall_iff_forall_mem.mp hostOps10_fresh) op h) (B10 m) (E (F := F) 10)

/-- @main's items as segments, in order. -/
abbrev segsAll : List (Seg (pcfgs (F := F)) adm (pdats m) () defs₀ 𝒱₀ L lv) :=
  [.host (seg0 m 𝒱₀ L lv E), .host (seg1 m 𝒱₀ L lv E), .host (seg2 m 𝒱₀ L lv E), .host (seg3 m 𝒱₀ L lv E), .host (seg4 m 𝒱₀ L lv E),
   .host (seg5 m 𝒱₀ L lv E), .host (seg6 m 𝒱₀ L lv E), .host (seg7 m 𝒱₀ L lv E), .host (seg8 m 𝒱₀ L lv E), .host (seg9 m 𝒱₀ L lv E),
   .host (seg10 m 𝒱₀ L lv E), .host (seg11 m 𝒱₀ L lv E),
   .region (reg0 m), .region (reg1 m), .region (reg2 m), .region (reg3 m), .region (reg4 m), .region (reg5 m), .region (reg6 m),
   .region (reg7 m), .region (reg8 m), .region (reg9 m), .host (segLast m)]

/-- The last thread state without the dues: every unscoped buffer at the last boundary's contents, the generator
    register at some state. -/
abbrev Tlast (c : Dev nD) : sProp 𝕄 := iprop(StableHlo.held (c : Thread nD τ) (Pipeline.ucRefs τ sig) (B11 m c) ∗ ∃ r, prngReg c r)

/-- The last thread state regrouped: the generator register beside the buffers, the dues apart. -/
theorem last_step (c : Dev nD) :
    (iprop(StableHlo.held (c : Thread nD τ) (Pipeline.ucRefs τ sig) (B11 m c) ∗ R c) : sProp 𝕄)
      ⊢ iprop(Tlast m c ∗ ∃ W, owes (c : Thread nD τ) (0 : CellTallies nD τ sig Unit) W) := by
  iintro ⟨Hh, Hp, Ho⟩
  isplitl [Hh Hp]
  · isplitl [Hh]; · iexact Hh
    iexact Hp
  iexact Ho

set_option backward.isDefEq.respectTransparency.types false in
/-- THE RUN. From any memory with zero counters every weakly fair execution of @main on the TensorCores
    terminates, nothing faulting, and every final memory holds every unscoped buffer at `B11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B11 m c b) := by
  refine Pipeline.θ_run_regions_kit_dev (pcfgs (F := F)) adm (pdats m) () cellOf_inj emb₁ defs₀ 𝒱₀ L lv m ρ main
    (fun _ => segsAll m)
    (fun c Q => by
      rewrite [main_chain c, Seg.run_eq_chain,
        show (segsAll m).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          Prog.lift (.customCall (Pipeline.entry 0) ()), Prog.lift (.customCall (Pipeline.entry 1) ()),
          Prog.lift (.customCall (Pipeline.entry 2) ()), Prog.lift (.customCall (Pipeline.entry 3) ()),
          Prog.lift (.customCall (Pipeline.entry 4) ()), Prog.lift (.customCall (Pipeline.entry 5) ()),
          Prog.lift (.customCall (Pipeline.entry 6) ()), Prog.lift (.customCall (Pipeline.entry 7) ()),
          Prog.lift (.customCall (Pipeline.entry 8) ()), Prog.lift (.customCall (Pipeline.entry 9) ()),
          StableHlo.seq hostOps10 ] from rfl]
      exact .rfl)
    (fun c => by simp only [segsAll, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tlast m)
    (hch := fun c => ⟨.rfl, .rfl, .rfl, .rfl, .rfl, .rfl, .rfl, .rfl, .rfl, .rfl, .rfl, .rfl, .rfl, .rfl, .rfl, .rfl, .rfl, .rfl, .rfl, .rfl,
      .rfl, .rfl, .rfl, last_step m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m c b)
    (hfin := fun c s' => by
      iintro ⟨⟨Hh, -⟩, HSI⟩
      unfold StableHlo.held
      imodintro
      iapply (pointsTo_read_all (Pipeline.ucRefs τ sig) (fun b => (((c : Thread nD τ)).1, b)) (B11 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Argument 0 ends as launched: no host stretch writes it and no region's output array is it. -/
theorem B11_main_arg0 (c : Dev nD) : B11 m c (Proc.devRef .tc main_arg0) = m ((c : Thread nD τ).loc main_arg0) :=
  B11_launch m c main_arg0 (by decide) (by decide) (by decide) (by decide) (by decide) (by decide) (by decide) (by decide) (by decide) (by decide)
    (by decide) (by decide) (by decide) (by decide)
/-- Argument 1 ends as launched: no host stretch writes it and no region's output array is it. -/
theorem B11_main_arg1 (c : Dev nD) : B11 m c (Proc.devRef .tc main_arg1) = m ((c : Thread nD τ).loc main_arg1) :=
  B11_launch m c main_arg1 (by decide) (by decide) (by decide) (by decide) (by decide) (by decide) (by decide) (by decide) (by decide) (by decide)
    (by decide) (by decide) (by decide) (by decide)
/-- Argument 2 ends as launched: no host stretch writes it and no region's output array is it. -/
theorem B11_main_arg2 (c : Dev nD) : B11 m c (Proc.devRef .tc main_arg2) = m ((c : Thread nD τ).loc main_arg2) :=
  B11_launch m c main_arg2 (by decide) (by decide) (by decide) (by decide) (by decide) (by decide) (by decide) (by decide) (by decide) (by decide)
    (by decide) (by decide) (by decide) (by decide)
/-- Argument 3 ends as launched: no host stretch writes it and no region's output array is it. -/
theorem B11_main_arg3 (c : Dev nD) : B11 m c (Proc.devRef .tc main_arg3) = m ((c : Thread nD τ).loc main_arg3) :=
  B11_launch m c main_arg3 (by decide) (by decide) (by decide) (by decide) (by decide) (by decide) (by decide) (by decide) (by decide) (by decide)
    (by decide) (by decide) (by decide) (by decide)
/-- Argument 4 ends as launched: no host stretch writes it and no region's output array is it. -/
theorem B11_main_arg4 (c : Dev nD) : B11 m c (Proc.devRef .tc main_arg4) = m ((c : Thread nD τ).loc main_arg4) :=
  B11_launch m c main_arg4 (by decide) (by decide) (by decide) (by decide) (by decide) (by decide) (by decide) (by decide) (by decide) (by decide)
    (by decide) (by decide) (by decide) (by decide)
/-- Argument 5 ends as launched: no host stretch writes it and no region's output array is it. -/
theorem B11_main_arg5 (c : Dev nD) : B11 m c (Proc.devRef .tc main_arg5) = m ((c : Thread nD τ).loc main_arg5) :=
  B11_launch m c main_arg5 (by decide) (by decide) (by decide) (by decide) (by decide) (by decide) (by decide) (by decide) (by decide) (by decide)
    (by decide) (by decide) (by decide) (by decide)
/-- Argument 6 ends as launched: no host stretch writes it and no region's output array is it. -/
theorem B11_main_arg6 (c : Dev nD) : B11 m c (Proc.devRef .tc main_arg6) = m ((c : Thread nD τ).loc main_arg6) :=
  B11_launch m c main_arg6 (by decide) (by decide) (by decide) (by decide) (by decide) (by decide) (by decide) (by decide) (by decide) (by decide)
    (by decide) (by decide) (by decide) (by decide)
/-- Argument 7 ends as launched: no host stretch writes it and no region's output array is it. -/
theorem B11_main_arg7 (c : Dev nD) : B11 m c (Proc.devRef .tc main_arg7) = m ((c : Thread nD τ).loc main_arg7) :=
  B11_launch m c main_arg7 (by decide) (by decide) (by decide) (by decide) (by decide) (by decide) (by decide) (by decide) (by decide) (by decide)
    (by decide) (by decide) (by decide) (by decide)
/-- Argument 8 ends as launched: no host stretch writes it and no region's output array is it. -/
theorem B11_main_arg8 (c : Dev nD) : B11 m c (Proc.devRef .tc main_arg8) = m ((c : Thread nD τ).loc main_arg8) :=
  B11_launch m c main_arg8 (by decide) (by decide) (by decide) (by decide) (by decide) (by decide) (by decide) (by decide) (by decide) (by decide)
    (by decide) (by decide) (by decide) (by decide)
/-- Argument 9 ends as launched: no host stretch writes it and no region's output array is it. -/
theorem B11_main_arg9 (c : Dev nD) : B11 m c (Proc.devRef .tc main_arg9) = m ((c : Thread nD τ).loc main_arg9) :=
  B11_launch m c main_arg9 (by decide) (by decide) (by decide) (by decide) (by decide) (by decide) (by decide) (by decide) (by decide) (by decide)
    (by decide) (by decide) (by decide) (by decide)

/-- THE FRAME, at any float instance: every execution terminates and each argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (B11_main_arg0 m c), (h c _ (mem_uc main_arg1 (by decide))).trans (B11_main_arg1 m c),
     (h c _ (mem_uc main_arg2 (by decide))).trans (B11_main_arg2 m c), (h c _ (mem_uc main_arg3 (by decide))).trans (B11_main_arg3 m c),
     (h c _ (mem_uc main_arg4 (by decide))).trans (B11_main_arg4 m c), (h c _ (mem_uc main_arg5 (by decide))).trans (B11_main_arg5 m c),
     (h c _ (mem_uc main_arg6 (by decide))).trans (B11_main_arg6 m c), (h c _ (mem_uc main_arg7 (by decide))).trans (B11_main_arg7 m c),
     (h c _ (mem_uc main_arg8 (by decide))).trans (B11_main_arg8 m c), (h c _ (mem_uc main_arg9 (by decide))).trans (B11_main_arg9 m c)⟩)
    (run_all m ρ)

end Cert.KernelIdeal.Hand

end
-- ==== Proof.Spec.lean ====
/-
  The mathematics of the certificate, over the extended reals, as plain functions of row and column numbers:
  matrix products, the one-hot gather and scatter the kernel computes with, and one layer of the network the
  way the kernel arranges it (padded node and edge counts, one-hot sums over every padded node or edge).
  No program is imported here: both sides of the certificate are read towards these functions.
-/
import Idealize.ShloMosaic.PureOps.Ideal
import Idealize.ShloMosaic.Lib.ValueIdx
import Mathlib.Algebra.BigOperators.Fin

noncomputable section

open scoped BigOperators

namespace Cert.Spec

/-- A matrix of extended reals by row and column number. -/
abbrev Mat (m n : ℕ) := Fin m → Fin n → EReal

/-- The matrix product. -/
def mm {M K N : ℕ} (a : Mat M K) (b : Mat K N) : Mat M N := fun i j => ∑ k : Fin K, a i k * b k j

/-- A linear layer: product plus the bias along the rows. -/
def lin {M K N : ℕ} (x : Mat M K) (W : Mat K N) (b : Fin N → EReal) : Mat M N := fun i j => mm x W i j + b j

/-- One or zero. -/
def oh (p : Prop) [Decidable p] : EReal := if p then 1 else 0

/-- The gather as a one-hot sum over all `NP` node numbers: edge `e` takes the rows of `h` whose number, as a
    32-bit word, is the edge's source word. -/
def gath {E NP D : ℕ} (row : Fin E → BitVec 32) (h : Mat NP D) : Mat E D :=
  fun e d => ∑ n : Fin NP, oh (row e = BitVec.ofNat 32 n.val) * h n d

/-- The edge message: normalisation × (gathered source features + edge embedding). -/
def msgOf {E D : ℕ} (norm : Fin E → EReal) (g ea : Mat E D) : Mat E D := fun e d => norm e * (g e d + ea e d)

/-- The scatter as a one-hot sum over all `E` edges: node `n` takes the messages of the edges whose target word is
    the node's number as a 32-bit word. -/
def scat {E NP D : ℕ} (col : Fin E → BitVec 32) (msg : Mat E D) : Mat NP D :=
  fun n d => ∑ e : Fin E, oh (BitVec.ofNat 32 n.val = col e) * msg e d

/-- The residual sum, and the same under the rectifier. -/
def resid {NP D : ℕ} (agg h : Mat NP D) : Mat NP D := fun n d => agg n d + h n d
def residRelu {NP D : ℕ} (agg h : Mat NP D) : Mat NP D := fun n d => max (agg n d + h n d) 0

/-- One layer as the kernel arranges it: linear projection, gather, message, scatter, residual. -/
def layerK {E NP D : ℕ} (relu : Bool) (x : Mat NP D) (W : Mat D D) (b : Fin D → EReal) (row col : Fin E → BitVec 32)
    (norm : Fin E → EReal) (ea : Mat E D) : Mat NP D :=
  let h := lin x W b
  let agg := scat col (msgOf norm (gath row h) ea)
  if relu then residRelu agg h else resid agg h

end Cert.Spec

end
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KI.PayDense.lean ====
/-
  The two dense kernels read entry by entry over the extended reals. The edge-feature projection stores the product of
  a 4096 × 16 block of edge features with the 16 × 128 weights; the linear layer stores the product of a 2048 × 128
  block of node features with the 128 × 128 weights plus the bias along the rows. Over the extended reals the format
  changes in front of the matrix unit are the identity and a product accumulated into zero is the plain sum of
  products, so each stored entry is the textbook sum over the contracted coordinate.

  The dimension numbers contract the left factor's column axis with the right factor's row axis; for each of the two
  operands and each of its two axes one lemma says which coordinate that axis reads: the output's row, the output's
  column, or the summation position.
-/
import proofs.«177903_j22574348108073_1_alg».proof.Proof.Gen.KernelIdeal.Skeleton
import proofs.«177903_j22574348108073_1_alg».proof.Proof.Spec
import proofs.«177903_j22574348108073_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The edge-feature projection: [4096, 16] times [16, 128] -/

/-- Row axis of the left factor: not contracted, it reads the output row. -/
theorem lhs_edge_0 (i : S4096x128.Idx) (q : Cert.KernelIdeal.dot_S4096x16_S16x128_S4096x128_1_0_0_1_n_n.contr.Idx) :
    (Cert.KernelIdeal.dot_S4096x16_S16x128_S4096x128_1_0_0_1_n_n.lhsIdx i q 0).val = (i 0).val := by
  unfold DotDims.lhsIdx
  rw [dif_neg (show ¬(0 : Fin S4096x16.rank) ∈ Cert.KernelIdeal.dot_S4096x16_S16x128_S4096x128_1_0_0_1_n_n.lhsBatch by decide),
    dif_pos (show (0 : Fin S4096x16.rank) ∈ Cert.KernelIdeal.dot_S4096x16_S16x128_S4096x128_1_0_0_1_n_n.lhsNonContracting by decide)]
  rfl

/-- Column axis of the left factor: the one contracted axis, it reads the summation position. -/
theorem lhs_edge_1 (i : S4096x128.Idx) (q : Cert.KernelIdeal.dot_S4096x16_S16x128_S4096x128_1_0_0_1_n_n.contr.Idx) :
    (Cert.KernelIdeal.dot_S4096x16_S16x128_S4096x128_1_0_0_1_n_n.lhsIdx i q 1).val = (q ⟨0, by decide⟩).val :=
  Cert.KernelIdeal.dot_S4096x16_S16x128_S4096x128_1_0_0_1_n_n.lhsIdx_val_of_single rfl i q

/-- Row axis of the right factor: the one contracted axis, it reads the summation position. -/
theorem rhs_edge_0 (i : S4096x128.Idx) (q : Cert.KernelIdeal.dot_S4096x16_S16x128_S4096x128_1_0_0_1_n_n.contr.Idx) :
    (Cert.KernelIdeal.dot_S4096x16_S16x128_S4096x128_1_0_0_1_n_n.rhsIdx i q 0).val = (q ⟨0, by decide⟩).val :=
  Cert.KernelIdeal.dot_S4096x16_S16x128_S4096x128_1_0_0_1_n_n.rhsIdx_val_of_single rfl i q

/-- Column axis of the right factor: not contracted, it reads the output column. -/
theorem rhs_edge_1 (i : S4096x128.Idx) (q : Cert.KernelIdeal.dot_S4096x16_S16x128_S4096x128_1_0_0_1_n_n.contr.Idx) :
    (Cert.KernelIdeal.dot_S4096x16_S16x128_S4096x128_1_0_0_1_n_n.rhsIdx i q 1).val = (i 1).val := by
  unfold DotDims.rhsIdx
  rw [dif_neg (show ¬(1 : Fin S16x128.rank) ∈ Cert.KernelIdeal.dot_S4096x16_S16x128_S4096x128_1_0_0_1_n_n.rhsBatch by decide),
    dif_pos (show (1 : Fin S16x128.rank) ∈ Cert.KernelIdeal.dot_S4096x16_S16x128_S4096x128_1_0_0_1_n_n.rhsNonContracting by decide)]
  rfl

/-- The projection's product into a zero accumulator, read at row `r` and column `d`: the sum over the 16 edge-feature coordinates. -/
theorem edgeDot_apply {φ₁ φ₂ : FTy} (A : FVec Ideal S4096x16 φ₁) (B : FVec Ideal S16x128 φ₂) (r : Fin 4096) (d : Fin 128) :
    matmul Cert.KernelIdeal.dot_S4096x16_S16x128_S4096x128_1_0_0_1_n_n none A B (constant (F := Ideal) S4096x128 .f32 0x00000000#32) (ix2 r d)
      = ∑ k : Fin 16, A (ix2 r k) * B (ix2 k d) := by
  simp only [matmul]
  rw [Ideal.matmul_constant_zero_apply,
    ← Equiv.sum_comp (contrEquiv1 Cert.KernelIdeal.dot_S4096x16_S16x128_S4096x128_1_0_0_1_n_n 16 rfl rfl).symm]
  refine Finset.sum_congr rfl fun k _ => ?_
  have hk := contrEquiv1_symm_val Cert.KernelIdeal.dot_S4096x16_S16x128_S4096x128_1_0_0_1_n_n 16 rfl rfl k
  have el : Cert.KernelIdeal.dot_S4096x16_S16x128_S4096x128_1_0_0_1_n_n.lhsIdx (ix2 r d)
      ((contrEquiv1 Cert.KernelIdeal.dot_S4096x16_S16x128_S4096x128_1_0_0_1_n_n 16 rfl rfl).symm k) = ix2 r k :=
    funext fun a => Fin.ext (by
      match a with
      | ⟨0, _⟩ => exact lhs_edge_0 _ _
      | ⟨1, _⟩ => exact (lhs_edge_1 _ _).trans hk)
  have er : Cert.KernelIdeal.dot_S4096x16_S16x128_S4096x128_1_0_0_1_n_n.rhsIdx (ix2 r d)
      ((contrEquiv1 Cert.KernelIdeal.dot_S4096x16_S16x128_S4096x128_1_0_0_1_n_n 16 rfl rfl).symm k) = ix2 k d :=
    funext fun a => Fin.ext (by
      match a with
      | ⟨0, _⟩ => exact (rhs_edge_0 _ _).trans hk
      | ⟨1, _⟩ => exact rhs_edge_1 _ _)
  rw [el, er]

/-- The edge-feature projection's stored value at row `r`, column `d`: the product of the edge's feature row with the
    column of the weights. -/
theorem k0_pay1_apply (v0 : Vec Ideal S4096x16 .f32) (v3 : Vec Ideal S16x128 .f32) (r : Fin 4096) (d : Fin 128) :
    k0_pay1 (F := Ideal) v0 v3 (ix2 r d) = ∑ k : Fin 16, v0 (ix2 r k) * v3 (ix2 k d) := by
  unfold k0_pay1
  rw [shapeCast_self]
  refine (edgeDot_apply _ _ r d).trans ?_
  rfl

/-! ## The linear layer: [2048, 128] times [128, 128], plus the bias row -/

/-- Row axis of the left factor: not contracted, it reads the output row. -/
theorem lhs_lin_0 (i : S2048x128.Idx) (q : Cert.KernelIdeal.dot_S2048x128_S128x128_S2048x128_1_0_0_1_n_n.contr.Idx) :
    (Cert.KernelIdeal.dot_S2048x128_S128x128_S2048x128_1_0_0_1_n_n.lhsIdx i q 0).val = (i 0).val := by
  unfold DotDims.lhsIdx
  rw [dif_neg (show ¬(0 : Fin S2048x128.rank) ∈ Cert.KernelIdeal.dot_S2048x128_S128x128_S2048x128_1_0_0_1_n_n.lhsBatch by decide),
    dif_pos (show (0 : Fin S2048x128.rank) ∈ Cert.KernelIdeal.dot_S2048x128_S128x128_S2048x128_1_0_0_1_n_n.lhsNonContracting by decide)]
  rfl

/-- Column axis of the left factor: the one contracted axis, it reads the summation position. -/
theorem lhs_lin_1 (i : S2048x128.Idx) (q : Cert.KernelIdeal.dot_S2048x128_S128x128_S2048x128_1_0_0_1_n_n.contr.Idx) :
    (Cert.KernelIdeal.dot_S2048x128_S128x128_S2048x128_1_0_0_1_n_n.lhsIdx i q 1).val = (q ⟨0, by decide⟩).val :=
  Cert.KernelIdeal.dot_S2048x128_S128x128_S2048x128_1_0_0_1_n_n.lhsIdx_val_of_single rfl i q

/-- Row axis of the right factor: the one contracted axis, it reads the summation position. -/
theorem rhs_lin_0 (i : S2048x128.Idx) (q : Cert.KernelIdeal.dot_S2048x128_S128x128_S2048x128_1_0_0_1_n_n.contr.Idx) :
    (Cert.KernelIdeal.dot_S2048x128_S128x128_S2048x128_1_0_0_1_n_n.rhsIdx i q 0).val = (q ⟨0, by decide⟩).val :=
  Cert.KernelIdeal.dot_S2048x128_S128x128_S2048x128_1_0_0_1_n_n.rhsIdx_val_of_single rfl i q

/-- Column axis of the right factor: not contracted, it reads the output column. -/
theorem rhs_lin_1 (i : S2048x128.Idx) (q : Cert.KernelIdeal.dot_S2048x128_S128x128_S2048x128_1_0_0_1_n_n.contr.Idx) :
    (Cert.KernelIdeal.dot_S2048x128_S128x128_S2048x128_1_0_0_1_n_n.rhsIdx i q 1).val = (i 1).val := by
  unfold DotDims.rhsIdx
  rw [dif_neg (show ¬(1 : Fin S128x128.rank) ∈ Cert.KernelIdeal.dot_S2048x128_S128x128_S2048x128_1_0_0_1_n_n.rhsBatch by decide),
    dif_pos (show (1 : Fin S128x128.rank) ∈ Cert.KernelIdeal.dot_S2048x128_S128x128_S2048x128_1_0_0_1_n_n.rhsNonContracting by decide)]
  rfl

/-- The layer's product into a zero accumulator, read at row `r` and column `d`: the sum over the 128 input coordinates. -/
theorem linDot_apply {φ₁ φ₂ : FTy} (A : FVec Ideal S2048x128 φ₁) (B : FVec Ideal S128x128 φ₂) (r : Fin 2048) (d : Fin 128) :
    matmul Cert.KernelIdeal.dot_S2048x128_S128x128_S2048x128_1_0_0_1_n_n none A B (constant (F := Ideal) S2048x128 .f32 0x00000000#32) (ix2 r d)
      = ∑ k : Fin 128, A (ix2 r k) * B (ix2 k d) := by
  simp only [matmul]
  rw [Ideal.matmul_constant_zero_apply,
    ← Equiv.sum_comp (contrEquiv1 Cert.KernelIdeal.dot_S2048x128_S128x128_S2048x128_1_0_0_1_n_n 128 rfl rfl).symm]
  refine Finset.sum_congr rfl fun k _ => ?_
  have hk := contrEquiv1_symm_val Cert.KernelIdeal.dot_S2048x128_S128x128_S2048x128_1_0_0_1_n_n 128 rfl rfl k
  have el : Cert.KernelIdeal.dot_S2048x128_S128x128_S2048x128_1_0_0_1_n_n.lhsIdx (ix2 r d)
      ((contrEquiv1 Cert.KernelIdeal.dot_S2048x128_S128x128_S2048x128_1_0_0_1_n_n 128 rfl rfl).symm k) = ix2 r k :=
    funext fun a => Fin.ext (by
      match a with
      | ⟨0, _⟩ => exact lhs_lin_0 _ _
      | ⟨1, _⟩ => exact (lhs_lin_1 _ _).trans hk)
  have er : Cert.KernelIdeal.dot_S2048x128_S128x128_S2048x128_1_0_0_1_n_n.rhsIdx (ix2 r d)
      ((contrEquiv1 Cert.KernelIdeal.dot_S2048x128_S128x128_S2048x128_1_0_0_1_n_n 128 rfl rfl).symm k) = ix2 k d :=
    funext fun a => Fin.ext (by
      match a with
      | ⟨0, _⟩ => exact (rhs_lin_0 _ _).trans hk
      | ⟨1, _⟩ => exact rhs_lin_1 _ _)
  rw [el, er]

/-- The bias, a 128-vector seen as one row and repeated down the 2048 rows, reads at `(r, d)` its entry `d`. -/
theorem biasRow_apply {α : Type} (b : S128.Idx → α) (r : Fin 2048) (d : Fin 128) :
    broadcastTo S2048x128 (shapeCast S1x128 b shapeCasts_S128_S1x128) broadcasts_S1x128_S2048x128 (ix2 r d) = b (ix1 d) :=
  (broadcastTo_1b_ab_apply _ broadcasts_S1x128_S2048x128 r d).trans
    (shapeCast_a_1a_apply b shapeCasts_S128_S1x128 (0 : Fin 1) d)

/-- The linear layer's stored value at row `r`, column `d`: the product of the row of the input with the column of the
    weights, plus the bias of that column. -/
theorem k1_pay1_apply (v0 : Vec Ideal S2048x128 .f32) (v3 : Vec Ideal S128x128 .f32) (v6 : Vec Ideal S128 .f32)
    (r : Fin 2048) (d : Fin 128) :
    k1_pay1 (F := Ideal) v0 v3 v6 (ix2 r d) = (∑ k : Fin 128, v0 (ix2 r k) * v3 (ix2 k d)) + v6 (ix1 d) := by
  unfold k1_pay1
  rw [addf_apply, shapeCast_self]
  refine (congrArg₂ (· + ·) (linDot_apply _ _ r d) (biasRow_apply v6 r d)).trans ?_
  rfl

/-- The linear layer's stored value at row `r`, column `d`: the product of the row of the input with the column of the
    weights, plus the bias of that column. -/
theorem k4_pay1_apply (v0 : Vec Ideal S2048x128 .f32) (v3 : Vec Ideal S128x128 .f32) (v6 : Vec Ideal S128 .f32)
    (r : Fin 2048) (d : Fin 128) :
    k4_pay1 (F := Ideal) v0 v3 v6 (ix2 r d) = (∑ k : Fin 128, v0 (ix2 r k) * v3 (ix2 k d)) + v6 (ix1 d) := by
  unfold k4_pay1
  rw [addf_apply, shapeCast_self]
  refine (congrArg₂ (· + ·) (linDot_apply _ _ r d) (biasRow_apply v6 r d)).trans ?_
  rfl

/-- The linear layer's stored value at row `r`, column `d`: the product of the row of the input with the column of the
    weights, plus the bias of that column. -/
theorem k7_pay1_apply (v0 : Vec Ideal S2048x128 .f32) (v3 : Vec Ideal S128x128 .f32) (v6 : Vec Ideal S128 .f32)
    (r : Fin 2048) (d : Fin 128) :
    k7_pay1 (F := Ideal) v0 v3 v6 (ix2 r d) = (∑ k : Fin 128, v0 (ix2 r k) * v3 (ix2 k d)) + v6 (ix1 d) := by
  unfold k7_pay1
  rw [addf_apply, shapeCast_self]
  refine (congrArg₂ (· + ·) (linDot_apply _ _ r d) (biasRow_apply v6 r d)).trans ?_
  rfl

end Cert.KernelIdeal.Pay

end
-- ==== Proof.KI.Reg0.Value.lean ====
/-
  Region 0 of the kernel's program, from blocks to the array. The region projects the padded edge attributes
  through the embedding table, one tile of 4096 edges per grid point. Every point stores its whole output tile
  and the tile is written back at every point, and the tiles partition the output's rows. This module reads what
  each point writes back as the point's block of ONE function of the region's input arrays (the matrix product),
  shows that the blocks cover the output, and concludes what the output array holds after the last point, index
  by index, in the certificate's vocabulary (`Cert.Spec.mm`). Floats are extended reals throughout.
-/
import proofs.«177903_j22574348108073_1_alg».proof.Proof.KI.Reg0.Data
import proofs.«177903_j22574348108073_1_alg».proof.Proof.KI.PayDense
import proofs.«177903_j22574348108073_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

/-! ## Region 0: the edge-feature projection

Each of the 196 grid points multiplies its tile of 4096 rows of the padded edge attributes by the whole
embedding table and writes the 4096 × 128 product back as rows `4096·t … 4096·t + 4095` of the output. The
tiles partition the 802816 rows, so after the last point the output array is the matrix product of the two
input arrays, row by row. -/

/-- The padded edge attributes as the region finds them (802816 × 16). -/
abbrev attrArr0 (c : Dev nD) : Vec Ideal S802816x16 .f32 := V c (Pipeline.arrRef spec0 0)

/-- The embedding table as the region finds it (16 × 128). -/
abbrev embArr0 (c : Dev nD) : Vec Ideal S16x128 .f32 := V c (Pipeline.arrRef spec0 1)

/-- The matrix product of an 802816 × 16 array and a 16 × 128 array, as an array: entry `(e, d)` is the
    sum over the 16 attribute columns. -/
def edgeProd0 (A : Vec Ideal S802816x16 .f32) (E : Vec Ideal S16x128 .f32) : Vec Ideal S802816x128 .f32 :=
  fun i => ∑ k : Fin 16, A (ix2 (i 0) k) * E (ix2 k (i 1))

/-- The product tile at any index of the tile: the sum over the 16 attribute columns. -/
theorem edgeTile0_apply (x0 : Vec Ideal S4096x16 .f32) (x1 : Vec Ideal S16x128 .f32) (j : S4096x128.Idx) :
    k0_pay1 (F := Ideal) x0 x1 j = ∑ k : Fin 16, x0 (ix2 (j 0) k) * x1 (ix2 k (j 1)) :=
  (congrArg (k0_pay1 (F := Ideal) x0 x1) (eq_ix2 j)).trans (Pay.k0_pay1_apply x0 x1 (j 0) (j 1))

/-- The block indices over the grid: the attribute tile and the output tile of point `t` are both the
    `t`-th along the rows and the only one along the columns; the table's one block never moves. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s attribute tile, entry `(r, k)`, is entry `(4096·t + r, k)` of the attribute array. -/
theorem attrTile0_apply (c : Dev nD) (t : Fin cfg0.N) (r : Fin 4096) (k : Fin 16) (i : S802816x16.Idx)
    (h0 : (i 0).val = t.val * 4096 + r.val) (h1 : (i 1).val = k.val) :
    (iblk0 (F := Ideal) V c 0 t : Vec Ideal S4096x16 .f32) (ix2 r k) = attrArr0 V c i := by
  obtain ⟨e0, e1, -, -, -, -⟩ := blockIdx0 t
  unfold iblk0
  rw [View.read_apply]
  show V c (Pipeline.arrRef spec0 0) (((cfg0.win 0).blk t).view.emb (ix2 r k)) = V c (Pipeline.arrRef spec0 0) i
  congr 1
  funext a
  apply Fin.ext
  match a with
  | ⟨0, _⟩ => show win0_0.index t (0 : Fin 2) * 4096 + 1 * r.val = (i 0).val; omega
  | ⟨1, _⟩ => show win0_0.index t (1 : Fin 2) * 16 + 1 * k.val = (i 1).val; omega

/-- Every point's table block is the whole embedding table. -/
theorem embTile0_apply (c : Dev nD) (t : Fin cfg0.N) (k : Fin 16) (d : Fin 128) :
    (iblk0 (F := Ideal) V c 1 t : Vec Ideal S16x128 .f32) (ix2 k d) = embArr0 V c (ix2 k d) := by
  obtain ⟨-, -, e2, e3, -, -⟩ := blockIdx0 t
  unfold iblk0
  rw [View.read_apply]
  show V c (Pipeline.arrRef spec0 1) (((cfg0.win 1).blk t).view.emb (ix2 k d)) = V c (Pipeline.arrRef spec0 1) (ix2 k d)
  congr 1
  funext a
  apply Fin.ext
  match a with
  | ⟨0, _⟩ => show win0_1.index t (0 : Fin 2) * 16 + 1 * k.val = k.val; omega
  | ⟨1, _⟩ => show win0_1.index t (1 : Fin 2) * 128 + 1 * d.val = d.val; omega

/-- WHAT POINT `t` WRITES BACK is its block of the product of the two arrays. -/
theorem flushed0_eq (c : Dev nD) (t : Fin cfg0.N) :
    (dat0 (F := Ideal) V c).flushed 2 t
      = ((cfg0.win 2).blk t).view.read (Elt Ideal) (edgeProd0 (attrArr0 V c) (embArr0 V c)) := by
  show (cfg0.win 2).cut (grid0.coords t) ((dat0 (F := Ideal) V c).after 2 t) = _
  rw [after0_2]
  unfold out0_2
  obtain ⟨-, -, -, -, e4, e5⟩ := blockIdx0 t
  funext j
  rw [View.read_apply]
  show k0_pay1 (F := Ideal) (iblk0 V c 0 t) (iblk0 V c 1 t) j
      = edgeProd0 (attrArr0 V c) (embArr0 V c) (((cfg0.win 2).blk t).view.emb j)
  rw [edgeTile0_apply]
  unfold edgeProd0
  refine Finset.sum_congr rfl fun k _ => ?_
  have hr : ((((cfg0.win 2).blk t).view.emb j) 0).val = t.val * 4096 + (j 0).val := by
    show win0_2.index t (0 : Fin 2) * 4096 + 1 * (j 0).val = _; omega
  have hd : ((((cfg0.win 2).blk t).view.emb j) 1) = j 1 := by
    apply Fin.ext
    show win0_2.index t (1 : Fin 2) * 128 + 1 * (j 1).val = _; omega
  rw [attrTile0_apply V c t (j 0) k (ix2 ((((cfg0.win 2).blk t).view.emb j) 0) k) hr rfl,
    embTile0_apply V c t k (j 1), hd]

/-- An index of the output array is in point `t`'s block iff each coordinate is in the block's range. -/
theorem mem_blk0 (t : Fin cfg0.N) (i : S802816x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v33).slice (win0_2.rect t)).set ↔ _
  rw [View.set_slice_whole, Rect.mem_set_unit]
  exact Iff.rfl

/-- The 196 row tiles cover the output: row `e` is in the block of point `e / 4096`. -/
theorem cover0 (i : S802816x128.Idx) :
    ∃ t : Fin cfg0.N, (cfg0.win 2).flush t = true ∧ i ∈ ((cfg0.win 2).blk t).view.set := by
  have hi0 : (i 0).val < 802816 := (i 0).isLt
  have hi1 : (i 1).val < 128 := (i 1).isLt
  have hN : cfg0.N = 196 := N_0
  let t : Fin cfg0.N := ⟨(i 0).val / 4096, by rw [hN]; omega⟩
  obtain ⟨-, -, -, -, e4, e5⟩ := blockIdx0 t
  have ht : t.val = (i 0).val / 4096 := rfl
  refine ⟨t, flush0_2 t, ?_⟩
  rw [mem_blk0]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

/-- THE OUTPUT ARRAY after the last point is the product of the two input arrays. -/
theorem arr0_eq (c : Dev nD) :
    (dat0 (F := Ideal) V c).arrAt 2 cfg0.N = edgeProd0 (attrArr0 V c) (embArr0 V c) :=
  (dat0 (F := Ideal) V c).arrAt_eq_of_cover 2 (edgeProd0 (attrArr0 V c) (embArr0 V c))
    (fun t _ => flushed0_eq V c t) cover0

/-- Entry `(e, d)` of region 0's output array after the last point: the matrix product of the padded edge
    attributes and the embedding table. -/
theorem final0 (c : Dev nD) (e : Fin 802816) (d : Fin 128) :
    (dat0 (F := Ideal) V c).arrAt 2 cfg0.N (ix2 e d)
      = Cert.Spec.mm (fun e k => attrArr0 V c (ix2 e k)) (fun k d => embArr0 V c (ix2 k d)) e d := by
  rw [arr0_eq]
  rfl

end Cert.KernelIdeal.Hand

end
-- ==== Proof.KI.Reg1.Value.lean ====
/-
  Region 1 of the kernel's program, from blocks to the array. The region is the linear layer of the padded node
  features, one tile of 2048 nodes per grid point. Every point stores its whole output tile and the tile is
  written back at every point, and the tiles partition the output's rows. This module reads what each point
  writes back as the point's block of ONE function of the region's input arrays (product plus bias), shows that
  the blocks cover the output, and concludes what the output array holds after the last point, index by index,
  in the certificate's vocabulary (`Cert.Spec.lin`). Floats are extended reals throughout.
-/
import proofs.«177903_j22574348108073_1_alg».proof.Proof.KI.Reg1.Data
import proofs.«177903_j22574348108073_1_alg».proof.Proof.KI.PayDense
import proofs.«177903_j22574348108073_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

/-! ## Region 1: the linear projection of the node features

Each of the 25 grid points multiplies its tile of 2048 rows of the padded node features by the whole weight
matrix, adds the bias along the rows, and writes the 2048 × 128 result back as rows `2048·t … 2048·t + 2047`
of the output. The tiles partition the 51200 rows, so after the last point the output array is the linear
layer of the three input arrays, row by row. -/

/-- The padded node features as the region finds them (51200 × 128). -/
abbrev featArr1 (c : Dev nD) : Vec Ideal S51200x128 .f32 := V c (Pipeline.arrRef spec1 0)

/-- The weight matrix as the region finds it (128 × 128). -/
abbrev wgtArr1 (c : Dev nD) : Vec Ideal S128x128 .f32 := V c (Pipeline.arrRef spec1 1)

/-- The bias as the region finds it (128). -/
abbrev biasArr1 (c : Dev nD) : Vec Ideal S128 .f32 := V c (Pipeline.arrRef spec1 2)

/-- Product plus bias of a 51200 × 128 array, a 128 × 128 array and a 128-vector, as an array: entry
    `(n, d)` is the sum over the 128 feature columns plus the bias at `d`. -/
def nodeLin1 (X : Vec Ideal S51200x128 .f32) (W : Vec Ideal S128x128 .f32) (B : Vec Ideal S128 .f32) :
    Vec Ideal S51200x128 .f32 :=
  fun i => (∑ k : Fin 128, X (ix2 (i 0) k) * W (ix2 k (i 1))) + B (ix1 (i 1))

/-- The product-plus-bias tile at any index of the tile. -/
theorem nodeTile1_apply (x0 : Vec Ideal S2048x128 .f32) (x1 : Vec Ideal S128x128 .f32) (x2 : Vec Ideal S128 .f32)
    (j : S2048x128.Idx) :
    k1_pay1 (F := Ideal) x0 x1 x2 j = (∑ k : Fin 128, x0 (ix2 (j 0) k) * x1 (ix2 k (j 1))) + x2 (ix1 (j 1)) :=
  (congrArg (k1_pay1 (F := Ideal) x0 x1 x2) (eq_ix2 j)).trans (Pay.k1_pay1_apply x0 x1 x2 (j 0) (j 1))

/-- The block indices over the grid: the feature tile and the output tile of point `t` are both the
    `t`-th along the rows and the only one along the columns; the weights' and the bias's one block never
    moves. -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Point `t`'s feature tile, entry `(r, k)`, is entry `(2048·t + r, k)` of the feature array. -/
theorem featTile1_apply (c : Dev nD) (t : Fin cfg1.N) (r : Fin 2048) (k : Fin 128) (i : S51200x128.Idx)
    (h0 : (i 0).val = t.val * 2048 + r.val) (h1 : (i 1).val = k.val) :
    (iblk1 (F := Ideal) V c 0 t : Vec Ideal S2048x128 .f32) (ix2 r k) = featArr1 V c i := by
  obtain ⟨e0, e1, -, -, -, -, -⟩ := blockIdx1 t
  unfold iblk1
  rw [View.read_apply]
  show V c (Pipeline.arrRef spec1 0) (((cfg1.win 0).blk t).view.emb (ix2 r k)) = V c (Pipeline.arrRef spec1 0) i
  congr 1
  funext a
  apply Fin.ext
  match a with
  | ⟨0, _⟩ => show win1_0.index t (0 : Fin 2) * 2048 + 1 * r.val = (i 0).val; omega
  | ⟨1, _⟩ => show win1_0.index t (1 : Fin 2) * 128 + 1 * k.val = (i 1).val; omega

/-- Every point's weight block is the whole weight matrix. -/
theorem wgtTile1_apply (c : Dev nD) (t : Fin cfg1.N) (k : Fin 128) (d : Fin 128) :
    (iblk1 (F := Ideal) V c 1 t : Vec Ideal S128x128 .f32) (ix2 k d) = wgtArr1 V c (ix2 k d) := by
  obtain ⟨-, -, e2, e3, -, -, -⟩ := blockIdx1 t
  unfold iblk1
  rw [View.read_apply]
  show V c (Pipeline.arrRef spec1 1) (((cfg1.win 1).blk t).view.emb (ix2 k d)) = V c (Pipeline.arrRef spec1 1) (ix2 k d)
  congr 1
  funext a
  apply Fin.ext
  match a with
  | ⟨0, _⟩ => show win1_1.index t (0 : Fin 2) * 128 + 1 * k.val = k.val; omega
  | ⟨1, _⟩ => show win1_1.index t (1 : Fin 2) * 128 + 1 * d.val = d.val; omega

/-- Every point's bias block is the whole bias. -/
theorem biasTile1_apply (c : Dev nD) (t : Fin cfg1.N) (d : Fin 128) :
    (iblk1 (F := Ideal) V c 2 t : Vec Ideal S128 .f32) (ix1 d) = biasArr1 V c (ix1 d) := by
  obtain ⟨-, -, -, -, e4, -, -⟩ := blockIdx1 t
  unfold iblk1
  rw [View.read_apply]
  show V c (Pipeline.arrRef spec1 2) (((cfg1.win 2).blk t).view.emb (ix1 d)) = V c (Pipeline.arrRef spec1 2) (ix1 d)
  congr 1
  funext a
  apply Fin.ext
  match a with
  | ⟨0, _⟩ => show win1_2.index t (0 : Fin 1) * 128 + 1 * d.val = d.val; omega

/-- WHAT POINT `t` WRITES BACK is its block of product-plus-bias of the three arrays. -/
theorem flushed1_eq (c : Dev nD) (t : Fin cfg1.N) :
    (dat1 (F := Ideal) V c).flushed 3 t
      = ((cfg1.win 3).blk t).view.read (Elt Ideal) (nodeLin1 (featArr1 V c) (wgtArr1 V c) (biasArr1 V c)) := by
  show (cfg1.win 3).cut (grid1.coords t) ((dat1 (F := Ideal) V c).after 3 t) = _
  rw [after1_3]
  unfold out1_3
  obtain ⟨-, -, -, -, -, e5, e6⟩ := blockIdx1 t
  funext j
  rw [View.read_apply]
  show k1_pay1 (F := Ideal) (iblk1 V c 0 t) (iblk1 V c 1 t) (iblk1 V c 2 t) j
      = nodeLin1 (featArr1 V c) (wgtArr1 V c) (biasArr1 V c) (((cfg1.win 3).blk t).view.emb j)
  rw [nodeTile1_apply]
  unfold nodeLin1
  have hr : ((((cfg1.win 3).blk t).view.emb j) 0).val = t.val * 2048 + (j 0).val := by
    show win1_3.index t (0 : Fin 2) * 2048 + 1 * (j 0).val = _; omega
  have hd : ((((cfg1.win 3).blk t).view.emb j) 1) = j 1 := by
    apply Fin.ext
    show win1_3.index t (1 : Fin 2) * 128 + 1 * (j 1).val = _; omega
  rw [biasTile1_apply V c t (j 1), hd]
  refine congrArg (· + biasArr1 V c (ix1 (j 1))) (Finset.sum_congr rfl fun k _ => ?_)
  rw [featTile1_apply V c t (j 0) k (ix2 ((((cfg1.win 3).blk t).view.emb j) 0) k) hr rfl,
    wgtTile1_apply V c t k (j 1)]

/-- An index of the output array is in point `t`'s block iff each coordinate is in the block's range. -/
theorem mem_blk1 (t : Fin cfg1.N) (i : S51200x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v34).slice (win1_3.rect t)).set ↔ _
  rw [View.set_slice_whole, Rect.mem_set_unit]
  exact Iff.rfl

/-- The 25 row tiles cover the output: row `n` is in the block of point `n / 2048`. -/
theorem cover1 (i : S51200x128.Idx) :
    ∃ t : Fin cfg1.N, (cfg1.win 3).flush t = true ∧ i ∈ ((cfg1.win 3).blk t).view.set := by
  have hi0 : (i 0).val < 51200 := (i 0).isLt
  have hi1 : (i 1).val < 128 := (i 1).isLt
  have hN : cfg1.N = 25 := N_1
  let t : Fin cfg1.N := ⟨(i 0).val / 2048, by rw [hN]; omega⟩
  obtain ⟨-, -, -, -, -, e5, e6⟩ := blockIdx1 t
  have ht : t.val = (i 0).val / 2048 := rfl
  refine ⟨t, flush1_3 t, ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 128 ≤ (i 1).val ∧ (i 1).val < win1_3.index t (1 : Fin 2) * 128 + 128; omega

/-- THE OUTPUT ARRAY after the last point is product-plus-bias of the three input arrays. -/
theorem arr1_eq (c : Dev nD) :
    (dat1 (F := Ideal) V c).arrAt 3 cfg1.N = nodeLin1 (featArr1 V c) (wgtArr1 V c) (biasArr1 V c) :=
  (dat1 (F := Ideal) V c).arrAt_eq_of_cover 3 (nodeLin1 (featArr1 V c) (wgtArr1 V c) (biasArr1 V c))
    (fun t _ => flushed1_eq V c t) cover1

/-- Entry `(n, d)` of region 1's output array after the last point: the linear layer of the padded node
    features, the weights and the bias. -/
theorem final1 (c : Dev nD) (n : Fin 51200) (d : Fin 128) :
    (dat1 (F := Ideal) V c).arrAt 3 cfg1.N (ix2 n d)
      = Cert.Spec.lin (fun n k => featArr1 V c (ix2 n k)) (fun k d => wgtArr1 V c (ix2 k d)) (fun d => biasArr1 V c (ix1 d)) n d := by
  rw [arr1_eq]
  rfl

end Cert.KernelIdeal.Hand

end
-- ==== Proof.LibTileSum.lean ====
/-
  Sums accumulated tile by tile.

  A range of `T * B` positions is cut into `T` tiles of `B` consecutive positions, tile `t` holding the positions
  `t * B + r`, `r < B`. In a commutative additive monoid this file proves:

  * `acc_eq_sum`, `acc_eq_add_sum` (and the forms bounded by a number of steps): an accumulator that starts from the
    first term (or from a start value plus the first term) and adds one term per step holds the sum of the terms so far;
  * `sum_tiles`, `sum_tiles_prefix`, `sum_tiles_fin'`, `sum_tiles_fin`, `sum_tiles_50_200`: summing tile by tile
    is summing over all positions, over ℕ and over `Fin`;
  * `tile_iff`, `sum_tile_indicator` and its `Fin` forms: a position `j < T * B` lies in exactly one tile, the tile
    `j / B`, so a value added in the tile that holds `j` is added once;
  * `sum_tiles_add_indicator` and its `Fin` forms: the two together.

  Only Mathlib is used.
-/
import Mathlib.Algebra.BigOperators.Group.Finset.Basic
import Mathlib.Algebra.BigOperators.Group.Finset.Piecewise
import Mathlib.Algebra.BigOperators.Fin

namespace Cert.TileSum

open Finset

variable {M : Type*} [AddCommMonoid M]

/-! ### The recursion solved -/

/-- An accumulator that starts at the first term and adds the next term at every step, for the steps below `T`,
holds the sum of the terms so far. -/
theorem acc_eq_sum_of_lt (T : ℕ) (acc term : ℕ → M) (h0 : acc 0 = term 0)
    (hs : ∀ t, t + 1 < T → acc (t + 1) = acc t + term (t + 1)) (t : ℕ) (ht : t < T) :
    acc t = ∑ s ∈ Finset.range (t + 1), term s := by
  induction t with
  | zero => rw [h0, Finset.sum_range_one]
  | succ t ih => rw [hs t ht, ih (Nat.lt_of_succ_lt ht), Finset.sum_range_succ _ (t + 1)]

/-- The same without a bound on the steps. -/
theorem acc_eq_sum (acc term : ℕ → M) (h0 : acc 0 = term 0)
    (hs : ∀ t, acc (t + 1) = acc t + term (t + 1)) (t : ℕ) :
    acc t = ∑ s ∈ Finset.range (t + 1), term s :=
  acc_eq_sum_of_lt (t + 1) acc term h0 (fun t _ => hs t) t (Nat.lt_succ_self t)

/-- The accumulator started from a value `z`: it holds `z` plus the sum of the terms so far. -/
theorem acc_eq_add_sum_of_lt (T : ℕ) (z : M) (acc term : ℕ → M) (h0 : acc 0 = z + term 0)
    (hs : ∀ t, t + 1 < T → acc (t + 1) = acc t + term (t + 1)) (t : ℕ) (ht : t < T) :
    acc t = z + ∑ s ∈ Finset.range (t + 1), term s := by
  induction t with
  | zero => rw [h0, Finset.sum_range_one]
  | succ t ih =>
    rw [hs t ht, ih (Nat.lt_of_succ_lt ht), Finset.sum_range_succ _ (t + 1), add_assoc]

/-- The same without a bound on the steps. -/
theorem acc_eq_add_sum (z : M) (acc term : ℕ → M) (h0 : acc 0 = z + term 0)
    (hs : ∀ t, acc (t + 1) = acc t + term (t + 1)) (t : ℕ) :
    acc t = z + ∑ s ∈ Finset.range (t + 1), term s :=
  acc_eq_add_sum_of_lt (t + 1) z acc term h0 (fun t _ => hs t) t (Nat.lt_succ_self t)

/-! ### Tiles make the whole -/

/-- Position `r` of tile `t` lies under `T * B`. -/
theorem mulAdd_lt {T B : ℕ} (t : Fin T) (r : Fin B) : t.val * B + r.val < T * B :=
  calc t.val * B + r.val < t.val * B + B := Nat.add_lt_add_left r.2 _
    _ = (t.val + 1) * B := (Nat.add_one_mul _ _).symm
    _ ≤ T * B := Nat.mul_le_mul_right B (Nat.succ_le_of_lt t.2)

/-- Summing tile by tile is summing over all `T * B` positions. -/
theorem sum_tiles (T B : ℕ) (g : ℕ → M) :
    ∑ t ∈ Finset.range T, ∑ r ∈ Finset.range B, g (t * B + r) = ∑ i ∈ Finset.range (T * B), g i := by
  induction T with
  | zero => simp
  | succ T ih => rw [Finset.sum_range_succ, ih, Nat.add_one_mul, Finset.sum_range_add]

/-- The first `n + 1` tiles make the first `(n + 1) * B` positions. -/
theorem sum_tiles_prefix (n B : ℕ) (g : ℕ → M) :
    ∑ t ∈ Finset.range (n + 1), ∑ r ∈ Finset.range B, g (t * B + r)
      = ∑ i ∈ Finset.range ((n + 1) * B), g i :=
  sum_tiles (n + 1) B g

/-- Tiles over `Fin`, the position of row `r` of tile `t` given by any `idx t r` whose value is `t * B + r`. -/
theorem sum_tiles_fin' (T B N : ℕ) (hN : N = T * B) (f : Fin N → M) (idx : Fin T → Fin B → Fin N)
    (hidx : ∀ t r, (idx t r).val = t.val * B + r.val) :
    ∑ t : Fin T, ∑ r : Fin B, f (idx t r) = ∑ i : Fin N, f i := by
  subst hN
  -- extend f to all of ℕ, by zero beyond T * B
  obtain ⟨g, hg⟩ : ∃ g : ℕ → M, ∀ i : Fin (T * B), g i.val = f i :=
    ⟨fun k => if h : k < T * B then f ⟨k, h⟩ else 0, fun i => dif_pos i.2⟩
  calc ∑ t : Fin T, ∑ r : Fin B, f (idx t r)
      = ∑ t : Fin T, ∑ r : Fin B, g (t.val * B + r.val) := by
        refine Finset.sum_congr rfl fun t _ => Finset.sum_congr rfl fun r _ => ?_
        rw [← hidx t r, hg]
    _ = ∑ t ∈ Finset.range T, ∑ r ∈ Finset.range B, g (t * B + r) := by
        rw [Finset.sum_range]
        refine Finset.sum_congr rfl fun t _ => ?_
        rw [Finset.sum_range]
    _ = ∑ i ∈ Finset.range (T * B), g i := sum_tiles T B g
    _ = ∑ i : Fin (T * B), f i := by
        rw [Finset.sum_range]
        exact Finset.sum_congr rfl fun i _ => hg i

/-- Tiles over `Fin`, the position built as `t * B + r`. -/
theorem sum_tiles_fin (T B : ℕ) (f : Fin (T * B) → M) :
    ∑ t : Fin T, ∑ r : Fin B, f ⟨t.val * B + r.val, mulAdd_lt t r⟩ = ∑ i : Fin (T * B), f i :=
  sum_tiles_fin' T B (T * B) rfl f (fun t r => ⟨t.val * B + r.val, mulAdd_lt t r⟩) (fun _ _ => rfl)

/-- Fifty tiles of two hundred rows make ten thousand rows, the position written `200 * t + r`. -/
theorem sum_tiles_50_200 (f : Fin 10000 → M) :
    ∑ t : Fin 50, ∑ r : Fin 200, f ⟨200 * t.val + r.val, by omega⟩ = ∑ i : Fin 10000, f i :=
  sum_tiles_fin' 50 200 10000 rfl f (fun t r => ⟨200 * t.val + r.val, by omega⟩)
    (fun t r => congrArg (· + r.val) (Nat.mul_comm 200 t.val))

/-! ### A position lies in exactly one tile -/

/-- Position `j` lies in tile `t` exactly when `t` is `j / B`. -/
theorem tile_iff {B : ℕ} (hB : 0 < B) (t j : ℕ) : (t * B ≤ j ∧ j < t * B + B) ↔ t = j / B := by
  rw [← Nat.le_div_iff_mul_le hB, ← Nat.add_one_mul, ← Nat.div_lt_iff_lt_mul hB]
  omega

/-- A value added in the tile that holds `j` is added exactly once. -/
theorem sum_tile_indicator (T B : ℕ) (u : M) (j : ℕ) (hj : j < T * B) :
    ∑ t ∈ Finset.range T, (if t * B ≤ j ∧ j < t * B + B then u else 0) = u := by
  have hB : 0 < B := Nat.pos_of_ne_zero fun h => by subst h; simp at hj
  have hmem : j / B ∈ Finset.range T := Finset.mem_range.2 ((Nat.div_lt_iff_lt_mul hB).2 hj)
  -- only the tile j / B contributes
  refine (Finset.sum_eq_single_of_mem (j / B) hmem ?_).trans ?_
  · intro t _ hne
    exact if_neg fun h => hne ((tile_iff hB t j).1 h)
  · exact if_pos ((tile_iff hB (j / B) j).2 rfl)

/-- The same with the tiles indexed by `Fin T`. -/
theorem sum_tile_indicator_fin (T B : ℕ) (u : M) (j : ℕ) (hj : j < T * B) :
    ∑ t : Fin T, (if t.val * B ≤ j ∧ j < t.val * B + B then u else 0) = u :=
  (Finset.sum_range fun t => if t * B ≤ j ∧ j < t * B + B then u else 0).symm.trans
    (sum_tile_indicator T B u j hj)

/-- Fifty tiles of two hundred rows: row `j` of ten thousand lies in exactly one tile. -/
theorem sum_tile_indicator_50_200 (u : M) (j : Fin 10000) :
    ∑ t : Fin 50, (if 200 * t.val ≤ j.val ∧ j.val < 200 * t.val + 200 then u else 0) = u := by
  have h := sum_tile_indicator_fin 50 200 u j.val (by have := j.isLt; omega)
  refine Eq.trans (Finset.sum_congr rfl fun t _ => ?_) h
  exact if_congr (by omega) rfl rfl

/-- In the tiling by two hundred, row `j` lies in tile `t` exactly when `t = j / 200`. -/
theorem tile_iff_200 (t j : ℕ) : (200 * t ≤ j ∧ j < 200 * t + 200) ↔ t = j / 200 := by
  omega

/-! ### The two together -/

/-- Tile sums plus a value added in the tile that holds `j`: the whole sum plus that value. -/
theorem sum_tiles_add_indicator (T B : ℕ) (g : ℕ → M) (u : M) (j : ℕ) (hj : j < T * B) :
    ∑ t ∈ Finset.range T, ((∑ r ∈ Finset.range B, g (t * B + r)) + (if t * B ≤ j ∧ j < t * B + B then u else 0))
      = (∑ i ∈ Finset.range (T * B), g i) + u := by
  rw [Finset.sum_add_distrib, sum_tiles, sum_tile_indicator T B u j hj]

/-- The same over `Fin`, the position of row `r` of tile `t` given by any `idx t r` whose value is `t * B + r`. -/
theorem sum_tiles_add_indicator_fin' (T B N : ℕ) (hN : N = T * B) (w : Fin N → M) (idx : Fin T → Fin B → Fin N)
    (hidx : ∀ t r, (idx t r).val = t.val * B + r.val) (u : M) (j : ℕ) (hj : j < N) :
    ∑ t : Fin T, ((∑ r : Fin B, w (idx t r)) + (if t.val * B ≤ j ∧ j < t.val * B + B then u else 0))
      = (∑ i : Fin N, w i) + u := by
  rw [Finset.sum_add_distrib, sum_tiles_fin' T B N hN w idx hidx, sum_tile_indicator_fin T B u j (hN ▸ hj)]

/-- Fifty tiles of two hundred rows, with the value at row `j` added in the tile that holds `j`. -/
theorem sum_tiles_add_self_50_200 (w v : Fin 10000 → M) (j : Fin 10000) :
    ∑ t : Fin 50, ((∑ r : Fin 200, w ⟨200 * t.val + r.val, by omega⟩)
        + (if 200 * t.val ≤ j.val ∧ j.val < 200 * t.val + 200 then v j else 0))
      = (∑ i : Fin 10000, w i) + v j := by
  rw [Finset.sum_add_distrib, sum_tiles_50_200 w, sum_tile_indicator_50_200 (v j) j]

end Cert.TileSum
-- ==== Proof.KI.PayGather.lean ====
/-
  The gather kernels' computed values read at one row and one column, over the extended reals.

  Each gather region computes three things. It clears its accumulator to zero. It adds to the accumulator the product
  of a one-hot matrix with a block of node features: row `r` of the one-hot matrix has a one in column `n'` exactly
  when edge `r`'s source word is the 32-bit word of the node number `2048 · c + n'`, where `c` is the block's number
  along the second grid axis; so entry `(r, d)` of the product is the sum over `n'` of that one-or-zero times the
  block's entry `(n', d)`. And it forms the message, the edge's normalisation times the sum of the gathered features
  and the edge embedding. At the exact values a format change is the identity and the product into a zero accumulator
  is the plain sum of products, so each of the three is a closed expression in the coordinates.
-/
import proofs.«177903_j22574348108073_1_alg».proof.Proof.Gen.KernelIdeal.Skeleton
import proofs.«177903_j22574348108073_1_alg».proof.Proof.Spec
import proofs.«177903_j22574348108073_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Words and the one-hot entry -/

/-- The node number of column `n` of block `c`, as a 32-bit word: the word of `c` times the word 2048 plus the word
    of `n` is the word of `c · 2048 + n`, because taking a natural number to its word respects sums and products. -/
theorem nodeWord_eq (c n : ℕ) :
    BitVec.ofNat 32 c * 2048#32 + BitVec.ofNat 32 n = BitVec.ofNat 32 (c * 2048 + n) := by
  apply BitVec.eq_of_toNat_eq
  simp only [BitVec.toNat_add, BitVec.toNat_mul, BitVec.toNat_ofNat]
  omega

/-- A 1-bit equality test of two words, widened to 32 bits and converted to a float, is one when the words are equal
    and zero otherwise. -/
theorem oneHot_entry (x y : BitVec 32) :
    FloatOps.sitofp (F := Ideal) .f32 ((IntOp.cmpi .eq x y).setWidth 32) = Cert.Spec.oh (x = y) := by
  show (((((IntOp.cmpi .eq x y).setWidth 32).toInt : ℝ)) : EReal) = _
  unfold Cert.Spec.oh IntOp.cmpi
  by_cases h : x = y
  · subst h
    rw [if_pos rfl]
    simp
  · rw [if_neg h]
    have : (x == y) = false := by simpa using h
    simp [this]

/-- The one-hot matrix at an index: where the two compared word matrices read `x` and `y`, the converted and
    narrowed test reads one-or-zero for `x = y` (the narrowing is the identity at the exact values). -/
theorem oneHot_apply (X Y : IVec S4096x2048 32) (h : 1 < 32) (hb : FTy.bits .bf16 < FTy.bits .f32)
    (j : S4096x2048.Idx) (x y : BitVec 32) (hx : X j = x) (hy : Y j = y) :
    (truncf .bf16 (sitofp (F := Ideal) .f32 (extui 32 (cmpi .eq X Y) h)) hb) j = Cert.Spec.oh (x = y) := by
  subst hx hy
  exact oneHot_entry _ _

/-! ## The product of the one-hot matrix with a block of node features (gatherDot) -/

/-- The left operand of the gather's product is read, on its first axis, at the result's row. -/
theorem gatherDot_lhs_0 (j : S4096x128.Idx) (k : dot_S4096x2048_S2048x128_S4096x128_1_0_0_1_n_n.contr.Idx) :
    (dot_S4096x2048_S2048x128_S4096x128_1_0_0_1_n_n.lhsIdx j k 0).val = (j 0).val := by
  simp [DotDims.lhsIdx, dot_S4096x2048_S2048x128_S4096x128_1_0_0_1_n_n]
  rfl

/-- The left operand is read, on its second axis, at the contracted coordinate. -/
theorem gatherDot_lhs_1 (j : S4096x128.Idx) (k : dot_S4096x2048_S2048x128_S4096x128_1_0_0_1_n_n.contr.Idx) :
    (dot_S4096x2048_S2048x128_S4096x128_1_0_0_1_n_n.lhsIdx j k 1).val = (k ⟨0, Nat.one_pos⟩).val :=
  DotDims.lhsIdx_val_of_single dot_S4096x2048_S2048x128_S4096x128_1_0_0_1_n_n rfl j k

/-- The right operand is read, on its first axis, at the contracted coordinate. -/
theorem gatherDot_rhs_0 (j : S4096x128.Idx) (k : dot_S4096x2048_S2048x128_S4096x128_1_0_0_1_n_n.contr.Idx) :
    (dot_S4096x2048_S2048x128_S4096x128_1_0_0_1_n_n.rhsIdx j k 0).val = (k ⟨0, Nat.one_pos⟩).val :=
  DotDims.rhsIdx_val_of_single dot_S4096x2048_S2048x128_S4096x128_1_0_0_1_n_n rfl j k

/-- The right operand is read, on its second axis, at the result's column. -/
theorem gatherDot_rhs_1 (j : S4096x128.Idx) (k : dot_S4096x2048_S2048x128_S4096x128_1_0_0_1_n_n.contr.Idx) :
    (dot_S4096x2048_S2048x128_S4096x128_1_0_0_1_n_n.rhsIdx j k 1).val = (j 1).val := by
  simp [DotDims.rhsIdx, dot_S4096x2048_S2048x128_S4096x128_1_0_0_1_n_n]
  rfl

/-- A [4096, 2048] matrix times a [2048, 128] matrix into the zero accumulator, read at row `r` and column `d`: the
    sum over the 2048 contracted positions of the products of the entries. -/
theorem gatherDot_apply {φ₁ φ₂ : FTy} (A : FVec Ideal S4096x2048 φ₁) (B : FVec Ideal S2048x128 φ₂) (r : Fin 4096) (d : Fin 128) :
    FloatOps.matmul dot_S4096x2048_S2048x128_S4096x128_1_0_0_1_n_n none A B (constant (F := Ideal) S4096x128 .f32 0x00000000#32) (ix2 r d)
      = ∑ n : Fin 2048, A (ix2 r n) * B (ix2 n d) := by
  rw [Ideal.matmul_constant_zero_apply, ← Equiv.sum_comp (contrEquiv1 dot_S4096x2048_S2048x128_S4096x128_1_0_0_1_n_n 2048 rfl rfl).symm]
  refine Finset.sum_congr rfl fun n _ => ?_
  have hk := contrEquiv1_symm_val dot_S4096x2048_S2048x128_S4096x128_1_0_0_1_n_n 2048 rfl rfl n
  have hl : dot_S4096x2048_S2048x128_S4096x128_1_0_0_1_n_n.lhsIdx (ix2 r d) ((contrEquiv1 dot_S4096x2048_S2048x128_S4096x128_1_0_0_1_n_n 2048 rfl rfl).symm n) = ix2 r n := by
    funext ax
    apply Fin.ext
    match ax with
    | ⟨0, _⟩ => exact gatherDot_lhs_0 _ _
    | ⟨1, _⟩ => exact (gatherDot_lhs_1 _ _).trans hk
  have hr : dot_S4096x2048_S2048x128_S4096x128_1_0_0_1_n_n.rhsIdx (ix2 r d) ((contrEquiv1 dot_S4096x2048_S2048x128_S4096x128_1_0_0_1_n_n 2048 rfl rfl).symm n) = ix2 n d := by
    funext ax
    apply Fin.ext
    match ax with
    | ⟨0, _⟩ => exact (gatherDot_rhs_0 _ _).trans hk
    | ⟨1, _⟩ => exact gatherDot_rhs_1 _ _
  rw [hl, hr]

/-! ## The three computed values of gather region 2 -/

/-- The cleared accumulator is zero everywhere. -/
theorem k2_pay1_apply (r : Fin 4096) (d : Fin 128) : k2_pay1 (F := Ideal) (ix2 r d) = 0 := by
  unfold k2_pay1
  simp only [shapeCast_self]
  exact Ideal.ofBits_zero_f32

/-- The accumulation step at row `r` and column `d`: the accumulator's entry plus the sum, over the block's 2048 node
    positions `n'`, of one-or-zero (is edge `r`'s source word the word of node `(i 1) · 2048 + n'`?) times the block's
    entry `(n', d)`. -/
theorem k2_pay2_apply (i : grid2.Coords) (v7 : Vec Ideal S4096 .i32) (v16 : Vec Ideal S2048x128 .f32)
    (v20 : Vec Ideal S4096x128 .f32) (r : Fin 4096) (d : Fin 128) :
    k2_pay2 (F := Ideal) i v7 v16 v20 (ix2 r d)
      = v20 (ix2 r d) + ∑ n' : Fin 2048,
          Cert.Spec.oh (v7 (ix1 r) = BitVec.ofNat 32 ((i 1).val * 2048 + n'.val)) * v16 (ix2 n' d) := by
  unfold k2_pay2
  simp only [shapeCast_self]
  refine (congrArg (v20 (ix2 r d) + ·) (gatherDot_apply _ _ r d)).trans ?_
  refine congrArg (v20 (ix2 r d) + ·) (Finset.sum_congr rfl fun n' _ => ?_)
  refine congrArg (· * v16 (ix2 n' d)) ?_
  refine oneHot_apply _ _ _ _ (ix2 r n') _ _ ?_ ?_
  · exact (Cert.Lib.Column.broadcastTo_a1_ab_apply _ _ r n').trans
      (Cert.Lib.Column.shapeCast_a_a1_apply v7 _ r 0)
  · refine (broadcastTo_1b_ab_apply _ _ r n').trans ?_
    refine Eq.trans ?_ (nodeWord_eq (i 1).val n'.val)
    exact congrArg (BitVec.ofNat 32 (i 1).val * 2048#32 + ·)
      (iota_single_apply .tc S1x2048 32 1 _ (ix2 (0 : Fin 1) n'))

/-- The message at row `r` and column `d`: the edge's normalisation times the sum of the gathered features and the
    edge embedding there. -/
theorem k2_pay3_apply (v28 : Vec Ideal S4096 .f32) (v31 v32 : Vec Ideal S4096x128 .f32) (r : Fin 4096) (d : Fin 128) :
    k2_pay3 (F := Ideal) v28 v31 v32 (ix2 r d) = v28 (ix1 r) * (v31 (ix2 r d) + v32 (ix2 r d)) := by
  unfold k2_pay3
  simp only [shapeCast_self]
  refine congrArg (· * (v31 (ix2 r d) + v32 (ix2 r d))) ?_
  exact (Cert.Lib.Column.broadcastTo_a1_ab_apply _ _ r d).trans
    (Cert.Lib.Column.shapeCast_a_a1_apply v28 _ r 0)

/-! ## The three computed values of gather region 5 -/

/-- The cleared accumulator is zero everywhere. -/
theorem k5_pay1_apply (r : Fin 4096) (d : Fin 128) : k5_pay1 (F := Ideal) (ix2 r d) = 0 := by
  unfold k5_pay1
  simp only [shapeCast_self]
  exact Ideal.ofBits_zero_f32

/-- The accumulation step at row `r` and column `d`: the accumulator's entry plus the sum, over the block's 2048 node
    positions `n'`, of one-or-zero (is edge `r`'s source word the word of node `(i 1) · 2048 + n'`?) times the block's
    entry `(n', d)`. -/
theorem k5_pay2_apply (i : grid5.Coords) (v7 : Vec Ideal S4096 .i32) (v16 : Vec Ideal S2048x128 .f32)
    (v20 : Vec Ideal S4096x128 .f32) (r : Fin 4096) (d : Fin 128) :
    k5_pay2 (F := Ideal) i v7 v16 v20 (ix2 r d)
      = v20 (ix2 r d) + ∑ n' : Fin 2048,
          Cert.Spec.oh (v7 (ix1 r) = BitVec.ofNat 32 ((i 1).val * 2048 + n'.val)) * v16 (ix2 n' d) := by
  unfold k5_pay2
  simp only [shapeCast_self]
  refine (congrArg (v20 (ix2 r d) + ·) (gatherDot_apply _ _ r d)).trans ?_
  refine congrArg (v20 (ix2 r d) + ·) (Finset.sum_congr rfl fun n' _ => ?_)
  refine congrArg (· * v16 (ix2 n' d)) ?_
  refine oneHot_apply _ _ _ _ (ix2 r n') _ _ ?_ ?_
  · exact (Cert.Lib.Column.broadcastTo_a1_ab_apply _ _ r n').trans
      (Cert.Lib.Column.shapeCast_a_a1_apply v7 _ r 0)
  · refine (broadcastTo_1b_ab_apply _ _ r n').trans ?_
    refine Eq.trans ?_ (nodeWord_eq (i 1).val n'.val)
    exact congrArg (BitVec.ofNat 32 (i 1).val * 2048#32 + ·)
      (iota_single_apply .tc S1x2048 32 1 _ (ix2 (0 : Fin 1) n'))

/-- The message at row `r` and column `d`: the edge's normalisation times the sum of the gathered features and the
    edge embedding there. -/
theorem k5_pay3_apply (v28 : Vec Ideal S4096 .f32) (v31 v32 : Vec Ideal S4096x128 .f32) (r : Fin 4096) (d : Fin 128) :
    k5_pay3 (F := Ideal) v28 v31 v32 (ix2 r d) = v28 (ix1 r) * (v31 (ix2 r d) + v32 (ix2 r d)) := by
  unfold k5_pay3
  simp only [shapeCast_self]
  refine congrArg (· * (v31 (ix2 r d) + v32 (ix2 r d))) ?_
  exact (Cert.Lib.Column.broadcastTo_a1_ab_apply _ _ r d).trans
    (Cert.Lib.Column.shapeCast_a_a1_apply v28 _ r 0)

/-! ## The three computed values of gather region 8 -/

/-- The cleared accumulator is zero everywhere. -/
theorem k8_pay1_apply (r : Fin 4096) (d : Fin 128) : k8_pay1 (F := Ideal) (ix2 r d) = 0 := by
  unfold k8_pay1
  simp only [shapeCast_self]
  exact Ideal.ofBits_zero_f32

/-- The accumulation step at row `r` and column `d`: the accumulator's entry plus the sum, over the block's 2048 node
    positions `n'`, of one-or-zero (is edge `r`'s source word the word of node `(i 1) · 2048 + n'`?) times the block's
    entry `(n', d)`. -/
theorem k8_pay2_apply (i : grid8.Coords) (v7 : Vec Ideal S4096 .i32) (v16 : Vec Ideal S2048x128 .f32)
    (v20 : Vec Ideal S4096x128 .f32) (r : Fin 4096) (d : Fin 128) :
    k8_pay2 (F := Ideal) i v7 v16 v20 (ix2 r d)
      = v20 (ix2 r d) + ∑ n' : Fin 2048,
          Cert.Spec.oh (v7 (ix1 r) = BitVec.ofNat 32 ((i 1).val * 2048 + n'.val)) * v16 (ix2 n' d) := by
  unfold k8_pay2
  simp only [shapeCast_self]
  refine (congrArg (v20 (ix2 r d) + ·) (gatherDot_apply _ _ r d)).trans ?_
  refine congrArg (v20 (ix2 r d) + ·) (Finset.sum_congr rfl fun n' _ => ?_)
  refine congrArg (· * v16 (ix2 n' d)) ?_
  refine oneHot_apply _ _ _ _ (ix2 r n') _ _ ?_ ?_
  · exact (Cert.Lib.Column.broadcastTo_a1_ab_apply _ _ r n').trans
      (Cert.Lib.Column.shapeCast_a_a1_apply v7 _ r 0)
  · refine (broadcastTo_1b_ab_apply _ _ r n').trans ?_
    refine Eq.trans ?_ (nodeWord_eq (i 1).val n'.val)
    exact congrArg (BitVec.ofNat 32 (i 1).val * 2048#32 + ·)
      (iota_single_apply .tc S1x2048 32 1 _ (ix2 (0 : Fin 1) n'))

/-- The message at row `r` and column `d`: the edge's normalisation times the sum of the gathered features and the
    edge embedding there. -/
theorem k8_pay3_apply (v28 : Vec Ideal S4096 .f32) (v31 v32 : Vec Ideal S4096x128 .f32) (r : Fin 4096) (d : Fin 128) :
    k8_pay3 (F := Ideal) v28 v31 v32 (ix2 r d) = v28 (ix1 r) * (v31 (ix2 r d) + v32 (ix2 r d)) := by
  unfold k8_pay3
  simp only [shapeCast_self]
  refine congrArg (· * (v31 (ix2 r d) + v32 (ix2 r d))) ?_
  exact (Cert.Lib.Column.broadcastTo_a1_ab_apply _ _ r d).trans
    (Cert.Lib.Column.shapeCast_a_a1_apply v28 _ r 0)

end Cert.KernelIdeal.Pay

end
-- ==== Proof.KI.Reg2.Value.lean ====
/-
  Region 2 of the kernel's program, the gather, read as a value: from what each grid point leaves in the output
  window's staging buffer to what the output array holds after the last point, index by index.

  The grid is 196 edge tiles (of 4096 edges) by 25 node tiles (of 2048 nodes), the node tile the fast axis: point
  `t` has edge tile `t / 25` and node tile `t % 25`. The accumulator restarts from zeros at node tile 0 and at node
  tile `j` adds, at row `r` and column `d`, the one-hot sum over the tile's 2048 nodes
  `∑ n', [source word of edge (t / 25)·4096 + r = word of node j·2048 + n'] · H (j·2048 + n', d)`. So after node tile
  `j` it holds the sum of the shares of tiles `0 … j` (induction on the point), and at `j = 24` the 25 shares make the
  one-hot sum over all 51200 nodes. There the body stores normalisation × (accumulator + edge embedding): the edge
  message. The output window is written back at those points only, one block of 4096 rows per edge tile, and the
  196 blocks tile the 802816 rows; so the array ends holding the message of every edge.
-/
import proofs.«177903_j22574348108073_1_alg».proof.Proof.KI.Reg2.Data
import proofs.«177903_j22574348108073_1_alg».proof.Proof.Spec
import proofs.«177903_j22574348108073_1_alg».proof.Proof.LibTileSum
import proofs.«177903_j22574348108073_1_alg».proof.Proof.KI.PayGather
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-! ## The region's input arrays and the blocks a grid point reads, at their literal types -/

/-- The projected node features, 51200 × 128. -/
abbrev featArr2 (c : Dev nD) : Vec Ideal S51200x128 .f32 := V c (Pipeline.arrRef spec2 0)
/-- The edges' source words, 802816 of them. -/
abbrev srcArr2 (c : Dev nD) : Vec Ideal S802816 .i32 := V c (Pipeline.arrRef spec2 1)
/-- The edges' normalisation factors. -/
abbrev normArr2 (c : Dev nD) : Vec Ideal S802816 .f32 := V c (Pipeline.arrRef spec2 2)
/-- The edge embeddings, 802816 × 128. -/
abbrev embArr2 (c : Dev nD) : Vec Ideal S802816x128 .f32 := V c (Pipeline.arrRef spec2 3)

/-- Node tile of the features read at point `t`. -/
abbrev featBlk2 (c : Dev nD) (t : Fin cfg2.N) : Vec Ideal S2048x128 .f32 := iblk2 (F := Ideal) V c 0 t
/-- Edge tile of the source words read at point `t`. -/
abbrev srcBlk2 (c : Dev nD) (t : Fin cfg2.N) : Vec Ideal S4096 .i32 := iblk2 (F := Ideal) V c 1 t
/-- Edge tile of the normalisation factors read at point `t`. -/
abbrev normBlk2 (c : Dev nD) (t : Fin cfg2.N) : Vec Ideal S4096 .f32 := iblk2 (F := Ideal) V c 2 t
/-- Edge tile of the embeddings read at point `t`. -/
abbrev embBlk2 (c : Dev nD) (t : Fin cfg2.N) : Vec Ideal S4096x128 .f32 := iblk2 (F := Ideal) V c 3 t

/-- The arrays by row NUMBER (zero past the last row), so that sums over tiles need no bound proofs. -/
def featAt2 (c : Dev nD) (n : ℕ) (d : Fin 128) : EReal := if h : n < 51200 then featArr2 V c (ix2 ⟨n, h⟩ d) else 0
def srcAt2 (c : Dev nD) (e : ℕ) : BitVec 32 := if h : e < 802816 then srcArr2 V c (ix1 ⟨e, h⟩) else 0
def normAt2 (c : Dev nD) (e : ℕ) : EReal := if h : e < 802816 then normArr2 V c (ix1 ⟨e, h⟩) else 0
def embAt2 (c : Dev nD) (e : ℕ) (d : Fin 128) : EReal := if h : e < 802816 then embArr2 V c (ix2 ⟨e, h⟩ d) else 0

/-- The printed index maps, decided once over the grid: the feature window moves with the node tile `t % 25`, the
    four edge windows with the edge tile `t / 25`, and the body's second grid coordinate is the node tile. -/
theorem idx_facts2 : ∀ t : Fin cfg2.N,
    win2_0.index t (0 : Fin 2) = t.val % 25 ∧ win2_0.index t (1 : Fin 2) = 0
    ∧ win2_1.index t (0 : Fin 1) = t.val / 25
    ∧ win2_2.index t (0 : Fin 1) = t.val / 25
    ∧ win2_3.index t (0 : Fin 2) = t.val / 25 ∧ win2_3.index t (1 : Fin 2) = 0
    ∧ win2_4.index t (0 : Fin 2) = t.val / 25 ∧ win2_4.index t (1 : Fin 2) = 0
    ∧ ((grid2.coords t) 1).val = t.val % 25 :=
  (by decide +kernel : ∀ t : Fin grid2.N, _)

/-- Row `n'` of the node tile read at point `t` is row `(t % 25)·2048 + n'` of the features. -/
theorem featBlk2_apply (c : Dev nD) (t : Fin cfg2.N) (n' : Fin 2048) (d : Fin 128) :
    featBlk2 V c t (ix2 n' d) = featAt2 V c (t.val % 25 * 2048 + n'.val) d := by
  obtain ⟨e0, e1, -⟩ := idx_facts2 t
  have hb : t.val % 25 * 2048 + n'.val < 51200 := by have := n'.isLt; omega
  unfold featAt2; rw [dif_pos hb]
  show V c (Pipeline.arrRef spec2 0) (((cfg2.win 0).blk t).view.emb (ix2 n' d)) = V c (Pipeline.arrRef spec2 0) (ix2 ⟨_, hb⟩ d)
  refine congrArg _ ?_
  funext a; apply Fin.ext
  match a with
  | ⟨0, _⟩ => show win2_0.index t (0 : Fin 2) * 2048 + 1 * n'.val = t.val % 25 * 2048 + n'.val; omega
  | ⟨1, _⟩ => show win2_0.index t (1 : Fin 2) * 128 + 1 * d.val = d.val; omega

/-- Entry `r` of the edge tile of source words read at point `t` is entry `(t / 25)·4096 + r` of the array. -/
theorem srcBlk2_apply (c : Dev nD) (t : Fin cfg2.N) (r : Fin 4096) :
    srcBlk2 V c t (ix1 r) = srcAt2 V c (t.val / 25 * 4096 + r.val) := by
  obtain ⟨-, -, e2, -⟩ := idx_facts2 t
  have hb : t.val / 25 * 4096 + r.val < 802816 := by have := r.isLt; have := t.isLt; have : cfg2.N = 4900 := N_2; omega
  unfold srcAt2; rw [dif_pos hb]
  show V c (Pipeline.arrRef spec2 1) (((cfg2.win 1).blk t).view.emb (ix1 r)) = V c (Pipeline.arrRef spec2 1) (ix1 ⟨_, hb⟩)
  refine congrArg _ ?_
  funext a; apply Fin.ext
  match a with
  | ⟨0, _⟩ => show win2_1.index t (0 : Fin 1) * 4096 + 1 * r.val = t.val / 25 * 4096 + r.val; omega

/-- The same for the normalisation factors. -/
theorem normBlk2_apply (c : Dev nD) (t : Fin cfg2.N) (r : Fin 4096) :
    normBlk2 V c t (ix1 r) = normAt2 V c (t.val / 25 * 4096 + r.val) := by
  obtain ⟨-, -, -, e3, -⟩ := idx_facts2 t
  have hb : t.val / 25 * 4096 + r.val < 802816 := by have := r.isLt; have := t.isLt; have : cfg2.N = 4900 := N_2; omega
  unfold normAt2; rw [dif_pos hb]
  show V c (Pipeline.arrRef spec2 2) (((cfg2.win 2).blk t).view.emb (ix1 r)) = V c (Pipeline.arrRef spec2 2) (ix1 ⟨_, hb⟩)
  refine congrArg _ ?_
  funext a; apply Fin.ext
  match a with
  | ⟨0, _⟩ => show win2_2.index t (0 : Fin 1) * 4096 + 1 * r.val = t.val / 25 * 4096 + r.val; omega

/-- Row `r` of the edge tile of embeddings read at point `t` is row `(t / 25)·4096 + r` of the array. -/
theorem embBlk2_apply (c : Dev nD) (t : Fin cfg2.N) (r : Fin 4096) (d : Fin 128) :
    embBlk2 V c t (ix2 r d) = embAt2 V c (t.val / 25 * 4096 + r.val) d := by
  obtain ⟨-, -, -, -, e4, e5, -⟩ := idx_facts2 t
  have hb : t.val / 25 * 4096 + r.val < 802816 := by have := r.isLt; have := t.isLt; have : cfg2.N = 4900 := N_2; omega
  unfold embAt2; rw [dif_pos hb]
  show V c (Pipeline.arrRef spec2 3) (((cfg2.win 3).blk t).view.emb (ix2 r d)) = V c (Pipeline.arrRef spec2 3) (ix2 ⟨_, hb⟩ d)
  refine congrArg _ ?_
  funext a; apply Fin.ext
  match a with
  | ⟨0, _⟩ => show win2_3.index t (0 : Fin 2) * 4096 + 1 * r.val = t.val / 25 * 4096 + r.val; omega
  | ⟨1, _⟩ => show win2_3.index t (1 : Fin 2) * 128 + 1 * d.val = d.val; omega

/-! ## The accumulator's recursion, one case at a time -/

/-- Where a new edge tile begins the accumulator restarts from the zero tile. -/
theorem acc2_reset (c : Dev nD) (n : ℕ) (hn : n < cfg2.N) (h0 : n % 25 = 0) :
    acc2 (F := Ideal) V c n hn = k2_pay2 (F := Ideal) (grid2.coords ⟨n, hn⟩) (srcBlk2 V c ⟨n, hn⟩) (featBlk2 V c ⟨n, hn⟩) (k2_pay1 (F := Ideal)) := by
  cases n with
  | zero => rfl
  | succ n =>
    show k2_pay2 (F := Ideal) _ _ _ (if (n + 1) % 25 = 0 then k2_pay1 (F := Ideal) else acc2 (F := Ideal) V c n _) = _
    rw [if_pos h0]

/-- Elsewhere it goes on from what the point before left. -/
theorem acc2_step (c : Dev nD) (n : ℕ) (hn : n + 1 < cfg2.N) (h0 : ¬(n + 1) % 25 = 0) :
    acc2 (F := Ideal) V c (n + 1) hn = k2_pay2 (F := Ideal) (grid2.coords ⟨n + 1, hn⟩) (srcBlk2 V c ⟨n + 1, hn⟩) (featBlk2 V c ⟨n + 1, hn⟩)
      (acc2 (F := Ideal) V c n (Nat.lt_of_succ_lt hn)) := by
  show k2_pay2 (F := Ideal) _ _ _ (if (n + 1) % 25 = 0 then k2_pay1 (F := Ideal) else acc2 (F := Ideal) V c n _) = _
  rw [if_neg h0]

theorem featAt2_val (c : Dev nD) (n : Fin 51200) (d : Fin 128) : featAt2 V c n.val d = featArr2 V c (ix2 n d) := by
  unfold featAt2; rw [dif_pos n.isLt]
theorem srcAt2_val (c : Dev nD) (e : Fin 802816) : srcAt2 V c e.val = srcArr2 V c (ix1 e) := by
  unfold srcAt2; rw [dif_pos e.isLt]
theorem normAt2_val (c : Dev nD) (e : Fin 802816) : normAt2 V c e.val = normArr2 V c (ix1 e) := by
  unfold normAt2; rw [dif_pos e.isLt]
theorem embAt2_val (c : Dev nD) (e : Fin 802816) (d : Fin 128) : embAt2 V c e.val d = embArr2 V c (ix2 e d) := by
  unfold embAt2; rw [dif_pos e.isLt]

/-! ## One node tile's share of the gather, and the accumulator solved -/

/-- The share of node tile `j'` in the gathered row of edge number `e`: the one-hot sum over the tile's 2048 nodes. -/
def tileShare2 (c : Dev nD) (e : ℕ) (d : Fin 128) (j' : ℕ) : EReal :=
  ∑ n' : Fin 2048, Cert.Spec.oh (srcAt2 V c e = BitVec.ofNat 32 (j' * 2048 + n'.val)) * featAt2 V c (j' * 2048 + n'.val) d

/-- The body's update at point `t`, at an index: what the accumulator held plus the share of the point's node tile. -/
theorem pay2_point (c : Dev nD) (t : Fin cfg2.N) (acc : Vec Ideal S4096x128 .f32) (r : Fin 4096) (d : Fin 128) :
    k2_pay2 (F := Ideal) (grid2.coords t) (srcBlk2 V c t) (featBlk2 V c t) acc (ix2 r d)
      = acc (ix2 r d) + tileShare2 V c (t.val / 25 * 4096 + r.val) d (t.val % 25) := by
  obtain ⟨-, -, -, -, -, -, -, -, e8⟩ := idx_facts2 t
  refine (Pay.k2_pay2_apply (grid2.coords t) (srcBlk2 V c t) (featBlk2 V c t) acc r d).trans ?_
  refine congrArg (acc (ix2 r d) + ·) ?_
  unfold tileShare2
  refine Finset.sum_congr rfl fun n' _ => ?_
  rw [srcBlk2_apply, featBlk2_apply, e8]

/-- At the first node tile of an edge tile the accumulator holds that tile's share alone (zero plus it). -/
theorem accSum2_first (c : Dev nD) (n : ℕ) (hn : n < cfg2.N) (h0 : n % 25 = 0) (r : Fin 4096) (d : Fin 128) :
    acc2 (F := Ideal) V c n hn (ix2 r d) = tileShare2 V c (n / 25 * 4096 + r.val) d 0 := by
  rw [acc2_reset V c n hn h0]
  refine (pay2_point V c ⟨n, hn⟩ _ r d).trans ?_
  rw [Pay.k2_pay1_apply, zero_add]
  show tileShare2 V c (n / 25 * 4096 + r.val) d (n % 25) = _
  rw [h0]

/-- THE ACCUMULATOR SOLVED: after point `n`, of edge tile `n / 25` and node tile `n % 25`, it holds at `(r, d)` the
    shares of the node tiles `0 … n % 25` in the gathered row of edge `(n / 25)·4096 + r`. -/
theorem acc2_apply (c : Dev nD) (n : ℕ) : ∀ (hn : n < cfg2.N) (r : Fin 4096) (d : Fin 128),
    acc2 (F := Ideal) V c n hn (ix2 r d) = ∑ j' ∈ Finset.range (n % 25 + 1), tileShare2 V c (n / 25 * 4096 + r.val) d j' := by
  induction n with
  | zero =>
    intro hn r d
    rw [accSum2_first V c 0 hn rfl r d]
    exact (Finset.sum_range_one _).symm
  | succ n ih =>
    intro hn r d
    by_cases h0 : (n + 1) % 25 = 0
    · rw [accSum2_first V c (n + 1) hn h0 r d, h0]
      exact (Finset.sum_range_one _).symm
    · rw [acc2_step V c n hn h0]
      refine (pay2_point V c ⟨n + 1, hn⟩ _ r d).trans ?_
      rw [ih (Nat.lt_of_succ_lt hn) r d]
      show _ + tileShare2 V c ((n + 1) / 25 * 4096 + r.val) d ((n + 1) % 25) = _
      have hq : (n + 1) / 25 = n / 25 := by omega
      have hm : (n + 1) % 25 = n % 25 + 1 := by omega
      rw [hq, hm, Finset.sum_range_succ _ (n % 25 + 1)]

/-- The 25 node tiles' shares make the one-hot sum over all 51200 nodes. -/
theorem sum_tileShare2 (c : Dev nD) (e : ℕ) (d : Fin 128) :
    ∑ j' ∈ Finset.range 25, tileShare2 V c e d j'
      = ∑ n : Fin 51200, Cert.Spec.oh (srcAt2 V c e = BitVec.ofNat 32 n.val) * featArr2 V c (ix2 n d) := by
  have key := Cert.TileSum.sum_tiles 25 2048 (fun k => Cert.Spec.oh (srcAt2 V c e = BitVec.ofNat 32 k) * featAt2 V c k d)
  refine Eq.trans (Finset.sum_congr rfl fun j' _ => ?_) (key.trans ?_)
  · exact (Finset.sum_range (fun k => Cert.Spec.oh (srcAt2 V c e = BitVec.ofNat 32 (j' * 2048 + k)) * featAt2 V c (j' * 2048 + k) d)).symm
  · refine (Finset.sum_range (n := 51200) (fun k => Cert.Spec.oh (srcAt2 V c e = BitVec.ofNat 32 k) * featAt2 V c k d)).trans ?_
    refine Finset.sum_congr rfl fun n _ => ?_
    show Cert.Spec.oh (srcAt2 V c e = BitVec.ofNat 32 n.val) * featAt2 V c n.val d = _
    rw [featAt2_val]

/-! ## The stored tile -/

/-- The edge message by edge NUMBER: normalisation × (one-hot sum over all nodes + edge embedding). -/
def msgAt2 (c : Dev nD) (e : ℕ) (d : Fin 128) : EReal :=
  normAt2 V c e * ((∑ n : Fin 51200, Cert.Spec.oh (srcAt2 V c e = BitVec.ofNat 32 n.val) * featArr2 V c (ix2 n d)) + embAt2 V c e d)

/-- What the body stores at the last node tile of edge tile `t / 25`: the messages of the tile's 4096 edges. -/
theorem msg2_apply (c : Dev nD) (t : Fin cfg2.N) (h24 : t.val % 25 = 24) (j : S4096x128.Idx) :
    msg2 (F := Ideal) V c t j = msgAt2 V c (t.val / 25 * 4096 + (j 0).val) (j 1) := by
  obtain ⟨r, d, rfl⟩ : ∃ (r : Fin 4096) (d : Fin 128), j = ix2 r d := ⟨j 0, j 1, eq_ix2 j⟩
  show k2_pay3 (F := Ideal) (normBlk2 V c t) (acc2 (F := Ideal) V c t.val t.isLt) (embBlk2 V c t) (ix2 r d) = msgAt2 V c (t.val / 25 * 4096 + r.val) d
  refine (Pay.k2_pay3_apply (normBlk2 V c t) (acc2 (F := Ideal) V c t.val t.isLt) (embBlk2 V c t) r d).trans ?_
  have h25 : t.val % 25 + 1 = 25 := by omega
  rw [normBlk2_apply, embBlk2_apply, acc2_apply V c t.val t.isLt r d, h25, sum_tileShare2]
  rfl

/-! ## From the stored tiles to the array -/

/-- THE REGION'S OUTPUT as one function of its input arrays: at `(e, d)` the message of edge `e`. -/
def msgArr2 (c : Dev nD) : Vec Ideal S802816x128 .bf16 := fun i => msgAt2 V c (i 0).val (i 1)

/-- What a point that writes back writes is its block of that function. -/
theorem flushed2_eq (c : Dev nD) (t : Fin cfg2.N) (hf : (cfg2.win 4).flush t = true) :
    (dat2 (F := Ideal) V c).flushed 4 t = ((cfg2.win 4).blk t).view.read (Elt Ideal) (msgArr2 V c) := by
  have h24 : t.val % 25 = 24 := (flush2_4 t).mp hf
  obtain ⟨-, -, -, -, -, -, e6, e7, -⟩ := idx_facts2 t
  show (cfg2.win 4).cut (grid2.coords t) ((dat2 (F := Ideal) V c).after 4 t) = _
  rw [after2_4]
  funext y
  have hy0 : (y 0).val < 4096 := (y 0).isLt
  have hy1 : (y 1).val < 128 := (y 1).isLt
  show msg2 (F := Ideal) V c t ((cfg2.win 4).xinj (grid2.coords t) y) = msgArr2 V c (((cfg2.win 4).blk t).view.emb y)
  refine (msg2_apply V c t h24 _).trans ?_
  have h0 : t.val / 25 * 4096 + (y 0).val = ((((cfg2.win 4).blk t).view.emb y) 0).val := by
    show _ = win2_4.index t (0 : Fin 2) * 4096 + 1 * (y 0).val; omega
  have h1 : (⟨(y 1).val, hy1⟩ : Fin 128) = (((cfg2.win 4).blk t).view.emb y) 1 := by
    apply Fin.ext; show (y 1).val = win2_4.index t (1 : Fin 2) * 128 + 1 * (y 1).val; omega
  exact congrArg₂ (msgAt2 V c) h0 h1

/-- An index of the array is in point `t`'s block iff each coordinate is in the block's range on its axis. -/
theorem mem_blk2 (t : Fin cfg2.N) (i : S802816x128.Idx) :
    i ∈ ((cfg2.win 4).blk t).view.set ↔ ∀ a : Fin 2, win2_4.index t a * S4096x128.size a ≤ (i a).val ∧ (i a).val < win2_4.index t a * S4096x128.size a + S4096x128.size a := by
  show i ∈ ((View.whole main_v35).slice (win2_4.rect t)).set ↔ _
  rw [View.set_slice_whole, Rect.mem_set_unit]
  exact Iff.rfl

/-- Row `e` of the array is written by the last node tile's point of edge tile `e / 4096`. -/
theorem cover2 (i : S802816x128.Idx) : ∃ t : Fin cfg2.N, (cfg2.win 4).flush t = true ∧ i ∈ ((cfg2.win 4).blk t).view.set := by
  have hi0 : (i 0).val < 802816 := (i 0).isLt
  have hi1 : (i 1).val < 128 := (i 1).isLt
  have hN : cfg2.N = 4900 := N_2
  obtain ⟨t, ht⟩ : ∃ t : Fin cfg2.N, t.val = 25 * ((i 0).val / 4096) + 24 := ⟨⟨25 * ((i 0).val / 4096) + 24, by omega⟩, rfl⟩
  obtain ⟨-, -, -, -, -, -, e6, e7, -⟩ := idx_facts2 t
  refine ⟨t, (flush2_4 t).mpr (by omega), ?_⟩
  rw [mem_blk2]
  intro a
  match a with
  | ⟨0, _⟩ => show win2_4.index t (0 : Fin 2) * 4096 ≤ (i 0).val ∧ (i 0).val < win2_4.index t (0 : Fin 2) * 4096 + 4096; omega
  | ⟨1, _⟩ => show win2_4.index t (1 : Fin 2) * 128 ≤ (i 1).val ∧ (i 1).val < win2_4.index t (1 : Fin 2) * 128 + 128; omega

/-- THE OUTPUT ARRAY after the last point is that function. -/
theorem arr2_eq (c : Dev nD) : (dat2 (F := Ideal) V c).arrAt 4 cfg2.N = msgArr2 V c :=
  (dat2 (F := Ideal) V c).arrAt_eq_of_cover 4 (msgArr2 V c) (flushed2_eq V c) cover2

/-- Index by index: the edge message of the certificate's vocabulary, over the region's input arrays. -/
theorem final2 (c : Dev nD) (e : Fin 802816) (d : Fin 128) :
    (dat2 (F := Ideal) V c).arrAt 4 cfg2.N (ix2 e d)
      = Cert.Spec.msgOf (fun e => normArr2 V c (ix1 e))
          (Cert.Spec.gath (fun e => srcArr2 V c (ix1 e)) (fun n d => featArr2 V c (ix2 n d)))
          (fun e d => embArr2 V c (ix2 e d)) e d := by
  rw [arr2_eq]
  show msgAt2 V c e.val d = _
  unfold msgAt2 Cert.Spec.msgOf Cert.Spec.gath
  rw [normAt2_val, srcAt2_val, embAt2_val]

end Cert.KernelIdeal.Hand

end
-- ==== Proof.KI.PayScatter.lean ====
/-
  The scatter kernel's three stored values, each read at one row and column, at the ideal instance (a float an extended
  real, every operation exact, a change of format the identity).

  The kernel's body holds a node tile of 2048 rows and an edge tile of 4096 edges. It builds the 2048 × 4096 matrix whose
  entry (r, e) is one when the number of node r of the tile, as a 32-bit word, is the target word of edge e, and zero
  otherwise; multiplies it with the edge tile of the messages (4096 × 128); and adds the product to the accumulator.
  Read at (r, d) that is: accumulator + ∑ over the edges e of [node word = target word of e] · message (e, d).
  The first stored value is the zero tile, the third the accumulator plus the residual (under the rectifier where the
  kernel has one).
-/
import proofs.«177903_j22574348108073_1_alg».proof.Proof.Gen.KernelIdeal.Skeleton
import proofs.«177903_j22574348108073_1_alg».proof.Proof.Spec
import proofs.«177903_j22574348108073_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ## Words and the one-hot entry -/

/-- The node word: tile number times the tile height plus the row, computed on 32-bit words, is the word of the
    number computed on naturals (both are the number modulo 2³²). -/
theorem node_word (n r : ℕ) : BitVec.ofNat 32 n * 2048#32 + BitVec.ofNat 32 r = BitVec.ofNat 32 (n * 2048 + r) := by
  rw [BitVec.ofNat_add, BitVec.ofNat_mul]

/-- A one-bit equality test widened to a word and converted signed is one when the words agree and zero otherwise. -/
theorem sitofp_extui_cmpi_eq (x y : BitVec 32) :
    (FloatOps.sitofp (F := Ideal) .f32 ((IntOp.cmpi .eq x y).setWidth 32) : EReal) = Cert.Spec.oh (x = y) := by
  show ((((IntOp.cmpi .eq x y).setWidth 32).toInt : ℝ) : EReal) = Cert.Spec.oh (x = y)
  unfold Cert.Spec.oh
  by_cases h : x = y
  · have hc : IntOp.cmpi .eq x y = 1#1 := by
      show BitVec.ofBool (x == y) = 1#1
      rw [beq_iff_eq.mpr h]; rfl
    rw [hc, if_pos h]
    norm_num
  · have hc : IntOp.cmpi .eq x y = 0#1 := by
      show BitVec.ofBool (x == y) = 0#1
      rw [beq_eq_false_iff_ne.mpr h]; rfl
    rw [hc, if_neg h]
    norm_num

/-! ## The layout operations of the one-hot matrix, at (r, e) -/

/-- The column of node words (tile offset splat plus the row counter) broadcast along the edges reads, at (r, e),
    offset + r. -/
theorem node_col_apply (w : BitVec 32) (r : Fin 2048) (e : Fin 4096) :
    broadcastTo S2048x4096 (addi (broadcast S2048x1 w) (iota .tc S2048x1 32 [0] iota_S2048x1_d0_w32)) broadcasts_S2048x1_S2048x4096 (ix2 r e)
      = w + BitVec.ofNat 32 r.val := by
  refine (Cert.Lib.Column.broadcastTo_a1_ab_apply _ broadcasts_S2048x1_S2048x4096 r e).trans ?_
  show w + iota .tc S2048x1 32 [0] iota_S2048x1_d0_w32 (ix2 r (0 : Fin 1)) = _
  rw [iota_single_apply]

/-- The edge tile's target words, seen as one row and broadcast down the rows, read at (r, e) the target word of e. -/
theorem target_row_apply (v7 : Vec Ideal S4096 .i32) (r : Fin 2048) (e : Fin 4096) :
    broadcastTo S2048x4096 (shapeCast S1x4096 (shapeCast S4096 v7 shapeCasts_S4096_S4096) shapeCasts_S4096_S1x4096)
      broadcasts_S1x4096_S2048x4096 (ix2 r e) = v7 (ix1 e) := by
  refine (broadcastTo_1b_ab_apply _ broadcasts_S1x4096_S2048x4096 r e).trans ?_
  refine (shapeCast_a_1a_apply _ shapeCasts_S4096_S1x4096 (0 : Fin 1) e).trans ?_
  rw [shapeCast_self]

/-! ## The product of the one-hot matrix with the edge tile -/

/-- The left operand's row coordinate is the output's row. -/
theorem lhs_scat_0 (i : S2048x128.Idx) (q : dot_S2048x4096_S4096x128_S2048x128_1_0_0_1_n_n.contr.Idx) :
    (dot_S2048x4096_S4096x128_S2048x128_1_0_0_1_n_n.lhsIdx i q 0).val = (i 0).val := by
  unfold DotDims.lhsIdx
  rw [dif_neg (show ¬(0 : Fin S2048x4096.rank) ∈ dot_S2048x4096_S4096x128_S2048x128_1_0_0_1_n_n.lhsBatch by decide), dif_pos (show (0 : Fin S2048x4096.rank) ∈ dot_S2048x4096_S4096x128_S2048x128_1_0_0_1_n_n.lhsNonContracting by decide)]
  rfl

/-- The left operand's column coordinate is the contracted edge. -/
theorem lhs_scat_1 (i : S2048x128.Idx) (q : dot_S2048x4096_S4096x128_S2048x128_1_0_0_1_n_n.contr.Idx) :
    (dot_S2048x4096_S4096x128_S2048x128_1_0_0_1_n_n.lhsIdx i q 1).val = (q ⟨0, by decide⟩).val :=
  dot_S2048x4096_S4096x128_S2048x128_1_0_0_1_n_n.lhsIdx_val_of_single rfl i q

/-- The right operand's row coordinate is the contracted edge. -/
theorem rhs_scat_0 (i : S2048x128.Idx) (q : dot_S2048x4096_S4096x128_S2048x128_1_0_0_1_n_n.contr.Idx) :
    (dot_S2048x4096_S4096x128_S2048x128_1_0_0_1_n_n.rhsIdx i q 0).val = (q ⟨0, by decide⟩).val :=
  dot_S2048x4096_S4096x128_S2048x128_1_0_0_1_n_n.rhsIdx_val_of_single rfl i q

/-- The right operand's column coordinate is the output's column. -/
theorem rhs_scat_1 (i : S2048x128.Idx) (q : dot_S2048x4096_S4096x128_S2048x128_1_0_0_1_n_n.contr.Idx) :
    (dot_S2048x4096_S4096x128_S2048x128_1_0_0_1_n_n.rhsIdx i q 1).val = (i 1).val := by
  unfold DotDims.rhsIdx
  rw [dif_neg (show ¬(1 : Fin S4096x128.rank) ∈ dot_S2048x4096_S4096x128_S2048x128_1_0_0_1_n_n.rhsBatch by decide), dif_pos (show (1 : Fin S4096x128.rank) ∈ dot_S2048x4096_S4096x128_S2048x128_1_0_0_1_n_n.rhsNonContracting by decide)]
  rfl

/-- The 2048 × 4096 by 4096 × 128 product into the zero tile, at (r, d): the sum over the 4096 edges of the left
    operand's (r, e) times the right operand's (e, d). -/
theorem scat_matmul_apply (A : FVec Ideal S2048x4096 .bf16) (B : FVec Ideal S4096x128 .bf16) (r : Fin 2048) (d : Fin 128) :
    matmul dot_S2048x4096_S4096x128_S2048x128_1_0_0_1_n_n none A B (constant (F := Ideal) S2048x128 .f32 0x00000000#32) (ix2 r d)
      = ∑ e : Fin 4096, A (ix2 r e) * B (ix2 e d) := by
  simp only [matmul]
  rw [Ideal.matmul_constant_zero_apply, ← Equiv.sum_comp (contrEquiv1 dot_S2048x4096_S4096x128_S2048x128_1_0_0_1_n_n 4096 rfl rfl).symm]
  refine Finset.sum_congr rfl fun k _ => ?_
  have hk := contrEquiv1_symm_val dot_S2048x4096_S4096x128_S2048x128_1_0_0_1_n_n 4096 rfl rfl k
  have el : dot_S2048x4096_S4096x128_S2048x128_1_0_0_1_n_n.lhsIdx (ix2 r d) ((contrEquiv1 dot_S2048x4096_S4096x128_S2048x128_1_0_0_1_n_n 4096 rfl rfl).symm k) = ix2 r k := funext fun a => Fin.ext (by
    match a with
    | ⟨0, _⟩ => exact lhs_scat_0 _ _
    | ⟨1, _⟩ => exact (lhs_scat_1 _ _).trans hk)
  have er : dot_S2048x4096_S4096x128_S2048x128_1_0_0_1_n_n.rhsIdx (ix2 r d) ((contrEquiv1 dot_S2048x4096_S4096x128_S2048x128_1_0_0_1_n_n 4096 rfl rfl).symm k) = ix2 k d := funext fun a => Fin.ext (by
    match a with
    | ⟨0, _⟩ => exact (rhs_scat_0 _ _).trans hk
    | ⟨1, _⟩ => exact rhs_scat_1 _ _)
  rw [el, er]

/-! ## Region 3's stored values -/

/-- The zero tile. -/
theorem k3_pay1_apply (r : Fin 2048) (d : Fin 128) : k3_pay1 (F := Ideal) (ix2 r d) = 0 := by
  unfold k3_pay1
  rw [shapeCast_self]
  exact Ideal.ofBits_zero_f32

/-- The accumulator plus the one-hot sum over the edge tile: node `(i 0) · 2048 + r` takes the messages of the edges
    whose target word is its number as a 32-bit word. -/
theorem k3_pay2_apply (i : grid3.Coords) (v7 : Vec Ideal S4096 .i32) (v16 : Vec Ideal S4096x128 .bf16) (v19 : Vec Ideal S2048x128 .f32)
    (r : Fin 2048) (d : Fin 128) :
    k3_pay2 (F := Ideal) i v7 v16 v19 (ix2 r d)
      = v19 (ix2 r d) + ∑ e' : Fin 4096, Cert.Spec.oh (BitVec.ofNat 32 ((i 0).val * 2048 + r.val) = v7 (ix1 e')) * v16 (ix2 e' d) := by
  unfold k3_pay2
  rw [shapeCast_self, addf_apply]
  refine congrArg (v19 (ix2 r d) + ·) ?_
  refine (scat_matmul_apply _ _ r d).trans ?_
  refine Finset.sum_congr rfl fun e _ => ?_
  refine congrArg₂ (· * ·) ?_ ?_
  · rw [truncf_apply, sitofp_apply, extui_apply]
    show (FloatOps.sitofp (F := Ideal) .f32 ((IntOp.cmpi .eq _ _).setWidth 32) : EReal) = _
    rw [sitofp_extui_cmpi_eq, node_col_apply, target_row_apply]
    show Cert.Spec.oh (BitVec.ofNat 32 (i 0).val * 2048#32 + BitVec.ofNat 32 r.val = v7 (ix1 e)) = _
    rw [node_word]
  · rw [shapeCast_self]

/-- The accumulator plus the residual, under the rectifier. -/
theorem k3_pay3_apply (v27 v28 : Vec Ideal S2048x128 .f32) (r : Fin 2048) (d : Fin 128) :
    k3_pay3 (F := Ideal) v27 v28 (ix2 r d) = max (v27 (ix2 r d) + v28 (ix2 r d)) 0 := by
  unfold k3_pay3
  rw [maximumf_apply, addf_apply, shapeCast_self, broadcast_apply]
  show max _ (Ideal.ofBits .f32 0x00000000#32) = _
  rw [Ideal.ofBits_zero_f32]

/-! ## Region 6's stored values -/

/-- The zero tile. -/
theorem k6_pay1_apply (r : Fin 2048) (d : Fin 128) : k6_pay1 (F := Ideal) (ix2 r d) = 0 := by
  unfold k6_pay1
  rw [shapeCast_self]
  exact Ideal.ofBits_zero_f32

/-- The accumulator plus the one-hot sum over the edge tile: node `(i 0) · 2048 + r` takes the messages of the edges
    whose target word is its number as a 32-bit word. -/
theorem k6_pay2_apply (i : grid6.Coords) (v7 : Vec Ideal S4096 .i32) (v16 : Vec Ideal S4096x128 .bf16) (v19 : Vec Ideal S2048x128 .f32)
    (r : Fin 2048) (d : Fin 128) :
    k6_pay2 (F := Ideal) i v7 v16 v19 (ix2 r d)
      = v19 (ix2 r d) + ∑ e' : Fin 4096, Cert.Spec.oh (BitVec.ofNat 32 ((i 0).val * 2048 + r.val) = v7 (ix1 e')) * v16 (ix2 e' d) := by
  unfold k6_pay2
  rw [shapeCast_self, addf_apply]
  refine congrArg (v19 (ix2 r d) + ·) ?_
  refine (scat_matmul_apply _ _ r d).trans ?_
  refine Finset.sum_congr rfl fun e _ => ?_
  refine congrArg₂ (· * ·) ?_ ?_
  · rw [truncf_apply, sitofp_apply, extui_apply]
    show (FloatOps.sitofp (F := Ideal) .f32 ((IntOp.cmpi .eq _ _).setWidth 32) : EReal) = _
    rw [sitofp_extui_cmpi_eq, node_col_apply, target_row_apply]
    show Cert.Spec.oh (BitVec.ofNat 32 (i 0).val * 2048#32 + BitVec.ofNat 32 r.val = v7 (ix1 e)) = _
    rw [node_word]
  · rw [shapeCast_self]

/-- The accumulator plus the residual, under the rectifier. -/
theorem k6_pay3_apply (v27 v28 : Vec Ideal S2048x128 .f32) (r : Fin 2048) (d : Fin 128) :
    k6_pay3 (F := Ideal) v27 v28 (ix2 r d) = max (v27 (ix2 r d) + v28 (ix2 r d)) 0 := by
  unfold k6_pay3
  rw [maximumf_apply, addf_apply, shapeCast_self, broadcast_apply]
  show max _ (Ideal.ofBits .f32 0x00000000#32) = _
  rw [Ideal.ofBits_zero_f32]

/-! ## Region 9's stored values -/

/-- The zero tile. -/
theorem k9_pay1_apply (r : Fin 2048) (d : Fin 128) : k9_pay1 (F := Ideal) (ix2 r d) = 0 := by
  unfold k9_pay1
  rw [shapeCast_self]
  exact Ideal.ofBits_zero_f32

/-- The accumulator plus the one-hot sum over the edge tile: node `(i 0) · 2048 + r` takes the messages of the edges
    whose target word is its number as a 32-bit word. -/
theorem k9_pay2_apply (i : grid9.Coords) (v7 : Vec Ideal S4096 .i32) (v16 : Vec Ideal S4096x128 .bf16) (v19 : Vec Ideal S2048x128 .f32)
    (r : Fin 2048) (d : Fin 128) :
    k9_pay2 (F := Ideal) i v7 v16 v19 (ix2 r d)
      = v19 (ix2 r d) + ∑ e' : Fin 4096, Cert.Spec.oh (BitVec.ofNat 32 ((i 0).val * 2048 + r.val) = v7 (ix1 e')) * v16 (ix2 e' d) := by
  unfold k9_pay2
  rw [shapeCast_self, addf_apply]
  refine congrArg (v19 (ix2 r d) + ·) ?_
  refine (scat_matmul_apply _ _ r d).trans ?_
  refine Finset.sum_congr rfl fun e _ => ?_
  refine congrArg₂ (· * ·) ?_ ?_
  · rw [truncf_apply, sitofp_apply, extui_apply]
    show (FloatOps.sitofp (F := Ideal) .f32 ((IntOp.cmpi .eq _ _).setWidth 32) : EReal) = _
    rw [sitofp_extui_cmpi_eq, node_col_apply, target_row_apply]
    show Cert.Spec.oh (BitVec.ofNat 32 (i 0).val * 2048#32 + BitVec.ofNat 32 r.val = v7 (ix1 e)) = _
    rw [node_word]
  · rw [shapeCast_self]

/-- The accumulator plus the residual (the last layer has no rectifier). -/
theorem k9_pay3_apply (v27 v28 : Vec Ideal S2048x128 .f32) (r : Fin 2048) (d : Fin 128) :
    k9_pay3 (F := Ideal) v27 v28 (ix2 r d) = v27 (ix2 r d) + v28 (ix2 r d) := by
  unfold k9_pay3
  rw [addf_apply, shapeCast_self]

end Cert.KernelIdeal.Pay
-- ==== Proof.KI.Reg3.Value.lean ====
/-
  Region 3, from the stored tiles to the output array. The Data module says what each grid point leaves: the
  accumulator after the point (the edge tile's one-hot product added to what the point before left, restarted from
  zeros at the first edge tile of a node tile) and the tile stored at the last edge tile of a node tile. Here both are
  solved index by index over the region's three input arrays, the messages (802816 × 128), the target words (802816)
  and the projected features (51200 × 128):

  * point t is node tile t / 196 and edge tile t % 196, and each block a point reads is the matching rows of its
    array (block coordinate = tile number × tile size + coordinate inside the tile);
  * after edge tile j of node tile a, entry (r, d) of the accumulator is the sum, over the edges of tiles 0 … j, of
    [word of node 2048·a + r = target word of the edge] · message of the edge in column d (induction on j);
  * at j = 195 the 196 tile sums are the sum over all 802816 edges, which is the scatter of the specification;
  * the stored tile is the body's closing arithmetic on that accumulator and the node tile's features;
  * the output window is written back exactly at the points with t % 196 = 195, the 25 written tiles of 2048 rows
    cover the 51200 rows, so the output array after the last point is one function of the three input arrays.
-/
import proofs.«177903_j22574348108073_1_alg».proof.Proof.KI.Reg3.Data
import proofs.«177903_j22574348108073_1_alg».proof.Proof.Spec
import proofs.«177903_j22574348108073_1_alg».proof.Proof.LibTileSum
import Idealize.ShloMosaic.Lib.ValueIdx
import Idealize.ShloMosaic.Lib.Pipeline.Value
import proofs.«177903_j22574348108073_1_alg».proof.Proof.KI.PayScatter

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

/-! ## The region's arrays and the blocks a point reads, at their literal types -/

/-- The edge messages, one row of 128 per (padded) edge. -/
abbrev msgArr3 (c : Dev nD) : Vec Ideal S802816x128 .bf16 := V c (Pipeline.arrRef spec3 0)
/-- The target node word of each (padded) edge. -/
abbrev colArr3 (c : Dev nD) : Vec Ideal S802816 .i32 := V c (Pipeline.arrRef spec3 1)
/-- The projected node features, one row of 128 per (padded) node. -/
abbrev featArr3 (c : Dev nD) : Vec Ideal S51200x128 .f32 := V c (Pipeline.arrRef spec3 2)

/-- The tile of 4096 messages point `t` reads. -/
abbrev msgBlk3 (c : Dev nD) (t : Fin cfg3.N) : Vec Ideal S4096x128 .bf16 := iblk3 V c 0 t
/-- The tile of 4096 target words point `t` reads. -/
abbrev colBlk3 (c : Dev nD) (t : Fin cfg3.N) : Vec Ideal S4096 .i32 := iblk3 V c 1 t
/-- The tile of 2048 feature rows point `t` reads. -/
abbrev featBlk3 (c : Dev nD) (t : Fin cfg3.N) : Vec Ideal S2048x128 .f32 := iblk3 V c 2 t

/-- Point `t` of the 25 × 196 grid is node tile `t / 196`, edge tile `t % 196`: the messages and the target words
    move with the edge tile, the features and the output with the node tile. Decided over the 4900 points. -/
theorem tile_facts3 : ∀ t : Fin cfg3.N,
    win3_0.index t (0 : Fin 2) = t.val % 196 ∧ win3_0.index t (1 : Fin 2) = 0
    ∧ win3_1.index t (0 : Fin 1) = t.val % 196
    ∧ win3_2.index t (0 : Fin 2) = t.val / 196 ∧ win3_2.index t (1 : Fin 2) = 0
    ∧ win3_3.index t (0 : Fin 2) = t.val / 196 ∧ win3_3.index t (1 : Fin 2) = 0
    ∧ ((grid3.coords t) 0).val = t.val / 196 :=
  (by decide +kernel : ∀ t : Fin grid3.N, _)

/-- Row `e'` of the message tile at point `t` is message `4096 · (t % 196) + e'`. -/
theorem msgBlk3_apply (c : Dev nD) (t : Fin cfg3.N) (e' : Fin 4096) (d : Fin 128)
    (h : t.val % 196 * 4096 + e'.val < 802816) :
    msgBlk3 V c t (ix2 e' d) = msgArr3 V c (ix2 ⟨t.val % 196 * 4096 + e'.val, h⟩ d) := by
  obtain ⟨e0, e1, -⟩ := tile_facts3 t
  show iblk3 V c 0 t (ix2 e' d) = _
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 4096 + 1 * e'.val = t.val % 196 * 4096 + e'.val; rw [e0]; omega
  | ⟨1, _⟩ => show win3_0.index t (1 : Fin 2) * 128 + 1 * d.val = d.val; rw [e1]; omega

/-- Entry `e'` of the target tile at point `t` is the target word of edge `4096 · (t % 196) + e'`. -/
theorem colBlk3_apply (c : Dev nD) (t : Fin cfg3.N) (e' : Fin 4096)
    (h : t.val % 196 * 4096 + e'.val < 802816) :
    colBlk3 V c t (ix1 e') = colArr3 V c (ix1 ⟨t.val % 196 * 4096 + e'.val, h⟩) := by
  obtain ⟨-, -, e0, -⟩ := tile_facts3 t
  show iblk3 V c 1 t (ix1 e') = _
  unfold iblk3
  rw [View.read_apply]
  show V c (Pipeline.arrRef spec3 1) _ = V c (Pipeline.arrRef spec3 1) _
  congr 1
  funext a
  apply Fin.ext
  match a with
  | ⟨0, _⟩ => show win3_1.index t (0 : Fin 1) * 4096 + 1 * e'.val = t.val % 196 * 4096 + e'.val; rw [e0]; omega

/-- Row `r` of the feature tile at point `t` is the row of node `2048 · (t / 196) + r`. -/
theorem featBlk3_apply (c : Dev nD) (t : Fin cfg3.N) (r : Fin 2048) (d : Fin 128)
    (h : t.val / 196 * 2048 + r.val < 51200) :
    featBlk3 V c t (ix2 r d) = featArr3 V c (ix2 ⟨t.val / 196 * 2048 + r.val, h⟩ d) := by
  obtain ⟨-, -, -, e0, e1, -⟩ := tile_facts3 t
  show iblk3 V c 2 t (ix2 r d) = _
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 2048 + 1 * r.val = t.val / 196 * 2048 + r.val; rw [e0]; omega
  | ⟨1, _⟩ => show win3_2.index t (1 : Fin 2) * 128 + 1 * d.val = d.val; rw [e1]; omega

/-! ## The accumulator solved -/

/-- What edge number `k` adds to node number `n` in column `d`: its message if its target word is `n`'s, else
    nothing (and nothing past the last edge). -/
def edgeTerm3 (c : Dev nD) (n : ℕ) (d : Fin 128) (k : ℕ) : EReal :=
  if h : k < 802816 then
    Cert.Spec.oh (BitVec.ofNat 32 n = colArr3 V c (ix1 ⟨k, h⟩)) * msgArr3 V c (ix2 ⟨k, h⟩ d)
  else 0

/-- One point's step at an entry: the accumulator's entry plus the edge tile's contributions to the node. -/
theorem step3_apply (c : Dev nD) (t : Fin cfg3.N) (prev : Vec Ideal S2048x128 .f32) (r : Fin 2048) (d : Fin 128) :
    k3_pay2 (F := Ideal) (grid3.coords t) (colBlk3 V c t) (msgBlk3 V c t) prev (ix2 r d)
      = prev (ix2 r d) + ∑ e' : Fin 4096, edgeTerm3 V c (t.val / 196 * 2048 + r.val) d (t.val % 196 * 4096 + e'.val) := by
  have hN : cfg3.N = 4900 := N_3
  have ht := t.isLt
  obtain ⟨-, -, -, -, -, -, -, eg⟩ := tile_facts3 t
  refine (Cert.KernelIdeal.Pay.k3_pay2_apply (grid3.coords t) (colBlk3 V c t) (msgBlk3 V c t) prev r d).trans ?_
  congr 1
  refine Finset.sum_congr rfl fun e' _ => ?_
  have he := e'.isLt
  have hk : t.val % 196 * 4096 + e'.val < 802816 := by omega
  rw [colBlk3_apply V c t e' hk, msgBlk3_apply V c t e' d hk, eg]
  unfold edgeTerm3
  rw [dif_pos hk]

/-- At the first edge tile of a node tile the accumulator restarts from zeros. -/
theorem acc3_restart (c : Dev nD) (n : ℕ) (h : n < cfg3.N) (hn : n % 196 = 0) :
    acc3 V c n h = k3_pay2 (grid3.coords ⟨n, h⟩) (colBlk3 V c ⟨n, h⟩) (msgBlk3 V c ⟨n, h⟩) (k3_pay1 (F := Ideal)) := by
  cases n with
  | zero => rfl
  | succ n =>
    show k3_pay2 _ _ _ (if (n + 1) % 196 = 0 then k3_pay1 (F := Ideal) else acc3 V c n _) = _
    rw [if_pos hn]

/-- At every other edge tile it goes on from what the point before left. -/
theorem acc3_carry (c : Dev nD) (n : ℕ) (h : n + 1 < cfg3.N) (hn : (n + 1) % 196 ≠ 0) :
    acc3 V c (n + 1) h = k3_pay2 (grid3.coords ⟨n + 1, h⟩) (colBlk3 V c ⟨n + 1, h⟩) (msgBlk3 V c ⟨n + 1, h⟩)
      (acc3 V c n (Nat.lt_of_succ_lt h)) := by
  show k3_pay2 _ _ _ (if (n + 1) % 196 = 0 then k3_pay1 (F := Ideal) else acc3 V c n _) = _
  rw [if_neg hn]

/-- THE ACCUMULATOR at node tile `a`, edge tile `j`: entry (r, d) holds the contributions to node `2048 · a + r` of
    the edges of the tiles up to `j`. -/
theorem acc3_apply (c : Dev nD) (a : ℕ) (r : Fin 2048) (d : Fin 128) :
    ∀ (j n : ℕ) (h : n < cfg3.N), n = 196 * a + j → j < 196 →
      acc3 V c n h (ix2 r d)
        = ∑ s ∈ Finset.range (j + 1), ∑ e' : Fin 4096, edgeTerm3 V c (a * 2048 + r.val) d (s * 4096 + e'.val) := by
  have hN : cfg3.N = 4900 := N_3
  intro j
  induction j with
  | zero =>
    intro n h hn _
    rw [acc3_restart V c n h (by omega)]
    refine (step3_apply V c ⟨n, h⟩ (k3_pay1 (F := Ideal)) r d).trans ?_
    rw [Cert.KernelIdeal.Pay.k3_pay1_apply, zero_add, Finset.sum_range_one]
    show ∑ e' : Fin 4096, edgeTerm3 V c (n / 196 * 2048 + r.val) d (n % 196 * 4096 + e'.val) = _
    rw [show n / 196 = a by omega, show n % 196 = 0 by omega]
  | succ j ih =>
    intro n h hn hj
    obtain ⟨m, rfl⟩ : ∃ m, n = m + 1 := ⟨196 * a + j, by omega⟩
    rw [acc3_carry V c m h (by omega)]
    refine (step3_apply V c ⟨m + 1, h⟩ (acc3 V c m (Nat.lt_of_succ_lt h)) r d).trans ?_
    rw [ih m (Nat.lt_of_succ_lt h) (by omega) (by omega), Finset.sum_range_succ _ (j + 1)]
    show _ + ∑ e' : Fin 4096, edgeTerm3 V c ((m + 1) / 196 * 2048 + r.val) d ((m + 1) % 196 * 4096 + e'.val) = _
    rw [show (m + 1) / 196 = a by omega, show (m + 1) % 196 = j + 1 by omega]

/-- The 196 edge tiles make all 802816 edges: the tile sums are the scatter's sum over every edge. -/
theorem tiles3_eq_scat (c : Dev nD) (n : Fin 51200) (d : Fin 128) :
    ∑ s ∈ Finset.range 196, ∑ e' : Fin 4096, edgeTerm3 V c n.val d (s * 4096 + e'.val)
      = Cert.Spec.scat (fun e => colArr3 V c (ix1 e)) (fun e d => msgArr3 V c (ix2 e d)) n d := by
  rw [Finset.sum_range]
  refine Eq.trans ?_ (Cert.TileSum.sum_tiles_fin' 196 4096 802816 rfl
    (fun e : Fin 802816 => Cert.Spec.oh (BitVec.ofNat 32 n.val = colArr3 V c (ix1 e)) * msgArr3 V c (ix2 e d))
    (fun s e' => ⟨s.val * 4096 + e'.val, by have := s.isLt; have := e'.isLt; omega⟩) (fun _ _ => rfl))
  refine Finset.sum_congr rfl fun s _ => Finset.sum_congr rfl fun e' _ => ?_
  have hs := s.isLt
  have he := e'.isLt
  unfold edgeTerm3
  rw [dif_pos (by omega)]

/-- After the last edge tile of node tile `t / 196` the accumulator holds the scatter's rows of that tile. -/
theorem acc3_last (c : Dev nD) (t : Fin cfg3.N) (ht : t.val % 196 = 195) (r : Fin 2048) (d : Fin 128)
    (n : Fin 51200) (hn : n.val = t.val / 196 * 2048 + r.val) :
    acc3 V c t.val t.isLt (ix2 r d)
      = Cert.Spec.scat (fun e => colArr3 V c (ix1 e)) (fun e d => msgArr3 V c (ix2 e d)) n d := by
  rw [acc3_apply V c (t.val / 196) r d 195 t.val t.isLt (by omega) (by omega), ← hn]
  exact tiles3_eq_scat V c n d

/-! ## The stored tile -/

/-- What the last edge tile's point stores at an entry: the body's closing arithmetic on the finished accumulator and
    the node tile's feature row, read off by its payload lemma. -/
theorem res3_apply (c : Dev nD) (t : Fin cfg3.N) (ht : t.val % 196 = 195) (r : Fin 2048) (d : Fin 128)
    (n : Fin 51200) (hn : n.val = t.val / 196 * 2048 + r.val) :
    res3 V c t (ix2 r d)
      = Cert.Spec.residRelu (Cert.Spec.scat (fun e => colArr3 V c (ix1 e)) (fun e d => msgArr3 V c (ix2 e d)))
          (fun n d => featArr3 V c (ix2 n d)) n d := by
  unfold res3
  refine (Cert.KernelIdeal.Pay.k3_pay3_apply (acc3 V c t.val t.isLt) (featBlk3 V c t) r d).trans ?_
  rw [acc3_last V c t ht r d n hn, featBlk3_apply V c t r d (by rw [← hn]; exact n.isLt)]
  have e : (⟨t.val / 196 * 2048 + r.val, by rw [← hn]; exact n.isLt⟩ : Fin 51200) = n := Fin.ext hn.symm
  rw [e]
  rfl

/-! ## From the stored tiles to the array -/

/-- What the output array ends holding, as one function of the region's input arrays. -/
abbrev scatOut3 (c : Dev nD) : Vec Ideal S51200x128 .f32 := fun i =>
  Cert.Spec.residRelu (Cert.Spec.scat (fun e => colArr3 V c (ix1 e)) (fun e d => msgArr3 V c (ix2 e d)))
    (fun n d => featArr3 V c (ix2 n d)) (i 0) (i 1)

/-- A point that writes back writes its node tile's rows of `scatOut3`. -/
theorem flushed3_eq (c : Dev nD) (t : Fin cfg3.N) (hf : (cfg3.win 3).flush t = true) :
    (dat3 V c).flushed 3 t = ((cfg3.win 3).blk t).view.read (Elt Ideal) (scatOut3 V c) := by
  have ht : t.val % 196 = 195 := (flush3_3 t).mp hf
  have hN : cfg3.N = 4900 := N_3
  have hlt := t.isLt
  obtain ⟨-, -, -, -, -, e0, e1, -⟩ := tile_facts3 t
  show (cfg3.win 3).cut (grid3.coords t) ((dat3 V c).after 3 t) = _
  rw [after3_3]
  funext y
  obtain ⟨r, d, rfl⟩ : ∃ (r : Fin 2048) (d : Fin 128), y = ix2 r d := ⟨y 0, y 1, eq_ix2 y⟩
  have hr := r.isLt
  have hemb : ((cfg3.win 3).blk t).view.emb (ix2 r d) = ix2 (⟨t.val / 196 * 2048 + r.val, by omega⟩ : Fin 51200) d := by
    funext a
    apply Fin.ext
    match a with
    | ⟨0, _⟩ => show win3_3.index t (0 : Fin 2) * 2048 + 1 * r.val = t.val / 196 * 2048 + r.val; rw [e0]; omega
    | ⟨1, _⟩ => show win3_3.index t (1 : Fin 2) * 128 + 1 * d.val = d.val; rw [e1]; omega
  rw [View.read_apply]
  show res3 V c t (ix2 r d) = scatOut3 V c (((cfg3.win 3).blk t).view.emb (ix2 r d))
  rw [hemb]
  exact res3_apply V c t ht r d ⟨t.val / 196 * 2048 + r.val, by omega⟩ rfl

/-- An index of the array is in point `t`'s block iff each coordinate is in the block's range on its axis. -/
theorem mem_blk3 (t : Fin cfg3.N) (i : S51200x128.Idx) :
    i ∈ ((cfg3.win 3).blk t).view.set ↔ ∀ a : Fin 2, win3_3.index t a * S2048x128.size a ≤ (i a).val ∧ (i a).val < win3_3.index t a * S2048x128.size a + S2048x128.size a := by
  show i ∈ ((View.whole main_v36).slice (win3_3.rect t)).set ↔ _
  rw [View.set_slice_whole, Rect.mem_set_unit]
  exact Iff.rfl

/-- Row `i₀` is written back by the last edge tile's point of node tile `i₀ / 2048`. -/
theorem coverArr3 (i : S51200x128.Idx) :
    ∃ t : Fin cfg3.N, (cfg3.win 3).flush t = true ∧ i ∈ ((cfg3.win 3).blk t).view.set := by
  have h0 : (i 0).val < 51200 := (i 0).isLt
  have h1 : (i 1).val < 128 := (i 1).isLt
  have hN : cfg3.N = 4900 := N_3
  obtain ⟨t, ht⟩ : ∃ t : Fin cfg3.N, t.val = 196 * ((i 0).val / 2048) + 195 :=
    ⟨⟨196 * ((i 0).val / 2048) + 195, by omega⟩, rfl⟩
  obtain ⟨-, -, -, -, -, e0, e1, -⟩ := tile_facts3 t
  refine ⟨t, (flush3_3 t).mpr (by omega), ?_⟩
  rw [mem_blk3]
  intro a
  match a with
  | ⟨0, _⟩ =>
    show win3_3.index t (0 : Fin 2) * 2048 ≤ (i 0).val ∧ (i 0).val < win3_3.index t (0 : Fin 2) * 2048 + 2048
    rw [e0]; omega
  | ⟨1, _⟩ =>
    show win3_3.index t (1 : Fin 2) * 128 ≤ (i 1).val ∧ (i 1).val < win3_3.index t (1 : Fin 2) * 128 + 128
    rw [e1]; omega

/-- THE OUTPUT ARRAY after the last point. -/
theorem final3_arr (c : Dev nD) : (dat3 V c).arrAt 3 cfg3.N = scatOut3 V c :=
  (dat3 V c).arrAt_eq_of_cover 3 (scatOut3 V c) (fun t hf => flushed3_eq V c t hf) coverArr3

/-- The same index by index: row `n`, column `d` of the output array. -/
theorem final3 (c : Dev nD) (n : Fin 51200) (d : Fin 128) :
    (dat3 V c).arrAt 3 cfg3.N (ix2 n d)
      = Cert.Spec.residRelu (Cert.Spec.scat (fun e => colArr3 V c (ix1 e)) (fun e d => msgArr3 V c (ix2 e d)))
          (fun n d => featArr3 V c (ix2 n d)) n d := by
  rw [final3_arr]

end Cert.KernelIdeal.Hand

end
-- ==== Proof.KI.Reg4.Value.lean ====
/-
  Region 4 of the kernel's program, from blocks to the array. The region is the linear layer of the padded node
  features, one tile of 2048 nodes per grid point. Every point stores its whole output tile and the tile is
  written back at every point, and the tiles partition the output's rows. This module reads what each point
  writes back as the point's block of ONE function of the region's input arrays (product plus bias), shows that
  the blocks cover the output, and concludes what the output array holds after the last point, index by index,
  in the certificate's vocabulary (`Cert.Spec.lin`). Floats are extended reals throughout.
-/
import proofs.«177903_j22574348108073_1_alg».proof.Proof.KI.Reg4.Data
import proofs.«177903_j22574348108073_1_alg».proof.Proof.KI.PayDense
import proofs.«177903_j22574348108073_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

/-! ## Region 4: the linear projection of the node features

Each of the 25 grid points multiplies its tile of 2048 rows of the padded node features by the whole weight
matrix, adds the bias along the rows, and writes the 2048 × 128 result back as rows `2048·t … 2048·t + 2047`
of the output. The tiles partition the 51200 rows, so after the last point the output array is the linear
layer of the three input arrays, row by row. -/

/-- The padded node features as the region finds them (51200 × 128). -/
abbrev featArr4 (c : Dev nD) : Vec Ideal S51200x128 .f32 := V c (Pipeline.arrRef spec4 0)

/-- The weight matrix as the region finds it (128 × 128). -/
abbrev wgtArr4 (c : Dev nD) : Vec Ideal S128x128 .f32 := V c (Pipeline.arrRef spec4 1)

/-- The bias as the region finds it (128). -/
abbrev biasArr4 (c : Dev nD) : Vec Ideal S128 .f32 := V c (Pipeline.arrRef spec4 2)

/-- Product plus bias of a 51200 × 128 array, a 128 × 128 array and a 128-vector, as an array: entry
    `(n, d)` is the sum over the 128 feature columns plus the bias at `d`. -/
def nodeLin4 (X : Vec Ideal S51200x128 .f32) (W : Vec Ideal S128x128 .f32) (B : Vec Ideal S128 .f32) :
    Vec Ideal S51200x128 .f32 :=
  fun i => (∑ k : Fin 128, X (ix2 (i 0) k) * W (ix2 k (i 1))) + B (ix1 (i 1))

/-- The product-plus-bias tile at any index of the tile. -/
theorem nodeTile4_apply (x0 : Vec Ideal S2048x128 .f32) (x1 : Vec Ideal S128x128 .f32) (x2 : Vec Ideal S128 .f32)
    (j : S2048x128.Idx) :
    k4_pay1 (F := Ideal) x0 x1 x2 j = (∑ k : Fin 128, x0 (ix2 (j 0) k) * x1 (ix2 k (j 1))) + x2 (ix1 (j 1)) :=
  (congrArg (k4_pay1 (F := Ideal) x0 x1 x2) (eq_ix2 j)).trans (Pay.k4_pay1_apply x0 x1 x2 (j 0) (j 1))

/-- The block indices over the grid: the feature tile and the output tile of point `t` are both the
    `t`-th along the rows and the only one along the columns; the weights' and the bias's one block never
    moves. -/
theorem blockIdx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- Point `t`'s feature tile, entry `(r, k)`, is entry `(2048·t + r, k)` of the feature array. -/
theorem featTile4_apply (c : Dev nD) (t : Fin cfg4.N) (r : Fin 2048) (k : Fin 128) (i : S51200x128.Idx)
    (h0 : (i 0).val = t.val * 2048 + r.val) (h1 : (i 1).val = k.val) :
    (iblk4 (F := Ideal) V c 0 t : Vec Ideal S2048x128 .f32) (ix2 r k) = featArr4 V c i := by
  obtain ⟨e0, e1, -, -, -, -, -⟩ := blockIdx4 t
  unfold iblk4
  rw [View.read_apply]
  show V c (Pipeline.arrRef spec4 0) (((cfg4.win 0).blk t).view.emb (ix2 r k)) = V c (Pipeline.arrRef spec4 0) i
  congr 1
  funext a
  apply Fin.ext
  match a with
  | ⟨0, _⟩ => show win4_0.index t (0 : Fin 2) * 2048 + 1 * r.val = (i 0).val; omega
  | ⟨1, _⟩ => show win4_0.index t (1 : Fin 2) * 128 + 1 * k.val = (i 1).val; omega

/-- Every point's weight block is the whole weight matrix. -/
theorem wgtTile4_apply (c : Dev nD) (t : Fin cfg4.N) (k : Fin 128) (d : Fin 128) :
    (iblk4 (F := Ideal) V c 1 t : Vec Ideal S128x128 .f32) (ix2 k d) = wgtArr4 V c (ix2 k d) := by
  obtain ⟨-, -, e2, e3, -, -, -⟩ := blockIdx4 t
  unfold iblk4
  rw [View.read_apply]
  show V c (Pipeline.arrRef spec4 1) (((cfg4.win 1).blk t).view.emb (ix2 k d)) = V c (Pipeline.arrRef spec4 1) (ix2 k d)
  congr 1
  funext a
  apply Fin.ext
  match a with
  | ⟨0, _⟩ => show win4_1.index t (0 : Fin 2) * 128 + 1 * k.val = k.val; omega
  | ⟨1, _⟩ => show win4_1.index t (1 : Fin 2) * 128 + 1 * d.val = d.val; omega

/-- Every point's bias block is the whole bias. -/
theorem biasTile4_apply (c : Dev nD) (t : Fin cfg4.N) (d : Fin 128) :
    (iblk4 (F := Ideal) V c 2 t : Vec Ideal S128 .f32) (ix1 d) = biasArr4 V c (ix1 d) := by
  obtain ⟨-, -, -, -, e4, -, -⟩ := blockIdx4 t
  unfold iblk4
  rw [View.read_apply]
  show V c (Pipeline.arrRef spec4 2) (((cfg4.win 2).blk t).view.emb (ix1 d)) = V c (Pipeline.arrRef spec4 2) (ix1 d)
  congr 1
  funext a
  apply Fin.ext
  match a with
  | ⟨0, _⟩ => show win4_2.index t (0 : Fin 1) * 128 + 1 * d.val = d.val; omega

/-- WHAT POINT `t` WRITES BACK is its block of product-plus-bias of the three arrays. -/
theorem flushed4_eq (c : Dev nD) (t : Fin cfg4.N) :
    (dat4 (F := Ideal) V c).flushed 3 t
      = ((cfg4.win 3).blk t).view.read (Elt Ideal) (nodeLin4 (featArr4 V c) (wgtArr4 V c) (biasArr4 V c)) := by
  show (cfg4.win 3).cut (grid4.coords t) ((dat4 (F := Ideal) V c).after 3 t) = _
  rw [after4_3]
  unfold out4_3
  obtain ⟨-, -, -, -, -, e5, e6⟩ := blockIdx4 t
  funext j
  rw [View.read_apply]
  show k4_pay1 (F := Ideal) (iblk4 V c 0 t) (iblk4 V c 1 t) (iblk4 V c 2 t) j
      = nodeLin4 (featArr4 V c) (wgtArr4 V c) (biasArr4 V c) (((cfg4.win 3).blk t).view.emb j)
  rw [nodeTile4_apply]
  unfold nodeLin4
  have hr : ((((cfg4.win 3).blk t).view.emb j) 0).val = t.val * 2048 + (j 0).val := by
    show win4_3.index t (0 : Fin 2) * 2048 + 1 * (j 0).val = _; omega
  have hd : ((((cfg4.win 3).blk t).view.emb j) 1) = j 1 := by
    apply Fin.ext
    show win4_3.index t (1 : Fin 2) * 128 + 1 * (j 1).val = _; omega
  rw [biasTile4_apply V c t (j 1), hd]
  refine congrArg (· + biasArr4 V c (ix1 (j 1))) (Finset.sum_congr rfl fun k _ => ?_)
  rw [featTile4_apply V c t (j 0) k (ix2 ((((cfg4.win 3).blk t).view.emb j) 0) k) hr rfl,
    wgtTile4_apply V c t k (j 1)]

/-- An index of the output array is in point `t`'s block iff each coordinate is in the block's range. -/
theorem mem_blk4 (t : Fin cfg4.N) (i : S51200x128.Idx) :
    i ∈ ((cfg4.win 3).blk t).view.set ↔ ∀ a : Fin 2, win4_3.index t a * S2048x128.size a ≤ (i a).val ∧ (i a).val < win4_3.index t a * S2048x128.size a + S2048x128.size a := by
  show i ∈ ((View.whole main_v37).slice (win4_3.rect t)).set ↔ _
  rw [View.set_slice_whole, Rect.mem_set_unit]
  exact Iff.rfl

/-- The 25 row tiles cover the output: row `n` is in the block of point `n / 2048`. -/
theorem cover4 (i : S51200x128.Idx) :
    ∃ t : Fin cfg4.N, (cfg4.win 3).flush t = true ∧ i ∈ ((cfg4.win 3).blk t).view.set := by
  have hi0 : (i 0).val < 51200 := (i 0).isLt
  have hi1 : (i 1).val < 128 := (i 1).isLt
  have hN : cfg4.N = 25 := N_4
  let t : Fin cfg4.N := ⟨(i 0).val / 2048, by rw [hN]; omega⟩
  obtain ⟨-, -, -, -, -, e5, e6⟩ := blockIdx4 t
  have ht : t.val = (i 0).val / 2048 := rfl
  refine ⟨t, flush4_3 t, ?_⟩
  rw [mem_blk4]
  intro a
  match a with
  | ⟨0, _⟩ => show win4_3.index t (0 : Fin 2) * 2048 ≤ (i 0).val ∧ (i 0).val < win4_3.index t (0 : Fin 2) * 2048 + 2048; omega
  | ⟨1, _⟩ => show win4_3.index t (1 : Fin 2) * 128 ≤ (i 1).val ∧ (i 1).val < win4_3.index t (1 : Fin 2) * 128 + 128; omega

/-- THE OUTPUT ARRAY after the last point is product-plus-bias of the three input arrays. -/
theorem arr4_eq (c : Dev nD) :
    (dat4 (F := Ideal) V c).arrAt 3 cfg4.N = nodeLin4 (featArr4 V c) (wgtArr4 V c) (biasArr4 V c) :=
  (dat4 (F := Ideal) V c).arrAt_eq_of_cover 3 (nodeLin4 (featArr4 V c) (wgtArr4 V c) (biasArr4 V c))
    (fun t _ => flushed4_eq V c t) cover4

/-- Entry `(n, d)` of region 4's output array after the last point: the linear layer of the padded node
    features, the weights and the bias. -/
theorem final4 (c : Dev nD) (n : Fin 51200) (d : Fin 128) :
    (dat4 (F := Ideal) V c).arrAt 3 cfg4.N (ix2 n d)
      = Cert.Spec.lin (fun n k => featArr4 V c (ix2 n k)) (fun k d => wgtArr4 V c (ix2 k d)) (fun d => biasArr4 V c (ix1 d)) n d := by
  rw [arr4_eq]
  rfl

end Cert.KernelIdeal.Hand

end
-- ==== Proof.KI.Reg5.Value.lean ====
/-
  Region 5 of the kernel's program, the gather, read as a value: from what each grid point leaves in the output
  window's staging buffer to what the output array holds after the last point, index by index.

  The grid is 196 edge tiles (of 4096 edges) by 25 node tiles (of 2048 nodes), the node tile the fast axis: point
  `t` has edge tile `t / 25` and node tile `t % 25`. The accumulator restarts from zeros at node tile 0 and at node
  tile `j` adds, at row `r` and column `d`, the one-hot sum over the tile's 2048 nodes
  `∑ n', [source word of edge (t / 25)·4096 + r = word of node j·2048 + n'] · H (j·2048 + n', d)`. So after node tile
  `j` it holds the sum of the shares of tiles `0 … j` (induction on the point), and at `j = 24` the 25 shares make the
  one-hot sum over all 51200 nodes. There the body stores normalisation × (accumulator + edge embedding): the edge
  message. The output window is written back at those points only, one block of 4096 rows per edge tile, and the
  196 blocks tile the 802816 rows; so the array ends holding the message of every edge.
-/
import proofs.«177903_j22574348108073_1_alg».proof.Proof.KI.Reg5.Data
import proofs.«177903_j22574348108073_1_alg».proof.Proof.Spec
import proofs.«177903_j22574348108073_1_alg».proof.Proof.LibTileSum
import proofs.«177903_j22574348108073_1_alg».proof.Proof.KI.PayGather
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-! ## The region's input arrays and the blocks a grid point reads, at their literal types -/

/-- The projected node features, 51200 × 128. -/
abbrev featArr5 (c : Dev nD) : Vec Ideal S51200x128 .f32 := V c (Pipeline.arrRef spec5 0)
/-- The edges' source words, 802816 of them. -/
abbrev srcArr5 (c : Dev nD) : Vec Ideal S802816 .i32 := V c (Pipeline.arrRef spec5 1)
/-- The edges' normalisation factors. -/
abbrev normArr5 (c : Dev nD) : Vec Ideal S802816 .f32 := V c (Pipeline.arrRef spec5 2)
/-- The edge embeddings, 802816 × 128. -/
abbrev embArr5 (c : Dev nD) : Vec Ideal S802816x128 .f32 := V c (Pipeline.arrRef spec5 3)

/-- Node tile of the features read at point `t`. -/
abbrev featBlk5 (c : Dev nD) (t : Fin cfg5.N) : Vec Ideal S2048x128 .f32 := iblk5 (F := Ideal) V c 0 t
/-- Edge tile of the source words read at point `t`. -/
abbrev srcBlk5 (c : Dev nD) (t : Fin cfg5.N) : Vec Ideal S4096 .i32 := iblk5 (F := Ideal) V c 1 t
/-- Edge tile of the normalisation factors read at point `t`. -/
abbrev normBlk5 (c : Dev nD) (t : Fin cfg5.N) : Vec Ideal S4096 .f32 := iblk5 (F := Ideal) V c 2 t
/-- Edge tile of the embeddings read at point `t`. -/
abbrev embBlk5 (c : Dev nD) (t : Fin cfg5.N) : Vec Ideal S4096x128 .f32 := iblk5 (F := Ideal) V c 3 t

/-- The arrays by row NUMBER (zero past the last row), so that sums over tiles need no bound proofs. -/
def featAt5 (c : Dev nD) (n : ℕ) (d : Fin 128) : EReal := if h : n < 51200 then featArr5 V c (ix2 ⟨n, h⟩ d) else 0
def srcAt5 (c : Dev nD) (e : ℕ) : BitVec 32 := if h : e < 802816 then srcArr5 V c (ix1 ⟨e, h⟩) else 0
def normAt5 (c : Dev nD) (e : ℕ) : EReal := if h : e < 802816 then normArr5 V c (ix1 ⟨e, h⟩) else 0
def embAt5 (c : Dev nD) (e : ℕ) (d : Fin 128) : EReal := if h : e < 802816 then embArr5 V c (ix2 ⟨e, h⟩ d) else 0

/-- The printed index maps, decided once over the grid: the feature window moves with the node tile `t % 25`, the
    four edge windows with the edge tile `t / 25`, and the body's second grid coordinate is the node tile. -/
theorem idx_facts5 : ∀ t : Fin cfg5.N,
    win5_0.index t (0 : Fin 2) = t.val % 25 ∧ win5_0.index t (1 : Fin 2) = 0
    ∧ win5_1.index t (0 : Fin 1) = t.val / 25
    ∧ win5_2.index t (0 : Fin 1) = t.val / 25
    ∧ win5_3.index t (0 : Fin 2) = t.val / 25 ∧ win5_3.index t (1 : Fin 2) = 0
    ∧ win5_4.index t (0 : Fin 2) = t.val / 25 ∧ win5_4.index t (1 : Fin 2) = 0
    ∧ ((grid5.coords t) 1).val = t.val % 25 :=
  (by decide +kernel : ∀ t : Fin grid5.N, _)

/-- Row `n'` of the node tile read at point `t` is row `(t % 25)·2048 + n'` of the features. -/
theorem featBlk5_apply (c : Dev nD) (t : Fin cfg5.N) (n' : Fin 2048) (d : Fin 128) :
    featBlk5 V c t (ix2 n' d) = featAt5 V c (t.val % 25 * 2048 + n'.val) d := by
  obtain ⟨e0, e1, -⟩ := idx_facts5 t
  have hb : t.val % 25 * 2048 + n'.val < 51200 := by have := n'.isLt; omega
  unfold featAt5; rw [dif_pos hb]
  show V c (Pipeline.arrRef spec5 0) (((cfg5.win 0).blk t).view.emb (ix2 n' d)) = V c (Pipeline.arrRef spec5 0) (ix2 ⟨_, hb⟩ d)
  refine congrArg _ ?_
  funext a; apply Fin.ext
  match a with
  | ⟨0, _⟩ => show win5_0.index t (0 : Fin 2) * 2048 + 1 * n'.val = t.val % 25 * 2048 + n'.val; omega
  | ⟨1, _⟩ => show win5_0.index t (1 : Fin 2) * 128 + 1 * d.val = d.val; omega

/-- Entry `r` of the edge tile of source words read at point `t` is entry `(t / 25)·4096 + r` of the array. -/
theorem srcBlk5_apply (c : Dev nD) (t : Fin cfg5.N) (r : Fin 4096) :
    srcBlk5 V c t (ix1 r) = srcAt5 V c (t.val / 25 * 4096 + r.val) := by
  obtain ⟨-, -, e2, -⟩ := idx_facts5 t
  have hb : t.val / 25 * 4096 + r.val < 802816 := by have := r.isLt; have := t.isLt; have : cfg5.N = 4900 := N_5; omega
  unfold srcAt5; rw [dif_pos hb]
  show V c (Pipeline.arrRef spec5 1) (((cfg5.win 1).blk t).view.emb (ix1 r)) = V c (Pipeline.arrRef spec5 1) (ix1 ⟨_, hb⟩)
  refine congrArg _ ?_
  funext a; apply Fin.ext
  match a with
  | ⟨0, _⟩ => show win5_1.index t (0 : Fin 1) * 4096 + 1 * r.val = t.val / 25 * 4096 + r.val; omega

/-- The same for the normalisation factors. -/
theorem normBlk5_apply (c : Dev nD) (t : Fin cfg5.N) (r : Fin 4096) :
    normBlk5 V c t (ix1 r) = normAt5 V c (t.val / 25 * 4096 + r.val) := by
  obtain ⟨-, -, -, e3, -⟩ := idx_facts5 t
  have hb : t.val / 25 * 4096 + r.val < 802816 := by have := r.isLt; have := t.isLt; have : cfg5.N = 4900 := N_5; omega
  unfold normAt5; rw [dif_pos hb]
  show V c (Pipeline.arrRef spec5 2) (((cfg5.win 2).blk t).view.emb (ix1 r)) = V c (Pipeline.arrRef spec5 2) (ix1 ⟨_, hb⟩)
  refine congrArg _ ?_
  funext a; apply Fin.ext
  match a with
  | ⟨0, _⟩ => show win5_2.index t (0 : Fin 1) * 4096 + 1 * r.val = t.val / 25 * 4096 + r.val; omega

/-- Row `r` of the edge tile of embeddings read at point `t` is row `(t / 25)·4096 + r` of the array. -/
theorem embBlk5_apply (c : Dev nD) (t : Fin cfg5.N) (r : Fin 4096) (d : Fin 128) :
    embBlk5 V c t (ix2 r d) = embAt5 V c (t.val / 25 * 4096 + r.val) d := by
  obtain ⟨-, -, -, -, e4, e5, -⟩ := idx_facts5 t
  have hb : t.val / 25 * 4096 + r.val < 802816 := by have := r.isLt; have := t.isLt; have : cfg5.N = 4900 := N_5; omega
  unfold embAt5; rw [dif_pos hb]
  show V c (Pipeline.arrRef spec5 3) (((cfg5.win 3).blk t).view.emb (ix2 r d)) = V c (Pipeline.arrRef spec5 3) (ix2 ⟨_, hb⟩ d)
  refine congrArg _ ?_
  funext a; apply Fin.ext
  match a with
  | ⟨0, _⟩ => show win5_3.index t (0 : Fin 2) * 4096 + 1 * r.val = t.val / 25 * 4096 + r.val; omega
  | ⟨1, _⟩ => show win5_3.index t (1 : Fin 2) * 128 + 1 * d.val = d.val; omega

/-! ## The accumulator's recursion, one case at a time -/

/-- Where a new edge tile begins the accumulator restarts from the zero tile. -/
theorem acc5_reset (c : Dev nD) (n : ℕ) (hn : n < cfg5.N) (h0 : n % 25 = 0) :
    acc5 (F := Ideal) V c n hn = k5_pay2 (F := Ideal) (grid5.coords ⟨n, hn⟩) (srcBlk5 V c ⟨n, hn⟩) (featBlk5 V c ⟨n, hn⟩) (k5_pay1 (F := Ideal)) := by
  cases n with
  | zero => rfl
  | succ n =>
    show k5_pay2 (F := Ideal) _ _ _ (if (n + 1) % 25 = 0 then k5_pay1 (F := Ideal) else acc5 (F := Ideal) V c n _) = _
    rw [if_pos h0]

/-- Elsewhere it goes on from what the point before left. -/
theorem acc5_step (c : Dev nD) (n : ℕ) (hn : n + 1 < cfg5.N) (h0 : ¬(n + 1) % 25 = 0) :
    acc5 (F := Ideal) V c (n + 1) hn = k5_pay2 (F := Ideal) (grid5.coords ⟨n + 1, hn⟩) (srcBlk5 V c ⟨n + 1, hn⟩) (featBlk5 V c ⟨n + 1, hn⟩)
      (acc5 (F := Ideal) V c n (Nat.lt_of_succ_lt hn)) := by
  show k5_pay2 (F := Ideal) _ _ _ (if (n + 1) % 25 = 0 then k5_pay1 (F := Ideal) else acc5 (F := Ideal) V c n _) = _
  rw [if_neg h0]

theorem featAt5_val (c : Dev nD) (n : Fin 51200) (d : Fin 128) : featAt5 V c n.val d = featArr5 V c (ix2 n d) := by
  unfold featAt5; rw [dif_pos n.isLt]
theorem srcAt5_val (c : Dev nD) (e : Fin 802816) : srcAt5 V c e.val = srcArr5 V c (ix1 e) := by
  unfold srcAt5; rw [dif_pos e.isLt]
theorem normAt5_val (c : Dev nD) (e : Fin 802816) : normAt5 V c e.val = normArr5 V c (ix1 e) := by
  unfold normAt5; rw [dif_pos e.isLt]
theorem embAt5_val (c : Dev nD) (e : Fin 802816) (d : Fin 128) : embAt5 V c e.val d = embArr5 V c (ix2 e d) := by
  unfold embAt5; rw [dif_pos e.isLt]

/-! ## One node tile's share of the gather, and the accumulator solved -/

/-- The share of node tile `j'` in the gathered row of edge number `e`: the one-hot sum over the tile's 2048 nodes. -/
def tileShare5 (c : Dev nD) (e : ℕ) (d : Fin 128) (j' : ℕ) : EReal :=
  ∑ n' : Fin 2048, Cert.Spec.oh (srcAt5 V c e = BitVec.ofNat 32 (j' * 2048 + n'.val)) * featAt5 V c (j' * 2048 + n'.val) d

/-- The body's update at point `t`, at an index: what the accumulator held plus the share of the point's node tile. -/
theorem pay5_point (c : Dev nD) (t : Fin cfg5.N) (acc : Vec Ideal S4096x128 .f32) (r : Fin 4096) (d : Fin 128) :
    k5_pay2 (F := Ideal) (grid5.coords t) (srcBlk5 V c t) (featBlk5 V c t) acc (ix2 r d)
      = acc (ix2 r d) + tileShare5 V c (t.val / 25 * 4096 + r.val) d (t.val % 25) := by
  obtain ⟨-, -, -, -, -, -, -, -, e8⟩ := idx_facts5 t
  refine (Pay.k5_pay2_apply (grid5.coords t) (srcBlk5 V c t) (featBlk5 V c t) acc r d).trans ?_
  refine congrArg (acc (ix2 r d) + ·) ?_
  unfold tileShare5
  refine Finset.sum_congr rfl fun n' _ => ?_
  rw [srcBlk5_apply, featBlk5_apply, e8]

/-- At the first node tile of an edge tile the accumulator holds that tile's share alone (zero plus it). -/
theorem accSum5_first (c : Dev nD) (n : ℕ) (hn : n < cfg5.N) (h0 : n % 25 = 0) (r : Fin 4096) (d : Fin 128) :
    acc5 (F := Ideal) V c n hn (ix2 r d) = tileShare5 V c (n / 25 * 4096 + r.val) d 0 := by
  rw [acc5_reset V c n hn h0]
  refine (pay5_point V c ⟨n, hn⟩ _ r d).trans ?_
  rw [Pay.k5_pay1_apply, zero_add]
  show tileShare5 V c (n / 25 * 4096 + r.val) d (n % 25) = _
  rw [h0]

/-- THE ACCUMULATOR SOLVED: after point `n`, of edge tile `n / 25` and node tile `n % 25`, it holds at `(r, d)` the
    shares of the node tiles `0 … n % 25` in the gathered row of edge `(n / 25)·4096 + r`. -/
theorem acc5_apply (c : Dev nD) (n : ℕ) : ∀ (hn : n < cfg5.N) (r : Fin 4096) (d : Fin 128),
    acc5 (F := Ideal) V c n hn (ix2 r d) = ∑ j' ∈ Finset.range (n % 25 + 1), tileShare5 V c (n / 25 * 4096 + r.val) d j' := by
  induction n with
  | zero =>
    intro hn r d
    rw [accSum5_first V c 0 hn rfl r d]
    exact (Finset.sum_range_one _).symm
  | succ n ih =>
    intro hn r d
    by_cases h0 : (n + 1) % 25 = 0
    · rw [accSum5_first V c (n + 1) hn h0 r d, h0]
      exact (Finset.sum_range_one _).symm
    · rw [acc5_step V c n hn h0]
      refine (pay5_point V c ⟨n + 1, hn⟩ _ r d).trans ?_
      rw [ih (Nat.lt_of_succ_lt hn) r d]
      show _ + tileShare5 V c ((n + 1) / 25 * 4096 + r.val) d ((n + 1) % 25) = _
      have hq : (n + 1) / 25 = n / 25 := by omega
      have hm : (n + 1) % 25 = n % 25 + 1 := by omega
      rw [hq, hm, Finset.sum_range_succ _ (n % 25 + 1)]

/-- The 25 node tiles' shares make the one-hot sum over all 51200 nodes. -/
theorem sum_tileShare5 (c : Dev nD) (e : ℕ) (d : Fin 128) :
    ∑ j' ∈ Finset.range 25, tileShare5 V c e d j'
      = ∑ n : Fin 51200, Cert.Spec.oh (srcAt5 V c e = BitVec.ofNat 32 n.val) * featArr5 V c (ix2 n d) := by
  have key := Cert.TileSum.sum_tiles 25 2048 (fun k => Cert.Spec.oh (srcAt5 V c e = BitVec.ofNat 32 k) * featAt5 V c k d)
  refine Eq.trans (Finset.sum_congr rfl fun j' _ => ?_) (key.trans ?_)
  · exact (Finset.sum_range (fun k => Cert.Spec.oh (srcAt5 V c e = BitVec.ofNat 32 (j' * 2048 + k)) * featAt5 V c (j' * 2048 + k) d)).symm
  · refine (Finset.sum_range (n := 51200) (fun k => Cert.Spec.oh (srcAt5 V c e = BitVec.ofNat 32 k) * featAt5 V c k d)).trans ?_
    refine Finset.sum_congr rfl fun n _ => ?_
    show Cert.Spec.oh (srcAt5 V c e = BitVec.ofNat 32 n.val) * featAt5 V c n.val d = _
    rw [featAt5_val]

/-! ## The stored tile -/

/-- The edge message by edge NUMBER: normalisation × (one-hot sum over all nodes + edge embedding). -/
def msgAt5 (c : Dev nD) (e : ℕ) (d : Fin 128) : EReal :=
  normAt5 V c e * ((∑ n : Fin 51200, Cert.Spec.oh (srcAt5 V c e = BitVec.ofNat 32 n.val) * featArr5 V c (ix2 n d)) + embAt5 V c e d)

/-- What the body stores at the last node tile of edge tile `t / 25`: the messages of the tile's 4096 edges. -/
theorem msg5_apply (c : Dev nD) (t : Fin cfg5.N) (h24 : t.val % 25 = 24) (j : S4096x128.Idx) :
    msg5 (F := Ideal) V c t j = msgAt5 V c (t.val / 25 * 4096 + (j 0).val) (j 1) := by
  obtain ⟨r, d, rfl⟩ : ∃ (r : Fin 4096) (d : Fin 128), j = ix2 r d := ⟨j 0, j 1, eq_ix2 j⟩
  show k5_pay3 (F := Ideal) (normBlk5 V c t) (acc5 (F := Ideal) V c t.val t.isLt) (embBlk5 V c t) (ix2 r d) = msgAt5 V c (t.val / 25 * 4096 + r.val) d
  refine (Pay.k5_pay3_apply (normBlk5 V c t) (acc5 (F := Ideal) V c t.val t.isLt) (embBlk5 V c t) r d).trans ?_
  have h25 : t.val % 25 + 1 = 25 := by omega
  rw [normBlk5_apply, embBlk5_apply, acc5_apply V c t.val t.isLt r d, h25, sum_tileShare5]
  rfl

/-! ## From the stored tiles to the array -/

/-- THE REGION'S OUTPUT as one function of its input arrays: at `(e, d)` the message of edge `e`. -/
def msgArr5 (c : Dev nD) : Vec Ideal S802816x128 .bf16 := fun i => msgAt5 V c (i 0).val (i 1)

/-- What a point that writes back writes is its block of that function. -/
theorem flushed5_eq (c : Dev nD) (t : Fin cfg5.N) (hf : (cfg5.win 4).flush t = true) :
    (dat5 (F := Ideal) V c).flushed 4 t = ((cfg5.win 4).blk t).view.read (Elt Ideal) (msgArr5 V c) := by
  have h24 : t.val % 25 = 24 := (flush5_4 t).mp hf
  obtain ⟨-, -, -, -, -, -, e6, e7, -⟩ := idx_facts5 t
  show (cfg5.win 4).cut (grid5.coords t) ((dat5 (F := Ideal) V c).after 4 t) = _
  rw [after5_4]
  funext y
  have hy0 : (y 0).val < 4096 := (y 0).isLt
  have hy1 : (y 1).val < 128 := (y 1).isLt
  show msg5 (F := Ideal) V c t ((cfg5.win 4).xinj (grid5.coords t) y) = msgArr5 V c (((cfg5.win 4).blk t).view.emb y)
  refine (msg5_apply V c t h24 _).trans ?_
  have h0 : t.val / 25 * 4096 + (y 0).val = ((((cfg5.win 4).blk t).view.emb y) 0).val := by
    show _ = win5_4.index t (0 : Fin 2) * 4096 + 1 * (y 0).val; omega
  have h1 : (⟨(y 1).val, hy1⟩ : Fin 128) = (((cfg5.win 4).blk t).view.emb y) 1 := by
    apply Fin.ext; show (y 1).val = win5_4.index t (1 : Fin 2) * 128 + 1 * (y 1).val; omega
  exact congrArg₂ (msgAt5 V c) h0 h1

/-- An index of the array is in point `t`'s block iff each coordinate is in the block's range on its axis. -/
theorem mem_blk5 (t : Fin cfg5.N) (i : S802816x128.Idx) :
    i ∈ ((cfg5.win 4).blk t).view.set ↔ ∀ a : Fin 2, win5_4.index t a * S4096x128.size a ≤ (i a).val ∧ (i a).val < win5_4.index t a * S4096x128.size a + S4096x128.size a := by
  show i ∈ ((View.whole main_v38).slice (win5_4.rect t)).set ↔ _
  rw [View.set_slice_whole, Rect.mem_set_unit]
  exact Iff.rfl

/-- Row `e` of the array is written by the last node tile's point of edge tile `e / 4096`. -/
theorem cover5 (i : S802816x128.Idx) : ∃ t : Fin cfg5.N, (cfg5.win 4).flush t = true ∧ i ∈ ((cfg5.win 4).blk t).view.set := by
  have hi0 : (i 0).val < 802816 := (i 0).isLt
  have hi1 : (i 1).val < 128 := (i 1).isLt
  have hN : cfg5.N = 4900 := N_5
  obtain ⟨t, ht⟩ : ∃ t : Fin cfg5.N, t.val = 25 * ((i 0).val / 4096) + 24 := ⟨⟨25 * ((i 0).val / 4096) + 24, by omega⟩, rfl⟩
  obtain ⟨-, -, -, -, -, -, e6, e7, -⟩ := idx_facts5 t
  refine ⟨t, (flush5_4 t).mpr (by omega), ?_⟩
  rw [mem_blk5]
  intro a
  match a with
  | ⟨0, _⟩ => show win5_4.index t (0 : Fin 2) * 4096 ≤ (i 0).val ∧ (i 0).val < win5_4.index t (0 : Fin 2) * 4096 + 4096; omega
  | ⟨1, _⟩ => show win5_4.index t (1 : Fin 2) * 128 ≤ (i 1).val ∧ (i 1).val < win5_4.index t (1 : Fin 2) * 128 + 128; omega

/-- THE OUTPUT ARRAY after the last point is that function. -/
theorem arr5_eq (c : Dev nD) : (dat5 (F := Ideal) V c).arrAt 4 cfg5.N = msgArr5 V c :=
  (dat5 (F := Ideal) V c).arrAt_eq_of_cover 4 (msgArr5 V c) (flushed5_eq V c) cover5

/-- Index by index: the edge message of the certificate's vocabulary, over the region's input arrays. -/
theorem final5 (c : Dev nD) (e : Fin 802816) (d : Fin 128) :
    (dat5 (F := Ideal) V c).arrAt 4 cfg5.N (ix2 e d)
      = Cert.Spec.msgOf (fun e => normArr5 V c (ix1 e))
          (Cert.Spec.gath (fun e => srcArr5 V c (ix1 e)) (fun n d => featArr5 V c (ix2 n d)))
          (fun e d => embArr5 V c (ix2 e d)) e d := by
  rw [arr5_eq]
  show msgAt5 V c e.val d = _
  unfold msgAt5 Cert.Spec.msgOf Cert.Spec.gath
  rw [normAt5_val, srcAt5_val, embAt5_val]

end Cert.KernelIdeal.Hand

end
-- ==== Proof.KI.Reg6.Value.lean ====
/-
  Region 6, from the stored tiles to the output array. The Data module says what each grid point leaves: the
  accumulator after the point (the edge tile's one-hot product added to what the point before left, restarted from
  zeros at the first edge tile of a node tile) and the tile stored at the last edge tile of a node tile. Here both are
  solved index by index over the region's three input arrays, the messages (802816 × 128), the target words (802816)
  and the projected features (51200 × 128):

  * point t is node tile t / 196 and edge tile t % 196, and each block a point reads is the matching rows of its
    array (block coordinate = tile number × tile size + coordinate inside the tile);
  * after edge tile j of node tile a, entry (r, d) of the accumulator is the sum, over the edges of tiles 0 … j, of
    [word of node 2048·a + r = target word of the edge] · message of the edge in column d (induction on j);
  * at j = 195 the 196 tile sums are the sum over all 802816 edges, which is the scatter of the specification;
  * the stored tile is the body's closing arithmetic on that accumulator and the node tile's features;
  * the output window is written back exactly at the points with t % 196 = 195, the 25 written tiles of 2048 rows
    cover the 51200 rows, so the output array after the last point is one function of the three input arrays.
-/
import proofs.«177903_j22574348108073_1_alg».proof.Proof.KI.Reg6.Data
import proofs.«177903_j22574348108073_1_alg».proof.Proof.Spec
import proofs.«177903_j22574348108073_1_alg».proof.Proof.LibTileSum
import Idealize.ShloMosaic.Lib.ValueIdx
import Idealize.ShloMosaic.Lib.Pipeline.Value
import proofs.«177903_j22574348108073_1_alg».proof.Proof.KI.PayScatter

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

/-! ## The region's arrays and the blocks a point reads, at their literal types -/

/-- The edge messages, one row of 128 per (padded) edge. -/
abbrev msgArr6 (c : Dev nD) : Vec Ideal S802816x128 .bf16 := V c (Pipeline.arrRef spec6 0)
/-- The target node word of each (padded) edge. -/
abbrev colArr6 (c : Dev nD) : Vec Ideal S802816 .i32 := V c (Pipeline.arrRef spec6 1)
/-- The projected node features, one row of 128 per (padded) node. -/
abbrev featArr6 (c : Dev nD) : Vec Ideal S51200x128 .f32 := V c (Pipeline.arrRef spec6 2)

/-- The tile of 4096 messages point `t` reads. -/
abbrev msgBlk6 (c : Dev nD) (t : Fin cfg6.N) : Vec Ideal S4096x128 .bf16 := iblk6 V c 0 t
/-- The tile of 4096 target words point `t` reads. -/
abbrev colBlk6 (c : Dev nD) (t : Fin cfg6.N) : Vec Ideal S4096 .i32 := iblk6 V c 1 t
/-- The tile of 2048 feature rows point `t` reads. -/
abbrev featBlk6 (c : Dev nD) (t : Fin cfg6.N) : Vec Ideal S2048x128 .f32 := iblk6 V c 2 t

/-- Point `t` of the 25 × 196 grid is node tile `t / 196`, edge tile `t % 196`: the messages and the target words
    move with the edge tile, the features and the output with the node tile. Decided over the 4900 points. -/
theorem tile_facts6 : ∀ t : Fin cfg6.N,
    win6_0.index t (0 : Fin 2) = t.val % 196 ∧ win6_0.index t (1 : Fin 2) = 0
    ∧ win6_1.index t (0 : Fin 1) = t.val % 196
    ∧ win6_2.index t (0 : Fin 2) = t.val / 196 ∧ win6_2.index t (1 : Fin 2) = 0
    ∧ win6_3.index t (0 : Fin 2) = t.val / 196 ∧ win6_3.index t (1 : Fin 2) = 0
    ∧ ((grid6.coords t) 0).val = t.val / 196 :=
  (by decide +kernel : ∀ t : Fin grid6.N, _)

/-- Row `e'` of the message tile at point `t` is message `4096 · (t % 196) + e'`. -/
theorem msgBlk6_apply (c : Dev nD) (t : Fin cfg6.N) (e' : Fin 4096) (d : Fin 128)
    (h : t.val % 196 * 4096 + e'.val < 802816) :
    msgBlk6 V c t (ix2 e' d) = msgArr6 V c (ix2 ⟨t.val % 196 * 4096 + e'.val, h⟩ d) := by
  obtain ⟨e0, e1, -⟩ := tile_facts6 t
  show iblk6 V c 0 t (ix2 e' d) = _
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 4096 + 1 * e'.val = t.val % 196 * 4096 + e'.val; rw [e0]; omega
  | ⟨1, _⟩ => show win6_0.index t (1 : Fin 2) * 128 + 1 * d.val = d.val; rw [e1]; omega

/-- Entry `e'` of the target tile at point `t` is the target word of edge `4096 · (t % 196) + e'`. -/
theorem colBlk6_apply (c : Dev nD) (t : Fin cfg6.N) (e' : Fin 4096)
    (h : t.val % 196 * 4096 + e'.val < 802816) :
    colBlk6 V c t (ix1 e') = colArr6 V c (ix1 ⟨t.val % 196 * 4096 + e'.val, h⟩) := by
  obtain ⟨-, -, e0, -⟩ := tile_facts6 t
  show iblk6 V c 1 t (ix1 e') = _
  unfold iblk6
  rw [View.read_apply]
  show V c (Pipeline.arrRef spec6 1) _ = V c (Pipeline.arrRef spec6 1) _
  congr 1
  funext a
  apply Fin.ext
  match a with
  | ⟨0, _⟩ => show win6_1.index t (0 : Fin 1) * 4096 + 1 * e'.val = t.val % 196 * 4096 + e'.val; rw [e0]; omega

/-- Row `r` of the feature tile at point `t` is the row of node `2048 · (t / 196) + r`. -/
theorem featBlk6_apply (c : Dev nD) (t : Fin cfg6.N) (r : Fin 2048) (d : Fin 128)
    (h : t.val / 196 * 2048 + r.val < 51200) :
    featBlk6 V c t (ix2 r d) = featArr6 V c (ix2 ⟨t.val / 196 * 2048 + r.val, h⟩ d) := by
  obtain ⟨-, -, -, e0, e1, -⟩ := tile_facts6 t
  show iblk6 V c 2 t (ix2 r d) = _
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 2048 + 1 * r.val = t.val / 196 * 2048 + r.val; rw [e0]; omega
  | ⟨1, _⟩ => show win6_2.index t (1 : Fin 2) * 128 + 1 * d.val = d.val; rw [e1]; omega

/-! ## The accumulator solved -/

/-- What edge number `k` adds to node number `n` in column `d`: its message if its target word is `n`'s, else
    nothing (and nothing past the last edge). -/
def edgeTerm6 (c : Dev nD) (n : ℕ) (d : Fin 128) (k : ℕ) : EReal :=
  if h : k < 802816 then
    Cert.Spec.oh (BitVec.ofNat 32 n = colArr6 V c (ix1 ⟨k, h⟩)) * msgArr6 V c (ix2 ⟨k, h⟩ d)
  else 0

/-- One point's step at an entry: the accumulator's entry plus the edge tile's contributions to the node. -/
theorem step6_apply (c : Dev nD) (t : Fin cfg6.N) (prev : Vec Ideal S2048x128 .f32) (r : Fin 2048) (d : Fin 128) :
    k6_pay2 (F := Ideal) (grid6.coords t) (colBlk6 V c t) (msgBlk6 V c t) prev (ix2 r d)
      = prev (ix2 r d) + ∑ e' : Fin 4096, edgeTerm6 V c (t.val / 196 * 2048 + r.val) d (t.val % 196 * 4096 + e'.val) := by
  have hN : cfg6.N = 4900 := N_6
  have ht := t.isLt
  obtain ⟨-, -, -, -, -, -, -, eg⟩ := tile_facts6 t
  refine (Cert.KernelIdeal.Pay.k6_pay2_apply (grid6.coords t) (colBlk6 V c t) (msgBlk6 V c t) prev r d).trans ?_
  congr 1
  refine Finset.sum_congr rfl fun e' _ => ?_
  have he := e'.isLt
  have hk : t.val % 196 * 4096 + e'.val < 802816 := by omega
  rw [colBlk6_apply V c t e' hk, msgBlk6_apply V c t e' d hk, eg]
  unfold edgeTerm6
  rw [dif_pos hk]

/-- At the first edge tile of a node tile the accumulator restarts from zeros. -/
theorem acc6_restart (c : Dev nD) (n : ℕ) (h : n < cfg6.N) (hn : n % 196 = 0) :
    acc6 V c n h = k6_pay2 (grid6.coords ⟨n, h⟩) (colBlk6 V c ⟨n, h⟩) (msgBlk6 V c ⟨n, h⟩) (k6_pay1 (F := Ideal)) := by
  cases n with
  | zero => rfl
  | succ n =>
    show k6_pay2 _ _ _ (if (n + 1) % 196 = 0 then k6_pay1 (F := Ideal) else acc6 V c n _) = _
    rw [if_pos hn]

/-- At every other edge tile it goes on from what the point before left. -/
theorem acc6_carry (c : Dev nD) (n : ℕ) (h : n + 1 < cfg6.N) (hn : (n + 1) % 196 ≠ 0) :
    acc6 V c (n + 1) h = k6_pay2 (grid6.coords ⟨n + 1, h⟩) (colBlk6 V c ⟨n + 1, h⟩) (msgBlk6 V c ⟨n + 1, h⟩)
      (acc6 V c n (Nat.lt_of_succ_lt h)) := by
  show k6_pay2 _ _ _ (if (n + 1) % 196 = 0 then k6_pay1 (F := Ideal) else acc6 V c n _) = _
  rw [if_neg hn]

/-- THE ACCUMULATOR at node tile `a`, edge tile `j`: entry (r, d) holds the contributions to node `2048 · a + r` of
    the edges of the tiles up to `j`. -/
theorem acc6_apply (c : Dev nD) (a : ℕ) (r : Fin 2048) (d : Fin 128) :
    ∀ (j n : ℕ) (h : n < cfg6.N), n = 196 * a + j → j < 196 →
      acc6 V c n h (ix2 r d)
        = ∑ s ∈ Finset.range (j + 1), ∑ e' : Fin 4096, edgeTerm6 V c (a * 2048 + r.val) d (s * 4096 + e'.val) := by
  have hN : cfg6.N = 4900 := N_6
  intro j
  induction j with
  | zero =>
    intro n h hn _
    rw [acc6_restart V c n h (by omega)]
    refine (step6_apply V c ⟨n, h⟩ (k6_pay1 (F := Ideal)) r d).trans ?_
    rw [Cert.KernelIdeal.Pay.k6_pay1_apply, zero_add, Finset.sum_range_one]
    show ∑ e' : Fin 4096, edgeTerm6 V c (n / 196 * 2048 + r.val) d (n % 196 * 4096 + e'.val) = _
    rw [show n / 196 = a by omega, show n % 196 = 0 by omega]
  | succ j ih =>
    intro n h hn hj
    obtain ⟨m, rfl⟩ : ∃ m, n = m + 1 := ⟨196 * a + j, by omega⟩
    rw [acc6_carry V c m h (by omega)]
    refine (step6_apply V c ⟨m + 1, h⟩ (acc6 V c m (Nat.lt_of_succ_lt h)) r d).trans ?_
    rw [ih m (Nat.lt_of_succ_lt h) (by omega) (by omega), Finset.sum_range_succ _ (j + 1)]
    show _ + ∑ e' : Fin 4096, edgeTerm6 V c ((m + 1) / 196 * 2048 + r.val) d ((m + 1) % 196 * 4096 + e'.val) = _
    rw [show (m + 1) / 196 = a by omega, show (m + 1) % 196 = j + 1 by omega]

/-- The 196 edge tiles make all 802816 edges: the tile sums are the scatter's sum over every edge. -/
theorem tiles6_eq_scat (c : Dev nD) (n : Fin 51200) (d : Fin 128) :
    ∑ s ∈ Finset.range 196, ∑ e' : Fin 4096, edgeTerm6 V c n.val d (s * 4096 + e'.val)
      = Cert.Spec.scat (fun e => colArr6 V c (ix1 e)) (fun e d => msgArr6 V c (ix2 e d)) n d := by
  rw [Finset.sum_range]
  refine Eq.trans ?_ (Cert.TileSum.sum_tiles_fin' 196 4096 802816 rfl
    (fun e : Fin 802816 => Cert.Spec.oh (BitVec.ofNat 32 n.val = colArr6 V c (ix1 e)) * msgArr6 V c (ix2 e d))
    (fun s e' => ⟨s.val * 4096 + e'.val, by have := s.isLt; have := e'.isLt; omega⟩) (fun _ _ => rfl))
  refine Finset.sum_congr rfl fun s _ => Finset.sum_congr rfl fun e' _ => ?_
  have hs := s.isLt
  have he := e'.isLt
  unfold edgeTerm6
  rw [dif_pos (by omega)]

/-- After the last edge tile of node tile `t / 196` the accumulator holds the scatter's rows of that tile. -/
theorem acc6_last (c : Dev nD) (t : Fin cfg6.N) (ht : t.val % 196 = 195) (r : Fin 2048) (d : Fin 128)
    (n : Fin 51200) (hn : n.val = t.val / 196 * 2048 + r.val) :
    acc6 V c t.val t.isLt (ix2 r d)
      = Cert.Spec.scat (fun e => colArr6 V c (ix1 e)) (fun e d => msgArr6 V c (ix2 e d)) n d := by
  rw [acc6_apply V c (t.val / 196) r d 195 t.val t.isLt (by omega) (by omega), ← hn]
  exact tiles6_eq_scat V c n d

/-! ## The stored tile -/

/-- What the last edge tile's point stores at an entry: the body's closing arithmetic on the finished accumulator and
    the node tile's feature row, read off by its payload lemma. -/
theorem res6_apply (c : Dev nD) (t : Fin cfg6.N) (ht : t.val % 196 = 195) (r : Fin 2048) (d : Fin 128)
    (n : Fin 51200) (hn : n.val = t.val / 196 * 2048 + r.val) :
    res6 V c t (ix2 r d)
      = Cert.Spec.residRelu (Cert.Spec.scat (fun e => colArr6 V c (ix1 e)) (fun e d => msgArr6 V c (ix2 e d)))
          (fun n d => featArr6 V c (ix2 n d)) n d := by
  unfold res6
  refine (Cert.KernelIdeal.Pay.k6_pay3_apply (acc6 V c t.val t.isLt) (featBlk6 V c t) r d).trans ?_
  rw [acc6_last V c t ht r d n hn, featBlk6_apply V c t r d (by rw [← hn]; exact n.isLt)]
  have e : (⟨t.val / 196 * 2048 + r.val, by rw [← hn]; exact n.isLt⟩ : Fin 51200) = n := Fin.ext hn.symm
  rw [e]
  rfl

/-! ## From the stored tiles to the array -/

/-- What the output array ends holding, as one function of the region's input arrays. -/
abbrev scatOut6 (c : Dev nD) : Vec Ideal S51200x128 .f32 := fun i =>
  Cert.Spec.residRelu (Cert.Spec.scat (fun e => colArr6 V c (ix1 e)) (fun e d => msgArr6 V c (ix2 e d)))
    (fun n d => featArr6 V c (ix2 n d)) (i 0) (i 1)

/-- A point that writes back writes its node tile's rows of `scatOut6`. -/
theorem flushed6_eq (c : Dev nD) (t : Fin cfg6.N) (hf : (cfg6.win 3).flush t = true) :
    (dat6 V c).flushed 3 t = ((cfg6.win 3).blk t).view.read (Elt Ideal) (scatOut6 V c) := by
  have ht : t.val % 196 = 195 := (flush6_3 t).mp hf
  have hN : cfg6.N = 4900 := N_6
  have hlt := t.isLt
  obtain ⟨-, -, -, -, -, e0, e1, -⟩ := tile_facts6 t
  show (cfg6.win 3).cut (grid6.coords t) ((dat6 V c).after 3 t) = _
  rw [after6_3]
  funext y
  obtain ⟨r, d, rfl⟩ : ∃ (r : Fin 2048) (d : Fin 128), y = ix2 r d := ⟨y 0, y 1, eq_ix2 y⟩
  have hr := r.isLt
  have hemb : ((cfg6.win 3).blk t).view.emb (ix2 r d) = ix2 (⟨t.val / 196 * 2048 + r.val, by omega⟩ : Fin 51200) d := by
    funext a
    apply Fin.ext
    match a with
    | ⟨0, _⟩ => show win6_3.index t (0 : Fin 2) * 2048 + 1 * r.val = t.val / 196 * 2048 + r.val; rw [e0]; omega
    | ⟨1, _⟩ => show win6_3.index t (1 : Fin 2) * 128 + 1 * d.val = d.val; rw [e1]; omega
  rw [View.read_apply]
  show res6 V c t (ix2 r d) = scatOut6 V c (((cfg6.win 3).blk t).view.emb (ix2 r d))
  rw [hemb]
  exact res6_apply V c t ht r d ⟨t.val / 196 * 2048 + r.val, by omega⟩ rfl

/-- An index of the array is in point `t`'s block iff each coordinate is in the block's range on its axis. -/
theorem mem_blk6 (t : Fin cfg6.N) (i : S51200x128.Idx) :
    i ∈ ((cfg6.win 3).blk t).view.set ↔ ∀ a : Fin 2, win6_3.index t a * S2048x128.size a ≤ (i a).val ∧ (i a).val < win6_3.index t a * S2048x128.size a + S2048x128.size a := by
  show i ∈ ((View.whole main_v39).slice (win6_3.rect t)).set ↔ _
  rw [View.set_slice_whole, Rect.mem_set_unit]
  exact Iff.rfl

/-- Row `i₀` is written back by the last edge tile's point of node tile `i₀ / 2048`. -/
theorem coverArr6 (i : S51200x128.Idx) :
    ∃ t : Fin cfg6.N, (cfg6.win 3).flush t = true ∧ i ∈ ((cfg6.win 3).blk t).view.set := by
  have h0 : (i 0).val < 51200 := (i 0).isLt
  have h1 : (i 1).val < 128 := (i 1).isLt
  have hN : cfg6.N = 4900 := N_6
  obtain ⟨t, ht⟩ : ∃ t : Fin cfg6.N, t.val = 196 * ((i 0).val / 2048) + 195 :=
    ⟨⟨196 * ((i 0).val / 2048) + 195, by omega⟩, rfl⟩
  obtain ⟨-, -, -, -, -, e0, e1, -⟩ := tile_facts6 t
  refine ⟨t, (flush6_3 t).mpr (by omega), ?_⟩
  rw [mem_blk6]
  intro a
  match a with
  | ⟨0, _⟩ =>
    show win6_3.index t (0 : Fin 2) * 2048 ≤ (i 0).val ∧ (i 0).val < win6_3.index t (0 : Fin 2) * 2048 + 2048
    rw [e0]; omega
  | ⟨1, _⟩ =>
    show win6_3.index t (1 : Fin 2) * 128 ≤ (i 1).val ∧ (i 1).val < win6_3.index t (1 : Fin 2) * 128 + 128
    rw [e1]; omega

/-- THE OUTPUT ARRAY after the last point. -/
theorem final6_arr (c : Dev nD) : (dat6 V c).arrAt 3 cfg6.N = scatOut6 V c :=
  (dat6 V c).arrAt_eq_of_cover 3 (scatOut6 V c) (fun t hf => flushed6_eq V c t hf) coverArr6

/-- The same index by index: row `n`, column `d` of the output array. -/
theorem final6 (c : Dev nD) (n : Fin 51200) (d : Fin 128) :
    (dat6 V c).arrAt 3 cfg6.N (ix2 n d)
      = Cert.Spec.residRelu (Cert.Spec.scat (fun e => colArr6 V c (ix1 e)) (fun e d => msgArr6 V c (ix2 e d)))
          (fun n d => featArr6 V c (ix2 n d)) n d := by
  rw [final6_arr]

end Cert.KernelIdeal.Hand

end
-- ==== Proof.KI.Reg7.Value.lean ====
/-
  Region 7 of the kernel's program, from blocks to the array. The region is the linear layer of the padded node
  features, one tile of 2048 nodes per grid point. Every point stores its whole output tile and the tile is
  written back at every point, and the tiles partition the output's rows. This module reads what each point
  writes back as the point's block of ONE function of the region's input arrays (product plus bias), shows that
  the blocks cover the output, and concludes what the output array holds after the last point, index by index,
  in the certificate's vocabulary (`Cert.Spec.lin`). Floats are extended reals throughout.
-/
import proofs.«177903_j22574348108073_1_alg».proof.Proof.KI.Reg7.Data
import proofs.«177903_j22574348108073_1_alg».proof.Proof.KI.PayDense
import proofs.«177903_j22574348108073_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

/-! ## Region 7: the linear projection of the node features

Each of the 25 grid points multiplies its tile of 2048 rows of the padded node features by the whole weight
matrix, adds the bias along the rows, and writes the 2048 × 128 result back as rows `2048·t … 2048·t + 2047`
of the output. The tiles partition the 51200 rows, so after the last point the output array is the linear
layer of the three input arrays, row by row. -/

/-- The padded node features as the region finds them (51200 × 128). -/
abbrev featArr7 (c : Dev nD) : Vec Ideal S51200x128 .f32 := V c (Pipeline.arrRef spec7 0)

/-- The weight matrix as the region finds it (128 × 128). -/
abbrev wgtArr7 (c : Dev nD) : Vec Ideal S128x128 .f32 := V c (Pipeline.arrRef spec7 1)

/-- The bias as the region finds it (128). -/
abbrev biasArr7 (c : Dev nD) : Vec Ideal S128 .f32 := V c (Pipeline.arrRef spec7 2)

/-- Product plus bias of a 51200 × 128 array, a 128 × 128 array and a 128-vector, as an array: entry
    `(n, d)` is the sum over the 128 feature columns plus the bias at `d`. -/
def nodeLin7 (X : Vec Ideal S51200x128 .f32) (W : Vec Ideal S128x128 .f32) (B : Vec Ideal S128 .f32) :
    Vec Ideal S51200x128 .f32 :=
  fun i => (∑ k : Fin 128, X (ix2 (i 0) k) * W (ix2 k (i 1))) + B (ix1 (i 1))

/-- The product-plus-bias tile at any index of the tile. -/
theorem nodeTile7_apply (x0 : Vec Ideal S2048x128 .f32) (x1 : Vec Ideal S128x128 .f32) (x2 : Vec Ideal S128 .f32)
    (j : S2048x128.Idx) :
    k7_pay1 (F := Ideal) x0 x1 x2 j = (∑ k : Fin 128, x0 (ix2 (j 0) k) * x1 (ix2 k (j 1))) + x2 (ix1 (j 1)) :=
  (congrArg (k7_pay1 (F := Ideal) x0 x1 x2) (eq_ix2 j)).trans (Pay.k7_pay1_apply x0 x1 x2 (j 0) (j 1))

/-- The block indices over the grid: the feature tile and the output tile of point `t` are both the
    `t`-th along the rows and the only one along the columns; the weights' and the bias's one block never
    moves. -/
theorem blockIdx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = t.val ∧ win7_3.index t (1 : Fin 2) = 0 :=
  (by decide +kernel : ∀ t : Fin grid7.N, _)

/-- Point `t`'s feature tile, entry `(r, k)`, is entry `(2048·t + r, k)` of the feature array. -/
theorem featTile7_apply (c : Dev nD) (t : Fin cfg7.N) (r : Fin 2048) (k : Fin 128) (i : S51200x128.Idx)
    (h0 : (i 0).val = t.val * 2048 + r.val) (h1 : (i 1).val = k.val) :
    (iblk7 (F := Ideal) V c 0 t : Vec Ideal S2048x128 .f32) (ix2 r k) = featArr7 V c i := by
  obtain ⟨e0, e1, -, -, -, -, -⟩ := blockIdx7 t
  unfold iblk7
  rw [View.read_apply]
  show V c (Pipeline.arrRef spec7 0) (((cfg7.win 0).blk t).view.emb (ix2 r k)) = V c (Pipeline.arrRef spec7 0) i
  congr 1
  funext a
  apply Fin.ext
  match a with
  | ⟨0, _⟩ => show win7_0.index t (0 : Fin 2) * 2048 + 1 * r.val = (i 0).val; omega
  | ⟨1, _⟩ => show win7_0.index t (1 : Fin 2) * 128 + 1 * k.val = (i 1).val; omega

/-- Every point's weight block is the whole weight matrix. -/
theorem wgtTile7_apply (c : Dev nD) (t : Fin cfg7.N) (k : Fin 128) (d : Fin 128) :
    (iblk7 (F := Ideal) V c 1 t : Vec Ideal S128x128 .f32) (ix2 k d) = wgtArr7 V c (ix2 k d) := by
  obtain ⟨-, -, e2, e3, -, -, -⟩ := blockIdx7 t
  unfold iblk7
  rw [View.read_apply]
  show V c (Pipeline.arrRef spec7 1) (((cfg7.win 1).blk t).view.emb (ix2 k d)) = V c (Pipeline.arrRef spec7 1) (ix2 k d)
  congr 1
  funext a
  apply Fin.ext
  match a with
  | ⟨0, _⟩ => show win7_1.index t (0 : Fin 2) * 128 + 1 * k.val = k.val; omega
  | ⟨1, _⟩ => show win7_1.index t (1 : Fin 2) * 128 + 1 * d.val = d.val; omega

/-- Every point's bias block is the whole bias. -/
theorem biasTile7_apply (c : Dev nD) (t : Fin cfg7.N) (d : Fin 128) :
    (iblk7 (F := Ideal) V c 2 t : Vec Ideal S128 .f32) (ix1 d) = biasArr7 V c (ix1 d) := by
  obtain ⟨-, -, -, -, e4, -, -⟩ := blockIdx7 t
  unfold iblk7
  rw [View.read_apply]
  show V c (Pipeline.arrRef spec7 2) (((cfg7.win 2).blk t).view.emb (ix1 d)) = V c (Pipeline.arrRef spec7 2) (ix1 d)
  congr 1
  funext a
  apply Fin.ext
  match a with
  | ⟨0, _⟩ => show win7_2.index t (0 : Fin 1) * 128 + 1 * d.val = d.val; omega

/-- WHAT POINT `t` WRITES BACK is its block of product-plus-bias of the three arrays. -/
theorem flushed7_eq (c : Dev nD) (t : Fin cfg7.N) :
    (dat7 (F := Ideal) V c).flushed 3 t
      = ((cfg7.win 3).blk t).view.read (Elt Ideal) (nodeLin7 (featArr7 V c) (wgtArr7 V c) (biasArr7 V c)) := by
  show (cfg7.win 3).cut (grid7.coords t) ((dat7 (F := Ideal) V c).after 3 t) = _
  rw [after7_3]
  unfold out7_3
  obtain ⟨-, -, -, -, -, e5, e6⟩ := blockIdx7 t
  funext j
  rw [View.read_apply]
  show k7_pay1 (F := Ideal) (iblk7 V c 0 t) (iblk7 V c 1 t) (iblk7 V c 2 t) j
      = nodeLin7 (featArr7 V c) (wgtArr7 V c) (biasArr7 V c) (((cfg7.win 3).blk t).view.emb j)
  rw [nodeTile7_apply]
  unfold nodeLin7
  have hr : ((((cfg7.win 3).blk t).view.emb j) 0).val = t.val * 2048 + (j 0).val := by
    show win7_3.index t (0 : Fin 2) * 2048 + 1 * (j 0).val = _; omega
  have hd : ((((cfg7.win 3).blk t).view.emb j) 1) = j 1 := by
    apply Fin.ext
    show win7_3.index t (1 : Fin 2) * 128 + 1 * (j 1).val = _; omega
  rw [biasTile7_apply V c t (j 1), hd]
  refine congrArg (· + biasArr7 V c (ix1 (j 1))) (Finset.sum_congr rfl fun k _ => ?_)
  rw [featTile7_apply V c t (j 0) k (ix2 ((((cfg7.win 3).blk t).view.emb j) 0) k) hr rfl,
    wgtTile7_apply V c t k (j 1)]

/-- An index of the output array is in point `t`'s block iff each coordinate is in the block's range. -/
theorem mem_blk7 (t : Fin cfg7.N) (i : S51200x128.Idx) :
    i ∈ ((cfg7.win 3).blk t).view.set ↔ ∀ a : Fin 2, win7_3.index t a * S2048x128.size a ≤ (i a).val ∧ (i a).val < win7_3.index t a * S2048x128.size a + S2048x128.size a := by
  show i ∈ ((View.whole main_v40).slice (win7_3.rect t)).set ↔ _
  rw [View.set_slice_whole, Rect.mem_set_unit]
  exact Iff.rfl

/-- The 25 row tiles cover the output: row `n` is in the block of point `n / 2048`. -/
theorem cover7 (i : S51200x128.Idx) :
    ∃ t : Fin cfg7.N, (cfg7.win 3).flush t = true ∧ i ∈ ((cfg7.win 3).blk t).view.set := by
  have hi0 : (i 0).val < 51200 := (i 0).isLt
  have hi1 : (i 1).val < 128 := (i 1).isLt
  have hN : cfg7.N = 25 := N_7
  let t : Fin cfg7.N := ⟨(i 0).val / 2048, by rw [hN]; omega⟩
  obtain ⟨-, -, -, -, -, e5, e6⟩ := blockIdx7 t
  have ht : t.val = (i 0).val / 2048 := rfl
  refine ⟨t, flush7_3 t, ?_⟩
  rw [mem_blk7]
  intro a
  match a with
  | ⟨0, _⟩ => show win7_3.index t (0 : Fin 2) * 2048 ≤ (i 0).val ∧ (i 0).val < win7_3.index t (0 : Fin 2) * 2048 + 2048; omega
  | ⟨1, _⟩ => show win7_3.index t (1 : Fin 2) * 128 ≤ (i 1).val ∧ (i 1).val < win7_3.index t (1 : Fin 2) * 128 + 128; omega

/-- THE OUTPUT ARRAY after the last point is product-plus-bias of the three input arrays. -/
theorem arr7_eq (c : Dev nD) :
    (dat7 (F := Ideal) V c).arrAt 3 cfg7.N = nodeLin7 (featArr7 V c) (wgtArr7 V c) (biasArr7 V c) :=
  (dat7 (F := Ideal) V c).arrAt_eq_of_cover 3 (nodeLin7 (featArr7 V c) (wgtArr7 V c) (biasArr7 V c))
    (fun t _ => flushed7_eq V c t) cover7

/-- Entry `(n, d)` of region 7's output array after the last point: the linear layer of the padded node
    features, the weights and the bias. -/
theorem final7 (c : Dev nD) (n : Fin 51200) (d : Fin 128) :
    (dat7 (F := Ideal) V c).arrAt 3 cfg7.N (ix2 n d)
      = Cert.Spec.lin (fun n k => featArr7 V c (ix2 n k)) (fun k d => wgtArr7 V c (ix2 k d)) (fun d => biasArr7 V c (ix1 d)) n d := by
  rw [arr7_eq]
  rfl

end Cert.KernelIdeal.Hand

end
-- ==== Proof.KI.Reg8.Value.lean ====
/-
  Region 8 of the kernel's program, the gather, read as a value: from what each grid point leaves in the output
  window's staging buffer to what the output array holds after the last point, index by index.

  The grid is 196 edge tiles (of 4096 edges) by 25 node tiles (of 2048 nodes), the node tile the fast axis: point
  `t` has edge tile `t / 25` and node tile `t % 25`. The accumulator restarts from zeros at node tile 0 and at node
  tile `j` adds, at row `r` and column `d`, the one-hot sum over the tile's 2048 nodes
  `∑ n', [source word of edge (t / 25)·4096 + r = word of node j·2048 + n'] · H (j·2048 + n', d)`. So after node tile
  `j` it holds the sum of the shares of tiles `0 … j` (induction on the point), and at `j = 24` the 25 shares make the
  one-hot sum over all 51200 nodes. There the body stores normalisation × (accumulator + edge embedding): the edge
  message. The output window is written back at those points only, one block of 4096 rows per edge tile, and the
  196 blocks tile the 802816 rows; so the array ends holding the message of every edge.
-/
import proofs.«177903_j22574348108073_1_alg».proof.Proof.KI.Reg8.Data
import proofs.«177903_j22574348108073_1_alg».proof.Proof.Spec
import proofs.«177903_j22574348108073_1_alg».proof.Proof.LibTileSum
import proofs.«177903_j22574348108073_1_alg».proof.Proof.KI.PayGather
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-! ## The region's input arrays and the blocks a grid point reads, at their literal types -/

/-- The projected node features, 51200 × 128. -/
abbrev featArr8 (c : Dev nD) : Vec Ideal S51200x128 .f32 := V c (Pipeline.arrRef spec8 0)
/-- The edges' source words, 802816 of them. -/
abbrev srcArr8 (c : Dev nD) : Vec Ideal S802816 .i32 := V c (Pipeline.arrRef spec8 1)
/-- The edges' normalisation factors. -/
abbrev normArr8 (c : Dev nD) : Vec Ideal S802816 .f32 := V c (Pipeline.arrRef spec8 2)
/-- The edge embeddings, 802816 × 128. -/
abbrev embArr8 (c : Dev nD) : Vec Ideal S802816x128 .f32 := V c (Pipeline.arrRef spec8 3)

/-- Node tile of the features read at point `t`. -/
abbrev featBlk8 (c : Dev nD) (t : Fin cfg8.N) : Vec Ideal S2048x128 .f32 := iblk8 (F := Ideal) V c 0 t
/-- Edge tile of the source words read at point `t`. -/
abbrev srcBlk8 (c : Dev nD) (t : Fin cfg8.N) : Vec Ideal S4096 .i32 := iblk8 (F := Ideal) V c 1 t
/-- Edge tile of the normalisation factors read at point `t`. -/
abbrev normBlk8 (c : Dev nD) (t : Fin cfg8.N) : Vec Ideal S4096 .f32 := iblk8 (F := Ideal) V c 2 t
/-- Edge tile of the embeddings read at point `t`. -/
abbrev embBlk8 (c : Dev nD) (t : Fin cfg8.N) : Vec Ideal S4096x128 .f32 := iblk8 (F := Ideal) V c 3 t

/-- The arrays by row NUMBER (zero past the last row), so that sums over tiles need no bound proofs. -/
def featAt8 (c : Dev nD) (n : ℕ) (d : Fin 128) : EReal := if h : n < 51200 then featArr8 V c (ix2 ⟨n, h⟩ d) else 0
def srcAt8 (c : Dev nD) (e : ℕ) : BitVec 32 := if h : e < 802816 then srcArr8 V c (ix1 ⟨e, h⟩) else 0
def normAt8 (c : Dev nD) (e : ℕ) : EReal := if h : e < 802816 then normArr8 V c (ix1 ⟨e, h⟩) else 0
def embAt8 (c : Dev nD) (e : ℕ) (d : Fin 128) : EReal := if h : e < 802816 then embArr8 V c (ix2 ⟨e, h⟩ d) else 0

/-- The printed index maps, decided once over the grid: the feature window moves with the node tile `t % 25`, the
    four edge windows with the edge tile `t / 25`, and the body's second grid coordinate is the node tile. -/
theorem idx_facts8 : ∀ t : Fin cfg8.N,
    win8_0.index t (0 : Fin 2) = t.val % 25 ∧ win8_0.index t (1 : Fin 2) = 0
    ∧ win8_1.index t (0 : Fin 1) = t.val / 25
    ∧ win8_2.index t (0 : Fin 1) = t.val / 25
    ∧ win8_3.index t (0 : Fin 2) = t.val / 25 ∧ win8_3.index t (1 : Fin 2) = 0
    ∧ win8_4.index t (0 : Fin 2) = t.val / 25 ∧ win8_4.index t (1 : Fin 2) = 0
    ∧ ((grid8.coords t) 1).val = t.val % 25 :=
  (by decide +kernel : ∀ t : Fin grid8.N, _)

/-- Row `n'` of the node tile read at point `t` is row `(t % 25)·2048 + n'` of the features. -/
theorem featBlk8_apply (c : Dev nD) (t : Fin cfg8.N) (n' : Fin 2048) (d : Fin 128) :
    featBlk8 V c t (ix2 n' d) = featAt8 V c (t.val % 25 * 2048 + n'.val) d := by
  obtain ⟨e0, e1, -⟩ := idx_facts8 t
  have hb : t.val % 25 * 2048 + n'.val < 51200 := by have := n'.isLt; omega
  unfold featAt8; rw [dif_pos hb]
  show V c (Pipeline.arrRef spec8 0) (((cfg8.win 0).blk t).view.emb (ix2 n' d)) = V c (Pipeline.arrRef spec8 0) (ix2 ⟨_, hb⟩ d)
  refine congrArg _ ?_
  funext a; apply Fin.ext
  match a with
  | ⟨0, _⟩ => show win8_0.index t (0 : Fin 2) * 2048 + 1 * n'.val = t.val % 25 * 2048 + n'.val; omega
  | ⟨1, _⟩ => show win8_0.index t (1 : Fin 2) * 128 + 1 * d.val = d.val; omega

/-- Entry `r` of the edge tile of source words read at point `t` is entry `(t / 25)·4096 + r` of the array. -/
theorem srcBlk8_apply (c : Dev nD) (t : Fin cfg8.N) (r : Fin 4096) :
    srcBlk8 V c t (ix1 r) = srcAt8 V c (t.val / 25 * 4096 + r.val) := by
  obtain ⟨-, -, e2, -⟩ := idx_facts8 t
  have hb : t.val / 25 * 4096 + r.val < 802816 := by have := r.isLt; have := t.isLt; have : cfg8.N = 4900 := N_8; omega
  unfold srcAt8; rw [dif_pos hb]
  show V c (Pipeline.arrRef spec8 1) (((cfg8.win 1).blk t).view.emb (ix1 r)) = V c (Pipeline.arrRef spec8 1) (ix1 ⟨_, hb⟩)
  refine congrArg _ ?_
  funext a; apply Fin.ext
  match a with
  | ⟨0, _⟩ => show win8_1.index t (0 : Fin 1) * 4096 + 1 * r.val = t.val / 25 * 4096 + r.val; omega

/-- The same for the normalisation factors. -/
theorem normBlk8_apply (c : Dev nD) (t : Fin cfg8.N) (r : Fin 4096) :
    normBlk8 V c t (ix1 r) = normAt8 V c (t.val / 25 * 4096 + r.val) := by
  obtain ⟨-, -, -, e3, -⟩ := idx_facts8 t
  have hb : t.val / 25 * 4096 + r.val < 802816 := by have := r.isLt; have := t.isLt; have : cfg8.N = 4900 := N_8; omega
  unfold normAt8; rw [dif_pos hb]
  show V c (Pipeline.arrRef spec8 2) (((cfg8.win 2).blk t).view.emb (ix1 r)) = V c (Pipeline.arrRef spec8 2) (ix1 ⟨_, hb⟩)
  refine congrArg _ ?_
  funext a; apply Fin.ext
  match a with
  | ⟨0, _⟩ => show win8_2.index t (0 : Fin 1) * 4096 + 1 * r.val = t.val / 25 * 4096 + r.val; omega

/-- Row `r` of the edge tile of embeddings read at point `t` is row `(t / 25)·4096 + r` of the array. -/
theorem embBlk8_apply (c : Dev nD) (t : Fin cfg8.N) (r : Fin 4096) (d : Fin 128) :
    embBlk8 V c t (ix2 r d) = embAt8 V c (t.val / 25 * 4096 + r.val) d := by
  obtain ⟨-, -, -, -, e4, e5, -⟩ := idx_facts8 t
  have hb : t.val / 25 * 4096 + r.val < 802816 := by have := r.isLt; have := t.isLt; have : cfg8.N = 4900 := N_8; omega
  unfold embAt8; rw [dif_pos hb]
  show V c (Pipeline.arrRef spec8 3) (((cfg8.win 3).blk t).view.emb (ix2 r d)) = V c (Pipeline.arrRef spec8 3) (ix2 ⟨_, hb⟩ d)
  refine congrArg _ ?_
  funext a; apply Fin.ext
  match a with
  | ⟨0, _⟩ => show win8_3.index t (0 : Fin 2) * 4096 + 1 * r.val = t.val / 25 * 4096 + r.val; omega
  | ⟨1, _⟩ => show win8_3.index t (1 : Fin 2) * 128 + 1 * d.val = d.val; omega

/-! ## The accumulator's recursion, one case at a time -/

/-- Where a new edge tile begins the accumulator restarts from the zero tile. -/
theorem acc8_reset (c : Dev nD) (n : ℕ) (hn : n < cfg8.N) (h0 : n % 25 = 0) :
    acc8 (F := Ideal) V c n hn = k8_pay2 (F := Ideal) (grid8.coords ⟨n, hn⟩) (srcBlk8 V c ⟨n, hn⟩) (featBlk8 V c ⟨n, hn⟩) (k8_pay1 (F := Ideal)) := by
  cases n with
  | zero => rfl
  | succ n =>
    show k8_pay2 (F := Ideal) _ _ _ (if (n + 1) % 25 = 0 then k8_pay1 (F := Ideal) else acc8 (F := Ideal) V c n _) = _
    rw [if_pos h0]

/-- Elsewhere it goes on from what the point before left. -/
theorem acc8_step (c : Dev nD) (n : ℕ) (hn : n + 1 < cfg8.N) (h0 : ¬(n + 1) % 25 = 0) :
    acc8 (F := Ideal) V c (n + 1) hn = k8_pay2 (F := Ideal) (grid8.coords ⟨n + 1, hn⟩) (srcBlk8 V c ⟨n + 1, hn⟩) (featBlk8 V c ⟨n + 1, hn⟩)
      (acc8 (F := Ideal) V c n (Nat.lt_of_succ_lt hn)) := by
  show k8_pay2 (F := Ideal) _ _ _ (if (n + 1) % 25 = 0 then k8_pay1 (F := Ideal) else acc8 (F := Ideal) V c n _) = _
  rw [if_neg h0]

theorem featAt8_val (c : Dev nD) (n : Fin 51200) (d : Fin 128) : featAt8 V c n.val d = featArr8 V c (ix2 n d) := by
  unfold featAt8; rw [dif_pos n.isLt]
theorem srcAt8_val (c : Dev nD) (e : Fin 802816) : srcAt8 V c e.val = srcArr8 V c (ix1 e) := by
  unfold srcAt8; rw [dif_pos e.isLt]
theorem normAt8_val (c : Dev nD) (e : Fin 802816) : normAt8 V c e.val = normArr8 V c (ix1 e) := by
  unfold normAt8; rw [dif_pos e.isLt]
theorem embAt8_val (c : Dev nD) (e : Fin 802816) (d : Fin 128) : embAt8 V c e.val d = embArr8 V c (ix2 e d) := by
  unfold embAt8; rw [dif_pos e.isLt]

/-! ## One node tile's share of the gather, and the accumulator solved -/

/-- The share of node tile `j'` in the gathered row of edge number `e`: the one-hot sum over the tile's 2048 nodes. -/
def tileShare8 (c : Dev nD) (e : ℕ) (d : Fin 128) (j' : ℕ) : EReal :=
  ∑ n' : Fin 2048, Cert.Spec.oh (srcAt8 V c e = BitVec.ofNat 32 (j' * 2048 + n'.val)) * featAt8 V c (j' * 2048 + n'.val) d

/-- The body's update at point `t`, at an index: what the accumulator held plus the share of the point's node tile. -/
theorem pay8_point (c : Dev nD) (t : Fin cfg8.N) (acc : Vec Ideal S4096x128 .f32) (r : Fin 4096) (d : Fin 128) :
    k8_pay2 (F := Ideal) (grid8.coords t) (srcBlk8 V c t) (featBlk8 V c t) acc (ix2 r d)
      = acc (ix2 r d) + tileShare8 V c (t.val / 25 * 4096 + r.val) d (t.val % 25) := by
  obtain ⟨-, -, -, -, -, -, -, -, e8⟩ := idx_facts8 t
  refine (Pay.k8_pay2_apply (grid8.coords t) (srcBlk8 V c t) (featBlk8 V c t) acc r d).trans ?_
  refine congrArg (acc (ix2 r d) + ·) ?_
  unfold tileShare8
  refine Finset.sum_congr rfl fun n' _ => ?_
  rw [srcBlk8_apply, featBlk8_apply, e8]

/-- At the first node tile of an edge tile the accumulator holds that tile's share alone (zero plus it). -/
theorem accSum8_first (c : Dev nD) (n : ℕ) (hn : n < cfg8.N) (h0 : n % 25 = 0) (r : Fin 4096) (d : Fin 128) :
    acc8 (F := Ideal) V c n hn (ix2 r d) = tileShare8 V c (n / 25 * 4096 + r.val) d 0 := by
  rw [acc8_reset V c n hn h0]
  refine (pay8_point V c ⟨n, hn⟩ _ r d).trans ?_
  rw [Pay.k8_pay1_apply, zero_add]
  show tileShare8 V c (n / 25 * 4096 + r.val) d (n % 25) = _
  rw [h0]

/-- THE ACCUMULATOR SOLVED: after point `n`, of edge tile `n / 25` and node tile `n % 25`, it holds at `(r, d)` the
    shares of the node tiles `0 … n % 25` in the gathered row of edge `(n / 25)·4096 + r`. -/
theorem acc8_apply (c : Dev nD) (n : ℕ) : ∀ (hn : n < cfg8.N) (r : Fin 4096) (d : Fin 128),
    acc8 (F := Ideal) V c n hn (ix2 r d) = ∑ j' ∈ Finset.range (n % 25 + 1), tileShare8 V c (n / 25 * 4096 + r.val) d j' := by
  induction n with
  | zero =>
    intro hn r d
    rw [accSum8_first V c 0 hn rfl r d]
    exact (Finset.sum_range_one _).symm
  | succ n ih =>
    intro hn r d
    by_cases h0 : (n + 1) % 25 = 0
    · rw [accSum8_first V c (n + 1) hn h0 r d, h0]
      exact (Finset.sum_range_one _).symm
    · rw [acc8_step V c n hn h0]
      refine (pay8_point V c ⟨n + 1, hn⟩ _ r d).trans ?_
      rw [ih (Nat.lt_of_succ_lt hn) r d]
      show _ + tileShare8 V c ((n + 1) / 25 * 4096 + r.val) d ((n + 1) % 25) = _
      have hq : (n + 1) / 25 = n / 25 := by omega
      have hm : (n + 1) % 25 = n % 25 + 1 := by omega
      rw [hq, hm, Finset.sum_range_succ _ (n % 25 + 1)]

/-- The 25 node tiles' shares make the one-hot sum over all 51200 nodes. -/
theorem sum_tileShare8 (c : Dev nD) (e : ℕ) (d : Fin 128) :
    ∑ j' ∈ Finset.range 25, tileShare8 V c e d j'
      = ∑ n : Fin 51200, Cert.Spec.oh (srcAt8 V c e = BitVec.ofNat 32 n.val) * featArr8 V c (ix2 n d) := by
  have key := Cert.TileSum.sum_tiles 25 2048 (fun k => Cert.Spec.oh (srcAt8 V c e = BitVec.ofNat 32 k) * featAt8 V c k d)
  refine Eq.trans (Finset.sum_congr rfl fun j' _ => ?_) (key.trans ?_)
  · exact (Finset.sum_range (fun k => Cert.Spec.oh (srcAt8 V c e = BitVec.ofNat 32 (j' * 2048 + k)) * featAt8 V c (j' * 2048 + k) d)).symm
  · refine (Finset.sum_range (n := 51200) (fun k => Cert.Spec.oh (srcAt8 V c e = BitVec.ofNat 32 k) * featAt8 V c k d)).trans ?_
    refine Finset.sum_congr rfl fun n _ => ?_
    show Cert.Spec.oh (srcAt8 V c e = BitVec.ofNat 32 n.val) * featAt8 V c n.val d = _
    rw [featAt8_val]

/-! ## The stored tile -/

/-- The edge message by edge NUMBER: normalisation × (one-hot sum over all nodes + edge embedding). -/
def msgAt8 (c : Dev nD) (e : ℕ) (d : Fin 128) : EReal :=
  normAt8 V c e * ((∑ n : Fin 51200, Cert.Spec.oh (srcAt8 V c e = BitVec.ofNat 32 n.val) * featArr8 V c (ix2 n d)) + embAt8 V c e d)

/-- What the body stores at the last node tile of edge tile `t / 25`: the messages of the tile's 4096 edges. -/
theorem msg8_apply (c : Dev nD) (t : Fin cfg8.N) (h24 : t.val % 25 = 24) (j : S4096x128.Idx) :
    msg8 (F := Ideal) V c t j = msgAt8 V c (t.val / 25 * 4096 + (j 0).val) (j 1) := by
  obtain ⟨r, d, rfl⟩ : ∃ (r : Fin 4096) (d : Fin 128), j = ix2 r d := ⟨j 0, j 1, eq_ix2 j⟩
  show k8_pay3 (F := Ideal) (normBlk8 V c t) (acc8 (F := Ideal) V c t.val t.isLt) (embBlk8 V c t) (ix2 r d) = msgAt8 V c (t.val / 25 * 4096 + r.val) d
  refine (Pay.k8_pay3_apply (normBlk8 V c t) (acc8 (F := Ideal) V c t.val t.isLt) (embBlk8 V c t) r d).trans ?_
  have h25 : t.val % 25 + 1 = 25 := by omega
  rw [normBlk8_apply, embBlk8_apply, acc8_apply V c t.val t.isLt r d, h25, sum_tileShare8]
  rfl

/-! ## From the stored tiles to the array -/

/-- THE REGION'S OUTPUT as one function of its input arrays: at `(e, d)` the message of edge `e`. -/
def msgArr8 (c : Dev nD) : Vec Ideal S802816x128 .bf16 := fun i => msgAt8 V c (i 0).val (i 1)

/-- What a point that writes back writes is its block of that function. -/
theorem flushed8_eq (c : Dev nD) (t : Fin cfg8.N) (hf : (cfg8.win 4).flush t = true) :
    (dat8 (F := Ideal) V c).flushed 4 t = ((cfg8.win 4).blk t).view.read (Elt Ideal) (msgArr8 V c) := by
  have h24 : t.val % 25 = 24 := (flush8_4 t).mp hf
  obtain ⟨-, -, -, -, -, -, e6, e7, -⟩ := idx_facts8 t
  show (cfg8.win 4).cut (grid8.coords t) ((dat8 (F := Ideal) V c).after 4 t) = _
  rw [after8_4]
  funext y
  have hy0 : (y 0).val < 4096 := (y 0).isLt
  have hy1 : (y 1).val < 128 := (y 1).isLt
  show msg8 (F := Ideal) V c t ((cfg8.win 4).xinj (grid8.coords t) y) = msgArr8 V c (((cfg8.win 4).blk t).view.emb y)
  refine (msg8_apply V c t h24 _).trans ?_
  have h0 : t.val / 25 * 4096 + (y 0).val = ((((cfg8.win 4).blk t).view.emb y) 0).val := by
    show _ = win8_4.index t (0 : Fin 2) * 4096 + 1 * (y 0).val; omega
  have h1 : (⟨(y 1).val, hy1⟩ : Fin 128) = (((cfg8.win 4).blk t).view.emb y) 1 := by
    apply Fin.ext; show (y 1).val = win8_4.index t (1 : Fin 2) * 128 + 1 * (y 1).val; omega
  exact congrArg₂ (msgAt8 V c) h0 h1

/-- An index of the array is in point `t`'s block iff each coordinate is in the block's range on its axis. -/
theorem mem_blk8 (t : Fin cfg8.N) (i : S802816x128.Idx) :
    i ∈ ((cfg8.win 4).blk t).view.set ↔ ∀ a : Fin 2, win8_4.index t a * S4096x128.size a ≤ (i a).val ∧ (i a).val < win8_4.index t a * S4096x128.size a + S4096x128.size a := by
  show i ∈ ((View.whole main_v41).slice (win8_4.rect t)).set ↔ _
  rw [View.set_slice_whole, Rect.mem_set_unit]
  exact Iff.rfl

/-- Row `e` of the array is written by the last node tile's point of edge tile `e / 4096`. -/
theorem cover8 (i : S802816x128.Idx) : ∃ t : Fin cfg8.N, (cfg8.win 4).flush t = true ∧ i ∈ ((cfg8.win 4).blk t).view.set := by
  have hi0 : (i 0).val < 802816 := (i 0).isLt
  have hi1 : (i 1).val < 128 := (i 1).isLt
  have hN : cfg8.N = 4900 := N_8
  obtain ⟨t, ht⟩ : ∃ t : Fin cfg8.N, t.val = 25 * ((i 0).val / 4096) + 24 := ⟨⟨25 * ((i 0).val / 4096) + 24, by omega⟩, rfl⟩
  obtain ⟨-, -, -, -, -, -, e6, e7, -⟩ := idx_facts8 t
  refine ⟨t, (flush8_4 t).mpr (by omega), ?_⟩
  rw [mem_blk8]
  intro a
  match a with
  | ⟨0, _⟩ => show win8_4.index t (0 : Fin 2) * 4096 ≤ (i 0).val ∧ (i 0).val < win8_4.index t (0 : Fin 2) * 4096 + 4096; omega
  | ⟨1, _⟩ => show win8_4.index t (1 : Fin 2) * 128 ≤ (i 1).val ∧ (i 1).val < win8_4.index t (1 : Fin 2) * 128 + 128; omega

/-- THE OUTPUT ARRAY after the last point is that function. -/
theorem arr8_eq (c : Dev nD) : (dat8 (F := Ideal) V c).arrAt 4 cfg8.N = msgArr8 V c :=
  (dat8 (F := Ideal) V c).arrAt_eq_of_cover 4 (msgArr8 V c) (flushed8_eq V c) cover8

/-- Index by index: the edge message of the certificate's vocabulary, over the region's input arrays. -/
theorem final8 (c : Dev nD) (e : Fin 802816) (d : Fin 128) :
    (dat8 (F := Ideal) V c).arrAt 4 cfg8.N (ix2 e d)
      = Cert.Spec.msgOf (fun e => normArr8 V c (ix1 e))
          (Cert.Spec.gath (fun e => srcArr8 V c (ix1 e)) (fun n d => featArr8 V c (ix2 n d)))
          (fun e d => embArr8 V c (ix2 e d)) e d := by
  rw [arr8_eq]
  show msgAt8 V c e.val d = _
  unfold msgAt8 Cert.Spec.msgOf Cert.Spec.gath
  rw [normAt8_val, srcAt8_val, embAt8_val]

end Cert.KernelIdeal.Hand

end
-- ==== Proof.KI.Reg9.Value.lean ====
/-
  Region 9, from the stored tiles to the output array. The Data module says what each grid point leaves: the
  accumulator after the point (the edge tile's one-hot product added to what the point before left, restarted from
  zeros at the first edge tile of a node tile) and the tile stored at the last edge tile of a node tile. Here both are
  solved index by index over the region's three input arrays, the messages (802816 × 128), the target words (802816)
  and the projected features (51200 × 128):

  * point t is node tile t / 196 and edge tile t % 196, and each block a point reads is the matching rows of its
    array (block coordinate = tile number × tile size + coordinate inside the tile);
  * after edge tile j of node tile a, entry (r, d) of the accumulator is the sum, over the edges of tiles 0 … j, of
    [word of node 2048·a + r = target word of the edge] · message of the edge in column d (induction on j);
  * at j = 195 the 196 tile sums are the sum over all 802816 edges, which is the scatter of the specification;
  * the stored tile is the body's closing arithmetic on that accumulator and the node tile's features;
  * the output window is written back exactly at the points with t % 196 = 195, the 25 written tiles of 2048 rows
    cover the 51200 rows, so the output array after the last point is one function of the three input arrays.
-/
import proofs.«177903_j22574348108073_1_alg».proof.Proof.KI.Reg9.Data
import proofs.«177903_j22574348108073_1_alg».proof.Proof.Spec
import proofs.«177903_j22574348108073_1_alg».proof.Proof.LibTileSum
import Idealize.ShloMosaic.Lib.ValueIdx
import Idealize.ShloMosaic.Lib.Pipeline.Value
import proofs.«177903_j22574348108073_1_alg».proof.Proof.KI.PayScatter

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

/-! ## The region's arrays and the blocks a point reads, at their literal types -/

/-- The edge messages, one row of 128 per (padded) edge. -/
abbrev msgArr9 (c : Dev nD) : Vec Ideal S802816x128 .bf16 := V c (Pipeline.arrRef spec9 0)
/-- The target node word of each (padded) edge. -/
abbrev colArr9 (c : Dev nD) : Vec Ideal S802816 .i32 := V c (Pipeline.arrRef spec9 1)
/-- The projected node features, one row of 128 per (padded) node. -/
abbrev featArr9 (c : Dev nD) : Vec Ideal S51200x128 .f32 := V c (Pipeline.arrRef spec9 2)

/-- The tile of 4096 messages point `t` reads. -/
abbrev msgBlk9 (c : Dev nD) (t : Fin cfg9.N) : Vec Ideal S4096x128 .bf16 := iblk9 V c 0 t
/-- The tile of 4096 target words point `t` reads. -/
abbrev colBlk9 (c : Dev nD) (t : Fin cfg9.N) : Vec Ideal S4096 .i32 := iblk9 V c 1 t
/-- The tile of 2048 feature rows point `t` reads. -/
abbrev featBlk9 (c : Dev nD) (t : Fin cfg9.N) : Vec Ideal S2048x128 .f32 := iblk9 V c 2 t

/-- Point `t` of the 25 × 196 grid is node tile `t / 196`, edge tile `t % 196`: the messages and the target words
    move with the edge tile, the features and the output with the node tile. Decided over the 4900 points. -/
theorem tile_facts9 : ∀ t : Fin cfg9.N,
    win9_0.index t (0 : Fin 2) = t.val % 196 ∧ win9_0.index t (1 : Fin 2) = 0
    ∧ win9_1.index t (0 : Fin 1) = t.val % 196
    ∧ win9_2.index t (0 : Fin 2) = t.val / 196 ∧ win9_2.index t (1 : Fin 2) = 0
    ∧ win9_3.index t (0 : Fin 2) = t.val / 196 ∧ win9_3.index t (1 : Fin 2) = 0
    ∧ ((grid9.coords t) 0).val = t.val / 196 :=
  (by decide +kernel : ∀ t : Fin grid9.N, _)

/-- Row `e'` of the message tile at point `t` is message `4096 · (t % 196) + e'`. -/
theorem msgBlk9_apply (c : Dev nD) (t : Fin cfg9.N) (e' : Fin 4096) (d : Fin 128)
    (h : t.val % 196 * 4096 + e'.val < 802816) :
    msgBlk9 V c t (ix2 e' d) = msgArr9 V c (ix2 ⟨t.val % 196 * 4096 + e'.val, h⟩ d) := by
  obtain ⟨e0, e1, -⟩ := tile_facts9 t
  show iblk9 V c 0 t (ix2 e' d) = _
  unfold iblk9
  rw [View.read_apply]
  show V c (Pipeline.arrRef spec9 0) _ = V c (Pipeline.arrRef spec9 0) _
  congr 1
  funext a
  apply Fin.ext
  match a with
  | ⟨0, _⟩ => show win9_0.index t (0 : Fin 2) * 4096 + 1 * e'.val = t.val % 196 * 4096 + e'.val; rw [e0]; omega
  | ⟨1, _⟩ => show win9_0.index t (1 : Fin 2) * 128 + 1 * d.val = d.val; rw [e1]; omega

/-- Entry `e'` of the target tile at point `t` is the target word of edge `4096 · (t % 196) + e'`. -/
theorem colBlk9_apply (c : Dev nD) (t : Fin cfg9.N) (e' : Fin 4096)
    (h : t.val % 196 * 4096 + e'.val < 802816) :
    colBlk9 V c t (ix1 e') = colArr9 V c (ix1 ⟨t.val % 196 * 4096 + e'.val, h⟩) := by
  obtain ⟨-, -, e0, -⟩ := tile_facts9 t
  show iblk9 V c 1 t (ix1 e') = _
  unfold iblk9
  rw [View.read_apply]
  show V c (Pipeline.arrRef spec9 1) _ = V c (Pipeline.arrRef spec9 1) _
  congr 1
  funext a
  apply Fin.ext
  match a with
  | ⟨0, _⟩ => show win9_1.index t (0 : Fin 1) * 4096 + 1 * e'.val = t.val % 196 * 4096 + e'.val; rw [e0]; omega

/-- Row `r` of the feature tile at point `t` is the row of node `2048 · (t / 196) + r`. -/
theorem featBlk9_apply (c : Dev nD) (t : Fin cfg9.N) (r : Fin 2048) (d : Fin 128)
    (h : t.val / 196 * 2048 + r.val < 51200) :
    featBlk9 V c t (ix2 r d) = featArr9 V c (ix2 ⟨t.val / 196 * 2048 + r.val, h⟩ d) := by
  obtain ⟨-, -, -, e0, e1, -⟩ := tile_facts9 t
  show iblk9 V c 2 t (ix2 r d) = _
  unfold iblk9
  rw [View.read_apply]
  show V c (Pipeline.arrRef spec9 2) _ = V c (Pipeline.arrRef spec9 2) _
  congr 1
  funext a
  apply Fin.ext
  match a with
  | ⟨0, _⟩ => show win9_2.index t (0 : Fin 2) * 2048 + 1 * r.val = t.val / 196 * 2048 + r.val; rw [e0]; omega
  | ⟨1, _⟩ => show win9_2.index t (1 : Fin 2) * 128 + 1 * d.val = d.val; rw [e1]; omega

/-! ## The accumulator solved -/

/-- What edge number `k` adds to node number `n` in column `d`: its message if its target word is `n`'s, else
    nothing (and nothing past the last edge). -/
def edgeTerm9 (c : Dev nD) (n : ℕ) (d : Fin 128) (k : ℕ) : EReal :=
  if h : k < 802816 then
    Cert.Spec.oh (BitVec.ofNat 32 n = colArr9 V c (ix1 ⟨k, h⟩)) * msgArr9 V c (ix2 ⟨k, h⟩ d)
  else 0

/-- One point's step at an entry: the accumulator's entry plus the edge tile's contributions to the node. -/
theorem step9_apply (c : Dev nD) (t : Fin cfg9.N) (prev : Vec Ideal S2048x128 .f32) (r : Fin 2048) (d : Fin 128) :
    k9_pay2 (F := Ideal) (grid9.coords t) (colBlk9 V c t) (msgBlk9 V c t) prev (ix2 r d)
      = prev (ix2 r d) + ∑ e' : Fin 4096, edgeTerm9 V c (t.val / 196 * 2048 + r.val) d (t.val % 196 * 4096 + e'.val) := by
  have hN : cfg9.N = 4900 := N_9
  have ht := t.isLt
  obtain ⟨-, -, -, -, -, -, -, eg⟩ := tile_facts9 t
  refine (Cert.KernelIdeal.Pay.k9_pay2_apply (grid9.coords t) (colBlk9 V c t) (msgBlk9 V c t) prev r d).trans ?_
  congr 1
  refine Finset.sum_congr rfl fun e' _ => ?_
  have he := e'.isLt
  have hk : t.val % 196 * 4096 + e'.val < 802816 := by omega
  rw [colBlk9_apply V c t e' hk, msgBlk9_apply V c t e' d hk, eg]
  unfold edgeTerm9
  rw [dif_pos hk]

/-- At the first edge tile of a node tile the accumulator restarts from zeros. -/
theorem acc9_restart (c : Dev nD) (n : ℕ) (h : n < cfg9.N) (hn : n % 196 = 0) :
    acc9 V c n h = k9_pay2 (grid9.coords ⟨n, h⟩) (colBlk9 V c ⟨n, h⟩) (msgBlk9 V c ⟨n, h⟩) (k9_pay1 (F := Ideal)) := by
  cases n with
  | zero => rfl
  | succ n =>
    show k9_pay2 _ _ _ (if (n + 1) % 196 = 0 then k9_pay1 (F := Ideal) else acc9 V c n _) = _
    rw [if_pos hn]

/-- At every other edge tile it goes on from what the point before left. -/
theorem acc9_carry (c : Dev nD) (n : ℕ) (h : n + 1 < cfg9.N) (hn : (n + 1) % 196 ≠ 0) :
    acc9 V c (n + 1) h = k9_pay2 (grid9.coords ⟨n + 1, h⟩) (colBlk9 V c ⟨n + 1, h⟩) (msgBlk9 V c ⟨n + 1, h⟩)
      (acc9 V c n (Nat.lt_of_succ_lt h)) := by
  show k9_pay2 _ _ _ (if (n + 1) % 196 = 0 then k9_pay1 (F := Ideal) else acc9 V c n _) = _
  rw [if_neg hn]

/-- THE ACCUMULATOR at node tile `a`, edge tile `j`: entry (r, d) holds the contributions to node `2048 · a + r` of
    the edges of the tiles up to `j`. -/
theorem acc9_apply (c : Dev nD) (a : ℕ) (r : Fin 2048) (d : Fin 128) :
    ∀ (j n : ℕ) (h : n < cfg9.N), n = 196 * a + j → j < 196 →
      acc9 V c n h (ix2 r d)
        = ∑ s ∈ Finset.range (j + 1), ∑ e' : Fin 4096, edgeTerm9 V c (a * 2048 + r.val) d (s * 4096 + e'.val) := by
  have hN : cfg9.N = 4900 := N_9
  intro j
  induction j with
  | zero =>
    intro n h hn _
    rw [acc9_restart V c n h (by omega)]
    refine (step9_apply V c ⟨n, h⟩ (k9_pay1 (F := Ideal)) r d).trans ?_
    rw [Cert.KernelIdeal.Pay.k9_pay1_apply, zero_add, Finset.sum_range_one]
    show ∑ e' : Fin 4096, edgeTerm9 V c (n / 196 * 2048 + r.val) d (n % 196 * 4096 + e'.val) = _
    rw [show n / 196 = a by omega, show n % 196 = 0 by omega]
  | succ j ih =>
    intro n h hn hj
    obtain ⟨m, rfl⟩ : ∃ m, n = m + 1 := ⟨196 * a + j, by omega⟩
    rw [acc9_carry V c m h (by omega)]
    refine (step9_apply V c ⟨m + 1, h⟩ (acc9 V c m (Nat.lt_of_succ_lt h)) r d).trans ?_
    rw [ih m (Nat.lt_of_succ_lt h) (by omega) (by omega), Finset.sum_range_succ _ (j + 1)]
    show _ + ∑ e' : Fin 4096, edgeTerm9 V c ((m + 1) / 196 * 2048 + r.val) d ((m + 1) % 196 * 4096 + e'.val) = _
    rw [show (m + 1) / 196 = a by omega, show (m + 1) % 196 = j + 1 by omega]

/-- The 196 edge tiles make all 802816 edges: the tile sums are the scatter's sum over every edge. -/
theorem tiles9_eq_scat (c : Dev nD) (n : Fin 51200) (d : Fin 128) :
    ∑ s ∈ Finset.range 196, ∑ e' : Fin 4096, edgeTerm9 V c n.val d (s * 4096 + e'.val)
      = Cert.Spec.scat (fun e => colArr9 V c (ix1 e)) (fun e d => msgArr9 V c (ix2 e d)) n d := by
  rw [Finset.sum_range]
  refine Eq.trans ?_ (Cert.TileSum.sum_tiles_fin' 196 4096 802816 rfl
    (fun e : Fin 802816 => Cert.Spec.oh (BitVec.ofNat 32 n.val = colArr9 V c (ix1 e)) * msgArr9 V c (ix2 e d))
    (fun s e' => ⟨s.val * 4096 + e'.val, by have := s.isLt; have := e'.isLt; omega⟩) (fun _ _ => rfl))
  refine Finset.sum_congr rfl fun s _ => Finset.sum_congr rfl fun e' _ => ?_
  have hs := s.isLt
  have he := e'.isLt
  unfold edgeTerm9
  rw [dif_pos (by omega)]

/-- After the last edge tile of node tile `t / 196` the accumulator holds the scatter's rows of that tile. -/
theorem acc9_last (c : Dev nD) (t : Fin cfg9.N) (ht : t.val % 196 = 195) (r : Fin 2048) (d : Fin 128)
    (n : Fin 51200) (hn : n.val = t.val / 196 * 2048 + r.val) :
    acc9 V c t.val t.isLt (ix2 r d)
      = Cert.Spec.scat (fun e => colArr9 V c (ix1 e)) (fun e d => msgArr9 V c (ix2 e d)) n d := by
  rw [acc9_apply V c (t.val / 196) r d 195 t.val t.isLt (by omega) (by omega), ← hn]
  exact tiles9_eq_scat V c n d

/-! ## The stored tile -/

/-- What the last edge tile's point stores at an entry: the body's closing arithmetic on the finished accumulator and
    the node tile's feature row, read off by its payload lemma. -/
theorem res9_apply (c : Dev nD) (t : Fin cfg9.N) (ht : t.val % 196 = 195) (r : Fin 2048) (d : Fin 128)
    (n : Fin 51200) (hn : n.val = t.val / 196 * 2048 + r.val) :
    res9 V c t (ix2 r d)
      = Cert.Spec.resid (Cert.Spec.scat (fun e => colArr9 V c (ix1 e)) (fun e d => msgArr9 V c (ix2 e d)))
          (fun n d => featArr9 V c (ix2 n d)) n d := by
  unfold res9
  refine (Cert.KernelIdeal.Pay.k9_pay3_apply (acc9 V c t.val t.isLt) (featBlk9 V c t) r d).trans ?_
  rw [acc9_last V c t ht r d n hn, featBlk9_apply V c t r d (by rw [← hn]; exact n.isLt)]
  have e : (⟨t.val / 196 * 2048 + r.val, by rw [← hn]; exact n.isLt⟩ : Fin 51200) = n := Fin.ext hn.symm
  rw [e]
  rfl

/-! ## From the stored tiles to the array -/

/-- What the output array ends holding, as one function of the region's input arrays. -/
abbrev scatOut9 (c : Dev nD) : Vec Ideal S51200x128 .f32 := fun i =>
  Cert.Spec.resid (Cert.Spec.scat (fun e => colArr9 V c (ix1 e)) (fun e d => msgArr9 V c (ix2 e d)))
    (fun n d => featArr9 V c (ix2 n d)) (i 0) (i 1)

/-- A point that writes back writes its node tile's rows of `scatOut9`. -/
theorem flushed9_eq (c : Dev nD) (t : Fin cfg9.N) (hf : (cfg9.win 3).flush t = true) :
    (dat9 V c).flushed 3 t = ((cfg9.win 3).blk t).view.read (Elt Ideal) (scatOut9 V c) := by
  have ht : t.val % 196 = 195 := (flush9_3 t).mp hf
  have hN : cfg9.N = 4900 := N_9
  have hlt := t.isLt
  obtain ⟨-, -, -, -, -, e0, e1, -⟩ := tile_facts9 t
  show (cfg9.win 3).cut (grid9.coords t) ((dat9 V c).after 3 t) = _
  rw [after9_3]
  funext y
  obtain ⟨r, d, rfl⟩ : ∃ (r : Fin 2048) (d : Fin 128), y = ix2 r d := ⟨y 0, y 1, eq_ix2 y⟩
  have hr := r.isLt
  have hemb : ((cfg9.win 3).blk t).view.emb (ix2 r d) = ix2 (⟨t.val / 196 * 2048 + r.val, by omega⟩ : Fin 51200) d := by
    funext a
    apply Fin.ext
    match a with
    | ⟨0, _⟩ => show win9_3.index t (0 : Fin 2) * 2048 + 1 * r.val = t.val / 196 * 2048 + r.val; rw [e0]; omega
    | ⟨1, _⟩ => show win9_3.index t (1 : Fin 2) * 128 + 1 * d.val = d.val; rw [e1]; omega
  rw [View.read_apply]
  show res9 V c t (ix2 r d) = scatOut9 V c (((cfg9.win 3).blk t).view.emb (ix2 r d))
  rw [hemb]
  exact res9_apply V c t ht r d ⟨t.val / 196 * 2048 + r.val, by omega⟩ rfl

/-- An index of the array is in point `t`'s block iff each coordinate is in the block's range on its axis. -/
theorem mem_blk9 (t : Fin cfg9.N) (i : S51200x128.Idx) :
    i ∈ ((cfg9.win 3).blk t).view.set ↔ ∀ a : Fin 2, win9_3.index t a * S2048x128.size a ≤ (i a).val ∧ (i a).val < win9_3.index t a * S2048x128.size a + S2048x128.size a := by
  show i ∈ ((View.whole main_v42).slice (win9_3.rect t)).set ↔ _
  rw [View.set_slice_whole, Rect.mem_set_unit]
  exact Iff.rfl

/-- Row `i₀` is written back by the last edge tile's point of node tile `i₀ / 2048`. -/
theorem coverArr9 (i : S51200x128.Idx) :
    ∃ t : Fin cfg9.N, (cfg9.win 3).flush t = true ∧ i ∈ ((cfg9.win 3).blk t).view.set := by
  have h0 : (i 0).val < 51200 := (i 0).isLt
  have h1 : (i 1).val < 128 := (i 1).isLt
  have hN : cfg9.N = 4900 := N_9
  obtain ⟨t, ht⟩ : ∃ t : Fin cfg9.N, t.val = 196 * ((i 0).val / 2048) + 195 :=
    ⟨⟨196 * ((i 0).val / 2048) + 195, by omega⟩, rfl⟩
  obtain ⟨-, -, -, -, -, e0, e1, -⟩ := tile_facts9 t
  refine ⟨t, (flush9_3 t).mpr (by omega), ?_⟩
  rw [mem_blk9]
  intro a
  match a with
  | ⟨0, _⟩ =>
    show win9_3.index t (0 : Fin 2) * 2048 ≤ (i 0).val ∧ (i 0).val < win9_3.index t (0 : Fin 2) * 2048 + 2048
    rw [e0]; omega
  | ⟨1, _⟩ =>
    show win9_3.index t (1 : Fin 2) * 128 ≤ (i 1).val ∧ (i 1).val < win9_3.index t (1 : Fin 2) * 128 + 128
    rw [e1]; omega

/-- THE OUTPUT ARRAY after the last point. -/
theorem final9_arr (c : Dev nD) : (dat9 V c).arrAt 3 cfg9.N = scatOut9 V c :=
  (dat9 V c).arrAt_eq_of_cover 3 (scatOut9 V c) (fun t hf => flushed9_eq V c t hf) coverArr9

/-- The same index by index: row `n`, column `d` of the output array. -/
theorem final9 (c : Dev nD) (n : Fin 51200) (d : Fin 128) :
    (dat9 V c).arrAt 3 cfg9.N (ix2 n d)
      = Cert.Spec.resid (Cert.Spec.scat (fun e => colArr9 V c (ix1 e)) (fun e d => msgArr9 V c (ix2 e d)))
          (fun n d => featArr9 V c (ix2 n d)) n d := by
  rw [final9_arr]

end Cert.KernelIdeal.Hand

end
-- ==== Proof.SpecRef.lean ====
/-
  One layer of the network the way the reference arranges it, over the extended reals: source and target nodes
  as node numbers (not words), the aggregation a sum over the edges whose target is the node. And the claim's
  three layers on either side.
-/
import proofs.«177903_j22574348108073_1_alg».proof.Proof.Spec

noncomputable section

open scoped BigOperators

namespace Cert.Spec

/-- One layer as the reference arranges it: linear projection, the source node's row, message, the sum over the
    edges into the node, residual. -/
def layerR {E N D : ℕ} (relu : Bool) (x : Mat N D) (W : Mat D D) (b : Fin D → EReal) (row col : Fin E → Fin N)
    (norm : Fin E → EReal) (ea : Mat E D) : Mat N D :=
  let h := lin x W b
  let agg : Mat N D := fun n d => ∑ e : Fin E, oh (col e = n) * (norm e * (h (row e) d + ea e d))
  if relu then residRelu agg h else resid agg h

/-- The reference's three layers. -/
def netR {E N D : ℕ} (x : Mat N D) (W1 : Mat D D) (b1 : Fin D → EReal) (W2 : Mat D D) (b2 : Fin D → EReal) (W3 : Mat D D) (b3 : Fin D → EReal)
    (row col : Fin E → Fin N) (norm : Fin E → EReal) (ea : Mat E D) : Mat N D :=
  layerR false (layerR true (layerR true x W1 b1 row col norm ea) W2 b2 row col norm ea) W3 b3 row col norm ea

/-- The kernel's three layers, on the padded node and edge counts. -/
def netK {E NP D : ℕ} (x : Mat NP D) (W1 : Mat D D) (b1 : Fin D → EReal) (W2 : Mat D D) (b2 : Fin D → EReal) (W3 : Mat D D) (b3 : Fin D → EReal)
    (row col : Fin E → BitVec 32) (norm : Fin E → EReal) (ea : Mat E D) : Mat NP D :=
  layerK false (layerK true (layerK true x W1 b1 row col norm ea) W2 b2 row col norm ea) W3 b3 row col norm ea

end Cert.Spec

end
-- ==== Proof.KI.KernelValue.lean ====
/-
  What the kernel program computes, over the extended reals: the ten kernels' results composed along the program.

  Before the first kernel the program has padded the node features, the source and target words, the edge weights and
  the edge attributes. Kernel 0 multiplies the padded edge attributes by the embedding table; every later kernel reads
  that product. Then three layers of three kernels each: a linear projection of the layer's input, the edge messages
  (edge weight times the projection gathered at the edge's source plus the edge's embedding), and the messages summed
  into their target nodes plus the projection, under the rectifier in the first two layers. A kernel changes only its
  own output array, so every array a kernel reads still holds what its producer left in it. The last host operation
  keeps the first 50000 rows of the padded result.
-/
import proofs.«177903_j22574348108073_1_alg».proof.Proof.KI.Chain
import proofs.«177903_j22574348108073_1_alg».proof.Proof.KI.Reg0.Value
import proofs.«177903_j22574348108073_1_alg».proof.Proof.KI.Reg1.Value
import proofs.«177903_j22574348108073_1_alg».proof.Proof.KI.Reg2.Value
import proofs.«177903_j22574348108073_1_alg».proof.Proof.KI.Reg3.Value
import proofs.«177903_j22574348108073_1_alg».proof.Proof.KI.Reg4.Value
import proofs.«177903_j22574348108073_1_alg».proof.Proof.KI.Reg5.Value
import proofs.«177903_j22574348108073_1_alg».proof.Proof.KI.Reg6.Value
import proofs.«177903_j22574348108073_1_alg».proof.Proof.KI.Reg7.Value
import proofs.«177903_j22574348108073_1_alg».proof.Proof.KI.Reg8.Value
import proofs.«177903_j22574348108073_1_alg».proof.Proof.KI.Reg9.Value
import proofs.«177903_j22574348108073_1_alg».proof.Proof.SpecRef
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec
open scoped BigOperators

variable (m : (ℓ : Loc nD τ sig) → Buf (Elt Ideal) ℓ) (c : Dev nD)

/-! ## What the first kernel finds -/

/-- The padded node features (51200 × 128). -/
def xp : Mat 51200 128 := fun n d => (B0 m c main_v32 : Vec Ideal S51200x128 .f32) (ix2 n d)
/-- The padded source words. -/
def rowp : Fin 802816 → BitVec 32 := fun e => (B0 m c main_v28 : Vec Ideal S802816 .i32) (ix1 e)
/-- The padded target words. -/
def colp : Fin 802816 → BitVec 32 := fun e => (B0 m c main_v29 : Vec Ideal S802816 .i32) (ix1 e)
/-- The padded edge weights. -/
def nmp : Fin 802816 → EReal := fun e => (B0 m c main_v30 : Vec Ideal S802816 .f32) (ix1 e)
/-- The padded edge attributes (802816 × 16). -/
def attrp : Mat 802816 16 := fun e k => (B0 m c main_v31 : Vec Ideal S802816x16 .f32) (ix2 e k)
/-- The embedding table (16 × 128). -/
def emb : Mat 16 128 := fun k d => (B0 m c main_arg3 : Vec Ideal S16x128 .f32) (ix2 k d)
/-- The three layers' weights and biases. -/
def W1 : Mat 128 128 := fun k d => (B0 m c main_arg4 : Vec Ideal S128x128 .f32) (ix2 k d)
def b1 : Fin 128 → EReal := fun d => (B0 m c main_arg5 : Vec Ideal S128 .f32) (ix1 d)
def W2 : Mat 128 128 := fun k d => (B0 m c main_arg6 : Vec Ideal S128x128 .f32) (ix2 k d)
def b2 : Fin 128 → EReal := fun d => (B0 m c main_arg7 : Vec Ideal S128 .f32) (ix1 d)
def W3 : Mat 128 128 := fun k d => (B0 m c main_arg8 : Vec Ideal S128x128 .f32) (ix2 k d)
def b3 : Fin 128 → EReal := fun d => (B0 m c main_arg9 : Vec Ideal S128 .f32) (ix1 d)
/-- The edge embeddings: the padded attributes through the table. -/
def eap : Mat 802816 128 := mm (attrp m c) (emb m c)

/-- The first layer's result, the second layer's input. -/
def x2 : Mat 51200 128 := layerK true (xp m c) (W1 m c) (b1 m c) (rowp m c) (colp m c) (nmp m c) (eap m c)
/-- The second layer's result, the third layer's input. -/
def x3 : Mat 51200 128 := layerK true (x2 m c) (W2 m c) (b2 m c) (rowp m c) (colp m c) (nmp m c) (eap m c)
/-- The third layer's result. -/
def x4 : Mat 51200 128 := layerK false (x3 m c) (W3 m c) (b3 m c) (rowp m c) (colp m c) (nmp m c) (eap m c)

/-! ## Arrays no kernel writes keep their contents -/

/-- The ten kernels' output arrays. -/
abbrev kernelOuts : List (Ref sig .tc) :=
  [main_v33, main_v34, main_v35, main_v36, main_v37, main_v38, main_v39, main_v40, main_v41, main_v42]

theorem ne_of_not_mem {b o : Ref sig .tc} (hb : b ∉ kernelOuts) (ho : o ∈ kernelOuts) : b ≠ o :=
  fun e => hb (e ▸ ho)

/-- A buffer that is no kernel's output array is, after kernel 0, as the first kernel found it. -/
theorem B1_in (b : Ref sig .tc) (hb : b ∉ kernelOuts) : B1 m c (Proc.devRef .tc b) = B0 m c (Proc.devRef .tc b) :=
  B1_keep m c b (ne_of_not_mem hb (by decide))
/-- … and after kernel 1. -/
theorem B2_in (b : Ref sig .tc) (hb : b ∉ kernelOuts) : B2 m c (Proc.devRef .tc b) = B0 m c (Proc.devRef .tc b) :=
  (B2_keep m c b (ne_of_not_mem hb (by decide))).trans (B1_in m c b hb)
/-- … and after kernel 2. -/
theorem B3_in (b : Ref sig .tc) (hb : b ∉ kernelOuts) : B3 m c (Proc.devRef .tc b) = B0 m c (Proc.devRef .tc b) :=
  (B3_keep m c b (ne_of_not_mem hb (by decide))).trans (B2_in m c b hb)
/-- … and after kernel 3. -/
theorem B4_in (b : Ref sig .tc) (hb : b ∉ kernelOuts) : B4 m c (Proc.devRef .tc b) = B0 m c (Proc.devRef .tc b) :=
  (B4_keep m c b (ne_of_not_mem hb (by decide))).trans (B3_in m c b hb)
/-- … and after kernel 4. -/
theorem B5_in (b : Ref sig .tc) (hb : b ∉ kernelOuts) : B5 m c (Proc.devRef .tc b) = B0 m c (Proc.devRef .tc b) :=
  (B5_keep m c b (ne_of_not_mem hb (by decide))).trans (B4_in m c b hb)
/-- … and after kernel 5. -/
theorem B6_in (b : Ref sig .tc) (hb : b ∉ kernelOuts) : B6 m c (Proc.devRef .tc b) = B0 m c (Proc.devRef .tc b) :=
  (B6_keep m c b (ne_of_not_mem hb (by decide))).trans (B5_in m c b hb)
/-- … and after kernel 6. -/
theorem B7_in (b : Ref sig .tc) (hb : b ∉ kernelOuts) : B7 m c (Proc.devRef .tc b) = B0 m c (Proc.devRef .tc b) :=
  (B7_keep m c b (ne_of_not_mem hb (by decide))).trans (B6_in m c b hb)
/-- … and after kernel 7. -/
theorem B8_in (b : Ref sig .tc) (hb : b ∉ kernelOuts) : B8 m c (Proc.devRef .tc b) = B0 m c (Proc.devRef .tc b) :=
  (B8_keep m c b (ne_of_not_mem hb (by decide))).trans (B7_in m c b hb)
/-- … and after kernel 8. -/
theorem B9_in (b : Ref sig .tc) (hb : b ∉ kernelOuts) : B9 m c (Proc.devRef .tc b) = B0 m c (Proc.devRef .tc b) :=
  (B9_keep m c b (ne_of_not_mem hb (by decide))).trans (B8_in m c b hb)

/-! ## Kernel 0: the edge embeddings -/

/-- After kernel 0 its output holds the edge embeddings. -/
theorem ea1_eq : (fun e d => (B1 m c main_v33 : Vec Ideal S802816x128 .f32) (ix2 e d)) = eap m c := by
  funext e d
  exact (congrFun (B1_arr m c 2) (ix2 e d)).trans (final0 (Bv0 m) c e d)

/-- The edge embeddings are still there when the second layer's message kernel reads them … -/
theorem ea_B5 : B5 m c (Proc.devRef .tc main_v33) = B1 m c (Proc.devRef .tc main_v33) :=
  (B5_keep m c main_v33 (by decide)).trans <| (B4_keep m c main_v33 (by decide)).trans <|
    (B3_keep m c main_v33 (by decide)).trans (B2_keep m c main_v33 (by decide))
/-- … and when the third layer's does. -/
theorem ea_B8 : B8 m c (Proc.devRef .tc main_v33) = B1 m c (Proc.devRef .tc main_v33) :=
  (B8_keep m c main_v33 (by decide)).trans <| (B7_keep m c main_v33 (by decide)).trans <|
    (B6_keep m c main_v33 (by decide)).trans (ea_B5 m c)

/-! ## The first layer: kernels 1, 2, 3 -/

/-- After kernel 1 its output holds the linear projection of the layer's input. -/
theorem proj1_eq : (fun n d => (B2 m c main_v34 : Vec Ideal S51200x128 .f32) (ix2 n d)) = lin (xp m c) (W1 m c) (b1 m c) := by
  funext n d
  refine (congrFun (B2_arr m c 3) (ix2 n d)).trans ((final1 (Bv1 m) c n d).trans ?_)
  show lin (fun n k => (B1 m c main_v32 : Vec Ideal S51200x128 .f32) (ix2 n k))
      (fun k d => (B1 m c main_arg4 : Vec Ideal S128x128 .f32) (ix2 k d))
      (fun d => (B1 m c main_arg5 : Vec Ideal S128 .f32) (ix1 d)) n d = _
  rw [B1_in m c main_v32 (by decide), B1_in m c main_arg4 (by decide), B1_in m c main_arg5 (by decide)]
  rfl

/-- After kernel 2 its output holds the edge messages: the normalisation times the gathered projection plus the
    edge embedding. -/
theorem msg1_eq : (fun e d => (B3 m c main_v35 : Vec Ideal S802816x128 .bf16) (ix2 e d)) = msgOf (nmp m c) (gath (rowp m c) (lin (xp m c) (W1 m c) (b1 m c))) (eap m c) := by
  funext e d
  refine (congrFun (B3_arr m c 4) (ix2 e d)).trans ((final2 (Bv2 m) c e d).trans ?_)
  show msgOf (fun e => (B2 m c main_v30 : Vec Ideal S802816 .f32) (ix1 e))
      (gath (fun e => (B2 m c main_v28 : Vec Ideal S802816 .i32) (ix1 e)) (fun n d => (B2 m c main_v34 : Vec Ideal S51200x128 .f32) (ix2 n d)))
      (fun e d => (B2 m c main_v33 : Vec Ideal S802816x128 .f32) (ix2 e d)) e d = _
  rw [proj1_eq m c, B2_in m c main_v30 (by decide), B2_in m c main_v28 (by decide), B2_keep m c main_v33 (by decide), ea1_eq m c]
  rfl

/-- After kernel 3 its output holds the layer's result: the messages summed into their target nodes, plus the
    projection, under the rectifier. -/
theorem layer1_eq : (fun n d => (B4 m c main_v36 : Vec Ideal S51200x128 .f32) (ix2 n d)) = x2 m c := by
  funext n d
  refine (congrFun (B4_arr m c 3) (ix2 n d)).trans ((final3 (Bv3 m) c n d).trans ?_)
  show residRelu (scat (fun e => (B3 m c main_v29 : Vec Ideal S802816 .i32) (ix1 e)) (fun e d => (B3 m c main_v35 : Vec Ideal S802816x128 .bf16) (ix2 e d)))
      (fun n d => (B3 m c main_v34 : Vec Ideal S51200x128 .f32) (ix2 n d)) n d = _
  rw [msg1_eq m c, B3_in m c main_v29 (by decide), B3_keep m c main_v34 (by decide), proj1_eq m c]
  rfl

/-! ## The second layer: kernels 4, 5, 6 -/

/-- After kernel 4 its output holds the linear projection of the layer's input. -/
theorem proj2_eq : (fun n d => (B5 m c main_v37 : Vec Ideal S51200x128 .f32) (ix2 n d)) = lin (x2 m c) (W2 m c) (b2 m c) := by
  funext n d
  refine (congrFun (B5_arr m c 3) (ix2 n d)).trans ((final4 (Bv4 m) c n d).trans ?_)
  show lin (fun n k => (B4 m c main_v36 : Vec Ideal S51200x128 .f32) (ix2 n k))
      (fun k d => (B4 m c main_arg6 : Vec Ideal S128x128 .f32) (ix2 k d))
      (fun d => (B4 m c main_arg7 : Vec Ideal S128 .f32) (ix1 d)) n d = _
  rw [layer1_eq m c, B4_in m c main_arg6 (by decide), B4_in m c main_arg7 (by decide)]
  rfl

/-- After kernel 5 its output holds the edge messages: the normalisation times the gathered projection plus the
    edge embedding. -/
theorem msg2_eq : (fun e d => (B6 m c main_v38 : Vec Ideal S802816x128 .bf16) (ix2 e d)) = msgOf (nmp m c) (gath (rowp m c) (lin (x2 m c) (W2 m c) (b2 m c))) (eap m c) := by
  funext e d
  refine (congrFun (B6_arr m c 4) (ix2 e d)).trans ((final5 (Bv5 m) c e d).trans ?_)
  show msgOf (fun e => (B5 m c main_v30 : Vec Ideal S802816 .f32) (ix1 e))
      (gath (fun e => (B5 m c main_v28 : Vec Ideal S802816 .i32) (ix1 e)) (fun n d => (B5 m c main_v37 : Vec Ideal S51200x128 .f32) (ix2 n d)))
      (fun e d => (B5 m c main_v33 : Vec Ideal S802816x128 .f32) (ix2 e d)) e d = _
  rw [proj2_eq m c, B5_in m c main_v30 (by decide), B5_in m c main_v28 (by decide), ea_B5 m c, ea1_eq m c]
  rfl

/-- After kernel 6 its output holds the layer's result: the messages summed into their target nodes, plus the
    projection, under the rectifier. -/
theorem layer2_eq : (fun n d => (B7 m c main_v39 : Vec Ideal S51200x128 .f32) (ix2 n d)) = x3 m c := by
  funext n d
  refine (congrFun (B7_arr m c 3) (ix2 n d)).trans ((final6 (Bv6 m) c n d).trans ?_)
  show residRelu (scat (fun e => (B6 m c main_v29 : Vec Ideal S802816 .i32) (ix1 e)) (fun e d => (B6 m c main_v38 : Vec Ideal S802816x128 .bf16) (ix2 e d)))
      (fun n d => (B6 m c main_v37 : Vec Ideal S51200x128 .f32) (ix2 n d)) n d = _
  rw [msg2_eq m c, B6_in m c main_v29 (by decide), B6_keep m c main_v37 (by decide), proj2_eq m c]
  rfl

/-! ## The third layer: kernels 7, 8, 9 -/

/-- After kernel 7 its output holds the linear projection of the layer's input. -/
theorem proj3_eq : (fun n d => (B8 m c main_v40 : Vec Ideal S51200x128 .f32) (ix2 n d)) = lin (x3 m c) (W3 m c) (b3 m c) := by
  funext n d
  refine (congrFun (B8_arr m c 3) (ix2 n d)).trans ((final7 (Bv7 m) c n d).trans ?_)
  show lin (fun n k => (B7 m c main_v39 : Vec Ideal S51200x128 .f32) (ix2 n k))
      (fun k d => (B7 m c main_arg8 : Vec Ideal S128x128 .f32) (ix2 k d))
      (fun d => (B7 m c main_arg9 : Vec Ideal S128 .f32) (ix1 d)) n d = _
  rw [layer2_eq m c, B7_in m c main_arg8 (by decide), B7_in m c main_arg9 (by decide)]
  rfl

/-- After kernel 8 its output holds the edge messages: the normalisation times the gathered projection plus the
    edge embedding. -/
theorem msg3_eq : (fun e d => (B9 m c main_v41 : Vec Ideal S802816x128 .bf16) (ix2 e d)) = msgOf (nmp m c) (gath (rowp m c) (lin (x3 m c) (W3 m c) (b3 m c))) (eap m c) := by
  funext e d
  refine (congrFun (B9_arr m c 4) (ix2 e d)).trans ((final8 (Bv8 m) c e d).trans ?_)
  show msgOf (fun e => (B8 m c main_v30 : Vec Ideal S802816 .f32) (ix1 e))
      (gath (fun e => (B8 m c main_v28 : Vec Ideal S802816 .i32) (ix1 e)) (fun n d => (B8 m c main_v40 : Vec Ideal S51200x128 .f32) (ix2 n d)))
      (fun e d => (B8 m c main_v33 : Vec Ideal S802816x128 .f32) (ix2 e d)) e d = _
  rw [proj3_eq m c, B8_in m c main_v30 (by decide), B8_in m c main_v28 (by decide), ea_B8 m c, ea1_eq m c]
  rfl

/-- After kernel 9 its output holds the layer's result: the messages summed into their target nodes, plus the
    projection (the last layer has no rectifier). -/
theorem layer3_eq : (fun n d => (B10 m c main_v42 : Vec Ideal S51200x128 .f32) (ix2 n d)) = x4 m c := by
  funext n d
  refine (congrFun (B10_arr m c 3) (ix2 n d)).trans ((final9 (Bv9 m) c n d).trans ?_)
  show resid (scat (fun e => (B9 m c main_v29 : Vec Ideal S802816 .i32) (ix1 e)) (fun e d => (B9 m c main_v41 : Vec Ideal S802816x128 .bf16) (ix2 e d)))
      (fun n d => (B9 m c main_v40 : Vec Ideal S51200x128 .f32) (ix2 n d)) n d = _
  rw [msg3_eq m c, B9_in m c main_v29 (by decide), B9_keep m c main_v40 (by decide), proj3_eq m c]
  rfl

/-! ## The program's result -/

/-- THE PADDED RESULT: after the last kernel its output array holds the three layers of the network, on the padded
    node and edge counts. -/
theorem kernel_padded (n : Fin 51200) (d : Fin 128) :
    (B10 m c main_v42 : Vec Ideal S51200x128 .f32) (ix2 n d)
      = netK (xp m c) (W1 m c) (b1 m c) (W2 m c) (b2 m c) (W3 m c) (b3 m c) (rowp m c) (colp m c) (nmp m c) (eap m c) n d :=
  congrFun (congrFun (layer3_eq m c) n) d

/-- The program's last operation keeps the first 50000 rows of the padded result. -/
theorem v43_term : (B11 m c main_v43 : Vec Ideal S50000x128 .f32)
    = extractStridedSlice S50000x128 ![0, 0] (B10 m c main_v42 : Vec Ideal S51200x128 .f32) slices_S51200x128_S50000x128_0_0 := by
  show StableHlo.after hostOps10 _ (Proc.devRef .tc main_v43) = _
  after_results

/-- THE RESULT: row `n` of the program's result is row `n` of the padded network. -/
theorem kernel_result (n : Fin 50000) (d : Fin 128) :
    (B11 m c main_v43 : Vec Ideal S50000x128 .f32) (ix2 n d)
      = netK (xp m c) (W1 m c) (b1 m c) (W2 m c) (b2 m c) (W3 m c) (b3 m c) (rowp m c) (colp m c) (nmp m c) (eap m c)
          (Fin.castLE (by omega : 50000 ≤ 51200) n) d := by
  rw [v43_term]
  refine (extractStridedSlice_apply _ _ _ (ix2 n d) (ix2 (Fin.castLE (by omega : 50000 ≤ 51200) n) d) fun a => ?_).trans
    (kernel_padded m c _ d)
  match a with
  | ⟨0, _⟩ => show n.val = 0 + n.val; omega
  | ⟨1, _⟩ => show d.val = 0 + d.val; omega

end Cert.KernelIdeal.Hand

end
-- ==== Proof.KI.HostPrefix.lean ====
/-
  What the ten kernels find in the padded arrays, as functions of the program's arguments, read at an index.

  Before the first kernel the program computes on whole arrays: it cuts the 2 × 800000 edge list into its two rows
  (sources and targets), derives the symmetric normalisation of every edge from the target degrees, and pads five
  arrays with zeros at the end of their leading axis so that the kernels' blocks divide them: the sources, the
  targets and the edge weights from 800000 to 802816 entries, the edge features from 800000 to 802816 rows of 16, the
  node features from 50000 to 51200 rows of 128.

  A zero-padded array read at an index is the original array below the original extent and zero from there on. The
  edge weights' whole derivation (degree by scatter-add, the guarded inverse square root, two gathers and a product)
  is kept as one function of the edge list, `normK`: nothing here looks inside it.

  The weights, biases and the other arguments the kernels read directly reach the first kernel as launched.
-/
import proofs.«177903_j22574348108073_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

-- the valuations nest twelve deep over 158 references: membership decisions recurse past the default depth
set_option maxRecDepth 1144

noncomputable section

namespace Cert.KernelIdeal.Hand

open Cert.KernelIdeal Cert.KernelIdeal.Gen Idealize.ShloMosaic Idealize.ShloMosaic.ValueIdx Idealize.ShloMosaic.TcCoe
open Idealize.ShloMosaic.StableHlo

/-! ## A zero-padded array read at an index -/

section PadRead
variable {α : Type}

/-- A vector of `n` entries padded at its end to `N` entries, read at entry `e`: the operand's entry `e` below `n`, the
    padding value from `n` on. -/
theorem pad_end_apply {n N hi : Nat} (x : (⟨1, ![n]⟩ : Shape).Idx → α) {u : Shape} (v : u.Idx → α)
    (hp : (⟨1, ![n]⟩ : Shape).Pads (![0] : Fin 1 → Nat) ![hi] ![0] ⟨1, ![N]⟩) (hu : 0 < u.numel) (e : Fin N) :
    pad ⟨1, ![N]⟩ ![0] ![hi] ![0] x v hp hu (ix1 e)
      = if h : e.val < n then x (ix1 ⟨e.val, h⟩) else v (Shape.Idx.first hu) := by
  by_cases h : e.val < n
  · rw [dif_pos h]
    exact pad_apply_of_inside _ _ _ x v hp hu _ (ix1 (⟨e.val, h⟩ : Fin n)) (fun a => by
      match a with
      | ⟨0, _⟩ => show e.val = 0 + e.val * (0 + 1); omega)
  · rw [dif_neg h]
    exact pad_apply_of_not_inside _ _ _ x v hp hu _ (0 : Fin 1) (by
      intro hin
      have e3 : (e.val - 0) / (0 + 1) < n := hin.2.2
      rw [Nat.sub_zero, Nat.div_one] at e3
      exact h e3)

/-- A matrix of `n` rows padded below to `N` rows, read at `(e, d)`: the operand's row `e` below `n`, the padding value
    from row `n` on. -/
theorem pad_rows_apply {n N k hi : Nat} (x : (⟨2, ![n, k]⟩ : Shape).Idx → α) {u : Shape} (v : u.Idx → α)
    (hp : (⟨2, ![n, k]⟩ : Shape).Pads (![0, 0] : Fin 2 → Nat) ![hi, 0] ![0, 0] ⟨2, ![N, k]⟩) (hu : 0 < u.numel)
    (e : Fin N) (d : Fin k) :
    pad ⟨2, ![N, k]⟩ ![0, 0] ![hi, 0] ![0, 0] x v hp hu (ix2 e d)
      = if h : e.val < n then x (ix2 ⟨e.val, h⟩ d) else v (Shape.Idx.first hu) := by
  by_cases h : e.val < n
  · rw [dif_pos h]
    exact pad_apply_of_inside _ _ _ x v hp hu _ (ix2 (⟨e.val, h⟩ : Fin n) d) (fun a => by
      match a with
      | ⟨0, _⟩ => show e.val = 0 + e.val * (0 + 1); omega
      | ⟨1, _⟩ => show d.val = 0 + d.val * (0 + 1); omega)
  · rw [dif_neg h]
    exact pad_apply_of_not_inside _ _ _ x v hp hu _ (0 : Fin 2) (by
      intro hin
      have e3 : (e.val - 0) / (0 + 1) < n := hin.2.2
      rw [Nat.sub_zero, Nat.div_one] at e3
      exact h e3)

end PadRead

variable {F : FTy → Type} [FloatOps F]
variable (m : (ℓ : Loc nD τ sig) → Buf (Elt F) ℓ)

/-! ## The two rows of the edge list -/

/-- Row `r` of the 2 × 800000 edge list as a vector: the one-row slice with its unit axis dropped. -/
abbrev edgeRow (r : Nat) (ei : IVec S2x800000 32) (hs : S2x800000.Slices ![r, 0] S1x800000) : IVec S800000 32 :=
  shapeCast S800000 (extractStridedSlice S1x800000 ![r, 0] ei hs) shapeCasts_S1x800000_S800000

/-- Entry `e` of row `r` is the edge list at `(r, e)`. -/
theorem edgeRow_apply (r : Fin 2) (ei : IVec S2x800000 32) (hs : S2x800000.Slices ![r.val, 0] S1x800000) (e : Fin 800000) :
    edgeRow r.val ei hs (ix1 e) = ei (ix2 r e) := by
  unfold edgeRow
  rw [shapeCast_1a_a_apply]
  exact slice2_axis0_apply r.val ei hs (0 : Fin 1) e r (by show r.val = r.val + 0; omega)

/-! ## The padded sources and targets -/

/-- The padded sources as a term: row 0 of the edge list, padded with the word 0. -/
theorem v28_term (c : Dev nD) : (V12 m c main_v28 : IVec S802816 32)
    = pad S802816 ![0] ![2816] ![0] (edgeRow 0 (m ((c : Thread nD τ).loc main_arg1)) slices_S2x800000_S1x800000_0_0)
        (constantI S_ 32 0#32) pads_S800000_S802816_028160 h_S_ := by
  rw [V12_of m c main_v28 (by decide), V11_of m c main_v28 (by decide), V10_of m c main_v28 (by decide),
    V9_of m c main_v28 (by decide), V8_of m c main_v28 (by decide), V7_of m c main_v28 (by decide),
    V6_of m c main_v28 (by decide), V5_of m c main_v28 (by decide)]
  show StableHlo.after hostOps0_3 _ (Proc.devRef .tc main_v28) = _
  after_results
  rfl

/-- The padded targets as a term: row 1 of the edge list, padded with the word 0. -/
theorem v29_term (c : Dev nD) : (V12 m c main_v29 : IVec S802816 32)
    = pad S802816 ![0] ![2816] ![0] (edgeRow 1 (m ((c : Thread nD τ).loc main_arg1)) slices_S2x800000_S1x800000_1_0)
        (constantI S_ 32 0#32) pads_S800000_S802816_028160 h_S_ := by
  rw [V12_of m c main_v29 (by decide), V11_of m c main_v29 (by decide), V10_of m c main_v29 (by decide),
    V9_of m c main_v29 (by decide), V8_of m c main_v29 (by decide), V7_of m c main_v29 (by decide)]
  show StableHlo.after hostOps0_5 _ (Proc.devRef .tc main_v29) = _
  after_results
  rfl

/-- The padded sources at entry `e`: edge `e`'s source below 800000, the word 0 in the padding. -/
theorem row_p (c : Dev nD) (e : Fin 802816) :
    (V12 m c main_v28 : IVec S802816 32) (ix1 e)
      = if h : e.val < 800000 then (m ((c : Thread nD τ).loc main_arg1) : IVec S2x800000 32) (ix2 (0 : Fin 2) ⟨e.val, h⟩)
        else 0#32 := by
  rw [v28_term, pad_end_apply]
  by_cases h : e.val < 800000
  · rw [dif_pos h, dif_pos h]; exact edgeRow_apply (0 : Fin 2) _ _ _
  · rw [dif_neg h, dif_neg h]; rfl

/-- The padded targets at entry `e`: edge `e`'s target below 800000, the word 0 in the padding. -/
theorem col_p (c : Dev nD) (e : Fin 802816) :
    (V12 m c main_v29 : IVec S802816 32) (ix1 e)
      = if h : e.val < 800000 then (m ((c : Thread nD τ).loc main_arg1) : IVec S2x800000 32) (ix2 (1 : Fin 2) ⟨e.val, h⟩)
        else 0#32 := by
  rw [v29_term, pad_end_apply]
  by_cases h : e.val < 800000
  · rw [dif_pos h, dif_pos h]; exact edgeRow_apply (1 : Fin 2) _ _ _
  · rw [dif_neg h, dif_neg h]; rfl

/-! ## The edge weights as one function of the edge list -/

/-- Every node's in-degree as a float: ones scatter-added at the edges' targets into zeros. -/
abbrev degK (ei : IVec S2x800000 32) : FVec F S50000 .f32 :=
  Host.scatterAdd scatter_S50000_S800000x1_S800000_n_0_0_1
    (broadcastInDim S50000 ![] bcast_S_S50000 (constant (F := F) S_ .f32 0x00000000#32))
    (broadcastInDim S800000x1 ![0] bcast_S800000_S800000x1_0 (edgeRow 1 ei slices_S2x800000_S1x800000_1_0))
    (broadcastInDim S800000 ![] bcast_S_S800000 (constant (F := F) S_ .f32 0x3F800000#32))

/-- The inverse square root of the in-degree where it is positive, zero elsewhere. -/
abbrev disK (ei : IVec S2x800000 32) : FVec F S50000 .f32 :=
  select (cmpf .ogt (degK (F := F) ei) (broadcastInDim S50000 ![] bcast_S_S50000 (constant (F := F) S_ .f32 0x00000000#32)))
    (Host.powf (degK (F := F) ei) (broadcastInDim S50000 ![] bcast_S_S50000 (constant (F := F) S_ .f32 0xBF000000#32)))
    (broadcastInDim S50000 ![] bcast_S_S50000 (constant (F := F) S_ .f32 0x00000000#32))

/-- A vector of node numbers as a column of gather indices, a negative number counted from the end (50000 added). -/
abbrev wrapIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The symmetric normalisation of every edge: the inverse square root of the in-degree at its source times the one at
    its target — the program's whole derivation from the edge list, as one function. -/
def normK (ei : IVec S2x800000 32) : FVec F S800000 .f32 :=
  mulf (Host.gather gather_S50000_S800000x1_S800000_n_0_n_n_0_1_1 (disK (F := F) ei)
      (wrapIdx (edgeRow 0 ei slices_S2x800000_S1x800000_0_0)))
    (Host.gather gather_S50000_S800000x1_S800000_n_0_n_n_0_1_1 (disK (F := F) ei)
      (wrapIdx (edgeRow 1 ei slices_S2x800000_S1x800000_1_0)))

/-! ## The padded edge weights -/

-- the derivation is forty operations long and its intermediate arrays have several readers each
set_option maxHeartbeats 4000000 in
/-- The padded edge weights as a term: `normK` of the edge list, padded with the word 0 converted to a float. -/
theorem v30_term (c : Dev nD) : (V12 m c main_v30 : FVec F S802816 .f32)
    = pad S802816 ![0] ![2816] ![0] (normK (F := F) (m ((c : Thread nD τ).loc main_arg1)))
        (sitofp (F := F) .f32 (constantI S_ 32 0#32)) pads_S800000_S802816_028160 h_S_ := by
  rw [V12_of m c main_v30 (by decide), V11_of m c main_v30 (by decide), V10_of m c main_v30 (by decide),
    V9_of m c main_v30 (by decide)]
  show StableHlo.after hostOps0_7 _ (Proc.devRef .tc main_v30) = _
  after_results_simp
  rfl

/-- The padded edge weights at entry `e`, at any float instance: edge `e`'s weight below 800000, the converted word 0
    in the padding. -/
theorem norm_p_gen (c : Dev nD) (e : Fin 802816) :
    ((V12 m c main_v30 : FVec F S802816 .f32) (ix1 e) : F .f32)
      = if h : e.val < 800000 then normK (F := F) (m ((c : Thread nD τ).loc main_arg1)) (ix1 ⟨e.val, h⟩)
        else (FloatOps.sitofp .f32 (0#32 : BitVec 32) : F .f32) := by
  rw [v30_term, pad_end_apply]
  rfl

/-! ## The padded edge features and node features -/

/-- The padded edge features as a term: the argument, padded below with the converted word 0. -/
theorem v31_term (c : Dev nD) : (V12 m c main_v31 : FVec F S802816x16 .f32)
    = pad S802816x16 ![0, 0] ![2816, 0] ![0, 0] (m ((c : Thread nD τ).loc main_arg2) : FVec F S800000x16 .f32)
        (sitofp (F := F) .f32 (constantI S_ 32 0#32)) pads_S800000x16_S802816x16_028160_000 h_S_ := by
  rw [V12_of m c main_v31 (by decide), V11_of m c main_v31 (by decide)]
  show StableHlo.after hostOps0_9 _ (Proc.devRef .tc main_v31) = _
  after_results
  rfl

/-- The padded node features as a term: the argument, padded below with the converted word 0. -/
theorem v32_term (c : Dev nD) : (V12 m c main_v32 : FVec F S51200x128 .f32)
    = pad S51200x128 ![0, 0] ![1200, 0] ![0, 0] (m ((c : Thread nD τ).loc main_arg0) : FVec F S50000x128 .f32)
        (sitofp (F := F) .f32 (constantI S_ 32 0#32)) pads_S50000x128_S51200x128_012000_000 h_S_ := by
  show StableHlo.after hostOps0_11 _ (Proc.devRef .tc main_v32) = _
  after_results
  rfl

/-- The padded edge features at `(e, k)`, at any float instance: edge `e`'s feature `k` below 800000, the converted
    word 0 in the padding rows. -/
theorem edge_attr_p_gen (c : Dev nD) (e : Fin 802816) (k : Fin 16) :
    ((V12 m c main_v31 : FVec F S802816x16 .f32) (ix2 e k) : F .f32)
      = if h : e.val < 800000 then (m ((c : Thread nD τ).loc main_arg2) : FVec F S800000x16 .f32) (ix2 ⟨e.val, h⟩ k)
        else (FloatOps.sitofp .f32 (0#32 : BitVec 32) : F .f32) := by
  rw [v31_term, pad_rows_apply]
  rfl

/-- The padded node features at `(n, d)`, at any float instance: node `n`'s feature `d` below 50000, the converted
    word 0 in the padding rows. -/
theorem x_p_gen (c : Dev nD) (n : Fin 51200) (d : Fin 128) :
    ((V12 m c main_v32 : FVec F S51200x128 .f32) (ix2 n d) : F .f32)
      = if h : n.val < 50000 then (m ((c : Thread nD τ).loc main_arg0) : FVec F S50000x128 .f32) (ix2 ⟨n.val, h⟩ d)
        else (FloatOps.sitofp .f32 (0#32 : BitVec 32) : F .f32) := by
  rw [v32_term, pad_rows_apply]
  rfl

/-! ## The arguments the kernels read directly -/

/-- `main_arg0` reaches the first kernel as launched: no stretch before it writes it. -/
theorem V12_main_arg0 (c : Dev nD) : V12 m c main_arg0 = m ((c : Thread nD τ).loc main_arg0) :=
  (V12_of m c main_arg0 (by decide)).trans <| (V11_of m c main_arg0 (by decide)).trans <|
  (V10_of m c main_arg0 (by decide)).trans <| (V9_of m c main_arg0 (by decide)).trans <|
  (V8_of m c main_arg0 (by decide)).trans <| (V7_of m c main_arg0 (by decide)).trans <|
  (V6_of m c main_arg0 (by decide)).trans <| (V5_of m c main_arg0 (by decide)).trans <|
  (V4_of m c main_arg0 (by decide)).trans <| (V3_of m c main_arg0 (by decide)).trans <|
  (V2_of m c main_arg0 (by decide)).trans <| (V1_of m c main_arg0 (by decide)).trans rfl
/-- `main_arg1` reaches the first kernel as launched: no stretch before it writes it. -/
theorem V12_main_arg1 (c : Dev nD) : V12 m c main_arg1 = m ((c : Thread nD τ).loc main_arg1) :=
  (V12_of m c main_arg1 (by decide)).trans <| (V11_of m c main_arg1 (by decide)).trans <|
  (V10_of m c main_arg1 (by decide)).trans <| (V9_of m c main_arg1 (by decide)).trans <|
  (V8_of m c main_arg1 (by decide)).trans <| (V7_of m c main_arg1 (by decide)).trans <|
  (V6_of m c main_arg1 (by decide)).trans <| (V5_of m c main_arg1 (by decide)).trans <|
  (V4_of m c main_arg1 (by decide)).trans <| (V3_of m c main_arg1 (by decide)).trans <|
  (V2_of m c main_arg1 (by decide)).trans <| (V1_of m c main_arg1 (by decide)).trans rfl
/-- `main_arg2` reaches the first kernel as launched: no stretch before it writes it. -/
theorem V12_main_arg2 (c : Dev nD) : V12 m c main_arg2 = m ((c : Thread nD τ).loc main_arg2) :=
  (V12_of m c main_arg2 (by decide)).trans <| (V11_of m c main_arg2 (by decide)).trans <|
  (V10_of m c main_arg2 (by decide)).trans <| (V9_of m c main_arg2 (by decide)).trans <|
  (V8_of m c main_arg2 (by decide)).trans <| (V7_of m c main_arg2 (by decide)).trans <|
  (V6_of m c main_arg2 (by decide)).trans <| (V5_of m c main_arg2 (by decide)).trans <|
  (V4_of m c main_arg2 (by decide)).trans <| (V3_of m c main_arg2 (by decide)).trans <|
  (V2_of m c main_arg2 (by decide)).trans <| (V1_of m c main_arg2 (by decide)).trans rfl
/-- `main_arg3` reaches the first kernel as launched: no stretch before it writes it. -/
theorem V12_main_arg3 (c : Dev nD) : V12 m c main_arg3 = m ((c : Thread nD τ).loc main_arg3) :=
  (V12_of m c main_arg3 (by decide)).trans <| (V11_of m c main_arg3 (by decide)).trans <|
  (V10_of m c main_arg3 (by decide)).trans <| (V9_of m c main_arg3 (by decide)).trans <|
  (V8_of m c main_arg3 (by decide)).trans <| (V7_of m c main_arg3 (by decide)).trans <|
  (V6_of m c main_arg3 (by decide)).trans <| (V5_of m c main_arg3 (by decide)).trans <|
  (V4_of m c main_arg3 (by decide)).trans <| (V3_of m c main_arg3 (by decide)).trans <|
  (V2_of m c main_arg3 (by decide)).trans <| (V1_of m c main_arg3 (by decide)).trans rfl
/-- `main_arg4` reaches the first kernel as launched: no stretch before it writes it. -/
theorem V12_main_arg4 (c : Dev nD) : V12 m c main_arg4 = m ((c : Thread nD τ).loc main_arg4) :=
  (V12_of m c main_arg4 (by decide)).trans <| (V11_of m c main_arg4 (by decide)).trans <|
  (V10_of m c main_arg4 (by decide)).trans <| (V9_of m c main_arg4 (by decide)).trans <|
  (V8_of m c main_arg4 (by decide)).trans <| (V7_of m c main_arg4 (by decide)).trans <|
  (V6_of m c main_arg4 (by decide)).trans <| (V5_of m c main_arg4 (by decide)).trans <|
  (V4_of m c main_arg4 (by decide)).trans <| (V3_of m c main_arg4 (by decide)).trans <|
  (V2_of m c main_arg4 (by decide)).trans <| (V1_of m c main_arg4 (by decide)).trans rfl
/-- `main_arg5` reaches the first kernel as launched: no stretch before it writes it. -/
theorem V12_main_arg5 (c : Dev nD) : V12 m c main_arg5 = m ((c : Thread nD τ).loc main_arg5) :=
  (V12_of m c main_arg5 (by decide)).trans <| (V11_of m c main_arg5 (by decide)).trans <|
  (V10_of m c main_arg5 (by decide)).trans <| (V9_of m c main_arg5 (by decide)).trans <|
  (V8_of m c main_arg5 (by decide)).trans <| (V7_of m c main_arg5 (by decide)).trans <|
  (V6_of m c main_arg5 (by decide)).trans <| (V5_of m c main_arg5 (by decide)).trans <|
  (V4_of m c main_arg5 (by decide)).trans <| (V3_of m c main_arg5 (by decide)).trans <|
  (V2_of m c main_arg5 (by decide)).trans <| (V1_of m c main_arg5 (by decide)).trans rfl
/-- `main_arg6` reaches the first kernel as launched: no stretch before it writes it. -/
theorem V12_main_arg6 (c : Dev nD) : V12 m c main_arg6 = m ((c : Thread nD τ).loc main_arg6) :=
  (V12_of m c main_arg6 (by decide)).trans <| (V11_of m c main_arg6 (by decide)).trans <|
  (V10_of m c main_arg6 (by decide)).trans <| (V9_of m c main_arg6 (by decide)).trans <|
  (V8_of m c main_arg6 (by decide)).trans <| (V7_of m c main_arg6 (by decide)).trans <|
  (V6_of m c main_arg6 (by decide)).trans <| (V5_of m c main_arg6 (by decide)).trans <|
  (V4_of m c main_arg6 (by decide)).trans <| (V3_of m c main_arg6 (by decide)).trans <|
  (V2_of m c main_arg6 (by decide)).trans <| (V1_of m c main_arg6 (by decide)).trans rfl
/-- `main_arg7` reaches the first kernel as launched: no stretch before it writes it. -/
theorem V12_main_arg7 (c : Dev nD) : V12 m c main_arg7 = m ((c : Thread nD τ).loc main_arg7) :=
  (V12_of m c main_arg7 (by decide)).trans <| (V11_of m c main_arg7 (by decide)).trans <|
  (V10_of m c main_arg7 (by decide)).trans <| (V9_of m c main_arg7 (by decide)).trans <|
  (V8_of m c main_arg7 (by decide)).trans <| (V7_of m c main_arg7 (by decide)).trans <|
  (V6_of m c main_arg7 (by decide)).trans <| (V5_of m c main_arg7 (by decide)).trans <|
  (V4_of m c main_arg7 (by decide)).trans <| (V3_of m c main_arg7 (by decide)).trans <|
  (V2_of m c main_arg7 (by decide)).trans <| (V1_of m c main_arg7 (by decide)).trans rfl
/-- `main_arg8` reaches the first kernel as launched: no stretch before it writes it. -/
theorem V12_main_arg8 (c : Dev nD) : V12 m c main_arg8 = m ((c : Thread nD τ).loc main_arg8) :=
  (V12_of m c main_arg8 (by decide)).trans <| (V11_of m c main_arg8 (by decide)).trans <|
  (V10_of m c main_arg8 (by decide)).trans <| (V9_of m c main_arg8 (by decide)).trans <|
  (V8_of m c main_arg8 (by decide)).trans <| (V7_of m c main_arg8 (by decide)).trans <|
  (V6_of m c main_arg8 (by decide)).trans <| (V5_of m c main_arg8 (by decide)).trans <|
  (V4_of m c main_arg8 (by decide)).trans <| (V3_of m c main_arg8 (by decide)).trans <|
  (V2_of m c main_arg8 (by decide)).trans <| (V1_of m c main_arg8 (by decide)).trans rfl
/-- `main_arg9` reaches the first kernel as launched: no stretch before it writes it. -/
theorem V12_main_arg9 (c : Dev nD) : V12 m c main_arg9 = m ((c : Thread nD τ).loc main_arg9) :=
  (V12_of m c main_arg9 (by decide)).trans <| (V11_of m c main_arg9 (by decide)).trans <|
  (V10_of m c main_arg9 (by decide)).trans <| (V9_of m c main_arg9 (by decide)).trans <|
  (V8_of m c main_arg9 (by decide)).trans <| (V7_of m c main_arg9 (by decide)).trans <|
  (V6_of m c main_arg9 (by decide)).trans <| (V5_of m c main_arg9 (by decide)).trans <|
  (V4_of m c main_arg9 (by decide)).trans <| (V3_of m c main_arg9 (by decide)).trans <|
  (V2_of m c main_arg9 (by decide)).trans <| (V1_of m c main_arg9 (by decide)).trans rfl

/-! ## At the extended reals: the padding is zero -/

section AtIdeal
variable (mI : (ℓ : Loc nD τ sig) → Buf (Elt Ideal) ℓ)

/-- The word 0 converted to a float is the number 0. -/
theorem sitofp_word_zero : (FloatOps.sitofp .f32 (0#32 : BitVec 32) : Ideal .f32) = 0 := by
  show ((((0#32 : BitVec 32).toInt : ℤ) : ℝ) : EReal) = 0
  simp

/-- The padded edge weights at entry `e`: edge `e`'s weight below 800000, zero in the padding. -/
theorem norm_p (c : Dev nD) (e : Fin 802816) :
    ((V12 mI c main_v30 : FVec Ideal S802816 .f32) (ix1 e) : Ideal .f32)
      = if h : e.val < 800000 then normK (F := Ideal) (mI ((c : Thread nD τ).loc main_arg1)) (ix1 ⟨e.val, h⟩)
        else (0 : Ideal .f32) := by
  rw [norm_p_gen, sitofp_word_zero]

/-- The padded edge features at `(e, k)`: edge `e`'s feature `k` below 800000, zero in the padding rows. -/
theorem edge_attr_p (c : Dev nD) (e : Fin 802816) (k : Fin 16) :
    ((V12 mI c main_v31 : FVec Ideal S802816x16 .f32) (ix2 e k) : Ideal .f32)
      = if h : e.val < 800000 then (mI ((c : Thread nD τ).loc main_arg2) : FVec Ideal S800000x16 .f32) (ix2 ⟨e.val, h⟩ k)
        else (0 : Ideal .f32) := by
  rw [edge_attr_p_gen, sitofp_word_zero]

/-- The padded node features at `(n, d)`: node `n`'s feature `d` below 50000, zero in the padding rows. -/
theorem x_p (c : Dev nD) (n : Fin 51200) (d : Fin 128) :
    ((V12 mI c main_v32 : FVec Ideal S51200x128 .f32) (ix2 n d) : Ideal .f32)
      = if h : n.val < 50000 then (mI ((c : Thread nD τ).loc main_arg0) : FVec Ideal S50000x128 .f32) (ix2 ⟨n.val, h⟩ d)
        else (0 : Ideal .f32) := by
  rw [x_p_gen, sitofp_word_zero]

end AtIdeal

end Cert.KernelIdeal.Hand
-- ==== Proof.PreDecode.lean ====
/-
  THE INDEX-RANGE HALF OF THE PRECONDITION, READ BACK. The precondition is a conjunction of eleven `jnp.all`s: nine say
  that a float argument has only finite entries, the last two say of the [2 × 800000] table of 32-bit indices that every
  entry e satisfies 0 ≤ e and e < 50000, both compared SIGNED. It is stated as "the printed function is the all-ones
  scalar". Here that statement is turned into the arithmetic fact about each entry of the index table:

    0 ≤ e.toInt ∧ e.toInt < 50000,   hence   e.toNat < 50000   and   e = BitVec.ofNat 32 e.toNat.

  The road: the scalar result is an `and` of a prefix with the last `jnp.all`; an `and` of bits is 1 exactly when both are
  (`IntOp.andi_eq_one`); a reduction by `and` over all axes that came out 1 met a 1 at every index
  (`Host.reduce_andi_all`); a comparison of a table entry with a broadcast constant reads, at an index, as the comparison
  of the entry with the constant (definitional); and a signed comparison word being 1 is the order of the signed values
  (`IntOp.cmpi_sge`, `IntOp.cmpi_slt`). The nine finiteness conjuncts are passed over unread: they sit in the prefix bit.
  Everything is generic in the float instance, which the two integer conjuncts never consult.
-/
import proofs.«177903_j22574348108073_1_alg».proof.Pre_finite_inputs
import Idealize.ShloMosaic.Lib.ReduceAll
import Idealize.ShloMosaic.Lib.StableHlo.Predicate
import Idealize.ShloMosaic.Lib.ValueIdx

namespace Cert.PreDecode

open Idealize.ShloMosaic
open Cert.Pre_finite_inputs

/-- The scalar shape has one index. -/
instance : Subsingleton S_.Idx := ⟨fun a b => funext fun d => d.elim0⟩

variable [Cert.Pre_finite_inputs.Facts]
variable {F : FTy → Type} [FloatOps F]

/-- The last `and`: the result bit is 1 only if the prefix bit is 1 and the last mask is 1 at every index. -/
theorem tail_all (prefixBit : IVec S_ 1) (mask : IVec S2x800000 1) (init : IVec S_ 1)
    (h : fn_part3 (F := F) prefixBit mask init ValueIdx.ix0 = 1#1) :
    prefixBit ValueIdx.ix0 = 1#1 ∧ ∀ i, mask i = 1#1 := by
  obtain ⟨hp, hm⟩ := IntOp.andi_eq_one.1 h
  exact ⟨hp, fun i => Host.reduce_andi_all _ _ _ _ _ hm i⟩

/-- The two integer conjuncts, as comparison words at each index of the table: entry ≥ 0 and entry < 50000, signed. -/
theorem range_words (idx : IVec S2x800000 32) (w8 : FVec F S128x128 .f32) (w9 : FVec F S128 .f32) (prefixBit : IVec S_ 1)
    (h : fn_part2 (F := F) idx w8 w9 prefixBit ValueIdx.ix0 = 1#1) (i : S2x800000.Idx) :
    IntOp.cmpi .sge (idx i) 0#32 = 1#1 ∧ IntOp.cmpi .slt (idx i) 50000#32 = 1#1 := by
  -- part 2 ends in the call of part 3: the last mask is the `< 50000` one, the prefix bit ends in the `≥ 0` one
  obtain ⟨hp, hlt⟩ := tail_all (F := F) _ _ _ h
  obtain ⟨-, hge⟩ := IntOp.andi_eq_one.1 hp
  exact ⟨Host.reduce_andi_all _ _ _ _ _ hge i, hlt i⟩

/-- THE INDEX RANGE: under the precondition every entry of the index table, read signed, lies in [0, 50000). -/
theorem index_range (a0 : FVec F S50000x128 .f32) (a1 : IVec S2x800000 32) (a2 : FVec F S800000x16 .f32)
    (a3 : FVec F S16x128 .f32) (a4 : FVec F S128x128 .f32) (a5 : FVec F S128 .f32) (a6 : FVec F S128x128 .f32)
    (a7 : FVec F S128 .f32) (a8 : FVec F S128x128 .f32) (a9 : FVec F S128 .f32)
    (h : Cert.Pre_finite_inputs.fn (F := F) a0 a1 a2 a3 a4 a5 a6 a7 a8 a9 = fun _ => 1#1) :
    ∀ i : S2x800000.Idx, 0 ≤ (a1 i).toInt ∧ (a1 i).toInt < 50000 := by
  intro i
  -- the printed function ends in its part 1, which ends in its part 2: read the scalar result at its one index
  have e : fn_part2 (F := F) a1 a8 a9 _ ValueIdx.ix0 = 1#1 := congrFun h ValueIdx.ix0
  obtain ⟨hge, hlt⟩ := range_words (F := F) a1 a8 a9 _ e i
  rw [IntOp.cmpi_sge] at hge
  rw [IntOp.cmpi_slt] at hlt
  have h0 : (0#32 : BitVec 32).toInt = 0 := by decide
  have h5 : (50000#32 : BitVec 32).toInt = 50000 := by decide
  rw [h0] at hge
  rw [h5] at hlt
  exact ⟨hge, hlt⟩

/-- A 32-bit word whose signed value lies in [0, n) has that value unsigned (a word read negative is excluded by the
    lower bound), and is the word of it. -/
theorem toNat_of_toInt_range (w : BitVec 32) (n : Nat) (h0 : 0 ≤ w.toInt) (hn : w.toInt < n) :
    w.toNat < n ∧ w = BitVec.ofNat 32 w.toNat := by
  have hc := BitVec.toInt_eq_toNat_cond w
  have hl := w.isLt
  refine ⟨?_, BitVec.eq_of_toNat_eq (by rw [BitVec.toNat_ofNat]; omega)⟩
  split at hc <;> omega

/-- THE INDEX RANGE, UNSIGNED: every entry is a number below 50000, and is the 32-bit word of that number. -/
theorem index_lt (a0 : FVec F S50000x128 .f32) (a1 : IVec S2x800000 32) (a2 : FVec F S800000x16 .f32)
    (a3 : FVec F S16x128 .f32) (a4 : FVec F S128x128 .f32) (a5 : FVec F S128 .f32) (a6 : FVec F S128x128 .f32)
    (a7 : FVec F S128 .f32) (a8 : FVec F S128x128 .f32) (a9 : FVec F S128 .f32)
    (h : Cert.Pre_finite_inputs.fn (F := F) a0 a1 a2 a3 a4 a5 a6 a7 a8 a9 = fun _ => 1#1) (i : S2x800000.Idx) :
    (a1 i).toNat < 50000 ∧ a1 i = BitVec.ofNat 32 (a1 i).toNat := by
  obtain ⟨h0, h5⟩ := index_range (F := F) a0 a1 a2 a3 a4 a5 a6 a7 a8 a9 h i
  exact toNat_of_toInt_range (a1 i) 50000 h0 h5

end Cert.PreDecode
-- ==== Proof.NormEq.lean ====
/-
  The normalisation of the edges is one and the same function of the edge list in the two programs.

  Both programs derive it before anything else, by the same operations in the same order: the edge list's two rows
  are its sources and its targets; every node's in-degree is ones scatter-added at the targets into zeros; a node's
  scale is its in-degree to the power -1/2 where the in-degree is positive and zero elsewhere; an edge's
  normalisation is the scale at its source times the scale at its target, the two node numbers read as gather
  indices with a negative one counted from the end (50000 added). The kernel program's form of this derivation is
  the term `normK`; the reference's is its generated stage for the product, built from one named stage per
  operation. Each program declares its own copies of the shapes and of the scatter and gather dimension records, with
  the same contents, so the two terms differ in names only: unfolding the stages leaves the same term on both sides,
  for any float arithmetic.
-/
import proofs.«177903_j22574348108073_1_alg».proof.Proof.KI.HostPrefix
import proofs.«177903_j22574348108073_1_alg».proof.Proof.RefRead

noncomputable section

namespace Cert.NormEq

open Idealize.ShloMosaic

variable {F : FTy → Type} [FloatOps F]

/-- The kernel program's edge normalisation is the reference's product stage, as functions of the edge list and in
    any float arithmetic: stage by stage the reference's term is the same chain of operations. -/
theorem normK_eq_val_main_v32 (ei : IVec Cert.KernelIdeal.S2x800000 32) :
    Cert.KernelIdeal.Hand.normK (F := F) ei = Cert.ReferenceIdeal.Read.val_main_v32 (F := F) ei := by
  unfold Cert.KernelIdeal.Hand.normK
  unfold Cert.ReferenceIdeal.Read.val_main_v32 Cert.ReferenceIdeal.Read.val_main_v31
    Cert.ReferenceIdeal.Read.val_main_v30 Cert.ReferenceIdeal.Read.val_main_v29 Cert.ReferenceIdeal.Read.val_main_v28
    Cert.ReferenceIdeal.Read.val_main_v27 Cert.ReferenceIdeal.Read.val_main_c_6 Cert.ReferenceIdeal.Read.val_main_v26
    Cert.ReferenceIdeal.Read.val_main_v25 Cert.ReferenceIdeal.Read.val_main_c_5 Cert.ReferenceIdeal.Read.val_main_v24
    Cert.ReferenceIdeal.Read.val_main_v23 Cert.ReferenceIdeal.Read.val_main_v22 Cert.ReferenceIdeal.Read.val_main_v21
    Cert.ReferenceIdeal.Read.val_main_v20 Cert.ReferenceIdeal.Read.val_main_c_4 Cert.ReferenceIdeal.Read.val_main_v19
    Cert.ReferenceIdeal.Read.val_main_v18 Cert.ReferenceIdeal.Read.val_main_c Cert.ReferenceIdeal.Read.val_main_v17
    Cert.ReferenceIdeal.Read.val_main_call0_v1 Cert.ReferenceIdeal.Read.val_main_call0_v0
    Cert.ReferenceIdeal.Read.val_main_cst_3 Cert.ReferenceIdeal.Read.val_main_v16
    Cert.ReferenceIdeal.Read.val_main_v15 Cert.ReferenceIdeal.Read.val_main_cst_2
    Cert.ReferenceIdeal.Read.val_main_v14 Cert.ReferenceIdeal.Read.val_main_v13
    Cert.ReferenceIdeal.Read.val_main_cst_1 Cert.ReferenceIdeal.Read.val_main_v12
    Cert.ReferenceIdeal.Read.val_main_v11 Cert.ReferenceIdeal.Read.val_main_v10
    Cert.ReferenceIdeal.Read.val_main_cst_0 Cert.ReferenceIdeal.Read.val_main_v9 Cert.ReferenceIdeal.Read.val_main_cst
    Cert.ReferenceIdeal.Read.val_main_v3 Cert.ReferenceIdeal.Read.val_main_v2 Cert.ReferenceIdeal.Read.val_main_v1
    Cert.ReferenceIdeal.Read.val_main_v0
  rfl

/-- The same at the exact values. -/
theorem normK_eq_val_main_v32_ideal (ei : IVec Cert.KernelIdeal.S2x800000 32) :
    Cert.KernelIdeal.Hand.normK (F := Ideal) ei = Cert.ReferenceIdeal.Read.val_main_v32 (F := Ideal) ei :=
  normK_eq_val_main_v32 ei

end Cert.NormEq

end
-- ==== Proof.Bridge.lean ====
/-
  The padded one-hot layer equals the node-number layer on the real nodes. The kernel's layer runs on padded
  node and edge counts and picks rows by comparing 32-bit words; the reference's layer runs on the real counts and
  picks rows by node number. Over the extended reals the two agree on every real node, provided the padded edges
  carry normalisation zero (their messages are then 0 · anything = 0) and the real edges carry their node numbers
  as words. Nothing is asked of the padded rows of the features, of the padded edges' words or of their embeddings.
-/
import proofs.«177903_j22574348108073_1_alg».proof.Proof.SpecRef
import Mathlib.Algebra.BigOperators.Fin
import Mathlib.Data.EReal.Basic

noncomputable section

open scoped BigOperators

namespace Cert.Spec

/-! ### Words and one-hot factors -/

/-- Two numbers below `2^32` are the same 32-bit word exactly when they are the same number. -/
theorem word_eq_iff {a b : ℕ} (ha : a < 2 ^ 32) (hb : b < 2 ^ 32) :
    BitVec.ofNat 32 a = BitVec.ofNat 32 b ↔ a = b := by
  constructor
  · intro h
    have h' := congrArg BitVec.toNat h
    rwa [BitVec.toNat_ofNat, BitVec.toNat_ofNat, Nat.mod_eq_of_lt ha, Nat.mod_eq_of_lt hb] at h'
  · rintro rfl; rfl

theorem oh_pos {p : Prop} [Decidable p] (h : p) : oh p = 1 := if_pos h

theorem oh_neg {p : Prop} [Decidable p] (h : ¬p) : oh p = 0 := if_neg h

/-- The one-hot factor only depends on the truth of its condition. -/
theorem oh_congr {p q : Prop} [Decidable p] [Decidable q] (h : p ↔ q) : oh p = oh q := by
  by_cases hp : p
  · rw [oh_pos hp, oh_pos (h.mp hp)]
  · rw [oh_neg hp, oh_neg (fun hq => hp (h.mpr hq))]

/-! ### A sum over padded indices whose padding terms vanish -/

/-- A sum over `EP` indices whose terms vanish from index `E` on is the sum over the first `E` indices. -/
theorem sum_fin_castLE {M : Type} [AddCommMonoid M] {E EP : ℕ} (hE : E ≤ EP) (f : Fin EP → M)
    (h0 : ∀ e : Fin EP, E ≤ e.val → f e = 0) :
    ∑ e : Fin EP, f e = ∑ e : Fin E, f (Fin.castLE hE e) := by
  obtain ⟨k, rfl⟩ := Nat.exists_eq_add_of_le hE
  rw [Fin.sum_univ_add]
  have hz : ∑ i : Fin k, f (Fin.natAdd E i) = 0 :=
    Finset.sum_eq_zero (fun i _ => h0 _ (Nat.le_add_right E i.val))
  rw [hz, add_zero]
  rfl

/-! ### The steps of one layer -/

/-- The linear layer is row-wise: on a real row of the padded features it is the linear layer of the real
    features. -/
theorem lin_castLE {N NP K D : ℕ} (hN : N ≤ NP) (x : Mat N K) (xP : Mat NP K) (W : Mat K D) (b : Fin D → EReal)
    (hx : ∀ (n : Fin N) (k : Fin K), xP (Fin.castLE hN n) k = x n k) (n : Fin N) (j : Fin D) :
    lin xP W b (Fin.castLE hN n) j = lin x W b n j := by
  unfold lin mm
  simp only [hx]

/-- The one-hot gather at a real edge: of the sum over all padded node numbers only the source node's term
    survives. -/
theorem gath_real {E EP N NP D : ℕ} (hE : E ≤ EP) (hN : N ≤ NP) (hNP : NP ≤ 2 ^ 32)
    (row : Fin E → Fin N) (rowP : Fin EP → BitVec 32)
    (hrow : ∀ e : Fin E, rowP (Fin.castLE hE e) = BitVec.ofNat 32 (row e).val)
    (h : Mat NP D) (e : Fin E) (d : Fin D) :
    gath rowP h (Fin.castLE hE e) d = h (Fin.castLE hN (row e)) d := by
  unfold gath
  rw [Finset.sum_eq_single (Fin.castLE hN (row e))]
  · have hone : oh (BitVec.ofNat 32 (row e).val = BitVec.ofNat 32 (Fin.castLE hN (row e)).val) = 1 := oh_pos rfl
    rw [hrow, hone, one_mul]
  · intro n' _ hne
    rw [hrow, oh_neg, zero_mul]
    intro hw
    apply hne
    have hv := (word_eq_iff (lt_of_lt_of_le (row e).isLt (hN.trans hNP))
      (lt_of_lt_of_le n'.isLt hNP)).mp hw
    exact Fin.ext hv.symm
  · intro hmem
    exact absurd (Finset.mem_univ _) hmem

/-- The one-hot scatter of the padded messages at a real node: the padded edges contribute nothing, and a real
    edge contributes exactly when its target is the node. -/
theorem scat_msg_real {E EP N NP D : ℕ} (hE : E ≤ EP) (hN : N ≤ NP) (hNP : NP ≤ 2 ^ 32)
    (row col : Fin E → Fin N) (rowP colP : Fin EP → BitVec 32)
    (norm : Fin E → EReal) (normP : Fin EP → EReal) (ea : Mat E D) (eaP : Mat EP D)
    (hrow : ∀ e : Fin E, rowP (Fin.castLE hE e) = BitVec.ofNat 32 (row e).val)
    (hcol : ∀ e : Fin E, colP (Fin.castLE hE e) = BitVec.ofNat 32 (col e).val)
    (hnorm : ∀ e : Fin E, normP (Fin.castLE hE e) = norm e)
    (hnorm0 : ∀ e : Fin EP, E ≤ e.val → normP e = 0)
    (hea : ∀ (e : Fin E) (d : Fin D), eaP (Fin.castLE hE e) d = ea e d)
    (h : Mat N D) (hP : Mat NP D) (hh : ∀ (n : Fin N) (d : Fin D), hP (Fin.castLE hN n) d = h n d)
    (n : Fin N) (d : Fin D) :
    scat colP (msgOf normP (gath rowP hP) eaP) (Fin.castLE hN n) d
      = ∑ e : Fin E, oh (col e = n) * (norm e * (h (row e) d + ea e d)) := by
  unfold scat
  rw [sum_fin_castLE hE]
  · refine Finset.sum_congr rfl (fun e _ => ?_)
    unfold msgOf
    rw [hcol, hnorm, hea, gath_real hE hN hNP row rowP hrow, hh]
    congr 1
    apply oh_congr
    refine (word_eq_iff (a := n.val) (b := (col e).val) (lt_of_lt_of_le n.isLt (hN.trans hNP))
      (lt_of_lt_of_le (col e).isLt (hN.trans hNP))).trans ?_
    constructor
    · intro hv; exact Fin.ext hv.symm
    · intro hv; rw [hv]
  · intro e he
    unfold msgOf
    rw [hnorm0 e he, zero_mul, mul_zero]

/-! ### One layer, and the three layers -/

/-- One layer, any sizes: the padded one-hot layer at a real node is the node-number layer there. -/
theorem layerK_eq_layerR_of {E EP N NP D : ℕ} (hE : E ≤ EP) (hN : N ≤ NP) (hNP : NP ≤ 2 ^ 32) (relu : Bool)
    (x : Mat N D) (xP : Mat NP D) (W : Mat D D) (b : Fin D → EReal)
    (row col : Fin E → Fin N) (rowP colP : Fin EP → BitVec 32)
    (norm : Fin E → EReal) (normP : Fin EP → EReal) (ea : Mat E D) (eaP : Mat EP D)
    (hx : ∀ (n : Fin N) (d : Fin D), xP (Fin.castLE hN n) d = x n d)
    (hrow : ∀ e : Fin E, rowP (Fin.castLE hE e) = BitVec.ofNat 32 (row e).val)
    (hcol : ∀ e : Fin E, colP (Fin.castLE hE e) = BitVec.ofNat 32 (col e).val)
    (hnorm : ∀ e : Fin E, normP (Fin.castLE hE e) = norm e)
    (hnorm0 : ∀ e : Fin EP, E ≤ e.val → normP e = 0)
    (hea : ∀ (e : Fin E) (d : Fin D), eaP (Fin.castLE hE e) d = ea e d) :
    ∀ (n : Fin N) (d : Fin D),
      layerK relu xP W b rowP colP normP eaP (Fin.castLE hN n) d = layerR relu x W b row col norm ea n d := by
  intro n d
  have hlin := lin_castLE hN x xP W b hx
  have hagg := scat_msg_real hE hN hNP row col rowP colP norm normP ea eaP hrow hcol hnorm hnorm0 hea
    (lin x W b) (lin xP W b) hlin n d
  cases relu
  · simp only [layerK, layerR, Bool.false_eq_true, if_false, resid, hagg, hlin]
  · simp only [layerK, layerR, if_true, residRelu, hagg, hlin]

/-- The three layers, any sizes: each layer's agreement on the real nodes is what the next layer asks of its
    input. -/
theorem netK_eq_netR_of {E EP N NP D : ℕ} (hE : E ≤ EP) (hN : N ≤ NP) (hNP : NP ≤ 2 ^ 32)
    (x : Mat N D) (xP : Mat NP D) (W1 : Mat D D) (b1 : Fin D → EReal) (W2 : Mat D D) (b2 : Fin D → EReal)
    (W3 : Mat D D) (b3 : Fin D → EReal)
    (row col : Fin E → Fin N) (rowP colP : Fin EP → BitVec 32)
    (norm : Fin E → EReal) (normP : Fin EP → EReal) (ea : Mat E D) (eaP : Mat EP D)
    (hx : ∀ (n : Fin N) (d : Fin D), xP (Fin.castLE hN n) d = x n d)
    (hrow : ∀ e : Fin E, rowP (Fin.castLE hE e) = BitVec.ofNat 32 (row e).val)
    (hcol : ∀ e : Fin E, colP (Fin.castLE hE e) = BitVec.ofNat 32 (col e).val)
    (hnorm : ∀ e : Fin E, normP (Fin.castLE hE e) = norm e)
    (hnorm0 : ∀ e : Fin EP, E ≤ e.val → normP e = 0)
    (hea : ∀ (e : Fin E) (d : Fin D), eaP (Fin.castLE hE e) d = ea e d) :
    ∀ (n : Fin N) (d : Fin D),
      netK xP W1 b1 W2 b2 W3 b3 rowP colP normP eaP (Fin.castLE hN n) d
        = netR x W1 b1 W2 b2 W3 b3 row col norm ea n d := by
  unfold netK netR
  have h1 := layerK_eq_layerR_of hE hN hNP true x xP W1 b1 row col rowP colP norm normP ea eaP
    hx hrow hcol hnorm hnorm0 hea
  have h2 := layerK_eq_layerR_of hE hN hNP true _ _ W2 b2 row col rowP colP norm normP ea eaP
    h1 hrow hcol hnorm hnorm0 hea
  exact layerK_eq_layerR_of hE hN hNP false _ _ W3 b3 row col rowP colP norm normP ea eaP
    h2 hrow hcol hnorm hnorm0 hea

/-! ### This network's sizes: 800000 edges padded to 802816, 50000 nodes padded to 51200, 128 features -/

theorem edges_le : 800000 ≤ 802816 := by norm_num
theorem nodes_le : 50000 ≤ 51200 := by norm_num
theorem nodesP_le : 51200 ≤ 2 ^ 32 := by norm_num

/-- One layer at this network's sizes. -/
theorem layerK_eq_layerR (relu : Bool)
    (x : Mat 50000 128) (xP : Mat 51200 128) (W : Mat 128 128) (b : Fin 128 → EReal)
    (row col : Fin 800000 → Fin 50000) (rowP colP : Fin 802816 → BitVec 32)
    (norm : Fin 800000 → EReal) (normP : Fin 802816 → EReal) (ea : Mat 800000 128) (eaP : Mat 802816 128)
    (hx : ∀ (n : Fin 50000) (d : Fin 128), xP (Fin.castLE nodes_le n) d = x n d)
    (hrow : ∀ e : Fin 800000, rowP (Fin.castLE edges_le e) = BitVec.ofNat 32 (row e).val)
    (hcol : ∀ e : Fin 800000, colP (Fin.castLE edges_le e) = BitVec.ofNat 32 (col e).val)
    (hnorm : ∀ e : Fin 800000, normP (Fin.castLE edges_le e) = norm e)
    (hnorm0 : ∀ e : Fin 802816, 800000 ≤ e.val → normP e = 0)
    (hea : ∀ (e : Fin 800000) (d : Fin 128), eaP (Fin.castLE edges_le e) d = ea e d) :
    ∀ (n : Fin 50000) (d : Fin 128),
      layerK relu xP W b rowP colP normP eaP (Fin.castLE nodes_le n) d
        = layerR relu x W b row col norm ea n d :=
  layerK_eq_layerR_of edges_le nodes_le nodesP_le relu x xP W b row col rowP colP norm normP ea eaP
    hx hrow hcol hnorm hnorm0 hea

/-- The three layers at this network's sizes. -/
theorem netK_eq_netR
    (x : Mat 50000 128) (xP : Mat 51200 128) (W1 : Mat 128 128) (b1 : Fin 128 → EReal)
    (W2 : Mat 128 128) (b2 : Fin 128 → EReal) (W3 : Mat 128 128) (b3 : Fin 128 → EReal)
    (row col : Fin 800000 → Fin 50000) (rowP colP : Fin 802816 → BitVec 32)
    (norm : Fin 800000 → EReal) (normP : Fin 802816 → EReal) (ea : Mat 800000 128) (eaP : Mat 802816 128)
    (hx : ∀ (n : Fin 50000) (d : Fin 128), xP (Fin.castLE nodes_le n) d = x n d)
    (hrow : ∀ e : Fin 800000, rowP (Fin.castLE edges_le e) = BitVec.ofNat 32 (row e).val)
    (hcol : ∀ e : Fin 800000, colP (Fin.castLE edges_le e) = BitVec.ofNat 32 (col e).val)
    (hnorm : ∀ e : Fin 800000, normP (Fin.castLE edges_le e) = norm e)
    (hnorm0 : ∀ e : Fin 802816, 800000 ≤ e.val → normP e = 0)
    (hea : ∀ (e : Fin 800000) (d : Fin 128), eaP (Fin.castLE edges_le e) d = ea e d) :
    ∀ (n : Fin 50000) (d : Fin 128),
      netK xP W1 b1 W2 b2 W3 b3 rowP colP normP eaP (Fin.castLE nodes_le n) d
        = netR x W1 b1 W2 b2 W3 b3 row col norm ea n d :=
  netK_eq_netR_of edges_le nodes_le nodesP_le x xP W1 b1 W2 b2 W3 b3 row col rowP colP norm normP ea eaP
    hx hrow hcol hnorm hnorm0 hea

end Cert.Spec

end
-- ==== Proof.LibRowGatherScatter.lean ====
/-
  Rows of a matrix taken at an index vector, and rows of a matrix added into a matrix at an index vector, each read
  at one element.

  `h[row]` for a matrix `h : [N, D]` and an index vector `row : [E]` is a gather whose slices are whole rows
  (slice sizes `[1, D]`, the row axis collapsed, the column axis the one offset axis) over the start indices as
  `[E, 1]`: result element `(e, c)` is `h` at row `row[e]` — the start word read SIGNED and clamped into
  `[0, N − 1]` — and column `c` (`gather_rows_apply`); for a start word already in `[0, N)` the row is the word
  itself (`gather_rows_apply_of_inRange`, `gather_rows_apply_toNat`).

  `segment_sum(msg, col)` for `msg : [E, D]` and `col : [E]` into `N` segments is a scatter that adds whole rows
  (the column axis the one update window axis, the row axis of the operand inserted) at one-component index vectors:
  update element `(e, c)` lands at `(n, c')` exactly when its start word, read signed and NOT clamped, is `n` and
  `c = c'` (`resultIdx?_rows_eq_some_iff`); an update whose start word is outside `[0, N)` lands nowhere. So
  the result at `(n, c)` is the operand's element plus the sum over the rows `e` whose start word is `n` of
  `upd (e, c)` (`scatterAdd_rows_apply`).
-/
import Idealize.ShloMosaic.PureOps.Ideal
import Idealize.ShloMosaic.Lib.ValueIdx
import Mathlib.Algebra.BigOperators.Fin

namespace Cert.Lib.RowGS

open Idealize.ShloMosaic Idealize.ShloMosaic.ValueIdx
open scoped BigOperators

/-! ## Rows gathered -/

/-- The dimension numbers of a gather of whole rows: operand `[N, D]`, start indices `[E, 1]`, result `[E, D]`;
    the result's column axis is the one offset axis, the operand's row axis is collapsed and is the axis the
    one-component start index names, the slices are `1 × D`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at those dimension numbers, read at `(e, c)`: on the row axis the clamped start word and nothing
    else (no batching axis, the axis collapsed), on the column axis no start (the start index does not name it) and
    the result's column coordinate as offset. -/
theorem gather_rowDims_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N D E wf).start (ix2 e c) idx 0 + (rowGatherDims N D E wf).batchCoord (ix2 e c) 0
      + (rowGatherDims N D E wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c)
        ⟨List.idxOf (0 : Fin 2) (rowGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
      + (rowGatherDims N D E wf).offCoord (ix2 e c) 1 = c.val
    have hstart : (rowGatherDims N D E wf).start (ix2 e c) idx 1 = 0 := by
      unfold GatherDims.start
      rw [dif_neg]
      intro hmem
      exact absurd (List.mem_singleton.mp hmem) (show ¬ (1 : Fin 2) = 0 by decide)
    have hoff : (rowGatherDims N D E wf).offCoord (ix2 e c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- THE ROW GATHER READ AT `(e, c)`, for any record with those dimension numbers: the operand at column `c` of the
    row the start word `idx (e, 0)` names, the word read signed and clamped into `[0, N − 1]`. -/
theorem gather_rows_apply {α : Type} {N D E w : ℕ} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c)
      = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  exact gather_rowDims_apply hN wf x idx e c

/-- The row gather at a start word already in `[0, N)`: the clamp does nothing, the row is the word read signed. -/
theorem gather_rows_apply_of_inRange {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toInt.toNat, by omega⟩ c) := by
  rw [gather_rows_apply (by omega) d h1 h2 h3 h4 h5 h6 h7 x idx e c]
  congr 2
  refine Fin.ext ?_
  show min (idx (ix2 e 0)).toInt.toNat (N - 1) = (idx (ix2 e 0)).toInt.toNat
  omega

/-- A word whose signed reading is not negative reads the same signed and unsigned. -/
theorem toInt_eq_toNat_of_nonneg {w : ℕ} (b : BitVec w) (h0 : 0 ≤ b.toInt) : b.toInt = (b.toNat : ℤ) := by
  rw [BitVec.toInt_eq_toNat_cond] at h0 ⊢
  by_cases h : 2 * b.toNat < 2 ^ w
  · rw [if_pos h]
  · rw [if_neg h] at h0
    have := b.isLt
    omega

/-- The row gather at a start word in `[0, N)`, the row written as the word read UNSIGNED (which is its signed
    reading there). -/
theorem gather_rows_apply_toNat {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toNat, by
          have := toInt_eq_toNat_of_nonneg _ h0; omega⟩ c) := by
  rw [gather_rows_apply_of_inRange d h1 h2 h3 h4 h5 h6 h7 x idx e c h0 hlt]
  congr 2
  refine Fin.ext ?_
  show (idx (ix2 e 0)).toInt.toNat = (idx (ix2 e 0)).toNat
  have := toInt_eq_toNat_of_nonneg _ h0
  omega

/-! ## Rows scattered and added -/

/-- The dimension numbers of a scatter of whole rows: operand `[N, D]`, scatter indices `[E, 1]`, updates `[E, D]`;
    the updates' column axis is the one window axis, the operand's row axis is inserted and is the axis the
    one-component scatter index names. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window of update `(e, c)` starts at its start word `idx (e, 0)`, read signed. -/
theorem rowScatter_start_row :
    (rowScatterDims N D E wf).start (ix2 e c) idx 0 = (idx (ix2 e 0)).toInt := by
  unfold ScatterDims.start
  rw [dif_pos (show (0 : Fin 2) ∈ (rowScatterDims N D E wf).scatterDimsToOperandDims from
    List.mem_singleton.mpr rfl)]
  congr 2
  funext b
  refine Fin.ext ?_
  match b with
  | ⟨0, _⟩ => rfl
  | ⟨1, _⟩ => rfl

/-- On the column axis, which the scatter index does not name, the window starts at `0`. -/
theorem rowScatter_start_col : (rowScatterDims N D E wf).start (ix2 e c) idx 1 = 0 := by
  unfold ScatterDims.start
  rw [dif_neg]
  intro hmem
  exact absurd (List.mem_singleton.mp hmem) (show ¬ (1 : Fin 2) = 0 by decide)

/-- The operand's axes that are not inserted: the column axis alone. -/
theorem rowScatter_sKept : (rowScatterDims N D E wf).sKept = [1] :=
  (by decide : (List.finRange 2).filter (fun a : Fin 2 => decide (a ∉ ([0] : List (Fin 2)))) = [1])

/-- The inserted row axis has window coordinate `0`. -/
theorem rowScatter_window_row : (rowScatterDims N D E wf).window (ix2 e c) 0 = 0 := by
  unfold ScatterDims.window
  rw [dif_neg]
  intro hmem
  rw [rowScatter_sKept] at hmem
  exact absurd (List.mem_singleton.mp hmem) (show ¬ (0 : Fin 2) = 1 by decide)

/-- The column axis has the update's column as window coordinate. -/
theorem rowScatter_window_col : (rowScatterDims N D E wf).window (ix2 e c) 1 = c.val := by
  unfold ScatterDims.window
  rw [dif_pos (show (1 : Fin 2) ∈ (rowScatterDims N D E wf).sKept by
    rw [rowScatter_sKept]; exact List.mem_singleton.mpr rfl)]
  rfl

/-- Update `(e, c)` of a row scatter lands at `(n, c')` exactly when its start word, read signed, is `n` and the
    columns agree; a start word outside `[0, N)` lands nowhere. -/
theorem resultIdx?_rowDims_eq_some_iff (n : Fin N) (c' : Fin D) :
    (rowScatterDims N D E wf).resultIdx? (ix2 e c) idx = some (ix2 n c')
      ↔ (idx (ix2 e 0)).toInt = (n.val : ℤ) ∧ c = c' := by
  have hs0 := rowScatter_start_row wf idx e c
  have hs1 := rowScatter_start_col wf idx e c
  have hw0 := rowScatter_window_row wf e c
  have hw1 := rowScatter_window_col wf e c
  have hc := c.isLt
  have hn := n.isLt
  unfold ScatterDims.resultIdx?
  by_cases hin : 0 ≤ (idx (ix2 e 0)).toInt ∧ (idx (ix2 e 0)).toInt < (N : ℤ)
  · rw [dif_pos (by
      intro a
      match a with
      | ⟨0, _⟩ =>
        show 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ)
        rw [hs0, hw0]
        omega
      | ⟨1, _⟩ =>
        show 0 ≤ (rowScatterDims N D E wf).start (ix2 e c) idx 1
            + (((rowScatterDims N D E wf).window (ix2 e c) 1 : ℕ) : ℤ)
          ∧ (rowScatterDims N D E wf).start (ix2 e c) idx 1
            + (((rowScatterDims N D E wf).window (ix2 e c) 1 : ℕ) : ℤ) < (D : ℤ)
        rw [hs1, hw1]
        omega)]
    rw [Option.some_inj]
    constructor
    · intro hf
      have h0 : ((rowScatterDims N D E wf).start (ix2 e c) idx 0
          + (((rowScatterDims N D E wf).window (ix2 e c) 0 : ℕ) : ℤ)).toNat = n.val :=
        congrArg (fun f => (f 0).val) hf
      have h1 : ((rowScatterDims N D E wf).start (ix2 e c) idx 1
          + (((rowScatterDims N D E wf).window (ix2 e c) 1 : ℕ) : ℤ)).toNat = c'.val :=
        congrArg (fun f => (f 1).val) hf
      rw [hs0, hw0] at h0
      rw [hs1, hw1] at h1
      exact ⟨by omega, Fin.ext (by omega)⟩
    · rintro ⟨ht, rfl⟩
      funext a
      apply Fin.ext
      match a with
      | ⟨0, _⟩ =>
        show ((rowScatterDims N D E wf).start (ix2 e c) idx 0
          + (((rowScatterDims N D E wf).window (ix2 e c) 0 : ℕ) : ℤ)).toNat = n.val
        rw [hs0, hw0]
        omega
      | ⟨1, _⟩ =>
        show ((rowScatterDims N D E wf).start (ix2 e c) idx 1
          + (((rowScatterDims N D E wf).window (ix2 e c) 1 : ℕ) : ℤ)).toNat = c.val
        rw [hs1, hw1]
        omega
  · rw [dif_neg (by
      intro hall
      apply hin
      have h := hall 0
      have h' : 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ) := h
      rw [hs0, hw0] at h'
      omega)]
    constructor
    · intro hf
      cases hf
    · rintro ⟨ht, -⟩
      exfalso
      apply hin
      omega

end RowScatter

/-- WHERE A ROW UPDATE LANDS, for any record with those dimension numbers: update `(e, c)` lands at `(n, c')` exactly
    when its start word `idx (e, 0)`, read signed and not clamped, is `n`, and `c = c'`. -/
theorem resultIdx?_rows_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c = c' := by
  obtain ⟨uw, iw, sd, iv, wf⟩ := d
  simp only at h1 h2 h3 h4
  subst h1 h2 h3 h4
  exact resultIdx?_rowDims_eq_some_iff wf idx e c n c'

/-- THE ROW SCATTER-ADD READ AT `(n, c)`: the operand's element plus, over the update rows `e` whose start word read
    signed is `n`, the update's element in column `c`. -/
theorem scatterAdd_rows_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd d x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl (fun e _ => ?_)
  simp only [resultIdx?_rows_eq_some_iff d h1 h2 h3 h4 idx e _ n c]
  by_cases ht : (idx (ix2 e 0)).toInt = (n.val : ℤ)
  · simp [ht]
  · simp [ht]

end Cert.Lib.RowGS
-- ==== Proof.RefLayers.lean ====
/-
  The reference's second and third layers are its first layer's stages at other operands.

  The reference program is three graph-convolution layers in a row. A layer takes node features `h`, the edge list,
  the edge attributes with their embedding matrix, and a weight matrix `W` with a bias `b`: it forms `h W + b`,
  takes its rows at the edges' sources, adds the embedded edge attributes, scales every edge's row by the edge's
  normalisation, adds the rows up at the edges' targets into zeros, and adds `h W + b` again; the first two layers
  end in a maximum with zero. The program repeats the operations of the first layer for the second and the third,
  on the previous layer's result and the next weight and bias, with its own copies of the constants; the copies
  have the same contents. So the stage that ends the second layer is the stage that ends the first, read at the
  first layer's result and the second weight and bias; and the third layer's last sum is the first layer's last
  sum, read at the second layer's result and the third weight and bias. Unfolding the stages leaves the same term
  on both sides, in any float arithmetic.
-/
import proofs.«177903_j22574348108073_1_alg».proof.Proof.RefRead

noncomputable section

namespace Cert.ReferenceIdeal.RefLayers

open Cert.ReferenceIdeal Cert.ReferenceIdeal.Gen Cert.ReferenceIdeal.Read Idealize.ShloMosaic

/-! ## In any float arithmetic -/

section AnyArithmetic
variable {F : FTy → Type} [FloatOps F]

/-- The stage that ends the second layer is the stage that ends the first, read at the first layer's result and at
    the second weight matrix and bias. -/
theorem second_layer_eq_any (x : FVec F S50000x128 .f32) (ei : IVec S2x800000 32) (ea : FVec F S800000x16 .f32)
    (emb : FVec F S16x128 .f32) (w1 : FVec F S128x128 .f32) (b1 : FVec F S128 .f32)
    (w2 : FVec F S128x128 .f32) (b2 : FVec F S128 .f32) :
    val_main_v92 (F := F) x ei ea emb w1 b1 w2 b2
      = val_main_v48 (F := F) (val_main_v48 (F := F) x ei ea emb w1 b1) ei ea emb w2 b2 := rfl

/-- The third layer's last sum (the program's result: the third layer has no maximum with zero) is the first layer's
    last sum, read at the second layer's result and at the third weight matrix and bias. -/
theorem third_layer_eq_any (x : FVec F S50000x128 .f32) (ei : IVec S2x800000 32) (ea : FVec F S800000x16 .f32)
    (emb : FVec F S16x128 .f32) (w1 : FVec F S128x128 .f32) (b1 : FVec F S128 .f32)
    (w2 : FVec F S128x128 .f32) (b2 : FVec F S128 .f32) (w3 : FVec F S128x128 .f32) (b3 : FVec F S128 .f32) :
    val_main_v135 (F := F) x ei ea emb w1 b1 w2 b2 w3 b3
      = val_main_v47 (F := F) (val_main_v92 (F := F) x ei ea emb w1 b1 w2 b2) ei ea emb w3 b3 := rfl

end AnyArithmetic

/-! ## At the extended reals -/

/-- The second layer's result is the first layer's function of the first layer's result, the second weight matrix
    and the second bias. -/
theorem second_layer_eq (x : FVec Ideal S50000x128 .f32) (ei : IVec S2x800000 32) (ea : FVec Ideal S800000x16 .f32)
    (emb : FVec Ideal S16x128 .f32) (w1 : FVec Ideal S128x128 .f32) (b1 : FVec Ideal S128 .f32)
    (w2 : FVec Ideal S128x128 .f32) (b2 : FVec Ideal S128 .f32) :
    val_main_v92 (F := Ideal) x ei ea emb w1 b1 w2 b2
      = val_main_v48 (F := Ideal) (val_main_v48 (F := Ideal) x ei ea emb w1 b1) ei ea emb w2 b2 :=
  second_layer_eq_any x ei ea emb w1 b1 w2 b2

/-- The program's result is the first layer's last sum as a function of the second layer's result, the third
    weight matrix and the third bias. -/
theorem third_layer_eq (x : FVec Ideal S50000x128 .f32) (ei : IVec S2x800000 32) (ea : FVec Ideal S800000x16 .f32)
    (emb : FVec Ideal S16x128 .f32) (w1 : FVec Ideal S128x128 .f32) (b1 : FVec Ideal S128 .f32)
    (w2 : FVec Ideal S128x128 .f32) (b2 : FVec Ideal S128 .f32) (w3 : FVec Ideal S128x128 .f32)
    (b3 : FVec Ideal S128 .f32) :
    val_main_v135 (F := Ideal) x ei ea emb w1 b1 w2 b2 w3 b3
      = val_main_v47 (F := Ideal) (val_main_v92 (F := Ideal) x ei ea emb w1 b1 w2 b2) ei ea emb w3 b3 :=
  third_layer_eq_any x ei ea emb w1 b1 w2 b2 w3 b3

end Cert.ReferenceIdeal.RefLayers
-- ==== Proof.RefValue.lean ====
/-
  The reference program's result as the network's three layers over the extended reals.

  Each layer of the reference is: the linear projection `h = x · W + b`; the row of `h` at every edge's source
  node; the edge message `norm e · (h (row e) + ea e)` with `ea` the edge attributes times their embedding; the
  sum of the messages over the edges into each node; the residual `+ h`; and, after the first two layers, the
  rectifier. The program's stages are read one operation at a time at a row and a column number, under the
  hypothesis that every source and target word of the edge-index array is a node number: then the wrap of a
  negative index that the program applies before a gather does nothing, a gathered row is the row the word names,
  and an edge's message is added into the row its target word names.

  The edge normalisation (the in-degree count, its power `-1/2` where positive, the two scalar gathers and their
  product) is kept as ONE function `normR` of the edge-index array and never opened: the three layers compute
  it by the same operations, and their three copies are the same term.
-/
import proofs.«177903_j22574348108073_1_alg».proof.Proof.RefRead
import proofs.«177903_j22574348108073_1_alg».proof.Proof.SpecRef
import proofs.«177903_j22574348108073_1_alg».proof.Proof.LibRowGatherScatter
import proofs.«177903_j22574348108073_1_alg».proof.Proof.RefLayers

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## Arrays as matrices -/

/-- A rank-2 array of extended reals as a matrix by row and column number. -/
abbrev matOf {a b : ℕ} (x : (⟨2, ![a, b]⟩ : Shape).Idx → EReal) : Cert.Spec.Mat a b := fun i j => x (ix2 i j)

/-- A rank-1 array of extended reals as a function of its entry's number. -/
abbrev vecOf {a : ℕ} (x : (⟨1, ![a]⟩ : Shape).Idx → EReal) : Fin a → EReal := fun i => x (ix1 i)

/-- The edge normalisation as the reference computes it from the edge-index array: the in-degree of every node
    counted by a scatter of ones at the target words, its power `-1/2` where the degree is positive and zero
    elsewhere, read at each edge's source and target word, the two multiplied. One function of the edge-index
    array, never opened here. -/
def normR (ei : IVec S2x800000 32) : FVec Ideal S800000 .f32 := val_main_v32 (F := Ideal) ei

/-- The second layer computes the normalisation by the same operations: its copy is the same function. -/
theorem normR_second (ei : IVec S2x800000 32) : val_main_v76 (F := Ideal) ei = normR ei := rfl

/-- So does the third. -/
theorem normR_third (ei : IVec S2x800000 32) : val_main_v120 (F := Ideal) ei = normR ei := rfl

/-! ## Node numbers as 32-bit words -/

/-- A node number's word read back signed is the number. -/
theorem toInt_nodeWord (r : ℕ) (h : r < 50000) : (BitVec.ofNat 32 r).toInt = (r : ℤ) := by
  have hn : (BitVec.ofNat 32 r).toNat = r := by
    rw [BitVec.toNat_ofNat]; exact Nat.mod_eq_of_lt (by omega)
  rw [BitVec.toInt_eq_toNat_cond, hn, if_pos (by omega)]

/-- A node number's word is not negative: the signed comparison with zero answers the bit 0. -/
theorem nodeWord_not_neg (r : ℕ) (h : r < 50000) : IntOp.cmpi .slt (BitVec.ofNat 32 r) 0#32 = 0#1 := by
  have h1 : (BitVec.ofNat 32 r).slt 0#32 = false := by
    rw [BitVec.slt_eq_decide, toInt_nodeWord r h]
    simp
  show BitVec.ofBool ((BitVec.ofNat 32 r).slt 0#32) = 0#1
  rw [h1]; rfl

/-! ## The source and target words -/

/-- The source word of edge `e` is entry `(0, e)` of the edge-index array. -/
theorem srcWord (ei : IVec S2x800000 32) (e : Fin 800000) :
    val_main_v1 (F := Ideal) ei (ix1 e) = ei (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- The target word of edge `e` is entry `(1, e)`. -/
theorem dstWord (ei : IVec S2x800000 32) (e : Fin 800000) :
    val_main_v3 (F := Ideal) ei (ix1 e) = ei (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- The start index of the row gather at edge `e`: the source word after the wrap of a negative index, which a
    node number's word passes unchanged. -/
theorem gatherStart (ei : IVec S2x800000 32) (e : Fin 800000) (r : Fin 50000)
    (h : ei (ix2 (0 : Fin 2) e) = BitVec.ofNat 32 r.val) :
    val_main_v39 (F := Ideal) ei (ix2 e (0 : Fin 1)) = BitVec.ofNat 32 r.val := by
  have ei39 : idx_main_v39 (ix2 e (0 : Fin 1)) = ix1 e :=
    funext fun a => Fin.ext (by match a with | ⟨0, _⟩ => rfl)
  rw [val_main_v39_apply, ei39, val_main_v38_apply, val_main_v35_apply, srcWord, val_main_v34_apply,
    val_main_c_7_apply, h, nodeWord_not_neg r.val r.isLt, select_zero]

/-- The index of the row scatter at edge `e`: the target word as it is. -/
theorem scatterStart (ei : IVec S2x800000 32) (e : Fin 800000) :
    val_main_v45 (F := Ideal) ei (ix2 e (0 : Fin 1)) = ei (ix2 (1 : Fin 2) e) := by
  have ei45 : idx_main_v45 (ix2 e (0 : Fin 1)) = ix1 e :=
    funext fun a => Fin.ext (by match a with | ⟨0, _⟩ => rfl)
  rw [val_main_v45_apply, ei45, dstWord]

/-! ## The stages of one layer at a row and a column -/

/-- The linear projection `x · W + b`. -/
theorem lin_read (x : FVec Ideal S50000x128 .f32) (w : FVec Ideal S128x128 .f32) (b : FVec Ideal S128 .f32)
    (n : Fin 50000) (d : Fin 128) :
    val_main_v8 (F := Ideal) x w b (ix2 n d) = Cert.Spec.lin (matOf x) (matOf w) (vecOf b) n d := by
  have el : ∀ k : Fin 128, lidx_main_v5 (ix2 n d) k = ix2 n k := fun k =>
    funext fun a => Fin.ext (by match a with | ⟨0, _⟩ => rfl | ⟨1, _⟩ => rfl)
  have er : ∀ k : Fin 128, ridx_main_v5 (ix2 n d) k = ix2 k d := fun k =>
    funext fun a => Fin.ext (by match a with | ⟨0, _⟩ => rfl | ⟨1, _⟩ => rfl)
  have eb : idx_main_v6 (idx_main_v7 (ix2 n d)) = ix1 d :=
    funext fun a => Fin.ext (by match a with | ⟨0, _⟩ => rfl)
  rw [val_main_v8_apply, val_main_v5_apply, val_main_v7_apply, val_main_v6_apply]
  simp only [el, er, eb, Ideal.addf_def]
  rfl

/-- The edge embedding: the edge attributes times their embedding matrix. -/
theorem ea_read (ea : FVec Ideal S800000x16 .f32) (emb : FVec Ideal S16x128 .f32) (e : Fin 800000) (d : Fin 128) :
    val_main_v4 (F := Ideal) ea emb (ix2 e d) = Cert.Spec.mm (matOf ea) (matOf emb) e d := by
  have el : ∀ k : Fin 16, lidx_main_v4 (ix2 e d) k = ix2 e k := fun k =>
    funext fun a => Fin.ext (by match a with | ⟨0, _⟩ => rfl | ⟨1, _⟩ => rfl)
  have er : ∀ k : Fin 16, ridx_main_v4 (ix2 e d) k = ix2 k d := fun k =>
    funext fun a => Fin.ext (by match a with | ⟨0, _⟩ => rfl | ⟨1, _⟩ => rfl)
  rw [val_main_v4_apply]
  simp only [el, er]
  rfl

/-- The normalisation spread over the columns of the message. -/
theorem norm_read (ei : IVec S2x800000 32) (e : Fin 800000) (d : Fin 128) :
    val_main_v42 (F := Ideal) ei (ix2 e d) = normR ei (ix1 e) := by
  have en : idx_main_v33 (idx_main_v42 (ix2 e d)) = ix1 e :=
    funext fun a => Fin.ext (by match a with | ⟨0, _⟩ => rfl)
  rw [val_main_v42_apply, val_main_v33_apply, en]
  rfl

/-- The gathered rows: edge `e` takes the row of the projection its source word names. -/
theorem gather_read (h : FVec Ideal S50000x128 .f32) (idx : IVec S800000x1 32) (e : Fin 800000) (d : Fin 128)
    (r : Fin 50000) (hw : idx (ix2 e (0 : Fin 1)) = BitVec.ofNat 32 r.val) :
    Host.gather gather_S50000x128_S800000x1_S800000x128_1_0_n_n_0_1_1128 h idx (ix2 e d) = h (ix2 r d) := by
  have hi : (idx (ix2 e (0 : Fin 1))).toInt = (r.val : ℤ) := by rw [hw]; exact toInt_nodeWord r.val r.isLt
  have hr := r.isLt
  rw [Cert.Lib.RowGS.gather_rows_apply_of_inRange gather_S50000x128_S800000x1_S800000x128_1_0_n_n_0_1_1128 rfl rfl rfl rfl rfl rfl rfl h idx e d
    (by rw [hi]; omega) (by rw [hi]; omega)]
  congr 2
  refine Fin.ext ?_
  show (idx (ix2 e (0 : Fin 1))).toInt.toNat = r.val
  rw [hi]; rfl

/-- The edge message: normalisation × (source row of the projection + edge embedding). -/
theorem msg_read (x : FVec Ideal S50000x128 .f32) (ei : IVec S2x800000 32) (ea : FVec Ideal S800000x16 .f32)
    (emb : FVec Ideal S16x128 .f32) (w : FVec Ideal S128x128 .f32) (b : FVec Ideal S128 .f32)
    (row : Fin 800000 → Fin 50000)
    (hrow : ∀ e : Fin 800000, ei (ix2 (0 : Fin 2) e) = BitVec.ofNat 32 (row e).val) (e : Fin 800000) (d : Fin 128) :
    val_main_v43 (F := Ideal) x ei ea emb w b (ix2 e d)
      = normR ei (ix1 e) * (Cert.Spec.lin (matOf x) (matOf w) (vecOf b) (row e) d
          + Cert.Spec.mm (matOf ea) (matOf emb) e d) := by
  rw [val_main_v43_apply, val_main_v41_apply, norm_read, ea_read]
  unfold val_main_v40
  rw [gather_read _ _ e d (row e) (gatherStart ei e (row e) (hrow e)), lin_read]
  simp only [Ideal.mulf_def, Ideal.addf_def]

/-- The aggregation: node `n` takes the messages of the edges whose target is `n`. -/
theorem agg_read (x : FVec Ideal S50000x128 .f32) (ei : IVec S2x800000 32) (ea : FVec Ideal S800000x16 .f32)
    (emb : FVec Ideal S16x128 .f32) (w : FVec Ideal S128x128 .f32) (b : FVec Ideal S128 .f32)
    (row col : Fin 800000 → Fin 50000)
    (hrow : ∀ e : Fin 800000, ei (ix2 (0 : Fin 2) e) = BitVec.ofNat 32 (row e).val)
    (hcol : ∀ e : Fin 800000, ei (ix2 (1 : Fin 2) e) = BitVec.ofNat 32 (col e).val) (n : Fin 50000) (d : Fin 128) :
    val_main_v46 (F := Ideal) x ei ea emb w b (ix2 n d)
      = ∑ e : Fin 800000, Cert.Spec.oh (col e = n) * (normR ei (ix1 e)
          * (Cert.Spec.lin (matOf x) (matOf w) (vecOf b) (row e) d + Cert.Spec.mm (matOf ea) (matOf emb) e d)) := by
  unfold val_main_v46 Host.scatterAdd
  rw [Ideal.hostScatterAdd_def,
    Cert.Lib.RowGS.scatterAdd_rows_apply scatter_S50000x128_S800000x1_S800000x128_1_0_0_1 rfl rfl rfl rfl,
    val_main_v44_apply, val_main_cst_9_apply, Ideal.ofBits_def, Ideal.ofBits_zero_f32, zero_add]
  refine Finset.sum_congr rfl fun e _ => ?_
  rw [scatterStart, hcol e, toInt_nodeWord (col e).val (col e).isLt, msg_read x ei ea emb w b row hrow]
  unfold Cert.Spec.oh
  by_cases hc : col e = n
  · rw [if_pos (by rw [hc]), if_pos hc, one_mul]
  · rw [if_neg (fun h => hc (Fin.ext (by exact_mod_cast h))), if_neg hc, zero_mul]

/-! ## One layer -/

/-- A layer before the rectifier: the aggregation plus the projection. Stated for ANY input matrix, weights and
    bias: the second and third layers are this lemma at the previous layer's result. -/
theorem layer_read (x : FVec Ideal S50000x128 .f32) (ei : IVec S2x800000 32) (ea : FVec Ideal S800000x16 .f32)
    (emb : FVec Ideal S16x128 .f32) (w : FVec Ideal S128x128 .f32) (b : FVec Ideal S128 .f32)
    (row col : Fin 800000 → Fin 50000)
    (hrow : ∀ e : Fin 800000, ei (ix2 (0 : Fin 2) e) = BitVec.ofNat 32 (row e).val)
    (hcol : ∀ e : Fin 800000, ei (ix2 (1 : Fin 2) e) = BitVec.ofNat 32 (col e).val) (n : Fin 50000) (d : Fin 128) :
    val_main_v47 (F := Ideal) x ei ea emb w b (ix2 n d)
      = Cert.Spec.layerR false (matOf x) (matOf w) (vecOf b) row col (fun e => normR ei (ix1 e))
          (Cert.Spec.mm (matOf ea) (matOf emb)) n d := by
  rw [val_main_v47_apply, agg_read x ei ea emb w b row col hrow hcol, lin_read, Ideal.addf_def]
  rfl

/-- A layer under the rectifier. -/
theorem layer_relu_read (x : FVec Ideal S50000x128 .f32) (ei : IVec S2x800000 32) (ea : FVec Ideal S800000x16 .f32)
    (emb : FVec Ideal S16x128 .f32) (w : FVec Ideal S128x128 .f32) (b : FVec Ideal S128 .f32)
    (row col : Fin 800000 → Fin 50000)
    (hrow : ∀ e : Fin 800000, ei (ix2 (0 : Fin 2) e) = BitVec.ofNat 32 (row e).val)
    (hcol : ∀ e : Fin 800000, ei (ix2 (1 : Fin 2) e) = BitVec.ofNat 32 (col e).val) (n : Fin 50000) (d : Fin 128) :
    val_main_v48 (F := Ideal) x ei ea emb w b (ix2 n d)
      = Cert.Spec.layerR true (matOf x) (matOf w) (vecOf b) row col (fun e => normR ei (ix1 e))
          (Cert.Spec.mm (matOf ea) (matOf emb)) n d := by
  rw [val_main_v48_apply, layer_read x ei ea emb w b row col hrow hcol, val_main_call1_v0_apply,
    val_main_call1_cst_apply, Ideal.ofBits_def, Ideal.ofBits_zero_f32, Ideal.maximumf_def]
  rfl

/-! ## The three layers -/

/-- The composed stages are the three layers: the second layer is the first layer's stages at the first layer's
    result and the second weights, the third the first layer's stages before the rectifier at the second layer's
    result and the third weights. -/
theorem net_read (x : FVec Ideal S50000x128 .f32) (ei : IVec S2x800000 32) (ea : FVec Ideal S800000x16 .f32)
    (emb : FVec Ideal S16x128 .f32) (w1 : FVec Ideal S128x128 .f32) (b1 : FVec Ideal S128 .f32)
    (w2 : FVec Ideal S128x128 .f32) (b2 : FVec Ideal S128 .f32) (w3 : FVec Ideal S128x128 .f32) (b3 : FVec Ideal S128 .f32)
    (row col : Fin 800000 → Fin 50000)
    (hrow : ∀ e : Fin 800000, ei (ix2 (0 : Fin 2) e) = BitVec.ofNat 32 (row e).val)
    (hcol : ∀ e : Fin 800000, ei (ix2 (1 : Fin 2) e) = BitVec.ofNat 32 (col e).val) (n : Fin 50000) (d : Fin 128) :
    val_main_v135 (F := Ideal) x ei ea emb w1 b1 w2 b2 w3 b3 (ix2 n d)
      = Cert.Spec.netR (matOf x) (matOf w1) (vecOf b1) (matOf w2) (vecOf b2) (matOf w3) (vecOf b3) row col
          (fun e => normR ei (ix1 e)) (Cert.Spec.mm (matOf ea) (matOf emb)) n d := by
  have l1 : matOf (val_main_v48 (F := Ideal) x ei ea emb w1 b1)
      = Cert.Spec.layerR true (matOf x) (matOf w1) (vecOf b1) row col (fun e => normR ei (ix1 e))
          (Cert.Spec.mm (matOf ea) (matOf emb)) :=
    funext fun n => funext fun d => layer_relu_read x ei ea emb w1 b1 row col hrow hcol n d
  have l2 : matOf (val_main_v92 (F := Ideal) x ei ea emb w1 b1 w2 b2)
      = Cert.Spec.layerR true (matOf (val_main_v48 (F := Ideal) x ei ea emb w1 b1)) (matOf w2) (vecOf b2) row col
          (fun e => normR ei (ix1 e)) (Cert.Spec.mm (matOf ea) (matOf emb)) :=
    funext fun n => funext fun d => by
      show val_main_v92 (F := Ideal) x ei ea emb w1 b1 w2 b2 (ix2 n d) = _
      rw [Cert.ReferenceIdeal.RefLayers.second_layer_eq]
      exact layer_relu_read _ ei ea emb w2 b2 row col hrow hcol n d
  rw [Cert.ReferenceIdeal.RefLayers.third_layer_eq, layer_read _ ei ea emb w3 b3 row col hrow hcol, l2, l1]
  unfold Cert.Spec.netR
  rfl

/-! ## The run's result -/

/-- THE REFERENCE'S RESULT: when every source word of the edge-index array is the node number `row e` and every
    target word the node number `col e`, the result of the run at row `n` and column `d` is the three layers of
    the network at the argument arrays, with the reference's own normalisation. -/
theorem ref_result (m' : (ℓ : Loc nD τ sig) → Buf (Elt Ideal) ℓ) (c : Dev nD) (row col : Fin 800000 → Fin 50000)
    (hrow : ∀ e : Fin 800000,
      (m' ((c.tc : Thread nD τ).loc main_arg1) : IVec S2x800000 32) (ix2 (0 : Fin 2) e) = BitVec.ofNat 32 (row e).val)
    (hcol : ∀ e : Fin 800000,
      (m' ((c.tc : Thread nD τ).loc main_arg1) : IVec S2x800000 32) (ix2 (1 : Fin 2) e) = BitVec.ofNat 32 (col e).val) :
    ∀ (n : Fin 50000) (d : Fin 128),
      (Cert.ReferenceIdeal.Value.res_main_v135 (F := Ideal) m' c : Vec Ideal S50000x128 .f32) (ix2 n d)
        = Cert.Spec.netR
            (fun n d => (m' ((c.tc : Thread nD τ).loc main_arg0) : Vec Ideal S50000x128 .f32) (ix2 n d))
            (fun k d => (m' ((c.tc : Thread nD τ).loc main_arg4) : Vec Ideal S128x128 .f32) (ix2 k d))
            (fun d => (m' ((c.tc : Thread nD τ).loc main_arg5) : Vec Ideal S128 .f32) (ix1 d))
            (fun k d => (m' ((c.tc : Thread nD τ).loc main_arg6) : Vec Ideal S128x128 .f32) (ix2 k d))
            (fun d => (m' ((c.tc : Thread nD τ).loc main_arg7) : Vec Ideal S128 .f32) (ix1 d))
            (fun k d => (m' ((c.tc : Thread nD τ).loc main_arg8) : Vec Ideal S128x128 .f32) (ix2 k d))
            (fun d => (m' ((c.tc : Thread nD τ).loc main_arg9) : Vec Ideal S128 .f32) (ix1 d))
            row col
            (fun e => val_main_v32 (F := Ideal) (m' ((c.tc : Thread nD τ).loc main_arg1) : IVec S2x800000 32) (ix1 e))
            (Cert.Spec.mm
              (fun e k => (m' ((c.tc : Thread nD τ).loc main_arg2) : Vec Ideal S800000x16 .f32) (ix2 e k))
              (fun k d => (m' ((c.tc : Thread nD τ).loc main_arg3) : Vec Ideal S16x128 .f32) (ix2 k d))) n d := by
  intro n d
  rw [val_main_v135_eq]
  exact net_read _ _ _ _ _ _ _ _ _ _ row col hrow hcol n d

end Cert.ReferenceIdeal.RefValue

end
-- ==== Proof.Agree.lean ====
/-
  The two programs' results are equal.

  The kernel program's result at row n is the padded one-hot network at row n, fed with the padded arrays the program
  builds from its arguments; the reference's result is the node-number network fed with the arguments themselves.
  Under the precondition every entry of the edge list is a node number below 50000 and is the 32-bit word of that
  number, so the padded sources and targets carry the real edges' node numbers as words; the padded edge weights are
  the edges' normalisation (one and the same function of the edge list in both programs) followed by zeros; the padded
  edge attributes and node features begin with the real ones; the weights and biases are read unchanged. These are the
  hypotheses under which the padded one-hot network equals the node-number network on the real nodes.
-/
import proofs.«177903_j22574348108073_1_alg».proof.Defs
import proofs.«177903_j22574348108073_1_alg».proof.Proof.KI.KernelValue
import proofs.«177903_j22574348108073_1_alg».proof.Proof.KI.HostPrefix
import proofs.«177903_j22574348108073_1_alg».proof.Proof.PreDecode
import proofs.«177903_j22574348108073_1_alg».proof.Proof.NormEq
import proofs.«177903_j22574348108073_1_alg».proof.Proof.Bridge
import proofs.«177903_j22574348108073_1_alg».proof.Proof.RefValue

noncomputable section

namespace Cert.Agree

open Idealize.ShloMosaic Idealize.ShloMosaic.ValueIdx Idealize.ShloMosaic.TcCoe
open Cert.Spec
open scoped BigOperators

/-! ## What the first kernel finds, in terms of the program's arguments -/

section KernelSide

open Cert.KernelIdeal Cert.KernelIdeal.Hand

variable (m : (ℓ : Loc nD τ sig) → Buf (Elt Ideal) ℓ) (c : Dev nD)

/-- The first 50000 rows of the padded node features are the node features. -/
theorem xp_real (n : Fin 50000) (d : Fin 128) :
    xp m c (Fin.castLE nodes_le n) d = (m ((c.tc : Thread nD τ).loc main_arg0) : Vec Ideal S50000x128 .f32) (ix2 n d) :=
  (x_p m c (Fin.castLE nodes_le n) d).trans (dif_pos (show (Fin.castLE nodes_le n).val < 50000 from n.isLt))

/-- The first 800000 padded source words are the first row of the edge list. -/
theorem rowp_real (e : Fin 800000) :
    rowp m c (Fin.castLE edges_le e) = (m ((c.tc : Thread nD τ).loc main_arg1) : IVec S2x800000 32) (ix2 (0 : Fin 2) e) :=
  (row_p m c (Fin.castLE edges_le e)).trans (dif_pos (show (Fin.castLE edges_le e).val < 800000 from e.isLt))

/-- The first 800000 padded target words are the second row of the edge list. -/
theorem colp_real (e : Fin 800000) :
    colp m c (Fin.castLE edges_le e) = (m ((c.tc : Thread nD τ).loc main_arg1) : IVec S2x800000 32) (ix2 (1 : Fin 2) e) :=
  (col_p m c (Fin.castLE edges_le e)).trans (dif_pos (show (Fin.castLE edges_le e).val < 800000 from e.isLt))

/-- The first 800000 padded edge weights are the edges' normalisation. -/
theorem nmp_real (e : Fin 800000) :
    nmp m c (Fin.castLE edges_le e) = normK (F := Ideal) (m ((c.tc : Thread nD τ).loc main_arg1)) (ix1 e) :=
  (norm_p m c (Fin.castLE edges_le e)).trans (dif_pos (show (Fin.castLE edges_le e).val < 800000 from e.isLt))

/-- The padded edge weights are zero from entry 800000 on. -/
theorem nmp_pad (e : Fin 802816) (he : 800000 ≤ e.val) : nmp m c e = 0 :=
  (norm_p m c e).trans (dif_neg (Nat.not_lt.mpr he))

/-- The first 800000 rows of the padded edge embeddings are the edge attributes through the embedding table. -/
theorem eap_real (e : Fin 800000) (d : Fin 128) :
    eap m c (Fin.castLE edges_le e) d
      = mm (fun e k => (m ((c.tc : Thread nD τ).loc main_arg2) : Vec Ideal S800000x16 .f32) (ix2 e k))
          (fun k d => (m ((c.tc : Thread nD τ).loc main_arg3) : Vec Ideal S16x128 .f32) (ix2 k d)) e d := by
  unfold eap mm
  refine Finset.sum_congr rfl (fun k _ => ?_)
  have ha : attrp m c (Fin.castLE edges_le e) k = (m ((c.tc : Thread nD τ).loc main_arg2) : Vec Ideal S800000x16 .f32) (ix2 e k) :=
    (edge_attr_p m c (Fin.castLE edges_le e) k).trans
      (dif_pos (show (Fin.castLE edges_le e).val < 800000 from e.isLt))
  have hb : emb m c k d = (m ((c.tc : Thread nD τ).loc main_arg3) : Vec Ideal S16x128 .f32) (ix2 k d) :=
    congrFun (V12_main_arg3 m c) (ix2 k d)
  exact congrArg₂ (· * ·) ha hb

/-- `W1` is the program's argument, read unchanged. -/
theorem W1_eq : W1 m c = fun k d => (m ((c.tc : Thread nD τ).loc main_arg4) : Vec Ideal S128x128 .f32) (ix2 k d) := by
  funext k d
  exact congrFun (V12_main_arg4 m c) (ix2 k d)

/-- `b1` is the program's argument, read unchanged. -/
theorem b1_eq : b1 m c = fun d => (m ((c.tc : Thread nD τ).loc main_arg5) : Vec Ideal S128 .f32) (ix1 d) := by
  funext d
  exact congrFun (V12_main_arg5 m c) (ix1 d)

/-- `W2` is the program's argument, read unchanged. -/
theorem W2_eq : W2 m c = fun k d => (m ((c.tc : Thread nD τ).loc main_arg6) : Vec Ideal S128x128 .f32) (ix2 k d) := by
  funext k d
  exact congrFun (V12_main_arg6 m c) (ix2 k d)

/-- `b2` is the program's argument, read unchanged. -/
theorem b2_eq : b2 m c = fun d => (m ((c.tc : Thread nD τ).loc main_arg7) : Vec Ideal S128 .f32) (ix1 d) := by
  funext d
  exact congrFun (V12_main_arg7 m c) (ix1 d)

/-- `W3` is the program's argument, read unchanged. -/
theorem W3_eq : W3 m c = fun k d => (m ((c.tc : Thread nD τ).loc main_arg8) : Vec Ideal S128x128 .f32) (ix2 k d) := by
  funext k d
  exact congrFun (V12_main_arg8 m c) (ix2 k d)

/-- `b3` is the program's argument, read unchanged. -/
theorem b3_eq : b3 m c = fun d => (m ((c.tc : Thread nD τ).loc main_arg9) : Vec Ideal S128 .f32) (ix1 d) := by
  funext d
  exact congrFun (V12_main_arg9 m c) (ix1 d)

end KernelSide

/-! ## The results agree -/

section Results

variable [Cert.KernelIdeal.Facts] [Cert.ReferenceIdeal.Facts] [Cert.Pre_finite_inputs.Facts]

open Cert.KernelIdeal.Hand in
/-- THE TWO RESULTS ARE EQUAL: from memories that agree on the ten arguments, under the precondition, the reference's
    result array and the kernel program's are the same function of the row and column number. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    (Cert.ReferenceIdeal.Value.res_main_v135 m' c : Vec Ideal Cert.ReferenceIdeal.S50000x128 .f32)
      = (Cert.KernelIdeal.Hand.B11 m c Cert.KernelIdeal.main_v43 : Vec Ideal Cert.KernelIdeal.S50000x128 .f32) := by
  obtain ⟨h0, h1, h2, h3, h4, h5, h6, h7, h8, h9⟩ := hagree c
  -- under the precondition every entry of the edge list is a node number below 50000, and the word of that number
  have hidx : ∀ i : Cert.KernelIdeal.S2x800000.Idx,
      ((m ((c.tc : Thread Cert.KernelIdeal.nD Cert.KernelIdeal.τ).loc Cert.KernelIdeal.main_arg1) : IVec Cert.KernelIdeal.S2x800000 32) i).toNat < 50000
        ∧ (m ((c.tc : Thread Cert.KernelIdeal.nD Cert.KernelIdeal.τ).loc Cert.KernelIdeal.main_arg1) : IVec Cert.KernelIdeal.S2x800000 32) i
            = BitVec.ofNat 32 ((m ((c.tc : Thread Cert.KernelIdeal.nD Cert.KernelIdeal.τ).loc Cert.KernelIdeal.main_arg1) : IVec Cert.KernelIdeal.S2x800000 32) i).toNat :=
    fun i => Cert.PreDecode.index_lt (F := Ideal) _ _ _ _ _ _ _ _ _ _ (hpre c) i
  -- the edges' source and target nodes, as node numbers
  obtain ⟨row, hrowN⟩ : ∃ row : Fin 800000 → Fin 50000, ∀ e : Fin 800000,
      (m ((c.tc : Thread Cert.KernelIdeal.nD Cert.KernelIdeal.τ).loc Cert.KernelIdeal.main_arg1) : IVec Cert.KernelIdeal.S2x800000 32) (ix2 (0 : Fin 2) e) = BitVec.ofNat 32 (row e).val :=
    ⟨fun e => ⟨_, (hidx (ix2 (0 : Fin 2) e)).1⟩, fun e => (hidx (ix2 (0 : Fin 2) e)).2⟩
  obtain ⟨col, hcolN⟩ : ∃ col : Fin 800000 → Fin 50000, ∀ e : Fin 800000,
      (m ((c.tc : Thread Cert.KernelIdeal.nD Cert.KernelIdeal.τ).loc Cert.KernelIdeal.main_arg1) : IVec Cert.KernelIdeal.S2x800000 32) (ix2 (1 : Fin 2) e) = BitVec.ofNat 32 (col e).val :=
    ⟨fun e => ⟨_, (hidx (ix2 (1 : Fin 2) e)).1⟩, fun e => (hidx (ix2 (1 : Fin 2) e)).2⟩
  funext j
  obtain ⟨n, d, rfl⟩ : ∃ (n : Fin 50000) (d : Fin 128), j = ix2 n d := ⟨j 0, j 1, eq_ix2 j⟩
  -- the reference's result is the node-number network of its arguments
  refine (Cert.ReferenceIdeal.RefValue.ref_result m' c row col ?_ ?_ n d).trans ?_
  · intro e; rw [h1]; exact hrowN e
  · intro e; rw [h1]; exact hcolN e
  -- the kernel program's result is the padded one-hot network of what the first kernel finds
  refine Eq.trans ?_ (kernel_result m c n d).symm
  -- both read in the kernel program's memory, the weights and biases as the arguments themselves
  rw [h0, h1, h2, h3, h4, h5, h6, h7, h8, h9, W1_eq m c, b1_eq m c, W2_eq m c, b2_eq m c, W3_eq m c, b3_eq m c]
  exact (netK_eq_netR (fun n d => (m ((c.tc : Thread Cert.KernelIdeal.nD Cert.KernelIdeal.τ).loc Cert.KernelIdeal.main_arg0) : Vec Ideal Cert.KernelIdeal.S50000x128 .f32) (ix2 n d)) (xp m c)
    (fun k d => (m ((c.tc : Thread Cert.KernelIdeal.nD Cert.KernelIdeal.τ).loc Cert.KernelIdeal.main_arg4) : Vec Ideal Cert.KernelIdeal.S128x128 .f32) (ix2 k d)) (fun d => (m ((c.tc : Thread Cert.KernelIdeal.nD Cert.KernelIdeal.τ).loc Cert.KernelIdeal.main_arg5) : Vec Ideal Cert.KernelIdeal.S128 .f32) (ix1 d))
    (fun k d => (m ((c.tc : Thread Cert.KernelIdeal.nD Cert.KernelIdeal.τ).loc Cert.KernelIdeal.main_arg6) : Vec Ideal Cert.KernelIdeal.S128x128 .f32) (ix2 k d)) (fun d => (m ((c.tc : Thread Cert.KernelIdeal.nD Cert.KernelIdeal.τ).loc Cert.KernelIdeal.main_arg7) : Vec Ideal Cert.KernelIdeal.S128 .f32) (ix1 d))
    (fun k d => (m ((c.tc : Thread Cert.KernelIdeal.nD Cert.KernelIdeal.τ).loc Cert.KernelIdeal.main_arg8) : Vec Ideal Cert.KernelIdeal.S128x128 .f32) (ix2 k d)) (fun d => (m ((c.tc : Thread Cert.KernelIdeal.nD Cert.KernelIdeal.τ).loc Cert.KernelIdeal.main_arg9) : Vec Ideal Cert.KernelIdeal.S128 .f32) (ix1 d))
    row col (rowp m c) (colp m c)
    (fun e => Cert.ReferenceIdeal.Read.val_main_v32 (F := Ideal) (m ((c.tc : Thread Cert.KernelIdeal.nD Cert.KernelIdeal.τ).loc Cert.KernelIdeal.main_arg1)) (ix1 e)) (nmp m c)
    (Cert.Spec.mm (fun e k => (m ((c.tc : Thread Cert.KernelIdeal.nD Cert.KernelIdeal.τ).loc Cert.KernelIdeal.main_arg2) : Vec Ideal Cert.KernelIdeal.S800000x16 .f32) (ix2 e k))
          (fun k d => (m ((c.tc : Thread Cert.KernelIdeal.nD Cert.KernelIdeal.τ).loc Cert.KernelIdeal.main_arg3) : Vec Ideal Cert.KernelIdeal.S16x128 .f32) (ix2 k d))) (eap m c)
    (xp_real m c)
    (fun e => (rowp_real m c e).trans (hrowN e))
    (fun e => (colp_real m c e).trans (hcolN e))
    (fun e => (nmp_real m c e).trans (congrFun (Cert.NormEq.normK_eq_val_main_v32_ideal _) (ix1 e)))
    (nmp_pad m c)
    (eap_real m c) n d).symm

end Results

end Cert.Agree

end
-- ==== Proof.lean ====
/-
  The certificate: the kernel program (a three-layer graph convolution whose gathers and scatters are blocked one-hot
  matrix products inside ten pallas_calls) against the jnp reference, over the extended reals, for node indices in
  range.

  Frames. Each program runs to the end without a fault and leaves its arguments as launched: for the kernel
  program (read at the word level and at the ideal instance) the run of its twenty-three segments ends with every
  unscoped buffer at the last boundary's contents, and no host stretch or region writes an argument; for the
  reference its run, with the result dropped.
  Idealization. The ideal pass rewrote nothing, so there is nothing to preserve.
  Values. At the ideal instance a change of float format is the identity and a matrix product into a zero
  accumulator is the plain sum of products, so the kernel's one-hot products are exact selections: its padded
  result is three layers of  residual (+ rectifier) ∘ scatter ∘ message ∘ gather ∘ linear  on 51200 node rows and
  802816 edges, whose padding edges carry weight zero and whose padding rows no edge in range reads; restricted to
  the 50000 real rows it is the reference's three layers, the shared degree-normalisation chain being literally the
  same function of the edge list in both programs.
-/
import proofs.«177903_j22574348108073_1_alg».proof.Defs
import proofs.«177903_j22574348108073_1_alg».proof.Proof.Gen.Kernel
import proofs.«177903_j22574348108073_1_alg».proof.Proof.Gen.KernelIdeal
import proofs.«177903_j22574348108073_1_alg».proof.Proof.Gen.ReferenceIdeal
import proofs.«177903_j22574348108073_1_alg».proof.Proof.Gen.Pre_finite_inputs
import proofs.«177903_j22574348108073_1_alg».proof.Proof.KB.Run
import proofs.«177903_j22574348108073_1_alg».proof.Proof.KI.Run
import proofs.«177903_j22574348108073_1_alg».proof.Proof.RefRun
import proofs.«177903_j22574348108073_1_alg».proof.Proof.Agree
import Idealize.ShloMosaic.Adequacy
import Idealize.ShloMosaic.Init

noncomputable section

namespace Cert.Proof

open Idealize.ShloMosaic Idealize.ShloMosaic.TcCoe Idealize.SL.Sem

section
variable [hKernel : Cert.Kernel.Facts] [hKernelIdeal : Cert.KernelIdeal.Facts] [hReferenceIdeal : Cert.ReferenceIdeal.Facts]
  [hPre_finite_inputs : Cert.Pre_finite_inputs.Facts]

/-- The word-level program runs and leaves its arguments as launched. -/
theorem frame_kernel : Cert.frame_Kernel := fun m ρ _ => Cert.Kernel.Hand.frame_all (F := Bits) m ρ

/-- The idealized program runs and leaves its arguments as launched. -/
theorem frame_kernelIdeal : Cert.frame_KernelIdeal := fun m ρ _ => Cert.KernelIdeal.Hand.frame_all (F := Ideal) m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, with the node indices in range, both programs end with the same
    result: the kernel's at the slice of its padded three layers, the reference's at its three layers. -/
theorem algebraic : Cert.algebraic_KernelIdeal_ReferenceIdeal := by
  intro m ρ m' ρ' hpre hagree
  refine ⟨fun c => Cert.KernelIdeal.Hand.B11 m c (Proc.devRef .tc Cert.KernelIdeal.main_v43), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v43 (by decide)),
      (h c _ (Cert.KernelIdeal.Hand.mem_uc Cert.KernelIdeal.main_arg0 (by decide))).trans (Cert.KernelIdeal.Hand.B11_main_arg0 m c),
      (h c _ (Cert.KernelIdeal.Hand.mem_uc Cert.KernelIdeal.main_arg1 (by decide))).trans (Cert.KernelIdeal.Hand.B11_main_arg1 m c),
      (h c _ (Cert.KernelIdeal.Hand.mem_uc Cert.KernelIdeal.main_arg2 (by decide))).trans (Cert.KernelIdeal.Hand.B11_main_arg2 m c),
      (h c _ (Cert.KernelIdeal.Hand.mem_uc Cert.KernelIdeal.main_arg3 (by decide))).trans (Cert.KernelIdeal.Hand.B11_main_arg3 m c),
      (h c _ (Cert.KernelIdeal.Hand.mem_uc Cert.KernelIdeal.main_arg4 (by decide))).trans (Cert.KernelIdeal.Hand.B11_main_arg4 m c),
      (h c _ (Cert.KernelIdeal.Hand.mem_uc Cert.KernelIdeal.main_arg5 (by decide))).trans (Cert.KernelIdeal.Hand.B11_main_arg5 m c),
      (h c _ (Cert.KernelIdeal.Hand.mem_uc Cert.KernelIdeal.main_arg6 (by decide))).trans (Cert.KernelIdeal.Hand.B11_main_arg6 m c),
      (h c _ (Cert.KernelIdeal.Hand.mem_uc Cert.KernelIdeal.main_arg7 (by decide))).trans (Cert.KernelIdeal.Hand.B11_main_arg7 m c),
      (h c _ (Cert.KernelIdeal.Hand.mem_uc Cert.KernelIdeal.main_arg8 (by decide))).trans (Cert.KernelIdeal.Hand.B11_main_arg8 m c),
      (h c _ (Cert.KernelIdeal.Hand.mem_uc Cert.KernelIdeal.main_arg9 (by decide))).trans (Cert.KernelIdeal.Hand.B11_main_arg9 m c)⟩
  · refine (θ_run Cert.ReferenceIdeal.defs _ _).mono (fun r h c => ⟨(h c).1.trans ?_, (h c).2⟩)
      (Cert.ReferenceIdeal.Value.run (F := Ideal) m' ρ')
    exact Cert.Agree.results_agree m m' hpre hagree c

end

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
